-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x128 : Shape := ⟨2, ![256, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S256 .f32) (main_arg12 : FVec F S64x128 .f32) (main_arg13 : FVec F S128 .f32) (main_arg14 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S64x128 .f32 := Host.absf main_arg12
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_v63 main_v67

def fn_part2 {F : FTy → Type} [FloatOps F] (main_arg7 : FVec F S128 .f32) (main_arg8 : FVec F S128 .f32) (main_arg9 : FVec F S128x256 .f32) (main_arg10 : FVec F S256 .f32) (main_arg11 : FVec F S256 .f32) (main_arg12 : FVec F S64x128 .f32) (main_arg13 : FVec F S128 .f32) (main_arg14 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S64 .f32) (main_arg5 : FVec F S64 .f32) (main_arg6 : FVec F S64x128 .f32) (main_arg7 : FVec F S128 .f32) (main_arg8 : FVec F S128 .f32) (main_arg9 : FVec F S128x256 .f32) (main_arg10 : FVec F S256 .f32) (main_arg11 : FVec F S256 .f32) (main_arg12 : FVec F S64x128 .f32) (main_arg13 : FVec F S128 .f32) (main_arg14 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x256 .f32) (main_arg1 : FVec F S4096x4096 .f32) (main_arg2 : FVec F S256x128 .f32) (main_arg3 : FVec F S128x64 .f32) (main_arg4 : FVec F S64 .f32) (main_arg5 : FVec F S64 .f32) (main_arg6 : FVec F S64x128 .f32) (main_arg7 : FVec F S128 .f32) (main_arg8 : FVec F S128 .f32) (main_arg9 : FVec F S128x256 .f32) (main_arg10 : FVec F S256 .f32) (main_arg11 : FVec F S256 .f32) (main_arg12 : FVec F S64x128 .f32) (main_arg13 : FVec F S128 .f32) (main_arg14 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x256 : Shape := ⟨2, ![4096, 256]⟩
abbrev S4096x4096 : Shape := ⟨2, ![4096, 4096]⟩
abbrev S256x128 : Shape := ⟨2, ![256, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩
abbrev S128x128 : Shape := ⟨2, ![128, 128]⟩
abbrev S1 : Shape := ⟨1, ![1]⟩
abbrev S1x128 : Shape := ⟨2, ![1, 128]⟩
abbrev S1x64 : Shape := ⟨2, ![1, 64]⟩
abbrev S1x256 : Shape := ⟨2, ![1, 256]⟩
abbrev S4096x128 : Shape := ⟨2, ![4096, 128]⟩
abbrev S2x128 : Shape := ⟨2, ![2, 128]⟩
abbrev S2x256 : Shape := ⟨2, ![2, 256]⟩
abbrev S256x4096 : Shape := ⟨2, ![256, 4096]⟩
abbrev S256x256 : Shape := ⟨2, ![256, 256]⟩
abbrev S512x256 : Shape := ⟨2, ![512, 256]⟩
abbrev S512x4096 : Shape := ⟨2, ![512, 4096]⟩
abbrev S512x128 : Shape := ⟨2, ![512, 128]⟩

abbrev nBuf : Space → Nat
  | .hbm => 54
  | .vmem => 39
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S256, .f32⟩
  | .hbm, ⟨12, _⟩ => ⟨S64x128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128x128, .f32⟩
  | .hbm, ⟨17, _⟩ => ⟨S_, .i32⟩
  | .hbm, ⟨18, _⟩ => ⟨S1, .i32⟩
  | .hbm, ⟨19, _⟩ => ⟨S128x128, .f32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S1x64, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S1x64, .f32⟩
  | .hbm, ⟨31, _⟩ => ⟨S1x128, .f32⟩
  | .hbm, ⟨32, _⟩ => ⟨S_, .f32⟩
  | .hbm, ⟨33, _⟩ => ⟨S128x128, .f32⟩
  | .hbm, ⟨34, _⟩ => ⟨S_, .i32⟩
  | .hbm, ⟨35, _⟩ => ⟨S1, .i32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S_, .i32⟩
  | .hbm, ⟨40, _⟩ => ⟨S1, .i32⟩
  | .hbm, ⟨41, _⟩ => ⟨S128x128, .f32⟩
  | .hbm, ⟨42, _⟩ => ⟨S1x128, .f32⟩
  | .hbm, ⟨43, _⟩ => ⟨S1x128, .f32⟩
  | .hbm, ⟨44, _⟩ => ⟨S1x256, .f32⟩
  | .hbm, ⟨45, _⟩ => ⟨S1x256, .f32⟩
  | .hbm, ⟨46, _⟩ => ⟨S1x128, .f32⟩
  | .hbm, ⟨47, _⟩ => ⟨S1x128, .f32⟩
  | .hbm, ⟨48, _⟩ => ⟨S4096x256, .f32⟩
  | .hbm, ⟨49, _⟩ => ⟨S4096x128, .f32⟩
  | .hbm, ⟨50, _⟩ => ⟨S2x128, .f32⟩
  | .hbm, ⟨51, _⟩ => ⟨S2x256, .f32⟩
  | .hbm, ⟨52, _⟩ => ⟨S4096x256, .f32⟩
  | .hbm, ⟨53, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S256x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x256, .f32⟩
  | .local _ .vmem, ⟨11, _⟩ => ⟨S128x128, .f32⟩
  | .local _ .vmem, ⟨12, _⟩ => ⟨S256x256, .f32⟩
  | .local _ .vmem, ⟨13, _⟩ => ⟨S256x256, .f32⟩
  | .local _ .vmem, ⟨14, _⟩ => ⟨S256x128, .f32⟩
  | .local _ .vmem, ⟨15, _⟩ => ⟨S256x128, .f32⟩
  | .local _ .vmem, ⟨16, _⟩ => ⟨S2x128, .f32⟩
  | .local _ .vmem, ⟨17, _⟩ => ⟨S2x256, .f32⟩
  | .local _ .vmem, ⟨18, _⟩ => ⟨S4096x4096, .bf16⟩
  | .local _ .vmem, ⟨19, _⟩ => ⟨S4096x256, .bf16⟩
  | .local _ .vmem, ⟨20, _⟩ => ⟨S4096x128, .f32⟩
  | .local _ .vmem, ⟨21, _⟩ => ⟨S4096x128, .f32⟩
  | .local _ .vmem, ⟨22, _⟩ => ⟨S4096x256, .f32⟩
  | .local _ .vmem, ⟨23, _⟩ => ⟨S1x256, .f32⟩
  | .local _ .vmem, ⟨24, _⟩ => ⟨S1x256, .f32⟩
  | .local _ .vmem, ⟨25, _⟩ => ⟨S4096x128, .f32⟩
  | .local _ .vmem, ⟨26, _⟩ => ⟨S2x128, .f32⟩
  | .local _ .vmem, ⟨27, _⟩ => ⟨S1x128, .f32⟩
  | .local _ .vmem, ⟨28, _⟩ => ⟨S1x128, .f32⟩
  | .local _ .vmem, ⟨29, _⟩ => ⟨S512x256, .f32⟩
  | .local _ .vmem, ⟨30, _⟩ => ⟨S512x256, .f32⟩
  | .local _ .vmem, ⟨31, _⟩ => ⟨S2x256, .f32⟩
  | .local _ .vmem, ⟨32, _⟩ => ⟨S1x256, .f32⟩
  | .local _ .vmem, ⟨33, _⟩ => ⟨S1x256, .f32⟩
  | .local _ .vmem, ⟨34, _⟩ => ⟨S512x256, .f32⟩
  | .local _ .vmem, ⟨35, _⟩ => ⟨S512x256, .f32⟩
  | .local _ .vmem, ⟨36, _⟩ => ⟨S512x4096, .f32⟩
  | .local _ .vmem, ⟨37, _⟩ => ⟨S512x4096, .f32⟩
  | .local _ .vmem, ⟨38, _⟩ => ⟨S4096x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_c_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_c_3 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev main_c_5 : Ref sig .tc := ⟨.hbm, 34, rfl⟩
abbrev main_v12 : Ref sig .tc := ⟨.hbm, 35, rfl⟩
abbrev main_v13 : Ref sig .tc := ⟨.hbm, 36, rfl⟩
abbrev main_cst_6 : Ref sig .tc := ⟨.hbm, 37, rfl⟩
abbrev main_v14 : Ref sig .tc := ⟨.hbm, 38, rfl⟩
abbrev main_c_7 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev main_v23_2 : Ref sig .tc := ⟨.hbm, 50, rfl⟩
abbrev main_v23_3 : Ref sig .tc := ⟨.hbm, 51, rfl⟩
abbrev main_v24_0 : Ref sig .tc := ⟨.hbm, 52, rfl⟩
abbrev main_v24_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc1_stg0_0 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg4_1 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem14_0 : DmaSem sig := 17
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28
abbrev cc1_sem9_0 : DmaSem sig := 29
abbrev cc1_sem9_1 : DmaSem sig := 30

abbrev nD : Nat := 1
abbrev τ : Topo := Topo.v7x

variable {F : FTy → Type} [FloatOps F]

abbrev grid0 : Pipeline.Grid := ⟨2, ![4, 16], ![false, false]⟩

def k0_cond6 (i : grid0.Coords) : BitVec 1 :=
  let arg0 : BitVec 32 := BitVec.ofNat 32 (i 0).val
  let c0_i32_10 : BitVec 32 := 0#32
  let v24 : BitVec 1 := Scalar.cmpi .eq arg0 c0_i32_10
  let v25 : BitVec 32 := Scalar.extui v24
  let c0_i32_11 : BitVec 32 := 0#32
  let v26 : BitVec 1 := Scalar.cmpi .ne v25 c0_i32_11
  v26

def k0_off1 (i : grid0.Coords) : Fin 2 → Nat :=
  let arg1 : BitVec 32 := BitVec.ofNat 32 (i 1).val
  let c256_i32 : BitVec 32 := 256#32
  let v23 : BitVec 32 := Scalar.muli arg1 c256_i32
  let v43 : Index := Scalar.indexCast v23
  let c0_21 : Index := 0#32
  ![v43.toNat, 0]
def k0_off2 (i : grid0.Coords) : Fin 2 → Nat :=
  let arg1 : BitVec 32 := BitVec.ofNat 32 (i 1).val
  let c256_i32 : BitVec 32 := 256#32
  let v23 : BitVec 32 := Scalar.muli arg1 c256_i32
  let v53 : Index := Scalar.indexCast v23
  let c0_26 : Index := 0#32
  ![v53.toNat, 0]
def k0_cond7 (i : grid0.Coords) : BitVec 1 :=
  let arg0 : BitVec 32 := BitVec.ofNat 32 (i 0).val
  let c1_i32_12 : BitVec 32 := 1#32
  let v27 : BitVec 1 := Scalar.cmpi .eq arg0 c1_i32_12
  let v28 : BitVec 32 := Scalar.extui v27
  let c0_i32_13 : BitVec 32 := 0#32
  let v29 : BitVec 1 := Scalar.cmpi .ne v28 c0_i32_13
  v29

def k0_off3 (i : grid0.Coords) : Fin 2 → Nat :=
  let arg1 : BitVec 32 := BitVec.ofNat 32 (i 1).val
  let c256_i32 : BitVec 32 := 256#32
  let v23 : BitVec 32 := Scalar.muli arg1 c256_i32
  let v41 : Index := Scalar.indexCast v23
  let c0 : Index := 0#32
  ![v41.toNat, 0]
def k0_off4 (i : grid0.Coords) : Fin 2 → Nat :=
  let arg1 : BitVec 32 := BitVec.ofNat 32 (i 1).val
  let c256_i32 : BitVec 32 := 256#32
  let v23 : BitVec 32 := Scalar.muli arg1 c256_i32
  let v47 : Index := Scalar.indexCast v23
  let c0_23 : Index := 0#32
  ![v47.toNat, 0]
def k0_cond8 (i : grid0.Coords) : BitVec 1 :=
  let arg0 : BitVec 32 := BitVec.ofNat 32 (i 0).val
  let c2_i32_14 : BitVec 32 := 2#32
  let v30 : BitVec 1 := Scalar.cmpi .eq arg0 c2_i32_14
  let v31 : BitVec 32 := Scalar.extui v30
  let c0_i32_15 : BitVec 32 := 0#32
  let v32 : BitVec 1 := Scalar.cmpi .ne v31 c0_i32_15
  v32

def k0_off5 (i : grid0.Coords) : Fin 2 → Nat :=
  let arg1 : BitVec 32 := BitVec.ofNat 32 (i 1).val
  let c256_i32 : BitVec 32 := 256#32
  let v23 : BitVec 32 := Scalar.muli arg1 c256_i32
  let v41 : Index := Scalar.indexCast v23
  let c0 : Index := 0#32
  ![v41.toNat, 0]
def k0_off6 (i : grid0.Coords) : Fin 2 → Nat :=
  let arg1 : BitVec 32 := BitVec.ofNat 32 (i 1).val
  let c256_i32 : BitVec 32 := 256#32
  let v23 : BitVec 32 := Scalar.muli arg1 c256_i32
  let v47 : Index := Scalar.indexCast v23
  let c0_23 : Index := 0#32
  ![v47.toNat, 0]
def k0_cond9 (i : grid0.Coords) : BitVec 1 :=
  let arg0 : BitVec 32 := BitVec.ofNat 32 (i 0).val
  let c3_i32_16 : BitVec 32 := 3#32
  let v33 : BitVec 1 := Scalar.cmpi .eq arg0 c3_i32_16
  let v34 : BitVec 32 := Scalar.extui v33
  let c0_i32_17 : BitVec 32 := 0#32
  let v35 : BitVec 1 := Scalar.cmpi .ne v34 c0_i32_17
  v35

def k0_off7 (i : grid0.Coords) : Fin 2 → Nat :=
  let arg1 : BitVec 32 := BitVec.ofNat 32 (i 1).val
  let c256_i32 : BitVec 32 := 256#32
  let v23 : BitVec 32 := Scalar.muli arg1 c256_i32
  let v41 : Index := Scalar.indexCast v23
  let c0 : Index := 0#32
  ![v41.toNat, 0]
def k0_off8 (i : grid0.Coords) : Fin 2 → Nat :=
  let arg1 : BitVec 32 := BitVec.ofNat 32 (i 1).val
  let c256_i32 : BitVec 32 := 256#32
  let v23 : BitVec 32 := Scalar.muli arg1 c256_i32
  let v48 : Index := Scalar.indexCast v23
  let c128 : Index := 128#32
  ![v48.toNat, 128]
def k0_cond4 (i : grid0.Coords) : BitVec 1 :=
  let arg0 : BitVec 32 := BitVec.ofNat 32 (i 0).val
  let c3_i32 : BitVec 32 := 3#32
  let v15 : BitVec 1 := Scalar.cmpi .eq arg0 c3_i32
  let arg1 : BitVec 32 := BitVec.ofNat 32 (i 1).val
  let c0_i32_6 : BitVec 32 := 0#32
  let v16 : BitVec 1 := Scalar.cmpi .eq arg1 c0_i32_6
  let v17 : BitVec 1 := Scalar.andi v15 v16
  let v18 : BitVec 32 := Scalar.extui v17
  let c0_i32_7 : BitVec 32 := 0#32
  let v19 : BitVec 1 := Scalar.cmpi .ne v18 c0_i32_7
  v19

def k0_cond10 (i : grid0.Coords) : BitVec 1 :=
  let arg0 : BitVec 32 := BitVec.ofNat 32 (i 0).val
  let c3_i32_18 : BitVec 32 := 3#32
  let v36 : BitVec 1 := Scalar.cmpi .eq arg0 c3_i32_18
  let arg1 : BitVec 32 := BitVec.ofNat 32 (i 1).val
  let c15_i32 : BitVec 32 := 15#32
  let v37 : BitVec 1 := Scalar.cmpi .eq arg1 c15_i32
  let v38 : BitVec 1 := Scalar.andi v36 v37
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S2x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x4096 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  bcast_S64_S1x64_1 : S64.BroadcastsInDim S1x64 (![1] : Fin 1 → Fin S1x64.rank)
  shapeCasts_S128_S1x128 : S128.ShapeCasts S1x128
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S4096x256_S4096x128_0_0 : ∀ a, (![0, 0] : Fin 2 → Nat) a + S4096x128.size a ≤ S4096x256.size a
  h_S4096x128 : 0 < S4096x128.numel
  shapeCasts_S4096x128_S4096x128 : S4096x128.ShapeCasts S4096x128
  packedbf16_S4096x256_S4096x128_0_0 : (Rect.unit (s := S4096x256) ![0, 0] S4096x128.size inb_S4096x256_S4096x128_0_0).PackedRows (EltTy.packing .bf16)
  inb_S4096x128_S4096x128_0_0 : ∀ a, (![0, 0] : Fin 2 → Nat) a + S4096x128.size a ≤ S4096x128.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x256_S1x128_0_0 : ∀ a, (![0, 0] : Fin 2 → Nat) a + S1x128.size a ≤ S1x256.size a
  h_S1x128 : 0 < S1x128.numel
  inb_S1x128_S1x128_0_0 : ∀ a, (![0, 0] : Fin 2 → Nat) a + S1x128.size a ≤ S1x128.size a
  shapeCasts_S1x128_S1x128 : S1x128.ShapeCasts S1x128
  broadcasts_S1x128_S4096x128 : S1x128.Broadcasts S4096x128
  inb_S4096x256_S4096x128_0_128 : ∀ a, (![0, 128] : Fin 2 → Nat) a + S4096x128.size a ≤ S4096x256.size a
  packedbf16_S4096x256_S4096x128_0_128 : (Rect.unit (s := S4096x256) ![0, 128] S4096x128.size inb_S4096x256_S4096x128_0_128).PackedRows (EltTy.packing .bf16)
  inb_S1x256_S1x128_0_128 : ∀ a, (![0, 128] : Fin 2 → Nat) a + S1x128.size a ≤ S1x256.size a
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  inb_S128x256_S128x256_0_0 : ∀ a, (![0, 0] : Fin 2 → Nat) a + S128x256.size a ≤ S128x256.size a
  h_S128x256 : 0 < S128x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S256x128_S256x128 : S256x128.ShapeCasts S256x128
  reduces_S256x128_S128 : S256x128.Reduces [0] S128
  h_S256x256 : 0 < S256x256.numel
  shapeCasts_S256x256_S256x256 : S256x256.ShapeCasts S256x256
  reduces_S256x256_S256 : S256x256.Reduces [0] S256
  inb_S256x256_S256x256_0_0 : ∀ a, (![0, 0] : Fin 2 → Nat) a + S256x256.size a ≤ S256x256.size a
  inb_S2x256_S1x256_0_0 : ∀ a, (![0, 0] : Fin 2 → Nat) a + S1x256.size a ≤ S2x256.size a
  inb_S2x256_S1x256_1_0 : ∀ a, (![1, 0] : Fin 2 → Nat) a + S1x256.size a ≤ S2x256.size a
  h_S512x128 : 0 < S512x128.numel
  inb_S512x4096_S512x4096_0_0 : ∀ a, (![0, 0] : Fin 2 → Nat) a + S512x4096.size a ≤ S512x4096.size a
  h_S512x4096 : 0 < S512x4096.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1x256_S512x256 : S1x256.Broadcasts S512x256
  scatter_S128x128_S1_S128x64_01_n_1_0_wf : ScatterDims.WF S128x128 S1 S128x64 [0, 1] [] [1] 0
  scatter_S1x128_S1_S1x64_01_n_1_0_wf : ScatterDims.WF S1x128 S1 S1x64 [0, 1] [] [1] 0
  scatter_S128x128_S1_S64x128_01_n_0_0_wf : ScatterDims.WF S128x128 S1 S64x128 [0, 1] [] [0] 0
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  dot_S4096x128_S128x256_S4096x256_1_0_0_1_n_n_wf : DotDims.WF S4096x128 S128x256 S4096x256 [1] [0] [0] [1] [] []
  dot_S256x4096_S4096x128_S256x128_1_0_0_1_n_n_wf : DotDims.WF S256x4096 S4096x128 S256x128 [1] [0] [0] [1] [] []
  dot_S256x4096_S4096x256_S256x256_1_0_0_1_n_n_wf : DotDims.WF S256x4096 S4096x256 S256x256 [1] [0] [0] [1] [] []
  dot_S512x128_S4096x128_S512x4096_1_1_0_0_n_n_wf : DotDims.WF S512x128 S4096x128 S512x4096 [1] [1] [0] [0] [] []
  hrank0 : 0 < grid0.rank
  k0_off1_inb : ∀ i : grid0.Coords, ∀ (k0_h6 : k0_cond6 i = 1#1), ∀ a, (k0_off1 i) a + S256x4096.size a ≤ S4096x4096.size a
  k0_off1_packedbf16 : ∀ i : grid0.Coords, ∀ (k0_h6 : k0_cond6 i = 1#1), (Rect.unit (s := S4096x4096) (k0_off1 i) S256x4096.size (k0_off1_inb i k0_h6)).PackedRows (EltTy.packing .bf16)
  k0_off2_inb : ∀ i : grid0.Coords, ∀ (k0_h6 : k0_cond6 i = 1#1), ∀ a, (k0_off2 i) a + S256x128.size a ≤ S4096x128.size a
  k0_off3_inb : ∀ i : grid0.Coords, ∀ (k0_h7 : k0_cond7 i = 1#1), ∀ a, (k0_off3 i) a + S256x4096.size a ≤ S4096x4096.size a
  k0_off4_inb : ∀ i : grid0.Coords, ∀ (k0_h7 : k0_cond7 i = 1#1), ∀ a, (k0_off4 i) a + S256x128.size a ≤ S4096x128.size a
  k0_off5_inb : ∀ i : grid0.Coords, ∀ (k0_h8 : k0_cond8 i = 1#1), ∀ a, (k0_off5 i) a + S256x4096.size a ≤ S4096x4096.size a
  k0_off6_inb : ∀ i : grid0.Coords, ∀ (k0_h8 : k0_cond8 i = 1#1), ∀ a, (k0_off6 i) a + S256x256.size a ≤ S4096x256.size a
  k0_off7_inb : ∀ i : grid0.Coords, ∀ (k0_h9 : k0_cond9 i = 1#1), ∀ a, (k0_off7 i) a + S256x4096.size a ≤ S4096x4096.size a
  k0_off8_inb : ∀ i : grid0.Coords, ∀ (k0_h9 : k0_cond9 i = 1#1), ∀ a, (k0_off8 i) a + S256x128.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .f32 = 32 ∨ (Rect.block (s := S128x256) S128x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S4096x256.size a
  hwx0_11 : ∀ i : grid0.Coords, EltTy.bits .f32 = 32 ∨ (Rect.block (s := S4096x256) S256x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x128.size a ≤ S4096x128.size a
  hwx0_12 : ∀ i : grid0.Coords, EltTy.bits .f32 = 32 ∨ (Rect.block (s := S4096x128) S256x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x128.size a ≤ S2x128.size a
  hwx0_13 : ∀ i : grid0.Coords, EltTy.bits .f32 = 32 ∨ (Rect.block (s := S2x128) S2x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2x256.size a ≤ S2x256.size a
  hwx0_14 : ∀ i : grid0.Coords, EltTy.bits .f32 = 32 ∨ (Rect.block (s := S2x256) S2x256.size (cc0_transform_14 i) (hinb0_14 i)).WholeWords (EltTy.packing .f32)
  hrank1 : 0 < grid1.rank
  k1_off1_inb : ∀ i : grid1.Coords, ∀ a, (k1_off1 i) a + S512x128.size a ≤ S4096x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .f32 = 32 ∨ (Rect.block (s := S4096x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S4096x256.size a
  hwx1_4 : ∀ i : grid1.Coords, EltTy.bits .f32 = 32 ∨ (Rect.block (s := S4096x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x256.size a ≤ S2x256.size a
  hwx1_5 : ∀ i : grid1.Coords, EltTy.bits .f32 = 32 ∨ (Rect.block (s := S2x256) S2x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x256.size a ≤ S4096x256.size a
  hwx1_8 : ∀ i : grid1.Coords, EltTy.bits .f32 = 32 ∨ (Rect.block (s := S4096x256) S512x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x4096.size a ≤ S4096x4096.size a
  hwx1_9 : ∀ i : grid1.Coords, EltTy.bits .f32 = 32 ∨ (Rect.block (s := S4096x4096) S512x4096.size (cc1_transform_9 i) (hinb1_9 i)).WholeWords (EltTy.packing .f32)

variable [Facts₀]

def scatter_S128x128_S1_S128x64_01_n_1_0 : ScatterDims S128x128 S1 S128x64 where
  updateWindowDims := [0, 1]
  insertedWindowDims := []
  scatterDimsToOperandDims := [1]
  indexVectorDim := 0
  wf := scatter_S128x128_S1_S128x64_01_n_1_0_wf
def scatter_S1x128_S1_S1x64_01_n_1_0 : ScatterDims S1x128 S1 S1x64 where
  updateWindowDims := [0, 1]
  insertedWindowDims := []
  scatterDimsToOperandDims := [1]
  indexVectorDim := 0
  wf := scatter_S1x128_S1_S1x64_01_n_1_0_wf
def scatter_S128x128_S1_S64x128_01_n_0_0 : ScatterDims S128x128 S1 S64x128 where
  updateWindowDims := [0, 1]
  insertedWindowDims := []
  scatterDimsToOperandDims := [0]
  indexVectorDim := 0
  wf := scatter_S128x128_S1_S64x128_01_n_0_0_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23_0) S256x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v23_1) S256x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v23_2) S2x128.size cc0_transform_13 reads0_13 true true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23_3) S2x256.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond9 i == 1#1) | 12 => fun i => !(k0_cond9 i == 1#1) | 13 => fun i => !(k0_cond4 i == 1#1) | 14 => fun i => !(k0_cond10 i == 1#1) | ⟨_ + 15, h⟩ => absurd h (Nat.not_lt.2 (Nat.le_add_left _ _))

abbrev win1_0 : Pipeline.Window sig grid1 :=
  Pipeline.Window.ofSpec (Memref.whole main_v23_1) S4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v23_2) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23_0) S512x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23_3) S2x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24_0) S512x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v24_1) S512x4096.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x128 : Shape := ⟨2, ![256, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S4096x128 : Shape := ⟨2, ![4096, 128]⟩
abbrev S_ : Shape := ⟨0, ![]⟩
abbrev S4096x64 : Shape := ⟨2, ![4096, 64]⟩
abbrev S1x64 : Shape := ⟨2, ![1, 64]⟩
abbrev S1x128 : Shape := ⟨2, ![1, 128]⟩
abbrev S1x256 : Shape := ⟨2, ![1, 256]⟩
abbrev S128x4096 : Shape := ⟨2, ![128, 4096]⟩

abbrev nBuf : Space → Nat
  | .hbm => 218
  | .vmem => 0
  | .smem => 0
  | _ => 0

abbrev hbmTy0_0 (i : Nat) : BufTy := match i % 128 with
  | 0 => ⟨S4096x256, .f32⟩
  | 1 => ⟨S4096x4096, .f32⟩
  | 2 => ⟨S256x128, .f32⟩
  | 3 => ⟨S128x64, .f32⟩
  | 4 => ⟨S64, .f32⟩
  | 5 => ⟨S64, .f32⟩
  | 6 => ⟨S64x128, .f32⟩
  | 7 => ⟨S128, .f32⟩
  | 8 => ⟨S128, .f32⟩
  | 9 => ⟨S128x256, .f32⟩
  | 10 => ⟨S256, .f32⟩
  | 11 => ⟨S256, .f32⟩
  | 12 => ⟨S64x128, .f32⟩
  | 13 => ⟨S128, .f32⟩
  | 14 => ⟨S128, .f32⟩
  | 15 => ⟨S4096x128, .f32⟩
  | 16 => ⟨S4096x128, .f32⟩
  | 17 => ⟨S_, .f32⟩
  | 18 => ⟨S4096x128, .f32⟩
  | 19 => ⟨S4096x128, .f32⟩
  | 20 => ⟨S4096x64, .f32⟩
  | 21 => ⟨S4096x64, .f32⟩
  | 22 => ⟨S_, .f32⟩
  | 23 => ⟨S4096x64, .f32⟩
  | 24 => ⟨S4096x64, .f32⟩
  | 25 => ⟨S_, .f32⟩
  | 26 => ⟨S64, .f32⟩
  | 27 => ⟨S_, .f32⟩
  | 28 => ⟨S64, .f32⟩
  | 29 => ⟨S64, .f32⟩
  | 30 => ⟨S_, .i32⟩
  | 31 => ⟨S_, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S4096x64, .f32⟩
  | 38 => ⟨S4096x64, .f32⟩
  | 39 => ⟨S4096x64, .f32⟩
  | 40 => ⟨S_, .f32⟩
  | 41 => ⟨S_, .f32⟩
  | 42 => ⟨S_, .f32⟩
  | 43 => ⟨S_, .f32⟩
  | 44 => ⟨S64, .f32⟩
  | 45 => ⟨S64, .f32⟩
  | 46 => ⟨S64, .f32⟩
  | 47 => ⟨S_, .f32⟩
  | 48 => ⟨S_, .i1⟩
  | 49 => ⟨S_, .f32⟩
  | 50 => ⟨S_, .f32⟩
  | 51 => ⟨S64, .f32⟩
  | 52 => ⟨S64, .f32⟩
  | 53 => ⟨S1x64, .f32⟩
  | 54 => ⟨S4096x64, .f32⟩
  | 55 => ⟨S4096x64, .f32⟩
  | 56 => ⟨S1x64, .f32⟩
  | 57 => ⟨S4096x64, .f32⟩
  | 58 => ⟨S4096x64, .f32⟩
  | 59 => ⟨S_, .f32⟩
  | 60 => ⟨S64, .f32⟩
  | 61 => ⟨S64, .f32⟩
  | 62 => ⟨S64, .f32⟩
  | 63 => ⟨S1x64, .f32⟩
  | 64 => ⟨S4096x64, .f32⟩
  | 65 => ⟨S4096x64, .f32⟩
  | 66 => ⟨S1x64, .f32⟩
  | 67 => ⟨S4096x64, .f32⟩
  | 68 => ⟨S4096x64, .f32⟩
  | 69 => ⟨S4096x128, .f32⟩
  | 70 => ⟨S4096x128, .f32⟩
  | 71 => ⟨S_, .f32⟩
  | 72 => ⟨S4096x128, .f32⟩
  | 73 => ⟨S4096x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S4096x128, .f32⟩
  | 87 => ⟨S4096x128, .f32⟩
  | 88 => ⟨S4096x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S4096x128, .f32⟩
  | 104 => ⟨S4096x128, .f32⟩
  | 105 => ⟨S1x128, .f32⟩
  | 106 => ⟨S4096x128, .f32⟩
  | 107 => ⟨S4096x128, .f32⟩
  | 108 => ⟨S_, .f32⟩
  | 109 => ⟨S128, .f32⟩
  | 110 => ⟨S128, .f32⟩
  | 111 => ⟨S128, .f32⟩
  | 112 => ⟨S1x128, .f32⟩
  | 113 => ⟨S4096x128, .f32⟩
  | 114 => ⟨S4096x128, .f32⟩
  | 115 => ⟨S1x128, .f32⟩
  | 116 => ⟨S4096x128, .f32⟩
  | 117 => ⟨S4096x128, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S256, .f32⟩
  | 125 => ⟨S_, .f32⟩
  | 126 => ⟨S256, .f32⟩
  | 127 => ⟨S256, .f32⟩
  | _ => ⟨S4096x256, .f32⟩

abbrev hbmTy0_1 (i : Nat) : BufTy := match i % 128 with
  | 0 => ⟨S_, .i32⟩
  | 1 => ⟨S_, .f32⟩
  | 2 => ⟨S256, .f32⟩
  | 3 => ⟨S1x256, .f32⟩
  | 4 => ⟨S_, .f32⟩
  | 5 => ⟨S1x256, .f32⟩
  | 6 => ⟨S1x256, .f32⟩
  | 7 => ⟨S4096x256, .f32⟩
  | 8 => ⟨S4096x256, .f32⟩
  | 9 => ⟨S4096x256, .f32⟩
  | 10 => ⟨S_, .f32⟩
  | 11 => ⟨S_, .f32⟩
  | 12 => ⟨S_, .f32⟩
  | 13 => ⟨S_, .f32⟩
  | 14 => ⟨S256, .f32⟩
  | 15 => ⟨S256, .f32⟩
  | 16 => ⟨S256, .f32⟩
  | 17 => ⟨S_, .f32⟩
  | 18 => ⟨S_, .i1⟩
  | 19 => ⟨S_, .f32⟩
  | 20 => ⟨S_, .f32⟩
  | 21 => ⟨S256, .f32⟩
  | 22 => ⟨S256, .f32⟩
  | 23 => ⟨S1x256, .f32⟩
  | 24 => ⟨S4096x256, .f32⟩
  | 25 => ⟨S4096x256, .f32⟩
  | 26 => ⟨S1x256, .f32⟩
  | 27 => ⟨S4096x256, .f32⟩
  | 28 => ⟨S4096x256, .f32⟩
  | 29 => ⟨S_, .f32⟩
  | 30 => ⟨S256, .f32⟩
  | 31 => ⟨S256, .f32⟩
  | 32 => ⟨S256, .f32⟩
  | 33 => ⟨S1x256, .f32⟩
  | 34 => ⟨S4096x256, .f32⟩
  | 35 => ⟨S4096x256, .f32⟩
  | 36 => ⟨S1x256, .f32⟩
  | 37 => ⟨S4096x256, .f32⟩
  | 38 => ⟨S4096x256, .f32⟩
  | 39 => ⟨S4096x128, .f32⟩
  | 40 => ⟨S4096x128, .f32⟩
  | 41 => ⟨S_, .f32⟩
  | 42 => ⟨S4096x128, .f32⟩
  | 43 => ⟨S4096x128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S4096x128, .f32⟩
  | 57 => ⟨S4096x128, .f32⟩
  | 58 => ⟨S4096x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S4096x128, .f32⟩
  | 74 => ⟨S4096x128, .f32⟩
  | 75 => ⟨S1x128, .f32⟩
  | 76 => ⟨S4096x128, .f32⟩
  | 77 => ⟨S4096x128, .f32⟩
  | 78 => ⟨S_, .f32⟩
  | 79 => ⟨S128, .f32⟩
  | 80 => ⟨S128, .f32⟩
  | 81 => ⟨S128, .f32⟩
  | 82 => ⟨S1x128, .f32⟩
  | 83 => ⟨S4096x128, .f32⟩
  | 84 => ⟨S4096x128, .f32⟩
  | 85 => ⟨S1x128, .f32⟩
  | 86 => ⟨S4096x128, .f32⟩
  | 87 => ⟨S4096x128, .f32⟩
  | 88 => ⟨S128x4096, .f32⟩
  | 89 => ⟨S4096x4096, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_cst : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_cst : Ref sig .tc := ⟨.hbm, 22, rfl⟩
abbrev main_call1_v0 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_c : Ref sig .tc := ⟨.hbm, 30, rfl⟩
abbrev main_call2_cst : Ref sig .tc := ⟨.hbm, 31, rfl⟩
abbrev main_call2_v0 : Ref sig .tc := ⟨.hbm, 32, rfl⟩
abbrev main_call2_v1 : Ref sig .tc := ⟨.hbm, 33, rfl⟩
abbrev main_call2_cst_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_cst_1 : Ref sig .tc := ⟨.hbm, 41, rfl⟩
abbrev main_call2_v8 : Ref sig .tc := ⟨.hbm, 42, rfl⟩
abbrev main_call2_cst_2 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_cst_3 : Ref sig .tc := ⟨.hbm, 47, rfl⟩
abbrev main_call2_v12 : Ref sig .tc := ⟨.hbm, 48, rfl⟩
abbrev main_call2_cst_4 : Ref sig .tc := ⟨.hbm, 49, rfl⟩
abbrev main_call2_call0_v0 : Ref sig .tc := ⟨.hbm, 50, rfl⟩
abbrev main_call2_call0_v1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_cst_1 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_call3_cst : Ref sig .tc := ⟨.hbm, 71, rfl⟩
abbrev main_call3_v0 : Ref sig .tc := ⟨.hbm, 72, rfl⟩
abbrev main_v27 : Ref sig .tc := ⟨.hbm, 73, rfl⟩
abbrev main_cst_2 : Ref sig .tc := ⟨.hbm, 74, rfl⟩
abbrev main_v28 : Ref sig .tc := ⟨.hbm, 75, rfl⟩
abbrev main_cst_3 : Ref sig .tc := ⟨.hbm, 76, rfl⟩
abbrev main_v29 : Ref sig .tc := ⟨.hbm, 77, rfl⟩
abbrev main_v30 : Ref sig .tc := ⟨.hbm, 78, rfl⟩
abbrev main_c_4 : Ref sig .tc := ⟨.hbm, 79, rfl⟩
abbrev main_call4_cst : Ref sig .tc := ⟨.hbm, 80, rfl⟩
abbrev main_call4_v0 : Ref sig .tc := ⟨.hbm, 81, rfl⟩
abbrev main_call4_v1 : Ref sig .tc := ⟨.hbm, 82, rfl⟩
abbrev main_call4_cst_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_v6 : Ref sig .tc := ⟨.hbm, 88, rfl⟩
abbrev main_call4_v7 : Ref sig .tc := ⟨.hbm, 89, rfl⟩
abbrev main_call4_cst_1 : Ref sig .tc := ⟨.hbm, 90, rfl⟩
abbrev main_call4_v8 : Ref sig .tc := ⟨.hbm, 91, rfl⟩
abbrev main_call4_cst_2 : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_cst_3 : Ref sig .tc := ⟨.hbm, 96, rfl⟩
abbrev main_call4_v12 : Ref sig .tc := ⟨.hbm, 97, rfl⟩
abbrev main_call4_cst_4 : Ref sig .tc := ⟨.hbm, 98, rfl⟩
abbrev main_call4_call0_v0 : Ref sig .tc := ⟨.hbm, 99, rfl⟩
abbrev main_call4_call0_v1 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_cst_5 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_call5_cst : Ref sig .tc := ⟨.hbm, 120, rfl⟩
abbrev main_call5_v0 : Ref sig .tc := ⟨.hbm, 121, rfl⟩
abbrev main_v49 : Ref sig .tc := ⟨.hbm, 122, rfl⟩
abbrev main_cst_6 : Ref sig .tc := ⟨.hbm, 123, rfl⟩
abbrev main_v50 : Ref sig .tc := ⟨.hbm, 124, rfl⟩
abbrev main_cst_7 : Ref sig .tc := ⟨.hbm, 125, rfl⟩
abbrev main_v51 : Ref sig .tc := ⟨.hbm, 126, rfl⟩
abbrev main_v52 : Ref sig .tc := ⟨.hbm, 127, rfl⟩
abbrev main_c_8 : Ref sig .tc := ⟨.hbm, 128, rfl⟩
abbrev main_call6_cst : Ref sig .tc := ⟨.hbm, 129, rfl⟩
abbrev main_call6_v0 : Ref sig .tc := ⟨.hbm, 130, rfl⟩
abbrev main_call6_v1 : Ref sig .tc := ⟨.hbm, 131, rfl⟩
abbrev main_call6_cst_0 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_call6_v5 : Ref sig .tc := ⟨.hbm, 136, rfl⟩
abbrev main_call6_v6 : Ref sig .tc := ⟨.hbm, 137, rfl⟩
abbrev main_call6_v7 : Ref sig .tc := ⟨.hbm, 138, rfl⟩
abbrev main_call6_cst_1 : Ref sig .tc := ⟨.hbm, 139, rfl⟩
abbrev main_call6_v8 : Ref sig .tc := ⟨.hbm, 140, rfl⟩
abbrev main_call6_cst_2 : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_call6_cst_3 : Ref sig .tc := ⟨.hbm, 145, rfl⟩
abbrev main_call6_v12 : Ref sig .tc := ⟨.hbm, 146, rfl⟩
abbrev main_call6_cst_4 : Ref sig .tc := ⟨.hbm, 147, rfl⟩
abbrev main_call6_call0_v0 : Ref sig .tc := ⟨.hbm, 148, rfl⟩
abbrev main_call6_call0_v1 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_cst_9 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_call7_cst : Ref sig .tc := ⟨.hbm, 169, rfl⟩
abbrev main_call7_v0 : Ref sig .tc := ⟨.hbm, 170, rfl⟩
abbrev main_v71 : Ref sig .tc := ⟨.hbm, 171, rfl⟩
abbrev main_cst_10 : Ref sig .tc := ⟨.hbm, 172, rfl⟩
abbrev main_v72 : Ref sig .tc := ⟨.hbm, 173, rfl⟩
abbrev main_cst_11 : Ref sig .tc := ⟨.hbm, 174, rfl⟩
abbrev main_v73 : Ref sig .tc := ⟨.hbm, 175, rfl⟩
abbrev main_v74 : Ref sig .tc := ⟨.hbm, 176, rfl⟩
abbrev main_c_12 : Ref sig .tc := ⟨.hbm, 177, rfl⟩
abbrev main_call8_cst : Ref sig .tc := ⟨.hbm, 178, rfl⟩
abbrev main_call8_v0 : Ref sig .tc := ⟨.hbm, 179, rfl⟩
abbrev main_call8_v1 : Ref sig .tc := ⟨.hbm, 180, rfl⟩
abbrev main_call8_cst_0 : Ref sig .tc := ⟨.hbm, 181, rfl⟩
abbrev main_call8_v2 : Ref sig .tc := ⟨.hbm, 182, rfl⟩
abbrev main_call8_v3 : Ref sig .tc := ⟨.hbm, 183, rfl⟩
abbrev main_call8_v4 : Ref sig .tc := ⟨.hbm, 184, rfl⟩
abbrev main_call8_v5 : Ref sig .tc := ⟨.hbm, 185, rfl⟩
abbrev main_call8_v6 : Ref sig .tc := ⟨.hbm, 186, rfl⟩
abbrev main_call8_v7 : Ref sig .tc := ⟨.hbm, 187, rfl⟩
abbrev main_call8_cst_1 : Ref sig .tc := ⟨.hbm, 188, rfl⟩
abbrev main_call8_v8 : Ref sig .tc := ⟨.hbm, 189, rfl⟩
abbrev main_call8_cst_2 : Ref sig .tc := ⟨.hbm, 190, rfl⟩
abbrev main_call8_v9 : Ref sig .tc := ⟨.hbm, 191, rfl⟩
abbrev main_call8_v10 : Ref sig .tc := ⟨.hbm, 192, rfl⟩
abbrev main_call8_v11 : Ref sig .tc := ⟨.hbm, 193, rfl⟩
abbrev main_call8_cst_3 : Ref sig .tc := ⟨.hbm, 194, rfl⟩
abbrev main_call8_v12 : Ref sig .tc := ⟨.hbm, 195, rfl⟩
abbrev main_call8_cst_4 : Ref sig .tc := ⟨.hbm, 196, rfl⟩
abbrev main_call8_call0_v0 : Ref sig .tc := ⟨.hbm, 197, rfl⟩
abbrev main_call8_call0_v1 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_cst_13 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_v85 : Ref sig .tc := ⟨.hbm, 210, rfl⟩
abbrev main_v86 : Ref sig .tc := ⟨.hbm, 211, rfl⟩
abbrev main_v87 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_v91 : Ref sig .tc := ⟨.hbm, 216, rfl⟩
abbrev main_v92 : Ref sig .tc := ⟨.hbm, 217, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  bcast_S_S4096x64 : S_.BroadcastsInDim S4096x64 (![] : Fin 0 → Fin S4096x64.rank)
  reducesTo_S4096x64_S64_d0 : S4096x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S4096x64_0_1 : S1x64.BroadcastsInDim S4096x64 (![0, 1] : Fin 2 → Fin S4096x64.rank)
  reducesTo_S4096x128_S128_d0 : S4096x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S4096x128_0_1 : S1x128.BroadcastsInDim S4096x128 (![0, 1] : Fin 2 → Fin S4096x128.rank)
  bcast_S_S4096x256 : S_.BroadcastsInDim S4096x256 (![] : Fin 0 → Fin S4096x256.rank)
  reducesTo_S4096x256_S256_d0 : S4096x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S4096x256_0_1 : S1x256.BroadcastsInDim S4096x256 (![0, 1] : Fin 2 → Fin S4096x256.rank)
  transposes_S4096x128_S128x4096_1_0 : S4096x128.Transposes [1, 0] S128x4096
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []
  dot_S4096x64_S64x128_S4096x128_1_0_0_1_n_n_wf : DotDims.WF S4096x64 S64x128 S4096x128 [1] [0] [0] [1] [] []
  dot_S4096x128_S128x256_S4096x256_1_0_0_1_n_n_wf : DotDims.WF S4096x128 S128x256 S4096x256 [1] [0] [0] [1] [] []
  dot_S4096x4096_S4096x256_S4096x256_1_0_0_1_n_n_wf : DotDims.WF S4096x4096 S4096x256 S4096x256 [1] [0] [0] [1] [] []
  dot_S4096x128_S128x4096_S4096x4096_1_0_0_1_n_n_wf : DotDims.WF S4096x128 S128x4096 S4096x4096 [1] [0] [0] [1] [] []

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.WStackSpec.lean ====
/-
  The graph-convolution stack (the first kernel region): what its scratch buffers and output blocks hold at each
  grid point, in closed form over the argument arrays, for any float instance.

  The region runs four stages of sixteen row blocks (256 rows each).  Stage `s` first builds a support matrix from the
  previous stage's whole activation (at its first block), then per block `b` multiplies rows `256·b … 256·b+255` of the
  adjacency with the support, rectifies, and stores the block; stages 1–3 also add the block's column sums and column
  sums of squares into two running rows.  Every value below is the corresponding term of the kernel body (the
  skeleton's payloads) applied to the values the earlier stages left.
-/
import proofs.«181189_g481036337843_cont_8to1c4_37_6_alg».proof.Proof.Gen.Kernel.Skeleton
import Idealize.ShloMosaic.Lib.ValueIdx

noncomputable section

namespace Cert.Kernel.Stack

open Idealize.ShloMosaic Idealize.ShloMosaic.ValueIdx Cert.Kernel Cert.Kernel.Gen

variable {F : FTy → Type} [FloatOps F]

/-! ## Row blocks and column halves of a matrix, for any entry type -/

section Blocks

variable {α : Type} {m : ℕ}

/-- Rows `256·b … 256·b+255` of a 4096-row matrix. -/
def rowBlk (A : (⟨2, ![4096, m]⟩ : Shape).Idx → α) (b : Fin 16) : (⟨2, ![256, m]⟩ : Shape).Idx → α :=
  fun y => A (ix2 ⟨256 * b.val + (y 0).val, by have := idx2_lt0 y; have := b.isLt; omega⟩ (y 1))

/-- The 4096-row matrix whose sixteen row blocks are given. -/
def asm16 (blk : Fin 16 → ((⟨2, ![256, m]⟩ : Shape).Idx → α)) : (⟨2, ![4096, m]⟩ : Shape).Idx → α :=
  fun j => blk ⟨(j 0).val / 256, by have := idx2_lt0 j; omega⟩ (ix2 ⟨(j 0).val % 256, Nat.mod_lt _ (by norm_num)⟩ (j 1))

/-- Columns `0 … 127` and `128 … 255` of a 256-column matrix. -/
def lcol {n : ℕ} (A : (⟨2, ![n, 256]⟩ : Shape).Idx → α) : (⟨2, ![n, 128]⟩ : Shape).Idx → α :=
  fun y => A (ix2 (y 0) ⟨(y 1).val, by have := idx2_lt1 y; omega⟩)
def rcol {n : ℕ} (A : (⟨2, ![n, 256]⟩ : Shape).Idx → α) : (⟨2, ![n, 128]⟩ : Shape).Idx → α :=
  fun y => A (ix2 (y 0) ⟨128 + (y 1).val, by have := idx2_lt1 y; omega⟩)
/-- Two 128-column matrices side by side. -/
def hcat {n : ℕ} (L R : (⟨2, ![n, 128]⟩ : Shape).Idx → α) : (⟨2, ![n, 256]⟩ : Shape).Idx → α :=
  fun j => if h : (j 1).val < 128 then L (ix2 (j 0) ⟨(j 1).val, h⟩)
    else R (ix2 (j 0) ⟨(j 1).val - 128, by have := idx2_lt1 j; omega⟩)
/-- Two rows stacked. -/
def vcat2 (top bot : (⟨2, ![1, m]⟩ : Shape).Idx → α) : (⟨2, ![2, m]⟩ : Shape).Idx → α :=
  fun j => if (j 0).val = 0 then top (ix2 0 (j 1)) else bot (ix2 0 (j 1))

/-- Two matrices agree on their first `256·k` rows. -/
def AgreeRows (f g : (⟨2, ![4096, m]⟩ : Shape).Idx → α) (k : ℕ) : Prop :=
  ∀ (r : Fin 4096) (c : Fin m), r.val < 256 * k → f (ix2 r c) = g (ix2 r c)

end Blocks

/-! ## The argument arrays as the region finds them -/

/-- The eleven arrays the region reads: the adjacency, the features, and the weights and batch-norm rows (the 64-wide
    layer's already padded to 128). -/
structure Arrays (F : FTy → Type) where
  adj : Vec F S4096x4096 .f32
  x : Vec F S4096x256 .f32
  w1 : Vec F S256x128 .f32
  w2 : Vec F S128x128 .f32
  g2 : Vec F S1x128 .f32
  b2 : Vec F S1x128 .f32
  wf1 : Vec F S128x128 .f32
  gf1 : Vec F S1x128 .f32
  bf1 : Vec F S1x128 .f32
  wf2 : Vec F S128x256 .f32
  ws1 : Vec F S128x128 .f32

variable (A : Arrays F)

/-! ## Stage 0: the adjacency parked in half precision, the first layer -/

def adjB (b : Fin 16) : Vec F S256x4096 .bf16 := k0_pay18 (rowBlk A.adj b)
def ADJ : Vec F S4096x4096 .bf16 := asm16 (adjB A)
def S0 : Vec F S4096x128 .bf16 := k0_pay12 A.x A.w1
def h1B (b : Fin 16) : Vec F S256x128 .f32 := k0_pay19 (adjB A b) (S0 A)
def H1 : Vec F S4096x128 .f32 := asm16 (h1B A)

/-! ## Stage 1: the second layer, with its running column sums -/

def S1 : Vec F S4096x128 .bf16 := k0_pay13 (H1 A) A.w2
def u2B (b : Fin 16) : Vec F S256x128 .f32 := k0_pay21 (adjB A b) (S1 A)
def U2 : Vec F S4096x128 .f32 := asm16 (u2B A)
/-- The running sum (left 128 columns) after the first `k` blocks. -/
def acc1s : ℕ → Vec F S1x128 .f32
  | 0 => lcol (k0_pay16 (F := F))
  | k + 1 => k0_pay22 (adjB A ⟨k % 16, Nat.mod_lt _ (by norm_num)⟩) (S1 A) (acc1s k)
def acc1q : ℕ → Vec F S1x128 .f32
  | 0 => lcol (k0_pay17 (F := F))
  | k + 1 => k0_pay23 (adjB A ⟨k % 16, Nat.mod_lt _ (by norm_num)⟩) (S1 A) (acc1q k)

/-! ## Stage 2: both decoders' first layers side by side -/

def S2a : Vec F S4096x128 .bf16 := k0_pay9 (acc1s A 16) (acc1q A 16) A.g2 A.b2 (U2 A) A.wf1
def S2b : Vec F S4096x128 .bf16 := k0_pay14 (k0_pay10 (acc1s A 16) (acc1q A 16) A.g2 A.b2 (U2 A) A.ws1)
def S2 : Vec F S4096x256 .bf16 := hcat (S2a A) (S2b A)
def u3B (b : Fin 16) : Vec F S256x256 .f32 := k0_pay2 (adjB A b) (S2 A)
def U3 : Vec F S4096x256 .f32 := asm16 (u3B A)
def acc2s : ℕ → Vec F S1x256 .f32
  | 0 => k0_pay16 (F := F)
  | k + 1 => k0_pay3 (adjB A ⟨k % 16, Nat.mod_lt _ (by norm_num)⟩) (S2 A) (acc2s k)
def acc2q : ℕ → Vec F S1x256 .f32
  | 0 => k0_pay17 (F := F)
  | k + 1 => k0_pay4 (adjB A ⟨k % 16, Nat.mod_lt _ (by norm_num)⟩) (S2 A) (acc2q k)

/-! ## Stage 3: the feature decoder's second layer; the structure branch handed on -/

/-- The structure branch's two statistics rows (right 128 columns of the stage-2 sums). -/
def S1STATS : Vec F S2x128 .f32 := vcat2 (rcol (acc2s A 16)) (rcol (acc2q A 16))
def S3 : Vec F S4096x256 .bf16 :=
  k0_pay15 (k0_pay11 (lcol (acc2s A 16)) (lcol (acc2q A 16)) A.gf1 A.bf1 (lcol (U3 A)) A.wf2)
def u4B (b : Fin 16) : Vec F S256x256 .f32 := k0_pay5 (adjB A b) (S3 A)
def U4 : Vec F S4096x256 .f32 := asm16 (u4B A)
def u3sB (b : Fin 16) : Vec F S256x128 .f32 := rowBlk (rcol (U3 A)) b
def U3S : Vec F S4096x128 .f32 := rcol (U3 A)
def acc3s : ℕ → Vec F S1x256 .f32
  | 0 => k0_pay16 (F := F)
  | k + 1 => k0_pay6 (adjB A ⟨k % 16, Nat.mod_lt _ (by norm_num)⟩) (S3 A) (acc3s k)
def acc3q : ℕ → Vec F S1x256 .f32
  | 0 => k0_pay17 (F := F)
  | k + 1 => k0_pay7 (adjB A ⟨k % 16, Nat.mod_lt _ (by norm_num)⟩) (S3 A) (acc3q k)
def U4STATS : Vec F S2x256 .f32 := vcat2 (acc3s A 16) (acc3q A 16)

/-! ## The scratch buffers between grid points -/

/-- The seven scratch buffers' contents. -/
structure St (F : FTy → Type) where
  adj : Vec F S4096x4096 .bf16
  s : Vec F S4096x256 .bf16
  h1 : Vec F S4096x128 .f32
  u2 : Vec F S4096x128 .f32
  u3 : Vec F S4096x256 .f32
  accs : Vec F S1x256 .f32
  accq : Vec F S1x256 .f32

/-- What the scratch buffers hold BEFORE grid point `t` (`t = 16·s + b`, `0 ≤ t ≤ 64`): the row blocks already stored
    agree with the closed forms; the support and the running sums are the current stage's. -/
def Inv (t : ℕ) (st : St F) : Prop :=
  AgreeRows st.adj (ADJ A) (min t 16)
  ∧ AgreeRows st.h1 (H1 A) (min t 16)
  ∧ AgreeRows st.u2 (U2 A) (min (t - 16) 16)
  ∧ AgreeRows st.u3 (U3 A) (min (t - 32) 16)
  ∧ (1 ≤ t ∧ t ≤ 16 → lcol st.s = S0 A)
  ∧ (17 ≤ t ∧ t ≤ 32 → lcol st.s = S1 A ∧ lcol st.accs = acc1s A (t - 16) ∧ lcol st.accq = acc1q A (t - 16))
  ∧ (33 ≤ t ∧ t ≤ 48 → st.s = S2 A ∧ st.accs = acc2s A (t - 32) ∧ st.accq = acc2q A (t - 32))
  ∧ (49 ≤ t ∧ t ≤ 64 → st.s = S3 A ∧ st.accs = acc3s A (t - 48) ∧ st.accq = acc3q A (t - 48))

theorem Inv_zero (st : St F) : Inv A 0 st := by
  refine ⟨fun r c h => absurd h (by simp), fun r c h => absurd h (by simp), fun r c h => absurd h (by simp),
    fun r c h => absurd h (by simp), fun h => absurd h.1 (by simp), fun h => absurd h.1 (by simp),
    fun h => absurd h.1 (by simp), fun h => absurd h.1 (by simp)⟩

end Cert.Kernel.Stack

end
-- ==== Proof.WStackRes.lean ====
/-
  The resources a grid point of the graph-convolution stack is run with: the eleven input blocks, the four output
  blocks and the seven scratch buffers, each owned whole at stated contents.
-/
import proofs.«181189_g481036337843_cont_8to1c4_37_6_alg».proof.Proof.WStackSpec
import proofs.«181189_g481036337843_cont_8to1c4_37_6_alg».proof.Proof.Gen.Kernel.Launch
import Idealize.ShloMosaic.Lib.Pipeline.Kit
import Idealize.ShloMosaic.Lib.Tactic

noncomputable section

namespace Cert.Kernel.Stack

open Idealize.ShloMosaic Idealize.ShloMosaic.TcCoe Idealize.ShloMosaic.ValueIdx Cert.Kernel Cert.Kernel.Gen
open Idealize.SL Idealize.SL.RA Idealize.SL.BI
open scoped Idealize.SL.BI
open Idealize.SL.BI.BIBase Idealize.SL.Sem

variable {F : FTy → Type} [FloatOps F]

/-- The separation-logic model every statement about the region is made in. -/
abbrev 𝕄0 (F : FTy → Type) [FloatOps F] : Type := MT nD τ sig Unit (Elt F) ℕ (UR sig nD τ) ℕ

/-- The row block a grid point works on: its second coordinate. -/
def blkOf (i : grid0.Coords) : Fin 16 := ⟨(i 1).val, (i 1).isLt⟩

/-- The eleven input blocks: the adjacency's current row block at `x0`, every other array whole. -/
def ins (c : Dev nD) (arg2 : Memref sig .tc .vmem S256x4096 .f32) (arg3 : Memref sig .tc .vmem S4096x256 .f32) (arg4 : Memref sig .tc .vmem S256x128 .f32) (arg5 : Memref sig .tc .vmem S128x128 .f32) (arg6 : Memref sig .tc .vmem S1x128 .f32) (arg7 : Memref sig .tc .vmem S1x128 .f32) (arg8 : Memref sig .tc .vmem S128x128 .f32) (arg9 : Memref sig .tc .vmem S1x128 .f32) (arg10 : Memref sig .tc .vmem S1x128 .f32) (arg11 : Memref sig .tc .vmem S128x256 .f32) (arg12 : Memref sig .tc .vmem S128x128 .f32)
    (x0 : Vec F S256x4096 .f32) (A : Arrays F) : sProp (𝕄0 F) :=
  iprop(owns (c : Thread nD τ) arg2 fullShare x0 ∗ owns (c : Thread nD τ) arg3 fullShare A.x ∗ owns (c : Thread nD τ) arg4 fullShare A.w1
    ∗ owns (c : Thread nD τ) arg5 fullShare A.w2 ∗ owns (c : Thread nD τ) arg6 fullShare A.g2 ∗ owns (c : Thread nD τ) arg7 fullShare A.b2
    ∗ owns (c : Thread nD τ) arg8 fullShare A.wf1 ∗ owns (c : Thread nD τ) arg9 fullShare A.gf1 ∗ owns (c : Thread nD τ) arg10 fullShare A.bf1
    ∗ owns (c : Thread nD τ) arg11 fullShare A.wf2 ∗ owns (c : Thread nD τ) arg12 fullShare A.ws1)

/-- The four output blocks at stated contents. -/
def outs (c : Dev nD) (arg13 : Memref sig .tc .vmem S256x256 .f32) (arg14 : Memref sig .tc .vmem S256x128 .f32) (arg15 : Memref sig .tc .vmem S2x128 .f32) (arg16 : Memref sig .tc .vmem S2x256 .f32)
    (o11 : Vec F S256x256 .f32) (o12 : Vec F S256x128 .f32) (o13 : Vec F S2x128 .f32) (o14 : Vec F S2x256 .f32) : sProp (𝕄0 F) :=
  iprop(owns (c : Thread nD τ) arg13 fullShare o11 ∗ owns (c : Thread nD τ) arg14 fullShare o12
    ∗ owns (c : Thread nD τ) arg15 fullShare o13 ∗ owns (c : Thread nD τ) arg16 fullShare o14)

/-- The seven scratch buffers at the contents `st`. -/
def scr (c : Dev nD) (st : St F) : sProp (𝕄0 F) :=
  iprop(owns (c : Thread nD τ) (Memref.whole cc0_scratch0) fullShare st.adj ∗ owns (c : Thread nD τ) (Memref.whole cc0_scratch1) fullShare st.s
    ∗ owns (c : Thread nD τ) (Memref.whole cc0_scratch2) fullShare st.h1 ∗ owns (c : Thread nD τ) (Memref.whole cc0_scratch3) fullShare st.u2
    ∗ owns (c : Thread nD τ) (Memref.whole cc0_scratch4) fullShare st.u3 ∗ owns (c : Thread nD τ) (Memref.whole cc0_scratch5) fullShare st.accs
    ∗ owns (c : Thread nD τ) (Memref.whole cc0_scratch6) fullShare st.accq)

end Cert.Kernel.Stack

end
-- ==== Proof.WStackData.lean ====
/-
  The proof data of the graph-convolution stack's pipeline: the arrays as the region finds them, what each window's
  staging buffer holds after the body at each grid point, the invariant between points (the scratch buffers at contents
  satisfying `Inv`, beside the region's other scoped buffers), and the invariant's two ends.
-/
import proofs.«181189_g481036337843_cont_8to1c4_37_6_alg».proof.Proof.WStackRes
import proofs.«181189_g481036337843_cont_8to1c4_37_6_alg».proof.Proof.Gen.Kernel.Points
import Idealize.ShloMosaic.Lib.Pipeline.FrameBody
import Idealize.ShloMosaic.Lib.Pipeline.Frame
import Idealize.ShloMosaic.Lib.Pipeline.Value

set_option maxRecDepth 16384

noncomputable section

namespace Cert.Kernel.Stack

open Idealize.ShloMosaic Idealize.ShloMosaic.TcCoe Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
-- the TensorCore's buffer contents when the region is entered
variable (V : (c : Dev nD) → (b : Ref sig .tc) → Buf (Elt F) ((c : Thread nD τ).loc b))

/-- The region's eleven input arrays, read off the entry contents. -/
def arrays (c : Dev nD) : Arrays F where
  adj := V c main_arg1
  x := V c main_arg0
  w1 := V c main_arg2
  w2 := V c main_v2
  g2 := V c main_v6
  b2 := V c main_v10
  wf1 := V c main_v13
  gf1 := V c main_v17
  bf1 := V c main_v18
  wf2 := V c main_arg9
  ws1 := V c main_v16

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's scoped buffers that are not its scratch (the other region's staging buffers and scratch), each whole
    at some contents. -/
def rest (c : Dev nD) : sProp (𝕄0 F) :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg8_1), ((c : Thread nD τ).loc cc1_stg8_1) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg9_1), ((c : Thread nD τ).loc cc1_stg9_1) ↦{fullShare} f)
    ∗ (∃ f : Buf (Elt F) ((c : Thread nD τ).loc cc1_scratch0), ((c : Thread nD τ).loc cc1_scratch0) ↦{fullShare} f))

/-- The invariant before grid point `t`: the scratch buffers at some contents satisfying `Inv`, and the rest. -/
def Phi (c : Dev nD) (t : ℕ) : sProp (𝕄0 F) :=
  iprop((∃ st : St F, ⌜Inv (arrays V c) t st⌝ ∗ scr c st) ∗ rest c)

/-- The proof data of the pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => u4B (arrays V c) (blkOf (grid0.coords t))
    | ⟨12, _⟩ => u3sB (arrays V c) (blkOf (grid0.coords t))
    | ⟨13, _⟩ => S1STATS (arrays V c)
    | ⟨14, _⟩ => U4STATS (arrays V c)
  Φ t := Phi V c t.val
  q _ := fullShare
  owed _ := 0

theorem dat_A (c : Dev nD) (w : Fin cfg0.W) : (dat V c).A w = V c (Pipeline.arrRef spec0 w) := by
  dsimp only [dat]

theorem dat_Phi (c : Dev nD) (t : Fin (cfg0.N + 1)) : (dat V c).Φ t = Phi V c t.val := by
  dsimp only [dat]

/-- The invariant at the first point, from the region's scoped rest (every scratch buffer at some contents). -/
theorem Phi_in (c : Dev nD) :
    (Pipeline.scopedRest (Ix := Unit) (Name := ℕ) (U := UR sig nD τ) (Lvl := ℕ) (Val := Elt F) spec0 c : sProp (𝕄0 F)) ⊢ Phi V c 0 := by
  rw [Gen.scopedRest0_eq]
  unfold Phi rest scr
  simp only [owns_whole]
  iintro ⟨⟨%f0, H0⟩, ⟨%f1, H1⟩, ⟨%f2, H2⟩, ⟨%f3, H3⟩, ⟨%f4, H4⟩, ⟨%f5, H5⟩, ⟨%f6, H6⟩, Hrest⟩
  isplitr [Hrest]
  · iexists (⟨f0, f1, f2, f3, f4, f5, f6⟩ : St F)
    isplitr
    · ipureintro; exact Inv_zero _ _
    isplitl [H0]; · iexact H0
    isplitl [H1]; · iexact H1
    isplitl [H2]; · iexact H2
    isplitl [H3]; · iexact H3
    isplitl [H4]; · iexact H4
    isplitl [H5]; · iexact H5
    iexact H6
  · iexact Hrest

/-- The invariant at the last point gives the scoped rest back. -/
theorem Phi_out (c : Dev nD) :
    Phi V c cfg0.N ⊢ (Pipeline.scopedRest (Ix := Unit) (Name := ℕ) (U := UR sig nD τ) (Lvl := ℕ) (Val := Elt F) spec0 c : sProp (𝕄0 F)) := by
  rw [Gen.scopedRest0_eq]
  unfold Phi rest scr
  simp only [owns_whole]
  iintro ⟨⟨%st, -, H0, H1, H2, H3, H4, H5, H6⟩, Hrest⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexact Hrest

end Cert.Kernel.Stack

end
-- ==== Proof.WDecodeSpec.lean ====
/-
  The decoder (the second kernel region): eight row blocks of 512 rows.  At its first block it normalises the
  structure branch — an affine map per column from the two statistics rows — into a scratch matrix `s1n`; every
  block then stores `s1n[rows] · s1nᵀ` and the feature branch's normalised block.  Every value is the corresponding
  term of the kernel body (the skeleton's payloads), for any float instance.
-/
import proofs.«181189_g481036337843_cont_8to1c4_37_6_alg».proof.Proof.Gen.Kernel.Skeleton
import proofs.«181189_g481036337843_cont_8to1c4_37_6_alg».proof.Proof.Gen.Kernel.Launch
import Idealize.ShloMosaic.Lib.ValueIdx
import Idealize.ShloMosaic.Lib.Pipeline.Kit
import Idealize.ShloMosaic.Lib.Tactic

noncomputable section

namespace Cert.Kernel.Decode

open Idealize.ShloMosaic Idealize.ShloMosaic.TcCoe Idealize.ShloMosaic.ValueIdx Cert.Kernel Cert.Kernel.Gen
open Idealize.SL Idealize.SL.RA Idealize.SL.BI
open scoped Idealize.SL.BI
open Idealize.SL.BI.BIBase Idealize.SL.Sem

variable {F : FTy → Type} [FloatOps F]

section Blocks

variable {α : Type} {m : ℕ}

/-- Rows `512·b … 512·b+511` of a 4096-row matrix. -/
def rowBlk (A : (⟨2, ![4096, m]⟩ : Shape).Idx → α) (b : Fin 8) : (⟨2, ![512, m]⟩ : Shape).Idx → α :=
  fun y => A (ix2 ⟨512 * b.val + (y 0).val, by have := idx2_lt0 y; have := b.isLt; omega⟩ (y 1))
/-- The 4096-row matrix whose eight row blocks are given. -/
def asm8 (blk : Fin 8 → ((⟨2, ![512, m]⟩ : Shape).Idx → α)) : (⟨2, ![4096, m]⟩ : Shape).Idx → α :=
  fun j => blk ⟨(j 0).val / 512, by have := idx2_lt0 j; omega⟩ (ix2 ⟨(j 0).val % 512, Nat.mod_lt _ (by norm_num)⟩ (j 1))
/-- The two rows of a two-row matrix. -/
def row0 (v : (⟨2, ![2, m]⟩ : Shape).Idx → α) : (⟨2, ![1, m]⟩ : Shape).Idx → α := fun y => v (ix2 0 (y 1))
def row1 (v : (⟨2, ![2, m]⟩ : Shape).Idx → α) : (⟨2, ![1, m]⟩ : Shape).Idx → α := fun y => v (ix2 1 (y 1))

end Blocks

/-- The eight arrays the region reads. -/
structure Arrays (F : FTy → Type) where
  u3s : Vec F S4096x128 .f32
  s1stats : Vec F S2x128 .f32
  gs1 : Vec F S1x128 .f32
  bs1 : Vec F S1x128 .f32
  u4 : Vec F S4096x256 .f32
  u4stats : Vec F S2x256 .f32
  gf2 : Vec F S1x256 .f32
  bf2 : Vec F S1x256 .f32

variable (A : Arrays F)

/-- The normalised structure branch. -/
def S1N : Vec F S4096x128 .f32 := k1_pay1 (row0 A.s1stats) (row1 A.s1stats) A.gs1 A.bs1 A.u3s
/-- Block `b` of the inner-product output and of the normalised feature output. -/
def s2B (b : Fin 8) : Vec F S512x4096 .f32 := k1_pay2 (rowBlk (S1N A) b) (S1N A)
def f2B (b : Fin 8) : Vec F S512x256 .f32 := k1_pay3 (row0 A.u4stats) (row1 A.u4stats) A.gf2 A.bf2 (rowBlk A.u4 b)
def S2 : Vec F S4096x4096 .f32 := asm8 (s2B A)
def F2 : Vec F S4096x256 .f32 := asm8 (f2B A)

/-- What the scratch matrix holds before grid point `t`: from the second point on, the normalised structure branch. -/
def Inv (t : ℕ) (s1n : Vec F S4096x128 .f32) : Prop := 1 ≤ t → s1n = S1N A

theorem Inv_zero (s1n : Vec F S4096x128 .f32) : Inv A 0 s1n := fun h => absurd h (by simp)

/-- The separation-logic model every statement about the region is made in. -/
abbrev 𝕄1 (F : FTy → Type) [FloatOps F] : Type := MT nD τ sig Unit (Elt F) ℕ (UR sig nD τ) ℕ

/-- The row block a grid point works on. -/
def blkOf (i : grid1.Coords) : Fin 8 := ⟨(i 0).val, (i 0).isLt⟩

/-- The eight input blocks: the feature branch's current row block at `x4`, every other array whole. -/
def ins (c : Dev nD) (arg1 : Memref sig .tc .vmem S4096x128 .f32) (arg2 : Memref sig .tc .vmem S2x128 .f32)
    (arg3 : Memref sig .tc .vmem S1x128 .f32) (arg4 : Memref sig .tc .vmem S1x128 .f32) (arg5 : Memref sig .tc .vmem S512x256 .f32)
    (arg6 : Memref sig .tc .vmem S2x256 .f32) (arg7 : Memref sig .tc .vmem S1x256 .f32) (arg8 : Memref sig .tc .vmem S1x256 .f32)
    (x4 : Vec F S512x256 .f32) (A : Arrays F) : sProp (𝕄1 F) :=
  iprop(owns (c : Thread nD τ) arg1 fullShare A.u3s ∗ owns (c : Thread nD τ) arg2 fullShare A.s1stats ∗ owns (c : Thread nD τ) arg3 fullShare A.gs1
    ∗ owns (c : Thread nD τ) arg4 fullShare A.bs1 ∗ owns (c : Thread nD τ) arg5 fullShare x4 ∗ owns (c : Thread nD τ) arg6 fullShare A.u4stats
    ∗ owns (c : Thread nD τ) arg7 fullShare A.gf2 ∗ owns (c : Thread nD τ) arg8 fullShare A.bf2)

/-- The two output blocks at stated contents. -/
def outs (c : Dev nD) (arg9 : Memref sig .tc .vmem S512x256 .f32) (arg10 : Memref sig .tc .vmem S512x4096 .f32)
    (o8 : Vec F S512x256 .f32) (o9 : Vec F S512x4096 .f32) : sProp (𝕄1 F) :=
  iprop(owns (c : Thread nD τ) arg9 fullShare o8 ∗ owns (c : Thread nD τ) arg10 fullShare o9)

/-- The scratch matrix at contents `s1n`. -/
def scr (c : Dev nD) (s1n : Vec F S4096x128 .f32) : sProp (𝕄1 F) :=
  owns (c : Thread nD τ) (Memref.whole cc1_scratch0) fullShare s1n

end Cert.Kernel.Decode

end
-- ==== Proof.WDecodeData.lean ====
/-
  The proof data of the decoder's pipeline: the arrays as the region finds them, what each window's staging buffer
  holds after the body at each grid point, the invariant between points (the scratch matrix at contents satisfying
  `Inv`, beside the region's other scoped buffers), the invariant's two ends, and the two result arrays after the last write-back in closed form.
-/
import proofs.«181189_g481036337843_cont_8to1c4_37_6_alg».proof.Proof.WDecodeSpec
import proofs.«181189_g481036337843_cont_8to1c4_37_6_alg».proof.Proof.Gen.Kernel.Points
import Idealize.ShloMosaic.Lib.Pipeline.FrameBody
import Idealize.ShloMosaic.Lib.Pipeline.Frame
import Idealize.ShloMosaic.Lib.Pipeline.Value

set_option maxRecDepth 16384

noncomputable section

namespace Cert.Kernel.Decode

open Idealize.ShloMosaic Idealize.ShloMosaic.TcCoe Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
-- the TensorCore's buffer contents when the region is entered
variable (V : (c : Dev nD) → (b : Ref sig .tc) → Buf (Elt F) ((c : Thread nD τ).loc b))

/-- The region's eight input arrays, read off the entry contents. -/
def arrays (c : Dev nD) : Arrays F where
  u3s := V c main_v23_1
  s1stats := V c main_v23_2
  gs1 := V c main_v21
  bs1 := V c main_v22
  u4 := V c main_v23_0
  u4stats := V c main_v23_3
  gf2 := V c main_v19
  bf2 := V c main_v20

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The invariant before grid point `t`: the scratch matrix at some contents satisfying `Inv`, and the region's other
    scoped buffers unopened. -/
def Phi (c : Dev nD) (t : ℕ) : sProp (𝕄1 F) :=
  iprop((∃ s1n : Vec F S4096x128 .f32, ⌜Inv (arrays V c) t s1n⌝ ∗ scr c s1n)
    ∗ Pipeline.scopedRestBut (Ix := Unit) (Name := ℕ) (U := UR sig nD τ) (Lvl := ℕ) (Val := Elt F) spec1 c [cc1_scratch0])

/-- The proof data of the pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => f2B (arrays V c) (blkOf (grid1.coords t))
    | ⟨9, _⟩ => s2B (arrays V c) (blkOf (grid1.coords t))
  Φ t := Phi V c t.val
  q _ := fullShare
  owed _ := 0

theorem dat_A (c : Dev nD) (w : Fin cfg1.W) : (dat V c).A w = V c (Pipeline.arrRef spec1 w) := by
  dsimp only [dat]

theorem dat_Phi (c : Dev nD) (t : Fin (cfg1.N + 1)) : (dat V c).Φ t = Phi V c t.val := by
  dsimp only [dat]

/-! ## The grid and the windows' block indices -/

/-- The grid has one axis: a point's coordinate is its number. -/
theorem coord_eq : ∀ t : Fin cfg1.N, (grid1.coords t 0).val = t.val :=
  (by decide +kernel : ∀ t : Fin grid1.N, (grid1.coords t 0).val = t.val)

/-- The seven whole-array windows stay at block (0, 0). -/
theorem idx_whole : ∀ t : Fin cfg1.N, (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- The feature branch's window and the two output windows are at row block `t`, column block 0. -/
theorem idx_moving : ∀ t : Fin cfg1.N, (win1_4.index t (0 : Fin 2) = (grid1.coords t 0).val ∧ win1_4.index t (1 : Fin 2) = 0)
    ∧ (win1_8.index t (0 : Fin 2) = (grid1.coords t 0).val ∧ win1_8.index t (1 : Fin 2) = 0)
    ∧ (win1_9.index t (0 : Fin 2) = (grid1.coords t 0).val ∧ win1_9.index t (1 : Fin 2) = 0) :=
  (by decide +kernel : ∀ t : Fin grid1.N, _)

/-! ## What the body leaves in each window's buffer -/

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = f2B (arrays V c) (blkOf (grid1.coords t)) := by dsimp only [dat]
theorem after_9 (c : Dev nD) (t : Fin cfg1.N) : (dat V c).after 9 t = s2B (arrays V c) (blkOf (grid1.coords t)) := by dsimp only [dat]

/-! ## The invariant's two ends -/

/-- The invariant at the first point, from the region's scoped rest (the scratch matrix at some contents). -/
theorem Phi_in (c : Dev nD) :
    (Pipeline.scopedRest (Ix := Unit) (Name := ℕ) (U := UR sig nD τ) (Lvl := ℕ) (Val := Elt F) spec1 c : sProp (𝕄1 F)) ⊢ Phi V c 0 := by
  rw [Gen.scopedRest1_split]
  unfold Phi
  iintro ⟨⟨%f, H⟩, Hrest⟩
  isplitl [H]
  · iexists f
    isplitr
    · ipureintro; exact Inv_zero _ _
    unfold scr; rw [owns_whole]; iexact H
  iexact Hrest

/-- The invariant at the last point gives the scoped rest back. -/
theorem Phi_out (c : Dev nD) :
    Phi V c cfg1.N ⊢ (Pipeline.scopedRest (Ix := Unit) (Name := ℕ) (U := UR sig nD τ) (Lvl := ℕ) (Val := Elt F) spec1 c : sProp (𝕄1 F)) := by
  rw [Gen.scopedRest1_split]
  unfold Phi
  iintro ⟨⟨%s1n, -, H⟩, Hrest⟩
  isplitl [H]
  · iexists s1n
    iapply (show scr c s1n ⊢ (((c : Thread nD τ).loc cc1_scratch0) ↦{fullShare} s1n : sProp (𝕄1 F)) from by unfold scr; rw [owns_whole])
    iexact H
  iexact Hrest

/-! ## The result arrays after the last write-back -/

/-- A matrix assembled from eight row blocks, read at row 512·b + r, is block `b` at row `r`. -/
theorem asm8_at {α : Type} {m : ℕ} (blk : Fin 8 → ((⟨2, ![512, m]⟩ : Shape).Idx → α)) (b : Fin 8)
    (y : (⟨2, ![512, m]⟩ : Shape).Idx) (i : (⟨2, ![4096, m]⟩ : Shape).Idx)
    (h0 : (i 0).val = b.val * 512 + (y 0).val) (h1 : (i 1).val = (y 1).val) : asm8 blk i = blk b y := by
  have hy := idx2_lt0 y
  have key : ∀ (p : Fin 8) (q : (⟨2, ![512, m]⟩ : Shape).Idx), p = b → q = y → blk p q = blk b y := by
    rintro _ _ rfl rfl; rfl
  unfold asm8
  refine key _ _ (Fin.ext ?_) (funext fun a => ?_)
  · show (i 0).val / 512 = b.val; omega
  · match a with
    | ⟨0, _⟩ => exact Fin.ext (show (i 0).val % 512 = (y 0).val by omega)
    | ⟨1, _⟩ => exact Fin.ext h1

/-- What point `t` writes back to output window 8's array is block `t` of the assembled matrix: an element of the block
    sits at row 512·t + its row, and that row of the assembled matrix is block `t`'s. -/
theorem flushed_8 (c : Dev nD) (t : Fin cfg1.N) :
    (dat V c).flushed 8 t = ((cfg1.win 8).blk t).view.read (Elt F) (F2 (arrays V c)) := by
  obtain ⟨-, ⟨e0, e1⟩, -⟩ := idx_moving t
  show (cfg1.win 8).cut (grid1.coords t) ((dat V c).after 8 t) = _
  rw [after_8]
  funext y
  show f2B (arrays V c) (blkOf (grid1.coords t)) y = F2 (arrays V c) (((cfg1.win 8).blk t).view.emb y)
  unfold F2
  refine (asm8_at (α := Elt F .f32) (m := 256) (f2B (arrays V c)) (blkOf (grid1.coords t)) y _ ?_ ?_).symm
  · show win1_8.index t (0 : Fin 2) * 512 + 1 * (y 0).val = (grid1.coords t 0).val * 512 + (y 0).val; omega
  · show win1_8.index t (1 : Fin 2) * 256 + 1 * (y 1).val = (y 1).val; omega

/-- An index of the array is in point `t`'s block iff each coordinate is in the block's range on its axis. -/
theorem mem_blk_8 (t : Fin cfg1.N) (i : S4096x256.Idx) :
    i ∈ ((cfg1.win 8).blk t).view.set ↔ ∀ a : Fin 2, win1_8.index t a * S512x256.size a ≤ (i a).val ∧ (i a).val < win1_8.index t a * S512x256.size a + S512x256.size a := by
  show i ∈ ((View.whole main_v24_0).slice (win1_8.rect t)).set ↔ _
  rw [View.set_slice_whole, Rect.mem_set_unit]
  exact Iff.rfl

/-- Every row of the array is in some point's block: row `r` in point `r / 512`'s, and every point writes back. -/
theorem cover_8 (i : S4096x256.Idx) : ∃ t : Fin cfg1.N, (cfg1.win 8).flush t = true ∧ i ∈ ((cfg1.win 8).blk t).view.set := by
  have hi0 : (i 0).val < 4096 := (i 0).isLt
  have hi1 : (i 1).val < 256 := (i 1).isLt
  obtain ⟨t, ht⟩ : ∃ t : Fin grid1.N, t.val = (i 0).val / 512 := ⟨⟨(i 0).val / 512, by rw [N_1]; omega⟩, rfl⟩
  obtain ⟨-, ⟨e0, e1⟩, -⟩ := idx_moving t
  have hc := coord_eq t
  refine ⟨t, flush1_8 t, ?_⟩
  rw [mem_blk_8]
  intro a
  match a with
  | ⟨0, _⟩ => show win1_8.index t (0 : Fin 2) * 512 ≤ (i 0).val ∧ (i 0).val < win1_8.index t (0 : Fin 2) * 512 + 512; omega
  | ⟨1, _⟩ => show win1_8.index t (1 : Fin 2) * 256 ≤ (i 1).val ∧ (i 1).val < win1_8.index t (1 : Fin 2) * 256 + 256; omega

/-- What point `t` writes back to output window 9's array is block `t` of the assembled matrix: an element of the block
    sits at row 512·t + its row, and that row of the assembled matrix is block `t`'s. -/
theorem flushed_9 (c : Dev nD) (t : Fin cfg1.N) :
    (dat V c).flushed 9 t = ((cfg1.win 9).blk t).view.read (Elt F) (S2 (arrays V c)) := by
  obtain ⟨-, -, e0, e1⟩ := idx_moving t
  show (cfg1.win 9).cut (grid1.coords t) ((dat V c).after 9 t) = _
  rw [after_9]
  funext y
  show s2B (arrays V c) (blkOf (grid1.coords t)) y = S2 (arrays V c) (((cfg1.win 9).blk t).view.emb y)
  unfold S2
  refine (asm8_at (α := Elt F .f32) (m := 4096) (s2B (arrays V c)) (blkOf (grid1.coords t)) y _ ?_ ?_).symm
  · show win1_9.index t (0 : Fin 2) * 512 + 1 * (y 0).val = (grid1.coords t 0).val * 512 + (y 0).val; omega
  · show win1_9.index t (1 : Fin 2) * 4096 + 1 * (y 1).val = (y 1).val; omega

/-- An index of the array is in point `t`'s block iff each coordinate is in the block's range on its axis. -/
theorem mem_blk_9 (t : Fin cfg1.N) (i : S4096x4096.Idx) :
    i ∈ ((cfg1.win 9).blk t).view.set ↔ ∀ a : Fin 2, win1_9.index t a * S512x4096.size a ≤ (i a).val ∧ (i a).val < win1_9.index t a * S512x4096.size a + S512x4096.size a := by
  show i ∈ ((View.whole main_v24_1).slice (win1_9.rect t)).set ↔ _
  rw [View.set_slice_whole, Rect.mem_set_unit]
  exact Iff.rfl

/-- Every row of the array is in some point's block: row `r` in point `r / 512`'s, and every point writes back. -/
theorem cover_9 (i : S4096x4096.Idx) : ∃ t : Fin cfg1.N, (cfg1.win 9).flush t = true ∧ i ∈ ((cfg1.win 9).blk t).view.set := by
  have hi0 : (i 0).val < 4096 := (i 0).isLt
  have hi1 : (i 1).val < 4096 := (i 1).isLt
  obtain ⟨t, ht⟩ : ∃ t : Fin grid1.N, t.val = (i 0).val / 512 := ⟨⟨(i 0).val / 512, by rw [N_1]; omega⟩, rfl⟩
  obtain ⟨-, -, e0, e1⟩ := idx_moving t
  have hc := coord_eq t
  refine ⟨t, flush1_9 t, ?_⟩
  rw [mem_blk_9]
  intro a
  match a with
  | ⟨0, _⟩ => show win1_9.index t (0 : Fin 2) * 512 ≤ (i 0).val ∧ (i 0).val < win1_9.index t (0 : Fin 2) * 512 + 512; omega
  | ⟨1, _⟩ => show win1_9.index t (1 : Fin 2) * 4096 ≤ (i 1).val ∧ (i 1).val < win1_9.index t (1 : Fin 2) * 4096 + 4096; omega

theorem final8 (c : Dev nD) : (dat V c).arrAt 8 cfg1.N = F2 (arrays V c) :=
  (dat V c).arrAt_eq_of_cover 8 (F2 (arrays V c)) (fun t _ => flushed_8 V c t) cover_8
theorem final9 (c : Dev nD) : (dat V c).arrAt 9 cfg1.N = S2 (arrays V c) :=
  (dat V c).arrAt_eq_of_cover 9 (S2 (arrays V c)) (fun t _ => flushed_9 V c t) cover_9

end Cert.Kernel.Decode

end
-- ==== Proof.WKernelRunDefs.lean ====
/-
  The TensorCore's buffer contents at the two kernel regions' entries, as folds from the launch memory: after the
  host operations that pad the 64-wide layer's weights and reshape the batch-norm rows, and then after the first
  region's write-backs.
-/
import proofs.«181189_g481036337843_cont_8to1c4_37_6_alg».proof.Proof.WStackData
import proofs.«181189_g481036337843_cont_8to1c4_37_6_alg».proof.Proof.WDecodeData
import Idealize.ShloMosaic.Lib.Pipeline.FrameSuffix

noncomputable section

namespace Cert.Kernel.Run

open Idealize.ShloMosaic Idealize.ShloMosaic.TcCoe Cert.Kernel Cert.Kernel.Gen
open Idealize.SL Idealize.SL.Sem

variable {F : FTy → Type} [FloatOps F]
variable (m : (ℓ : Loc nD τ sig) → Buf (Elt F) ℓ)

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
/-- The same read at the TensorCore's references: what the first region's proof data take. -/
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (Stack.dat (V1 m) c).arrAt w cfg0.N
/-- The same read at the TensorCore's references: what the second region's proof data take. -/
abbrev V2 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (Decode.dat (V2 m) c).arrAt w cfg1.N

end Cert.Kernel.Run

end
-- ==== Proof.WStackObligFacts.lean ====
/-
  Facts about the graph-convolution stack's pipeline that its body obligation is assembled from.

  * The schedule, decided over the 64 grid points: a point's number from its coordinates, where each output window is
    idle and where it is written back, and the adjacency window's block index.
  * What the proof data says each window's staging buffer holds after the body, window by window.
  * Every input window's current staging buffer holds its block at every point, fetched there or not; the block of a
    whole-array window is the array, and the adjacency window's block in stage 0 is the point's row block.
  * The third output window (the structure branch's statistics), written once at point 48 and written back at point
    63, holds that value at every point in between.
  * How a staging buffer's contents after the body meet what the obligation asks of the window at the point.
-/
import proofs.«181189_g481036337843_cont_8to1c4_37_6_alg».proof.Proof.WStackData

set_option maxRecDepth 16384

noncomputable section

namespace Cert.Kernel.Stack

open Idealize.ShloMosaic Idealize.ShloMosaic.TcCoe Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-! ## The schedule -/

/-- A grid point's number is sixteen times its stage plus its row block. -/
theorem pt_coords : ∀ t : Fin cfg0.N, t.val = 16 * (grid0.coords t 0).val + (grid0.coords t 1).val :=
  (by decide +kernel : ∀ t : Fin grid0.N, t.val = 16 * (grid0.coords t 0).val + (grid0.coords t 1).val)

/-- The two activation outputs are idle before stage 3, -/
theorem idle_11 : ∀ t : Fin cfg0.N, cfg0.idle 11 (cfg0.grid.coords t) = decide (t.val < 48) :=
  (by decide +kernel : ∀ t : Fin grid0.N, idle0 11 (grid0.coords t) = decide (t.val < 48))
theorem idle_12 : ∀ t : Fin cfg0.N, cfg0.idle 12 (cfg0.grid.coords t) = decide (t.val < 48) :=
  (by decide +kernel : ∀ t : Fin grid0.N, idle0 12 (grid0.coords t) = decide (t.val < 48))
/-- the structure branch's statistics everywhere but at point 48, the final statistics everywhere but at point 63. -/
theorem idle_13 : ∀ t : Fin cfg0.N, cfg0.idle 13 (cfg0.grid.coords t) = decide (t.val ≠ 48) :=
  (by decide +kernel : ∀ t : Fin grid0.N, idle0 13 (grid0.coords t) = decide (t.val ≠ 48))
theorem idle_14 : ∀ t : Fin cfg0.N, cfg0.idle 14 (cfg0.grid.coords t) = decide (t.val ≠ 63) :=
  (by decide +kernel : ∀ t : Fin grid0.N, idle0 14 (grid0.coords t) = decide (t.val ≠ 63))
/-- The activation outputs are written back at every point of stage 3, the statistics at the last point. -/
theorem flush_11 : ∀ t : Fin cfg0.N, (cfg0.win 11).flush t = decide (48 ≤ t.val) :=
  (by decide +kernel : ∀ t : Fin grid0.N, win0_11.flush t = decide (48 ≤ t.val))
theorem flush_12 : ∀ t : Fin cfg0.N, (cfg0.win 12).flush t = decide (48 ≤ t.val) :=
  (by decide +kernel : ∀ t : Fin grid0.N, win0_12.flush t = decide (48 ≤ t.val))
theorem flush_13 : ∀ t : Fin cfg0.N, (cfg0.win 13).flush t = decide (t.val = 63) :=
  (by decide +kernel : ∀ t : Fin grid0.N, win0_13.flush t = decide (t.val = 63))
theorem flush_14 : ∀ t : Fin cfg0.N, (cfg0.win 14).flush t = decide (t.val = 63) :=
  (by decide +kernel : ∀ t : Fin grid0.N, win0_14.flush t = decide (t.val = 63))
/-- The adjacency window's block index: the point's row block in stage 0, the last block afterwards. -/
theorem index_0 : ∀ t : Fin cfg0.N,
    win0_0.index t (0 : Fin 2) = (if (grid0.coords t 0).val = 0 then (grid0.coords t 1).val else 15) ∧ win0_0.index t (1 : Fin 2) = 0 :=
  (by decide +kernel : ∀ t : Fin grid0.N, _)

/-! ## What the proof data leaves in each window's buffer -/

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = u4B (arrays V c) (blkOf (grid0.coords t)) := by dsimp only [dat]
theorem after_12 (c : Dev nD) (t : Fin cfg0.N) : (dat V c).after 12 t = u3sB (arrays V c) (blkOf (grid0.coords t)) := by dsimp only [dat]
theorem after_13 (c : Dev nD) (t : Fin cfg0.N) : (dat V c).after 13 t = S1STATS (arrays V c) := by dsimp only [dat]
theorem after_14 (c : Dev nD) (t : Fin cfg0.N) : (dat V c).after 14 t = U4STATS (arrays V c) := by dsimp only [dat]

/-! ## The input windows: the buffer holds the block, fetched there or not -/

theorem before_blk_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [dat_A]; try rfl) t d).trans
    (by unfold Dat.fetched Dat.blockOf iblk; rw [dat_A]; try rfl)
theorem before_blk_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [dat_A]; try rfl) t d).trans
    (by unfold Dat.fetched Dat.blockOf iblk; rw [dat_A]; try rfl)
theorem before_blk_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [dat_A]; try rfl) t d).trans
    (by unfold Dat.fetched Dat.blockOf iblk; rw [dat_A]; try rfl)
theorem before_blk_3 (c : Dev nD) (t : Fin cfg0.N) (d) : (dat V c).before 3 t d = iblk V c 3 t :=
  ((dat V c).before_in_eq_fetched 3 rfl (fun _ => rfl) (fun _ _ _ => rfl)
      (fun t => by rw [after_3]; unfold Dat.blockOf iblk; rw [dat_A]; try rfl) t d).trans
    (by unfold Dat.fetched Dat.blockOf iblk; rw [dat_A]; try rfl)
theorem before_blk_4 (c : Dev nD) (t : Fin cfg0.N) (d) : (dat V c).before 4 t d = iblk V c 4 t :=
  ((dat V c).before_in_eq_fetched 4 rfl (fun _ => rfl) (fun _ _ _ => rfl)
      (fun t => by rw [after_4]; unfold Dat.blockOf iblk; rw [dat_A]; try rfl) t d).trans
    (by unfold Dat.fetched Dat.blockOf iblk; rw [dat_A]; try rfl)
theorem before_blk_5 (c : Dev nD) (t : Fin cfg0.N) (d) : (dat V c).before 5 t d = iblk V c 5 t :=
  ((dat V c).before_in_eq_fetched 5 rfl (fun _ => rfl) (fun _ _ _ => rfl)
      (fun t => by rw [after_5]; unfold Dat.blockOf iblk; rw [dat_A]; try rfl) t d).trans
    (by unfold Dat.fetched Dat.blockOf iblk; rw [dat_A]; try rfl)
theorem before_blk_6 (c : Dev nD) (t : Fin cfg0.N) (d) : (dat V c).before 6 t d = iblk V c 6 t :=
  ((dat V c).before_in_eq_fetched 6 rfl (fun _ => rfl) (fun _ _ _ => rfl)
      (fun t => by rw [after_6]; unfold Dat.blockOf iblk; rw [dat_A]; try rfl) t d).trans
    (by unfold Dat.fetched Dat.blockOf iblk; rw [dat_A]; try rfl)
theorem before_blk_7 (c : Dev nD) (t : Fin cfg0.N) (d) : (dat V c).before 7 t d = iblk V c 7 t :=
  ((dat V c).before_in_eq_fetched 7 rfl (fun _ => rfl) (fun _ _ _ => rfl)
      (fun t => by rw [after_7]; unfold Dat.blockOf iblk; rw [dat_A]; try rfl) t d).trans
    (by unfold Dat.fetched Dat.blockOf iblk; rw [dat_A]; try rfl)
theorem before_blk_8 (c : Dev nD) (t : Fin cfg0.N) (d) : (dat V c).before 8 t d = iblk V c 8 t :=
  ((dat V c).before_in_eq_fetched 8 rfl (fun _ => rfl) (fun _ _ _ => rfl)
      (fun t => by rw [after_8]; unfold Dat.blockOf iblk; rw [dat_A]; try rfl) t d).trans
    (by unfold Dat.fetched Dat.blockOf iblk; rw [dat_A]; try rfl)
theorem before_blk_9 (c : Dev nD) (t : Fin cfg0.N) (d) : (dat V c).before 9 t d = iblk V c 9 t :=
  ((dat V c).before_in_eq_fetched 9 rfl (fun _ => rfl) (fun _ _ _ => rfl)
      (fun t => by rw [after_9]; unfold Dat.blockOf iblk; rw [dat_A]; try rfl) t d).trans
    (by unfold Dat.fetched Dat.blockOf iblk; rw [dat_A]; try rfl)
theorem before_blk_10 (c : Dev nD) (t : Fin cfg0.N) (d) : (dat V c).before 10 t d = iblk V c 10 t :=
  ((dat V c).before_in_eq_fetched 10 rfl (fun _ => rfl) (fun _ _ _ => rfl)
      (fun t => by rw [after_10]; unfold Dat.blockOf iblk; rw [dat_A]; try rfl) t d).trans
    (by unfold Dat.fetched Dat.blockOf iblk; rw [dat_A]; try rfl)

/-! ## The blocks against the arrays: a block's coordinate is its index times its size plus the coordinate inside -/

/-- In stage 0 the adjacency window's block is the point's row block. -/
theorem iblk_0 (c : Dev nD) (t : Fin cfg0.N) (hs : (grid0.coords t 0).val = 0) :
    iblk V c 0 t = rowBlk (arrays V c).adj (blkOf (grid0.coords t)) := by
  funext j
  unfold rowBlk
  show V c main_arg1 (((cfg0.win 0).blk t).view.emb j) = V c main_arg1 _
  refine congrArg _ ?_
  obtain ⟨e0, e1⟩ := index_0 t
  funext a; apply Fin.ext
  match a with
  | ⟨0, _⟩ =>
    show win0_0.index t (0 : Fin 2) * 256 + 1 * (j 0).val = 256 * (grid0.coords t 1).val + (j 0).val
    rw [e0, if_pos hs]; omega
  | ⟨1, _⟩ =>
    show win0_0.index t (1 : Fin 2) * 4096 + 1 * (j 1).val = (j 1).val
    rw [e1]; omega

/-- Every other input window has one block, the whole array. -/
theorem iblk_1 (c : Dev nD) (t : Fin cfg0.N) : iblk V c 1 t = (arrays V c).x := by
  funext j
  show V c main_arg0 (((cfg0.win 1).blk t).view.emb j) = V c main_arg0 j
  refine congrArg _ ?_
  funext a; apply Fin.ext
  match a with
  | ⟨0, _⟩ => show 0 * 4096 + 1 * (j 0).val = (j 0).val; omega
  | ⟨1, _⟩ => show 0 * 256 + 1 * (j 1).val = (j 1).val; omega
theorem iblk_2 (c : Dev nD) (t : Fin cfg0.N) : iblk V c 2 t = (arrays V c).w1 := by
  funext j
  show V c main_arg2 (((cfg0.win 2).blk t).view.emb j) = V c main_arg2 j
  refine congrArg _ ?_
  funext a; apply Fin.ext
  match a with
  | ⟨0, _⟩ => show 0 * 256 + 1 * (j 0).val = (j 0).val; omega
  | ⟨1, _⟩ => show 0 * 128 + 1 * (j 1).val = (j 1).val; omega
theorem iblk_3 (c : Dev nD) (t : Fin cfg0.N) : iblk V c 3 t = (arrays V c).w2 := by
  funext j
  show V c main_v2 (((cfg0.win 3).blk t).view.emb j) = V c main_v2 j
  refine congrArg _ ?_
  funext a; apply Fin.ext
  match a with
  | ⟨0, _⟩ => show 0 * 128 + 1 * (j 0).val = (j 0).val; omega
  | ⟨1, _⟩ => show 0 * 128 + 1 * (j 1).val = (j 1).val; omega
theorem iblk_4 (c : Dev nD) (t : Fin cfg0.N) : iblk V c 4 t = (arrays V c).g2 := by
  funext j
  show V c main_v6 (((cfg0.win 4).blk t).view.emb j) = V c main_v6 j
  refine congrArg _ ?_
  funext a; apply Fin.ext
  match a with
  | ⟨0, _⟩ => show 0 * 1 + 1 * (j 0).val = (j 0).val; omega
  | ⟨1, _⟩ => show 0 * 128 + 1 * (j 1).val = (j 1).val; omega
theorem iblk_5 (c : Dev nD) (t : Fin cfg0.N) : iblk V c 5 t = (arrays V c).b2 := by
  funext j
  show V c main_v10 (((cfg0.win 5).blk t).view.emb j) = V c main_v10 j
  refine congrArg _ ?_
  funext a; apply Fin.ext
  match a with
  | ⟨0, _⟩ => show 0 * 1 + 1 * (j 0).val = (j 0).val; omega
  | ⟨1, _⟩ => show 0 * 128 + 1 * (j 1).val = (j 1).val; omega
theorem iblk_6 (c : Dev nD) (t : Fin cfg0.N) : iblk V c 6 t = (arrays V c).wf1 := by
  funext j
  show V c main_v13 (((cfg0.win 6).blk t).view.emb j) = V c main_v13 j
  refine congrArg _ ?_
  funext a; apply Fin.ext
  match a with
  | ⟨0, _⟩ => show 0 * 128 + 1 * (j 0).val = (j 0).val; omega
  | ⟨1, _⟩ => show 0 * 128 + 1 * (j 1).val = (j 1).val; omega
theorem iblk_7 (c : Dev nD) (t : Fin cfg0.N) : iblk V c 7 t = (arrays V c).gf1 := by
  funext j
  show V c main_v17 (((cfg0.win 7).blk t).view.emb j) = V c main_v17 j
  refine congrArg _ ?_
  funext a; apply Fin.ext
  match a with
  | ⟨0, _⟩ => show 0 * 1 + 1 * (j 0).val = (j 0).val; omega
  | ⟨1, _⟩ => show 0 * 128 + 1 * (j 1).val = (j 1).val; omega
theorem iblk_8 (c : Dev nD) (t : Fin cfg0.N) : iblk V c 8 t = (arrays V c).bf1 := by
  funext j
  show V c main_v18 (((cfg0.win 8).blk t).view.emb j) = V c main_v18 j
  refine congrArg _ ?_
  funext a; apply Fin.ext
  match a with
  | ⟨0, _⟩ => show 0 * 1 + 1 * (j 0).val = (j 0).val; omega
  | ⟨1, _⟩ => show 0 * 128 + 1 * (j 1).val = (j 1).val; omega
theorem iblk_9 (c : Dev nD) (t : Fin cfg0.N) : iblk V c 9 t = (arrays V c).wf2 := by
  funext j
  show V c main_arg9 (((cfg0.win 9).blk t).view.emb j) = V c main_arg9 j
  refine congrArg _ ?_
  funext a; apply Fin.ext
  match a with
  | ⟨0, _⟩ => show 0 * 128 + 1 * (j 0).val = (j 0).val; omega
  | ⟨1, _⟩ => show 0 * 256 + 1 * (j 1).val = (j 1).val; omega
theorem iblk_10 (c : Dev nD) (t : Fin cfg0.N) : iblk V c 10 t = (arrays V c).ws1 := by
  funext j
  show V c main_v16 (((cfg0.win 10).blk t).view.emb j) = V c main_v16 j
  refine congrArg _ ?_
  funext a; apply Fin.ext
  match a with
  | ⟨0, _⟩ => show 0 * 128 + 1 * (j 0).val = (j 0).val; omega
  | ⟨1, _⟩ => show 0 * 128 + 1 * (j 1).val = (j 1).val; omega

/-- So the body finds each of them at its array, -/
theorem before_1 (c : Dev nD) (t : Fin cfg0.N) (d) : (dat V c).before 1 t d = (arrays V c).x :=
  (before_blk_1 V c t d).trans (iblk_1 V c t)
theorem before_2 (c : Dev nD) (t : Fin cfg0.N) (d) : (dat V c).before 2 t d = (arrays V c).w1 :=
  (before_blk_2 V c t d).trans (iblk_2 V c t)
theorem before_3 (c : Dev nD) (t : Fin cfg0.N) (d) : (dat V c).before 3 t d = (arrays V c).w2 :=
  (before_blk_3 V c t d).trans (iblk_3 V c t)
theorem before_4 (c : Dev nD) (t : Fin cfg0.N) (d) : (dat V c).before 4 t d = (arrays V c).g2 :=
  (before_blk_4 V c t d).trans (iblk_4 V c t)
theorem before_5 (c : Dev nD) (t : Fin cfg0.N) (d) : (dat V c).before 5 t d = (arrays V c).b2 :=
  (before_blk_5 V c t d).trans (iblk_5 V c t)
theorem before_6 (c : Dev nD) (t : Fin cfg0.N) (d) : (dat V c).before 6 t d = (arrays V c).wf1 :=
  (before_blk_6 V c t d).trans (iblk_6 V c t)
theorem before_7 (c : Dev nD) (t : Fin cfg0.N) (d) : (dat V c).before 7 t d = (arrays V c).gf1 :=
  (before_blk_7 V c t d).trans (iblk_7 V c t)
theorem before_8 (c : Dev nD) (t : Fin cfg0.N) (d) : (dat V c).before 8 t d = (arrays V c).bf1 :=
  (before_blk_8 V c t d).trans (iblk_8 V c t)
theorem before_9 (c : Dev nD) (t : Fin cfg0.N) (d) : (dat V c).before 9 t d = (arrays V c).wf2 :=
  (before_blk_9 V c t d).trans (iblk_9 V c t)
theorem before_10 (c : Dev nD) (t : Fin cfg0.N) (d) : (dat V c).before 10 t d = (arrays V c).ws1 :=
  (before_blk_10 V c t d).trans (iblk_10 V c t)
/-- and leaves it there. -/
theorem after_arr_1 (c : Dev nD) (t : Fin cfg0.N) : (dat V c).after 1 t = (arrays V c).x :=
  (after_1 V c t).trans (iblk_1 V c t)
theorem after_arr_2 (c : Dev nD) (t : Fin cfg0.N) : (dat V c).after 2 t = (arrays V c).w1 :=
  (after_2 V c t).trans (iblk_2 V c t)
theorem after_arr_3 (c : Dev nD) (t : Fin cfg0.N) : (dat V c).after 3 t = (arrays V c).w2 :=
  (after_3 V c t).trans (iblk_3 V c t)
theorem after_arr_4 (c : Dev nD) (t : Fin cfg0.N) : (dat V c).after 4 t = (arrays V c).g2 :=
  (after_4 V c t).trans (iblk_4 V c t)
theorem after_arr_5 (c : Dev nD) (t : Fin cfg0.N) : (dat V c).after 5 t = (arrays V c).b2 :=
  (after_5 V c t).trans (iblk_5 V c t)
theorem after_arr_6 (c : Dev nD) (t : Fin cfg0.N) : (dat V c).after 6 t = (arrays V c).wf1 :=
  (after_6 V c t).trans (iblk_6 V c t)
theorem after_arr_7 (c : Dev nD) (t : Fin cfg0.N) : (dat V c).after 7 t = (arrays V c).gf1 :=
  (after_7 V c t).trans (iblk_7 V c t)
theorem after_arr_8 (c : Dev nD) (t : Fin cfg0.N) : (dat V c).after 8 t = (arrays V c).bf1 :=
  (after_8 V c t).trans (iblk_8 V c t)
theorem after_arr_9 (c : Dev nD) (t : Fin cfg0.N) : (dat V c).after 9 t = (arrays V c).wf2 :=
  (after_9 V c t).trans (iblk_9 V c t)
theorem after_arr_10 (c : Dev nD) (t : Fin cfg0.N) : (dat V c).after 10 t = (arrays V c).ws1 :=
  (after_10 V c t).trans (iblk_10 V c t)

/-! ## The structure branch's statistics between their store and their write-back -/

theorem left_idle (c : Dev nD) (w : Fin cfg0.W) (t : Fin cfg0.N) (hi : cfg0.idle w (cfg0.grid.coords t) = true) (d) :
    (dat V c).left w t d = (dat V c).before w t d := by
  unfold Dat.left; rw [hi]
theorem left_live (c : Dev nD) (w : Fin cfg0.W) (t : Fin cfg0.N) (hi : cfg0.idle w (cfg0.grid.coords t) = false) (d) :
    (dat V c).left w t d = (dat V c).kept w t d := by
  unfold Dat.left; rw [hi]

/-- After point 48, where the body stores them, the third output window's buffer holds the statistics at every point:
    no point before the last writes the buffer back, and every later point is idle for the window. -/
theorem before_13 (c : Dev nD) : ∀ (n : ℕ) (hn : n < cfg0.N), 48 < n → ∀ d, (dat V c).before 13 ⟨n, hn⟩ d = S1STATS (arrays V c) := by
  intro n
  induction n with
  | zero => intro _ h; exact absurd h (by omega)
  | succ k ih =>
    intro hn h48 d
    have hk : k < cfg0.N := Nat.lt_of_succ_lt hn
    have hN : cfg0.N = 64 := N_0
    rw [(dat V c).before_of_pos 13 ⟨k + 1, hn⟩ (Nat.succ_ne_zero k) ((cfg0.win 13).fetch_out rfl _)]
    show (if (cfg0.win 13).flush ⟨k, hk⟩ then d else (dat V c).left 13 ⟨k, hk⟩ d) = _
    have hfl : (cfg0.win 13).flush ⟨k, hk⟩ = false := by
      rw [flush_13]; exact decide_eq_false (by show ¬ k = 63; omega)
    rw [hfl, if_neg Bool.false_ne_true]
    by_cases hk48 : k = 48
    · have hi : cfg0.idle 13 (cfg0.grid.coords ⟨k, hk⟩) = false := by
        rw [idle_13]; exact decide_eq_false (by show ¬ k ≠ 48; omega)
      rw [left_live V c 13 _ hi]
      unfold Dat.kept
      rw [Pipeline.fill_of_clip_none (cfg := cfg0) 13 _ (fun _ => rfl) d ((dat V c).after 13 ⟨k, hk⟩), Pipeline.Window.fill_cut, after_13]
    · have hi : cfg0.idle 13 (cfg0.grid.coords ⟨k, hk⟩) = true := by
        rw [idle_13]; exact decide_eq_true (by show k ≠ 48; omega)
      rw [left_idle V c 13 _ hi]
      exact ih hk (by omega) d

/-! ## Meeting what the obligation asks of a window's buffer after the body -/

/-- At a point idle for the window that does not write it back: the buffer as it was found. -/
theorem leaves_of_idle (c : Dev nD) (w : Fin cfg0.W) (t : Fin cfg0.N)
    (hi : cfg0.idle w (cfg0.grid.coords t) = true) (hf : (cfg0.win w).flush t = false) (d) :
    owns (c : Thread nD τ) ((cfg0.win w).stage (cfg0.slots t w)) fullShare ((dat V c).before w t d)
      ⊢ ((dat V c).leavesExact w t : sProp (𝕄0 F)) := by
  rw [Dat.leavesExact_idle _ w t hi hf]
  iintro H; iexists d; iexact H

/-- At a point live for the window: the buffer at what the proof data says the body leaves. -/
theorem leaves_of_live (c : Dev nD) (w : Fin cfg0.W) (t : Fin cfg0.N) (hi : cfg0.idle w (cfg0.grid.coords t) = false) (X)
    (hX : X = (dat V c).after w t) :
    owns (c : Thread nD τ) ((cfg0.win w).stage (cfg0.slots t w)) fullShare X ⊢ ((dat V c).leavesExact w t : sProp (𝕄0 F)) := by
  subst hX; unfold Dat.leavesExact; rw [hi]

/-- At an idle point that writes the window back: likewise. -/
theorem leaves_of_flush (c : Dev nD) (w : Fin cfg0.W) (t : Fin cfg0.N) (hi : cfg0.idle w (cfg0.grid.coords t) = true)
    (hf : (cfg0.win w).flush t = true) (X) (hX : X = (dat V c).after w t) :
    owns (c : Thread nD τ) ((cfg0.win w).stage (cfg0.slots t w)) fullShare X ⊢ ((dat V c).leavesExact w t : sProp (𝕄0 F)) := by
  subst hX; unfold Dat.leavesExact; rw [hi, hf]

end Cert.Kernel.Stack

end
-- ==== Proof.WStackObligGlue.lean ====
/-
  The graph-convolution stack's body at a grid point, between the pipeline's holdings and a control case's run.

  A control case's run of the body is stated over any staging memrefs (`StepSpec`: what the nine cases' theorems share).
  Here it is applied at the point's current staging buffers: the invariant is opened to the scratch buffers' contents,
  the case's run carries them to the next point's, and the region's other scoped buffers ride along (`run_point`).
  Then the pipeline's own spelling of what the body is called with and what it returns (`bodyPre`, `bodyPost`), and the
  body's triple in that spelling from a control case's run and, per output window, the reason its buffer's contents
  are what the obligation asks there (`sound_body_of`).
-/
import proofs.«181189_g481036337843_cont_8to1c4_37_6_alg».proof.Proof.WStackObligFacts

set_option maxRecDepth 16384

noncomputable section

namespace Cert.Kernel.Stack

open Idealize.ShloMosaic Idealize.ShloMosaic.TcCoe Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- A control case's run of the body at coordinates `i`, from the invariant at point `n`: on any whole staging memrefs, the
    inputs at the adjacency block `x0` and the arrays `A`, the outputs at `d11 … d14`, it leaves the inputs as they were
    and the outputs at `o11 … o14`, and takes the scratch buffers from contents satisfying `Inv A n` to contents
    satisfying `Inv A (n + 1)`. -/
def StepSpec (c : Dev nD) (i : grid0.Coords) (n : ℕ) (A : Arrays F) (x0 : Vec F S256x4096 .f32)
    (d11 : Vec F S256x256 .f32) (d12 : Vec F S256x128 .f32) (d13 : Vec F S2x128 .f32) (d14 : Vec F S2x256 .f32)
    (o11 : Vec F S256x256 .f32) (o12 : Vec F S256x128 .f32) (o13 : Vec F S2x128 .f32) (o14 : Vec F S2x256 .f32) : Prop :=
  ∀ (E : Set ℕ) (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (st : St F) (hInv : Inv A n st) (K : PUnit → sProp (𝕄0 F)),
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (n + 1) st'⌝ ∗ ins c arg2 arg3 arg4 arg5 arg6 arg7 arg8 arg9 arg10 arg11 arg12 x0 A
            ∗ outs c arg13 arg14 arg15 arg16 o11 o12 o13 o14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K

/-- The body at point `t` on the current staging buffers, from the invariant at `n` and anything `R` beside it: a control
    case's run carries the invariant to `n + 1` and the buffers to what it leaves; `R` is not touched. -/
theorem run_point (c : Dev nD) (t : Fin cfg0.N) (n : ℕ) (A : Arrays F) (hA : arrays V c = A) (x0 : Vec F S256x4096 .f32)
    (d11 : Vec F S256x256 .f32) (d12 : Vec F S256x128 .f32) (d13 : Vec F S2x128 .f32) (d14 : Vec F S2x256 .f32)
    (o11 : Vec F S256x256 .f32) (o12 : Vec F S256x128 .f32) (o13 : Vec F S2x128 .f32) (o14 : Vec F S2x256 .f32)
    (hstep : StepSpec c (grid0.coords t) n A x0 d11 d12 d13 d14 o11 o12 o13 o14)
    (R : sProp (𝕄0 F)) (K : PUnit → sProp (𝕄0 F)) :
    iprop(Phi V c n ∗ R
      ∗ owns (c : Thread nD τ) (st0_0 t) fullShare x0
      ∗ owns (c : Thread nD τ) (st0_1 t) fullShare A.x
      ∗ owns (c : Thread nD τ) (st0_2 t) fullShare A.w1
      ∗ owns (c : Thread nD τ) (st0_3 t) fullShare A.w2
      ∗ owns (c : Thread nD τ) (st0_4 t) fullShare A.g2
      ∗ owns (c : Thread nD τ) (st0_5 t) fullShare A.b2
      ∗ owns (c : Thread nD τ) (st0_6 t) fullShare A.wf1
      ∗ owns (c : Thread nD τ) (st0_7 t) fullShare A.gf1
      ∗ owns (c : Thread nD τ) (st0_8 t) fullShare A.bf1
      ∗ owns (c : Thread nD τ) (st0_9 t) fullShare A.wf2
      ∗ owns (c : Thread nD τ) (st0_10 t) fullShare A.ws1
      ∗ owns (c : Thread nD τ) (st0_11 t) fullShare d11
      ∗ owns (c : Thread nD τ) (st0_12 t) fullShare d12
      ∗ owns (c : Thread nD τ) (st0_13 t) fullShare d13
      ∗ owns (c : Thread nD τ) (st0_14 t) fullShare d14
      ∗ (iprop(Phi V c (n + 1) ∗ R
      ∗ owns (c : Thread nD τ) (st0_0 t) fullShare x0
      ∗ owns (c : Thread nD τ) (st0_1 t) fullShare A.x
      ∗ owns (c : Thread nD τ) (st0_2 t) fullShare A.w1
      ∗ owns (c : Thread nD τ) (st0_3 t) fullShare A.w2
      ∗ owns (c : Thread nD τ) (st0_4 t) fullShare A.g2
      ∗ owns (c : Thread nD τ) (st0_5 t) fullShare A.b2
      ∗ owns (c : Thread nD τ) (st0_6 t) fullShare A.wf1
      ∗ owns (c : Thread nD τ) (st0_7 t) fullShare A.gf1
      ∗ owns (c : Thread nD τ) (st0_8 t) fullShare A.bf1
      ∗ owns (c : Thread nD τ) (st0_9 t) fullShare A.wf2
      ∗ owns (c : Thread nD τ) (st0_10 t) fullShare A.ws1
      ∗ owns (c : Thread nD τ) (st0_11 t) fullShare o11
      ∗ owns (c : Thread nD τ) (st0_12 t) fullShare o12
      ∗ owns (c : Thread nD τ) (st0_13 t) fullShare o13
      ∗ owns (c : Thread nD τ) (st0_14 t) fullShare o14) -∗ K ⟨⟩))
      ⊢ wp frame (wpE (defs₀ (F := F)) Variants.none c none) Set.univ (bodyAt0 t) K := by
  subst hA
  unfold Phi
  iintro ⟨⟨⟨%st, %hInv, Hscr⟩, Hrest⟩, HR, H0, H1, H2, H3, H4, H5, H6, H7, H8, H9, H10, H11, H12, H13, H14, HK⟩
  iapply (hstep Set.univ _ _ _ _ _ _ _ _ _ _ _ _ _ _ _ _ _ _ _ _ _ _ _ _ _ _ _ _ _ _ st hInv _)
  unfold ins outs
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14]
  · isplitl [H11]; · iexact H11
    isplitl [H12]; · iexact H12
    isplitl [H13]; · iexact H13
    iexact H14
  isplitl [Hscr]; · iexact Hscr
  iintro ⟨%st', %hInv', ⟨H0, H1, H2, H3, H4, H5, H6, H7, H8, H9, H10⟩, ⟨H11, H12, H13, H14⟩, Hscr⟩
  iapply HK
  isplitl [Hscr Hrest]
  · isplitl [Hscr]
    · iexists st'; isplitr; · ipureintro; exact hInv'
      iexact Hscr
    iexact Hrest
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ## The obligation at a point, in the pipeline's own spelling -/

/-- What the pipeline calls the body with at point `t`, the windows one by one: the invariant, what the core owes, and
    each window's current staging buffer at what it then holds, -/
def bodyPre (c : Dev nD) (t : Fin cfg0.N) : sProp (𝕄0 F) :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d))
    ∗ (∃ d, owns (c : Thread nD τ) (st0_13 t) fullShare ((dat V c).before 13 t d))
    ∗ (∃ d, owns (c : Thread nD τ) (st0_14 t) fullShare ((dat V c).before 14 t d)))

/-- and what it asks back: the next invariant, what the core then owes, each input's buffer at what the proof data says
    the body leaves, and each output's buffer at that too where the point is live for the window or writes it back, and
    as it was found where the point is idle for it. -/
def bodyPost (c : Dev nD) (t : Fin cfg0.N) : sProp (𝕄0 F) :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ (dat V c).leavesExact 11 t
    ∗ (dat V c).leavesExact 12 t
    ∗ (dat V c).leavesExact 13 t
    ∗ (dat V c).leavesExact 14 t)

/-- The body's triple at point `t` (number `n`), from a control case's run there — for whatever the output windows' buffers
    are found holding, leaving them at `o11 … o14` of that — and, per output window, the reason that what is left is what
    the obligation asks of the window at the point. The inputs' buffers hold their blocks (the adjacency window its
    current block, every other window its array), the invariant is handed to the run and taken back a point later, and
    what the core owes passes through. -/
theorem sound_body_of (c : Dev nD) (t : Fin cfg0.N) (n : ℕ) (hn : t.val = n)
    (o11 : Vec F S256x256 .f32 → Vec F S256x256 .f32) (o12 : Vec F S256x128 .f32 → Vec F S256x128 .f32)
    (o13 : Vec F S2x128 .f32 → Vec F S2x128 .f32) (o14 : Vec F S2x256 .f32 → Vec F S2x256 .f32)
    (hstep : ∀ d11 d12 d13 d14, StepSpec c (grid0.coords t) n (arrays V c) (iblk V c 0 t) d11 d12 d13 d14 (o11 d11) (o12 d12) (o13 d13) (o14 d14))
    (h11 : ∀ d, owns (c : Thread nD τ) (st0_11 t) fullShare (o11 ((dat V c).before 11 t d)) ⊢ ((dat V c).leavesExact 11 t : sProp (𝕄0 F)))
    (h12 : ∀ d, owns (c : Thread nD τ) (st0_12 t) fullShare (o12 ((dat V c).before 12 t d)) ⊢ ((dat V c).leavesExact 12 t : sProp (𝕄0 F)))
    (h13 : ∀ d, owns (c : Thread nD τ) (st0_13 t) fullShare (o13 ((dat V c).before 13 t d)) ⊢ ((dat V c).leavesExact 13 t : sProp (𝕄0 F)))
    (h14 : ∀ d, owns (c : Thread nD τ) (st0_14 t) fullShare (o14 ((dat V c).before 14 t d)) ⊢ ((dat V c).leavesExact 14 t : sProp (𝕄0 F))) :
    bodyPre V c t ⊢ wp frame (wpE (defs₀ (F := F)) Variants.none c none) Set.univ (bodyAt0 t) (fun _ => bodyPost V c t) := by
  unfold bodyPre bodyPost
  simp only [before_blk_0, before_1, before_2, before_3, before_4, before_5, before_6, before_7, before_8, before_9, before_10]
  rw [dat_Phi, dat_Phi, show (dat V c).owesAt () t.succ = (dat V c).owesAt () t.castSucc from rfl,
    after_0, after_arr_1, after_arr_2, after_arr_3, after_arr_4, after_arr_5, after_arr_6, after_arr_7, after_arr_8,
    after_arr_9, after_arr_10,
    show (t.castSucc).val = n from hn, show (t.succ).val = n + 1 from by rw [Fin.val_succ, hn]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩⟩
  iapply (run_point V c t n (arrays V c) rfl (iblk V c 0 t) ((dat V c).before 11 t d11) ((dat V c).before 12 t d12)
    ((dat V c).before 13 t d13) ((dat V c).before 14 t d14) _ _ _ _ (hstep _ _ _ _) ((dat V c).owesAt () t.castSucc) _)
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨HΦ, Ho, H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (h11 d11); iexact H11
  isplitl [H12]; · iapply (h12 d12); iexact H12
  isplitl [H13]; · iapply (h13 d13); iexact H13
  iapply (h14 d14); iexact H14

end Cert.Kernel.Stack

end
-- ==== Proof.WStackView.lean ====
/-
  Small facts every control case of the graph-convolution stack's body needs, stated once.

  * The body's conditions in closed form over a grid point's two coordinates (stage `i 0 < 4`, row block `i 1 < 16`):
    each condition word is `1` exactly when the stated equations on the coordinates hold.
  * The row offsets the body computes: `256 · (i 1)` (and `512 · (i 0)` in the second region).
  * What a load through a literal rectangle reads at an index, and what a store through one leaves at an index; from
    these, the row-block, column-half and two-row readings of the scratch buffers the invariant is stated in.
-/
import proofs.«181189_g481036337843_cont_8to1c4_37_6_alg».proof.Proof.WStackSpec
import Idealize.ShloMosaic.Lib.Pipeline.FrameBody

noncomputable section

namespace Cert.Kernel.Stack.View

open Idealize.ShloMosaic Idealize.ShloMosaic.ValueIdx Cert.Kernel Cert.Kernel.Gen

/-! ## Words: comparisons, the one-bit conjunction, and a coordinate as a 32-bit word -/

/-- Widening a bit to a word and testing the word against zero gives the bit back. -/
theorem cmpi_ne_extui (b : BitVec 1) : Scalar.cmpi .ne (Scalar.extui b) 0#32 = b := by
  revert b; decide

/-- An equality test answers `1` exactly on equal words. -/
theorem cmpi_eq_one_iff (a b : BitVec 32) : Scalar.cmpi .eq a b = 1#1 ↔ a = b := by
  show BitVec.ofBool (a == b) = 1#1 ↔ a = b
  by_cases h : a = b
  · subst h; simp
  · have hb : (a == b) = false := beq_eq_false_iff_ne.mpr h
    rw [hb]; exact ⟨fun h' => absurd h' (by decide), fun h' => absurd h' h⟩

/-- A conjunction of bits is `1` exactly when both are. -/
theorem andi_eq_one_iff (x y : BitVec 1) : Scalar.andi x y = 1#1 ↔ x = 1#1 ∧ y = 1#1 := by
  revert x y; decide

/-- Two naturals below `2 ^ 32` are equal as words exactly when they are equal. -/
theorem ofNat_eq_iff (n k : ℕ) (hn : n < 4294967296) (hk : k < 4294967296) :
    BitVec.ofNat 32 n = BitVec.ofNat 32 k ↔ n = k := by
  constructor
  · intro h
    have := congrArg BitVec.toNat h
    rw [BitVec.toNat_ofNat, BitVec.toNat_ofNat] at this
    omega
  · rintro rfl; rfl

/-- The test `word of n = word of k`, widened and tested against zero, for small `n` and `k`. -/
theorem eqWord_iff (n k : ℕ) (hn : n < 4294967296) (hk : k < 4294967296) :
    Scalar.cmpi .ne (Scalar.extui (Scalar.cmpi .eq (BitVec.ofNat 32 n) (BitVec.ofNat 32 k))) 0#32 = 1#1 ↔ n = k := by
  rw [cmpi_ne_extui, cmpi_eq_one_iff, ofNat_eq_iff n k hn hk]

/-- The conjunction of two such tests, widened and tested against zero. -/
theorem eqWord2_iff (n k m l : ℕ) (hn : n < 4294967296) (hk : k < 4294967296) (hm : m < 4294967296) (hl : l < 4294967296) :
    Scalar.cmpi .ne (Scalar.extui (Scalar.andi (Scalar.cmpi .eq (BitVec.ofNat 32 n) (BitVec.ofNat 32 k))
      (Scalar.cmpi .eq (BitVec.ofNat 32 m) (BitVec.ofNat 32 l)))) 0#32 = 1#1 ↔ n = k ∧ m = l := by
  rw [cmpi_ne_extui, andi_eq_one_iff, cmpi_eq_one_iff, cmpi_eq_one_iff, ofNat_eq_iff n k hn hk, ofNat_eq_iff m l hm hl]

/-- A grid point's stage is below 4 and its row block below 16, as plain inequalities. -/
theorem stage_lt (i : grid0.Coords) : (i 0).val < 4 := (i 0).isLt
theorem blk_lt (i : grid0.Coords) : (i 1).val < 16 := (i 1).isLt

/-! ## The body's conditions, in closed form -/

/-- The stage-0 region is entered exactly at stage 0. -/
theorem cond6_iff (i : grid0.Coords) : k0_cond6 i = 1#1 ↔ (i 0).val = 0 := by
  have := stage_lt i
  exact eqWord_iff (i 0).val 0 (by omega) (by omega)
/-- The stage-1 region is entered exactly at stage 1. -/
theorem cond7_iff (i : grid0.Coords) : k0_cond7 i = 1#1 ↔ (i 0).val = 1 := by
  have := stage_lt i
  exact eqWord_iff (i 0).val 1 (by omega) (by omega)
/-- The stage-2 region is entered exactly at stage 2. -/
theorem cond8_iff (i : grid0.Coords) : k0_cond8 i = 1#1 ↔ (i 0).val = 2 := by
  have := stage_lt i
  exact eqWord_iff (i 0).val 2 (by omega) (by omega)
/-- The stage-3 region is entered exactly at stage 3. -/
theorem cond9_iff (i : grid0.Coords) : k0_cond9 i = 1#1 ↔ (i 0).val = 3 := by
  have := stage_lt i
  exact eqWord_iff (i 0).val 3 (by omega) (by omega)
/-- The stage-3 support is built exactly at stage 3, block 0. -/
theorem cond4_iff (i : grid0.Coords) : k0_cond4 i = 1#1 ↔ (i 0).val = 3 ∧ (i 1).val = 0 := by
  have := stage_lt i; have := blk_lt i
  exact eqWord2_iff (i 0).val 3 (i 1).val 0 (by omega) (by omega) (by omega) (by omega)
/-- The final statistics are written exactly at stage 3, block 15. -/
theorem cond10_iff (i : grid0.Coords) : k0_cond10 i = 1#1 ↔ (i 0).val = 3 ∧ (i 1).val = 15 := by
  have := stage_lt i; have := blk_lt i
  exact eqWord2_iff (i 0).val 3 (i 1).val 15 (by omega) (by omega) (by omega) (by omega)

/-! ## The four condition words the body computes in line, as the same chains over the coordinates' words -/

/-- "stage 0 and block 0": the stage-0 support is built. -/
theorem v4_iff (i : grid0.Coords) :
    Scalar.cmpi .ne (Scalar.extui (Scalar.andi (Scalar.cmpi .eq (BitVec.ofNat 32 (i 0).val) 0#32)
      (Scalar.cmpi .eq (BitVec.ofNat 32 (i 1).val) 0#32))) 0#32 = 1#1 ↔ (i 0).val = 0 ∧ (i 1).val = 0 := by
  have := stage_lt i; have := blk_lt i
  exact eqWord2_iff (i 0).val 0 (i 1).val 0 (by omega) (by omega) (by omega) (by omega)
/-- "stage 1 and block 0": the stage-1 support is built. -/
theorem v9_iff (i : grid0.Coords) :
    Scalar.cmpi .ne (Scalar.extui (Scalar.andi (Scalar.cmpi .eq (BitVec.ofNat 32 (i 0).val) 1#32)
      (Scalar.cmpi .eq (BitVec.ofNat 32 (i 1).val) 0#32))) 0#32 = 1#1 ↔ (i 0).val = 1 ∧ (i 1).val = 0 := by
  have := stage_lt i; have := blk_lt i
  exact eqWord2_iff (i 0).val 1 (i 1).val 0 (by omega) (by omega) (by omega) (by omega)
/-- "stage 2 and block 0": the stage-2 support is built. -/
theorem v14_iff (i : grid0.Coords) :
    Scalar.cmpi .ne (Scalar.extui (Scalar.andi (Scalar.cmpi .eq (BitVec.ofNat 32 (i 0).val) 2#32)
      (Scalar.cmpi .eq (BitVec.ofNat 32 (i 1).val) 0#32))) 0#32 = 1#1 ↔ (i 0).val = 2 ∧ (i 1).val = 0 := by
  have := stage_lt i; have := blk_lt i
  exact eqWord2_iff (i 0).val 2 (i 1).val 0 (by omega) (by omega) (by omega) (by omega)
/-- "block 0": the running sums are reset. -/
theorem v22_iff (i : grid0.Coords) :
    Scalar.cmpi .ne (Scalar.extui (Scalar.cmpi .eq (BitVec.ofNat 32 (i 1).val) 0#32)) 0#32 = 1#1 ↔ (i 1).val = 0 := by
  have := blk_lt i
  exact eqWord_iff (i 1).val 0 (by omega) (by omega)

/-! ## The same, one direction at a time (what a discharger of a conditional wants) -/

theorem cond6_pos (i : grid0.Coords) (h : (i 0).val = 0) : k0_cond6 i = 1#1 := (cond6_iff i).mpr h
theorem cond6_neg (i : grid0.Coords) (h : (i 0).val ≠ 0) : ¬ k0_cond6 i = 1#1 := fun e => h ((cond6_iff i).mp e)
theorem cond7_pos (i : grid0.Coords) (h : (i 0).val = 1) : k0_cond7 i = 1#1 := (cond7_iff i).mpr h
theorem cond7_neg (i : grid0.Coords) (h : (i 0).val ≠ 1) : ¬ k0_cond7 i = 1#1 := fun e => h ((cond7_iff i).mp e)
theorem cond8_pos (i : grid0.Coords) (h : (i 0).val = 2) : k0_cond8 i = 1#1 := (cond8_iff i).mpr h
theorem cond8_neg (i : grid0.Coords) (h : (i 0).val ≠ 2) : ¬ k0_cond8 i = 1#1 := fun e => h ((cond8_iff i).mp e)
theorem cond9_pos (i : grid0.Coords) (h : (i 0).val = 3) : k0_cond9 i = 1#1 := (cond9_iff i).mpr h
theorem cond9_neg (i : grid0.Coords) (h : (i 0).val ≠ 3) : ¬ k0_cond9 i = 1#1 := fun e => h ((cond9_iff i).mp e)
theorem cond4_pos (i : grid0.Coords) (h0 : (i 0).val = 3) (h1 : (i 1).val = 0) : k0_cond4 i = 1#1 := (cond4_iff i).mpr ⟨h0, h1⟩
theorem cond4_neg (i : grid0.Coords) (h : (i 0).val ≠ 3 ∨ (i 1).val ≠ 0) : ¬ k0_cond4 i = 1#1 := fun e => by
  have := (cond4_iff i).mp e; omega
theorem cond10_pos (i : grid0.Coords) (h0 : (i 0).val = 3) (h1 : (i 1).val = 15) : k0_cond10 i = 1#1 := (cond10_iff i).mpr ⟨h0, h1⟩
theorem cond10_neg (i : grid0.Coords) (h : (i 0).val ≠ 3 ∨ (i 1).val ≠ 15) : ¬ k0_cond10 i = 1#1 := fun e => by
  have := (cond10_iff i).mp e; omega
theorem v4_pos (i : grid0.Coords) (h0 : (i 0).val = 0) (h1 : (i 1).val = 0) :
    Scalar.cmpi .ne (Scalar.extui (Scalar.andi (Scalar.cmpi .eq (BitVec.ofNat 32 (i 0).val) 0#32)
      (Scalar.cmpi .eq (BitVec.ofNat 32 (i 1).val) 0#32))) 0#32 = 1#1 := (v4_iff i).mpr ⟨h0, h1⟩
theorem v4_neg (i : grid0.Coords) (h : (i 0).val ≠ 0 ∨ (i 1).val ≠ 0) :
    ¬ Scalar.cmpi .ne (Scalar.extui (Scalar.andi (Scalar.cmpi .eq (BitVec.ofNat 32 (i 0).val) 0#32)
      (Scalar.cmpi .eq (BitVec.ofNat 32 (i 1).val) 0#32))) 0#32 = 1#1 := fun e => by
  have := (v4_iff i).mp e; omega
theorem v9_pos (i : grid0.Coords) (h0 : (i 0).val = 1) (h1 : (i 1).val = 0) :
    Scalar.cmpi .ne (Scalar.extui (Scalar.andi (Scalar.cmpi .eq (BitVec.ofNat 32 (i 0).val) 1#32)
      (Scalar.cmpi .eq (BitVec.ofNat 32 (i 1).val) 0#32))) 0#32 = 1#1 := (v9_iff i).mpr ⟨h0, h1⟩
theorem v9_neg (i : grid0.Coords) (h : (i 0).val ≠ 1 ∨ (i 1).val ≠ 0) :
    ¬ Scalar.cmpi .ne (Scalar.extui (Scalar.andi (Scalar.cmpi .eq (BitVec.ofNat 32 (i 0).val) 1#32)
      (Scalar.cmpi .eq (BitVec.ofNat 32 (i 1).val) 0#32))) 0#32 = 1#1 := fun e => by
  have := (v9_iff i).mp e; omega
theorem v14_pos (i : grid0.Coords) (h0 : (i 0).val = 2) (h1 : (i 1).val = 0) :
    Scalar.cmpi .ne (Scalar.extui (Scalar.andi (Scalar.cmpi .eq (BitVec.ofNat 32 (i 0).val) 2#32)
      (Scalar.cmpi .eq (BitVec.ofNat 32 (i 1).val) 0#32))) 0#32 = 1#1 := (v14_iff i).mpr ⟨h0, h1⟩
theorem v14_neg (i : grid0.Coords) (h : (i 0).val ≠ 2 ∨ (i 1).val ≠ 0) :
    ¬ Scalar.cmpi .ne (Scalar.extui (Scalar.andi (Scalar.cmpi .eq (BitVec.ofNat 32 (i 0).val) 2#32)
      (Scalar.cmpi .eq (BitVec.ofNat 32 (i 1).val) 0#32))) 0#32 = 1#1 := fun e => by
  have := (v14_iff i).mp e; omega
theorem v22_pos (i : grid0.Coords) (h : (i 1).val = 0) :
    Scalar.cmpi .ne (Scalar.extui (Scalar.cmpi .eq (BitVec.ofNat 32 (i 1).val) 0#32)) 0#32 = 1#1 := (v22_iff i).mpr h
theorem v22_neg (i : grid0.Coords) (h : (i 1).val ≠ 0) :
    ¬ Scalar.cmpi .ne (Scalar.extui (Scalar.cmpi .eq (BitVec.ofNat 32 (i 1).val) 0#32)) 0#32 = 1#1 :=
  fun e => h ((v22_iff i).mp e)

/-! ## The offsets the body computes -/

/-- A small natural times 256, computed on 32-bit words, is the product. -/
theorem mul256_toNat (b : ℕ) (hb : b < 16) :
    (Scalar.indexCast (Scalar.muli (BitVec.ofNat 32 b) 256#32)).toNat = 256 * b := by
  show (BitVec.ofNat 32 b * 256#32).toNat = 256 * b
  rw [BitVec.toNat_mul, BitVec.toNat_ofNat, BitVec.toNat_ofNat]
  omega
/-- A small natural times 512, computed on 32-bit words, is the product. -/
theorem mul512_toNat (b : ℕ) (hb : b < 8) :
    (Scalar.indexCast (Scalar.muli (BitVec.ofNat 32 b) 512#32)).toNat = 512 * b := by
  show (BitVec.ofNat 32 b * 512#32).toNat = 512 * b
  rw [BitVec.toNat_mul, BitVec.toNat_ofNat, BitVec.toNat_ofNat]
  omega

theorem off1_eq (i : grid0.Coords) : k0_off1 i = ![256 * (i 1).val, 0] := by
  show ![(Scalar.indexCast (Scalar.muli (BitVec.ofNat 32 (i 1).val) 256#32)).toNat, (0#32 : BitVec 32).toNat] = _
  rw [mul256_toNat _ (blk_lt i)]; rfl
theorem off2_eq (i : grid0.Coords) : k0_off2 i = ![256 * (i 1).val, 0] := by
  show ![(Scalar.indexCast (Scalar.muli (BitVec.ofNat 32 (i 1).val) 256#32)).toNat, (0#32 : BitVec 32).toNat] = _
  rw [mul256_toNat _ (blk_lt i)]; rfl
theorem off3_eq (i : grid0.Coords) : k0_off3 i = ![256 * (i 1).val, 0] := by
  show ![(Scalar.indexCast (Scalar.muli (BitVec.ofNat 32 (i 1).val) 256#32)).toNat, (0#32 : BitVec 32).toNat] = _
  rw [mul256_toNat _ (blk_lt i)]; rfl
theorem off4_eq (i : grid0.Coords) : k0_off4 i = ![256 * (i 1).val, 0] := by
  show ![(Scalar.indexCast (Scalar.muli (BitVec.ofNat 32 (i 1).val) 256#32)).toNat, (0#32 : BitVec 32).toNat] = _
  rw [mul256_toNat _ (blk_lt i)]; rfl
theorem off5_eq (i : grid0.Coords) : k0_off5 i = ![256 * (i 1).val, 0] := by
  show ![(Scalar.indexCast (Scalar.muli (BitVec.ofNat 32 (i 1).val) 256#32)).toNat, (0#32 : BitVec 32).toNat] = _
  rw [mul256_toNat _ (blk_lt i)]; rfl
theorem off6_eq (i : grid0.Coords) : k0_off6 i = ![256 * (i 1).val, 0] := by
  show ![(Scalar.indexCast (Scalar.muli (BitVec.ofNat 32 (i 1).val) 256#32)).toNat, (0#32 : BitVec 32).toNat] = _
  rw [mul256_toNat _ (blk_lt i)]; rfl
theorem off7_eq (i : grid0.Coords) : k0_off7 i = ![256 * (i 1).val, 0] := by
  show ![(Scalar.indexCast (Scalar.muli (BitVec.ofNat 32 (i 1).val) 256#32)).toNat, (0#32 : BitVec 32).toNat] = _
  rw [mul256_toNat _ (blk_lt i)]; rfl
theorem off8_eq (i : grid0.Coords) : k0_off8 i = ![256 * (i 1).val, 128] := by
  show ![(Scalar.indexCast (Scalar.muli (BitVec.ofNat 32 (i 1).val) 256#32)).toNat, (128#32 : BitVec 32).toNat] = _
  rw [mul256_toNat _ (blk_lt i)]; rfl
/-- The second region's row offset: 512 rows a grid point. -/
theorem k1_off1_eq (i : grid1.Coords) : k1_off1 i = ![512 * (i 0).val, 0] := by
  show ![(Scalar.indexCast (Scalar.muli (BitVec.ofNat 32 (i 0).val) 512#32)).toNat, (0#32 : BitVec 32).toNat] = _
  rw [mul512_toNat _ (i 0).isLt]; rfl

/-! ## A load and a store through a literal rectangle of a matrix, at an index -/

section Generic

variable {N M n m : ℕ}

/-- The in-bounds evidence of an `n × m` rectangle of an `N × M` matrix, one axis at a time, as plain inequalities. -/
theorem inb_rows {off : Fin 2 → ℕ} (inb : ∀ a, off a + (![n, m] : Fin 2 → ℕ) a ≤ (⟨2, ![N, M]⟩ : Shape).size a) :
    off 0 + n ≤ N := inb 0
theorem inb_cols {off : Fin 2 → ℕ} (inb : ∀ a, off a + (![n, m] : Fin 2 → ℕ) a ≤ (⟨2, ![N, M]⟩ : Shape).size a) :
    off 1 + m ≤ M := inb 1

/-- Where the rectangle places its own index `(r, q)`: at `(off 0 + r, off 1 + q)`. -/
theorem unit_idx (off : Fin 2 → ℕ) (inb : ∀ a, off a + (![n, m] : Fin 2 → ℕ) a ≤ (⟨2, ![N, M]⟩ : Shape).size a)
    (r : Fin n) (q : Fin m) :
    (Rect.unit (s := ⟨2, ![N, M]⟩) off ![n, m] inb).idx (ix2 r q)
      = ix2 (⟨off 0 + r.val, by have := inb_rows inb; omega⟩ : Fin N) (⟨off 1 + q.val, by have := inb_cols inb; omega⟩ : Fin M) := by
  funext d
  match d with
  | ⟨0, _⟩ => exact Fin.ext (show off 0 + 1 * r.val = off 0 + r.val by omega)
  | ⟨1, _⟩ => exact Fin.ext (show off 1 + 1 * q.val = off 1 + q.val by omega)

/-- An index `(a, b)` of the matrix lies in the rectangle exactly when both coordinates lie in its spans. -/
theorem mem_unit_iff (off : Fin 2 → ℕ) (inb : ∀ a, off a + (![n, m] : Fin 2 → ℕ) a ≤ (⟨2, ![N, M]⟩ : Shape).size a)
    (a : Fin N) (b : Fin M) :
    ix2 a b ∈ (Rect.unit (s := ⟨2, ![N, M]⟩) off ![n, m] inb).set
      ↔ (off 0 ≤ a.val ∧ a.val < off 0 + n) ∧ (off 1 ≤ b.val ∧ b.val < off 1 + m) := by
  rw [Rect.mem_set_unit]
  exact Fin.forall_fin_two

section Load

variable {Val : EltTy → Type} {e : EltTy}

/-- A load through the rectangle reads, at its index `(r, q)`, the matrix at `(off 0 + r, off 1 + q)`. -/
theorem ld_unit_apply (f : (⟨2, ![N, M]⟩ : Shape).Idx → Val e) (off : Fin 2 → ℕ)
    (inb : ∀ a, off a + (![n, m] : Fin 2 → ℕ) a ≤ (⟨2, ![N, M]⟩ : Shape).size a) (r : Fin n) (q : Fin m) :
    Idealize.ShloMosaic.View.ld f (Rect.unit (s := ⟨2, ![N, M]⟩) off ![n, m] inb) (ix2 r q)
      = f (ix2 (⟨off 0 + r.val, by have := inb_rows inb; omega⟩ : Fin N) (⟨off 1 + q.val, by have := inb_cols inb; omega⟩ : Fin M)) :=
  congrArg f (unit_idx off inb r q)

end Load

section Store

variable {α : Type}

/-- What a store of `v` through the rectangle leaves at an index inside it: `v` at the index less the offsets. -/
theorem overlay_unit_in (f : (⟨2, ![N, M]⟩ : Shape).Idx → α) (off : Fin 2 → ℕ)
    (inb : ∀ a, off a + (![n, m] : Fin 2 → ℕ) a ≤ (⟨2, ![N, M]⟩ : Shape).size a) (v : (⟨2, ![n, m]⟩ : Shape).Idx → α)
    (a : Fin N) (b : Fin M) (ha : off 0 ≤ a.val ∧ a.val < off 0 + n) (hb : off 1 ≤ b.val ∧ b.val < off 1 + m) :
    (Rect.unit (s := ⟨2, ![N, M]⟩) off ![n, m] inb).overlay f v (ix2 a b)
      = v (ix2 (⟨a.val - off 0, by omega⟩ : Fin n) (⟨b.val - off 1, by omega⟩ : Fin m)) := by
  have hidx : ix2 a b = (Rect.unit (s := ⟨2, ![N, M]⟩) off ![n, m] inb).emb
      (ix2 (⟨a.val - off 0, by omega⟩ : Fin n) (⟨b.val - off 1, by omega⟩ : Fin m)) := by
    refine ((unit_idx off inb _ _).trans ?_).symm
    congr 1 <;> exact Fin.ext (by show _ + (_ - _) = _; omega)
  rw [hidx]
  exact Rect.overlay_emb (Rect.unit (s := ⟨2, ![N, M]⟩) off ![n, m] inb) f v _

/-- What it leaves at an index outside the rectangle: the old contents. -/
theorem overlay_unit_out (f : (⟨2, ![N, M]⟩ : Shape).Idx → α) (off : Fin 2 → ℕ)
    (inb : ∀ a, off a + (![n, m] : Fin 2 → ℕ) a ≤ (⟨2, ![N, M]⟩ : Shape).size a) (v : (⟨2, ![n, m]⟩ : Shape).Idx → α)
    (a : Fin N) (b : Fin M) (h : ¬ ((off 0 ≤ a.val ∧ a.val < off 0 + n) ∧ (off 1 ≤ b.val ∧ b.val < off 1 + m))) :
    (Rect.unit (s := ⟨2, ![N, M]⟩) off ![n, m] inb).overlay f v (ix2 a b) = f (ix2 a b) :=
  Rect.overlay_of_not_mem _ f v (fun hm => h ((mem_unit_iff off inb a b).mp hm))

/-- Both at once. -/
theorem overlay_unit_apply (f : (⟨2, ![N, M]⟩ : Shape).Idx → α) (off : Fin 2 → ℕ)
    (inb : ∀ a, off a + (![n, m] : Fin 2 → ℕ) a ≤ (⟨2, ![N, M]⟩ : Shape).size a) (v : (⟨2, ![n, m]⟩ : Shape).Idx → α)
    (a : Fin N) (b : Fin M) :
    (Rect.unit (s := ⟨2, ![N, M]⟩) off ![n, m] inb).overlay f v (ix2 a b)
      = if h : (off 0 ≤ a.val ∧ a.val < off 0 + n) ∧ (off 1 ≤ b.val ∧ b.val < off 1 + m)
        then v (ix2 (⟨a.val - off 0, by omega⟩ : Fin n) (⟨b.val - off 1, by omega⟩ : Fin m)) else f (ix2 a b) := by
  by_cases h : (off 0 ≤ a.val ∧ a.val < off 0 + n) ∧ (off 1 ≤ b.val ∧ b.val < off 1 + m)
  · rw [dif_pos h]; exact overlay_unit_in f off inb v a b h.1 h.2
  · rw [dif_neg h]; exact overlay_unit_out f off inb v a b h

/-- Reading back through the rectangle just stored through gives the stored value. -/
theorem overlay_idx {S : Shape} (r : Rect S) (f : S.Idx → α) (v : r.shape.Idx → α) (x : r.shape.Idx) :
    r.overlay f v (r.idx x) = v x := Rect.overlay_emb r f v x

end Store

end Generic

/-! ## Row blocks, column halves and stacked rows, read and stored through the body's rectangles -/

/-- Indices with equal coordinates are equal. -/
theorem ix2_congr {n0 n1 : ℕ} {a a' : Fin n0} {b b' : Fin n1} (ha : a.val = a'.val) (hb : b.val = b'.val) :
    ix2 a b = ix2 a' b' := by
  cases Fin.ext ha; cases Fin.ext hb; rfl

/-- The offsets `![0, 0]` are zero on every axis (the form the whole-shape lemmas ask for). -/
theorem zero2 : (![0, 0] : Fin 2 → ℕ) = fun _ => 0 := by
  funext a; match a with | ⟨0, _⟩ => rfl | ⟨1, _⟩ => rfl

section Blocks

variable {α : Type} {m : ℕ}

/-- A matrix assembled from sixteen row blocks has them as its row blocks. -/
theorem rowBlk_asm16 (blk : Fin 16 → ((⟨2, ![256, m]⟩ : Shape).Idx → α)) (b : Fin 16) : rowBlk (asm16 blk) b = blk b := by
  funext y
  obtain ⟨r, q, rfl⟩ : ∃ (r : Fin 256) (q : Fin m), y = ix2 r q := ⟨y 0, y 1, eq_ix2 y⟩
  have hb := b.isLt; have hr := r.isLt
  have h1 : (256 * b.val + r.val) / 256 = b.val := by omega
  have h2 : (256 * b.val + r.val) % 256 = r.val := by omega
  show blk ⟨(256 * b.val + r.val) / 256, _⟩ (ix2 ⟨(256 * b.val + r.val) % 256, _⟩ q) = blk b (ix2 r q)
  exact congr (congrArg blk (Fin.ext h1)) (ix2_congr h2 rfl)

/-- A matrix is assembled from its own row blocks. -/
theorem asm16_rowBlk (f : (⟨2, ![4096, m]⟩ : Shape).Idx → α) : asm16 (rowBlk f) = f := by
  funext j
  obtain ⟨a, c, rfl⟩ : ∃ (a : Fin 4096) (c : Fin m), j = ix2 a c := ⟨j 0, j 1, eq_ix2 j⟩
  have ha := a.isLt
  exact congrArg f (ix2_congr (show 256 * (a.val / 256) + a.val % 256 = a.val by omega) rfl)

/-- Agreement on no rows holds of any two matrices; agreement on more rows gives agreement on fewer. -/
theorem agreeRows_zero (f g : (⟨2, ![4096, m]⟩ : Shape).Idx → α) : AgreeRows f g 0 :=
  fun r c h => absurd h (by omega)
theorem agreeRows_mono {f g : (⟨2, ![4096, m]⟩ : Shape).Idx → α} {k k' : ℕ} (h : AgreeRows f g k) (hk : k' ≤ k) :
    AgreeRows f g k' := fun r c hr => h r c (by omega)
theorem agreeRows_refl (f : (⟨2, ![4096, m]⟩ : Shape).Idx → α) (k : ℕ) : AgreeRows f f k := fun _ _ _ => rfl

/-- Agreement on all sixteen blocks is equality. -/
theorem eq_of_agreeRows_16 {f g : (⟨2, ![4096, m]⟩ : Shape).Idx → α} (h : AgreeRows f g 16) : f = g := by
  funext j
  obtain ⟨a, c, rfl⟩ : ∃ (a : Fin 4096) (c : Fin m), j = ix2 a c := ⟨j 0, j 1, eq_ix2 j⟩
  exact h a c (by have := a.isLt; omega)

/-- Matrices that agree on their first `k` blocks have the same `b`-th block for `b < k`. -/
theorem rowBlk_eq_of_agreeRows {f g : (⟨2, ![4096, m]⟩ : Shape).Idx → α} {k : ℕ} (h : AgreeRows f g k) (b : Fin 16)
    (hb : b.val < k) : rowBlk f b = rowBlk g b := by
  funext y
  have := idx2_lt0 y
  exact h _ _ (by show 256 * b.val + (y 0).val < 256 * k; omega)

/-- Storing `v` at row block `k` of a matrix that agreed with `G` on the first `k` blocks, `v` being `G`'s block `k`,
    leaves a matrix that agrees with `G` on the first `k + 1`. -/
theorem agreeRows_overlay (f G : (⟨2, ![4096, m]⟩ : Shape).Idx → α) (k : ℕ) (hk : k < 16) (off : Fin 2 → ℕ)
    (hoff : off = ![256 * k, 0]) (inb : ∀ a, off a + (![256, m] : Fin 2 → ℕ) a ≤ (⟨2, ![4096, m]⟩ : Shape).size a)
    (v : (⟨2, ![256, m]⟩ : Shape).Idx → α) (hf : AgreeRows f G k) (hv : v = rowBlk G ⟨k, hk⟩) :
    AgreeRows ((Rect.unit (s := ⟨2, ![4096, m]⟩) off ![256, m] inb).overlay f v) G (k + 1) := by
  have h0 : off 0 = 256 * k := by rw [hoff]; rfl
  have h1 : off 1 = 0 := by rw [hoff]; rfl
  subst hv
  intro r c hr
  have hc := c.isLt
  by_cases h : 256 * k ≤ r.val
  · rw [overlay_unit_in f off inb _ r c ⟨by omega, by omega⟩ ⟨by omega, by omega⟩]
    exact congrArg G (ix2_congr (by show 256 * k + (r.val - off 0) = r.val; omega) (by show c.val - off 1 = c.val; omega))
  · rw [overlay_unit_out f off inb _ r c (fun hh => h (by omega))]
    exact hf r c (by omega)

/-- Storing at row block `k` leaves every other row block as it was. -/
theorem rowBlk_overlay_of_ne (f : (⟨2, ![4096, m]⟩ : Shape).Idx → α) (k : ℕ) (off : Fin 2 → ℕ)
    (hoff : off = ![256 * k, 0]) (inb : ∀ a, off a + (![256, m] : Fin 2 → ℕ) a ≤ (⟨2, ![4096, m]⟩ : Shape).size a)
    (v : (⟨2, ![256, m]⟩ : Shape).Idx → α) (b : Fin 16) (hb : b.val ≠ k) :
    rowBlk ((Rect.unit (s := ⟨2, ![4096, m]⟩) off ![256, m] inb).overlay f v) b = rowBlk f b := by
  have h0 : off 0 = 256 * k := by rw [hoff]; rfl
  funext y
  have := idx2_lt0 y
  exact overlay_unit_out f off inb v _ (y 1) (fun hh => by have := hh.1; simp only [] at this; omega)

/-- Storing at row block `k` leaves `v` as that row block. -/
theorem rowBlk_overlay_self (f : (⟨2, ![4096, m]⟩ : Shape).Idx → α) (k : Fin 16) (off : Fin 2 → ℕ)
    (hoff : off = ![256 * k.val, 0]) (inb : ∀ a, off a + (![256, m] : Fin 2 → ℕ) a ≤ (⟨2, ![4096, m]⟩ : Shape).size a)
    (v : (⟨2, ![256, m]⟩ : Shape).Idx → α) :
    rowBlk ((Rect.unit (s := ⟨2, ![4096, m]⟩) off ![256, m] inb).overlay f v) k = v := by
  have h0 : off 0 = 256 * k.val := by rw [hoff]; rfl
  have h1 : off 1 = 0 := by rw [hoff]; rfl
  funext y
  obtain ⟨r, q, rfl⟩ : ∃ (r : Fin 256) (q : Fin m), y = ix2 r q := ⟨y 0, y 1, eq_ix2 y⟩
  have hr := r.isLt; have hq := q.isLt
  refine (overlay_unit_in f off inb v ⟨256 * k.val + r.val, by have := k.isLt; omega⟩ q ⟨by show off 0 ≤ 256 * k.val + r.val; omega, by show 256 * k.val + r.val < off 0 + 256; omega⟩ ⟨by omega, by omega⟩).trans ?_
  exact congrArg v (ix2_congr (by show 256 * k.val + r.val - off 0 = r.val; omega) (by show q.val - off 1 = q.val; omega))

end Blocks

section BlockLoads

variable {Val : EltTy → Type} {e : EltTy} {m : ℕ}

/-- The load of rows `256·b … 256·b + 255` of a 4096-row matrix IS its row block `b`. -/
theorem ld_rowBlk (f : (⟨2, ![4096, m]⟩ : Shape).Idx → Val e) (b : Fin 16) (off : Fin 2 → ℕ) (hoff : off = ![256 * b.val, 0])
    (inb : ∀ a, off a + (![256, m] : Fin 2 → ℕ) a ≤ (⟨2, ![4096, m]⟩ : Shape).size a) :
    Idealize.ShloMosaic.View.ld f (Rect.unit (s := ⟨2, ![4096, m]⟩) off ![256, m] inb) = rowBlk f b := by
  have h0 : off 0 = 256 * b.val := by rw [hoff]; rfl
  have h1 : off 1 = 0 := by rw [hoff]; rfl
  funext y
  obtain ⟨r, q, rfl⟩ : ∃ (r : Fin 256) (q : Fin m), y = ix2 r q := ⟨y 0, y 1, eq_ix2 y⟩
  rw [ld_unit_apply]
  exact congrArg f (ix2_congr (by show off 0 + r.val = 256 * b.val + r.val; omega) (by show off 1 + q.val = q.val; omega))

/-- The load of rows `256·b …` and columns `128 … 255` of a 4096 × 256 matrix IS row block `b` of its right half. -/
theorem ld_rowBlk_rcol (f : (⟨2, ![4096, 256]⟩ : Shape).Idx → Val e) (b : Fin 16) (off : Fin 2 → ℕ)
    (hoff : off = ![256 * b.val, 128])
    (inb : ∀ a, off a + (![256, 128] : Fin 2 → ℕ) a ≤ (⟨2, ![4096, 256]⟩ : Shape).size a) :
    Idealize.ShloMosaic.View.ld f (Rect.unit (s := ⟨2, ![4096, 256]⟩) off ![256, 128] inb) = rowBlk (rcol f) b := by
  have h0 : off 0 = 256 * b.val := by rw [hoff]; rfl
  have h1 : off 1 = 128 := by rw [hoff]; rfl
  funext y
  obtain ⟨r, q, rfl⟩ : ∃ (r : Fin 256) (q : Fin 128), y = ix2 r q := ⟨y 0, y 1, eq_ix2 y⟩
  rw [ld_unit_apply]
  exact congrArg f (ix2_congr (by show off 0 + r.val = 256 * b.val + r.val; omega) (by show off 1 + q.val = 128 + q.val; omega))

/-- The same for the left half. -/
theorem ld_rowBlk_lcol (f : (⟨2, ![4096, 256]⟩ : Shape).Idx → Val e) (b : Fin 16) (off : Fin 2 → ℕ)
    (hoff : off = ![256 * b.val, 0])
    (inb : ∀ a, off a + (![256, 128] : Fin 2 → ℕ) a ≤ (⟨2, ![4096, 256]⟩ : Shape).size a) :
    Idealize.ShloMosaic.View.ld f (Rect.unit (s := ⟨2, ![4096, 256]⟩) off ![256, 128] inb) = rowBlk (lcol f) b := by
  have h0 : off 0 = 256 * b.val := by rw [hoff]; rfl
  have h1 : off 1 = 0 := by rw [hoff]; rfl
  funext y
  obtain ⟨r, q, rfl⟩ : ∃ (r : Fin 256) (q : Fin 128), y = ix2 r q := ⟨y 0, y 1, eq_ix2 y⟩
  rw [ld_unit_apply]
  exact congrArg f (ix2_congr (by show off 0 + r.val = 256 * b.val + r.val; omega) (by show off 1 + q.val = q.val; omega))

/-- The load of the left 128 columns of a 256-column matrix IS its left half; of the right 128, its right half. -/
theorem ld_lcol {n : ℕ} (f : (⟨2, ![n, 256]⟩ : Shape).Idx → Val e) (off : Fin 2 → ℕ) (hoff : off = ![0, 0])
    (inb : ∀ a, off a + (![n, 128] : Fin 2 → ℕ) a ≤ (⟨2, ![n, 256]⟩ : Shape).size a) :
    Idealize.ShloMosaic.View.ld f (Rect.unit (s := ⟨2, ![n, 256]⟩) off ![n, 128] inb) = lcol f := by
  have h0 : off 0 = 0 := by rw [hoff]; rfl
  have h1 : off 1 = 0 := by rw [hoff]; rfl
  funext y
  obtain ⟨r, q, rfl⟩ : ∃ (r : Fin n) (q : Fin 128), y = ix2 r q := ⟨y 0, y 1, eq_ix2 y⟩
  rw [ld_unit_apply]
  exact congrArg f (ix2_congr (by show off 0 + r.val = r.val; omega) (by show off 1 + q.val = q.val; omega))
theorem ld_rcol {n : ℕ} (f : (⟨2, ![n, 256]⟩ : Shape).Idx → Val e) (off : Fin 2 → ℕ) (hoff : off = ![0, 128])
    (inb : ∀ a, off a + (![n, 128] : Fin 2 → ℕ) a ≤ (⟨2, ![n, 256]⟩ : Shape).size a) :
    Idealize.ShloMosaic.View.ld f (Rect.unit (s := ⟨2, ![n, 256]⟩) off ![n, 128] inb) = rcol f := by
  have h0 : off 0 = 0 := by rw [hoff]; rfl
  have h1 : off 1 = 128 := by rw [hoff]; rfl
  funext y
  obtain ⟨r, q, rfl⟩ : ∃ (r : Fin n) (q : Fin 128), y = ix2 r q := ⟨y 0, y 1, eq_ix2 y⟩
  rw [ld_unit_apply]
  exact congrArg f (ix2_congr (by show off 0 + r.val = r.val; omega) (by show off 1 + q.val = 128 + q.val; omega))

end BlockLoads

/-! ## Column halves: `hcat`, and stores into the left or right 128 columns -/

section Halves

variable {α : Type} {n : ℕ}

/-- `hcat` at an index of the left half, and of the right half. -/
theorem hcat_left (L R : (⟨2, ![n, 128]⟩ : Shape).Idx → α) (a : Fin n) (b : Fin 256) (h : b.val < 128) :
    hcat L R (ix2 a b) = L (ix2 a ⟨b.val, h⟩) := dif_pos h
theorem hcat_right (L R : (⟨2, ![n, 128]⟩ : Shape).Idx → α) (a : Fin n) (b : Fin 256) (h : ¬ b.val < 128) :
    hcat L R (ix2 a b) = R (ix2 a ⟨b.val - 128, by have := b.isLt; omega⟩) := dif_neg h

/-- The halves of two matrices side by side are the two matrices. -/
theorem lcol_hcat (L R : (⟨2, ![n, 128]⟩ : Shape).Idx → α) : lcol (hcat L R) = L := by
  funext y
  obtain ⟨r, q, rfl⟩ : ∃ (r : Fin n) (q : Fin 128), y = ix2 r q := ⟨y 0, y 1, eq_ix2 y⟩
  exact (hcat_left L R r ⟨q.val, by have := q.isLt; omega⟩ q.isLt).trans (congrArg L (ix2_congr rfl rfl))
theorem rcol_hcat (L R : (⟨2, ![n, 128]⟩ : Shape).Idx → α) : rcol (hcat L R) = R := by
  funext y
  obtain ⟨r, q, rfl⟩ : ∃ (r : Fin n) (q : Fin 128), y = ix2 r q := ⟨y 0, y 1, eq_ix2 y⟩
  have hq := q.isLt
  exact (hcat_right L R r ⟨128 + q.val, by omega⟩ (by show ¬ 128 + q.val < 128; omega)).trans
    (congrArg R (ix2_congr rfl (by show 128 + q.val - 128 = q.val; omega)))

/-- A matrix is its two halves side by side. -/
theorem hcat_lcol_rcol (f : (⟨2, ![n, 256]⟩ : Shape).Idx → α) : hcat (lcol f) (rcol f) = f := by
  funext j
  obtain ⟨a, b, rfl⟩ : ∃ (a : Fin n) (b : Fin 256), j = ix2 a b := ⟨j 0, j 1, eq_ix2 j⟩
  have hb' := b.isLt
  by_cases hb : b.val < 128
  · rw [hcat_left _ _ a b hb]; exact congrArg f (ix2_congr rfl rfl)
  · rw [hcat_right _ _ a b hb]; exact congrArg f (ix2_congr rfl (by show 128 + (b.val - 128) = b.val; omega))

/-- Storing `L` into the left 128 columns leaves `L` beside the old right half. -/
theorem overlay_lcol (f : (⟨2, ![n, 256]⟩ : Shape).Idx → α) (off : Fin 2 → ℕ) (hoff : off = ![0, 0])
    (inb : ∀ a, off a + (![n, 128] : Fin 2 → ℕ) a ≤ (⟨2, ![n, 256]⟩ : Shape).size a) (L : (⟨2, ![n, 128]⟩ : Shape).Idx → α) :
    (Rect.unit (s := ⟨2, ![n, 256]⟩) off ![n, 128] inb).overlay f L = hcat L (rcol f) := by
  have h0 : off 0 = 0 := by rw [hoff]; rfl
  have h1 : off 1 = 0 := by rw [hoff]; rfl
  funext j
  obtain ⟨a, b, rfl⟩ : ∃ (a : Fin n) (b : Fin 256), j = ix2 a b := ⟨j 0, j 1, eq_ix2 j⟩
  have ha := a.isLt; have hb' := b.isLt
  by_cases hb : b.val < 128
  · rw [overlay_unit_in f off inb L a b ⟨by omega, by omega⟩ ⟨by omega, by omega⟩, hcat_left _ _ a b hb]
    exact congrArg L (ix2_congr (by show a.val - off 0 = a.val; omega) (by show b.val - off 1 = b.val; omega))
  · rw [overlay_unit_out f off inb L a b (fun hh => by obtain ⟨_, _, h2⟩ := hh; omega), hcat_right _ _ a b hb]
    exact congrArg f (ix2_congr rfl (by show b.val = 128 + (b.val - 128); omega))

/-- Storing `R` into the right 128 columns leaves the old left half beside `R`. -/
theorem overlay_rcol (f : (⟨2, ![n, 256]⟩ : Shape).Idx → α) (off : Fin 2 → ℕ) (hoff : off = ![0, 128])
    (inb : ∀ a, off a + (![n, 128] : Fin 2 → ℕ) a ≤ (⟨2, ![n, 256]⟩ : Shape).size a) (R : (⟨2, ![n, 128]⟩ : Shape).Idx → α) :
    (Rect.unit (s := ⟨2, ![n, 256]⟩) off ![n, 128] inb).overlay f R = hcat (lcol f) R := by
  have h0 : off 0 = 0 := by rw [hoff]; rfl
  have h1 : off 1 = 128 := by rw [hoff]; rfl
  funext j
  obtain ⟨a, b, rfl⟩ : ∃ (a : Fin n) (b : Fin 256), j = ix2 a b := ⟨j 0, j 1, eq_ix2 j⟩
  have ha := a.isLt; have hb' := b.isLt
  by_cases hb : b.val < 128
  · rw [overlay_unit_out f off inb R a b (fun hh => by obtain ⟨_, h2, _⟩ := hh; omega), hcat_left _ _ a b hb]
    exact congrArg f (ix2_congr rfl rfl)
  · rw [overlay_unit_in f off inb R a b ⟨by omega, by omega⟩ ⟨by omega, by omega⟩, hcat_right _ _ a b hb]
    exact congrArg R (ix2_congr (by show a.val - off 0 = a.val; omega) (by show b.val - off 1 = b.val - 128; omega))

/-- So the halves after a store into one of them: the stored one is the payload, the other is untouched. -/
theorem lcol_overlay_lcol (f : (⟨2, ![n, 256]⟩ : Shape).Idx → α) (off : Fin 2 → ℕ) (hoff : off = ![0, 0])
    (inb : ∀ a, off a + (![n, 128] : Fin 2 → ℕ) a ≤ (⟨2, ![n, 256]⟩ : Shape).size a) (L : (⟨2, ![n, 128]⟩ : Shape).Idx → α) :
    lcol ((Rect.unit (s := ⟨2, ![n, 256]⟩) off ![n, 128] inb).overlay f L) = L := by
  rw [overlay_lcol f off hoff inb L, lcol_hcat]
theorem rcol_overlay_lcol (f : (⟨2, ![n, 256]⟩ : Shape).Idx → α) (off : Fin 2 → ℕ) (hoff : off = ![0, 0])
    (inb : ∀ a, off a + (![n, 128] : Fin 2 → ℕ) a ≤ (⟨2, ![n, 256]⟩ : Shape).size a) (L : (⟨2, ![n, 128]⟩ : Shape).Idx → α) :
    rcol ((Rect.unit (s := ⟨2, ![n, 256]⟩) off ![n, 128] inb).overlay f L) = rcol f := by
  rw [overlay_lcol f off hoff inb L, rcol_hcat]
theorem lcol_overlay_rcol (f : (⟨2, ![n, 256]⟩ : Shape).Idx → α) (off : Fin 2 → ℕ) (hoff : off = ![0, 128])
    (inb : ∀ a, off a + (![n, 128] : Fin 2 → ℕ) a ≤ (⟨2, ![n, 256]⟩ : Shape).size a) (R : (⟨2, ![n, 128]⟩ : Shape).Idx → α) :
    lcol ((Rect.unit (s := ⟨2, ![n, 256]⟩) off ![n, 128] inb).overlay f R) = lcol f := by
  rw [overlay_rcol f off hoff inb R, lcol_hcat]
theorem rcol_overlay_rcol (f : (⟨2, ![n, 256]⟩ : Shape).Idx → α) (off : Fin 2 → ℕ) (hoff : off = ![0, 128])
    (inb : ∀ a, off a + (![n, 128] : Fin 2 → ℕ) a ≤ (⟨2, ![n, 256]⟩ : Shape).size a) (R : (⟨2, ![n, 128]⟩ : Shape).Idx → α) :
    rcol ((Rect.unit (s := ⟨2, ![n, 256]⟩) off ![n, 128] inb).overlay f R) = R := by
  rw [overlay_rcol f off hoff inb R, rcol_hcat]

/-- Storing `L` into the left and then `R` into the right 128 columns gives `hcat L R`, whatever was there. -/
theorem overlay_lcol_rcol (f : (⟨2, ![n, 256]⟩ : Shape).Idx → α) (offL : Fin 2 → ℕ) (hL : offL = ![0, 0])
    (inbL : ∀ a, offL a + (![n, 128] : Fin 2 → ℕ) a ≤ (⟨2, ![n, 256]⟩ : Shape).size a) (offR : Fin 2 → ℕ) (hR : offR = ![0, 128])
    (inbR : ∀ a, offR a + (![n, 128] : Fin 2 → ℕ) a ≤ (⟨2, ![n, 256]⟩ : Shape).size a) (L R : (⟨2, ![n, 128]⟩ : Shape).Idx → α) :
    (Rect.unit (s := ⟨2, ![n, 256]⟩) offR ![n, 128] inbR).overlay
      ((Rect.unit (s := ⟨2, ![n, 256]⟩) offL ![n, 128] inbL).overlay f L) R = hcat L R := by
  rw [overlay_rcol _ offR hR inbR R, lcol_overlay_lcol f offL hL inbL L]

end Halves

/-! ## A store of a whole-shape value; a load of the whole shape -/

section Whole

variable {α : Type}

/-- A store through the whole-shape rectangle at zero offsets (however the zeros are spelt) replaces the contents. -/
theorem overlay_unit_zero {S : Shape} {off : Fin S.rank → ℕ} (h : off = fun _ => 0) (inb : ∀ a, off a + S.size a ≤ S.size a)
    (f v : S.Idx → α) : (Rect.unit off S.size inb).overlay f v = v := by
  subst h; funext y
  have e := Rect.overlay_emb (Rect.whole S) f v y
  rw [Rect.emb_whole_apply] at e
  exact e

/-- The same for a matrix, the offsets `![0, 0]` and the sizes a literal. -/
theorem overlay_whole2 {N M : ℕ} (f v : (⟨2, ![N, M]⟩ : Shape).Idx → α) (off : Fin 2 → ℕ) (hoff : off = ![0, 0])
    (inb : ∀ a, off a + (![N, M] : Fin 2 → ℕ) a ≤ (⟨2, ![N, M]⟩ : Shape).size a) :
    (Rect.unit (s := ⟨2, ![N, M]⟩) off ![N, M] inb).overlay f v = v :=
  overlay_unit_zero (S := ⟨2, ![N, M]⟩) (hoff.trans zero2) inb f v

/-- A load of the whole matrix reads the matrix. -/
theorem ld_whole2 {Val : EltTy → Type} {e : EltTy} {N M : ℕ} (f : (⟨2, ![N, M]⟩ : Shape).Idx → Val e) (off : Fin 2 → ℕ)
    (hoff : off = ![0, 0]) (inb : ∀ a, off a + (![N, M] : Fin 2 → ℕ) a ≤ (⟨2, ![N, M]⟩ : Shape).size a) :
    Idealize.ShloMosaic.View.ld f (Rect.unit (s := ⟨2, ![N, M]⟩) off ![N, M] inb) = f := by
  have hz := hoff.trans zero2
  subst hz
  funext x
  show f ((Rect.whole (⟨2, ![N, M]⟩ : Shape)).emb x) = f x
  rw [Rect.emb_whole_apply]

end Whole

/-! ## Two rows stacked -/

section Rows

variable {α : Type} {m : ℕ}

/-- `vcat2` at an index of its first row, and of its second. -/
theorem vcat2_row0 (top bot : (⟨2, ![1, m]⟩ : Shape).Idx → α) (c : Fin m) :
    vcat2 top bot (ix2 (0 : Fin 2) c) = top (ix2 0 c) := if_pos rfl
theorem vcat2_row1 (top bot : (⟨2, ![1, m]⟩ : Shape).Idx → α) (c : Fin m) :
    vcat2 top bot (ix2 (1 : Fin 2) c) = bot (ix2 0 c) := if_neg (by show ¬ ((1 : Fin 2).val = 0); decide)

/-- Storing a row into row 0 and then a row into row 1 of a two-row buffer gives the two rows stacked. -/
theorem overlay_rows (f : (⟨2, ![2, m]⟩ : Shape).Idx → α) (off0 : Fin 2 → ℕ) (h0 : off0 = ![0, 0])
    (inb0 : ∀ a, off0 a + (![1, m] : Fin 2 → ℕ) a ≤ (⟨2, ![2, m]⟩ : Shape).size a) (off1 : Fin 2 → ℕ) (h1 : off1 = ![1, 0])
    (inb1 : ∀ a, off1 a + (![1, m] : Fin 2 → ℕ) a ≤ (⟨2, ![2, m]⟩ : Shape).size a) (top bot : (⟨2, ![1, m]⟩ : Shape).Idx → α) :
    (Rect.unit (s := ⟨2, ![2, m]⟩) off1 ![1, m] inb1).overlay
      ((Rect.unit (s := ⟨2, ![2, m]⟩) off0 ![1, m] inb0).overlay f top) bot = vcat2 top bot := by
  have h00 : off0 0 = 0 := by rw [h0]; rfl
  have h01 : off0 1 = 0 := by rw [h0]; rfl
  have h10 : off1 0 = 1 := by rw [h1]; rfl
  have h11 : off1 1 = 0 := by rw [h1]; rfl
  funext j
  obtain ⟨a, c, rfl⟩ : ∃ (a : Fin 2) (c : Fin m), j = ix2 a c := ⟨j 0, j 1, eq_ix2 j⟩
  have ha' := a.isLt; have hc := c.isLt
  by_cases ha : a.val = 0
  · rw [overlay_unit_out _ off1 inb1 bot a c (fun hh => by obtain ⟨⟨h2, _⟩, _⟩ := hh; omega),
      overlay_unit_in f off0 inb0 top a c ⟨by omega, by omega⟩ ⟨by omega, by omega⟩]
    show _ = if a.val = 0 then top (ix2 0 c) else bot (ix2 0 c)
    rw [if_pos ha]
    exact congrArg top (ix2_congr (by show a.val - off0 0 = 0; omega) (by show c.val - off0 1 = c.val; omega))
  · rw [overlay_unit_in _ off1 inb1 bot a c ⟨by omega, by omega⟩ ⟨by omega, by omega⟩]
    show _ = if a.val = 0 then top (ix2 0 c) else bot (ix2 0 c)
    rw [if_neg ha]
    exact congrArg bot (ix2_congr (by show a.val - off1 0 = 0; omega) (by show c.val - off1 1 = c.val; omega))

end Rows

/-! ## From a list of stores to overlays -/

section Lists

variable {sig : RefSig} {κ : Kind} {sp : Space} {s : Shape} {e : EltTy} {Val : EltTy → Type}

/-- What a view reads after a run of stores: the last store's payload laid over what it read after the earlier ones. -/
theorem read_writes_cons (v : View sig κ sp s e) (f : v.ty.Contents Val) (r : Rect s) (w : r.shape.Idx → Val e)
    (L : List (Idealize.ShloMosaic.View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    rw [show r.idx x = r.emb x from rfl, Idealize.ShloMosaic.View.read_writes_cons_emb, Rect.overlay_emb]
  · rw [Rect.overlay_of_not_mem _ _ _ hy, Idealize.ShloMosaic.View.writes_cons,
      Idealize.ShloMosaic.View.read_slice_write_of_not_mem r _ _ _ (by rwa [Rect.map_emb_univ])]

/-- One store: its payload laid over what the view read before. -/
theorem read_write_slice (v : View sig κ sp s e) (f : v.ty.Contents Val) (r : Rect s) (w : r.shape.Idx → Val e) :
    v.read Val ((v.slice r).write Val f w Finset.univ) = r.overlay (v.read Val f) w :=
  read_writes_cons v f r w []

/-- A whole buffer's contents after a run of stores, as overlays (a whole buffer reads as its contents). -/
theorem writes_whole_cons (b : Ref sig κ) (f : b.ty.Contents Val) (r : Rect b.ty.shape) (w : r.shape.Idx → Val b.ty.elt)
    (L : List (Idealize.ShloMosaic.View.Piece Val b.ty.shape b.ty.elt)) :
    (View.whole b).writes Val f (⟨r, w⟩ :: L) = r.overlay ((View.whole b).writes Val f L) w :=
  read_writes_cons (View.whole b) f r w L
theorem writes_whole_one (b : Ref sig κ) (f : b.ty.Contents Val) (r : Rect b.ty.shape) (w : r.shape.Idx → Val b.ty.elt) :
    (View.whole b).writes Val f [⟨r, w⟩] = r.overlay f w :=
  read_writes_cons (View.whole b) f r w []

/-- A load after a run of stores reads, through its rectangle, the overlays. -/
theorem readAt_writes_cons (v : View sig κ sp s e) (f : v.ty.Contents Val) (r : Rect s) (w : r.shape.Idx → Val e)
    (L : List (Idealize.ShloMosaic.View.Piece Val s e)) (B : Rect s) :
    v.readAt Val B (v.writes Val f (⟨r, w⟩ :: L))
      = Idealize.ShloMosaic.View.ld (r.overlay (v.read Val (v.writes Val f L)) w) B := by
  rw [Idealize.ShloMosaic.View.readAt_eq_ld, read_writes_cons]

/-- A load through the rectangle just stored through reads the stored value; through a rectangle that shares no index
    with it, what was there before. -/
theorem ld_overlay_self {S : Shape} (r : Rect S) (f : S.Idx → Val e) (w : r.shape.Idx → Val e) :
    Idealize.ShloMosaic.View.ld (r.overlay f w) r = w := funext fun x => Rect.overlay_emb r f w x
theorem ld_overlay_of_disjoint {S : Shape} (r B : Rect S) (f : S.Idx → Val e) (w : r.shape.Idx → Val e)
    (h : ∀ x, B.idx x ∉ r.set) : Idealize.ShloMosaic.View.ld (r.overlay f w) B = Idealize.ShloMosaic.View.ld f B :=
  funext fun x => Rect.overlay_of_not_mem r f w (h x)

end Lists

end Cert.Kernel.Stack.View

end
-- ==== Proof.WStackStep00.lean ====
/-
  One grid point of the graph-convolution stack — stage 0, first block: the first support matrix is built, the running sums are cleared, then the block is parked and the first layer's block computed.
  From the scratch buffers as the points before left them (the invariant at this point) the kernel body runs to
  the invariant at the next point, the input blocks unchanged and the output blocks as stated.

  At this point the body stores four things: the support matrix (features times the first weight, in half precision) into
  the left 128 columns of the support buffer; zero rows into the two running sums; the adjacency's first 256 rows, in
  half precision, into rows 0 … 255 of the parked adjacency; and the first layer's first block — that parked block times
  the support matrix, rectified — into rows 0 … 255 of the first layer's buffer. Before the second point the invariant
  asks exactly for those first 256 rows of the two row-block buffers and for the support matrix; it says nothing yet of
  the running sums or of the later stages' buffers.
-/
import proofs.«181189_g481036337843_cont_8to1c4_37_6_alg».proof.Proof.WStackRes
import proofs.«181189_g481036337843_cont_8to1c4_37_6_alg».proof.Proof.WStackView

set_option maxRecDepth 16384

noncomputable section

namespace Cert.Kernel.Stack.C00

open Idealize.ShloMosaic Idealize.ShloMosaic.ValueIdx Cert.Kernel Cert.Kernel.Gen

variable {F : FTy → Type} [FloatOps F]

/-! ## One store through a unit-stride rectangle, read back at an index inside it -/

section Pointwise

variable {sig : RefSig} {κ : Kind} {sp : Space} {S : Shape} {e : EltTy} {Val : EltTy → Type}

/-- After one store through the rectangle at offsets `off`, an index `y` of the buffer that is `off + x` coordinate by
    coordinate reads the payload at `x`, whatever the buffer held before. -/
theorem read_store_in (v : View sig κ sp S e) (f : v.ty.Contents Val) (off size : Fin S.rank → Nat)
    (inb : ∀ a, off a + size a ≤ S.size a) (w : (Rect.unit off size inb).shape.Idx → Val e) (y : S.Idx)
    (x : (Rect.unit off size inb).shape.Idx) (hx : ∀ a, (y a).val = off a + (x a).val) :
    v.read Val (v.writes Val f [⟨Rect.unit off size inb, w⟩]) y = w x := by
  have hy : y = (Rect.unit off size inb).emb x := by
    funext a
    apply Fin.ext
    rw [Rect.emb_apply]
    simp only [Rect.off_unit, Rect.stride_unit, Nat.one_mul]
    exact hx a
  rw [hy]
  exact Idealize.ShloMosaic.View.read_writes_cons_emb v f _ w [] x

end Pointwise

/-! ## The assembled matrix, block by block -/

/-- Row `r` of the matrix assembled from sixteen row blocks lies in block `b` at row `r'` when `r = 256·b + r'`. -/
theorem asm16_apply_eq {α : Type} {m : ℕ} (blk : Fin 16 → ((⟨2, ![256, m]⟩ : Shape).Idx → α))
    (j : (⟨2, ![4096, m]⟩ : Shape).Idx) (b : Fin 16) (r' : Fin 256)
    (hb : (j 0).val / 256 = b.val) (hr : (j 0).val % 256 = r'.val) :
    asm16 blk j = blk b (ix2 r' (j 1)) := by
  have e1 : (⟨(j 0).val / 256, by have := idx2_lt0 j; omega⟩ : Fin 16) = b := Fin.ext hb
  have e2 : (⟨(j 0).val % 256, Nat.mod_lt _ (by norm_num)⟩ : Fin 256) = r' := Fin.ext hr
  show blk ⟨(j 0).val / 256, _⟩ (ix2 ⟨(j 0).val % 256, _⟩ (j 1)) = blk b (ix2 r' (j 1))
  rw [e1, e2]

/-! ## The invariant after the first grid point -/

/-- The first grid point (stage 0, block 0) stores the first adjacency block in half precision, the first support matrix
    in the support buffer's left half and the first layer's first block; these are exactly what the invariant asks of
    the scratch buffers before the second grid point: the first 256 rows of the parked adjacency and of the first layer,
    and the support matrix. The other buffers are not constrained yet. -/
theorem inv_next (A : Arrays F) (i : grid0.Coords) (hi : (i 1).val = 0)
    {sig : RefSig} {κ : Kind} {sp : Space}
    (v17 : View sig κ sp S4096x4096 .bf16) (f17 : v17.ty.Contents (Elt F))
    (v18 : View sig κ sp S4096x256 .bf16) (f18 : v18.ty.Contents (Elt F))
    (v19 : View sig κ sp S4096x128 .f32) (f19 : v19.ty.Contents (Elt F))
    (off1 : Fin 2 → ℕ) (hoff1 : off1 = ![256 * (i 1).val, 0]) (inb1 : ∀ a, off1 a + S256x4096.size a ≤ S4096x4096.size a)
    (off2 : Fin 2 → ℕ) (hoff2 : off2 = ![256 * (i 1).val, 0]) (inb2 : ∀ a, off2 a + S256x128.size a ≤ S4096x128.size a)
    (inbL : ∀ a, (![0, 0] : Fin 2 → ℕ) a + S4096x128.size a ≤ S4096x256.size a)
    (p17 : Vec F S256x4096 .bf16) (hp17 : p17 = adjB A (blkOf i))
    (p18 : Vec F S4096x128 .bf16) (hp18 : p18 = S0 A)
    (p19 : Vec F S256x128 .f32) (hp19 : p19 = h1B A (blkOf i))
    (u2 : Vec F S4096x128 .f32) (u3 : Vec F S4096x256 .f32) (accs accq : Vec F S1x256 .f32) :
    Inv A (16 * 0 + (i 1).val + 1)
      { adj := v17.read (Elt F) (v17.writes (Elt F) f17 [⟨Rect.unit off1 S256x4096.size inb1, p17⟩])
        s := v18.read (Elt F) (v18.writes (Elt F) f18 [⟨Rect.unit ![0, 0] S4096x128.size inbL, p18⟩])
        h1 := v19.read (Elt F) (v19.writes (Elt F) f19 [⟨Rect.unit off2 S256x128.size inb2, p19⟩])
        u2 := u2, u3 := u3, accs := accs, accq := accq } := by
  have ht : 16 * 0 + (i 1).val + 1 = 1 := by omega
  have hb : blkOf i = 0 := Fin.ext hi
  rw [ht]
  subst hoff1 hoff2 hp17 hp18 hp19
  rw [hb]
  refine ⟨?_, ?_, ?_, ?_, ?_, ?_, ?_, ?_⟩
  · -- the parked adjacency's first 256 rows are the stored block, which is block 0 of the closed form
    intro r c hr
    have hr' : r.val < 256 := by simpa using hr
    show v17.read (Elt F) (v17.writes (Elt F) f17 [⟨Rect.unit ![256 * (i 1).val, 0] S256x4096.size inb1, adjB A 0⟩]) (ix2 r c) = ADJ A (ix2 r c)
    rw [read_store_in v17 f17 _ _ inb1 (adjB A 0) (ix2 r c) (ix2 ⟨r.val, hr'⟩ c)
      (fun a => by match a with
        | ⟨0, _⟩ => show r.val = 256 * (i 1).val + r.val; omega
        | ⟨1, _⟩ => show c.val = 0 + c.val; omega)]
    exact (asm16_apply_eq (adjB A) (ix2 r c) 0 ⟨r.val, hr'⟩ (by show r.val / 256 = 0; omega) (by show r.val % 256 = r.val; omega)).symm
  · -- the first layer's first 256 rows likewise
    intro r c hr
    have hr' : r.val < 256 := by simpa using hr
    show v19.read (Elt F) (v19.writes (Elt F) f19 [⟨Rect.unit ![256 * (i 1).val, 0] S256x128.size inb2, h1B A 0⟩]) (ix2 r c) = H1 A (ix2 r c)
    rw [read_store_in v19 f19 _ _ inb2 (h1B A 0) (ix2 r c) (ix2 ⟨r.val, hr'⟩ c)
      (fun a => by match a with
        | ⟨0, _⟩ => show r.val = 256 * (i 1).val + r.val; omega
        | ⟨1, _⟩ => show c.val = 0 + c.val; omega)]
    exact (asm16_apply_eq (h1B A) (ix2 r c) 0 ⟨r.val, hr'⟩ (by show r.val / 256 = 0; omega) (by show r.val % 256 = r.val; omega)).symm
  · intro r c hr; exact absurd hr (by simp)
  · intro r c hr; exact absurd hr (by simp)
  · -- the support matrix is the support buffer's left half
    intro _
    funext y
    obtain ⟨r, q, rfl⟩ : ∃ r q, y = ix2 r q := ⟨y 0, y 1, eq_ix2 y⟩
    show v18.read (Elt F) (v18.writes (Elt F) f18 [⟨Rect.unit ![0, 0] S4096x128.size inbL, S0 A⟩]) (ix2 r ⟨q.val, by have := q.isLt; omega⟩) = S0 A (ix2 r q)
    exact read_store_in v18 f18 _ _ inbL (S0 A) _ (ix2 r q)
      (fun a => by match a with
        | ⟨0, _⟩ => show r.val = 0 + r.val; omega
        | ⟨1, _⟩ => show q.val = 0 + q.val; omega)
  · intro h; omega
  · intro h; omega
  · intro h; omega

/-! ## The scratch contents the body leaves -/

/-- The scratch buffers after the first grid point, from the contents of the buffers it reads: the adjacency's block
    parked at the point's rows; the support matrix in the support buffer's left half; the first layer's block, computed
    from what was just parked and from that left half, at the point's rows; the two running sums cleared; the later
    stages' buffers as they were. -/
def next (i : grid0.Coords) (h6 : k0_cond6 i = 1#1)
    (arg2 : Memref sig .tc .vmem S256x4096 .f32) (arg3 : Memref sig .tc .vmem S4096x256 .f32) (arg4 : Memref sig .tc .vmem S256x128 .f32)
    (f2 : arg2.view.ty.Contents (Elt F)) (f3 : arg3.view.ty.Contents (Elt F)) (f4 : arg4.view.ty.Contents (Elt F))
    (f17 : (Memref.whole cc0_scratch0).view.ty.Contents (Elt F)) (f18 : (Memref.whole cc0_scratch1).view.ty.Contents (Elt F))
    (f19 : (Memref.whole cc0_scratch2).view.ty.Contents (Elt F)) (f20 : (Memref.whole cc0_scratch3).view.ty.Contents (Elt F))
    (f21 : (Memref.whole cc0_scratch4).view.ty.Contents (Elt F)) (f22 : (Memref.whole cc0_scratch5).view.ty.Contents (Elt F))
    (f23 : (Memref.whole cc0_scratch6).view.ty.Contents (Elt F)) : St F where
  adj := (Memref.whole cc0_scratch0).view.read (Elt F) ((Memref.whole cc0_scratch0).view.writes (Elt F) f17
    [⟨Rect.unit (s := S4096x4096) (k0_off1 i) S256x4096.size (k0_off1_inb i h6),
      k0_pay18 (View.readAt (Elt F) arg2.view (Rect.unit (s := S256x4096) ![0, 0] S256x4096.size inb_S256x4096_S256x4096_0_0).toLoadRect f2)⟩])
  s := (Memref.whole cc0_scratch1).view.read (Elt F) ((Memref.whole cc0_scratch1).view.writes (Elt F) f18
    [⟨Rect.unit (s := S4096x256) ![0, 0] S4096x128.size inb_S4096x256_S4096x128_0_0,
      k0_pay12 (View.readAt (Elt F) arg3.view (Rect.unit (s := S4096x256) ![0, 0] S4096x256.size inb_S4096x256_S4096x256_0_0).toLoadRect f3)
        (View.readAt (Elt F) arg4.view (Rect.unit (s := S256x128) ![0, 0] S256x128.size inb_S256x128_S256x128_0_0).toLoadRect f4)⟩])
  h1 := (Memref.whole cc0_scratch2).view.read (Elt F) ((Memref.whole cc0_scratch2).view.writes (Elt F) f19
    [⟨Rect.unit (s := S4096x128) (k0_off2 i) S256x128.size (k0_off2_inb i h6),
      k0_pay19
        ((Memref.whole cc0_scratch0).view.readCov
          [⟨Rect.unit (s := S4096x4096) (k0_off1 i) S256x4096.size (k0_off1_inb i h6),
            k0_pay18 (View.readAt (Elt F) arg2.view (Rect.unit (s := S256x4096) ![0, 0] S256x4096.size inb_S256x4096_S256x4096_0_0).toLoadRect f2)⟩]
          (Rect.unit (s := S4096x4096) (k0_off1 i) S256x4096.size (k0_off1_inb i h6)).toLoadRect)
        ((Memref.whole cc0_scratch1).view.readCov
          [⟨Rect.unit (s := S4096x256) ![0, 0] S4096x128.size inb_S4096x256_S4096x128_0_0,
            k0_pay12 (View.readAt (Elt F) arg3.view (Rect.unit (s := S4096x256) ![0, 0] S4096x256.size inb_S4096x256_S4096x256_0_0).toLoadRect f3)
              (View.readAt (Elt F) arg4.view (Rect.unit (s := S256x128) ![0, 0] S256x128.size inb_S256x128_S256x128_0_0).toLoadRect f4)⟩]
          (Rect.unit (s := S4096x256) ![0, 0] S4096x128.size inb_S4096x256_S4096x128_0_0).toLoadRect)⟩])
  u2 := (Memref.whole cc0_scratch3).view.read (Elt F) f20
  u3 := (Memref.whole cc0_scratch4).view.read (Elt F) f21
  accs := (Memref.whole cc0_scratch5).view.read (Elt F) ((Memref.whole cc0_scratch5).view.writes (Elt F) f22
    [⟨Rect.unit (s := S1x256) ![0, 0] S1x256.size inb_S1x256_S1x256_0_0, k0_pay16⟩])
  accq := (Memref.whole cc0_scratch6).view.read (Elt F) ((Memref.whole cc0_scratch6).view.writes (Elt F) f23
    [⟨Rect.unit (s := S1x256) ![0, 0] S1x256.size inb_S1x256_S1x256_0_0, k0_pay17⟩])

/-- They satisfy the invariant at the second point: the three inputs read whole are the adjacency's first row block, the
    features and the first weight, so the three payloads are the closed forms' first blocks and the support matrix. -/
theorem inv_next_point (A : Arrays F) (i : grid0.Coords) (hi : (i 1).val = 0) (h6 : k0_cond6 i = 1#1)
    (arg2 : Memref sig .tc .vmem S256x4096 .f32) (arg3 : Memref sig .tc .vmem S4096x256 .f32) (arg4 : Memref sig .tc .vmem S256x128 .f32)
    (f2 : arg2.view.ty.Contents (Elt F)) (f3 : arg3.view.ty.Contents (Elt F)) (f4 : arg4.view.ty.Contents (Elt F))
    (f17 : (Memref.whole cc0_scratch0).view.ty.Contents (Elt F)) (f18 : (Memref.whole cc0_scratch1).view.ty.Contents (Elt F))
    (f19 : (Memref.whole cc0_scratch2).view.ty.Contents (Elt F)) (f20 : (Memref.whole cc0_scratch3).view.ty.Contents (Elt F))
    (f21 : (Memref.whole cc0_scratch4).view.ty.Contents (Elt F)) (f22 : (Memref.whole cc0_scratch5).view.ty.Contents (Elt F))
    (f23 : (Memref.whole cc0_scratch6).view.ty.Contents (Elt F))
    (x0 : Vec F S256x4096 .f32) (hx0 : x0 = rowBlk A.adj (blkOf i))
    (hf2 : arg2.view.read (Elt F) f2 = x0) (hf3 : arg3.view.read (Elt F) f3 = A.x) (hf4 : arg4.view.read (Elt F) f4 = A.w1) :
    Inv A (16 * 0 + (i 1).val + 1) (next i h6 arg2 arg3 arg4 f2 f3 f4 f17 f18 f19 f20 f21 f22 f23) := by
  have e2 : View.readAt (Elt F) arg2.view
      (Rect.unit (s := S256x4096) ![0, 0] S256x4096.size inb_S256x4096_S256x4096_0_0).toLoadRect f2 = rowBlk A.adj (blkOf i) := by
    rw [Idealize.ShloMosaic.View.readAt_eq_ld, hf2, hx0]; exact View.ld_whole2 _ ![0, 0] rfl _
  have e3 : View.readAt (Elt F) arg3.view
      (Rect.unit (s := S4096x256) ![0, 0] S4096x256.size inb_S4096x256_S4096x256_0_0).toLoadRect f3 = A.x := by
    rw [Idealize.ShloMosaic.View.readAt_eq_ld, hf3]; exact View.ld_whole2 _ ![0, 0] rfl _
  have e4 : View.readAt (Elt F) arg4.view
      (Rect.unit (s := S256x128) ![0, 0] S256x128.size inb_S256x128_S256x128_0_0).toLoadRect f4 = A.w1 := by
    rw [Idealize.ShloMosaic.View.readAt_eq_ld, hf4]; exact View.ld_whole2 _ ![0, 0] rfl _
  have ea : k0_pay18 (View.readAt (Elt F) arg2.view
      (Rect.unit (s := S256x4096) ![0, 0] S256x4096.size inb_S256x4096_S256x4096_0_0).toLoadRect f2) = adjB A (blkOf i) :=
    congrArg (k0_pay18 (F := F)) e2
  have es : k0_pay12 (View.readAt (Elt F) arg3.view
        (Rect.unit (s := S4096x256) ![0, 0] S4096x256.size inb_S4096x256_S4096x256_0_0).toLoadRect f3)
      (View.readAt (Elt F) arg4.view
        (Rect.unit (s := S256x128) ![0, 0] S256x128.size inb_S256x128_S256x128_0_0).toLoadRect f4) = S0 A :=
    congrArg₂ (k0_pay12 (F := F)) e3 e4
  unfold next
  exact inv_next A i hi _ f17 _ f18 _ f19 _ (View.off1_eq i) _ _ (View.off2_eq i) _ _ _ ea _ es _
    (congrArg₂ (k0_pay19 (F := F))
      ((Idealize.ShloMosaic.View.readCov_cons_toLoadRect _ _ _ _).trans ea)
      ((Idealize.ShloMosaic.View.readCov_cons_toLoadRect _ _ _ _).trans es)) _ _ _ _

end Cert.Kernel.Stack.C00

namespace Cert.Kernel.Stack

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 1000000 in
theorem step00 (c : Dev nD) (E : Set ℕ) (i : grid0.Coords) (hs : (i 0).val = 0) (hi : (i 1).val = 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32) (hx0 : x0 = rowBlk A.adj (blkOf i))
    (d11 : Vec F S256x256 .f32) (d12 : Vec F S256x128 .f32) (d13 : Vec F S2x128 .f32) (d14 : Vec F S2x256 .f32)
    (st : St F) (hInv : Inv A (16 * 0 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 0 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  have h6 : k0_cond6 i = 1#1 := View.cond6_pos i hs
  simp only [cc0__gcn_stack_kernel_eq_skeleton]; unfold cc0__gcn_stack_kernel_skel
  simp only [k0_part3_eq_skeleton]; unfold k0_part3_skel
  unfold ins outs scr owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨⟨%f13, %hf13, H13⟩, ⟨%f14, %hf14, H14⟩, ⟨%f15, %hf15, H15⟩, ⟨%f16, %hf16, H16⟩⟩, ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  sl_exec (disch := first | (sl_unfold_run_names; simp only [k0_cond4, k0_cond6, k0_cond7, k0_cond8, k0_cond9, k0_cond10, hs, hi]; decide))
  sl_step
  iapply Hk
  iexists (C00.next i h6 arg2 arg3 arg4 f2 f3 f4 f17 f18 f19 f20 f21 f22 f23)
  isplitr
  · ipureintro; exact C00.inv_next_point A i hi h6 arg2 arg3 arg4 f2 f3 f4 f17 f18 f19 f20 f21 f22 f23 x0 hx0 hf2 hf3 hf4
  isplitl [H2 H3 H4 H5 H6 H7 H8 H9 H10 H11 H12]
  · isplitl [H2]
    · iexists f2; isplitr
      · ipureintro; exact hf2
      · iexact H2
    isplitl [H3]
    · iexists f3; isplitr
      · ipureintro; exact hf3
      · iexact H3
    isplitl [H4]
    · iexists f4; isplitr
      · ipureintro; exact hf4
      · iexact H4
    isplitl [H5]
    · iexists f5; isplitr
      · ipureintro; exact hf5
      · iexact H5
    isplitl [H6]
    · iexists f6; isplitr
      · ipureintro; exact hf6
      · iexact H6
    isplitl [H7]
    · iexists f7; isplitr
      · ipureintro; exact hf7
      · iexact H7
    isplitl [H8]
    · iexists f8; isplitr
      · ipureintro; exact hf8
      · iexact H8
    isplitl [H9]
    · iexists f9; isplitr
      · ipureintro; exact hf9
      · iexact H9
    isplitl [H10]
    · iexists f10; isplitr
      · ipureintro; exact hf10
      · iexact H10
    isplitl [H11]
    · iexists f11; isplitr
      · ipureintro; exact hf11
      · iexact H11
    iexists f12; isplitr
    · ipureintro; exact hf12
    · iexact H12
  isplitl [H13 H14 H15 H16]
  · isplitl [H13]
    · iexists f13; isplitr
      · ipureintro; exact hf13
      · iexact H13
    isplitl [H14]
    · iexists f14; isplitr
      · ipureintro; exact hf14
      · iexact H14
    isplitl [H15]
    · iexists f15; isplitr
      · ipureintro; exact hf15
      · iexact H15
    iexists f16; isplitr
    · ipureintro; exact hf16
    · iexact H16
  isplitl [H17]
  · iexists _; isplitr
    swap; · iexact H17
    ipureintro; simp only [C00.next]; sl_unfold_run_names; rfl
  isplitl [H18]
  · iexists _; isplitr
    swap; · iexact H18
    ipureintro; simp only [C00.next]; sl_unfold_run_names; rfl
  isplitl [H19]
  · iexists _; isplitr
    swap; · iexact H19
    ipureintro; simp only [C00.next]; sl_unfold_run_names; rfl
  isplitl [H20]
  · iexists _; isplitr
    swap; · iexact H20
    ipureintro; simp only [C00.next]
  isplitl [H21]
  · iexists _; isplitr
    swap; · iexact H21
    ipureintro; simp only [C00.next]
  isplitl [H22]
  · iexists _; isplitr
    swap; · iexact H22
    ipureintro; simp only [C00.next]
  iexists _; isplitr
  swap; · iexact H23
  ipureintro; simp only [C00.next]

end Cert.Kernel.Stack

end
-- ==== Proof.WStackStep0i.lean ====
/-
  One grid point of the graph-convolution stack — stage 0, a later block: the adjacency's row block is parked in half precision and the first layer's block computed from it.
  From the scratch buffers as the points before left them (the invariant at this point) the kernel body runs to
  the invariant at the next point, the input blocks unchanged and the output blocks as stated.
-/
import proofs.«181189_g481036337843_cont_8to1c4_37_6_alg».proof.Proof.WStackRes
import proofs.«181189_g481036337843_cont_8to1c4_37_6_alg».proof.Proof.WStackView

set_option maxRecDepth 16384

noncomputable section

namespace Cert.Kernel.Stack

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

namespace C0i

/-! ## The invariant one point on, stage 0, a later block -/

/-- The invariant after block `b` of stage 0 (`b` not the first) from the two buffers the body stores into: both agree
    with their closed forms on one more row block; nothing else is touched. -/
theorem inv_next (A : Arrays F) (b : Fin 16) (hb : b.val ≠ 0) (st : St F) (hInv : Inv A (16 * 0 + b.val) st)
    (adj' : Vec F S4096x4096 .bf16) (h1' : Vec F S4096x128 .f32)
    (hadj : AgreeRows adj' (ADJ A) (b.val + 1)) (hh1 : AgreeRows h1' (H1 A) (b.val + 1)) :
    Inv A (16 * 0 + b.val + 1) ⟨adj', st.s, h1', st.u2, st.u3, st.accs, st.accq⟩ := by
  obtain ⟨ha, hh, hu2, hu3, hs0, hs1, hs2, hs3⟩ := hInv
  have hb' := b.isLt
  have m1 : min (16 * 0 + b.val + 1) 16 = b.val + 1 := by omega
  have z2 : min (16 * 0 + b.val + 1 - 16) 16 = 0 := by omega
  have z3 : min (16 * 0 + b.val + 1 - 32) 16 = 0 := by omega
  refine ⟨?_, ?_, ?_, ?_, ?_, ?_, ?_, ?_⟩
  · rw [m1]; exact hadj
  · rw [m1]; exact hh1
  · rw [z2]; intro r c h; exact absurd h (by omega)
  · rw [z3]; intro r c h; exact absurd h (by omega)
  · intro _; exact hs0 ⟨by omega, by omega⟩
  · intro h; exact absurd h.1 (by omega)
  · intro h; exact absurd h.1 (by omega)
  · intro h; exact absurd h.1 (by omega)

/-- From the invariant before block `b` of stage 0 (`b` not the first): the adjacency's row block `b`, parked in
    half precision at rows `256·b …`, and the first layer's block computed from it and the support's left half, stored
    at the same rows, give the invariant before the next point. -/
theorem step_pure (A : Arrays F) (b : Fin 16) (hb : b.val ≠ 0) (st : St F) (hInv : Inv A (16 * 0 + b.val) st)
    (off1 off2 : Fin 2 → ℕ) (h1 : off1 = ![256 * b.val, 0]) (h2 : off2 = ![256 * b.val, 0])
    (inb1 : ∀ a, off1 a + S256x4096.size a ≤ S4096x4096.size a)
    (inb2 : ∀ a, off2 a + S256x128.size a ≤ S4096x128.size a)
    (inbS : ∀ a, (![0, 0] : Fin 2 → ℕ) a + S4096x128.size a ≤ S4096x256.size a)
    (x0 : Vec F S256x4096 .f32) (hx0 : x0 = rowBlk A.adj b) :
    Inv A (16 * 0 + b.val + 1)
      ⟨(Rect.unit (s := S4096x4096) off1 S256x4096.size inb1).overlay st.adj (k0_pay18 x0),
        st.s,
        (Rect.unit (s := S4096x128) off2 S256x128.size inb2).overlay st.h1
          (k0_pay19 (k0_pay18 x0) (View.ld st.s (Rect.unit (s := S4096x256) ![0, 0] S4096x128.size inbS))),
        st.u2, st.u3, st.accs, st.accq⟩ := by
  have hb' := b.isLt
  have m0 : min (16 * 0 + b.val) 16 = b.val := by omega
  have ha : AgreeRows st.adj (ADJ A) b.val := by have := hInv.1; rwa [m0] at this
  have hh : AgreeRows st.h1 (H1 A) b.val := by have := hInv.2.1; rwa [m0] at this
  have hS0 : lcol st.s = S0 A := hInv.2.2.2.2.1 ⟨by omega, by omega⟩
  have hS : View.ld st.s (Rect.unit (s := S4096x256) ![0, 0] S4096x128.size inbS) = S0 A :=
    (View.ld_lcol st.s ![0, 0] rfl inbS).trans hS0
  subst hx0
  have hvA : k0_pay18 (rowBlk A.adj b) = rowBlk (ADJ A) ⟨b.val, hb'⟩ := (View.rowBlk_asm16 (adjB A) b).symm
  have hvH : k0_pay19 (k0_pay18 (rowBlk A.adj b)) (S0 A) = rowBlk (H1 A) ⟨b.val, hb'⟩ := (View.rowBlk_asm16 (h1B A) b).symm
  rw [hS]
  exact inv_next A b hb st hInv _ _
    (View.agreeRows_overlay st.adj (ADJ A) b.val hb' off1 h1 inb1 (k0_pay18 (rowBlk A.adj b)) ha hvA)
    (View.agreeRows_overlay st.h1 (H1 A) b.val hb' off2 h2 inb2 (k0_pay19 (k0_pay18 (rowBlk A.adj b)) (S0 A)) hh hvH)

/-! ## The scratch contents the body leaves -/

/-- The scratch buffers after a later block of stage 0: the adjacency's block parked at the point's rows, the first
    layer's block stored at the same rows of its buffer; everything else as before. -/
def next (i : grid0.Coords) (h6 : k0_cond6 i = 1#1) (x0 : Vec F S256x4096 .f32) (st : St F) : St F where
  adj := (Rect.unit (s := S4096x4096) (k0_off1 i) S256x4096.size (k0_off1_inb i h6)).overlay st.adj (k0_pay18 x0)
  s := st.s
  h1 := (Rect.unit (s := S4096x128) (k0_off2 i) S256x128.size (k0_off2_inb i h6)).overlay st.h1
    (k0_pay19 (k0_pay18 x0)
      (View.ld st.s (Rect.unit (s := S4096x256) ![0, 0] S4096x128.size inb_S4096x256_S4096x128_0_0)))
  u2 := st.u2
  u3 := st.u3
  accs := st.accs
  accq := st.accq

theorem next_adj (i : grid0.Coords) (h6 : k0_cond6 i = 1#1) (x0 : Vec F S256x4096 .f32) (st : St F) :
    (next i h6 x0 st).adj
      = (Rect.unit (s := S4096x4096) (k0_off1 i) S256x4096.size (k0_off1_inb i h6)).overlay st.adj (k0_pay18 x0) := by
  simp only [next]
theorem next_h1 (i : grid0.Coords) (h6 : k0_cond6 i = 1#1) (x0 : Vec F S256x4096 .f32) (st : St F) :
    (next i h6 x0 st).h1
      = (Rect.unit (s := S4096x128) (k0_off2 i) S256x128.size (k0_off2_inb i h6)).overlay st.h1
          (k0_pay19 (k0_pay18 x0)
            (View.ld st.s (Rect.unit (s := S4096x256) ![0, 0] S4096x128.size inb_S4096x256_S4096x128_0_0))) := by
  simp only [next]
theorem next_s (i : grid0.Coords) (h6 : k0_cond6 i = 1#1) (x0 : Vec F S256x4096 .f32) (st : St F) :
    (next i h6 x0 st).s = st.s := by
  simp only [next]
theorem next_u2 (i : grid0.Coords) (h6 : k0_cond6 i = 1#1) (x0 : Vec F S256x4096 .f32) (st : St F) :
    (next i h6 x0 st).u2 = st.u2 := by
  simp only [next]
theorem next_u3 (i : grid0.Coords) (h6 : k0_cond6 i = 1#1) (x0 : Vec F S256x4096 .f32) (st : St F) :
    (next i h6 x0 st).u3 = st.u3 := by
  simp only [next]
theorem next_accs (i : grid0.Coords) (h6 : k0_cond6 i = 1#1) (x0 : Vec F S256x4096 .f32) (st : St F) :
    (next i h6 x0 st).accs = st.accs := by
  simp only [next]
theorem next_accq (i : grid0.Coords) (h6 : k0_cond6 i = 1#1) (x0 : Vec F S256x4096 .f32) (st : St F) :
    (next i h6 x0 st).accq = st.accq := by
  simp only [next]

/-- They satisfy the invariant at the next point. -/
theorem inv_next_point (A : Arrays F) (i : grid0.Coords) (hi : (i 1).val ≠ 0) (h6 : k0_cond6 i = 1#1)
    (x0 : Vec F S256x4096 .f32) (hx0 : x0 = rowBlk A.adj (blkOf i)) (st : St F)
    (hInv : Inv A (16 * 0 + (i 1).val) st) : Inv A (16 * 0 + (i 1).val + 1) (next i h6 x0 st) :=
  step_pure A (blkOf i) hi st hInv (k0_off1 i) (k0_off2 i) (View.off1_eq i) (View.off2_eq i) _ _ _ x0 hx0

end C0i

set_option maxHeartbeats 1000000 in
theorem step0i (c : Dev nD) (E : Set ℕ) (i : grid0.Coords) (hs : (i 0).val = 0) (hi : (i 1).val ≠ 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32) (hx0 : x0 = rowBlk A.adj (blkOf i))
    (d11 : Vec F S256x256 .f32) (d12 : Vec F S256x128 .f32) (d13 : Vec F S2x128 .f32) (d14 : Vec F S2x256 .f32)
    (st : St F) (hInv : Inv A (16 * 0 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 0 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  have hc4 : ¬ k0_cond4 i = 1#1 := View.cond4_neg i (Or.inl (by omega))
  have hc6 : k0_cond6 i = 1#1 := View.cond6_pos i hs
  have hc7 : ¬ k0_cond7 i = 1#1 := View.cond7_neg i (by omega)
  have hc8 : ¬ k0_cond8 i = 1#1 := View.cond8_neg i (by omega)
  have hc9 : ¬ k0_cond9 i = 1#1 := View.cond9_neg i (by omega)
  have hc10 : ¬ k0_cond10 i = 1#1 := View.cond10_neg i (Or.inl (by omega))
  have hv4 := View.v4_neg i (Or.inr hi)
  have hv9 := View.v9_neg i (Or.inl (by omega))
  have hv14 := View.v14_neg i (Or.inl (by omega))
  have hv22 := View.v22_neg i hi
  simp only [cc0__gcn_stack_kernel_eq_skeleton]; unfold cc0__gcn_stack_kernel_skel
  simp only [k0_part3_eq_skeleton]; unfold k0_part3_skel
  unfold ins scr owns
  iintro ⟨⟨⟨%f2, %hf2, H2⟩, Hins⟩, Houts, ⟨⟨%g0, %hg0, S0⟩, ⟨%g1, %hg1, S1⟩, ⟨%g2, %hg2, S2⟩, ⟨%g3, %hg3, S3⟩, ⟨%g4, %hg4, S4⟩, ⟨%g5, %hg5, S5⟩, ⟨%g6, %hg6, S6⟩⟩, Hk⟩
  sl_exec (disch := first | sl_exact hv4 | sl_exact hv9 | sl_exact hv14 | sl_exact hv22)
  sl_step
  iapply Hk
  iexists (C0i.next i hc6 x0 st)
  isplitr
  · ipureintro; exact C0i.inv_next_point A i hi hc6 x0 hx0 st hInv
  isplitl [H2 Hins]
  · isplitl [H2]
    · iexists f2; isplitr; · ipureintro; exact hf2
      iexact H2
    iexact Hins
  isplitl [Houts]; · iexact Houts
  isplitl [S0]
  · iexists _; isplitr
    swap; · iexact S0
    ipureintro
    have e2 : View.readAt (Elt F) arg2.view
        (Rect.unit (s := S256x4096) ![0, 0] S256x4096.size inb_S256x4096_S256x4096_0_0).toLoadRect f2 = x0 := by
      rw [View.readAt_eq_ld, hf2]; exact View.ld_whole2 x0 ![0, 0] rfl _
    unfold step0i.sl.S0_1
    rw [View.read_writes_cons, View.writes_nil, hg0, C0i.next_adj, e2]
  isplitl [S1]
  · iexists g1; isplitr; · ipureintro; rw [C0i.next_s]; exact hg1
    iexact S1
  isplitl [S2]
  · iexists _; isplitr
    swap; · iexact S2
    ipureintro
    have e2 : View.readAt (Elt F) arg2.view
        (Rect.unit (s := S256x4096) ![0, 0] S256x4096.size inb_S256x4096_S256x4096_0_0).toLoadRect f2 = x0 := by
      rw [View.readAt_eq_ld, hf2]; exact View.ld_whole2 x0 ![0, 0] rfl _
    have e48 : step0i.sl.v48 c i arg2 hc6 f2 = k0_pay18 x0 := by
      unfold step0i.sl.v48 step0i.sl.S0_1
      rw [View.readCov_cons_toLoadRect, e2]
    rw [View.read_writes_cons, View.writes_nil, hg2, C0i.next_h1, e48, View.readAt_eq_ld, hg1]
    rfl
  isplitl [S3]
  · iexists g3; isplitr; · ipureintro; rw [C0i.next_u2]; exact hg3
    iexact S3
  isplitl [S4]
  · iexists g4; isplitr; · ipureintro; rw [C0i.next_u3]; exact hg4
    iexact S4
  isplitl [S5]
  · iexists g5; isplitr; · ipureintro; rw [C0i.next_accs]; exact hg5
    iexact S5
  iexists g6; isplitr; · ipureintro; rw [C0i.next_accq]; exact hg6
  iexact S6

end Cert.Kernel.Stack

end
-- ==== Proof.WStackStep10.lean ====
/-
  One grid point of the graph-convolution stack — stage 1, first block: the second support matrix is built from the whole first-layer activation, the sums cleared, then the block.
  From the scratch buffers as the points before left them (the invariant at this point) the kernel body runs to
  the invariant at the next point, the input blocks unchanged and the output blocks as stated.
-/
import proofs.«181189_g481036337843_cont_8to1c4_37_6_alg».proof.Proof.WStackRes
import proofs.«181189_g481036337843_cont_8to1c4_37_6_alg».proof.Proof.WStackView
import Idealize.ShloMosaic.Lib.Pipeline.Value

set_option maxRecDepth 16384

noncomputable section

namespace Cert.Kernel.Stack.C10

open Idealize.ShloMosaic Idealize.ShloMosaic.TcCoe Idealize.ShloMosaic.ValueIdx Cert.Kernel Cert.Kernel.Gen

variable {F : FTy → Type} [FloatOps F]

/-! ## A whole scratch buffer after a run of stores -/

section Views

variable {sig : RefSig} {κ : Kind} {Val : EltTy → Type}

/-- A whole buffer's contents after a run of stores: the last store's value laid over the earlier stores' result. -/
theorem writes_whole_cons (b : Ref sig κ) (f : b.ty.Contents Val) (r : Rect b.ty.shape) (w : r.shape.Idx → Val b.ty.elt)
    (L : List (Idealize.ShloMosaic.View.Piece Val b.ty.shape b.ty.elt)) :
    (Memref.whole b).view.writes Val f (⟨r, w⟩ :: L) = r.overlay ((Memref.whole b).view.writes Val f L) w :=
  Stack.View.read_writes_cons (Idealize.ShloMosaic.View.whole b) f r w L

/-- A load, through any box, of a buffer a whole-shape store has just filled reads the stored value at the box's indices. -/
theorem readCov_whole_store [∀ e, Nonempty (Val e)] {sp : Space} {S : Shape} {e : EltTy} (v : Idealize.ShloMosaic.View sig κ sp S e)
    {off : Fin S.rank → ℕ} (h : off = fun _ => 0) (inb : ∀ a, off a + S.size a ≤ S.size a) (z : S.Idx → Val e) (B : LoadRect S) :
    v.readCov [⟨Rect.unit off S.size inb, z⟩] B = fun j => z (B.idx j) := by
  rw [Idealize.ShloMosaic.View.readCov_eq_canon', Idealize.ShloMosaic.View.canon_cons_unit_zero h]

end Views

/-! ## The scratch buffers of this grid point, read after its stores -/

/-- The support buffer's left half after the store of a new support into it. -/
theorem lcol_s_store (g1 : Vec F S4096x256 .bf16) (ib : ∀ a, (![0, 0] : Fin 2 → ℕ) a + S4096x128.size a ≤ S4096x256.size a)
    (w : Vec F S4096x128 .bf16) :
    lcol ((Memref.whole cc0_scratch1).view.writes (Elt F) g1 [⟨Rect.unit ![0, 0] S4096x128.size ib, w⟩]) = w :=
  (congrArg lcol (writes_whole_cons cc0_scratch1 g1 (Rect.unit ![0, 0] S4096x128.size ib) w [])).trans
    (Stack.View.lcol_overlay_lcol g1 ![0, 0] rfl ib w)

/-- The support just stored, loaded back through the same rectangle. -/
theorem ld_s_stored (ib : ∀ a, (![0, 0] : Fin 2 → ℕ) a + S4096x128.size a ≤ S4096x256.size a) (w : Vec F S4096x128 .bf16) :
    (Memref.whole cc0_scratch1).view.readCov [⟨Rect.unit ![0, 0] S4096x128.size ib, w⟩]
      (Rect.unit (s := S4096x256) ![0, 0] S4096x128.size ib).toLoadRect = w :=
  Idealize.ShloMosaic.View.readCov_cons_toLoadRect (Memref.whole cc0_scratch1).view (Rect.unit (s := S4096x256) ![0, 0] S4096x128.size ib) w []

/-- A running-sum row cleared and then stored into on its left half: the left half is the stored value. -/
theorem lcol_accs_store (g5 : Vec F S1x256 .f32) (ibh : ∀ a, (![0, 0] : Fin 2 → ℕ) a + S1x128.size a ≤ S1x256.size a)
    (ibz : ∀ a, (![0, 0] : Fin 2 → ℕ) a + S1x256.size a ≤ S1x256.size a) (w : Vec F S1x128 .f32) (z : Vec F S1x256 .f32) :
    lcol ((Memref.whole cc0_scratch5).view.writes (Elt F) g5
      [⟨Rect.unit ![0, 0] S1x128.size ibh, w⟩, ⟨Rect.unit ![0, 0] S1x256.size ibz, z⟩]) = w :=
  (congrArg lcol (writes_whole_cons cc0_scratch5 g5 (Rect.unit ![0, 0] S1x128.size ibh) w [⟨Rect.unit ![0, 0] S1x256.size ibz, z⟩])).trans
    (Stack.View.lcol_overlay_lcol _ ![0, 0] rfl ibh w)

/-- The same for the running sum of squares. -/
theorem lcol_accq_store (g6 : Vec F S1x256 .f32) (ibh : ∀ a, (![0, 0] : Fin 2 → ℕ) a + S1x128.size a ≤ S1x256.size a)
    (ibz : ∀ a, (![0, 0] : Fin 2 → ℕ) a + S1x256.size a ≤ S1x256.size a) (w : Vec F S1x128 .f32) (z : Vec F S1x256 .f32) :
    lcol ((Memref.whole cc0_scratch6).view.writes (Elt F) g6
      [⟨Rect.unit ![0, 0] S1x128.size ibh, w⟩, ⟨Rect.unit ![0, 0] S1x256.size ibz, z⟩]) = w :=
  (congrArg lcol (writes_whole_cons cc0_scratch6 g6 (Rect.unit ![0, 0] S1x128.size ibh) w [⟨Rect.unit ![0, 0] S1x256.size ibz, z⟩])).trans
    (Stack.View.lcol_overlay_lcol _ ![0, 0] rfl ibh w)

/-- The left half of a row just cleared to `z`, loaded. -/
theorem ld_accs_cleared (ibh : ∀ a, (![0, 0] : Fin 2 → ℕ) a + S1x128.size a ≤ S1x256.size a)
    (ibz : ∀ a, (![0, 0] : Fin 2 → ℕ) a + S1x256.size a ≤ S1x256.size a) (z : Vec F S1x256 .f32) :
    (Memref.whole cc0_scratch5).view.readCov [⟨Rect.unit ![0, 0] S1x256.size ibz, z⟩]
      (Rect.unit (s := S1x256) ![0, 0] S1x128.size ibh).toLoadRect = lcol z :=
  (readCov_whole_store (Memref.whole cc0_scratch5).view Stack.View.zero2 ibz z _).trans (Stack.View.ld_lcol z ![0, 0] rfl ibh)

/-- The same for the running sum of squares. -/
theorem ld_accq_cleared (ibh : ∀ a, (![0, 0] : Fin 2 → ℕ) a + S1x128.size a ≤ S1x256.size a)
    (ibz : ∀ a, (![0, 0] : Fin 2 → ℕ) a + S1x256.size a ≤ S1x256.size a) (z : Vec F S1x256 .f32) :
    (Memref.whole cc0_scratch6).view.readCov [⟨Rect.unit ![0, 0] S1x256.size ibz, z⟩]
      (Rect.unit (s := S1x256) ![0, 0] S1x128.size ibh).toLoadRect = lcol z :=
  (readCov_whole_store (Memref.whole cc0_scratch6).view Stack.View.zero2 ibz z _).trans (Stack.View.ld_lcol z ![0, 0] rfl ibh)

variable (A : Arrays F)

/-- The adjacency row block a grid point of block `b` loads from the parked adjacency, once all of it is parked. -/
theorem ld_adj_block (g0 : Vec F S4096x4096 .bf16) (hg0 : g0 = ADJ A) (b : Fin 16) (off : Fin 2 → ℕ)
    (hoff : off = ![256 * b.val, 0]) (ib : ∀ a, off a + S256x4096.size a ≤ S4096x4096.size a) :
    (Memref.whole cc0_scratch0).view.readAt (Elt F) (Rect.unit (s := S4096x4096) off S256x4096.size ib).toLoadRect g0 = adjB A b := by
  subst hg0
  exact (Stack.View.ld_rowBlk (ADJ A) b off hoff ib).trans (Stack.View.rowBlk_asm16 (adjB A) b)

/-- The second support matrix, from the whole first-layer activation and the second weights as loaded. -/
theorem support_eq (g2 : Vec F S4096x128 .f32) (hg2 : g2 = H1 A) (arg5 : Memref sig .tc .vmem S128x128 .f32)
    (f5 : arg5.view.ty.Contents (Elt F)) (hf5 : arg5.view.read (Elt F) f5 = A.w2)
    (ib2 : ∀ a, (![0, 0] : Fin 2 → ℕ) a + S4096x128.size a ≤ S4096x128.size a)
    (ib5 : ∀ a, (![0, 0] : Fin 2 → ℕ) a + S128x128.size a ≤ S128x128.size a) :
    k0_pay13 ((Memref.whole cc0_scratch2).view.readAt (Elt F) (Rect.unit (s := S4096x128) ![0, 0] S4096x128.size ib2).toLoadRect g2)
      (arg5.view.readAt (Elt F) (Rect.unit (s := S128x128) ![0, 0] S128x128.size ib5).toLoadRect f5) = S1 A := by
  have e2 : (Memref.whole cc0_scratch2).view.readAt (Elt F) (Rect.unit (s := S4096x128) ![0, 0] S4096x128.size ib2).toLoadRect g2 = g2 :=
    Idealize.ShloMosaic.View.ld_unit_zero Stack.View.zero2 ib2 g2
  have e5 : arg5.view.readAt (Elt F) (Rect.unit (s := S128x128) ![0, 0] S128x128.size ib5).toLoadRect f5 = arg5.view.read (Elt F) f5 :=
    Idealize.ShloMosaic.View.ld_unit_zero Stack.View.zero2 ib5 _
  rw [e2, e5, hf5, hg2]; rfl

/-- The second-layer block stored at block 0 makes the stored rows agree with the closed form on the first block. -/
theorem u2_store (g3 : Vec F S4096x128 .f32) (off : Fin 2 → ℕ) (hoff : off = ![256 * 0, 0])
    (ib : ∀ a, off a + S256x128.size a ≤ S4096x128.size a) (w : Vec F S256x128 .f32) (hw : w = u2B A 0) :
    AgreeRows ((Memref.whole cc0_scratch3).view.writes (Elt F) g3 [⟨Rect.unit off S256x128.size ib, w⟩]) (U2 A) 1 := by
  have e := writes_whole_cons cc0_scratch3 g3 (Rect.unit off S256x128.size ib) w []
  rw [e]
  exact Stack.View.agreeRows_overlay g3 (U2 A) 0 (by norm_num) off hoff ib w (Stack.View.agreeRows_zero _ _)
    (hw.trans (Stack.View.rowBlk_asm16 (u2B A) 0).symm)

/-- The invariant after stage 1's first block, from the invariant before it and what the four written buffers read. -/
theorem inv_core (g0 : Vec F S4096x4096 .bf16) (g1 : Vec F S4096x256 .bf16) (g2 g3 : Vec F S4096x128 .f32)
    (g4 : Vec F S4096x256 .f32) (g5 g6 : Vec F S1x256 .f32) (s1 : Vec F S4096x256 .bf16) (u1 : Vec F S4096x128 .f32)
    (a1 q1 : Vec F S1x256 .f32)
    (hInv : Inv A 16 { adj := g0, s := g1, h1 := g2, u2 := g3, u3 := g4, accs := g5, accq := g6 })
    (hs : lcol s1 = S1 A) (hu : AgreeRows u1 (U2 A) 1) (ha : lcol a1 = acc1s A 1) (hq : lcol q1 = acc1q A 1) :
    Inv A 17 { adj := g0, s := s1, h1 := g2, u2 := u1, u3 := g4, accs := a1, accq := q1 } := by
  obtain ⟨hadj, hh1, -, -, -, -, -, -⟩ := hInv
  exact ⟨hadj, hh1, hu, Stack.View.agreeRows_zero _ _, fun h => absurd h.2 (by norm_num), fun _ => ⟨hs, ha, hq⟩,
    fun h => absurd h.1 (by norm_num), fun h => absurd h.1 (by norm_num)⟩

end Cert.Kernel.Stack.C10

namespace Cert.Kernel.Stack

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
theorem step10 (c : Dev nD) (E : Set ℕ) (i : grid0.Coords) (hs : (i 0).val = 1) (hi : (i 1).val = 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 1 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 1 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  -- the body's ten conditions at stage 1, block 0: only "stage 1 and block 0", "block 0" and "stage 1" hold
  have hc4 : ¬ k0_cond4 i = 1#1 := by unfold k0_cond4; simp only [hs, hi]; decide
  have hc6 : ¬ k0_cond6 i = 1#1 := by unfold k0_cond6; simp only [hs, hi]; decide
  have hc7 : k0_cond7 i = 1#1 := by unfold k0_cond7; simp only [hs, hi]; decide
  have hc8 : ¬ k0_cond8 i = 1#1 := by unfold k0_cond8; simp only [hs, hi]; decide
  have hc9 : ¬ k0_cond9 i = 1#1 := by unfold k0_cond9; simp only [hs, hi]; decide
  have hc10 : ¬ k0_cond10 i = 1#1 := by unfold k0_cond10; simp only [hs, hi]; decide
  have hv4 : ¬ Scalar.cmpi .ne (Scalar.extui (Scalar.andi (Scalar.cmpi .eq (BitVec.ofNat 32 (i 0).val) 0#32) (Scalar.cmpi .eq (BitVec.ofNat 32 (i 1).val) 0#32))) 0#32 = 1#1 := by
    simp only [hs, hi]; decide
  have hv9 : Scalar.cmpi .ne (Scalar.extui (Scalar.andi (Scalar.cmpi .eq (BitVec.ofNat 32 (i 0).val) 1#32) (Scalar.cmpi .eq (BitVec.ofNat 32 (i 1).val) 0#32))) 0#32 = 1#1 := by
    simp only [hs, hi]; decide
  have hv14 : ¬ Scalar.cmpi .ne (Scalar.extui (Scalar.andi (Scalar.cmpi .eq (BitVec.ofNat 32 (i 0).val) 2#32) (Scalar.cmpi .eq (BitVec.ofNat 32 (i 1).val) 0#32))) 0#32 = 1#1 := by
    simp only [hs, hi]; decide
  have hv22 : Scalar.cmpi .ne (Scalar.extui (Scalar.cmpi .eq (BitVec.ofNat 32 (i 1).val) 0#32)) 0#32 = 1#1 := by
    simp only [hs, hi]; decide
  -- the body as its sequence of loads and stores over the named values
  simp only [cc0__gcn_stack_kernel_eq_skeleton]; unfold cc0__gcn_stack_kernel_skel
  simp only [k0_part3_eq_skeleton]; unfold k0_part3_skel
  obtain ⟨sadj, ss, sh1, su2, su3, saccs, saccq⟩ := st
  unfold ins outs scr owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨⟨%f13, %hf13, H13⟩, ⟨%f14, %hf14, H14⟩, ⟨%f15, %hf15, H15⟩, ⟨%f16, %hf16, H16⟩⟩, ⟨⟨%g0, %hg0, G0⟩, ⟨%g1, %hg1, G1⟩, ⟨%g2, %hg2, G2⟩, ⟨%g3, %hg3, G3⟩, ⟨%g4, %hg4, G4⟩, ⟨%g5, %hg5, G5⟩, ⟨%g6, %hg6, G6⟩⟩, Hk⟩
  -- a whole scratch buffer reads as its contents
  simp only [Memref.view_whole, View.read_whole] at hg0 hg1 hg2 hg3 hg4 hg5 hg6
  subst hg0 hg1 hg2 hg3 hg4 hg5 hg6
  sl_exec (disch := first | sl_exact hc4 | sl_exact hc6 | sl_exact hc7 | sl_exact hc8 | sl_exact hc9 | sl_exact hc10 | sl_exact hv9 | sl_exact hv22 | sl_exact hv4 | sl_exact hv14)
  -- the new contents of the four buffers written: the support, the second-layer rows, the two running sums
  generalize hS1 : View.writes (Memref.whole cc0_scratch1).view (Elt F) g1 _ = s1
  generalize hU1 : View.writes (Memref.whole cc0_scratch3).view (Elt F) g3 _ = u1
  generalize hA1 : View.writes (Memref.whole cc0_scratch5).view (Elt F) g5 _ = a1
  generalize hQ1 : View.writes (Memref.whole cc0_scratch6).view (Elt F) g6 _ = q1
  sl_step
  -- the continuation, at the scratch state the run has reached
  iapply Hk
  iexists (St.mk g0 s1 g2 u1 g4 a1 q1)
  isplitr
  swap
  · isplitl [H2 H3 H4 H5 H6 H7 H8 H9 H10 H11 H12]
    ·
      isplitl [H2]
      · iexists f2; isplitr; · ipureintro; exact hf2
        iexact H2
      isplitl [H3]
      · iexists f3; isplitr; · ipureintro; exact hf3
        iexact H3
      isplitl [H4]
      · iexists f4; isplitr; · ipureintro; exact hf4
        iexact H4
      isplitl [H5]
      · iexists f5; isplitr; · ipureintro; exact hf5
        iexact H5
      isplitl [H6]
      · iexists f6; isplitr; · ipureintro; exact hf6
        iexact H6
      isplitl [H7]
      · iexists f7; isplitr; · ipureintro; exact hf7
        iexact H7
      isplitl [H8]
      · iexists f8; isplitr; · ipureintro; exact hf8
        iexact H8
      isplitl [H9]
      · iexists f9; isplitr; · ipureintro; exact hf9
        iexact H9
      isplitl [H10]
      · iexists f10; isplitr; · ipureintro; exact hf10
        iexact H10
      isplitl [H11]
      · iexists f11; isplitr; · ipureintro; exact hf11
        iexact H11
      iexists f12; isplitr; · ipureintro; exact hf12
      iexact H12
    isplitl [H13 H14 H15 H16]
    ·
      isplitl [H13]
      · iexists f13; isplitr; · ipureintro; exact hf13
        iexact H13
      isplitl [H14]
      · iexists f14; isplitr; · ipureintro; exact hf14
        iexact H14
      isplitl [H15]
      · iexists f15; isplitr; · ipureintro; exact hf15
        iexact H15
      iexists f16; isplitr; · ipureintro; exact hf16
      iexact H16
    isplitl [G0]
    · iexists g0; isplitr; · ipureintro; rfl
      iexact G0
    isplitl [G1]
    · iexists s1; isplitr; · ipureintro; rfl
      iexact G1
    isplitl [G2]
    · iexists g2; isplitr; · ipureintro; rfl
      iexact G2
    isplitl [G3]
    · iexists u1; isplitr; · ipureintro; rfl
      iexact G3
    isplitl [G4]
    · iexists g4; isplitr; · ipureintro; rfl
      iexact G4
    isplitl [G5]
    · iexists a1; isplitr; · ipureintro; rfl
      iexact G5
    iexists q1; isplitr; · ipureintro; rfl
    iexact G6
  -- the invariant at the next grid point
  ipureintro
  subst hS1 hU1 hA1 hQ1
  sl_unfold_run_names
  have e16 : 16 * 1 + (i 1).val = 16 := by omega
  have e17 : 16 * 1 + (i 1).val + 1 = 17 := by omega
  rw [e16] at hInv; rw [e17]
  -- all sixteen blocks of the adjacency and of the first-layer activation are stored
  have hg0 : g0 = ADJ A := Stack.View.eq_of_agreeRows_16 hInv.1
  have hg2 : g2 = H1 A := Stack.View.eq_of_agreeRows_16 hInv.2.1
  have ho3 : k0_off3 i = ![256 * (0 : Fin 16).val, 0] := by rw [Stack.View.off3_eq, hi]; rfl
  have ho4 : k0_off4 i = ![256 * 0, 0] := by rw [Stack.View.off4_eq, hi]
  refine C10.inv_core A g0 g1 g2 g3 g4 g5 g6 _ _ _ _ hInv ?_ ?_ ?_ ?_
  · -- the support buffer's left half is the second support matrix
    refine (C10.lcol_s_store g1 _ _).trans ?_
    exact C10.support_eq A g2 hg2 arg5 f5 hf5 _ _
  · -- rows 0 … 255 of the second-layer buffer are block 0 of the closed form
    refine C10.u2_store A g3 (k0_off4 i) ho4 _ _ ?_
    rw [C10.ld_adj_block A g0 hg0 0 (k0_off3 i) ho3, C10.ld_s_stored, C10.support_eq A g2 hg2 arg5 f5 hf5]
    rfl
  · -- the running sum: the cleared row plus block 0's column sums
    refine (C10.lcol_accs_store g5 _ _ _ _).trans ?_
    rw [C10.ld_adj_block A g0 hg0 0 (k0_off3 i) ho3, C10.ld_s_stored, C10.support_eq A g2 hg2 arg5 f5 hf5, C10.ld_accs_cleared]
    rfl
  · -- the running sum of squares likewise
    refine (C10.lcol_accq_store g6 _ _ _ _).trans ?_
    rw [C10.ld_adj_block A g0 hg0 0 (k0_off3 i) ho3, C10.ld_s_stored, C10.support_eq A g2 hg2 arg5 f5 hf5, C10.ld_accq_cleared]
    rfl

end Cert.Kernel.Stack

end
-- ==== Proof.WStackStep1i.lean ====
/-
  One grid point of the graph-convolution stack — stage 1, a later block: the second layer's block and its column sums.
  From the scratch buffers as the points before left them (the invariant at this point) the kernel body runs to
  the invariant at the next point, the input blocks unchanged and the output blocks as stated.
-/
import proofs.«181189_g481036337843_cont_8to1c4_37_6_alg».proof.Proof.WStackRes
import Idealize.ShloMosaic.Lib.Pipeline.FrameBody

set_option maxRecDepth 16384

noncomputable section

namespace Cert.Kernel.Stack.C1i

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Which of the body's conditionals are taken in stage 1 at a later block (decided over the 4×16 grid) -/

theorem cond4_f : ∀ i : grid0.Coords, (i 0).val = 1 → ¬ k0_cond4 i = 1#1 := by decide +kernel
theorem cond6_f : ∀ i : grid0.Coords, (i 0).val = 1 → ¬ k0_cond6 i = 1#1 := by decide +kernel
theorem cond7_t : ∀ i : grid0.Coords, (i 0).val = 1 → k0_cond7 i = 1#1 := by decide +kernel
theorem cond8_f : ∀ i : grid0.Coords, (i 0).val = 1 → ¬ k0_cond8 i = 1#1 := by decide +kernel
theorem cond9_f : ∀ i : grid0.Coords, (i 0).val = 1 → ¬ k0_cond9 i = 1#1 := by decide +kernel
theorem cond10_f : ∀ i : grid0.Coords, (i 0).val = 1 → ¬ k0_cond10 i = 1#1 := by decide +kernel
theorem v4_f : ∀ i : grid0.Coords, (i 0).val = 1 → ¬ (Scalar.cmpi .ne (Scalar.extui (Scalar.andi (Scalar.cmpi .eq (BitVec.ofNat 32 (i 0).val) 0#32) (Scalar.cmpi .eq (BitVec.ofNat 32 (i 1).val) 0#32))) 0#32 = 1#1) := by decide +kernel
theorem v9_f : ∀ i : grid0.Coords, (i 1).val ≠ 0 → ¬ (Scalar.cmpi .ne (Scalar.extui (Scalar.andi (Scalar.cmpi .eq (BitVec.ofNat 32 (i 0).val) 1#32) (Scalar.cmpi .eq (BitVec.ofNat 32 (i 1).val) 0#32))) 0#32 = 1#1) := by decide +kernel
theorem v14_f : ∀ i : grid0.Coords, (i 0).val = 1 → ¬ (Scalar.cmpi .ne (Scalar.extui (Scalar.andi (Scalar.cmpi .eq (BitVec.ofNat 32 (i 0).val) 2#32) (Scalar.cmpi .eq (BitVec.ofNat 32 (i 1).val) 0#32))) 0#32 = 1#1) := by decide +kernel
theorem v22_f : ∀ i : grid0.Coords, (i 1).val ≠ 0 → ¬ (Scalar.cmpi .ne (Scalar.extui (Scalar.cmpi .eq (BitVec.ofNat 32 (i 1).val) 0#32)) 0#32 = 1#1) := by decide +kernel

/-! ## Loads and stores at a row block, and at the left half of the columns, pointwise -/

section Pure

variable {Val : EltTy → Type} {e : EltTy} {m : ℕ}

/-- A load of 256 whole rows from row 256·b reads the b-th row block. -/
theorem ld_rowBlk (X : (⟨2, ![4096, m]⟩ : Shape).Idx → Val e) (b : Fin 16) (off : Fin 2 → ℕ)
    (hoff : off = ![256 * b.val, 0])
    (inb : ∀ a, off a + (⟨2, ![256, m]⟩ : Shape).size a ≤ (⟨2, ![4096, m]⟩ : Shape).size a) :
    (View.ld (Val := Val) (e' := e) X (Rect.unit (s := ⟨2, ![4096, m]⟩) off (⟨2, ![256, m]⟩ : Shape).size inb)
      : (⟨2, ![256, m]⟩ : Shape).Idx → Val e) = rowBlk X b := by
  subst hoff
  funext y
  obtain ⟨p, q, rfl⟩ : ∃ (p : Fin 256) (q : Fin m), y = ix2 p q := ⟨y 0, y 1, eq_ix2 y⟩
  unfold rowBlk
  refine congrArg X (funext fun a => Fin.ext ?_)
  match a with
  | ⟨0, _⟩ => show 256 * b.val + 1 * p.val = 256 * b.val + p.val; omega
  | ⟨1, _⟩ => show 0 + 1 * q.val = q.val; omega

/-- A load of the left 128 columns of every row reads the left half. -/
theorem ld_lcol {n : ℕ} (X : (⟨2, ![n, 256]⟩ : Shape).Idx → Val e)
    (inb : ∀ a, (![0, 0] : Fin 2 → ℕ) a + (⟨2, ![n, 128]⟩ : Shape).size a ≤ (⟨2, ![n, 256]⟩ : Shape).size a) :
    (View.ld (Val := Val) (e' := e) X (Rect.unit (s := ⟨2, ![n, 256]⟩) ![0, 0] (⟨2, ![n, 128]⟩ : Shape).size inb)
      : (⟨2, ![n, 128]⟩ : Shape).Idx → Val e) = lcol X := by
  funext y
  obtain ⟨p, q, rfl⟩ : ∃ (p : Fin n) (q : Fin 128), y = ix2 p q := ⟨y 0, y 1, eq_ix2 y⟩
  unfold lcol
  refine congrArg X (funext fun a => Fin.ext ?_)
  match a with
  | ⟨0, _⟩ => show 0 + 1 * p.val = p.val; omega
  | ⟨1, _⟩ => show 0 + 1 * q.val = q.val; omega

end Pure

section Pure2

variable {α : Type} {m : ℕ}

/-- Equal block numbers and equal indices give equal entries. -/
theorem blk_congr (blk : Fin 16 → ((⟨2, ![256, m]⟩ : Shape).Idx → α)) {a b : Fin 16}
    {x y : (⟨2, ![256, m]⟩ : Shape).Idx} (h1 : a = b) (h2 : x = y) : blk a x = blk b y := by
  subst h1 h2; rfl

/-- The b-th row block of the matrix assembled from sixteen blocks is the b-th block. -/
theorem rowBlk_asm16 (blk : Fin 16 → ((⟨2, ![256, m]⟩ : Shape).Idx → α)) (b : Fin 16) :
    rowBlk (asm16 blk) b = blk b := by
  funext y
  obtain ⟨p, q, rfl⟩ : ∃ (p : Fin 256) (q : Fin m), y = ix2 p q := ⟨y 0, y 1, eq_ix2 y⟩
  have hp := p.isLt
  have hb := b.isLt
  unfold rowBlk asm16
  refine blk_congr blk (Fin.ext ?_) (funext fun a => ?_)
  · show (256 * b.val + p.val) / 256 = b.val; omega
  · match a with
    | ⟨0, _⟩ => exact Fin.ext (by show (256 * b.val + p.val) % 256 = p.val; omega)
    | ⟨1, _⟩ => rfl

/-- A matrix that agrees with G on all 4096 rows has G's row blocks. -/
theorem rowBlk_of_agree (f G : (⟨2, ![4096, m]⟩ : Shape).Idx → α) (h : AgreeRows f G 16) (b : Fin 16) :
    rowBlk f b = rowBlk G b := by
  funext y
  obtain ⟨p, q, rfl⟩ : ∃ (p : Fin 256) (q : Fin m), y = ix2 p q := ⟨y 0, y 1, eq_ix2 y⟩
  have hp := p.isLt
  have hb := b.isLt
  unfold rowBlk
  exact h _ _ (by show 256 * b.val + p.val < 256 * 16; omega)

/-- Storing G's b-th row block at rows 256·b … 256·b+255 of a matrix that agrees with G on the rows before
    gives a matrix that agrees with G on the rows up to 256·(b+1). -/
theorem agree_overlay (f G : (⟨2, ![4096, m]⟩ : Shape).Idx → α) (b : Fin 16) (off : Fin 2 → ℕ)
    (hoff : off = ![256 * b.val, 0])
    (inb : ∀ a, off a + (⟨2, ![256, m]⟩ : Shape).size a ≤ (⟨2, ![4096, m]⟩ : Shape).size a)
    (w : (⟨2, ![256, m]⟩ : Shape).Idx → α) (hw : w = rowBlk G b) (h : AgreeRows f G b.val) :
    AgreeRows ((Rect.unit (s := ⟨2, ![4096, m]⟩) off (⟨2, ![256, m]⟩ : Shape).size inb).overlay f w) G (b.val + 1) := by
  subst hoff hw
  intro r c hr
  have hb := b.isLt
  by_cases hlt : r.val < 256 * b.val
  · rw [Rect.overlay_of_not_mem]
    · exact h r c hlt
    · rw [Rect.mem_set_unit]
      intro hmem
      have h0 : 256 * b.val ≤ r.val := (hmem 0).1
      omega
  · have hr' : r.val - 256 * b.val < 256 := by omega
    have e : (ix2 r c : (⟨2, ![4096, m]⟩ : Shape).Idx)
        = (Rect.unit (s := ⟨2, ![4096, m]⟩) ![256 * b.val, 0] (⟨2, ![256, m]⟩ : Shape).size inb).emb
            (ix2 (⟨r.val - 256 * b.val, hr'⟩ : Fin 256) c) := by
      funext a
      match a with
      | ⟨0, _⟩ => exact Fin.ext (by show r.val = 256 * b.val + 1 * (r.val - 256 * b.val); omega)
      | ⟨1, _⟩ => exact Fin.ext (by show c.val = 0 + 1 * c.val; omega)
    rw [e, Rect.overlay_emb]
    unfold rowBlk
    refine congrArg G (funext fun a => Fin.ext ?_)
    match a with
    | ⟨0, _⟩ => show 256 * b.val + (r.val - 256 * b.val) = 256 * b.val + 1 * (r.val - 256 * b.val); omega
    | ⟨1, _⟩ => show c.val = 0 + 1 * c.val; omega

/-- After a store into the left 128 columns of every row, the left half is the stored value. -/
theorem lcol_overlay {n : ℕ} (f : (⟨2, ![n, 256]⟩ : Shape).Idx → α) (w : (⟨2, ![n, 128]⟩ : Shape).Idx → α)
    (inb : ∀ a, (![0, 0] : Fin 2 → ℕ) a + (⟨2, ![n, 128]⟩ : Shape).size a ≤ (⟨2, ![n, 256]⟩ : Shape).size a) :
    lcol ((Rect.unit (s := ⟨2, ![n, 256]⟩) ![0, 0] (⟨2, ![n, 128]⟩ : Shape).size inb).overlay f w) = w := by
  funext y
  obtain ⟨p, q, rfl⟩ : ∃ (p : Fin n) (q : Fin 128), y = ix2 p q := ⟨y 0, y 1, eq_ix2 y⟩
  have hq := q.isLt
  unfold lcol
  have e : (ix2 p (⟨q.val, by omega⟩ : Fin 256) : (⟨2, ![n, 256]⟩ : Shape).Idx)
      = (Rect.unit (s := ⟨2, ![n, 256]⟩) ![0, 0] (⟨2, ![n, 128]⟩ : Shape).size inb).emb (ix2 p q) := by
    funext a
    match a with
    | ⟨0, _⟩ => exact Fin.ext (by show p.val = 0 + 1 * p.val; omega)
    | ⟨1, _⟩ => exact Fin.ext (by show q.val = 0 + 1 * q.val; omega)
  exact (congrArg _ e).trans (Rect.overlay_emb _ _ _ _)

end Pure2

/-- What one store through a rectangle leaves reads as the old contents with the rectangle overlaid. -/
theorem read_writes_single {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ (fun p hp => by
      rw [List.mem_singleton] at hp; subst hp; exact hy)

/-! ## The invariant across a later block of stage 1 -/

/-- What the invariant before block b of stage 1 (b not the first) says of the values the body reads. -/
theorem inv_facts (A : Arrays F) (b : Fin 16) (hb : b.val ≠ 0) (st : St F) (hInv : Inv A (16 * 1 + b.val) st) :
    rowBlk st.adj b = adjB A b ∧ AgreeRows st.u2 (U2 A) b.val
      ∧ lcol st.s = S1 A ∧ lcol st.accs = acc1s A b.val ∧ lcol st.accq = acc1q A b.val := by
  obtain ⟨h1, -, h3, -, -, h6, -, -⟩ := hInv
  have hb' := b.isLt
  have e1 : min (16 * 1 + b.val) 16 = 16 := by omega
  have e3 : min (16 * 1 + b.val - 16) 16 = b.val := by omega
  have e6 : 16 * 1 + b.val - 16 = b.val := by omega
  rw [e1] at h1
  rw [e3] at h3
  have h6' := h6 (by omega)
  rw [e6] at h6'
  refine ⟨?_, h3, h6'.1, h6'.2.1, h6'.2.2⟩
  rw [rowBlk_of_agree st.adj (ADJ A) h1 b]
  exact rowBlk_asm16 (adjB A) b

/-- The invariant after block b of stage 1, from the new second-layer block and the new running sums. -/
theorem inv_next (A : Arrays F) (b : Fin 16) (hb : b.val ≠ 0) (st : St F) (hInv : Inv A (16 * 1 + b.val) st)
    (u2' : Vec F S4096x128 .f32) (accs' accq' : Vec F S1x256 .f32)
    (hu2 : AgreeRows u2' (U2 A) (b.val + 1))
    (hs' : lcol accs' = acc1s A (b.val + 1)) (hq' : lcol accq' = acc1q A (b.val + 1)) :
    Inv A (16 * 1 + b.val + 1) ⟨st.adj, st.s, st.h1, u2', st.u3, accs', accq'⟩ := by
  obtain ⟨h1, h2, h3, h4, h5, h6, h7, h8⟩ := hInv
  have hb' := b.isLt
  have e1 : min (16 * 1 + b.val + 1) 16 = min (16 * 1 + b.val) 16 := by omega
  have e3 : min (16 * 1 + b.val + 1 - 16) 16 = b.val + 1 := by omega
  have e4 : min (16 * 1 + b.val + 1 - 32) 16 = min (16 * 1 + b.val - 32) 16 := by omega
  have e6 : 16 * 1 + b.val + 1 - 16 = b.val + 1 := by omega
  refine ⟨?_, ?_, ?_, ?_, ?_, ?_, ?_, ?_⟩
  · rw [e1]; exact h1
  · rw [e1]; exact h2
  · rw [e3]; exact hu2
  · rw [e4]; exact h4
  · intro h; exfalso; omega
  · intro _
    rw [e6]
    exact ⟨(h6 (by omega)).1, hs', hq'⟩
  · intro h; exfalso; omega
  · intro h; exfalso; omega

/-- The running sums one block on are the body's sums applied to the block before. -/
theorem acc1s_succ (A : Arrays F) (b : Fin 16) :
    acc1s A (b.val + 1) = k0_pay22 (adjB A b) (S1 A) (acc1s A b.val) := by
  have e : (⟨b.val % 16, Nat.mod_lt _ (by norm_num)⟩ : Fin 16) = b := Fin.ext (Nat.mod_eq_of_lt b.isLt)
  rw [acc1s, e]
theorem acc1q_succ (A : Arrays F) (b : Fin 16) :
    acc1q A (b.val + 1) = k0_pay23 (adjB A b) (S1 A) (acc1q A b.val) := by
  have e : (⟨b.val % 16, Nat.mod_lt _ (by norm_num)⟩ : Fin 16) = b := Fin.ext (Nat.mod_eq_of_lt b.isLt)
  rw [acc1q, e]

/-- One later block of stage 1 on the scratch contents: the body loads the parked adjacency block and the
    support, stores the second layer's block at rows 256·b … and adds the block's column sums and sums of squares
    into the left halves of the two running rows; the invariant moves on by one point. -/
theorem step_pure (A : Arrays F) (b : Fin 16) (hb : b.val ≠ 0) (st : St F) (hInv : Inv A (16 * 1 + b.val) st)
    (off3 off4 : Fin 2 → ℕ) (h3 : off3 = ![256 * b.val, 0]) (h4 : off4 = ![256 * b.val, 0])
    (inb3 : ∀ a, off3 a + S256x4096.size a ≤ S4096x4096.size a)
    (inb4 : ∀ a, off4 a + S256x128.size a ≤ S4096x128.size a)
    (inbS : ∀ a, (![0, 0] : Fin 2 → ℕ) a + S4096x128.size a ≤ S4096x256.size a)
    (inbA : ∀ a, (![0, 0] : Fin 2 → ℕ) a + S1x128.size a ≤ S1x256.size a) :
    Inv A (16 * 1 + b.val + 1)
      ⟨st.adj, st.s, st.h1,
        (Rect.unit (s := S4096x128) off4 S256x128.size inb4).overlay st.u2
          (k0_pay21 (View.ld st.adj (Rect.unit (s := S4096x4096) off3 S256x4096.size inb3))
            (View.ld st.s (Rect.unit (s := S4096x256) ![0, 0] S4096x128.size inbS))),
        st.u3,
        (Rect.unit (s := S1x256) ![0, 0] S1x128.size inbA).overlay st.accs
          (k0_pay22 (View.ld st.adj (Rect.unit (s := S4096x4096) off3 S256x4096.size inb3))
            (View.ld st.s (Rect.unit (s := S4096x256) ![0, 0] S4096x128.size inbS))
            (View.ld st.accs (Rect.unit (s := S1x256) ![0, 0] S1x128.size inbA))),
        (Rect.unit (s := S1x256) ![0, 0] S1x128.size inbA).overlay st.accq
          (k0_pay23 (View.ld st.adj (Rect.unit (s := S4096x4096) off3 S256x4096.size inb3))
            (View.ld st.s (Rect.unit (s := S4096x256) ![0, 0] S4096x128.size inbS))
            (View.ld st.accq (Rect.unit (s := S1x256) ![0, 0] S1x128.size inbA)))⟩ := by
  obtain ⟨hadj, hu2, hs, has, haq⟩ := inv_facts A b hb st hInv
  have eadj : View.ld st.adj (Rect.unit (s := S4096x4096) off3 S256x4096.size inb3) = adjB A b :=
    (ld_rowBlk st.adj b off3 h3 inb3).trans hadj
  have es : View.ld st.s (Rect.unit (s := S4096x256) ![0, 0] S4096x128.size inbS) = S1 A :=
    (ld_lcol st.s inbS).trans hs
  have eas : View.ld st.accs (Rect.unit (s := S1x256) ![0, 0] S1x128.size inbA) = acc1s A b.val :=
    (ld_lcol st.accs inbA).trans has
  have eaq : View.ld st.accq (Rect.unit (s := S1x256) ![0, 0] S1x128.size inbA) = acc1q A b.val :=
    (ld_lcol st.accq inbA).trans haq
  rw [eadj, es, eas, eaq]
  refine inv_next A b hb st hInv _ _ _ ?_ ?_ ?_
  · exact agree_overlay st.u2 (U2 A) b off4 h4 inb4 _ (rowBlk_asm16 (u2B A) b).symm hu2
  · rw [acc1s_succ]; exact lcol_overlay st.accs _ inbA
  · rw [acc1q_succ]; exact lcol_overlay st.accq _ inbA

/-! ## The scratch contents the body leaves -/

/-- The scratch buffers after a later block of stage 1: the second layer's block stored at the point's rows, the
    block's column sums and sums of squares added into the left halves of the running rows; everything else as before. -/
def next (i : grid0.Coords) (h7 : k0_cond7 i = 1#1) (st : St F) : St F where
  adj := st.adj
  s := st.s
  h1 := st.h1
  u2 := (Rect.unit (s := S4096x128) (k0_off4 i) S256x128.size (k0_off4_inb i h7)).overlay st.u2
    (k0_pay21 (View.ld st.adj (Rect.unit (s := S4096x4096) (k0_off3 i) S256x4096.size (k0_off3_inb i h7)))
      (View.ld st.s (Rect.unit (s := S4096x256) ![0, 0] S4096x128.size inb_S4096x256_S4096x128_0_0)))
  u3 := st.u3
  accs := (Rect.unit (s := S1x256) ![0, 0] S1x128.size inb_S1x256_S1x128_0_0).overlay st.accs
    (k0_pay22 (View.ld st.adj (Rect.unit (s := S4096x4096) (k0_off3 i) S256x4096.size (k0_off3_inb i h7)))
      (View.ld st.s (Rect.unit (s := S4096x256) ![0, 0] S4096x128.size inb_S4096x256_S4096x128_0_0))
      (View.ld st.accs (Rect.unit (s := S1x256) ![0, 0] S1x128.size inb_S1x256_S1x128_0_0)))
  accq := (Rect.unit (s := S1x256) ![0, 0] S1x128.size inb_S1x256_S1x128_0_0).overlay st.accq
    (k0_pay23 (View.ld st.adj (Rect.unit (s := S4096x4096) (k0_off3 i) S256x4096.size (k0_off3_inb i h7)))
      (View.ld st.s (Rect.unit (s := S4096x256) ![0, 0] S4096x128.size inb_S4096x256_S4096x128_0_0))
      (View.ld st.accq (Rect.unit (s := S1x256) ![0, 0] S1x128.size inb_S1x256_S1x128_0_0)))

/-- They satisfy the invariant at the next point. -/
theorem inv_next_point (A : Arrays F) (i : grid0.Coords) (hi : (i 1).val ≠ 0) (h7 : k0_cond7 i = 1#1) (st : St F)
    (hInv : Inv A (16 * 1 + (i 1).val) st) : Inv A (16 * 1 + (i 1).val + 1) (next i h7 st) :=
  step_pure A (blkOf i) hi st hInv (k0_off3 i) (k0_off4 i) (k0_off3_eq i) (k0_off4_eq i) _ _ _ _

end Cert.Kernel.Stack.C1i

namespace Cert.Kernel.Stack

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 1000000 in
theorem step1i (c : Dev nD) (E : Set ℕ) (i : grid0.Coords) (hs : (i 0).val = 1) (hi : (i 1).val ≠ 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 1 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 1 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  have hc4 := C1i.cond4_f i hs
  have hc6 := C1i.cond6_f i hs
  have hc7 := C1i.cond7_t i hs
  have hc8 := C1i.cond8_f i hs
  have hc9 := C1i.cond9_f i hs
  have hc10 := C1i.cond10_f i hs
  have hv4 := C1i.v4_f i hs
  have hv9 := C1i.v9_f i hi
  have hv14 := C1i.v14_f i hs
  have hv22 := C1i.v22_f i hi
  simp only [cc0__gcn_stack_kernel_eq_skeleton]; unfold cc0__gcn_stack_kernel_skel
  simp only [k0_part3_eq_skeleton]; unfold k0_part3_skel
  unfold scr owns
  iintro ⟨Hins, Houts, ⟨⟨%f0, %hf0, S0⟩, ⟨%f1, %hf1, S1⟩, ⟨%f2, %hf2, S2⟩, ⟨%f3, %hf3, S3⟩, ⟨%f4, %hf4, S4⟩, ⟨%f5, %hf5, S5⟩, ⟨%f6, %hf6, S6⟩⟩, Hk⟩
  sl_exec (disch := first | sl_exact hc4 | sl_exact hc6 | sl_exact hc7 | sl_exact hc8 | sl_exact hc9 | sl_exact hc10 | sl_exact hv4 | sl_exact hv9 | sl_exact hv14 | sl_exact hv22)
  sl_step
  iapply Hk
  iexists (C1i.next i hc7 st)
  isplitr
  · ipureintro; exact C1i.inv_next_point A i hi hc7 st hInv
  isplitl [Hins]; · iexact Hins
  isplitl [Houts]; · iexact Houts
  isplitl [S0]
  · iexists f0; isplitr; · ipureintro; exact hf0
    iexact S0
  isplitl [S1]
  · iexists f1; isplitr; · ipureintro; exact hf1
    iexact S1
  isplitl [S2]
  · iexists f2; isplitr; · ipureintro; exact hf2
    iexact S2
  isplitl [S3]
  · iexists _; isplitr
    swap; · iexact S3
    ipureintro
    rw [C1i.read_writes_single, hf3]
    simp only [View.readAt_eq_ld, hf0, hf1]
    rfl
  isplitl [S4]
  · iexists f4; isplitr; · ipureintro; exact hf4
    iexact S4
  isplitl [S5]
  · iexists _; isplitr
    swap; · iexact S5
    ipureintro
    rw [C1i.read_writes_single, hf5]
    simp only [View.readAt_eq_ld, hf0, hf1, hf5]
    rfl
  iexists _; isplitr
  swap; · iexact S6
  ipureintro
  rw [C1i.read_writes_single, hf6]
  simp only [View.readAt_eq_ld, hf0, hf1, hf6]
  rfl

end Cert.Kernel.Stack

end
-- ==== Proof.WStackStep20.lean ====
/-
  One grid point of the graph-convolution stack — stage 2, first block: the batch-norm affine map from the stage-1 sums, both decoders' supports, the sums cleared, then the block.
  From the scratch buffers as the points before left them (the invariant at this point) the kernel body runs to
  the invariant at the next point, the input blocks unchanged and the output blocks as stated.
-/
import proofs.«181189_g481036337843_cont_8to1c4_37_6_alg».proof.Proof.WStackRes
import proofs.«181189_g481036337843_cont_8to1c4_37_6_alg».proof.Proof.WStackView
import Idealize.ShloMosaic.Lib.Pipeline.Value

set_option maxRecDepth 16384

noncomputable section

namespace Cert.Kernel.Stack

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

namespace C20

/-! ## Matrices cut in row blocks -/

section Blocks
variable {α : Type} {m : ℕ}

/-- Block `b` of the matrix assembled from sixteen blocks is the `b`-th block. -/
theorem rowBlk_asm16 (blk : Fin 16 → ((⟨2, ![256, m]⟩ : Shape).Idx → α)) (b : Fin 16) : rowBlk (asm16 blk) b = blk b := by
  funext y
  obtain ⟨r, q, rfl⟩ : ∃ (r : Fin 256) (q : Fin m), y = ix2 r q := ⟨y 0, y 1, eq_ix2 y⟩
  show blk ⟨(256 * b.val + r.val) / 256, _⟩ (ix2 ⟨(256 * b.val + r.val) % 256, _⟩ q) = blk b (ix2 r q)
  have h1 : (256 * b.val + r.val) / 256 = b.val := by have := r.isLt; omega
  have h2 : (256 * b.val + r.val) % 256 = r.val := by have := r.isLt; omega
  have e1 : (⟨(256 * b.val + r.val) / 256, by have := r.isLt; have := b.isLt; omega⟩ : Fin 16) = b := Fin.ext h1
  have e2 : (⟨(256 * b.val + r.val) % 256, Nat.mod_lt _ (by norm_num)⟩ : Fin 256) = r := Fin.ext h2
  rw [e1, e2]

/-- Two matrices that agree on all sixteen row blocks are equal. -/
theorem eq_of_agreeRows16 {f g : (⟨2, ![4096, m]⟩ : Shape).Idx → α} (h : AgreeRows f g 16) : f = g := by
  funext j
  obtain ⟨r, q, rfl⟩ : ∃ (r : Fin 4096) (q : Fin m), j = ix2 r q := ⟨j 0, j 1, eq_ix2 j⟩
  exact h r q (by have := r.isLt; omega)

/-- Agreement on the first `k` row blocks only looks at those rows. -/
theorem rowBlk_eq_of_agreeRows {f g : (⟨2, ![4096, m]⟩ : Shape).Idx → α} {k : ℕ} (h : AgreeRows f g k) (b : Fin 16)
    (hb : b.val < k) : rowBlk f b = rowBlk g b := by
  funext y
  exact h _ _ (by show 256 * b.val + (y 0).val < 256 * k; have := idx2_lt0 y; nlinarith)

end Blocks

/-! ## What a load through a unit-stride rectangle reads, and what stores through such rectangles leave -/

section Reads
variable {Val : EltTy → Type} {e : EltTy}

theorem zero2 : (![0, 0] : Fin 2 → ℕ) = fun _ => 0 := by
  funext a; match a with | ⟨0, _⟩ => rfl | ⟨1, _⟩ => rfl

/-- A load through a rectangle reads the buffer's contents, as the view reads them, at the rectangle's indices. -/
theorem readAt_eq {sig : RefSig} {κ : Kind} {sp : Space} {S : Shape} (v : View sig κ sp S e) (f : v.ty.Contents Val)
    (X : S.Idx → Val e) (hf : v.read Val f = X) (r : Rect S) : v.readAt Val r.toLoadRect f = View.ld X r := by
  subst hf; rfl

/-- The whole buffer, loaded at offsets zero. -/
theorem ld_whole2 {S : Shape} (X : S.Idx → Val e) (off : Fin S.rank → ℕ) (h0 : off = fun _ => 0)
    (inb : ∀ a, off a + S.size a ≤ S.size a) : View.ld X (Rect.unit off S.size inb) = X :=
  View.ld_unit_zero h0 inb X

/-- The left 128 columns of a one-row buffer of 256 columns. -/
theorem ld_lcol1 (X : S1x256.Idx → Val e) (inb : ∀ a, (![0, 0] : Fin 2 → ℕ) a + S1x128.size a ≤ S1x256.size a) :
    View.ld X (Rect.unit (s := S1x256) ![0, 0] S1x128.size inb) = lcol X := by
  funext y
  refine congrArg X (funext fun a => Fin.ext ?_)
  match a with
  | ⟨0, _⟩ => show 0 + 1 * (y 0).val = (y 0).val; omega
  | ⟨1, _⟩ => show 0 + 1 * (y 1).val = (y 1).val; omega

/-- Rows `256·b … 256·b+255`, all columns: the row block `b`. -/
theorem ld_rowBlk {m : ℕ} (X : (⟨2, ![4096, m]⟩ : Shape).Idx → Val e) (b : Fin 16) (off : Fin 2 → ℕ)
    (hoff : off = ![256 * b.val, 0])
    (inb : ∀ a, off a + (![256, m] : Fin 2 → ℕ) a ≤ (⟨2, ![4096, m]⟩ : Shape).size a) :
    View.ld X (Rect.unit (s := ⟨2, ![4096, m]⟩) off ![256, m] inb) = rowBlk X b := by
  subst hoff
  funext y
  refine congrArg X (funext fun a => Fin.ext ?_)
  match a with
  | ⟨0, _⟩ => show 256 * b.val + 1 * (y 0).val = 256 * b.val + (y 0).val; omega
  | ⟨1, _⟩ => show 0 + 1 * (y 1).val = (y 1).val; omega

/-- A store through the whole buffer, made last, leaves its payload. -/
theorem read_writes_whole_last {sig : RefSig} {κ : Kind} {sp : Space} {S : Shape} (v : View sig κ sp S e)
    (f : v.ty.Contents Val) (off : Fin S.rank → ℕ) (h0 : off = fun _ => 0) (inb : ∀ a, off a + S.size a ≤ S.size a)
    (w : S.Idx → Val e) (L : List (View.Piece Val S e)) :
    v.read Val (v.writes Val f (⟨Rect.unit off S.size inb, w⟩ :: L)) = w := by
  subst h0; funext y
  have e := View.read_writes_cons_emb v f (Rect.whole S) w L y
  rw [Rect.emb_whole_apply] at e
  exact e

/-- The two column halves of a 256-column buffer, each stored whole, hold the two payloads side by side:
    each piece is its half of the side-by-side matrix, -/
theorem halves_agree {n : ℕ} (PL PR : (⟨2, ![n, 128]⟩ : Shape).Idx → Val e)
    (inbL : ∀ a, (![0, 0] : Fin 2 → ℕ) a + (![n, 128] : Fin 2 → ℕ) a ≤ (⟨2, ![n, 256]⟩ : Shape).size a)
    (inbR : ∀ a, (![0, 128] : Fin 2 → ℕ) a + (![n, 128] : Fin 2 → ℕ) a ≤ (⟨2, ![n, 256]⟩ : Shape).size a) :
    ∀ p ∈ ([⟨Rect.unit (s := ⟨2, ![n, 256]⟩) ![0, 128] ![n, 128] inbR, PR⟩,
        ⟨Rect.unit (s := ⟨2, ![n, 256]⟩) ![0, 0] ![n, 128] inbL, PL⟩] : List (View.Piece Val ⟨2, ![n, 256]⟩ e)),
      ∀ x : p.1.shape.Idx, p.2 x = hcat PL PR (p.1.emb x) := by
  intro p hp x
  simp only [List.mem_cons, List.not_mem_nil, or_false] at hp
  rcases hp with rfl | rfl
  · show PR x = hcat PL PR ((Rect.unit (s := ⟨2, ![n, 256]⟩) ![0, 128] ![n, 128] inbR).emb x)
    have hc : ¬ (((Rect.unit (s := ⟨2, ![n, 256]⟩) ![0, 128] ![n, 128] inbR).emb x) 1).val < 128 := by
      show ¬ (128 + 1 * (x 1).val < 128); omega
    unfold hcat
    rw [dif_neg hc]
    refine congrArg PR (funext fun a => Fin.ext ?_)
    match a with
    | ⟨0, _⟩ => show (x 0).val = 0 + 1 * (x 0).val; omega
    | ⟨1, _⟩ => show (x 1).val = 128 + 1 * (x 1).val - 128; omega
  · show PL x = hcat PL PR ((Rect.unit (s := ⟨2, ![n, 256]⟩) ![0, 0] ![n, 128] inbL).emb x)
    have hc : (((Rect.unit (s := ⟨2, ![n, 256]⟩) ![0, 0] ![n, 128] inbL).emb x) 1).val < 128 := by
      show 0 + 1 * (x 1).val < 128; have := idx2_lt1 x; omega
    unfold hcat
    rw [dif_pos hc]
    refine congrArg PL (funext fun a => Fin.ext ?_)
    match a with
    | ⟨0, _⟩ => show (x 0).val = 0 + 1 * (x 0).val; omega
    | ⟨1, _⟩ => show (x 1).val = 0 + 1 * (x 1).val; omega

/-- and between them the two pieces hold every index. -/
theorem halves_cover {n : ℕ} (PL PR : (⟨2, ![n, 128]⟩ : Shape).Idx → Val e)
    (inbL : ∀ a, (![0, 0] : Fin 2 → ℕ) a + (![n, 128] : Fin 2 → ℕ) a ≤ (⟨2, ![n, 256]⟩ : Shape).size a)
    (inbR : ∀ a, (![0, 128] : Fin 2 → ℕ) a + (![n, 128] : Fin 2 → ℕ) a ≤ (⟨2, ![n, 256]⟩ : Shape).size a)
    (y : (⟨2, ![n, 256]⟩ : Shape).Idx) :
    ∃ p ∈ ([⟨Rect.unit (s := ⟨2, ![n, 256]⟩) ![0, 128] ![n, 128] inbR, PR⟩,
        ⟨Rect.unit (s := ⟨2, ![n, 256]⟩) ![0, 0] ![n, 128] inbL, PL⟩] : List (View.Piece Val ⟨2, ![n, 256]⟩ e)),
      y ∈ p.1.set := by
  obtain ⟨r, q, rfl⟩ : ∃ (r : Fin n) (q : Fin 256), y = ix2 r q := ⟨y 0, y 1, eq_ix2 y⟩
  by_cases hq : q.val < 128
  · refine ⟨_, List.mem_cons_of_mem _ List.mem_cons_self, ?_⟩
    show ix2 r q ∈ (Rect.unit (s := ⟨2, ![n, 256]⟩) ![0, 0] ![n, 128] inbL).set
    rw [Rect.mem_set_unit]
    intro a
    match a with
    | ⟨0, _⟩ => exact ⟨Nat.zero_le _, by show r.val < 0 + n; have := r.isLt; omega⟩
    | ⟨1, _⟩ => exact ⟨Nat.zero_le _, by show q.val < 0 + 128; omega⟩
  · refine ⟨_, List.mem_cons_self, ?_⟩
    show ix2 r q ∈ (Rect.unit (s := ⟨2, ![n, 256]⟩) ![0, 128] ![n, 128] inbR).set
    rw [Rect.mem_set_unit]
    intro a
    match a with
    | ⟨0, _⟩ => exact ⟨Nat.zero_le _, by show r.val < 0 + n; have := r.isLt; omega⟩
    | ⟨1, _⟩ => exact ⟨by show 128 ≤ q.val; omega, by show q.val < 128 + 128; have := q.isLt; omega⟩

theorem read_writes_halves {sig : RefSig} {κ : Kind} {sp : Space} {n : ℕ} (v : View sig κ sp (⟨2, ![n, 256]⟩ : Shape) e)
    (f : v.ty.Contents Val) (PL PR : (⟨2, ![n, 128]⟩ : Shape).Idx → Val e)
    (inbL : ∀ a, (![0, 0] : Fin 2 → ℕ) a + (![n, 128] : Fin 2 → ℕ) a ≤ (⟨2, ![n, 256]⟩ : Shape).size a)
    (inbR : ∀ a, (![0, 128] : Fin 2 → ℕ) a + (![n, 128] : Fin 2 → ℕ) a ≤ (⟨2, ![n, 256]⟩ : Shape).size a) :
    v.read Val (v.writes Val f [⟨Rect.unit (s := ⟨2, ![n, 256]⟩) ![0, 128] ![n, 128] inbR, PR⟩,
        ⟨Rect.unit (s := ⟨2, ![n, 256]⟩) ![0, 0] ![n, 128] inbL, PL⟩]) = hcat PL PR :=
  funext fun y => View.read_writes_apply_of_pieces v f (hcat PL PR) _ (halves_agree PL PR inbL inbR) y
    (halves_cover PL PR inbL inbR y)

theorem canon_halves [∀ e, Nonempty (Val e)] {n : ℕ} (PL PR : (⟨2, ![n, 128]⟩ : Shape).Idx → Val e)
    (inbL : ∀ a, (![0, 0] : Fin 2 → ℕ) a + (![n, 128] : Fin 2 → ℕ) a ≤ (⟨2, ![n, 256]⟩ : Shape).size a)
    (inbR : ∀ a, (![0, 128] : Fin 2 → ℕ) a + (![n, 128] : Fin 2 → ℕ) a ≤ (⟨2, ![n, 256]⟩ : Shape).size a) :
    View.canon ([⟨Rect.unit (s := ⟨2, ![n, 256]⟩) ![0, 128] ![n, 128] inbR, PR⟩,
        ⟨Rect.unit (s := ⟨2, ![n, 256]⟩) ![0, 0] ![n, 128] inbL, PL⟩] : List (View.Piece Val ⟨2, ![n, 256]⟩ e))
      = hcat PL PR :=
  funext fun y => View.canon_apply_of_pieces (hcat PL PR) _ (halves_agree PL PR inbL inbR) y
    (halves_cover PL PR inbL inbR y)

/-- Storing row block `k` of `G` at rows `256·k …` of a buffer that agrees with `G` on the first `k` row blocks
    makes it agree on the first `k + 1`. -/
theorem agreeRows_store {sig : RefSig} {κ : Kind} {sp : Space} {m : ℕ} (v : View sig κ sp (⟨2, ![4096, m]⟩ : Shape) e)
    (f : v.ty.Contents Val) (G : (⟨2, ![4096, m]⟩ : Shape).Idx → Val e) (k : ℕ) (hk : k < 16)
    (h : AgreeRows (v.read Val f) G k) (off : Fin 2 → ℕ) (hoff : off = ![256 * k, 0])
    (inb : ∀ a, off a + (![256, m] : Fin 2 → ℕ) a ≤ (⟨2, ![4096, m]⟩ : Shape).size a)
    (P : (⟨2, ![256, m]⟩ : Shape).Idx → Val e) (hP : P = rowBlk G ⟨k, hk⟩) :
    AgreeRows (v.read Val (v.writes Val f [⟨Rect.unit (s := ⟨2, ![4096, m]⟩) off ![256, m] inb, P⟩])) G (k + 1) := by
  subst hoff hP
  intro r c hr
  by_cases hlt : r.val < 256 * k
  · rw [View.read_writes_apply_of_forall_not_mem]
    · exact h r c hlt
    · intro p hp
      rw [List.mem_singleton] at hp; subst hp
      show ix2 r c ∉ (Rect.unit (s := ⟨2, ![4096, m]⟩) ![256 * k, 0] ![256, m] inb).set
      rw [Rect.mem_set_unit]
      intro hall
      have h0 : 256 * k ≤ r.val := (hall ⟨0, Nat.zero_lt_two⟩).1
      omega
  · have hx : r.val - 256 * k < 256 := by omega
    have e : ix2 r c = (Rect.unit (s := ⟨2, ![4096, m]⟩) ![256 * k, 0] ![256, m] inb).emb (ix2 ⟨r.val - 256 * k, hx⟩ c) := by
      funext a; apply Fin.ext
      match a with
      | ⟨0, _⟩ => show r.val = 256 * k + 1 * (r.val - 256 * k); omega
      | ⟨1, _⟩ => show c.val = 0 + 1 * c.val; omega
    rw [e, View.read_writes_cons_emb, ← e]
    show G (ix2 ⟨256 * k + (r.val - 256 * k), _⟩ c) = G (ix2 r c)
    refine congrArg (fun t => G (ix2 t c)) (Fin.ext ?_)
    show 256 * k + (r.val - 256 * k) = r.val
    omega

end Reads

/-! ## The invariant across the first block of stage 2 -/

section Step
variable {F : FTy → Type} [FloatOps F]

/-- From the invariant before point 32 to the invariant before point 33: the parked adjacency, the first two layers'
    activations are untouched; the support is the stage-2 support; the first row block of the third activation is
    stored; the running sums are those after one block. -/
theorem inv_step (A : Arrays F) (st st' : St F) (hInv : Inv A 32 st)
    (hadj : st'.adj = st.adj) (hh1 : st'.h1 = st.h1) (hu2 : st'.u2 = st.u2)
    (hs : st'.s = S2 A) (hu3 : AgreeRows st'.u3 (U3 A) 1)
    (haccs : st'.accs = acc2s A 1) (haccq : st'.accq = acc2q A 1) : Inv A 33 st' := by
  obtain ⟨h1, h2, h3, h4, -, -, -, -⟩ := hInv
  refine ⟨?_, ?_, ?_, ?_, ?_, ?_, ?_, ?_⟩
  · rw [hadj]; exact h1
  · rw [hh1]; exact h2
  · rw [hu2]; exact h3
  · exact hu3
  · intro h; exact absurd h.2 (by norm_num)
  · intro h; exact absurd h.2 (by norm_num)
  · intro _; exact ⟨hs, haccs, haccq⟩
  · intro h; exact absurd h.1 (by norm_num)

/-- What the invariant before point 32 says of the buffers the first block of stage 2 reads. -/
theorem inv32_reads (A : Arrays F) (st : St F) (hInv : Inv A 32 st) :
    st.adj = ADJ A ∧ st.u2 = U2 A ∧ lcol st.accs = acc1s A 16 ∧ lcol st.accq = acc1q A 16
      ∧ AgreeRows st.u3 (U3 A) 0 := by
  obtain ⟨h1, -, h3, h4, -, h6, -, -⟩ := hInv
  obtain ⟨-, h6s, h6q⟩ := h6 ⟨by norm_num, by norm_num⟩
  exact ⟨eq_of_agreeRows16 h1, eq_of_agreeRows16 h3, h6s, h6q, h4⟩

end Step

end C20

variable {F : FTy → Type} [FloatOps F]

set_option maxHeartbeats 4000000 in
theorem step20 (c : Dev nD) (E : Set ℕ) (i : grid0.Coords) (hs : (i 0).val = 2) (hi : (i 1).val = 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 2 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 2 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  -- stage 2, block 0: of the body's ten conditionals, the stage-2 support, the clearing of the sums and the stage-2 block are taken
  have hc8 := Cert.Kernel.Stack.View.cond8_pos i hs
  have hc4 := Cert.Kernel.Stack.View.cond4_neg i (Or.inl (by omega))
  have hc6 := Cert.Kernel.Stack.View.cond6_neg i (by omega)
  have hc7 := Cert.Kernel.Stack.View.cond7_neg i (by omega)
  have hc9 := Cert.Kernel.Stack.View.cond9_neg i (by omega)
  have hc10 := Cert.Kernel.Stack.View.cond10_neg i (Or.inl (by omega))
  have hv4 := Cert.Kernel.Stack.View.v4_neg i (Or.inl (by omega))
  have hv9 := Cert.Kernel.Stack.View.v9_neg i (Or.inl (by omega))
  have hv14 := Cert.Kernel.Stack.View.v14_pos i hs hi
  have hv22 := Cert.Kernel.Stack.View.v22_pos i hi
  -- the block's rows start at row 0
  have hoff5 : k0_off5 i = ![256 * 0, 0] := by rw [Cert.Kernel.Stack.View.off5_eq, hi]
  have hoff6 : k0_off6 i = ![256 * 0, 0] := by rw [Cert.Kernel.Stack.View.off6_eq, hi]
  rw [hi] at hInv ⊢
  have hInv32 : Inv A 32 st := hInv
  obtain ⟨eadj, eu2, eaccs, eaccq, hu30⟩ := C20.inv32_reads A st hInv32
  simp only [cc0__gcn_stack_kernel_eq_skeleton]; unfold cc0__gcn_stack_kernel_skel
  unfold ins outs scr owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩,
    ⟨⟨%f13, %hf13, H13⟩, ⟨%f14, %hf14, H14⟩, ⟨%f15, %hf15, H15⟩, ⟨%f16, %hf16, H16⟩⟩,
    ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  sl_exec (disch := first | sl_exact hc8 | sl_exact hc4 | sl_exact hc6 | sl_exact hc7 | sl_exact hc9 | sl_exact hc10 | sl_exact hv4 | sl_exact hv9 | sl_exact hv14 | sl_exact hv22)
  sl_step
  -- what each load reads, by the invariant: the stage-1 sums' left halves, the batch-norm rows, the weights, the whole second activation, the parked adjacency's first row block
  have e22 : View.readAt (Elt F) (Memref.whole cc0_scratch5).view (Rect.unit (s := S1x256) ![0, 0] S1x128.size inb_S1x256_S1x128_0_0).toLoadRect f22 = acc1s A 16 :=
    (C20.readAt_eq _ f22 st.accs hf22 _).trans ((C20.ld_lcol1 st.accs _).trans eaccs)
  have e23 : View.readAt (Elt F) (Memref.whole cc0_scratch6).view (Rect.unit (s := S1x256) ![0, 0] S1x128.size inb_S1x256_S1x128_0_0).toLoadRect f23 = acc1q A 16 :=
    (C20.readAt_eq _ f23 st.accq hf23 _).trans ((C20.ld_lcol1 st.accq _).trans eaccq)
  have e6 : View.readAt (Elt F) arg6.view (Rect.unit (s := S1x128) ![0, 0] S1x128.size inb_S1x128_S1x128_0_0).toLoadRect f6 = A.g2 :=
    (C20.readAt_eq _ f6 A.g2 hf6 _).trans (C20.ld_whole2 A.g2 _ C20.zero2 _)
  have e7 : View.readAt (Elt F) arg7.view (Rect.unit (s := S1x128) ![0, 0] S1x128.size inb_S1x128_S1x128_0_0).toLoadRect f7 = A.b2 :=
    (C20.readAt_eq _ f7 A.b2 hf7 _).trans (C20.ld_whole2 A.b2 _ C20.zero2 _)
  have e8 : View.readAt (Elt F) arg8.view (Rect.unit (s := S128x128) ![0, 0] S128x128.size inb_S128x128_S128x128_0_0).toLoadRect f8 = A.wf1 :=
    (C20.readAt_eq _ f8 A.wf1 hf8 _).trans (C20.ld_whole2 A.wf1 _ C20.zero2 _)
  have e12 : View.readAt (Elt F) arg12.view (Rect.unit (s := S128x128) ![0, 0] S128x128.size inb_S128x128_S128x128_0_0).toLoadRect f12 = A.ws1 :=
    (C20.readAt_eq _ f12 A.ws1 hf12 _).trans (C20.ld_whole2 A.ws1 _ C20.zero2 _)
  have e20 : View.readAt (Elt F) (Memref.whole cc0_scratch3).view (Rect.unit (s := S4096x128) ![0, 0] S4096x128.size inb_S4096x128_S4096x128_0_0).toLoadRect f20 = U2 A :=
    (C20.readAt_eq _ f20 st.u2 hf20 _).trans ((C20.ld_whole2 st.u2 _ C20.zero2 _).trans eu2)
  have e17 : View.readAt (Elt F) (Memref.whole cc0_scratch0).view (Rect.unit (s := S4096x4096) (k0_off5 i) S256x4096.size (k0_off5_inb i hc8)).toLoadRect f17 = adjB A ⟨0, by norm_num⟩ :=
    (C20.readAt_eq _ f17 st.adj hf17 _).trans ((C20.ld_rowBlk st.adj ⟨0, by norm_num⟩ (k0_off5 i) hoff5 _).trans
      (by rw [eadj]; exact C20.rowBlk_asm16 (adjB A) _))
  -- the two column halves stored side by side are the stage-2 support, and that is what the block loads
  have hL : View.canon (step20.sl.H18_2 c arg6 arg7 arg8 arg12 f6 f7 f8 f12 f20 f22 f23) = S2 A := by
    unfold step20.sl.H18_2 step20.sl.r
    refine (C20.canon_halves _ _ _ _).trans ?_
    show hcat _ _ = hcat (S2a A) (S2b A)
    rw [e22, e23, e6, e7, e20, e8, e12]
    try rfl
  have hcov : ∀ y, ∃ p ∈ step20.sl.H18_2 c arg6 arg7 arg8 arg12 f6 f7 f8 f12 f20 f22 f23, y ∈ p.1.set := by
    unfold step20.sl.H18_2
    exact C20.halves_cover _ _ _ _
  have ev43 : step20.sl.v43 c arg6 arg7 arg8 arg12 f6 f7 f8 f12 f20 f22 f23 = S2 A := by
    unfold step20.sl.v43
    rw [View.readCov_eq_canon', hL]
    exact C20.ld_whole2 (S2 A) _ C20.zero2 _
  have ev51 : step20.sl.v51 (F := F) c = k0_pay16 := by
    unfold step20.sl.v51 step20.sl.H22_1
    exact View.readCov_unit_zero _ C20.zero2 _ _
  have ev58 : step20.sl.v58 (F := F) c = k0_pay17 := by
    unfold step20.sl.v58 step20.sl.H23_1
    exact View.readCov_unit_zero _ C20.zero2 _ _
  -- the running sums after the block: the block's column sums and sums of squares added to the cleared rows
  have haccs : ∀ (L : List (View.Piece (Elt F) S1x256 .f32)) (z : Vec F S1x256 .f32), z = k0_pay16 →
      View.read (Elt F) (Memref.whole cc0_scratch5).view ((Memref.whole cc0_scratch5).view.writes (Elt F) f22
        (⟨Rect.unit (s := S1x256) ![0, 0] S1x256.size inb_S1x256_S1x256_0_0,
          k0_pay3 (View.readAt (Elt F) (Memref.whole cc0_scratch0).view (Rect.unit (s := S4096x4096) (k0_off5 i) S256x4096.size (k0_off5_inb i hc8)).toLoadRect f17)
            (step20.sl.v43 c arg6 arg7 arg8 arg12 f6 f7 f8 f12 f20 f22 f23) z⟩ :: L)) = acc2s A 1 := by
    intro L z hz
    refine (C20.read_writes_whole_last (S := S1x256) _ _ _ C20.zero2 _ _ _).trans ?_
    rw [e17, ev43, hz]
    try rfl
  have haccq : ∀ (L : List (View.Piece (Elt F) S1x256 .f32)) (z : Vec F S1x256 .f32), z = k0_pay17 →
      View.read (Elt F) (Memref.whole cc0_scratch6).view ((Memref.whole cc0_scratch6).view.writes (Elt F) f23
        (⟨Rect.unit (s := S1x256) ![0, 0] S1x256.size inb_S1x256_S1x256_0_0,
          k0_pay4 (View.readAt (Elt F) (Memref.whole cc0_scratch0).view (Rect.unit (s := S4096x4096) (k0_off5 i) S256x4096.size (k0_off5_inb i hc8)).toLoadRect f17)
            (step20.sl.v43 c arg6 arg7 arg8 arg12 f6 f7 f8 f12 f20 f22 f23) z⟩ :: L)) = acc2q A 1 := by
    intro L z hz
    refine (C20.read_writes_whole_last (S := S1x256) _ _ _ C20.zero2 _ _ _).trans ?_
    rw [e17, ev43, hz]
    try rfl
  iapply Hk
  iexists (St.mk st.adj (S2 A) st.h1 st.u2
    (View.read (Elt F) (Memref.whole cc0_scratch4).view ((Memref.whole cc0_scratch4).view.writes (Elt F) f21
      [⟨Rect.unit (s := S4096x256) (k0_off6 i) S256x256.size (k0_off6_inb i hc8),
        k0_pay2 (View.readAt (Elt F) (Memref.whole cc0_scratch0).view (Rect.unit (s := S4096x4096) (k0_off5 i) S256x4096.size (k0_off5_inb i hc8)).toLoadRect f17)
          (step20.sl.v43 c arg6 arg7 arg8 arg12 f6 f7 f8 f12 f20 f22 f23)⟩]))
    (acc2s A 1) (acc2q A 1))
  isplitr
  swap
  · isplitl [H2 H3 H4 H5 H6 H7 H8 H9 H10 H11 H12]
    · isplitl [H2]
      · iexists f2; isplitr; · (ipureintro; exact hf2)
        iexact H2
      isplitl [H3]
      · iexists f3; isplitr; · (ipureintro; exact hf3)
        iexact H3
      isplitl [H4]
      · iexists f4; isplitr; · (ipureintro; exact hf4)
        iexact H4
      isplitl [H5]
      · iexists f5; isplitr; · (ipureintro; exact hf5)
        iexact H5
      isplitl [H6]
      · iexists f6; isplitr; · (ipureintro; exact hf6)
        iexact H6
      isplitl [H7]
      · iexists f7; isplitr; · (ipureintro; exact hf7)
        iexact H7
      isplitl [H8]
      · iexists f8; isplitr; · (ipureintro; exact hf8)
        iexact H8
      isplitl [H9]
      · iexists f9; isplitr; · (ipureintro; exact hf9)
        iexact H9
      isplitl [H10]
      · iexists f10; isplitr; · (ipureintro; exact hf10)
        iexact H10
      isplitl [H11]
      · iexists f11; isplitr; · (ipureintro; exact hf11)
        iexact H11
      iexists f12; isplitr; · (ipureintro; exact hf12)
      iexact H12
    isplitl [H13 H14 H15 H16]
    · isplitl [H13]
      · iexists f13; isplitr; · (ipureintro; exact hf13)
        iexact H13
      isplitl [H14]
      · iexists f14; isplitr; · (ipureintro; exact hf14)
        iexact H14
      isplitl [H15]
      · iexists f15; isplitr; · (ipureintro; exact hf15)
        iexact H15
      iexists f16; isplitr; · (ipureintro; exact hf16)
      iexact H16
    isplitl [H17]
    · iexists _; isplitr; swap; · iexact H17
      ipureintro; exact hf17
    isplitl [H18]
    · iexists _; isplitr; swap; · iexact H18
      ipureintro; exact (View.read_writes_eq_canon _ _ _ hcov).trans hL
    isplitl [H19]
    · iexists _; isplitr; swap; · iexact H19
      ipureintro; exact hf19
    isplitl [H20]
    · iexists _; isplitr; swap; · iexact H20
      ipureintro; exact hf20
    isplitl [H21]
    · iexists _; isplitr; swap; · iexact H21
      ipureintro; rfl
    isplitl [H22]
    · iexists _; isplitr; swap; · iexact H22
      ipureintro; exact haccs _ _ ev51
    iexists _; isplitr; swap; · iexact H23
    ipureintro; exact haccq _ _ ev58
  ipureintro
  -- the invariant one point on: only the third activation's first row block is new
  refine C20.inv_step A st _ hInv32 rfl rfl rfl rfl ?_ rfl rfl
  refine C20.agreeRows_store _ f21 (U3 A) 0 (by norm_num) ?_ (k0_off6 i) hoff6 _ _ ?_
  · rw [hf21]; exact hu30
  · rw [e17, ev43]; exact (C20.rowBlk_asm16 (u3B A) ⟨0, by norm_num⟩).symm

end Cert.Kernel.Stack

end
-- ==== Proof.WStackStep2i.lean ====
/-
  One grid point of the graph-convolution stack — stage 2, a later block: both decoders' first-layer block and its column sums.
  From the scratch buffers as the points before left them (the invariant at this point) the kernel body runs to
  the invariant at the next point, the input blocks unchanged and the output blocks as stated.
-/
import proofs.«181189_g481036337843_cont_8to1c4_37_6_alg».proof.Proof.WStackRes
import proofs.«181189_g481036337843_cont_8to1c4_37_6_alg».proof.Proof.WStackView

set_option maxRecDepth 16384

noncomputable section

namespace Cert.Kernel.Stack.C2i

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Which of the body's conditionals are taken in stage 2 at a later block

The body tests ten one-bit words, each a comparison chain over the two grid coordinates read as 32-bit words.
With the stage equal to 2 and the block not 0, only the test "stage = 2" holds. -/

/-- "First coordinate equal to a, and second coordinate equal to 0" does not hold when the second is not 0. -/
theorem and_chain_ne (a : BitVec 32) : ∀ (x : Fin 4) (y : Fin 16), y.val ≠ 0 →
    ¬ (Scalar.cmpi .ne (Scalar.extui (Scalar.andi (Scalar.cmpi .eq (BitVec.ofNat 32 x.val) a) (Scalar.cmpi .eq (BitVec.ofNat 32 y.val) 0#32))) 0#32 = 1#1) := by
  intro x y hy
  have : Scalar.cmpi .eq (BitVec.ofNat 32 y.val) 0#32 = 0#1 := by revert y; decide
  rw [this]
  generalize Scalar.cmpi .eq (BitVec.ofNat 32 x.val) a = w
  revert w; decide

/-- "Second coordinate equal to 0" does not hold when it is not 0. -/
theorem zero_chain_ne : ∀ (y : Fin 16), y.val ≠ 0 →
    ¬ (Scalar.cmpi .ne (Scalar.extui (Scalar.cmpi .eq (BitVec.ofNat 32 y.val) 0#32)) 0#32 = 1#1) := by decide

/-- At stage 2, of the four stage tests only "equal to 2" holds. -/
theorem stage_chain : ∀ (x : Fin 4), x.val = 2 →
    ¬ (Scalar.cmpi .ne (Scalar.extui (Scalar.cmpi .eq (BitVec.ofNat 32 x.val) 0#32)) 0#32 = 1#1)
    ∧ ¬ (Scalar.cmpi .ne (Scalar.extui (Scalar.cmpi .eq (BitVec.ofNat 32 x.val) 1#32)) 0#32 = 1#1)
    ∧ (Scalar.cmpi .ne (Scalar.extui (Scalar.cmpi .eq (BitVec.ofNat 32 x.val) 2#32)) 0#32 = 1#1)
    ∧ ¬ (Scalar.cmpi .ne (Scalar.extui (Scalar.cmpi .eq (BitVec.ofNat 32 x.val) 3#32)) 0#32 = 1#1) := by decide

/-- At stage 2, "stage 3 and last block" does not hold. -/
theorem last_chain_ne : ∀ (x : Fin 4) (y : Fin 16), x.val = 2 →
    ¬ (Scalar.cmpi .ne (Scalar.extui (Scalar.andi (Scalar.cmpi .eq (BitVec.ofNat 32 x.val) 3#32) (Scalar.cmpi .eq (BitVec.ofNat 32 y.val) 15#32))) 0#32 = 1#1) := by decide

/-! ## One store read back -/

/-- What one store through a rectangle leaves reads as the old contents with the rectangle overlaid. -/
theorem read_writes_one {sig : RefSig} {κ : Kind} {sp : Space} {s : Shape} {e : EltTy} {Val : EltTy → Type}
    (v : Idealize.ShloMosaic.View sig κ sp s e) (f : v.ty.Contents Val) (r : Rect s) (w : r.shape.Idx → Val e) :
    v.read Val (v.writes Val f [⟨r, w⟩]) = r.overlay (v.read Val f) w :=
  Stack.View.read_writes_cons v f r w []

/-! ## The invariant across a later block of stage 2 -/

/-- What the invariant before block b of stage 2 (b not the first) says of the values the body reads: the parked
    adjacency block, the first b blocks of the decoders' first layer, the support, the two running rows. -/
theorem inv_facts (A : Arrays F) (b : Fin 16) (hb : b.val ≠ 0) (st : St F) (hInv : Inv A (16 * 2 + b.val) st) :
    rowBlk st.adj b = adjB A b ∧ AgreeRows st.u3 (U3 A) b.val
      ∧ st.s = S2 A ∧ st.accs = acc2s A b.val ∧ st.accq = acc2q A b.val := by
  obtain ⟨h1, -, -, h4, -, -, h7, -⟩ := hInv
  have hb' := b.isLt
  have e1 : min (16 * 2 + b.val) 16 = 16 := by omega
  have e4 : min (16 * 2 + b.val - 32) 16 = b.val := by omega
  have e7 : 16 * 2 + b.val - 32 = b.val := by omega
  rw [e1] at h1
  rw [e4] at h4
  have h7' := h7 (by omega)
  rw [e7] at h7'
  refine ⟨?_, h4, h7'.1, h7'.2.1, h7'.2.2⟩
  rw [Stack.View.rowBlk_eq_of_agreeRows h1 b hb']
  exact Stack.View.rowBlk_asm16 (adjB A) b

/-- The invariant after block b of stage 2, from the new first-layer block and the new running rows. -/
theorem inv_next (A : Arrays F) (b : Fin 16) (hb : b.val ≠ 0) (st : St F) (hInv : Inv A (16 * 2 + b.val) st)
    (u3' : Vec F S4096x256 .f32) (accs' accq' : Vec F S1x256 .f32)
    (hu3 : AgreeRows u3' (U3 A) (b.val + 1))
    (hs' : accs' = acc2s A (b.val + 1)) (hq' : accq' = acc2q A (b.val + 1)) :
    Inv A (16 * 2 + b.val + 1) ⟨st.adj, st.s, st.h1, st.u2, u3', accs', accq'⟩ := by
  obtain ⟨h1, h2, h3, h4, h5, h6, h7, h8⟩ := hInv
  have hb' := b.isLt
  have e1 : min (16 * 2 + b.val + 1) 16 = min (16 * 2 + b.val) 16 := by omega
  have e3 : min (16 * 2 + b.val + 1 - 16) 16 = min (16 * 2 + b.val - 16) 16 := by omega
  have e4 : min (16 * 2 + b.val + 1 - 32) 16 = b.val + 1 := by omega
  have e7 : 16 * 2 + b.val + 1 - 32 = b.val + 1 := by omega
  refine ⟨?_, ?_, ?_, ?_, ?_, ?_, ?_, ?_⟩
  · rw [e1]; exact h1
  · rw [e1]; exact h2
  · rw [e3]; exact h3
  · rw [e4]; exact hu3
  · intro h; exfalso; omega
  · intro h; exfalso; omega
  · intro _
    rw [e7]
    exact ⟨(h7 (by omega)).1, hs', hq'⟩
  · intro h; exfalso; omega

/-- The running rows one block on are the body's sums applied to the rows before. -/
theorem acc2s_succ (A : Arrays F) (b : Fin 16) :
    acc2s A (b.val + 1) = k0_pay3 (adjB A b) (S2 A) (acc2s A b.val) := by
  have e : (⟨b.val % 16, Nat.mod_lt _ (by norm_num)⟩ : Fin 16) = b := Fin.ext (Nat.mod_eq_of_lt b.isLt)
  rw [acc2s, e]
theorem acc2q_succ (A : Arrays F) (b : Fin 16) :
    acc2q A (b.val + 1) = k0_pay4 (adjB A b) (S2 A) (acc2q A b.val) := by
  have e : (⟨b.val % 16, Nat.mod_lt _ (by norm_num)⟩ : Fin 16) = b := Fin.ext (Nat.mod_eq_of_lt b.isLt)
  rw [acc2q, e]

/-- One later block of stage 2 on the scratch contents: the body loads the parked adjacency block and the whole
    support, stores both decoders' first-layer block at rows 256·b … and replaces the two running rows by themselves
    plus the block's column sums and column sums of squares; the invariant moves on by one point. -/
theorem step_pure (A : Arrays F) (b : Fin 16) (hb : b.val ≠ 0) (st : St F) (hInv : Inv A (16 * 2 + b.val) st)
    (off5 off6 : Fin 2 → ℕ) (h5 : off5 = ![256 * b.val, 0]) (h6 : off6 = ![256 * b.val, 0])
    (inb5 : ∀ a, off5 a + S256x4096.size a ≤ S4096x4096.size a)
    (inb6 : ∀ a, off6 a + S256x256.size a ≤ S4096x256.size a)
    (inbS : ∀ a, (![0, 0] : Fin 2 → ℕ) a + S4096x256.size a ≤ S4096x256.size a)
    (inbA : ∀ a, (![0, 0] : Fin 2 → ℕ) a + S1x256.size a ≤ S1x256.size a) :
    Inv A (16 * 2 + b.val + 1)
      ⟨st.adj, st.s, st.h1, st.u2,
        (Rect.unit (s := S4096x256) off6 S256x256.size inb6).overlay st.u3
          (k0_pay2 (Idealize.ShloMosaic.View.ld st.adj (Rect.unit (s := S4096x4096) off5 S256x4096.size inb5))
            (Idealize.ShloMosaic.View.ld st.s (Rect.unit (s := S4096x256) ![0, 0] S4096x256.size inbS))),
        (Rect.unit (s := S1x256) ![0, 0] S1x256.size inbA).overlay st.accs
          (k0_pay3 (Idealize.ShloMosaic.View.ld st.adj (Rect.unit (s := S4096x4096) off5 S256x4096.size inb5))
            (Idealize.ShloMosaic.View.ld st.s (Rect.unit (s := S4096x256) ![0, 0] S4096x256.size inbS))
            (Idealize.ShloMosaic.View.ld st.accs (Rect.unit (s := S1x256) ![0, 0] S1x256.size inbA))),
        (Rect.unit (s := S1x256) ![0, 0] S1x256.size inbA).overlay st.accq
          (k0_pay4 (Idealize.ShloMosaic.View.ld st.adj (Rect.unit (s := S4096x4096) off5 S256x4096.size inb5))
            (Idealize.ShloMosaic.View.ld st.s (Rect.unit (s := S4096x256) ![0, 0] S4096x256.size inbS))
            (Idealize.ShloMosaic.View.ld st.accq (Rect.unit (s := S1x256) ![0, 0] S1x256.size inbA)))⟩ := by
  obtain ⟨hadj, hu3, hs, has, haq⟩ := inv_facts A b hb st hInv
  have eadj : Idealize.ShloMosaic.View.ld st.adj (Rect.unit (s := S4096x4096) off5 S256x4096.size inb5) = adjB A b :=
    (Stack.View.ld_rowBlk st.adj b off5 h5 inb5).trans hadj
  have es : Idealize.ShloMosaic.View.ld st.s (Rect.unit (s := S4096x256) ![0, 0] S4096x256.size inbS) = S2 A :=
    (Stack.View.ld_whole2 st.s ![0, 0] rfl inbS).trans hs
  have eas : Idealize.ShloMosaic.View.ld st.accs (Rect.unit (s := S1x256) ![0, 0] S1x256.size inbA) = acc2s A b.val :=
    (Stack.View.ld_whole2 st.accs ![0, 0] rfl inbA).trans has
  have eaq : Idealize.ShloMosaic.View.ld st.accq (Rect.unit (s := S1x256) ![0, 0] S1x256.size inbA) = acc2q A b.val :=
    (Stack.View.ld_whole2 st.accq ![0, 0] rfl inbA).trans haq
  rw [eadj, es, eas, eaq]
  refine inv_next A b hb st hInv _ _ _ ?_ ?_ ?_
  · exact Stack.View.agreeRows_overlay st.u3 (U3 A) b.val b.isLt off6 h6 inb6 _ hu3 (Stack.View.rowBlk_asm16 (u3B A) b).symm
  · rw [acc2s_succ]; exact Stack.View.overlay_whole2 st.accs _ ![0, 0] rfl inbA
  · rw [acc2q_succ]; exact Stack.View.overlay_whole2 st.accq _ ![0, 0] rfl inbA

/-! ## The scratch contents the body leaves -/

/-- The scratch buffers after a later block of stage 2: the decoders' first-layer block stored at the point's rows,
    the two running rows replaced by themselves plus the block's column sums and sums of squares; the rest as before. -/
def next (i : grid0.Coords) (h8 : k0_cond8 i = 1#1) (st : St F) : St F where
  adj := st.adj
  s := st.s
  h1 := st.h1
  u2 := st.u2
  u3 := (Rect.unit (s := S4096x256) (k0_off6 i) S256x256.size (k0_off6_inb i h8)).overlay st.u3
    (k0_pay2 (Idealize.ShloMosaic.View.ld st.adj (Rect.unit (s := S4096x4096) (k0_off5 i) S256x4096.size (k0_off5_inb i h8)))
      (Idealize.ShloMosaic.View.ld st.s (Rect.unit (s := S4096x256) ![0, 0] S4096x256.size inb_S4096x256_S4096x256_0_0)))
  accs := (Rect.unit (s := S1x256) ![0, 0] S1x256.size inb_S1x256_S1x256_0_0).overlay st.accs
    (k0_pay3 (Idealize.ShloMosaic.View.ld st.adj (Rect.unit (s := S4096x4096) (k0_off5 i) S256x4096.size (k0_off5_inb i h8)))
      (Idealize.ShloMosaic.View.ld st.s (Rect.unit (s := S4096x256) ![0, 0] S4096x256.size inb_S4096x256_S4096x256_0_0))
      (Idealize.ShloMosaic.View.ld st.accs (Rect.unit (s := S1x256) ![0, 0] S1x256.size inb_S1x256_S1x256_0_0)))
  accq := (Rect.unit (s := S1x256) ![0, 0] S1x256.size inb_S1x256_S1x256_0_0).overlay st.accq
    (k0_pay4 (Idealize.ShloMosaic.View.ld st.adj (Rect.unit (s := S4096x4096) (k0_off5 i) S256x4096.size (k0_off5_inb i h8)))
      (Idealize.ShloMosaic.View.ld st.s (Rect.unit (s := S4096x256) ![0, 0] S4096x256.size inb_S4096x256_S4096x256_0_0))
      (Idealize.ShloMosaic.View.ld st.accq (Rect.unit (s := S1x256) ![0, 0] S1x256.size inb_S1x256_S1x256_0_0)))

/-- They satisfy the invariant at the next point. -/
theorem inv_next_point (A : Arrays F) (i : grid0.Coords) (hi : (i 1).val ≠ 0) (h8 : k0_cond8 i = 1#1) (st : St F)
    (hInv : Inv A (16 * 2 + (i 1).val) st) : Inv A (16 * 2 + (i 1).val + 1) (next i h8 st) :=
  step_pure A (blkOf i) hi st hInv (k0_off5 i) (k0_off6 i) (Stack.View.off5_eq i) (Stack.View.off6_eq i) _ _ _ _

end Cert.Kernel.Stack.C2i

namespace Cert.Kernel.Stack

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 1000000 in
theorem step2i (c : Dev nD) (E : Set ℕ) (i : grid0.Coords) (hs : (i 0).val = 2) (hi : (i 1).val ≠ 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 2 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 2 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by

  have h1 : ¬ (Scalar.cmpi .ne (Scalar.extui (Scalar.andi (Scalar.cmpi .eq (BitVec.ofNat 32 (i 0).val) 0#32) (Scalar.cmpi .eq (BitVec.ofNat 32 (i 1).val) 0#32))) 0#32 = 1#1) :=
    C2i.and_chain_ne 0#32 ⟨(i 0).val, (i 0).isLt⟩ ⟨(i 1).val, (i 1).isLt⟩ hi
  have h2 : ¬ (Scalar.cmpi .ne (Scalar.extui (Scalar.andi (Scalar.cmpi .eq (BitVec.ofNat 32 (i 0).val) 1#32) (Scalar.cmpi .eq (BitVec.ofNat 32 (i 1).val) 0#32))) 0#32 = 1#1) :=
    C2i.and_chain_ne 1#32 ⟨(i 0).val, (i 0).isLt⟩ ⟨(i 1).val, (i 1).isLt⟩ hi
  have h3 : ¬ (Scalar.cmpi .ne (Scalar.extui (Scalar.andi (Scalar.cmpi .eq (BitVec.ofNat 32 (i 0).val) 2#32) (Scalar.cmpi .eq (BitVec.ofNat 32 (i 1).val) 0#32))) 0#32 = 1#1) :=
    C2i.and_chain_ne 2#32 ⟨(i 0).val, (i 0).isLt⟩ ⟨(i 1).val, (i 1).isLt⟩ hi
  have h4 : ¬ (k0_cond4 i = 1#1) := C2i.and_chain_ne 3#32 ⟨(i 0).val, (i 0).isLt⟩ ⟨(i 1).val, (i 1).isLt⟩ hi
  have h5 : ¬ (Scalar.cmpi .ne (Scalar.extui (Scalar.cmpi .eq (BitVec.ofNat 32 (i 1).val) 0#32)) 0#32 = 1#1) :=
    C2i.zero_chain_ne ⟨(i 1).val, (i 1).isLt⟩ hi
  have h6 : ¬ (k0_cond6 i = 1#1) := (C2i.stage_chain ⟨(i 0).val, (i 0).isLt⟩ hs).1
  have h7 : ¬ (k0_cond7 i = 1#1) := (C2i.stage_chain ⟨(i 0).val, (i 0).isLt⟩ hs).2.1
  have h8 : k0_cond8 i = 1#1 := (C2i.stage_chain ⟨(i 0).val, (i 0).isLt⟩ hs).2.2.1
  have h9 : ¬ (k0_cond9 i = 1#1) := (C2i.stage_chain ⟨(i 0).val, (i 0).isLt⟩ hs).2.2.2
  have h10 : ¬ (k0_cond10 i = 1#1) := C2i.last_chain_ne ⟨(i 0).val, (i 0).isLt⟩ ⟨(i 1).val, (i 1).isLt⟩ hs
  sl_unfold [cc0__gcn_stack_kernel]
  sl_unfold [cc0__gcn_stack_kernel_skel]
  unfold scr owns
  iintro ⟨Hins, Houts, ⟨⟨%g0, %hg0, G0⟩, ⟨%g1, %hg1, G1⟩, ⟨%g2, %hg2, G2⟩, ⟨%g3, %hg3, G3⟩, ⟨%g4, %hg4, G4⟩, ⟨%g5, %hg5, G5⟩, ⟨%g6, %hg6, G6⟩⟩, Hk⟩
  sl_exec (disch := first | sl_exact h1 | sl_exact h2 | sl_exact h3 | sl_exact h4 | sl_exact h5 | sl_exact h6 | sl_exact h7 | sl_exact h8 | sl_exact h9 | sl_exact h10)
  sl_step
  iapply Hk
  iexists (C2i.next i h8 st)
  isplitr
  · ipureintro; exact C2i.inv_next_point A i hi h8 st hInv
  isplitl [Hins]; · iexact Hins
  isplitl [Houts]; · iexact Houts
  isplitl [G0]
  · iexists g0; isplitr; · ipureintro; exact hg0
    iexact G0
  isplitl [G1]
  · iexists g1; isplitr; · ipureintro; exact hg1
    iexact G1
  isplitl [G2]
  · iexists g2; isplitr; · ipureintro; exact hg2
    iexact G2
  isplitl [G3]
  · iexists g3; isplitr; · ipureintro; exact hg3
    iexact G3
  isplitl [G4]
  · iexists _; isplitr
    swap; · iexact G4
    ipureintro
    rw [C2i.read_writes_one, hg4]
    simp only [Idealize.ShloMosaic.View.readAt_eq_ld, hg0, hg1]
    rfl
  isplitl [G5]
  · iexists _; isplitr
    swap; · iexact G5
    ipureintro
    rw [C2i.read_writes_one, hg5]
    simp only [Idealize.ShloMosaic.View.readAt_eq_ld, hg0, hg1, hg5]
    rfl
  iexists _; isplitr
  swap; · iexact G6
  ipureintro
  rw [C2i.read_writes_one, hg6]
  simp only [Idealize.ShloMosaic.View.readAt_eq_ld, hg0, hg1, hg6]
  rfl

end Cert.Kernel.Stack

end
-- ==== Proof.WStackStep30.lean ====
/-
  One grid point of the graph-convolution stack — stage 3, first block: the structure branch's statistics are handed out, the feature decoder's affine map and support built, the sums cleared, then the block.
  From the scratch buffers as the points before left them (the invariant at this point) the kernel body runs to
  the invariant at the next point, the input blocks unchanged and the output blocks as stated.
-/
import proofs.«181189_g481036337843_cont_8to1c4_37_6_alg».proof.Proof.WStackRes
import Idealize.ShloMosaic.Lib.Pipeline.Value
import Idealize.ShloMosaic.Lib.WritesUnit

set_option maxRecDepth 16384

noncomputable section

namespace Cert.Kernel.Stack

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

namespace C30

variable {Val : EltTy → Type} {e : EltTy}

/-- Two indices of a two-axis shape with equal coordinates are equal. -/
theorem idx2_ext {n0 n1 : ℕ} {p q : (⟨2, ![n0, n1]⟩ : Shape).Idx} (h0 : (p 0).val = (q 0).val)
    (h1 : (p 1).val = (q 1).val) : p = q :=
  funext fun a => match a with | ⟨0, _⟩ => Fin.ext h0 | ⟨1, _⟩ => Fin.ext h1

/-- The zero offsets of a two-axis shape, as a constant function. -/
theorem zero2 : (![0, 0] : Fin 2 → ℕ) = fun _ => 0 :=
  funext fun a => match a with | ⟨0, _⟩ => rfl | ⟨1, _⟩ => rfl

/-- A function of two, three or six arguments takes equal arguments to equal values. -/
theorem congr2' {α β γ : Type} (g : α → β → γ) {a a' : α} {b b' : β} (ha : a = a') (hb : b = b') :
    g a b = g a' b' := by subst ha hb; rfl
theorem congr3' {α β γ δ : Type} (g : α → β → γ → δ) {a a' : α} {b b' : β} {c c' : γ} (ha : a = a') (hb : b = b')
    (hc : c = c') : g a b c = g a' b' c' := by subst ha hb hc; rfl
theorem congr6' {α₁ α₂ α₃ α₄ α₅ α₆ β : Type} (g : α₁ → α₂ → α₃ → α₄ → α₅ → α₆ → β) {a₁ a₁' : α₁} {a₂ a₂' : α₂}
    {a₃ a₃' : α₃} {a₄ a₄' : α₄} {a₅ a₅' : α₅} {a₆ a₆' : α₆} (h₁ : a₁ = a₁') (h₂ : a₂ = a₂') (h₃ : a₃ = a₃')
    (h₄ : a₄ = a₄') (h₅ : a₅ = a₅') (h₆ : a₆ = a₆') : g a₁ a₂ a₃ a₄ a₅ a₆ = g a₁' a₂' a₃' a₄' a₅' a₆' := by
  subst h₁ h₂ h₃ h₄ h₅ h₆; rfl

section Loads

variable {sig : RefSig} {κ : Kind} {sp : Space}

/-- A load of the whole buffer reads its contents. -/
theorem readAt_whole {S : Shape} (v : View sig κ sp S e) (f : v.ty.Contents Val) (X : S.Idx → Val e)
    (hf : v.read Val f = X) {off : Fin S.rank → ℕ} (hoff : off = fun _ => 0) (inb : ∀ a, off a + S.size a ≤ S.size a) :
    v.readAt Val (Rect.unit off S.size inb).toLoadRect f = X := by
  subst hf; exact View.ld_unit_zero hoff inb _

/-- A load of the left 128 columns reads the left column half. -/
theorem readAt_lcol {n : ℕ} (v : View sig κ sp (⟨2, ![n, 256]⟩ : Shape) e) (f : v.ty.Contents Val)
    (X : (⟨2, ![n, 256]⟩ : Shape).Idx → Val e) (hf : v.read Val f = X) {off : Fin 2 → ℕ} (hoff : off = ![0, 0])
    (inb : ∀ a, off a + (![n, 128] : Fin 2 → ℕ) a ≤ (⟨2, ![n, 256]⟩ : Shape).size a) :
    v.readAt Val (Rect.unit (s := ⟨2, ![n, 256]⟩) off ![n, 128] inb).toLoadRect f = lcol X := by
  subst hf hoff; funext y
  exact congrArg (v.read Val f) (idx2_ext (by show 0 + 1 * (y 0).val = (y 0).val; omega)
    (by show 0 + 1 * (y 1).val = (y 1).val; omega))

/-- A load of the right 128 columns reads the right column half. -/
theorem readAt_rcol {n : ℕ} (v : View sig κ sp (⟨2, ![n, 256]⟩ : Shape) e) (f : v.ty.Contents Val)
    (X : (⟨2, ![n, 256]⟩ : Shape).Idx → Val e) (hf : v.read Val f = X) {off : Fin 2 → ℕ} (hoff : off = ![0, 128])
    (inb : ∀ a, off a + (![n, 128] : Fin 2 → ℕ) a ≤ (⟨2, ![n, 256]⟩ : Shape).size a) :
    v.readAt Val (Rect.unit (s := ⟨2, ![n, 256]⟩) off ![n, 128] inb).toLoadRect f = rcol X := by
  subst hf hoff; funext y
  exact congrArg (v.read Val f) (idx2_ext (by show 0 + 1 * (y 0).val = (y 0).val; omega)
    (by show 128 + 1 * (y 1).val = 128 + (y 1).val; omega))

/-- A load of 256 whole rows from row `256·b` reads row block `b`. -/
theorem readAt_rowBlk {m : ℕ} (v : View sig κ sp (⟨2, ![4096, m]⟩ : Shape) e) (f : v.ty.Contents Val)
    (X : (⟨2, ![4096, m]⟩ : Shape).Idx → Val e) (hf : v.read Val f = X) (b : Fin 16) {off : Fin 2 → ℕ}
    (hoff : off = ![256 * b.val, 0])
    (inb : ∀ a, off a + (![256, m] : Fin 2 → ℕ) a ≤ (⟨2, ![4096, m]⟩ : Shape).size a) :
    v.readAt Val (Rect.unit (s := ⟨2, ![4096, m]⟩) off ![256, m] inb).toLoadRect f = rowBlk X b := by
  subst hf hoff; funext y
  exact congrArg (v.read Val f) (idx2_ext (by show 256 * b.val + 1 * (y 0).val = 256 * b.val + (y 0).val; omega)
    (by show 0 + 1 * (y 1).val = (y 1).val; omega))

/-- A load of 256 rows from row `256·b`, columns 128 … 255, reads row block `b` of the right column half. -/
theorem readAt_rowBlk_rcol (v : View sig κ sp (⟨2, ![4096, 256]⟩ : Shape) e) (f : v.ty.Contents Val)
    (X : (⟨2, ![4096, 256]⟩ : Shape).Idx → Val e) (hf : v.read Val f = X) (b : Fin 16) {off : Fin 2 → ℕ}
    (hoff : off = ![256 * b.val, 128])
    (inb : ∀ a, off a + (![256, 128] : Fin 2 → ℕ) a ≤ (⟨2, ![4096, 256]⟩ : Shape).size a) :
    v.readAt Val (Rect.unit (s := ⟨2, ![4096, 256]⟩) off ![256, 128] inb).toLoadRect f = rowBlk (rcol X) b := by
  subst hf hoff; funext y
  exact congrArg (v.read Val f) (idx2_ext (by show 256 * b.val + 1 * (y 0).val = 256 * b.val + (y 0).val; omega)
    (by show 128 + 1 * (y 1).val = 128 + (y 1).val; omega))

/-- After a store of the whole shape, newest in the list, the buffer reads the stored value. -/
theorem read_writes_whole_cons {S : Shape} (v : View sig κ sp S e) (f : v.ty.Contents Val) {off : Fin S.rank → ℕ}
    (hoff : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  funext fun y => View.read_writes_cons_unit_of_mem v f inb w L y y hoff fun a => (Nat.zero_add _).symm

/-- After a store of row 0 and then of row 1 of a two-row buffer, it reads the two rows stacked. -/
theorem read_writes_two_rows {m : ℕ} (v : View sig κ sp (⟨2, ![2, m]⟩ : Shape) e) (f : v.ty.Contents Val)
    {off0 off1 : Fin 2 → ℕ} (h0 : off0 = ![0, 0]) (h1 : off1 = ![1, 0])
    (inb0 : ∀ a : Fin 2, off0 a + (![1, m] : Fin 2 → ℕ) a ≤ (![2, m] : Fin 2 → ℕ) a)
    (inb1 : ∀ a : Fin 2, off1 a + (![1, m] : Fin 2 → ℕ) a ≤ (![2, m] : Fin 2 → ℕ) a)
    (top bot : (⟨2, ![1, m]⟩ : Shape).Idx → Val e) :
    v.read Val (v.writes Val f
      [(⟨Rect.unit (s := ⟨2, ![2, m]⟩) off1 ![1, m] inb1, bot⟩ : View.Piece Val (⟨2, ![2, m]⟩ : Shape) e),
        ⟨Rect.unit (s := ⟨2, ![2, m]⟩) off0 ![1, m] inb0, top⟩]) = vcat2 top bot := by
  funext y
  have hy := idx2_lt0 y
  unfold vcat2
  by_cases h : (y 0).val = 0
  · rw [if_pos h]
    refine (View.read_writes_cons_rows_of_not_mem v f inb1 bot _ y h1 (W := 1) rfl (Or.inl (by omega))).trans ?_
    exact View.read_writes_cons_rows_of_mem v f inb0 top [] y (ix2 0 (y 1)) h0 (by show (y 0).val = 0 + 0; omega) rfl
  · rw [if_neg h]
    exact View.read_writes_cons_rows_of_mem v f inb1 bot _ y (ix2 0 (y 1)) h1 (by show (y 0).val = 1 + 0; omega) rfl

end Loads

/-- Matrices that agree on all sixteen row blocks are equal. -/
theorem eq_of_agreeRows {α : Type} {m : ℕ} {f g : (⟨2, ![4096, m]⟩ : Shape).Idx → α} (h : AgreeRows f g 16) : f = g := by
  funext j
  have h0 := idx2_lt0 j
  exact (congrArg f (eq_ix2 j)).trans ((h (j 0) (j 1) (by omega)).trans (congrArg g (eq_ix2 j).symm))

/-- Row block `b` of the matrix assembled from sixteen blocks is the `b`-th block. -/
theorem rowBlk_asm16 {α : Type} {m : ℕ} (blk : Fin 16 → ((⟨2, ![256, m]⟩ : Shape).Idx → α)) (b : Fin 16) :
    rowBlk (asm16 blk) b = blk b := by
  funext y
  have hy := idx2_lt0 y
  have hb := b.isLt
  have e1 : (256 * b.val + (y 0).val) / 256 = b.val := by omega
  have e2 : (256 * b.val + (y 0).val) % 256 = (y 0).val := by omega
  have hb' : (⟨(256 * b.val + (y 0).val) / 256, by omega⟩ : Fin 16) = b := Fin.ext e1
  have hy' : (ix2 (⟨(256 * b.val + (y 0).val) % 256, Nat.mod_lt _ (by norm_num)⟩ : Fin 256) (y 1) :
      (⟨2, ![256, m]⟩ : Shape).Idx) = y := idx2_ext e2 rfl
  exact congrArg₂ (fun b' y' => blk b' y') hb' hy'

variable (A : Arrays F)

/-- From the invariant before point 48 (stage 3, block 0) to the invariant before point 49: the row blocks stored so
    far stay, the support becomes the feature decoder's second-layer support, and the sums restart with block 0's. -/
theorem inv_next (st : St F) (h : Inv A 48 st) :
    Inv A 49 ⟨st.adj, S3 A, st.h1, st.u2, st.u3, acc3s A 1, acc3q A 1⟩ := by
  obtain ⟨h1, h2, h3, h4, -, -, -, -⟩ := h
  exact ⟨h1, h2, h3, h4, fun h => absurd h.2 (by norm_num), fun h => absurd h.2 (by norm_num),
    fun h => absurd h.2 (by norm_num), fun _ => ⟨rfl, rfl, rfl⟩⟩

/-- What the invariant before point 48 says of the buffers this point reads: the parked adjacency and the third
    activation are complete, and the sums are stage 2's over all sixteen blocks. -/
theorem inv48_reads (st : St F) (h : Inv A 48 st) :
    st.adj = ADJ A ∧ st.u3 = U3 A ∧ st.accs = acc2s A 16 ∧ st.accq = acc2q A 16 := by
  obtain ⟨h1, -, -, h4, -, -, h7, -⟩ := h
  obtain ⟨-, hs, hq⟩ := h7 ⟨by norm_num, by norm_num⟩
  exact ⟨eq_of_agreeRows h1, eq_of_agreeRows h4, hs, hq⟩

/-- The first running sums of stage 3 are block 0's column sums (of the values, of their squares) added to the
    cleared rows. -/
theorem acc3s_one : acc3s A 1 = k0_pay6 (adjB A ⟨0, by norm_num⟩) (S3 A) (k0_pay16 (F := F)) := rfl
theorem acc3q_one : acc3q A 1 = k0_pay7 (adjB A ⟨0, by norm_num⟩) (S3 A) (k0_pay17 (F := F)) := rfl

end C30

/-! ## Stage 3, first block

The statistics rows of the structure branch (the right halves of the running sums) go to the third output; the feature
decoder's affine map is built from the left halves and applied to the left half of the third activation, and its
product with the second-layer weights becomes the support; the sums are cleared; then the block: the parked adjacency
block times the support, rectified, is the first output, the right half of the third activation's block is the
second, and the block's column sums (of the values, of their squares) are added to the cleared rows. -/

set_option maxHeartbeats 1000000 in
theorem step30 (c : Dev nD) (E : Set ℕ) (i : grid0.Coords) (hs : (i 0).val = 3) (hi : (i 1).val = 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 3 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 3 + (i 1).val + 1) st'⌝ ∗ ins c arg2 arg3 arg4 arg5 arg6 arg7 arg8 arg9 arg10 arg11 arg12 x0 A
            ∗ outs c arg13 arg14 arg15 arg16 (u4B A (blkOf i)) (u3sB A (blkOf i)) (S1STATS A) d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  simp only [cc0__gcn_stack_kernel_eq_skeleton]; unfold cc0__gcn_stack_kernel_skel
  simp only [k0_part3_eq_skeleton]; unfold k0_part3_skel
  unfold ins outs scr owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨⟨%f13, %hf13, H13⟩, ⟨%f14, %hf14, H14⟩, ⟨%f15, %hf15, H15⟩, ⟨%f16, %hf16, H16⟩⟩, ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  sl_exec (disch := (sl_unfold_run_names; simp only [k0_cond4, k0_cond6, k0_cond7, k0_cond8, k0_cond9, k0_cond10, hs, hi]; decide))
  -- what the invariant before this point says of the buffers the body reads
  have hInv48 : Inv A 48 st := by rw [hi] at hInv; exact hInv
  obtain ⟨hadj, hu3, haccs, haccq⟩ := C30.inv48_reads A st hInv48
  have hb0 : blkOf i = ⟨0, by norm_num⟩ := Fin.ext hi
  -- the values the body loads and computes, in closed form
  have e42 : step30.sl.v42 c i hs f17 = adjB A (blkOf i) := by
    sl_unfold_run_names
    exact (C30.readAt_rowBlk _ _ _ (hf17.trans hadj) (blkOf i) (k0_off7_eq i) _).trans (C30.rowBlk_asm16 _ _)
  have e43 : step30.sl.v43 c arg9 arg10 arg11 f9 f10 f11 f21 f22 f23 = S3 A := by
    sl_unfold_run_names
    refine (View.readCov_unit_zero (Val := Elt F) _ C30.zero2 _ _).trans ?_
    exact congrArg k0_pay15 (C30.congr6' k0_pay11 (C30.readAt_lcol _ _ _ (hf22.trans haccs) rfl _)
      (C30.readAt_lcol _ _ _ (hf23.trans haccq) rfl _) (C30.readAt_whole _ _ _ hf9 C30.zero2 _)
      (C30.readAt_whole _ _ _ hf10 C30.zero2 _) (C30.readAt_lcol _ _ _ (hf21.trans hu3) rfl _)
      (C30.readAt_whole _ _ _ hf11 C30.zero2 _))
  have e49 : step30.sl.v49 c i hs f21 = u3sB A (blkOf i) := by
    sl_unfold_run_names
    exact C30.readAt_rowBlk_rcol _ _ _ (hf21.trans hu3) (blkOf i) (k0_off8_eq i) _
  have e51 : step30.sl.v51 (F := F) c = k0_pay16 := by
    sl_unfold_run_names
    exact View.readCov_unit_zero (Val := Elt F) _ C30.zero2 _ _
  have e58 : step30.sl.v58 (F := F) c = k0_pay17 := by
    sl_unfold_run_names
    exact View.readCov_unit_zero (Val := Elt F) _ C30.zero2 _ _
  sl_step
  iapply Hk
  iexists (⟨st.adj, S3 A, st.h1, st.u2, st.u3, acc3s A 1, acc3q A 1⟩ : St F)
  isplitr
  · ipureintro; rw [hi]; exact C30.inv_next A st hInv48
  -- the input blocks, untouched
  isplitl [H2 H3 H4 H5 H6 H7 H8 H9 H10 H11 H12]
  · isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    iexists f12; isplitr; · ipureintro; exact hf12
    iexact H12
  -- the output blocks
  isplitl [H13 H14 H15 H16]
  · isplitl [H13]
    · iexists _; isplitr
      swap; · iexact H13
      ipureintro
      exact (C30.read_writes_whole_cons _ _ C30.zero2 _ _ _).trans (C30.congr2' k0_pay5 e42 e43)
    isplitl [H14]
    · iexists _; isplitr
      swap; · iexact H14
      ipureintro
      exact (C30.read_writes_whole_cons _ _ C30.zero2 _ _ _).trans e49
    isplitl [H15]
    · iexists _; isplitr
      swap; · iexact H15
      ipureintro
      exact (C30.read_writes_two_rows _ _ rfl rfl _ _ _ _).trans
        (C30.congr2' vcat2 (C30.readAt_rcol _ _ _ (hf22.trans haccs) rfl _) (C30.readAt_rcol _ _ _ (hf23.trans haccq) rfl _))
    iexists f16; isplitr; · ipureintro; exact hf16
    iexact H16
  -- the scratch buffers
  isplitl [H17]
  · iexists f17; isplitr; · ipureintro; exact hf17
    iexact H17
  isplitl [H18]
  · iexists _; isplitr
    swap; · iexact H18
    ipureintro
    sl_unfold_run_names
    refine (C30.read_writes_whole_cons _ _ C30.zero2 _ _ _).trans ?_
    exact congrArg k0_pay15 (C30.congr6' k0_pay11 (C30.readAt_lcol _ _ _ (hf22.trans haccs) rfl _)
      (C30.readAt_lcol _ _ _ (hf23.trans haccq) rfl _) (C30.readAt_whole _ _ _ hf9 C30.zero2 _)
      (C30.readAt_whole _ _ _ hf10 C30.zero2 _) (C30.readAt_lcol _ _ _ (hf21.trans hu3) rfl _)
      (C30.readAt_whole _ _ _ hf11 C30.zero2 _))
  isplitl [H19]
  · iexists f19; isplitr; · ipureintro; exact hf19
    iexact H19
  isplitl [H20]
  · iexists f20; isplitr; · ipureintro; exact hf20
    iexact H20
  isplitl [H21]
  · iexists f21; isplitr; · ipureintro; exact hf21
    iexact H21
  isplitl [H22]
  · iexists _; isplitr
    swap; · iexact H22
    ipureintro
    refine (C30.read_writes_whole_cons _ _ C30.zero2 _ _ _).trans ((C30.congr3' k0_pay6 e42 e43 e51).trans ?_)
    rw [hb0]; exact (C30.acc3s_one A).symm
  iexists _; isplitr
  swap; · iexact H23
  ipureintro
  refine (C30.read_writes_whole_cons _ _ C30.zero2 _ _ _).trans ((C30.congr3' k0_pay7 e42 e43 e58).trans ?_)
  rw [hb0]; exact (C30.acc3q_one A).symm

end Cert.Kernel.Stack

end
-- ==== Proof.WStackStep3i.lean ====
/-
  One grid point of the graph-convolution stack — stage 3, a middle block: the feature decoder's second-layer block, the structure branch's block handed out, the column sums.
  From the scratch buffers as the points before left them (the invariant at this point) the kernel body runs to
  the invariant at the next point, the input blocks unchanged and the output blocks as stated.

  At such a point the body takes one conditional only, the stage-3 block's: it multiplies the parked adjacency block
  (rows 256·b … 256·b+255) with the stage-3 support, rectifies, and stores the 256 × 256 result as the first output
  block; it copies rows 256·b …, columns 128 … 255 of the stage-2 activation (the structure branch's block) into the
  second output block; and it adds the new block's column sums and column sums of squares into the two running rows.
-/
import proofs.«181189_g481036337843_cont_8to1c4_37_6_alg».proof.Proof.WStackRes
import proofs.«181189_g481036337843_cont_8to1c4_37_6_alg».proof.Proof.WStackView
import Idealize.ShloMosaic.Lib.Pipeline.FrameBody

set_option maxRecDepth 16384

noncomputable section

namespace Cert.Kernel.Stack.C3i

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The running sums one block on -/

/-- A block number below 16 is its own remainder modulo 16. -/
theorem blk_mod (b : Fin 16) : (⟨b.val % 16, Nat.mod_lt _ (by norm_num)⟩ : Fin 16) = b :=
  Fin.ext (Nat.mod_eq_of_lt b.isLt)

/-- The stage-3 running sum after block `b` is the body's sum applied to block `b` and the sum before it. -/
theorem acc3s_succ (A : Arrays F) (b : Fin 16) :
    acc3s A (b.val + 1) = k0_pay6 (adjB A b) (S3 A) (acc3s A b.val) := by
  rw [acc3s]
  exact congrArg (fun k => k0_pay6 (adjB A k) (S3 A) (acc3s A b.val)) (blk_mod b)

/-- The same for the running sum of squares. -/
theorem acc3q_succ (A : Arrays F) (b : Fin 16) :
    acc3q A (b.val + 1) = k0_pay7 (adjB A b) (S3 A) (acc3q A b.val) := by
  rw [acc3q]
  exact congrArg (fun k => k0_pay7 (adjB A k) (S3 A) (acc3q A b.val)) (blk_mod b)

/-! ## The invariant across a middle block of stage 3 -/

/-- What the invariant before block `b` of stage 3 (not the first block) says of the values the body reads: every
    row block of the parked adjacency and the whole stage-2 activation are stored, the support is the stage-3 one, and
    the running rows hold the sums over the blocks before `b`. -/
theorem inv_facts (A : Arrays F) (b : Fin 16) (hb : b.val ≠ 0) (st : St F) (hInv : Inv A (16 * 3 + b.val) st) :
    rowBlk st.adj b = adjB A b ∧ st.u3 = U3 A ∧ st.s = S3 A
      ∧ st.accs = acc3s A b.val ∧ st.accq = acc3q A b.val := by
  obtain ⟨hadj, -, -, hu3, -, -, -, hlast⟩ := hInv
  have hb' := b.isLt
  rw [show min (16 * 3 + b.val) 16 = 16 by omega] at hadj
  rw [show min (16 * 3 + b.val - 32) 16 = 16 by omega] at hu3
  obtain ⟨hs, has, haq⟩ := hlast (by omega)
  rw [show 16 * 3 + b.val - 48 = b.val by omega] at has haq
  refine ⟨?_, View.eq_of_agreeRows_16 hu3, hs, has, haq⟩
  exact (View.rowBlk_eq_of_agreeRows hadj b hb').trans (View.rowBlk_asm16 (adjB A) b)

/-- The invariant after block `b` of stage 3 from the invariant before it: only the two running rows have moved. -/
theorem inv_next (A : Arrays F) (b : Fin 16) (hb : b.val ≠ 0) (st : St F) (hInv : Inv A (16 * 3 + b.val) st)
    (accs' accq' : Vec F S1x256 .f32)
    (hs' : accs' = acc3s A (b.val + 1)) (hq' : accq' = acc3q A (b.val + 1)) :
    Inv A (16 * 3 + b.val + 1) ⟨st.adj, st.s, st.h1, st.u2, st.u3, accs', accq'⟩ := by
  obtain ⟨h1, h2, h3, h4, h5, h6, h7, h8⟩ := hInv
  have hb' := b.isLt
  refine ⟨?_, ?_, ?_, ?_, ?_, ?_, ?_, ?_⟩
  · rw [show min (16 * 3 + b.val + 1) 16 = min (16 * 3 + b.val) 16 by omega]; exact h1
  · rw [show min (16 * 3 + b.val + 1) 16 = min (16 * 3 + b.val) 16 by omega]; exact h2
  · rw [show min (16 * 3 + b.val + 1 - 16) 16 = min (16 * 3 + b.val - 16) 16 by omega]; exact h3
  · rw [show min (16 * 3 + b.val + 1 - 32) 16 = min (16 * 3 + b.val - 32) 16 by omega]; exact h4
  · intro h; exfalso; omega
  · intro h; exfalso; omega
  · intro h; exfalso; omega
  · intro _
    rw [show 16 * 3 + b.val + 1 - 48 = b.val + 1 by omega]
    exact ⟨(h8 (by omega)).1, hs', hq'⟩

/-! ## What the body reads and computes at such a block, over the scratch contents -/

/-- The loads of a middle block of stage 3, read off the invariant: the parked adjacency block is the closed form's,
    the support is the stage-3 support, the structure branch's block is the closed form's, the running rows are the
    sums so far. The offsets enter as variables with their closed forms. -/
theorem loads (A : Arrays F) (b : Fin 16) (hb : b.val ≠ 0) (st : St F) (hInv : Inv A (16 * 3 + b.val) st)
    (off7 off8 : Fin 2 → ℕ) (h7 : off7 = ![256 * b.val, 0]) (h8 : off8 = ![256 * b.val, 128])
    (inb7 : ∀ a, off7 a + S256x4096.size a ≤ S4096x4096.size a)
    (inb8 : ∀ a, off8 a + S256x128.size a ≤ S4096x256.size a)
    (inbS : ∀ a, (![0, 0] : Fin 2 → ℕ) a + S4096x256.size a ≤ S4096x256.size a)
    (inbA : ∀ a, (![0, 0] : Fin 2 → ℕ) a + S1x256.size a ≤ S1x256.size a) :
    View.ld st.adj (Rect.unit (s := S4096x4096) off7 S256x4096.size inb7) = adjB A b
      ∧ View.ld st.s (Rect.unit (s := S4096x256) ![0, 0] S4096x256.size inbS) = S3 A
      ∧ View.ld st.u3 (Rect.unit (s := S4096x256) off8 S256x128.size inb8) = u3sB A b
      ∧ View.ld st.accs (Rect.unit (s := S1x256) ![0, 0] S1x256.size inbA) = acc3s A b.val
      ∧ View.ld st.accq (Rect.unit (s := S1x256) ![0, 0] S1x256.size inbA) = acc3q A b.val := by
  obtain ⟨hadj, hu3, hs, has, haq⟩ := inv_facts A b hb st hInv
  refine ⟨?_, ?_, ?_, ?_, ?_⟩
  · exact (View.ld_rowBlk st.adj b off7 h7 inb7).trans hadj
  · exact (View.ld_whole2 st.s ![0, 0] rfl inbS).trans hs
  · refine (View.ld_rowBlk_rcol st.u3 b off8 h8 inb8).trans ?_
    rw [hu3]; rfl
  · exact (View.ld_whole2 st.accs ![0, 0] rfl inbA).trans has
  · exact (View.ld_whole2 st.accq ![0, 0] rfl inbA).trans haq

/-! ## The scratch contents the body leaves -/

/-- The scratch buffers after a middle block of stage 3: the block's column sums and column sums of squares added into
    the two running rows; everything else as before. -/
def next (i : grid0.Coords) (h9 : k0_cond9 i = 1#1) (st : St F) : St F where
  adj := st.adj
  s := st.s
  h1 := st.h1
  u2 := st.u2
  u3 := st.u3
  accs := k0_pay6 (View.ld st.adj (Rect.unit (s := S4096x4096) (k0_off7 i) S256x4096.size (k0_off7_inb i h9)))
    (View.ld st.s (Rect.unit (s := S4096x256) ![0, 0] S4096x256.size inb_S4096x256_S4096x256_0_0))
    (View.ld st.accs (Rect.unit (s := S1x256) ![0, 0] S1x256.size inb_S1x256_S1x256_0_0))
  accq := k0_pay7 (View.ld st.adj (Rect.unit (s := S4096x4096) (k0_off7 i) S256x4096.size (k0_off7_inb i h9)))
    (View.ld st.s (Rect.unit (s := S4096x256) ![0, 0] S4096x256.size inb_S4096x256_S4096x256_0_0))
    (View.ld st.accq (Rect.unit (s := S1x256) ![0, 0] S1x256.size inb_S1x256_S1x256_0_0))

/-- They satisfy the invariant at the next point. -/
theorem inv_next_point (A : Arrays F) (i : grid0.Coords) (hi : (i 1).val ≠ 0) (h9 : k0_cond9 i = 1#1) (st : St F)
    (hInv : Inv A (16 * 3 + (i 1).val) st) : Inv A (16 * 3 + (i 1).val + 1) (next i h9 st) := by
  obtain ⟨eadj, es, -, eas, eaq⟩ := loads A (blkOf i) hi st hInv (k0_off7 i) (k0_off8 i) (k0_off7_eq i) (k0_off8_eq i)
    (k0_off7_inb i h9) (k0_off8_inb i h9) inb_S4096x256_S4096x256_0_0 inb_S1x256_S1x256_0_0
  refine inv_next A (blkOf i) hi st hInv _ _ ?_ ?_
  · show k0_pay6 _ _ _ = _
    rw [eadj, es, eas]; exact (acc3s_succ A (blkOf i)).symm
  · show k0_pay7 _ _ _ = _
    rw [eadj, es, eaq]; exact (acc3q_succ A (blkOf i)).symm

/-- The first output block the body stores is the feature decoder's second-layer block in closed form. -/
theorem out_u4 (A : Arrays F) (i : grid0.Coords) (hi : (i 1).val ≠ 0) (h9 : k0_cond9 i = 1#1) (st : St F)
    (hInv : Inv A (16 * 3 + (i 1).val) st) :
    k0_pay5 (View.ld st.adj (Rect.unit (s := S4096x4096) (k0_off7 i) S256x4096.size (k0_off7_inb i h9)))
      (View.ld st.s (Rect.unit (s := S4096x256) ![0, 0] S4096x256.size inb_S4096x256_S4096x256_0_0))
      = u4B A (blkOf i) := by
  obtain ⟨eadj, es, -, -, -⟩ := loads A (blkOf i) hi st hInv (k0_off7 i) (k0_off8 i) (k0_off7_eq i) (k0_off8_eq i)
    (k0_off7_inb i h9) (k0_off8_inb i h9) inb_S4096x256_S4096x256_0_0 inb_S1x256_S1x256_0_0
  rw [eadj, es]; rfl

/-- The second output block the body stores is the structure branch's block of the stage-2 activation. -/
theorem out_u3s (A : Arrays F) (i : grid0.Coords) (hi : (i 1).val ≠ 0) (h9 : k0_cond9 i = 1#1) (st : St F)
    (hInv : Inv A (16 * 3 + (i 1).val) st) :
    View.ld st.u3 (Rect.unit (s := S4096x256) (k0_off8 i) S256x128.size (k0_off8_inb i h9)) = u3sB A (blkOf i) :=
  (loads A (blkOf i) hi st hInv (k0_off7 i) (k0_off8 i) (k0_off7_eq i) (k0_off8_eq i)
    (k0_off7_inb i h9) (k0_off8_inb i h9) inb_S4096x256_S4096x256_0_0 inb_S1x256_S1x256_0_0).2.2.1

end Cert.Kernel.Stack.C3i

namespace Cert.Kernel.Stack

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

theorem step3i (c : Dev nD) (E : Set ℕ) (i : grid0.Coords) (hs : (i 0).val = 3) (hi : (i 1).val ≠ 0) (hi' : (i 1).val ≠ 15)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 3 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 3 + (i 1).val + 1) st'⌝ ∗ ins c arg2 arg3 arg4 arg5 arg6 arg7 arg8 arg9 arg10 arg11 arg12 x0 A
            ∗ outs c arg13 arg14 arg15 arg16 (u4B A (blkOf i)) (u3sB A (blkOf i)) d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  have h1 := View.v4_neg i (Or.inl (by omega))
  have h2 := View.v9_neg i (Or.inl (by omega))
  have h3 := View.v14_neg i (Or.inl (by omega))
  have h4 := View.cond4_neg i (Or.inr hi)
  have h5 := View.v22_neg i hi
  have h6 := View.cond6_neg i (by omega)
  have h7 := View.cond7_neg i (by omega)
  have h8 := View.cond8_neg i (by omega)
  have h9 := View.cond9_pos i hs
  have h10 := View.cond10_neg i (Or.inr hi')
  simp only [cc0__gcn_stack_kernel_eq_skeleton]; unfold cc0__gcn_stack_kernel_skel
  simp only [k0_part3_eq_skeleton]; unfold k0_part3_skel
  unfold outs scr owns
  iintro ⟨Hins, ⟨⟨%f13, %hf13, H13⟩, ⟨%f14, %hf14, H14⟩, H15, H16⟩,
    ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  sl_exec (disch := first | sl_exact h1 | sl_exact h2 | sl_exact h3 | sl_exact h4 | sl_exact h5 | sl_exact h6 | sl_exact h7 | sl_exact h8 | sl_exact h9 | sl_exact h10)
  sl_step
  iapply Hk
  iexists (C3i.next i h9 st)
  isplitr
  · ipureintro; exact C3i.inv_next_point A i hi h9 st hInv
  isplitl [Hins]; · iexact Hins
  isplitl [H13 H14 H15 H16]
  · isplitl [H13]
    · iexists _; isplitr
      swap; · iexact H13
      ipureintro
      sl_unfold_run_names
      rw [View.read_writes_cons]
      simp only [View.writes_nil, View.readAt_eq_ld, hf13, hf17, hf18]
      exact (View.overlay_whole2 _ _ _ rfl _).trans (C3i.out_u4 A i hi h9 st hInv)
    isplitl [H14]
    · iexists _; isplitr
      swap; · iexact H14
      ipureintro
      sl_unfold_run_names
      rw [View.read_writes_cons]
      simp only [View.writes_nil, View.readAt_eq_ld, hf14, hf21]
      exact (View.overlay_whole2 _ _ _ rfl _).trans (C3i.out_u3s A i hi h9 st hInv)
    isplitl [H15]; · iexact H15
    iexact H16
  isplitl [H17]
  · iexists f17; isplitr; · ipureintro; exact hf17
    iexact H17
  isplitl [H18]
  · iexists f18; isplitr; · ipureintro; exact hf18
    iexact H18
  isplitl [H19]
  · iexists f19; isplitr; · ipureintro; exact hf19
    iexact H19
  isplitl [H20]
  · iexists f20; isplitr; · ipureintro; exact hf20
    iexact H20
  isplitl [H21]
  · iexists f21; isplitr; · ipureintro; exact hf21
    iexact H21
  isplitl [H22]
  · iexists _; isplitr
    swap; · iexact H22
    ipureintro
    sl_unfold_run_names
    rw [View.read_writes_cons]
    simp only [View.writes_nil, View.readAt_eq_ld, hf17, hf18, hf22]
    exact View.overlay_whole2 _ _ _ rfl _
  iexists _; isplitr
  swap; · iexact H23
  ipureintro
  sl_unfold_run_names
  rw [View.read_writes_cons]
  simp only [View.writes_nil, View.readAt_eq_ld, hf17, hf18, hf23]
  exact View.overlay_whole2 _ _ _ rfl _

end Cert.Kernel.Stack

end
-- ==== Proof.WStackStep3z.lean ====
/-
  One grid point of the graph-convolution stack — stage 3, the last block: as a middle block, and the final statistics are handed out.
  From the scratch buffers as the points before left them (the invariant at this point) the kernel body runs to
  the invariant at the next point, the input blocks unchanged and the output blocks as stated.

  At this point (stage 3, block 15) the stage-entry part of the body takes none of its branches; the body multiplies the
  parked adjacency's last row block with the last stage's support, stores the rectified block as the fourth activation's
  block, copies the right half of the third activation's block out, adds the block's column sums and sums of squares
  into the two running rows, and hands the two rows out stacked.  Only the two running rows of the scratch change.
-/
import proofs.«181189_g481036337843_cont_8to1c4_37_6_alg».proof.Proof.WStackRes
import Idealize.ShloMosaic.Lib.Pipeline.FrameBody
import Idealize.ShloMosaic.Lib.Pipeline.Value

set_option maxRecDepth 16384

noncomputable section

namespace Cert.Kernel.Stack

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

namespace C3z

/-! ## The conditions and offsets at this grid point -/

/-- The last stage's support is built at its block 0 only: not at block 15. -/
theorem c4 (i : grid0.Coords) (hs : (i 0).val = 3) (hi : (i 1).val = 15) : ¬ k0_cond4 i = 1#1 := by
  unfold k0_cond4; simp only [hs, hi]; decide
/-- The stage-0 branch of the body is not taken in stage 3. -/
theorem c6 (i : grid0.Coords) (hs : (i 0).val = 3) : ¬ k0_cond6 i = 1#1 := by
  unfold k0_cond6; simp only [hs]; decide
/-- The stage-1 branch is not taken in stage 3. -/
theorem c7 (i : grid0.Coords) (hs : (i 0).val = 3) : ¬ k0_cond7 i = 1#1 := by
  unfold k0_cond7; simp only [hs]; decide
/-- The stage-2 branch is not taken in stage 3. -/
theorem c8 (i : grid0.Coords) (hs : (i 0).val = 3) : ¬ k0_cond8 i = 1#1 := by
  unfold k0_cond8; simp only [hs]; decide
/-- The stage-3 branch is taken. -/
theorem c9 (i : grid0.Coords) (hs : (i 0).val = 3) : k0_cond9 i = 1#1 := by
  unfold k0_cond9; simp only [hs]; decide
/-- The final statistics are handed out at stage 3's last block: here. -/
theorem c10 (i : grid0.Coords) (hs : (i 0).val = 3) (hi : (i 1).val = 15) : k0_cond10 i = 1#1 := by
  unfold k0_cond10; simp only [hs, hi]; decide

/-- The row offset of block 15 as the body computes it, a 32-bit product that does not wrap: `256·15 = 3840`. -/
theorem off7 (i : grid0.Coords) (hi : (i 1).val = 15) : k0_off7 i = ![3840, 0] := by
  unfold k0_off7; simp only [hi]; decide
/-- The same row offset, at the right column half. -/
theorem off8 (i : grid0.Coords) (hi : (i 1).val = 15) : k0_off8 i = ![3840, 128] := by
  unfold k0_off8; simp only [hi]; decide

/-- The first layer's support is built at stage 0, block 0 only: not here. -/
theorem v4n (i : grid0.Coords) (hs : (i 0).val = 3) (hi : (i 1).val = 15) :
    ¬ Scalar.cmpi .ne (Scalar.extui (Scalar.andi (Scalar.cmpi .eq (BitVec.ofNat 32 (i 0).val) 0#32) (Scalar.cmpi .eq (BitVec.ofNat 32 (i 1).val) 0#32))) 0#32 = 1#1 := by
  simp only [hs, hi]; decide
/-- The second layer's support is built at stage 1, block 0 only: not here. -/
theorem v9n (i : grid0.Coords) (hs : (i 0).val = 3) (hi : (i 1).val = 15) :
    ¬ Scalar.cmpi .ne (Scalar.extui (Scalar.andi (Scalar.cmpi .eq (BitVec.ofNat 32 (i 0).val) 1#32) (Scalar.cmpi .eq (BitVec.ofNat 32 (i 1).val) 0#32))) 0#32 = 1#1 := by
  simp only [hs, hi]; decide
/-- The decoders' support is built at stage 2, block 0 only: not here. -/
theorem v14n (i : grid0.Coords) (hs : (i 0).val = 3) (hi : (i 1).val = 15) :
    ¬ Scalar.cmpi .ne (Scalar.extui (Scalar.andi (Scalar.cmpi .eq (BitVec.ofNat 32 (i 0).val) 2#32) (Scalar.cmpi .eq (BitVec.ofNat 32 (i 1).val) 0#32))) 0#32 = 1#1 := by
  simp only [hs, hi]; decide
/-- The running rows are reset at block 0 of a stage only: not at block 15. -/
theorem v22n (i : grid0.Coords) (hi : (i 1).val = 15) :
    ¬ Scalar.cmpi .ne (Scalar.extui (Scalar.cmpi .eq (BitVec.ofNat 32 (i 1).val) 0#32)) 0#32 = 1#1 := by
  simp only [hi]; decide

/-- Where the body reads the parked adjacency at block `b`: rows `256·b` on, every column. -/
theorem off7_blk (i : grid0.Coords) (hi : (i 1).val = 15) : k0_off7 i = ![256 * (blkOf i).val, 0] := by
  rw [show (blkOf i).val = 15 from hi]; exact off7 i hi
/-- Where it reads the third activation's block: rows `256·b` on, the right 128 columns. -/
theorem off8_blk (i : grid0.Coords) (hi : (i 1).val = 15) : k0_off8 i = ![256 * (blkOf i).val, 128] := by
  rw [show (blkOf i).val = 15 from hi]; exact off8 i hi

/-! ## Loads at a row block, read as row blocks -/

section Pure

variable {Val : EltTy → Type} {e : EltTy}

/-- The zero offsets of a rank-2 access, spelt as a literal vector. -/
theorem zero2 : (![0, 0] : Fin 2 → ℕ) = fun _ => 0 := by
  funext a; match a with | ⟨0, _⟩ => rfl | ⟨1, _⟩ => rfl

/-- Loading 256 whole rows from row `256·b` on reads row block `b`. -/
theorem ld_rows {m : ℕ} (f : (⟨2, ![4096, m]⟩ : Shape).Idx → Val e) (b : Fin 16) (off : Fin 2 → ℕ)
    (hoff : off = ![256 * b.val, 0])
    (inb : ∀ a, off a + (![256, m] : Fin 2 → ℕ) a ≤ (⟨2, ![4096, m]⟩ : Shape).size a) :
    View.ld f (Rect.unit (s := ⟨2, ![4096, m]⟩) off ![256, m] inb) = rowBlk f b := by
  subst hoff
  funext y
  show f _ = f _
  congr 1
  funext a
  match a with
  | ⟨0, _⟩ => exact Fin.ext (by show 256 * b.val + 1 * (y 0).val = 256 * b.val + (y 0).val; omega)
  | ⟨1, _⟩ => exact Fin.ext (by show 0 + 1 * (y 1).val = (y 1).val; omega)

/-- Loading 256 rows from row `256·b` on, columns 128 … 255, reads row block `b` of the right half. -/
theorem ld_rows_right (f : (⟨2, ![4096, 256]⟩ : Shape).Idx → Val e) (b : Fin 16) (off : Fin 2 → ℕ)
    (hoff : off = ![256 * b.val, 128])
    (inb : ∀ a, off a + (![256, 128] : Fin 2 → ℕ) a ≤ (⟨2, ![4096, 256]⟩ : Shape).size a) :
    View.ld f (Rect.unit (s := ⟨2, ![4096, 256]⟩) off ![256, 128] inb) = rowBlk (rcol f) b := by
  subst hoff
  funext y
  show f _ = f _
  congr 1
  funext a
  match a with
  | ⟨0, _⟩ => exact Fin.ext (by show 256 * b.val + 1 * (y 0).val = 256 * b.val + (y 0).val; omega)
  | ⟨1, _⟩ => exact Fin.ext (by show 128 + 1 * (y 1).val = 128 + (y 1).val; omega)

end Pure

/-! ## Row blocks of an assembled matrix, and agreement on leading rows -/

section Blocks

variable {α : Type} {m : ℕ}

/-- Row block `b` of the matrix assembled from sixteen blocks is the `b`-th of them. -/
theorem rowBlk_asm16 (blk : Fin 16 → ((⟨2, ![256, m]⟩ : Shape).Idx → α)) (b : Fin 16) :
    rowBlk (asm16 blk) b = blk b := by
  funext y
  have hy := idx2_lt0 y
  have hb := b.isLt
  have e1 : (256 * b.val + (y 0).val) / 256 = b.val := by omega
  have e2 : (256 * b.val + (y 0).val) % 256 = (y 0).val := by omega
  have eb : (⟨(256 * b.val + (y 0).val) / 256, by omega⟩ : Fin 16) = b := Fin.ext e1
  have ey : (ix2 (⟨(256 * b.val + (y 0).val) % 256, Nat.mod_lt _ (by norm_num)⟩ : Fin 256) (y 1)
      : (⟨2, ![256, m]⟩ : Shape).Idx) = y := by
    funext a; match a with | ⟨0, _⟩ => exact Fin.ext e2 | ⟨1, _⟩ => rfl
  show blk ⟨(256 * b.val + (y 0).val) / 256, _⟩ (ix2 ⟨(256 * b.val + (y 0).val) % 256, _⟩ (y 1)) = blk b y
  exact congr (congrArg blk eb) ey

/-- Matrices that agree on their first `256·k` rows have the same row block `b < k`. -/
theorem rowBlk_congr {f g : (⟨2, ![4096, m]⟩ : Shape).Idx → α} {k : ℕ} (h : AgreeRows f g k) (b : Fin 16)
    (hb : b.val < k) : rowBlk f b = rowBlk g b := by
  funext y
  have hy := idx2_lt0 y
  exact h _ _ (by show 256 * b.val + (y 0).val < 256 * k; omega)

/-- Agreement on leading rows passes to the right column half. -/
theorem agree_rcol {f g : (⟨2, ![4096, 256]⟩ : Shape).Idx → α} {k : ℕ} (h : AgreeRows f g k) :
    AgreeRows (rcol f) (rcol g) k :=
  fun r c hr => h r ⟨128 + c.val, by have := c.isLt; omega⟩ hr

end Blocks

/-! ## What the stores of this grid point leave, read back -/

section ReadBack

variable {Val : EltTy → Type} {e : EltTy} {sig : RefSig} {κ : Kind} {sp : Space}

/-- One store through the whole buffer leaves its payload. -/
theorem read_whole_store [∀ e, Nonempty (Val e)] {S : Shape} (v : View sig κ sp S e) (f : v.ty.Contents Val)
    {off : Fin S.rank → ℕ} (hz : off = fun _ => 0) (inb : ∀ a, off a + S.size a ≤ S.size a) (w : S.Idx → Val e) :
    v.read Val (v.writes Val f [(⟨Rect.unit off S.size inb, w⟩ : View.Piece Val S e)]) = w :=
  (View.read_writes_eq_canon v f _
    (fun y => ⟨_, List.mem_singleton_self _, View.mem_set_unit_zero hz inb y⟩)).trans (View.canon_unit_zero hz inb w)

/-- Two stores, one per row of a two-row buffer, leave the two payloads stacked. -/
theorem read_two_rows (v : View sig κ sp ⟨2, ![2, 256]⟩ e) (f : v.ty.Contents Val)
    (top bot : (⟨2, ![1, 256]⟩ : Shape).Idx → Val e)
    (inb0 : ∀ a, (![0, 0] : Fin 2 → ℕ) a + (![1, 256] : Fin 2 → ℕ) a ≤ (⟨2, ![2, 256]⟩ : Shape).size a)
    (inb1 : ∀ a, (![1, 0] : Fin 2 → ℕ) a + (![1, 256] : Fin 2 → ℕ) a ≤ (⟨2, ![2, 256]⟩ : Shape).size a) :
    v.read Val (v.writes Val f
      [(⟨Rect.unit (s := ⟨2, ![2, 256]⟩) ![1, 0] ![1, 256] inb1, bot⟩ : View.Piece Val ⟨2, ![2, 256]⟩ e),
        ⟨Rect.unit (s := ⟨2, ![2, 256]⟩) ![0, 0] ![1, 256] inb0, top⟩]) = vcat2 top bot := by
  funext y
  refine View.read_writes_apply_of_pieces v f (vcat2 top bot) _ ?_ y ?_
  · intro p hp x
    rcases List.mem_cons.mp hp with rfl | hp
    · have h0 : (x 0).val = 0 := by have := idx2_lt0 x; omega
      show bot x = vcat2 top bot ((Rect.unit (s := ⟨2, ![2, 256]⟩) ![1, 0] ![1, 256] inb1).emb x)
      unfold vcat2
      rw [if_neg (by show ¬ (1 + 1 * (x 0).val = 0); omega)]
      congr 1
      funext a
      match a with
      | ⟨0, _⟩ => exact Fin.ext (by show (x 0).val = 0; exact h0)
      | ⟨1, _⟩ => exact Fin.ext (by show (x 1).val = 0 + 1 * (x 1).val; omega)
    · rcases List.mem_singleton.mp hp with rfl
      have h0 : (x 0).val = 0 := by have := idx2_lt0 x; omega
      show top x = vcat2 top bot ((Rect.unit (s := ⟨2, ![2, 256]⟩) ![0, 0] ![1, 256] inb0).emb x)
      unfold vcat2
      rw [if_pos (by show 0 + 1 * (x 0).val = 0; omega)]
      congr 1
      funext a
      match a with
      | ⟨0, _⟩ => exact Fin.ext (by show (x 0).val = 0; exact h0)
      | ⟨1, _⟩ => exact Fin.ext (by show (x 1).val = 0 + 1 * (x 1).val; omega)
  · have hy0 := idx2_lt0 y
    have hy1 := idx2_lt1 y
    by_cases h : (y 0).val = 0
    · refine ⟨⟨Rect.unit (s := ⟨2, ![2, 256]⟩) ![0, 0] ![1, 256] inb0, top⟩,
        List.mem_cons_of_mem _ (List.mem_singleton_self _),
        (Rect.mem_set_unit (s := ⟨2, ![2, 256]⟩) (off := ![0, 0]) (size := ![1, 256]) (inb := inb0)).mpr fun a => ?_⟩
      match a with
      | ⟨0, _⟩ => exact ⟨by show 0 ≤ (y 0).val; omega, by show (y 0).val < 0 + 1; omega⟩
      | ⟨1, _⟩ => exact ⟨by show 0 ≤ (y 1).val; omega, by show (y 1).val < 0 + 256; omega⟩
    · refine ⟨⟨Rect.unit (s := ⟨2, ![2, 256]⟩) ![1, 0] ![1, 256] inb1, bot⟩,
        List.mem_cons_self,
        (Rect.mem_set_unit (s := ⟨2, ![2, 256]⟩) (off := ![1, 0]) (size := ![1, 256]) (inb := inb1)).mpr fun a => ?_⟩
      match a with
      | ⟨0, _⟩ => exact ⟨by show 1 ≤ (y 0).val; omega, by show (y 0).val < 1 + 1; omega⟩
      | ⟨1, _⟩ => exact ⟨by show 0 ≤ (y 1).val; omega, by show (y 1).val < 0 + 256; omega⟩

end ReadBack

/-! ## The invariant across the last grid point -/

section Invariant

variable {F : FTy → Type} [FloatOps F] (A : Arrays F)

/-- Before the last grid point (point 63) every adjacency block and every block of the third activation is
    stored, the support is the last stage's, and the running sums hold fifteen blocks. -/
theorem inv_last (st : St F) (h : Inv A 63 st) :
    AgreeRows st.adj (ADJ A) 16 ∧ AgreeRows st.u3 (U3 A) 16 ∧ st.s = S3 A
      ∧ st.accs = acc3s A 15 ∧ st.accq = acc3q A 15 := by
  obtain ⟨h1, -, -, h4, -, -, -, h8⟩ := h
  obtain ⟨hs, ha, hq⟩ := h8 ⟨by norm_num, by norm_num⟩
  exact ⟨h1, h4, hs, ha, hq⟩

/-- The parked adjacency's last row block is the last block's half-precision adjacency. -/
theorem adj_last (st : St F) (h : Inv A 63 st) (b : Fin 16) (hb : b.val = 15) : rowBlk st.adj b = adjB A b :=
  (rowBlk_congr (inv_last A st h).1 b (by omega)).trans (rowBlk_asm16 (adjB A) b)

/-- The sixteenth running sum is the payload of the last block over the fifteenth. -/
theorem accs_last (st : St F) (h : Inv A 63 st) (b : Fin 16) (hb : b.val = 15) :
    k0_pay6 (rowBlk st.adj b) st.s st.accs = acc3s A 16 := by
  have hb' : (⟨15 % 16, Nat.mod_lt _ (by norm_num)⟩ : Fin 16) = b := Fin.ext (by show 15 % 16 = b.val; omega)
  rw [adj_last A st h b hb, (inv_last A st h).2.2.1, (inv_last A st h).2.2.2.1, ← hb']
  rfl

/-- Likewise for the running sum of squares. -/
theorem accq_last (st : St F) (h : Inv A 63 st) (b : Fin 16) (hb : b.val = 15) :
    k0_pay7 (rowBlk st.adj b) st.s st.accq = acc3q A 16 := by
  have hb' : (⟨15 % 16, Nat.mod_lt _ (by norm_num)⟩ : Fin 16) = b := Fin.ext (by show 15 % 16 = b.val; omega)
  rw [adj_last A st h b hb, (inv_last A st h).2.2.1, (inv_last A st h).2.2.2.2, ← hb']
  rfl

/-- The scratch state the last grid point leaves: only the two running rows change. -/
def stEnd (st : St F) (b : Fin 16) : St F :=
  { st with accs := k0_pay6 (rowBlk st.adj b) st.s st.accs, accq := k0_pay7 (rowBlk st.adj b) st.s st.accq }

/-- The invariant after the last grid point. -/
theorem inv_end (st : St F) (h : Inv A 63 st) (b : Fin 16) (hb : b.val = 15) : Inv A 64 (stEnd st b) := by
  obtain ⟨h1, h2, h3, h4, -, -, -, h8⟩ := id h
  obtain ⟨hs, -, -⟩ := h8 ⟨by norm_num, by norm_num⟩
  exact ⟨h1, h2, h3, h4, fun hh => absurd hh.2 (by norm_num), fun hh => absurd hh.2 (by norm_num),
    fun hh => absurd hh.2 (by norm_num), fun _ => ⟨hs, accs_last A st h b hb, accq_last A st h b hb⟩⟩

/-- The last block of the fourth activation. -/
theorem out_u4 (st : St F) (h : Inv A 63 st) (b : Fin 16) (hb : b.val = 15) :
    k0_pay5 (rowBlk st.adj b) st.s = u4B A b := by
  rw [adj_last A st h b hb, (inv_last A st h).2.2.1]; rfl

/-- The last block of the structure branch's activation: the right half of the third activation's block. -/
theorem out_u3s (st : St F) (h : Inv A 63 st) (b : Fin 16) (hb : b.val = 15) :
    rowBlk (rcol st.u3) b = u3sB A b :=
  rowBlk_congr (agree_rcol (inv_last A st h).2.1) b (by omega)

/-- The final statistics: the two running rows after all sixteen blocks, stacked. -/
theorem out_stats (st : St F) (h : Inv A 63 st) (b : Fin 16) (hb : b.val = 15) :
    vcat2 (k0_pay6 (rowBlk st.adj b) st.s st.accs) (k0_pay7 (rowBlk st.adj b) st.s st.accq) = U4STATS A := by
  rw [accs_last A st h b hb, accq_last A st h b hb]; rfl

/-- The two rows the last grid point leaves, spelt out. -/
theorem stEnd_accs {F : FTy → Type} [FloatOps F] (st : St F) (b : Fin 16) :
    (stEnd st b).accs = k0_pay6 (rowBlk st.adj b) st.s st.accs := rfl
theorem stEnd_accq {F : FTy → Type} [FloatOps F] (st : St F) (b : Fin 16) :
    (stEnd st b).accq = k0_pay7 (rowBlk st.adj b) st.s st.accq := rfl

end Invariant

end C3z

variable {F : FTy → Type} [FloatOps F]

theorem step3z (c : Dev nD) (E : Set ℕ) (i : grid0.Coords) (hs : (i 0).val = 3) (hi : (i 1).val = 15)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 3 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 3 + (i 1).val + 1) st'⌝ ∗ ins c arg2 arg3 arg4 arg5 arg6 arg7 arg8 arg9 arg10 arg11 arg12 x0 A
            ∗ outs c arg13 arg14 arg15 arg16 (u4B A (blkOf i)) (u3sB A (blkOf i)) d13 (U4STATS A) ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  have hc4 := C3z.c4 i hs hi
  have hc6 := C3z.c6 i hs
  have hc7 := C3z.c7 i hs
  have hc8 := C3z.c8 i hs
  have hc9 := C3z.c9 i hs
  have hc10 := C3z.c10 i hs hi
  have hv4 := C3z.v4n i hs hi
  have hv9 := C3z.v9n i hs hi
  have hv14 := C3z.v14n i hs hi
  have hv22 := C3z.v22n i hi
  have hb : (blkOf i).val = 15 := hi
  have hoff7 := C3z.off7_blk i hi
  have hoff8 := C3z.off8_blk i hi
  have hInv63 : Inv A 63 st := by have h := hInv; rw [hi] at h; exact h
  have hInv64 : Inv A (16 * 3 + (i 1).val + 1) (C3z.stEnd st (blkOf i)) := by
    rw [hi]; exact C3z.inv_end A st hInv63 (blkOf i) hb
  simp only [cc0__gcn_stack_kernel_eq_skeleton]; unfold cc0__gcn_stack_kernel_skel
  simp only [k0_part3_eq_skeleton]; unfold k0_part3_skel
  unfold ins outs scr
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨⟨%f13, %hf13, H13⟩, ⟨%f14, %hf14, H14⟩, ⟨%f15, %hf15, H15⟩, ⟨%f16, %hf16, H16⟩⟩, ⟨⟨%g0, %hg0, S0⟩, ⟨%g1, %hg1, S1⟩, ⟨%g2, %hg2, S2⟩, ⟨%g3, %hg3, S3⟩, ⟨%g4, %hg4, S4⟩, ⟨%g5, %hg5, S5⟩, ⟨%g6, %hg6, S6⟩⟩, Hk⟩
  sl_exec (disch := first | sl_exact hc4 | sl_exact hc6 | sl_exact hc7 | sl_exact hc8 | sl_exact hc9 | sl_exact hc10 | exact hv4 | exact hv9 | exact hv14 | exact hv22)
  sl_step
  iapply Hk
  iexists (C3z.stEnd st (blkOf i))
  isplitr
  · ipureintro; exact hInv64
  isplitl [H2 H3 H4 H5 H6 H7 H8 H9 H10 H11 H12]
  · isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    iexists f12; isplitr; · ipureintro; exact hf12
    iexact H12
  isplitl [H13 H14 H15 H16]
  · isplitl [H13]
    · iexists _; isplitr
      swap; · iexact H13
      ipureintro
      refine (C3z.read_whole_store _ _ C3z.zero2 _ _).trans ?_
      sl_unfold_run_names
      simp only [View.readAt_eq_ld, hg0, hg1]
      exact (congrArg₂ k0_pay5 (C3z.ld_rows st.adj (blkOf i) _ hoff7 _) (View.ld_unit_zero C3z.zero2 _ st.s)).trans
        (C3z.out_u4 A st hInv63 (blkOf i) hb)
    isplitl [H14]
    · iexists _; isplitr
      swap; · iexact H14
      ipureintro
      refine (C3z.read_whole_store _ _ C3z.zero2 _ _).trans ?_
      sl_unfold_run_names
      simp only [View.readAt_eq_ld, hg4]
      exact (C3z.ld_rows_right st.u3 (blkOf i) _ hoff8 _).trans (C3z.out_u3s A st hInv63 (blkOf i) hb)
    isplitl [H15]
    · iexists f15; isplitr; · ipureintro; exact hf15
      iexact H15
    iexists _; isplitr
    swap; · iexact H16
    ipureintro
    refine (C3z.read_two_rows _ _ _ _ _ _).trans ?_
    sl_unfold_run_names
    simp only [View.readCov_unit_zero (S := S1x256) _ C3z.zero2, View.readAt_eq_ld, hg0, hg1, hg5, hg6]
    exact (congrArg₂ vcat2
        (congr (congrArg₂ k0_pay6 (C3z.ld_rows st.adj (blkOf i) _ hoff7 _) (View.ld_unit_zero C3z.zero2 _ st.s))
          (View.ld_unit_zero C3z.zero2 _ st.accs))
        (congr (congrArg₂ k0_pay7 (C3z.ld_rows st.adj (blkOf i) _ hoff7 _) (View.ld_unit_zero C3z.zero2 _ st.s))
          (View.ld_unit_zero C3z.zero2 _ st.accq))).trans
      (C3z.out_stats A st hInv63 (blkOf i) hb)
  isplitl [S0]
  · iexists g0; isplitr; · ipureintro; exact hg0
    iexact S0
  isplitl [S1]
  · iexists g1; isplitr; · ipureintro; exact hg1
    iexact S1
  isplitl [S2]
  · iexists g2; isplitr; · ipureintro; exact hg2
    iexact S2
  isplitl [S3]
  · iexists g3; isplitr; · ipureintro; exact hg3
    iexact S3
  isplitl [S4]
  · iexists g4; isplitr; · ipureintro; exact hg4
    iexact S4
  isplitl [S5]
  · iexists _; isplitr
    swap; · iexact S5
    ipureintro
    rw [C3z.stEnd_accs]
    sl_unfold_run_names
    refine (C3z.read_whole_store _ _ C3z.zero2 _ _).trans ?_
    simp only [View.readAt_eq_ld, hg0, hg1, hg5]
    exact congr (congrArg₂ k0_pay6 (C3z.ld_rows st.adj (blkOf i) _ hoff7 _) (View.ld_unit_zero C3z.zero2 _ st.s))
      (View.ld_unit_zero C3z.zero2 _ st.accs)
  iexists _; isplitr
  swap; · iexact S6
  ipureintro
  rw [C3z.stEnd_accq]
  sl_unfold_run_names
  refine (C3z.read_whole_store _ _ C3z.zero2 _ _).trans ?_
  simp only [View.readAt_eq_ld, hg0, hg1, hg6]
  exact congr (congrArg₂ k0_pay7 (C3z.ld_rows st.adj (blkOf i) _ hoff7 _) (View.ld_unit_zero C3z.zero2 _ st.s))
    (View.ld_unit_zero C3z.zero2 _ st.accq)

end Cert.Kernel.Stack

end
-- ==== Proof.WStackOblig.lean ====
/-
  The body obligation of the graph-convolution stack's pipeline: at every grid point the windows' staging buffers hold
  what the proof data says (an input its block, fetched there or not; an output whatever the points before left), the
  point's control case is read off its coordinates, and that case's run of the body gives the next invariant and what
  each window's buffer is left with.
-/
import proofs.«181189_g481036337843_cont_8to1c4_37_6_alg».proof.Proof.WStackData
import proofs.«181189_g481036337843_cont_8to1c4_37_6_alg».proof.Proof.WStackObligGlue
import proofs.«181189_g481036337843_cont_8to1c4_37_6_alg».proof.Proof.WStackStep00
import proofs.«181189_g481036337843_cont_8to1c4_37_6_alg».proof.Proof.WStackStep0i
import proofs.«181189_g481036337843_cont_8to1c4_37_6_alg».proof.Proof.WStackStep10
import proofs.«181189_g481036337843_cont_8to1c4_37_6_alg».proof.Proof.WStackStep1i
import proofs.«181189_g481036337843_cont_8to1c4_37_6_alg».proof.Proof.WStackStep20
import proofs.«181189_g481036337843_cont_8to1c4_37_6_alg».proof.Proof.WStackStep2i
import proofs.«181189_g481036337843_cont_8to1c4_37_6_alg».proof.Proof.WStackStep30
import proofs.«181189_g481036337843_cont_8to1c4_37_6_alg».proof.Proof.WStackStep3i
import proofs.«181189_g481036337843_cont_8to1c4_37_6_alg».proof.Proof.WStackStep3z

set_option maxRecDepth 16384

noncomputable section

namespace Cert.Kernel.Stack

open Idealize.ShloMosaic Idealize.ShloMosaic.TcCoe Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- The body at any point, by the point's control case: its stage (the first coordinate) and whether its row block (the
    second) is the first, the last or one between. In stages 0 to 2 every output window is idle and not written back.
    In stage 3 the two activation windows are live; the structure branch's statistics are stored at the first block,
    then idle, and written back at the last block, where the buffer still holds them; the final statistics are idle
    until the last block, where they are stored. -/
theorem sound_body (c : Dev nD) (t : Fin cfg0.N) :
    bodyPre V c t ⊢ wp frame (wpE (defs₀ (F := F)) Variants.none c none) Set.univ (bodyAt0 t) (fun _ => bodyPost V c t) := by
  have hc := pt_coords t
  have hN : cfg0.N = 64 := N_0
  have ht : t.val < cfg0.N := t.isLt
  have hs4 : (grid0.coords t 0).val < 4 := (grid0.coords t 0).isLt
  have hb16 : (grid0.coords t 1).val < 16 := (grid0.coords t 1).isLt
  rcases (by omega : (grid0.coords t 0).val = 0 ∨ (grid0.coords t 0).val = 1 ∨ (grid0.coords t 0).val = 2 ∨ (grid0.coords t 0).val = 3)
    with hs | hs | hs | hs
  · -- stage 0: no output window is written; each is handed back as it was found
    by_cases hi : (grid0.coords t 1).val = 0
    · exact sound_body_of V c t (16 * 0 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step00 c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) (iblk_0 V c t hs) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
    · exact sound_body_of V c t (16 * 0 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step0i c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) (iblk_0 V c t hs) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
  · -- stage 1: no output window is written; each is handed back as it was found
    by_cases hi : (grid0.coords t 1).val = 0
    · exact sound_body_of V c t (16 * 1 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step10 c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
    · exact sound_body_of V c t (16 * 1 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step1i c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
  · -- stage 2: no output window is written; each is handed back as it was found
    by_cases hi : (grid0.coords t 1).val = 0
    · exact sound_body_of V c t (16 * 2 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step20 c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
    · exact sound_body_of V c t (16 * 2 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step2i c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
  · -- stage 3
    by_cases hi : (grid0.coords t 1).val = 0
    · -- the first block: both activation blocks and the structure branch's statistics are stored
      exact sound_body_of V c t (16 * 3 + (grid0.coords t 1).val) (by omega)
        (fun _ => u4B (arrays V c) (blkOf (grid0.coords t))) (fun _ => u3sB (arrays V c) (blkOf (grid0.coords t)))
        (fun _ => S1STATS (arrays V c)) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step30 c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
        (fun _ => leaves_of_live V c 11 t (by rw [idle_11]; exact decide_eq_false (by omega)) _ (after_11 V c t).symm)
        (fun _ => leaves_of_live V c 12 t (by rw [idle_12]; exact decide_eq_false (by omega)) _ (after_12 V c t).symm)
        (fun _ => leaves_of_live V c 13 t (by rw [idle_13]; exact decide_eq_false (by omega)) _ (after_13 V c t).symm)
        (fun d => leaves_of_idle V c 14 t (by rw [idle_14]; exact decide_eq_true (by omega)) (by rw [flush_14]; exact decide_eq_false (by omega)) d)
    · by_cases hi' : (grid0.coords t 1).val = 15
      · -- the last block: the structure branch's statistics, stored at the first block and untouched since, are written
        -- back; the final statistics are stored
        exact sound_body_of V c t (16 * 3 + (grid0.coords t 1).val) (by omega)
          (fun _ => u4B (arrays V c) (blkOf (grid0.coords t))) (fun _ => u3sB (arrays V c) (blkOf (grid0.coords t)))
          (fun d => d) (fun _ => U4STATS (arrays V c))
          (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
            step3z c E (grid0.coords t) hs hi' arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
          (fun _ => leaves_of_live V c 11 t (by rw [idle_11]; exact decide_eq_false (by omega)) _ (after_11 V c t).symm)
          (fun _ => leaves_of_live V c 12 t (by rw [idle_12]; exact decide_eq_false (by omega)) _ (after_12 V c t).symm)
          (fun d => leaves_of_flush V c 13 t (by rw [idle_13]; exact decide_eq_true (by omega)) (by rw [flush_13]; exact decide_eq_true (by omega)) _
            ((before_13 V c t.val t.isLt (by omega) d).trans (after_13 V c t).symm))
          (fun _ => leaves_of_live V c 14 t (by rw [idle_14]; exact decide_eq_false (by omega)) _ (after_14 V c t).symm)
      · -- a block between: only the activation blocks are stored
        exact sound_body_of V c t (16 * 3 + (grid0.coords t 1).val) (by omega)
          (fun _ => u4B (arrays V c) (blkOf (grid0.coords t))) (fun _ => u3sB (arrays V c) (blkOf (grid0.coords t)))
          (fun d => d) (fun d => d)
          (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
            step3i c E (grid0.coords t) hs hi hi' arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
          (fun _ => leaves_of_live V c 11 t (by rw [idle_11]; exact decide_eq_false (by omega)) _ (after_11 V c t).symm)
          (fun _ => leaves_of_live V c 12 t (by rw [idle_12]; exact decide_eq_false (by omega)) _ (after_12 V c t).symm)
          (fun d => leaves_of_idle V c 13 t (by rw [idle_13]; exact decide_eq_true (by omega)) (by rw [flush_13]; exact decide_eq_false (by omega)) d)
          (fun d => leaves_of_idle V c 14 t (by rw [idle_14]; exact decide_eq_true (by omega)) (by rw [flush_14]; exact decide_eq_false (by omega)) d)

/-- The body obligation at every grid point. -/
theorem body_obligation (c : Dev nD) : BodyObligation (dat (F := F) V c) (defs₀ (F := F)) Variants.none () Set.univ := fun t => by
  rw [bigSep_W0, bigSep_W0]
  exact sound_body V c t

end Cert.Kernel.Stack

end
-- ==== Proof.WStackFinal.lean ====
/-
  The graph-convolution stack's four result arrays after the last write-back, in closed form: the sixteen row blocks
  written back in stage 3 tile the two activation arrays, and the two statistics arrays are written back once, whole,
  at the last point.
-/
import proofs.«181189_g481036337843_cont_8to1c4_37_6_alg».proof.Proof.WStackData

set_option maxRecDepth 16384

noncomputable section

namespace Cert.Kernel.Stack

open Idealize.ShloMosaic Idealize.ShloMosaic.TcCoe Idealize.ShloMosaic.ValueIdx Cert.Kernel Cert.Kernel.Gen
open Idealize.SL Idealize.SL.Sem
open Idealize.ShloMosaic.Pipeline (Dat)

variable {F : FTy → Type} [FloatOps F]
variable (V : (c : Dev nD) → (b : Ref sig .tc) → Buf (Elt F) ((c : Thread nD τ).loc b))

/-! ## A matrix read through its row blocks -/

/-- The matrix assembled from sixteen row blocks, at an element of block `b`: that block's element. -/
theorem asm16_read_blk {α : Type} {m : ℕ} (blk : Fin 16 → (⟨2, ![256, m]⟩ : Shape).Idx → α) (b : Fin 16)
    (x : (⟨2, ![256, m]⟩ : Shape).Idx) (j : (⟨2, ![4096, m]⟩ : Shape).Idx)
    (h0 : (j 0).val = 256 * b.val + (x 0).val) (h1 : (j 1).val = (x 1).val) : asm16 blk j = blk b x := by
  unfold asm16
  have hx0 := idx2_lt0 x
  have hb : (⟨(j 0).val / 256, by have := idx2_lt0 j; omega⟩ : Fin 16) = b :=
    Fin.ext (by show (j 0).val / 256 = b.val; omega)
  have hx : ix2 (⟨(j 0).val % 256, Nat.mod_lt _ (by norm_num)⟩ : Fin 256) (j 1) = x := by
    funext a
    match a with
    | ⟨0, _⟩ => exact Fin.ext (by show (j 0).val % 256 = (x 0).val; omega)
    | ⟨1, _⟩ => exact Fin.ext h1
  rw [hb]
  exact congrArg (blk b) hx

/-- Row block `b` of a matrix, at an element: the matrix's element `256·b` rows further down. -/
theorem rowBlk_read_blk {α : Type} {m : ℕ} (G : (⟨2, ![4096, m]⟩ : Shape).Idx → α) (b : Fin 16)
    (x : (⟨2, ![256, m]⟩ : Shape).Idx) (j : (⟨2, ![4096, m]⟩ : Shape).Idx)
    (h0 : (j 0).val = 256 * b.val + (x 0).val) (h1 : (j 1).val = (x 1).val) : rowBlk G b x = G j := by
  unfold rowBlk
  refine congrArg G ?_
  funext a
  match a with
  | ⟨0, _⟩ => exact Fin.ext (by show 256 * b.val + (x 0).val = (j 0).val; omega)
  | ⟨1, _⟩ => exact Fin.ext h1.symm

/-! ## Output window 11: the last layer's activation, sixteen row blocks of 256 × 256 -/

/-- The printed index map, decided over the grid: a point that writes window 11 back is at the block its second
    coordinate names, in the one column block. -/
theorem idx11 : ∀ t : Fin cfg0.N, (cfg0.win 11).flush t = true →
    win0_11.index t (0 : Fin 2) = (grid0.coords t 1).val ∧ win0_11.index t (1 : Fin 2) = 0 :=
  (by decide +kernel : ∀ t : Fin grid0.N, win0_11.flush t = true →
    win0_11.index t (0 : Fin 2) = (grid0.coords t 1).val ∧ win0_11.index t (1 : Fin 2) = 0)

/-- Every row block is SOME write-back's. -/
theorem onto11 : ∀ b : Fin 16, ∃ t : Fin cfg0.N, (cfg0.win 11).flush t = true ∧ win0_11.index t = ![b.val, 0] :=
  (by decide +kernel : ∀ b : Fin 16, ∃ t : Fin grid0.N, win0_11.flush t = true ∧ win0_11.index t = ![b.val, 0])

theorem after11 (c : Dev nD) (t : Fin cfg0.N) : (dat V c).after 11 t = u4B (arrays V c) (blkOf (grid0.coords t)) := by
  dsimp only [dat]

/-- WHAT A POINT WRITES BACK is its block of `U4`. -/
theorem flushed11_eq (c : Dev nD) (t : Fin cfg0.N) (hf : (cfg0.win 11).flush t = true) :
    (dat V c).flushed 11 t = ((cfg0.win 11).blk t).view.read (Elt F) (U4 (arrays V c)) := by
  show (cfg0.win 11).cut (grid0.coords t) ((dat V c).after 11 t) = _
  rw [after11]
  obtain ⟨e0, e1⟩ := idx11 t hf
  funext y
  show u4B (arrays V c) (blkOf (grid0.coords t)) ((cfg0.win 11).xinj (grid0.coords t) y)
    = U4 (arrays V c) (((cfg0.win 11).blk t).view.emb y)
  unfold U4
  refine (asm16_read_blk (u4B (arrays V c)) (blkOf (grid0.coords t)) _ _ ?_ ?_).symm
  · show win0_11.index t (0 : Fin 2) * 256 + 1 * (y 0).val = 256 * (grid0.coords t 1).val + (y 0).val
    omega
  · show win0_11.index t (1 : Fin 2) * 256 + 1 * (y 1).val = (y 1).val
    omega

/-- An index of the array is in point `t`'s block iff each coordinate is in the block's range on its axis. -/
theorem mem_blk11 (t : Fin cfg0.N) (i : S4096x256.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v23_0).slice (win0_11.rect t)).set ↔ _
  rw [View.set_slice_whole, Rect.mem_set_unit]
  exact Iff.rfl

/-- The write-backs' blocks cover the array: row `r` is in row block `r / 256`. -/
theorem cover11 (i : S4096x256.Idx) :
    ∃ t : Fin cfg0.N, (cfg0.win 11).flush t = true ∧ i ∈ ((cfg0.win 11).blk t).view.set := by
  have hi0 : (i 0).val < 4096 := (i 0).isLt
  have hi1 : (i 1).val < 256 := (i 1).isLt
  obtain ⟨t, hf, ht⟩ := onto11 ⟨(i 0).val / 256, by omega⟩
  have q0 : win0_11.index t (0 : Fin 2) = (i 0).val / 256 := congrFun ht 0
  have q1 : win0_11.index t (1 : Fin 2) = 0 := congrFun ht 1
  refine ⟨t, hf, ?_⟩
  rw [mem_blk11]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 256 ≤ (i 1).val ∧ (i 1).val < win0_11.index t (1 : Fin 2) * 256 + 256; omega

theorem final11 (c : Dev nD) : (dat V c).arrAt 11 cfg0.N = U4 (arrays V c) :=
  (dat V c).arrAt_eq_of_cover 11 (U4 (arrays V c)) (fun t hf => flushed11_eq V c t hf) cover11

/-! ## Output window 12: the structure branch's activation, sixteen row blocks of 256 × 128 -/

theorem idx12 : ∀ t : Fin cfg0.N, (cfg0.win 12).flush t = true →
    win0_12.index t (0 : Fin 2) = (grid0.coords t 1).val ∧ win0_12.index t (1 : Fin 2) = 0 :=
  (by decide +kernel : ∀ t : Fin grid0.N, win0_12.flush t = true →
    win0_12.index t (0 : Fin 2) = (grid0.coords t 1).val ∧ win0_12.index t (1 : Fin 2) = 0)

theorem onto12 : ∀ b : Fin 16, ∃ t : Fin cfg0.N, (cfg0.win 12).flush t = true ∧ win0_12.index t = ![b.val, 0] :=
  (by decide +kernel : ∀ b : Fin 16, ∃ t : Fin grid0.N, win0_12.flush t = true ∧ win0_12.index t = ![b.val, 0])

theorem after12 (c : Dev nD) (t : Fin cfg0.N) : (dat V c).after 12 t = u3sB (arrays V c) (blkOf (grid0.coords t)) := by
  dsimp only [dat]

/-- WHAT A POINT WRITES BACK is its block of `U3S`. -/
theorem flushed12_eq (c : Dev nD) (t : Fin cfg0.N) (hf : (cfg0.win 12).flush t = true) :
    (dat V c).flushed 12 t = ((cfg0.win 12).blk t).view.read (Elt F) (U3S (arrays V c)) := by
  show (cfg0.win 12).cut (grid0.coords t) ((dat V c).after 12 t) = _
  rw [after12]
  obtain ⟨e0, e1⟩ := idx12 t hf
  funext y
  show u3sB (arrays V c) (blkOf (grid0.coords t)) ((cfg0.win 12).xinj (grid0.coords t) y)
    = U3S (arrays V c) (((cfg0.win 12).blk t).view.emb y)
  unfold U3S u3sB
  refine rowBlk_read_blk (rcol (U3 (arrays V c))) (blkOf (grid0.coords t)) _ _ ?_ ?_
  · show win0_12.index t (0 : Fin 2) * 256 + 1 * (y 0).val = 256 * (grid0.coords t 1).val + (y 0).val
    omega
  · show win0_12.index t (1 : Fin 2) * 128 + 1 * (y 1).val = (y 1).val
    omega

theorem mem_blk12 (t : Fin cfg0.N) (i : S4096x128.Idx) :
    i ∈ ((cfg0.win 12).blk t).view.set ↔ ∀ a : Fin 2, win0_12.index t a * S256x128.size a ≤ (i a).val ∧ (i a).val < win0_12.index t a * S256x128.size a + S256x128.size a := by
  show i ∈ ((View.whole main_v23_1).slice (win0_12.rect t)).set ↔ _
  rw [View.set_slice_whole, Rect.mem_set_unit]
  exact Iff.rfl

theorem cover12 (i : S4096x128.Idx) :
    ∃ t : Fin cfg0.N, (cfg0.win 12).flush t = true ∧ i ∈ ((cfg0.win 12).blk t).view.set := by
  have hi0 : (i 0).val < 4096 := (i 0).isLt
  have hi1 : (i 1).val < 128 := (i 1).isLt
  obtain ⟨t, hf, ht⟩ := onto12 ⟨(i 0).val / 256, by omega⟩
  have q0 : win0_12.index t (0 : Fin 2) = (i 0).val / 256 := congrFun ht 0
  have q1 : win0_12.index t (1 : Fin 2) = 0 := congrFun ht 1
  refine ⟨t, hf, ?_⟩
  rw [mem_blk12]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 128 ≤ (i 1).val ∧ (i 1).val < win0_12.index t (1 : Fin 2) * 128 + 128; omega

theorem final12 (c : Dev nD) : (dat V c).arrAt 12 cfg0.N = U3S (arrays V c) :=
  (dat V c).arrAt_eq_of_cover 12 (U3S (arrays V c)) (fun t hf => flushed12_eq V c t hf) cover12

/-! ## Output windows 13 and 14: the two statistics arrays, one block each, written back at the last point -/

theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

theorem after13 (c : Dev nD) (t : Fin cfg0.N) : (dat V c).after 13 t = S1STATS (arrays V c) := by
  dsimp only [dat]

/-- The one block is the whole array: what is written back is the statistics themselves. -/
theorem flushed13_eq (c : Dev nD) (t : Fin cfg0.N) :
    (dat V c).flushed 13 t = ((cfg0.win 13).blk t).view.read (Elt F) (S1STATS (arrays V c)) := by
  show (cfg0.win 13).cut (grid0.coords t) ((dat V c).after 13 t) = _
  rw [after13]
  obtain ⟨e0, e1⟩ := idx13 t
  funext y
  show S1STATS (arrays V c) ((cfg0.win 13).xinj (grid0.coords t) y)
    = S1STATS (arrays V c) (((cfg0.win 13).blk t).view.emb y)
  refine congrArg (S1STATS (arrays V c)) ?_
  funext a; apply Fin.ext
  match a with
  | ⟨0, _⟩ => show (y 0).val = win0_13.index t (0 : Fin 2) * 2 + 1 * (y 0).val; omega
  | ⟨1, _⟩ => show (y 1).val = win0_13.index t (1 : Fin 2) * 128 + 1 * (y 1).val; omega

theorem mem_blk13 (t : Fin cfg0.N) (i : S2x128.Idx) :
    i ∈ ((cfg0.win 13).blk t).view.set ↔ ∀ a : Fin 2, win0_13.index t a * S2x128.size a ≤ (i a).val ∧ (i a).val < win0_13.index t a * S2x128.size a + S2x128.size a := by
  show i ∈ ((View.whole main_v23_2).slice (win0_13.rect t)).set ↔ _
  rw [View.set_slice_whole, Rect.mem_set_unit]
  exact Iff.rfl

theorem cover13 (i : S2x128.Idx) :
    ∃ t : Fin cfg0.N, (cfg0.win 13).flush t = true ∧ i ∈ ((cfg0.win 13).blk t).view.set := by
  have hi0 : (i 0).val < 2 := (i 0).isLt
  have hi1 : (i 1).val < 128 := (i 1).isLt
  have hN : (63 : ℕ) < cfg0.N := by rw [show cfg0.N = 64 from N_0]; decide
  obtain ⟨e0, e1⟩ := idx13 ⟨63, hN⟩
  refine ⟨⟨63, hN⟩, (flush0_13 ⟨63, hN⟩).mpr rfl, ?_⟩
  rw [mem_blk13]
  intro a
  match a with
  | ⟨0, _⟩ => show win0_13.index ⟨63, hN⟩ (0 : Fin 2) * 2 ≤ (i 0).val ∧ (i 0).val < win0_13.index ⟨63, hN⟩ (0 : Fin 2) * 2 + 2; omega
  | ⟨1, _⟩ => show win0_13.index ⟨63, hN⟩ (1 : Fin 2) * 128 ≤ (i 1).val ∧ (i 1).val < win0_13.index ⟨63, hN⟩ (1 : Fin 2) * 128 + 128; omega

theorem final13 (c : Dev nD) : (dat V c).arrAt 13 cfg0.N = S1STATS (arrays V c) :=
  (dat V c).arrAt_eq_of_cover 13 (S1STATS (arrays V c)) (fun t _ => flushed13_eq V c t) cover13

theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

theorem after14 (c : Dev nD) (t : Fin cfg0.N) : (dat V c).after 14 t = U4STATS (arrays V c) := by
  dsimp only [dat]

theorem flushed14_eq (c : Dev nD) (t : Fin cfg0.N) :
    (dat V c).flushed 14 t = ((cfg0.win 14).blk t).view.read (Elt F) (U4STATS (arrays V c)) := by
  show (cfg0.win 14).cut (grid0.coords t) ((dat V c).after 14 t) = _
  rw [after14]
  obtain ⟨e0, e1⟩ := idx14 t
  funext y
  show U4STATS (arrays V c) ((cfg0.win 14).xinj (grid0.coords t) y)
    = U4STATS (arrays V c) (((cfg0.win 14).blk t).view.emb y)
  refine congrArg (U4STATS (arrays V c)) ?_
  funext a; apply Fin.ext
  match a with
  | ⟨0, _⟩ => show (y 0).val = win0_14.index t (0 : Fin 2) * 2 + 1 * (y 0).val; omega
  | ⟨1, _⟩ => show (y 1).val = win0_14.index t (1 : Fin 2) * 256 + 1 * (y 1).val; omega

theorem mem_blk14 (t : Fin cfg0.N) (i : S2x256.Idx) :
    i ∈ ((cfg0.win 14).blk t).view.set ↔ ∀ a : Fin 2, win0_14.index t a * S2x256.size a ≤ (i a).val ∧ (i a).val < win0_14.index t a * S2x256.size a + S2x256.size a := by
  show i ∈ ((View.whole main_v23_3).slice (win0_14.rect t)).set ↔ _
  rw [View.set_slice_whole, Rect.mem_set_unit]
  exact Iff.rfl

theorem cover14 (i : S2x256.Idx) :
    ∃ t : Fin cfg0.N, (cfg0.win 14).flush t = true ∧ i ∈ ((cfg0.win 14).blk t).view.set := by
  have hi0 : (i 0).val < 2 := (i 0).isLt
  have hi1 : (i 1).val < 256 := (i 1).isLt
  have hN : (63 : ℕ) < cfg0.N := by rw [show cfg0.N = 64 from N_0]; decide
  obtain ⟨e0, e1⟩ := idx14 ⟨63, hN⟩
  refine ⟨⟨63, hN⟩, (flush0_14 ⟨63, hN⟩).mpr rfl, ?_⟩
  rw [mem_blk14]
  intro a
  match a with
  | ⟨0, _⟩ => show win0_14.index ⟨63, hN⟩ (0 : Fin 2) * 2 ≤ (i 0).val ∧ (i 0).val < win0_14.index ⟨63, hN⟩ (0 : Fin 2) * 2 + 2; omega
  | ⟨1, _⟩ => show win0_14.index ⟨63, hN⟩ (1 : Fin 2) * 256 ≤ (i 1).val ∧ (i 1).val < win0_14.index ⟨63, hN⟩ (1 : Fin 2) * 256 + 256; omega

theorem final14 (c : Dev nD) : (dat V c).arrAt 14 cfg0.N = U4STATS (arrays V c) :=
  (dat V c).arrAt_eq_of_cover 14 (U4STATS (arrays V c)) (fun t _ => flushed14_eq V c t) cover14

end Cert.Kernel.Stack

end
-- ==== Proof.WDecodeStep.lean ====
/-
  A grid point of the decoder: from the scratch matrix as the points before left it, the kernel body runs to the
  invariant at the next point, the input blocks unchanged, the two output blocks at the block's inner products
  and normalised features.  At the first point the scratch matrix is first filled; at a later one it is read as found.
-/
import proofs.«181189_g481036337843_cont_8to1c4_37_6_alg».proof.Proof.WDecodeSpec
import Idealize.ShloMosaic.Lib.Pipeline.FrameBody
import Idealize.ShloMosaic.Lib.Pipeline.Value

set_option maxRecDepth 16384

noncomputable section

namespace Cert.Kernel.Decode

open Idealize.ShloMosaic Idealize.ShloMosaic.TcCoe Idealize.ShloMosaic.Tactic Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

namespace Aux

variable {Val : EltTy → Type} {e : EltTy}

/-- The row offset the kernel computes at block b is 512·b. -/
theorem off1_eq (i : grid1.Coords) : k1_off1 i = ![512 * (i 0).val, 0] := by
  have h : (i 0).val < 8 := (i 0).isLt
  unfold k1_off1
  simp only [Scalar.muli, IntOp.muli, Scalar.indexCast, BitVec.toNat_mul, BitVec.toNat_ofNat]
  congr 1
  omega

/-- The one-bit word the body branches on, from the grid coordinate. -/
abbrev cond (i : grid1.Coords) : Prop :=
  (Scalar.cmpi .ne (Scalar.extui (Scalar.cmpi .eq (BitVec.ofNat 32 (i 0).val) 0#32)) 0#32) = 1#1

/-- It is set at the first block, -/
theorem cond_of_zero (i : grid1.Coords) (hi : (i 0).val = 0) : cond i := by
  unfold cond; rw [hi]; decide

/-- and clear at every later one. -/
theorem not_cond_of_ne (i : grid1.Coords) (hi : (i 0).val ≠ 0) : ¬ cond i := by
  have h : (i 0).val < 8 := (i 0).isLt
  unfold cond
  generalize (i 0).val = n at *
  interval_cases n <;> first | exact absurd rfl hi | decide

/-- The zero offsets of a matrix, as the printed rectangles spell them. -/
theorem hz2 : (![0, 0] : Fin 2 → ℕ) = fun _ => 0 := by
  funext a; match a with | ⟨0, _⟩ => rfl | ⟨1, _⟩ => rfl

section Loads

variable {n0 n1 m : ℕ}

/-- A load of the whole matrix reads the contents. -/
theorem readAt_whole {sig : RefSig} {κ : Kind} {sp : Space} (v : View sig κ sp ⟨2, ![n0, n1]⟩ e) (f : v.ty.Contents Val)
    (X : (⟨2, ![n0, n1]⟩ : Shape).Idx → Val e) (hf : v.read Val f = X)
    (inb : ∀ a, (![0, 0] : Fin 2 → ℕ) a + (⟨2, ![n0, n1]⟩ : Shape).size a ≤ (⟨2, ![n0, n1]⟩ : Shape).size a) :
    v.readAt Val (Rect.unit (s := ⟨2, ![n0, n1]⟩) ![0, 0] (⟨2, ![n0, n1]⟩ : Shape).size inb).toLoadRect f = X := by
  rw [View.readAt_eq_ld, hf]; exact View.ld_unit_zero hz2 inb X

/-- One store of the whole matrix leaves its payload, whatever was there. -/
theorem read_store_whole [∀ e, Nonempty (Val e)] {sig : RefSig} {κ : Kind} {sp : Space} (v : View sig κ sp ⟨2, ![n0, n1]⟩ e)
    (f : v.ty.Contents Val) (w : (⟨2, ![n0, n1]⟩ : Shape).Idx → Val e)
    (inb : ∀ a, (![0, 0] : Fin 2 → ℕ) a + (⟨2, ![n0, n1]⟩ : Shape).size a ≤ (⟨2, ![n0, n1]⟩ : Shape).size a) :
    v.read Val (v.writes Val f [⟨Rect.unit (s := ⟨2, ![n0, n1]⟩) ![0, 0] (⟨2, ![n0, n1]⟩ : Shape).size inb, w⟩]) = w := by
  rw [View.read_writes_eq_canon _ _ _ (fun y => ⟨_, List.mem_singleton_self _, View.mem_set_unit_zero hz2 inb y⟩),
    View.canon_unit_zero hz2]

/-- The load of the first row of a two-row matrix. -/
theorem ld_row0 (X : (⟨2, ![2, m]⟩ : Shape).Idx → Val e)
    (inb : ∀ a, (![0, 0] : Fin 2 → ℕ) a + (![1, m] : Fin 2 → ℕ) a ≤ (⟨2, ![2, m]⟩ : Shape).size a) :
    View.ld X (Rect.unit (s := ⟨2, ![2, m]⟩) ![0, 0] ![1, m] inb) = row0 X := by
  funext y
  have h0 : (y 0).val < 1 := idx2_lt0 (n0 := 1) (n1 := m) y
  refine congrArg X ?_
  funext a
  match a with
  | ⟨0, _⟩ => exact Fin.ext (by show 0 + 1 * (y 0).val = 0; omega)
  | ⟨1, _⟩ => exact Fin.ext (by show 0 + 1 * (y 1).val = (y 1).val; omega)

/-- The load of its second row. -/
theorem ld_row1 (X : (⟨2, ![2, m]⟩ : Shape).Idx → Val e)
    (inb : ∀ a, (![1, 0] : Fin 2 → ℕ) a + (![1, m] : Fin 2 → ℕ) a ≤ (⟨2, ![2, m]⟩ : Shape).size a) :
    View.ld X (Rect.unit (s := ⟨2, ![2, m]⟩) ![1, 0] ![1, m] inb) = row1 X := by
  funext y
  have h0 : (y 0).val < 1 := idx2_lt0 (n0 := 1) (n1 := m) y
  refine congrArg X ?_
  funext a
  match a with
  | ⟨0, _⟩ => exact Fin.ext (by show 1 + 1 * (y 0).val = 1; omega)
  | ⟨1, _⟩ => exact Fin.ext (by show 0 + 1 * (y 1).val = (y 1).val; omega)

theorem readAt_row0 {sig : RefSig} {κ : Kind} {sp : Space} (v : View sig κ sp ⟨2, ![2, m]⟩ e) (f : v.ty.Contents Val)
    (X : (⟨2, ![2, m]⟩ : Shape).Idx → Val e) (hf : v.read Val f = X)
    (inb : ∀ a, (![0, 0] : Fin 2 → ℕ) a + (![1, m] : Fin 2 → ℕ) a ≤ (⟨2, ![2, m]⟩ : Shape).size a) :
    v.readAt Val (Rect.unit (s := ⟨2, ![2, m]⟩) ![0, 0] ![1, m] inb).toLoadRect f = row0 X := by
  rw [View.readAt_eq_ld, hf]; exact ld_row0 X inb

theorem readAt_row1 {sig : RefSig} {κ : Kind} {sp : Space} (v : View sig κ sp ⟨2, ![2, m]⟩ e) (f : v.ty.Contents Val)
    (X : (⟨2, ![2, m]⟩ : Shape).Idx → Val e) (hf : v.read Val f = X)
    (inb : ∀ a, (![1, 0] : Fin 2 → ℕ) a + (![1, m] : Fin 2 → ℕ) a ≤ (⟨2, ![2, m]⟩ : Shape).size a) :
    v.readAt Val (Rect.unit (s := ⟨2, ![2, m]⟩) ![1, 0] ![1, m] inb).toLoadRect f = row1 X := by
  rw [View.readAt_eq_ld, hf]; exact ld_row1 X inb

/-- The load of 512 rows from row 512·b on is row block b. -/
theorem ld_rowBlk (X : (⟨2, ![4096, m]⟩ : Shape).Idx → Val e) (b : Fin 8) (off : Fin 2 → ℕ) (hoff : off = ![512 * b.val, 0])
    (inb : ∀ a, off a + (![512, m] : Fin 2 → ℕ) a ≤ (⟨2, ![4096, m]⟩ : Shape).size a) :
    View.ld X (Rect.unit (s := ⟨2, ![4096, m]⟩) off ![512, m] inb) = rowBlk X b := by
  subst hoff
  funext y
  refine congrArg X ?_
  funext a
  match a with
  | ⟨0, _⟩ => exact Fin.ext (by show 512 * b.val + 1 * (y 0).val = 512 * b.val + (y 0).val; omega)
  | ⟨1, _⟩ => exact Fin.ext (by show 0 + 1 * (y 1).val = (y 1).val; omega)

theorem readAt_rowBlk {sig : RefSig} {κ : Kind} {sp : Space} (v : View sig κ sp ⟨2, ![4096, m]⟩ e) (f : v.ty.Contents Val)
    (X : (⟨2, ![4096, m]⟩ : Shape).Idx → Val e) (hf : v.read Val f = X) (b : Fin 8) (off : Fin 2 → ℕ)
    (hoff : off = ![512 * b.val, 0])
    (inb : ∀ a, off a + (![512, m] : Fin 2 → ℕ) a ≤ (⟨2, ![4096, m]⟩ : Shape).size a) :
    v.readAt Val (Rect.unit (s := ⟨2, ![4096, m]⟩) off ![512, m] inb).toLoadRect f = rowBlk X b := by
  rw [View.readAt_eq_ld, hf]; exact ld_rowBlk X b off hoff inb

end Loads

section Payloads

/-- The structure branch's affine map, over what the first block loads, is the normalised structure branch. -/
theorem pay1_eq (A : Arrays F) (arg1 : Memref sig .tc .vmem S4096x128 .f32) (arg2 : Memref sig .tc .vmem S2x128 .f32)
    (arg3 : Memref sig .tc .vmem S1x128 .f32) (arg4 : Memref sig .tc .vmem S1x128 .f32)
    (f1 : arg1.view.ty.Contents (Elt F)) (hf1 : arg1.view.read (Elt F) f1 = A.u3s)
    (f2 : arg2.view.ty.Contents (Elt F)) (hf2 : arg2.view.read (Elt F) f2 = A.s1stats)
    (f3 : arg3.view.ty.Contents (Elt F)) (hf3 : arg3.view.read (Elt F) f3 = A.gs1)
    (f4 : arg4.view.ty.Contents (Elt F)) (hf4 : arg4.view.read (Elt F) f4 = A.bs1)
    (i20 : ∀ a, (![0, 0] : Fin 2 → ℕ) a + S1x128.size a ≤ S2x128.size a)
    (i21 : ∀ a, (![1, 0] : Fin 2 → ℕ) a + S1x128.size a ≤ S2x128.size a)
    (i3 : ∀ a, (![0, 0] : Fin 2 → ℕ) a + S1x128.size a ≤ S1x128.size a)
    (i4 : ∀ a, (![0, 0] : Fin 2 → ℕ) a + S1x128.size a ≤ S1x128.size a)
    (i1 : ∀ a, (![0, 0] : Fin 2 → ℕ) a + S4096x128.size a ≤ S4096x128.size a) :
    k1_pay1 (arg2.view.readAt (Elt F) (Rect.unit (s := S2x128) ![0, 0] S1x128.size i20).toLoadRect f2)
      (arg2.view.readAt (Elt F) (Rect.unit (s := S2x128) ![1, 0] S1x128.size i21).toLoadRect f2)
      (arg3.view.readAt (Elt F) (Rect.unit (s := S1x128) ![0, 0] S1x128.size i3).toLoadRect f3)
      (arg4.view.readAt (Elt F) (Rect.unit (s := S1x128) ![0, 0] S1x128.size i4).toLoadRect f4)
      (arg1.view.readAt (Elt F) (Rect.unit (s := S4096x128) ![0, 0] S4096x128.size i1).toLoadRect f1) = S1N A := by
  have e0 := readAt_row0 (m := 128) arg2.view f2 _ hf2 i20
  have e1 := readAt_row1 (m := 128) arg2.view f2 _ hf2 i21
  have e2 := readAt_whole (n0 := 1) (n1 := 128) arg3.view f3 _ hf3 i3
  have e3 := readAt_whole (n0 := 1) (n1 := 128) arg4.view f4 _ hf4 i4
  have e4 := readAt_whole (n0 := 4096) (n1 := 128) arg1.view f1 _ hf1 i1
  unfold S1N
  exact e0 ▸ e1 ▸ e2 ▸ e3 ▸ e4 ▸ rfl

/-- The feature branch's affine map, over what a block loads, is the block's normalised features. -/
theorem pay3_eq (A : Arrays F) (b : Fin 8) (arg5 : Memref sig .tc .vmem S512x256 .f32) (arg6 : Memref sig .tc .vmem S2x256 .f32)
    (arg7 : Memref sig .tc .vmem S1x256 .f32) (arg8 : Memref sig .tc .vmem S1x256 .f32)
    (f5 : arg5.view.ty.Contents (Elt F)) (hf5 : arg5.view.read (Elt F) f5 = rowBlk A.u4 b)
    (f6 : arg6.view.ty.Contents (Elt F)) (hf6 : arg6.view.read (Elt F) f6 = A.u4stats)
    (f7 : arg7.view.ty.Contents (Elt F)) (hf7 : arg7.view.read (Elt F) f7 = A.gf2)
    (f8 : arg8.view.ty.Contents (Elt F)) (hf8 : arg8.view.read (Elt F) f8 = A.bf2)
    (i60 : ∀ a, (![0, 0] : Fin 2 → ℕ) a + S1x256.size a ≤ S2x256.size a)
    (i61 : ∀ a, (![1, 0] : Fin 2 → ℕ) a + S1x256.size a ≤ S2x256.size a)
    (i7 : ∀ a, (![0, 0] : Fin 2 → ℕ) a + S1x256.size a ≤ S1x256.size a)
    (i8 : ∀ a, (![0, 0] : Fin 2 → ℕ) a + S1x256.size a ≤ S1x256.size a)
    (i5 : ∀ a, (![0, 0] : Fin 2 → ℕ) a + S512x256.size a ≤ S512x256.size a) :
    k1_pay3 (arg6.view.readAt (Elt F) (Rect.unit (s := S2x256) ![0, 0] S1x256.size i60).toLoadRect f6)
      (arg6.view.readAt (Elt F) (Rect.unit (s := S2x256) ![1, 0] S1x256.size i61).toLoadRect f6)
      (arg7.view.readAt (Elt F) (Rect.unit (s := S1x256) ![0, 0] S1x256.size i7).toLoadRect f7)
      (arg8.view.readAt (Elt F) (Rect.unit (s := S1x256) ![0, 0] S1x256.size i8).toLoadRect f8)
      (arg5.view.readAt (Elt F) (Rect.unit (s := S512x256) ![0, 0] S512x256.size i5).toLoadRect f5) = f2B A b := by
  have e0 := readAt_row0 (m := 256) arg6.view f6 _ hf6 i60
  have e1 := readAt_row1 (m := 256) arg6.view f6 _ hf6 i61
  have e2 := readAt_whole (n0 := 1) (n1 := 256) arg7.view f7 _ hf7 i7
  have e3 := readAt_whole (n0 := 1) (n1 := 256) arg8.view f8 _ hf8 i8
  have e4 := readAt_whole (n0 := 512) (n1 := 256) arg5.view f5 _ hf5 i5
  unfold f2B
  exact e0 ▸ e1 ▸ e2 ▸ e3 ▸ e4 ▸ rfl

/-- The inner-product payload at equal operands. -/
theorem pay2_congr {a a' : Vec F S512x128 .f32} {b b' : Vec F S4096x128 .f32} (ha : a = a') (hb : b = b') :
    k1_pay2 a b = k1_pay2 a' b' := by subst ha hb; rfl

end Payloads

end Aux

theorem stepFirst (c : Dev nD) (E : Set ℕ) (i : grid1.Coords) (hi : (i 0).val = 0)
    (arg1 : Memref sig .tc .vmem S4096x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S512x256 .f32) (harg5 : arg5.IsWhole) (arg6 : Memref sig .tc .vmem S2x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S512x256 .f32) (harg9 : arg9.IsWhole) (arg10 : Memref sig .tc .vmem S512x4096 .f32) (harg10 : arg10.IsWhole)
    (A : Arrays F) (x4 : Vec F S512x256 .f32) (hx4 : x4 = rowBlk A.u4 (blkOf i))
    (d8 : Vec F S512x256 .f32) (d9 : Vec F S512x4096 .f32)
    (s1n : Vec F S4096x128 .f32) (hInv : Inv A (i 0).val s1n) (K : PUnit → sProp (𝕄1 F)) :
    iprop(ins c arg1 arg2 arg3 arg4 arg5 arg6 arg7 arg8 x4 A ∗ outs c arg9 arg10 d8 d9 ∗ scr c s1n
        ∗ (iprop(∃ s1n', ⌜Inv A ((i 0).val + 1) s1n'⌝ ∗ ins c arg1 arg2 arg3 arg4 arg5 arg6 arg7 arg8 x4 A
            ∗ outs c arg9 arg10 (f2B A (blkOf i)) (s2B A (blkOf i)) ∗ scr c s1n') -∗ K ⟨⟩))
      ⊢ wp frame (wpE (defs₀ (F := F)) Variants.none c none) E
          (cc1__decode_kernel i arg1 harg1 arg2 harg2 arg3 harg3 arg4 harg4 arg5 harg5 arg6 harg6 arg7 harg7 arg8 harg8 arg9 harg9 arg10 harg10 (Memref.whole cc1_scratch0) (Memref.isWhole_whole _)) K := by
  have hc := Aux.cond_of_zero i hi
  subst hx4
  simp only [cc1__decode_kernel_eq_skeleton]; unfold cc1__decode_kernel_skel
  simp only [k1_part1_eq_skeleton]; unfold k1_part1_skel
  unfold ins outs scr owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩⟩, ⟨%f11, %hf11, H11⟩, Hk⟩
  sl_exec (disch := exact hc)
  sl_step
  iapply Hk
  iexists (S1N A)
  isplitr
  · ipureintro; exact fun _ => rfl
  isplitl [H1 H2 H3 H4 H5 H6 H7 H8]
  · isplitl [H1]
    · iexists f1; isplitr
      · ipureintro; exact hf1
      iexact H1
    isplitl [H2]
    · iexists f2; isplitr
      · ipureintro; exact hf2
      iexact H2
    isplitl [H3]
    · iexists f3; isplitr
      · ipureintro; exact hf3
      iexact H3
    isplitl [H4]
    · iexists f4; isplitr
      · ipureintro; exact hf4
      iexact H4
    isplitl [H5]
    · iexists f5; isplitr
      · ipureintro; exact hf5
      iexact H5
    isplitl [H6]
    · iexists f6; isplitr
      · ipureintro; exact hf6
      iexact H6
    isplitl [H7]
    · iexists f7; isplitr
      · ipureintro; exact hf7
      iexact H7
    iexists f8; isplitr
    · ipureintro; exact hf8
    iexact H8
  isplitl [H9 H10]
  · isplitl [H9]
    · iexists _; isplitr
      swap
      · iexact H9
      ipureintro
      refine (Aux.read_store_whole (n0 := 512) (n1 := 256) _ _ _ _).trans ?_
      exact Aux.pay3_eq A (blkOf i) arg5 arg6 arg7 arg8 f5 hf5 f6 hf6 f7 hf7 f8 hf8 _ _ _ _ _
    · iexists _; isplitr
      swap
      · iexact H10
      ipureintro
      sl_unfold_words
      refine (Aux.read_store_whole (n0 := 512) (n1 := 4096) _ _ _ _).trans ?_
      have hp := Aux.pay1_eq A arg1 arg2 arg3 arg4 f1 hf1 f2 hf2 f3 hf3 f4 hf4
        inb_S2x128_S1x128_0_0 inb_S2x128_S1x128_1_0 inb_S1x128_S1x128_0_0 inb_S1x128_S1x128_0_0 inb_S4096x128_S4096x128_0_0
      unfold s2B
      refine Aux.pay2_congr ?_ ?_
      · refine Aux.readAt_rowBlk (Val := Elt F) (m := 128) _ _ (S1N A) ?_ (blkOf i) _ (Aux.off1_eq i) _
        exact (Aux.read_store_whole (Val := Elt F) (n0 := 4096) (n1 := 128) _ _ _ _).trans hp
      · exact (View.readCov_unit_zero (Val := Elt F) _ Aux.hz2 _ _).trans hp
  · iexists _; isplitr
    swap
    · iexact H11
    ipureintro
    sl_unfold_words
    refine (Aux.read_store_whole (n0 := 4096) (n1 := 128) _ _ _ _).trans ?_
    exact Aux.pay1_eq A arg1 arg2 arg3 arg4 f1 hf1 f2 hf2 f3 hf3 f4 hf4 _ _ _ _ _

theorem stepLater (c : Dev nD) (E : Set ℕ) (i : grid1.Coords) (hi : (i 0).val ≠ 0)
    (arg1 : Memref sig .tc .vmem S4096x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S512x256 .f32) (harg5 : arg5.IsWhole) (arg6 : Memref sig .tc .vmem S2x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S512x256 .f32) (harg9 : arg9.IsWhole) (arg10 : Memref sig .tc .vmem S512x4096 .f32) (harg10 : arg10.IsWhole)
    (A : Arrays F) (x4 : Vec F S512x256 .f32) (hx4 : x4 = rowBlk A.u4 (blkOf i))
    (d8 : Vec F S512x256 .f32) (d9 : Vec F S512x4096 .f32)
    (s1n : Vec F S4096x128 .f32) (hInv : Inv A (i 0).val s1n) (K : PUnit → sProp (𝕄1 F)) :
    iprop(ins c arg1 arg2 arg3 arg4 arg5 arg6 arg7 arg8 x4 A ∗ outs c arg9 arg10 d8 d9 ∗ scr c s1n
        ∗ (iprop(∃ s1n', ⌜Inv A ((i 0).val + 1) s1n'⌝ ∗ ins c arg1 arg2 arg3 arg4 arg5 arg6 arg7 arg8 x4 A
            ∗ outs c arg9 arg10 (f2B A (blkOf i)) (s2B A (blkOf i)) ∗ scr c s1n') -∗ K ⟨⟩))
      ⊢ wp frame (wpE (defs₀ (F := F)) Variants.none c none) E
          (cc1__decode_kernel i arg1 harg1 arg2 harg2 arg3 harg3 arg4 harg4 arg5 harg5 arg6 harg6 arg7 harg7 arg8 harg8 arg9 harg9 arg10 harg10 (Memref.whole cc1_scratch0) (Memref.isWhole_whole _)) K := by
  have hc := Aux.not_cond_of_ne i hi
  subst hx4
  obtain rfl : s1n = S1N A := hInv (Nat.one_le_iff_ne_zero.mpr hi)
  simp only [cc1__decode_kernel_eq_skeleton]; unfold cc1__decode_kernel_skel
  simp only [k1_part1_eq_skeleton]; unfold k1_part1_skel
  unfold ins outs scr owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩⟩, ⟨%f11, %hf11, H11⟩, Hk⟩
  sl_exec (disch := exact hc)
  sl_step
  iapply Hk
  iexists (S1N A)
  isplitr
  · ipureintro; exact fun _ => rfl
  isplitl [H1 H2 H3 H4 H5 H6 H7 H8]
  · isplitl [H1]
    · iexists f1; isplitr
      · ipureintro; exact hf1
      iexact H1
    isplitl [H2]
    · iexists f2; isplitr
      · ipureintro; exact hf2
      iexact H2
    isplitl [H3]
    · iexists f3; isplitr
      · ipureintro; exact hf3
      iexact H3
    isplitl [H4]
    · iexists f4; isplitr
      · ipureintro; exact hf4
      iexact H4
    isplitl [H5]
    · iexists f5; isplitr
      · ipureintro; exact hf5
      iexact H5
    isplitl [H6]
    · iexists f6; isplitr
      · ipureintro; exact hf6
      iexact H6
    isplitl [H7]
    · iexists f7; isplitr
      · ipureintro; exact hf7
      iexact H7
    iexists f8; isplitr
    · ipureintro; exact hf8
    iexact H8
  isplitl [H9 H10]
  · isplitl [H9]
    · iexists _; isplitr
      swap
      · iexact H9
      ipureintro
      refine (Aux.read_store_whole (n0 := 512) (n1 := 256) _ _ _ _).trans ?_
      exact Aux.pay3_eq A (blkOf i) arg5 arg6 arg7 arg8 f5 hf5 f6 hf6 f7 hf7 f8 hf8 _ _ _ _ _
    · iexists _; isplitr
      swap
      · iexact H10
      ipureintro
      refine (Aux.read_store_whole (n0 := 512) (n1 := 4096) _ _ _ _).trans ?_
      unfold s2B
      refine Aux.pay2_congr ?_ ?_
      · exact Aux.readAt_rowBlk (Val := Elt F) (m := 128) _ f11 (S1N A) hf11 (blkOf i) _ (Aux.off1_eq i) _
      · exact Aux.readAt_whole (Val := Elt F) (n0 := 4096) (n1 := 128) _ f11 (S1N A) hf11 _
  · iexists f11; isplitr
    · ipureintro; exact hf11
    iexact H11

end Cert.Kernel.Decode

end
-- ==== Proof.WDecodeOblig.lean ====
/-
  The body obligation of the decoder's pipeline: at every grid point the windows' staging buffers hold what the proof
  data says, the point is the first or a later one, and that case's run of the body gives the next invariant and what
  each window's buffer is left with.
-/
import proofs.«181189_g481036337843_cont_8to1c4_37_6_alg».proof.Proof.WDecodeData
import proofs.«181189_g481036337843_cont_8to1c4_37_6_alg».proof.Proof.WDecodeStep

set_option maxRecDepth 16384

noncomputable section

namespace Cert.Kernel.Decode

open Idealize.ShloMosaic Idealize.ShloMosaic.TcCoe Idealize.ShloMosaic.ValueIdx Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-! ## What the body finds in each input window's buffer -/

/-- An input window's current buffer holds its block at every point, fetched there or not: the block index has not
    moved since the fetch, the window is uncut and never idle, and the body leaves the block in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [dat_A]; try rfl) t d).trans
    (by unfold Dat.fetched Dat.blockOf iblk; rw [dat_A]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [dat_A]; try rfl) t d).trans
    (by unfold Dat.fetched Dat.blockOf iblk; rw [dat_A]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [dat_A]; try rfl) t d).trans
    (by unfold Dat.fetched Dat.blockOf iblk; rw [dat_A]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [dat_A]; try rfl) t d).trans
    (by unfold Dat.fetched Dat.blockOf iblk; rw [dat_A]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [dat_A]; try rfl) t d).trans
    (by unfold Dat.fetched Dat.blockOf iblk; rw [dat_A]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [dat_A]; try rfl) t d).trans
    (by unfold Dat.fetched Dat.blockOf iblk; rw [dat_A]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [dat_A]; try rfl) t d).trans
    (by unfold Dat.fetched Dat.blockOf iblk; rw [dat_A]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [dat_A]; try rfl) t d).trans
    (by unfold Dat.fetched Dat.blockOf iblk; rw [dat_A]; try rfl)

/-! ## The blocks against the arrays -/

/-- Window 0's block is its whole array: an element of the block at block index 0 sits at its own coordinates. -/
theorem iblk_0 (c : Dev nD) (t : Fin cfg1.N) : iblk V c 0 t = (arrays V c).u3s := by
  obtain ⟨⟨e0, e1⟩, -⟩ := idx_whole t
  funext y
  show V c main_v23_1 (((cfg1.win 0).blk t).view.emb y) = V c main_v23_1 y
  congr 1
  funext a; apply Fin.ext
  match a with
  | ⟨0, _⟩ => show win1_0.index t (0 : Fin 2) * 4096 + 1 * (y 0).val = (y 0).val; omega
  | ⟨1, _⟩ => show win1_0.index t (1 : Fin 2) * 128 + 1 * (y 1).val = (y 1).val; omega
/-- Window 1's block is its whole array: an element of the block at block index 0 sits at its own coordinates. -/
theorem iblk_1 (c : Dev nD) (t : Fin cfg1.N) : iblk V c 1 t = (arrays V c).s1stats := by
  obtain ⟨-, ⟨e0, e1⟩, -⟩ := idx_whole t
  funext y
  show V c main_v23_2 (((cfg1.win 1).blk t).view.emb y) = V c main_v23_2 y
  congr 1
  funext a; apply Fin.ext
  match a with
  | ⟨0, _⟩ => show win1_1.index t (0 : Fin 2) * 2 + 1 * (y 0).val = (y 0).val; omega
  | ⟨1, _⟩ => show win1_1.index t (1 : Fin 2) * 128 + 1 * (y 1).val = (y 1).val; omega
/-- Window 2's block is its whole array: an element of the block at block index 0 sits at its own coordinates. -/
theorem iblk_2 (c : Dev nD) (t : Fin cfg1.N) : iblk V c 2 t = (arrays V c).gs1 := by
  obtain ⟨-, -, ⟨e0, e1⟩, -⟩ := idx_whole t
  funext y
  show V c main_v21 (((cfg1.win 2).blk t).view.emb y) = V c main_v21 y
  congr 1
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega
/-- Window 3's block is its whole array: an element of the block at block index 0 sits at its own coordinates. -/
theorem iblk_3 (c : Dev nD) (t : Fin cfg1.N) : iblk V c 3 t = (arrays V c).bs1 := by
  obtain ⟨-, -, -, ⟨e0, e1⟩, -⟩ := idx_whole t
  funext y
  show V c main_v22 (((cfg1.win 3).blk t).view.emb y) = V c main_v22 y
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega
/-- Window 5's block is its whole array: an element of the block at block index 0 sits at its own coordinates. -/
theorem iblk_5 (c : Dev nD) (t : Fin cfg1.N) : iblk V c 5 t = (arrays V c).u4stats := by
  obtain ⟨-, -, -, -, ⟨e0, e1⟩, -⟩ := idx_whole t
  funext y
  show V c main_v23_3 (((cfg1.win 5).blk t).view.emb y) = V c main_v23_3 y
  congr 1
  funext a; apply Fin.ext
  match a with
  | ⟨0, _⟩ => show win1_5.index t (0 : Fin 2) * 2 + 1 * (y 0).val = (y 0).val; omega
  | ⟨1, _⟩ => show win1_5.index t (1 : Fin 2) * 256 + 1 * (y 1).val = (y 1).val; omega
/-- Window 6's block is its whole array: an element of the block at block index 0 sits at its own coordinates. -/
theorem iblk_6 (c : Dev nD) (t : Fin cfg1.N) : iblk V c 6 t = (arrays V c).gf2 := by
  obtain ⟨-, -, -, -, -, ⟨e0, e1⟩, -⟩ := idx_whole t
  funext y
  show V c main_v19 (((cfg1.win 6).blk t).view.emb y) = V c main_v19 y
  congr 1
  funext a; apply Fin.ext
  match a with
  | ⟨0, _⟩ => show win1_6.index t (0 : Fin 2) * 1 + 1 * (y 0).val = (y 0).val; omega
  | ⟨1, _⟩ => show win1_6.index t (1 : Fin 2) * 256 + 1 * (y 1).val = (y 1).val; omega
/-- Window 7's block is its whole array: an element of the block at block index 0 sits at its own coordinates. -/
theorem iblk_7 (c : Dev nD) (t : Fin cfg1.N) : iblk V c 7 t = (arrays V c).bf2 := by
  obtain ⟨-, -, -, -, -, -, e0, e1⟩ := idx_whole t
  funext y
  show V c main_v20 (((cfg1.win 7).blk t).view.emb y) = V c main_v20 y
  congr 1
  funext a; apply Fin.ext
  match a with
  | ⟨0, _⟩ => show win1_7.index t (0 : Fin 2) * 1 + 1 * (y 0).val = (y 0).val; omega
  | ⟨1, _⟩ => show win1_7.index t (1 : Fin 2) * 256 + 1 * (y 1).val = (y 1).val; omega
/-- The feature branch's block at point `t` is row block `t` of its array: an element sits at row 512·t + its row. -/
theorem iblk_4 (c : Dev nD) (t : Fin cfg1.N) : iblk V c 4 t = rowBlk (arrays V c).u4 (blkOf (grid1.coords t)) := by
  obtain ⟨⟨e0, e1⟩, -⟩ := idx_moving t
  funext y
  show V c main_v23_0 (((cfg1.win 4).blk t).view.emb y) = V c main_v23_0 (ix2 ⟨512 * (grid1.coords t 0).val + (y 0).val, _⟩ (y 1))
  congr 1
  funext a; apply Fin.ext
  match a with
  | ⟨0, _⟩ => show win1_4.index t (0 : Fin 2) * 512 + 1 * (y 0).val = 512 * (grid1.coords t 0).val + (y 0).val; omega
  | ⟨1, _⟩ => show win1_4.index t (1 : Fin 2) * 256 + 1 * (y 1).val = (y 1).val; omega

/-- The invariant at the two ends of point `t`, by the point's coordinate. -/
theorem Phi_castSucc (c : Dev nD) (t : Fin cfg1.N) : Phi V c t.castSucc.val = Phi V c (grid1.coords t 0).val := by
  rw [coord_eq]; rfl
theorem Phi_succ (c : Dev nD) (t : Fin cfg1.N) : Phi V c t.succ.val = Phi V c ((grid1.coords t 0).val + 1) := by
  rw [coord_eq]; rfl

/-! ## The body at a point -/

/-- A grid point of either kind: the first point's run or a later point's, by the point's coordinate. -/
theorem stepAny (c : Dev nD) (E : Set ℕ) (i : grid1.Coords)
    (arg1 : Memref sig .tc .vmem S4096x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S512x256 .f32) (harg5 : arg5.IsWhole) (arg6 : Memref sig .tc .vmem S2x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S512x256 .f32) (harg9 : arg9.IsWhole) (arg10 : Memref sig .tc .vmem S512x4096 .f32) (harg10 : arg10.IsWhole)
    (A : Arrays F) (x4 : Vec F S512x256 .f32) (hx4 : x4 = rowBlk A.u4 (blkOf i))
    (d8 : Vec F S512x256 .f32) (d9 : Vec F S512x4096 .f32)
    (s1n : Vec F S4096x128 .f32) (hInv : Inv A (i 0).val s1n) (K : PUnit → sProp (𝕄1 F)) :
    iprop(ins c arg1 arg2 arg3 arg4 arg5 arg6 arg7 arg8 x4 A ∗ outs c arg9 arg10 d8 d9 ∗ scr c s1n
        ∗ (iprop(∃ s1n', ⌜Inv A ((i 0).val + 1) s1n'⌝ ∗ ins c arg1 arg2 arg3 arg4 arg5 arg6 arg7 arg8 x4 A
            ∗ outs c arg9 arg10 (f2B A (blkOf i)) (s2B A (blkOf i)) ∗ scr c s1n') -∗ K ⟨⟩))
      ⊢ wp frame (wpE (defs₀ (F := F)) Variants.none c none) E
          (cc1__decode_kernel i arg1 harg1 arg2 harg2 arg3 harg3 arg4 harg4 arg5 harg5 arg6 harg6 arg7 harg7 arg8 harg8 arg9 harg9 arg10 harg10 (Memref.whole cc1_scratch0) (Memref.isWhole_whole _)) K := by
  by_cases hi : (i 0).val = 0
  · exact stepFirst c E i hi arg1 harg1 arg2 harg2 arg3 harg3 arg4 harg4 arg5 harg5 arg6 harg6 arg7 harg7 arg8 harg8 arg9 harg9 arg10 harg10 A x4 hx4 d8 d9 s1n hInv K
  · exact stepLater c E i hi arg1 harg1 arg2 harg2 arg3 harg3 arg4 harg4 arg5 harg5 arg6 harg6 arg7 harg7 arg8 harg8 arg9 harg9 arg10 harg10 A x4 hx4 d8 d9 s1n hInv K

/-- What the body is called with at point `t`: the invariant, what the core owes, and every window's current buffer
    at what it then holds, -/
def bodyPre (c : Dev nD) (t : Fin cfg1.N) : sProp (𝕄1 F) :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

/-- and what it returns. -/
def bodyPost (c : Dev nD) (t : Fin cfg1.N) : sProp (𝕄1 F) :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

/-- The body at any point: each input's buffer holds its block, which is its array (the feature branch's: the point's row
    block); the scratch matrix is as the invariant says; the point's run gives the next invariant, the inputs as they
    were and the two outputs at the block's results; the region's other scoped buffers and what the core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).owesAt () t.succ = (dat V c).owesAt () t.castSucc from rfl, dat_Phi, dat_Phi, Phi_castSucc, Phi_succ,
    after_0, after_1, after_2, after_3, after_4, after_5, after_6, after_7, after_8, after_9,
    iblk_0, iblk_1, iblk_2, iblk_3, iblk_4, iblk_5, iblk_6, iblk_7]
  unfold Phi
  iintro ⟨⟨⟨%s1n, %hInv, Hs⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepAny c Set.univ (grid1.coords t) _ _ _ _ _ _ _ _ _ _ _ _ _ _ _ _ _ _ _ _ (arrays V c) _ rfl _ _ s1n hInv _)
  unfold ins outs
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9]
  · isplitl [H8]; · iexact H8
    iexact H9
  isplitl [Hs]; · iexact Hs
  iintro ⟨%s1n', %hInv', ⟨G0, G1, G2, G3, G4, G5, G6, G7⟩, ⟨G8, G9⟩, Gs⟩
  isplitl [Gs Hrest]
  · isplitl [Gs]
    · iexists s1n'; isplitr; · ipureintro; exact hInv'
      iexact Gs
    iexact Hrest
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

/-- The body obligation at every grid point. -/
theorem body_obligation (c : Dev nD) : BodyObligation (dat (F := F) V c) (defs₀ (F := F)) Variants.none () Set.univ := fun t => by
  rw [bigSep_W1, bigSep_W1]
  exact sound_body V c t

end Cert.Kernel.Decode

end
-- ==== Proof.WKernelRun.lean ====
/-
  The idealized kernel program's run, with values: @main is the host operations, the graph-convolution stack's region
  and the decoder's region.  Every weakly fair execution from a memory with zero counters terminates; the two results
  end at the decoder's closed forms of the arrays the first region left, and every argument array ends as launched.
  The buffers between the segments are a fold from the launch memory: a region's arrays at what its write-backs leave,
  every other buffer as the region was entered.
-/
import proofs.«181189_g481036337843_cont_8to1c4_37_6_alg».proof.Proof.WKernelRunDefs
import proofs.«181189_g481036337843_cont_8to1c4_37_6_alg».proof.Proof.WStackOblig
import proofs.«181189_g481036337843_cont_8to1c4_37_6_alg».proof.Proof.WStackFinal
import proofs.«181189_g481036337843_cont_8to1c4_37_6_alg».proof.Proof.WDecodeOblig
import proofs.«181189_g481036337843_cont_8to1c4_37_6_alg».proof.Proof.Gen.Kernel.Regions
import Idealize.ShloMosaic.Lib.Pipeline.RegionsLoop

set_option maxRecDepth 16384

noncomputable section

namespace Cert.Kernel.Run

open Idealize.ShloMosaic Idealize.ShloMosaic.TcCoe Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-! ## Reading the fold: a region's array holds what its write-backs leave, any other buffer what the region found -/

theorem W2_arr (c : Dev nD) (w : Fin cfg0.W) :
    W2 m c (Proc.devRef .tc (Pipeline.arrRef spec0 w)) = (Stack.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (Decode.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- An array the first region only reads holds at its exit what it held at its entry: no write-back touches it. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((Stack.dat (V1 m) c).arrAt_in w hin _).trans (Stack.dat_A (V1 m) c w))

/-- At each region's exit its arrays hold what the pipeline leaves and every other buffer what it held at entry. -/
theorem hF0 (c : Dev nD) (w : Fin cfg0.W) : (Stack.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (Decode.dat (V2 m) c).arrAt w cfg1.N = W3 m c (Proc.devRef .tc (Pipeline.arrRef spec1 w)) :=
  (W3_arr m c w).symm
theorem hrest1 (c : Dev nD) : ∀ b : Ref sig .tc, b ∉ Finset.univ.image (Pipeline.arrRef spec1) → W3 m c (Proc.devRef .tc b) = V2 m c b :=
  fun b hb => W3_of_ne m c b fun w e => hb (Finset.mem_image.mpr ⟨w, Finset.mem_univ _, e⟩)

/-! ## What the second region finds: the first region's results, and the host's rows untouched -/

theorem V2_v23_0 (c : Dev nD) : V2 m c main_v23_0 = Stack.U4 (Stack.arrays (V1 m) c) :=
  (W2_arr m c 11).trans (Stack.final11 (V1 m) c)
theorem V2_v23_1 (c : Dev nD) : V2 m c main_v23_1 = Stack.U3S (Stack.arrays (V1 m) c) :=
  (W2_arr m c 12).trans (Stack.final12 (V1 m) c)
theorem V2_v23_2 (c : Dev nD) : V2 m c main_v23_2 = Stack.S1STATS (Stack.arrays (V1 m) c) :=
  (W2_arr m c 13).trans (Stack.final13 (V1 m) c)
theorem V2_v23_3 (c : Dev nD) : V2 m c main_v23_3 = Stack.U4STATS (Stack.arrays (V1 m) c) :=
  (W2_arr m c 14).trans (Stack.final14 (V1 m) c)
theorem V2_v19 (c : Dev nD) : V2 m c main_v19 = V1 m c main_v19 :=
  W2_of_ne m c main_v19 (by decide)
theorem V2_v20 (c : Dev nD) : V2 m c main_v20 = V1 m c main_v20 :=
  W2_of_ne m c main_v20 (by decide)
theorem V2_v21 (c : Dev nD) : V2 m c main_v21 = V1 m c main_v21 :=
  W2_of_ne m c main_v21 (by decide)
theorem V2_v22 (c : Dev nD) : V2 m c main_v22 = V1 m c main_v22 :=
  W2_of_ne m c main_v22 (by decide)

/-! ## The two results, and the arguments, read off the last boundary -/

theorem W3_v24_0 (c : Dev nD) : W3 m c (Proc.devRef .tc main_v24_0) = Decode.F2 (Decode.arrays (V2 m) c) :=
  (W3_arr m c 8).trans (Decode.final8 (V2 m) c)
theorem W3_v24_1 (c : Dev nD) : W3 m c (Proc.devRef .tc main_v24_1) = Decode.S2 (Decode.arrays (V2 m) c) :=
  (W3_arr m c 9).trans (Decode.final9 (V2 m) c)

/-- A buffer no host operation writes and no window of either region names ends as launched. -/
theorem W3_bypass (c : Dev nD) (b : Ref sig .tc) (h1 : b ∉ hostOps0_W) (h2 : ∀ w, Pipeline.arrRef spec0 w ≠ b)
    (h3 : ∀ w, Pipeline.arrRef spec1 w ≠ b) : W3 m c (Proc.devRef .tc b) = m ((c : Thread nD τ).loc b) :=
  (W3_of_ne m c b h3).trans <| (W2_of_ne m c b h2).trans <| (Gen.V1_of m c b h1).trans rfl

/-- An array the first region only reads, that no host operation writes and no window of the second region names,
    ends as launched. -/
theorem W3_read (c : Dev nD) (w : Fin cfg0.W) (hin : (cfg0.win w).isOut = false) (h1 : Pipeline.arrRef spec0 w ∉ hostOps0_W)
    (h3 : ∀ w', Pipeline.arrRef spec1 w' ≠ Pipeline.arrRef spec0 w) :
    W3 m c (Proc.devRef .tc (Pipeline.arrRef spec0 w)) = m ((c : Thread nD τ).loc (Pipeline.arrRef spec0 w)) :=
  (W3_of_ne m c _ h3).trans <| (W2_in m c w hin).trans <| (Gen.V1_of m c _ h1).trans rfl

/-! ## The proof data family and the thread state -/

/-- Every pipeline's proof data, each at its region's entry contents. -/
def pdats : (p : Fin 2) → (c : Dev nD) → Pipeline.Dat τ (Elt F) Unit ℕ (UR sig nD τ) ℕ (Pipeline.pin (pcfgs (F := F)) adm p) c
  | ⟨0, _⟩ => fun c => Stack.dat (V1 m) c
  | ⟨1, _⟩ => fun c => Decode.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing.  Neither region's invariant takes the register in: it bypasses both. -/
abbrev R (c : Dev nD) : sProp 𝕄 := iprop((∃ r, prngReg c r) ∗ ∃ W, owes (c : Thread nD τ) (0 : CellTallies nD τ sig Unit) W)
/-- The host operations as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W3 m c) ∗ ∃ r, prngReg c r)

/-! ## The regions as segments

Each region is entered from every unscoped buffer at the boundary's contents.  Its arrays are split out of them and put
back at the exit contents; the scoped buffers no window stages make its invariant at the first point and come back from
it at the last; the generator register and the other unscoped buffers bypass it; nothing is owed, and the kernel has no
semaphore of its own. -/

-- a library lemma stated over the pinned configuration unifies with the printed one only when unification may unfold
-- plain definitions in a metavariable's type
set_option backward.isDefEq.respectTransparency.types false in
/-- The graph-convolution stack's region: entered from the contents after the host operations, left at the fold's next
    boundary. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Stack.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := iprop(Pipeline.unscopedRest (Ix := Unit) (Name := ℕ) (U := UR sig nD τ) (Lvl := ℕ) spec0 c (V1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hPhi := Stack.Phi_in (V1 m) c
    rw [show (pdats m 0 c).Φ 0 = Stack.Phi (V1 m) c 0 from Stack.dat_Phi (V1 m) c 0]
    iintro ⟨-, -, Hr⟩
    iapply hPhi
    iexact Hr
  hout c := by
    have hPhi := Stack.Phi_out (V1 m) c
    rw [Pipeline.ownSems0_none, show (pdats m 0 c).Φ (Fin.last _) = Stack.Phi (V1 m) c cfg0.N from Stack.dat_Phi (V1 m) c (Fin.last _)]
    iintro H
    isplitr; · iempintro
    isplitr; · iempintro
    iapply hPhi
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- as for the first region: unification may unfold plain definitions in a metavariable's type
set_option backward.isDefEq.respectTransparency.types false in
/-- The decoder's region: entered from the contents the first region left, left at the last boundary, where the launch
    reads the results and the arguments. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Decode.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(emp)
  Y c := iprop(emp)
  Z c := iprop(Pipeline.unscopedRest (Ix := Unit) (Name := ℕ) (U := UR sig nD τ) (Lvl := ℕ) spec1 c (V2 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hPhi := Decode.Phi_in (V2 m) c
    rw [show (pdats m 1 c).Φ 0 = Decode.Phi (V2 m) c 0 from Decode.dat_Phi (V2 m) c 0]
    iintro ⟨-, -, Hr⟩
    iapply hPhi
    iexact Hr
  hout c := by
    have hPhi := Decode.Phi_out (V2 m) c
    rw [Pipeline.ownSems0_none, show (pdats m 1 c).Φ (Fin.last _) = Decode.Phi (V2 m) c cfg1.N from Decode.dat_Phi (V2 m) c (Fin.last _)]
    iintro H
    isplitr; · iempintro
    isplitr; · iempintro
    iapply hPhi
    iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (fun b => W3 m c (Proc.devRef .tc b)) ((pdats m 1 c).arrAt · cfg1.N) (hF1 m c) (hrest1 m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## @main as segments, and the launch -/

/-- @main's three segments in order: the host operations from the launch contents, then the two regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the segments: it is the chain of its items, and the segments' run is that chain. -/
theorem main_run (c : Dev nD) : main (F := F) c = Pipeline.Seg.run (segs m) := (main_chain c).trans (by chain_rfl)

/-! ## The run -/

-- the launch theorem's implicit arguments are found by unifying its conclusion with this one, which takes unfolding
-- plain definitions in a metavariable's type
set_option backward.isDefEq.respectTransparency.types false in
/-- Every weakly fair execution of @main terminates, nothing faulting; the two results end at the decoder's closed
    forms and the fifteen arguments as launched. -/
theorem run (ρ : Dev nD → PrngReg) :
    θ_run defs (onTc (τ := τ) (main (F := F))) ⟨m, fun _ => 0, ρ⟩ (fun r => ∀ c : Dev nD,
      r.2.mem ((c.tc : Thread nD τ).loc main_v24_0) = Decode.F2 (Decode.arrays (V2 m) c)
      ∧ r.2.mem ((c.tc : Thread nD τ).loc main_v24_1) = Decode.S2 (Decode.arrays (V2 m) c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  exact Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v24_0 (by decide))).trans (W3_v24_0 m c),
        (h c _ (mem_uc main_v24_1 (by decide))).trans (W3_v24_1 m c),
        (h c _ (mem_uc main_arg0 (by decide))).trans (W3_read m c 1 rfl (by decide) (by decide)),
        (h c _ (mem_uc main_arg1 (by decide))).trans (W3_read m c 0 rfl (by decide) (by decide)),
        (h c _ (mem_uc main_arg2 (by decide))).trans (W3_read m c 2 rfl (by decide) (by decide)),
        (h c _ (mem_uc main_arg3 (by decide))).trans (W3_bypass m c main_arg3 (by decide) (by decide) (by decide)),
        (h c _ (mem_uc main_arg4 (by decide))).trans (W3_bypass m c main_arg4 (by decide) (by decide) (by decide)),
        (h c _ (mem_uc main_arg5 (by decide))).trans (W3_bypass m c main_arg5 (by decide) (by decide) (by decide)),
        (h c _ (mem_uc main_arg6 (by decide))).trans (W3_bypass m c main_arg6 (by decide) (by decide) (by decide)),
        (h c _ (mem_uc main_arg7 (by decide))).trans (W3_bypass m c main_arg7 (by decide) (by decide) (by decide)),
        (h c _ (mem_uc main_arg8 (by decide))).trans (W3_bypass m c main_arg8 (by decide) (by decide) (by decide)),
        (h c _ (mem_uc main_arg9 (by decide))).trans (W3_read m c 9 rfl (by decide) (by decide)),
        (h c _ (mem_uc main_arg10 (by decide))).trans (W3_bypass m c main_arg10 (by decide) (by decide) (by decide)),
        (h c _ (mem_uc main_arg11 (by decide))).trans (W3_bypass m c main_arg11 (by decide) (by decide) (by decide)),
        (h c _ (mem_uc main_arg12 (by decide))).trans (W3_bypass m c main_arg12 (by decide) (by decide) (by decide)),
        (h c _ (mem_uc main_arg13 (by decide))).trans (W3_bypass m c main_arg13 (by decide) (by decide) (by decide)),
        (h c _ (mem_uc main_arg14 (by decide))).trans (W3_bypass m c main_arg14 (by decide) (by decide) (by decide))⟩)

end Cert.Kernel.Run

end
-- ==== Proof.StackSpec.lean ====
/-
  The graph-convolution stack (the first kernel region): what its scratch buffers and output blocks hold at each
  grid point, in closed form over the argument arrays, for any float instance.

  The region runs four stages of sixteen row blocks (256 rows each).  Stage `s` first builds a support matrix from the
  previous stage's whole activation (at its first block), then per block `b` multiplies rows `256·b … 256·b+255` of the
  adjacency with the support, rectifies, and stores the block; stages 1–3 also add the block's column sums and column
  sums of squares into two running rows.  Every value below is the corresponding term of the kernel body (the
  skeleton's payloads) applied to the values the earlier stages left.
-/
import proofs.«181189_g481036337843_cont_8to1c4_37_6_alg».proof.Proof.Gen.KernelIdeal.Skeleton
import Idealize.ShloMosaic.Lib.ValueIdx

noncomputable section

namespace Cert.KernelIdeal.Stack

open Idealize.ShloMosaic Idealize.ShloMosaic.ValueIdx Cert.KernelIdeal Cert.KernelIdeal.Gen

variable {F : FTy → Type} [FloatOps F]

/-! ## Row blocks and column halves of a matrix, for any entry type -/

section Blocks

variable {α : Type} {m : ℕ}

/-- Rows `256·b … 256·b+255` of a 4096-row matrix. -/
def rowBlk (A : (⟨2, ![4096, m]⟩ : Shape).Idx → α) (b : Fin 16) : (⟨2, ![256, m]⟩ : Shape).Idx → α :=
  fun y => A (ix2 ⟨256 * b.val + (y 0).val, by have := idx2_lt0 y; have := b.isLt; omega⟩ (y 1))

/-- The 4096-row matrix whose sixteen row blocks are given. -/
def asm16 (blk : Fin 16 → ((⟨2, ![256, m]⟩ : Shape).Idx → α)) : (⟨2, ![4096, m]⟩ : Shape).Idx → α :=
  fun j => blk ⟨(j 0).val / 256, by have := idx2_lt0 j; omega⟩ (ix2 ⟨(j 0).val % 256, Nat.mod_lt _ (by norm_num)⟩ (j 1))

/-- Columns `0 … 127` and `128 … 255` of a 256-column matrix. -/
def lcol {n : ℕ} (A : (⟨2, ![n, 256]⟩ : Shape).Idx → α) : (⟨2, ![n, 128]⟩ : Shape).Idx → α :=
  fun y => A (ix2 (y 0) ⟨(y 1).val, by have := idx2_lt1 y; omega⟩)
def rcol {n : ℕ} (A : (⟨2, ![n, 256]⟩ : Shape).Idx → α) : (⟨2, ![n, 128]⟩ : Shape).Idx → α :=
  fun y => A (ix2 (y 0) ⟨128 + (y 1).val, by have := idx2_lt1 y; omega⟩)
/-- Two 128-column matrices side by side. -/
def hcat {n : ℕ} (L R : (⟨2, ![n, 128]⟩ : Shape).Idx → α) : (⟨2, ![n, 256]⟩ : Shape).Idx → α :=
  fun j => if h : (j 1).val < 128 then L (ix2 (j 0) ⟨(j 1).val, h⟩)
    else R (ix2 (j 0) ⟨(j 1).val - 128, by have := idx2_lt1 j; omega⟩)
/-- Two rows stacked. -/
def vcat2 (top bot : (⟨2, ![1, m]⟩ : Shape).Idx → α) : (⟨2, ![2, m]⟩ : Shape).Idx → α :=
  fun j => if (j 0).val = 0 then top (ix2 0 (j 1)) else bot (ix2 0 (j 1))

/-- Two matrices agree on their first `256·k` rows. -/
def AgreeRows (f g : (⟨2, ![4096, m]⟩ : Shape).Idx → α) (k : ℕ) : Prop :=
  ∀ (r : Fin 4096) (c : Fin m), r.val < 256 * k → f (ix2 r c) = g (ix2 r c)

end Blocks

/-! ## The argument arrays as the region finds them -/

/-- The eleven arrays the region reads: the adjacency, the features, and the weights and batch-norm rows (the 64-wide
    layer's already padded to 128). -/
structure Arrays (F : FTy → Type) where
  adj : Vec F S4096x4096 .f32
  x : Vec F S4096x256 .f32
  w1 : Vec F S256x128 .f32
  w2 : Vec F S128x128 .f32
  g2 : Vec F S1x128 .f32
  b2 : Vec F S1x128 .f32
  wf1 : Vec F S128x128 .f32
  gf1 : Vec F S1x128 .f32
  bf1 : Vec F S1x128 .f32
  wf2 : Vec F S128x256 .f32
  ws1 : Vec F S128x128 .f32

variable (A : Arrays F)

/-! ## Stage 0: the adjacency parked in half precision, the first layer -/

def adjB (b : Fin 16) : Vec F S256x4096 .bf16 := k0_pay18 (rowBlk A.adj b)
def ADJ : Vec F S4096x4096 .bf16 := asm16 (adjB A)
def S0 : Vec F S4096x128 .bf16 := k0_pay12 A.x A.w1
def h1B (b : Fin 16) : Vec F S256x128 .f32 := k0_pay19 (adjB A b) (S0 A)
def H1 : Vec F S4096x128 .f32 := asm16 (h1B A)

/-! ## Stage 1: the second layer, with its running column sums -/

def S1 : Vec F S4096x128 .bf16 := k0_pay13 (H1 A) A.w2
def u2B (b : Fin 16) : Vec F S256x128 .f32 := k0_pay21 (adjB A b) (S1 A)
def U2 : Vec F S4096x128 .f32 := asm16 (u2B A)
/-- The running sum (left 128 columns) after the first `k` blocks. -/
def acc1s : ℕ → Vec F S1x128 .f32
  | 0 => lcol (k0_pay16 (F := F))
  | k + 1 => k0_pay22 (adjB A ⟨k % 16, Nat.mod_lt _ (by norm_num)⟩) (S1 A) (acc1s k)
def acc1q : ℕ → Vec F S1x128 .f32
  | 0 => lcol (k0_pay17 (F := F))
  | k + 1 => k0_pay23 (adjB A ⟨k % 16, Nat.mod_lt _ (by norm_num)⟩) (S1 A) (acc1q k)

/-! ## Stage 2: both decoders' first layers side by side -/

def S2a : Vec F S4096x128 .bf16 := k0_pay9 (acc1s A 16) (acc1q A 16) A.g2 A.b2 (U2 A) A.wf1
def S2b : Vec F S4096x128 .bf16 := k0_pay14 (k0_pay10 (acc1s A 16) (acc1q A 16) A.g2 A.b2 (U2 A) A.ws1)
def S2 : Vec F S4096x256 .bf16 := hcat (S2a A) (S2b A)
def u3B (b : Fin 16) : Vec F S256x256 .f32 := k0_pay2 (adjB A b) (S2 A)
def U3 : Vec F S4096x256 .f32 := asm16 (u3B A)
def acc2s : ℕ → Vec F S1x256 .f32
  | 0 => k0_pay16 (F := F)
  | k + 1 => k0_pay3 (adjB A ⟨k % 16, Nat.mod_lt _ (by norm_num)⟩) (S2 A) (acc2s k)
def acc2q : ℕ → Vec F S1x256 .f32
  | 0 => k0_pay17 (F := F)
  | k + 1 => k0_pay4 (adjB A ⟨k % 16, Nat.mod_lt _ (by norm_num)⟩) (S2 A) (acc2q k)

/-! ## Stage 3: the feature decoder's second layer; the structure branch handed on -/

/-- The structure branch's two statistics rows (right 128 columns of the stage-2 sums). -/
def S1STATS : Vec F S2x128 .f32 := vcat2 (rcol (acc2s A 16)) (rcol (acc2q A 16))
def S3 : Vec F S4096x256 .bf16 :=
  k0_pay15 (k0_pay11 (lcol (acc2s A 16)) (lcol (acc2q A 16)) A.gf1 A.bf1 (lcol (U3 A)) A.wf2)
def u4B (b : Fin 16) : Vec F S256x256 .f32 := k0_pay5 (adjB A b) (S3 A)
def U4 : Vec F S4096x256 .f32 := asm16 (u4B A)
def u3sB (b : Fin 16) : Vec F S256x128 .f32 := rowBlk (rcol (U3 A)) b
def U3S : Vec F S4096x128 .f32 := rcol (U3 A)
def acc3s : ℕ → Vec F S1x256 .f32
  | 0 => k0_pay16 (F := F)
  | k + 1 => k0_pay6 (adjB A ⟨k % 16, Nat.mod_lt _ (by norm_num)⟩) (S3 A) (acc3s k)
def acc3q : ℕ → Vec F S1x256 .f32
  | 0 => k0_pay17 (F := F)
  | k + 1 => k0_pay7 (adjB A ⟨k % 16, Nat.mod_lt _ (by norm_num)⟩) (S3 A) (acc3q k)
def U4STATS : Vec F S2x256 .f32 := vcat2 (acc3s A 16) (acc3q A 16)

/-! ## The scratch buffers between grid points -/

/-- The seven scratch buffers' contents. -/
structure St (F : FTy → Type) where
  adj : Vec F S4096x4096 .bf16
  s : Vec F S4096x256 .bf16
  h1 : Vec F S4096x128 .f32
  u2 : Vec F S4096x128 .f32
  u3 : Vec F S4096x256 .f32
  accs : Vec F S1x256 .f32
  accq : Vec F S1x256 .f32

/-- What the scratch buffers hold BEFORE grid point `t` (`t = 16·s + b`, `0 ≤ t ≤ 64`): the row blocks already stored
    agree with the closed forms; the support and the running sums are the current stage's. -/
def Inv (t : ℕ) (st : St F) : Prop :=
  AgreeRows st.adj (ADJ A) (min t 16)
  ∧ AgreeRows st.h1 (H1 A) (min t 16)
  ∧ AgreeRows st.u2 (U2 A) (min (t - 16) 16)
  ∧ AgreeRows st.u3 (U3 A) (min (t - 32) 16)
  ∧ (1 ≤ t ∧ t ≤ 16 → lcol st.s = S0 A)
  ∧ (17 ≤ t ∧ t ≤ 32 → lcol st.s = S1 A ∧ lcol st.accs = acc1s A (t - 16) ∧ lcol st.accq = acc1q A (t - 16))
  ∧ (33 ≤ t ∧ t ≤ 48 → st.s = S2 A ∧ st.accs = acc2s A (t - 32) ∧ st.accq = acc2q A (t - 32))
  ∧ (49 ≤ t ∧ t ≤ 64 → st.s = S3 A ∧ st.accs = acc3s A (t - 48) ∧ st.accq = acc3q A (t - 48))

theorem Inv_zero (st : St F) : Inv A 0 st := by
  refine ⟨fun r c h => absurd h (by simp), fun r c h => absurd h (by simp), fun r c h => absurd h (by simp),
    fun r c h => absurd h (by simp), fun h => absurd h.1 (by simp), fun h => absurd h.1 (by simp),
    fun h => absurd h.1 (by simp), fun h => absurd h.1 (by simp)⟩

end Cert.KernelIdeal.Stack

end
-- ==== Proof.StackRes.lean ====
/-
  The resources a grid point of the graph-convolution stack is run with: the eleven input blocks, the four output
  blocks and the seven scratch buffers, each owned whole at stated contents.
-/
import proofs.«181189_g481036337843_cont_8to1c4_37_6_alg».proof.Proof.StackSpec
import proofs.«181189_g481036337843_cont_8to1c4_37_6_alg».proof.Proof.Gen.KernelIdeal.Launch
import Idealize.ShloMosaic.Lib.Pipeline.Kit
import Idealize.ShloMosaic.Lib.Tactic

noncomputable section

namespace Cert.KernelIdeal.Stack

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.Sem

variable {F : FTy → Type} [FloatOps F]

/-- The separation-logic model every statement about the region is made in. -/
abbrev 𝕄0 (F : FTy → Type) [FloatOps F] : Type := MT nD τ sig Unit (Elt F) ℕ (UR sig nD τ) ℕ

/-- The row block a grid point works on: its second coordinate. -/
def blkOf (i : grid0.Coords) : Fin 16 := ⟨(i 1).val, (i 1).isLt⟩

/-- The eleven input blocks: the adjacency's current row block at `x0`, every other array whole. -/
def ins (c : Dev nD) (arg2 : Memref sig .tc .vmem S256x4096 .f32) (arg3 : Memref sig .tc .vmem S4096x256 .f32) (arg4 : Memref sig .tc .vmem S256x128 .f32) (arg5 : Memref sig .tc .vmem S128x128 .f32) (arg6 : Memref sig .tc .vmem S1x128 .f32) (arg7 : Memref sig .tc .vmem S1x128 .f32) (arg8 : Memref sig .tc .vmem S128x128 .f32) (arg9 : Memref sig .tc .vmem S1x128 .f32) (arg10 : Memref sig .tc .vmem S1x128 .f32) (arg11 : Memref sig .tc .vmem S128x256 .f32) (arg12 : Memref sig .tc .vmem S128x128 .f32)
    (x0 : Vec F S256x4096 .f32) (A : Arrays F) : sProp (𝕄0 F) :=
  iprop(owns (c : Thread nD τ) arg2 fullShare x0 ∗ owns (c : Thread nD τ) arg3 fullShare A.x ∗ owns (c : Thread nD τ) arg4 fullShare A.w1
    ∗ owns (c : Thread nD τ) arg5 fullShare A.w2 ∗ owns (c : Thread nD τ) arg6 fullShare A.g2 ∗ owns (c : Thread nD τ) arg7 fullShare A.b2
    ∗ owns (c : Thread nD τ) arg8 fullShare A.wf1 ∗ owns (c : Thread nD τ) arg9 fullShare A.gf1 ∗ owns (c : Thread nD τ) arg10 fullShare A.bf1
    ∗ owns (c : Thread nD τ) arg11 fullShare A.wf2 ∗ owns (c : Thread nD τ) arg12 fullShare A.ws1)

/-- The four output blocks at stated contents. -/
def outs (c : Dev nD) (arg13 : Memref sig .tc .vmem S256x256 .f32) (arg14 : Memref sig .tc .vmem S256x128 .f32) (arg15 : Memref sig .tc .vmem S2x128 .f32) (arg16 : Memref sig .tc .vmem S2x256 .f32)
    (o11 : Vec F S256x256 .f32) (o12 : Vec F S256x128 .f32) (o13 : Vec F S2x128 .f32) (o14 : Vec F S2x256 .f32) : sProp (𝕄0 F) :=
  iprop(owns (c : Thread nD τ) arg13 fullShare o11 ∗ owns (c : Thread nD τ) arg14 fullShare o12
    ∗ owns (c : Thread nD τ) arg15 fullShare o13 ∗ owns (c : Thread nD τ) arg16 fullShare o14)

/-- The seven scratch buffers at the contents `st`. -/
def scr (c : Dev nD) (st : St F) : sProp (𝕄0 F) :=
  iprop(owns (c : Thread nD τ) (Memref.whole cc0_scratch0) fullShare st.adj ∗ owns (c : Thread nD τ) (Memref.whole cc0_scratch1) fullShare st.s
    ∗ owns (c : Thread nD τ) (Memref.whole cc0_scratch2) fullShare st.h1 ∗ owns (c : Thread nD τ) (Memref.whole cc0_scratch3) fullShare st.u2
    ∗ owns (c : Thread nD τ) (Memref.whole cc0_scratch4) fullShare st.u3 ∗ owns (c : Thread nD τ) (Memref.whole cc0_scratch5) fullShare st.accs
    ∗ owns (c : Thread nD τ) (Memref.whole cc0_scratch6) fullShare st.accq)

end Cert.KernelIdeal.Stack

end
-- ==== Proof.StackData.lean ====
/-
  The proof data of the graph-convolution stack's pipeline: the arrays as the region finds them, what each window's
  staging buffer holds after the body at each grid point, the invariant between points (the scratch buffers at contents
  satisfying `Inv`, beside the region's other scoped buffers), and the invariant's two ends.
-/
import proofs.«181189_g481036337843_cont_8to1c4_37_6_alg».proof.Proof.StackRes
import proofs.«181189_g481036337843_cont_8to1c4_37_6_alg».proof.Proof.Gen.KernelIdeal.Points
import Idealize.ShloMosaic.Lib.Pipeline.FrameBody
import Idealize.ShloMosaic.Lib.Pipeline.Frame
import Idealize.ShloMosaic.Lib.Pipeline.Value

set_option maxRecDepth 16384

noncomputable section

namespace Cert.KernelIdeal.Stack

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
-- the TensorCore's buffer contents when the region is entered
variable (V : (c : Dev nD) → (b : Ref sig .tc) → Buf (Elt F) ((c : Thread nD τ).loc b))

/-- The region's eleven input arrays, read off the entry contents. -/
def arrays (c : Dev nD) : Arrays F where
  adj := V c main_arg1
  x := V c main_arg0
  w1 := V c main_arg2
  w2 := V c main_v2
  g2 := V c main_v6
  b2 := V c main_v10
  wf1 := V c main_v13
  gf1 := V c main_v17
  bf1 := V c main_v18
  wf2 := V c main_arg9
  ws1 := V c main_v16

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's scoped buffers that are not its scratch (the other region's staging buffers and scratch), each whole
    at some contents. -/
def rest (c : Dev nD) : sProp (𝕄0 F) :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg8_1), ((c : Thread nD τ).loc cc1_stg8_1) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg9_1), ((c : Thread nD τ).loc cc1_stg9_1) ↦{fullShare} f)
    ∗ (∃ f : Buf (Elt F) ((c : Thread nD τ).loc cc1_scratch0), ((c : Thread nD τ).loc cc1_scratch0) ↦{fullShare} f))

/-- The invariant before grid point `t`: the scratch buffers at some contents satisfying `Inv`, and the rest. -/
def Phi (c : Dev nD) (t : ℕ) : sProp (𝕄0 F) :=
  iprop((∃ st : St F, ⌜Inv (arrays V c) t st⌝ ∗ scr c st) ∗ rest c)

/-- The proof data of the pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => u4B (arrays V c) (blkOf (grid0.coords t))
    | ⟨12, _⟩ => u3sB (arrays V c) (blkOf (grid0.coords t))
    | ⟨13, _⟩ => S1STATS (arrays V c)
    | ⟨14, _⟩ => U4STATS (arrays V c)
  Φ t := Phi V c t.val
  q _ := fullShare
  owed _ := 0

theorem dat_A (c : Dev nD) (w : Fin cfg0.W) : (dat V c).A w = V c (Pipeline.arrRef spec0 w) := by
  dsimp only [dat]

theorem dat_Phi (c : Dev nD) (t : Fin (cfg0.N + 1)) : (dat V c).Φ t = Phi V c t.val := by
  dsimp only [dat]

/-- The invariant at the first point, from the region's scoped rest (every scratch buffer at some contents). -/
theorem Phi_in (c : Dev nD) :
    (Pipeline.scopedRest (Ix := Unit) (Name := ℕ) (U := UR sig nD τ) (Lvl := ℕ) (Val := Elt F) spec0 c : sProp (𝕄0 F)) ⊢ Phi V c 0 := by
  rw [Gen.scopedRest0_eq]
  unfold Phi rest scr
  simp only [owns_whole]
  iintro ⟨⟨%f0, H0⟩, ⟨%f1, H1⟩, ⟨%f2, H2⟩, ⟨%f3, H3⟩, ⟨%f4, H4⟩, ⟨%f5, H5⟩, ⟨%f6, H6⟩, Hrest⟩
  isplitr [Hrest]
  · iexists (⟨f0, f1, f2, f3, f4, f5, f6⟩ : St F)
    isplitr
    · ipureintro; exact Inv_zero _ _
    isplitl [H0]; · iexact H0
    isplitl [H1]; · iexact H1
    isplitl [H2]; · iexact H2
    isplitl [H3]; · iexact H3
    isplitl [H4]; · iexact H4
    isplitl [H5]; · iexact H5
    iexact H6
  · iexact Hrest

/-- The invariant at the last point gives the scoped rest back. -/
theorem Phi_out (c : Dev nD) :
    Phi V c cfg0.N ⊢ (Pipeline.scopedRest (Ix := Unit) (Name := ℕ) (U := UR sig nD τ) (Lvl := ℕ) (Val := Elt F) spec0 c : sProp (𝕄0 F)) := by
  rw [Gen.scopedRest0_eq]
  unfold Phi rest scr
  simp only [owns_whole]
  iintro ⟨⟨%st, -, H0, H1, H2, H3, H4, H5, H6⟩, Hrest⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexact Hrest

end Cert.KernelIdeal.Stack

end
-- ==== Proof.DecodeSpec.lean ====
/-
  The decoder (the second kernel region): eight row blocks of 512 rows.  At its first block it normalises the
  structure branch — an affine map per column from the two statistics rows — into a scratch matrix `s1n`; every
  block then stores `s1n[rows] · s1nᵀ` and the feature branch's normalised block.  Every value is the corresponding
  term of the kernel body (the skeleton's payloads), for any float instance.
-/
import proofs.«181189_g481036337843_cont_8to1c4_37_6_alg».proof.Proof.Gen.KernelIdeal.Skeleton
import proofs.«181189_g481036337843_cont_8to1c4_37_6_alg».proof.Proof.Gen.KernelIdeal.Launch
import Idealize.ShloMosaic.Lib.ValueIdx
import Idealize.ShloMosaic.Lib.Pipeline.Kit
import Idealize.ShloMosaic.Lib.Tactic

noncomputable section

namespace Cert.KernelIdeal.Decode

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.Sem

variable {F : FTy → Type} [FloatOps F]

section Blocks

variable {α : Type} {m : ℕ}

/-- Rows `512·b … 512·b+511` of a 4096-row matrix. -/
def rowBlk (A : (⟨2, ![4096, m]⟩ : Shape).Idx → α) (b : Fin 8) : (⟨2, ![512, m]⟩ : Shape).Idx → α :=
  fun y => A (ix2 ⟨512 * b.val + (y 0).val, by have := idx2_lt0 y; have := b.isLt; omega⟩ (y 1))
/-- The 4096-row matrix whose eight row blocks are given. -/
def asm8 (blk : Fin 8 → ((⟨2, ![512, m]⟩ : Shape).Idx → α)) : (⟨2, ![4096, m]⟩ : Shape).Idx → α :=
  fun j => blk ⟨(j 0).val / 512, by have := idx2_lt0 j; omega⟩ (ix2 ⟨(j 0).val % 512, Nat.mod_lt _ (by norm_num)⟩ (j 1))
/-- The two rows of a two-row matrix. -/
def row0 (v : (⟨2, ![2, m]⟩ : Shape).Idx → α) : (⟨2, ![1, m]⟩ : Shape).Idx → α := fun y => v (ix2 0 (y 1))
def row1 (v : (⟨2, ![2, m]⟩ : Shape).Idx → α) : (⟨2, ![1, m]⟩ : Shape).Idx → α := fun y => v (ix2 1 (y 1))

end Blocks

/-- The eight arrays the region reads. -/
structure Arrays (F : FTy → Type) where
  u3s : Vec F S4096x128 .f32
  s1stats : Vec F S2x128 .f32
  gs1 : Vec F S1x128 .f32
  bs1 : Vec F S1x128 .f32
  u4 : Vec F S4096x256 .f32
  u4stats : Vec F S2x256 .f32
  gf2 : Vec F S1x256 .f32
  bf2 : Vec F S1x256 .f32

variable (A : Arrays F)

/-- The normalised structure branch. -/
def S1N : Vec F S4096x128 .f32 := k1_pay1 (row0 A.s1stats) (row1 A.s1stats) A.gs1 A.bs1 A.u3s
/-- Block `b` of the inner-product output and of the normalised feature output. -/
def s2B (b : Fin 8) : Vec F S512x4096 .f32 := k1_pay2 (rowBlk (S1N A) b) (S1N A)
def f2B (b : Fin 8) : Vec F S512x256 .f32 := k1_pay3 (row0 A.u4stats) (row1 A.u4stats) A.gf2 A.bf2 (rowBlk A.u4 b)
def S2 : Vec F S4096x4096 .f32 := asm8 (s2B A)
def F2 : Vec F S4096x256 .f32 := asm8 (f2B A)

/-- What the scratch matrix holds before grid point `t`: from the second point on, the normalised structure branch. -/
def Inv (t : ℕ) (s1n : Vec F S4096x128 .f32) : Prop := 1 ≤ t → s1n = S1N A

theorem Inv_zero (s1n : Vec F S4096x128 .f32) : Inv A 0 s1n := fun h => absurd h (by simp)

/-- The separation-logic model every statement about the region is made in. -/
abbrev 𝕄1 (F : FTy → Type) [FloatOps F] : Type := MT nD τ sig Unit (Elt F) ℕ (UR sig nD τ) ℕ

/-- The row block a grid point works on. -/
def blkOf (i : grid1.Coords) : Fin 8 := ⟨(i 0).val, (i 0).isLt⟩

/-- The eight input blocks: the feature branch's current row block at `x4`, every other array whole. -/
def ins (c : Dev nD) (arg1 : Memref sig .tc .vmem S4096x128 .f32) (arg2 : Memref sig .tc .vmem S2x128 .f32)
    (arg3 : Memref sig .tc .vmem S1x128 .f32) (arg4 : Memref sig .tc .vmem S1x128 .f32) (arg5 : Memref sig .tc .vmem S512x256 .f32)
    (arg6 : Memref sig .tc .vmem S2x256 .f32) (arg7 : Memref sig .tc .vmem S1x256 .f32) (arg8 : Memref sig .tc .vmem S1x256 .f32)
    (x4 : Vec F S512x256 .f32) (A : Arrays F) : sProp (𝕄1 F) :=
  iprop(owns (c : Thread nD τ) arg1 fullShare A.u3s ∗ owns (c : Thread nD τ) arg2 fullShare A.s1stats ∗ owns (c : Thread nD τ) arg3 fullShare A.gs1
    ∗ owns (c : Thread nD τ) arg4 fullShare A.bs1 ∗ owns (c : Thread nD τ) arg5 fullShare x4 ∗ owns (c : Thread nD τ) arg6 fullShare A.u4stats
    ∗ owns (c : Thread nD τ) arg7 fullShare A.gf2 ∗ owns (c : Thread nD τ) arg8 fullShare A.bf2)

/-- The two output blocks at stated contents. -/
def outs (c : Dev nD) (arg9 : Memref sig .tc .vmem S512x256 .f32) (arg10 : Memref sig .tc .vmem S512x4096 .f32)
    (o8 : Vec F S512x256 .f32) (o9 : Vec F S512x4096 .f32) : sProp (𝕄1 F) :=
  iprop(owns (c : Thread nD τ) arg9 fullShare o8 ∗ owns (c : Thread nD τ) arg10 fullShare o9)

/-- The scratch matrix at contents `s1n`. -/
def scr (c : Dev nD) (s1n : Vec F S4096x128 .f32) : sProp (𝕄1 F) :=
  owns (c : Thread nD τ) (Memref.whole cc1_scratch0) fullShare s1n

end Cert.KernelIdeal.Decode

end
-- ==== Proof.DecodeData.lean ====
/-
  The proof data of the decoder's pipeline: the arrays as the region finds them, what each window's staging buffer
  holds after the body at each grid point, the invariant between points (the scratch matrix at contents satisfying
  `Inv`, beside the region's other scoped buffers), the invariant's two ends, and the two result arrays after the last write-back in closed form.
-/
import proofs.«181189_g481036337843_cont_8to1c4_37_6_alg».proof.Proof.DecodeSpec
import proofs.«181189_g481036337843_cont_8to1c4_37_6_alg».proof.Proof.Gen.KernelIdeal.Points
import Idealize.ShloMosaic.Lib.Pipeline.FrameBody
import Idealize.ShloMosaic.Lib.Pipeline.Frame
import Idealize.ShloMosaic.Lib.Pipeline.Value

set_option maxRecDepth 16384

noncomputable section

namespace Cert.KernelIdeal.Decode

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
-- the TensorCore's buffer contents when the region is entered
variable (V : (c : Dev nD) → (b : Ref sig .tc) → Buf (Elt F) ((c : Thread nD τ).loc b))

/-- The region's eight input arrays, read off the entry contents. -/
def arrays (c : Dev nD) : Arrays F where
  u3s := V c main_v23_1
  s1stats := V c main_v23_2
  gs1 := V c main_v21
  bs1 := V c main_v22
  u4 := V c main_v23_0
  u4stats := V c main_v23_3
  gf2 := V c main_v19
  bf2 := V c main_v20

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The invariant before grid point `t`: the scratch matrix at some contents satisfying `Inv`, and the region's other
    scoped buffers unopened. -/
def Phi (c : Dev nD) (t : ℕ) : sProp (𝕄1 F) :=
  iprop((∃ s1n : Vec F S4096x128 .f32, ⌜Inv (arrays V c) t s1n⌝ ∗ scr c s1n)
    ∗ Pipeline.scopedRestBut (Ix := Unit) (Name := ℕ) (U := UR sig nD τ) (Lvl := ℕ) (Val := Elt F) spec1 c [cc1_scratch0])

/-- The proof data of the pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => f2B (arrays V c) (blkOf (grid1.coords t))
    | ⟨9, _⟩ => s2B (arrays V c) (blkOf (grid1.coords t))
  Φ t := Phi V c t.val
  q _ := fullShare
  owed _ := 0

theorem dat_A (c : Dev nD) (w : Fin cfg1.W) : (dat V c).A w = V c (Pipeline.arrRef spec1 w) := by
  dsimp only [dat]

theorem dat_Phi (c : Dev nD) (t : Fin (cfg1.N + 1)) : (dat V c).Φ t = Phi V c t.val := by
  dsimp only [dat]

/-! ## The grid and the windows' block indices -/

/-- The grid has one axis: a point's coordinate is its number. -/
theorem coord_eq : ∀ t : Fin cfg1.N, (grid1.coords t 0).val = t.val :=
  (by decide +kernel : ∀ t : Fin grid1.N, (grid1.coords t 0).val = t.val)

/-- The seven whole-array windows stay at block (0, 0). -/
theorem idx_whole : ∀ t : Fin cfg1.N, (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- The feature branch's window and the two output windows are at row block `t`, column block 0. -/
theorem idx_moving : ∀ t : Fin cfg1.N, (win1_4.index t (0 : Fin 2) = (grid1.coords t 0).val ∧ win1_4.index t (1 : Fin 2) = 0)
    ∧ (win1_8.index t (0 : Fin 2) = (grid1.coords t 0).val ∧ win1_8.index t (1 : Fin 2) = 0)
    ∧ (win1_9.index t (0 : Fin 2) = (grid1.coords t 0).val ∧ win1_9.index t (1 : Fin 2) = 0) :=
  (by decide +kernel : ∀ t : Fin grid1.N, _)

/-! ## What the body leaves in each window's buffer -/

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = f2B (arrays V c) (blkOf (grid1.coords t)) := by dsimp only [dat]
theorem after_9 (c : Dev nD) (t : Fin cfg1.N) : (dat V c).after 9 t = s2B (arrays V c) (blkOf (grid1.coords t)) := by dsimp only [dat]

/-! ## The invariant's two ends -/

/-- The invariant at the first point, from the region's scoped rest (the scratch matrix at some contents). -/
theorem Phi_in (c : Dev nD) :
    (Pipeline.scopedRest (Ix := Unit) (Name := ℕ) (U := UR sig nD τ) (Lvl := ℕ) (Val := Elt F) spec1 c : sProp (𝕄1 F)) ⊢ Phi V c 0 := by
  rw [Gen.scopedRest1_split]
  unfold Phi
  iintro ⟨⟨%f, H⟩, Hrest⟩
  isplitl [H]
  · iexists f
    isplitr
    · ipureintro; exact Inv_zero _ _
    unfold scr; rw [owns_whole]; iexact H
  iexact Hrest

/-- The invariant at the last point gives the scoped rest back. -/
theorem Phi_out (c : Dev nD) :
    Phi V c cfg1.N ⊢ (Pipeline.scopedRest (Ix := Unit) (Name := ℕ) (U := UR sig nD τ) (Lvl := ℕ) (Val := Elt F) spec1 c : sProp (𝕄1 F)) := by
  rw [Gen.scopedRest1_split]
  unfold Phi
  iintro ⟨⟨%s1n, -, H⟩, Hrest⟩
  isplitl [H]
  · iexists s1n
    iapply (show scr c s1n ⊢ (((c : Thread nD τ).loc cc1_scratch0) ↦{fullShare} s1n : sProp (𝕄1 F)) from by unfold scr; rw [owns_whole])
    iexact H
  iexact Hrest

/-! ## The result arrays after the last write-back -/

/-- A matrix assembled from eight row blocks, read at row 512·b + r, is block `b` at row `r`. -/
theorem asm8_at {α : Type} {m : ℕ} (blk : Fin 8 → ((⟨2, ![512, m]⟩ : Shape).Idx → α)) (b : Fin 8)
    (y : (⟨2, ![512, m]⟩ : Shape).Idx) (i : (⟨2, ![4096, m]⟩ : Shape).Idx)
    (h0 : (i 0).val = b.val * 512 + (y 0).val) (h1 : (i 1).val = (y 1).val) : asm8 blk i = blk b y := by
  have hy := idx2_lt0 y
  have key : ∀ (p : Fin 8) (q : (⟨2, ![512, m]⟩ : Shape).Idx), p = b → q = y → blk p q = blk b y := by
    rintro _ _ rfl rfl; rfl
  unfold asm8
  refine key _ _ (Fin.ext ?_) (funext fun a => ?_)
  · show (i 0).val / 512 = b.val; omega
  · match a with
    | ⟨0, _⟩ => exact Fin.ext (show (i 0).val % 512 = (y 0).val by omega)
    | ⟨1, _⟩ => exact Fin.ext h1

/-- What point `t` writes back to output window 8's array is block `t` of the assembled matrix: an element of the block
    sits at row 512·t + its row, and that row of the assembled matrix is block `t`'s. -/
theorem flushed_8 (c : Dev nD) (t : Fin cfg1.N) :
    (dat V c).flushed 8 t = ((cfg1.win 8).blk t).view.read (Elt F) (F2 (arrays V c)) := by
  obtain ⟨-, ⟨e0, e1⟩, -⟩ := idx_moving t
  show (cfg1.win 8).cut (grid1.coords t) ((dat V c).after 8 t) = _
  rw [after_8]
  funext y
  show f2B (arrays V c) (blkOf (grid1.coords t)) y = F2 (arrays V c) (((cfg1.win 8).blk t).view.emb y)
  unfold F2
  refine (asm8_at (α := Elt F .f32) (m := 256) (f2B (arrays V c)) (blkOf (grid1.coords t)) y _ ?_ ?_).symm
  · show win1_8.index t (0 : Fin 2) * 512 + 1 * (y 0).val = (grid1.coords t 0).val * 512 + (y 0).val; omega
  · show win1_8.index t (1 : Fin 2) * 256 + 1 * (y 1).val = (y 1).val; omega

/-- An index of the array is in point `t`'s block iff each coordinate is in the block's range on its axis. -/
theorem mem_blk_8 (t : Fin cfg1.N) (i : S4096x256.Idx) :
    i ∈ ((cfg1.win 8).blk t).view.set ↔ ∀ a : Fin 2, win1_8.index t a * S512x256.size a ≤ (i a).val ∧ (i a).val < win1_8.index t a * S512x256.size a + S512x256.size a := by
  show i ∈ ((View.whole main_v24_0).slice (win1_8.rect t)).set ↔ _
  rw [View.set_slice_whole, Rect.mem_set_unit]
  exact Iff.rfl

/-- Every row of the array is in some point's block: row `r` in point `r / 512`'s, and every point writes back. -/
theorem cover_8 (i : S4096x256.Idx) : ∃ t : Fin cfg1.N, (cfg1.win 8).flush t = true ∧ i ∈ ((cfg1.win 8).blk t).view.set := by
  have hi0 : (i 0).val < 4096 := (i 0).isLt
  have hi1 : (i 1).val < 256 := (i 1).isLt
  obtain ⟨t, ht⟩ : ∃ t : Fin grid1.N, t.val = (i 0).val / 512 := ⟨⟨(i 0).val / 512, by rw [N_1]; omega⟩, rfl⟩
  obtain ⟨-, ⟨e0, e1⟩, -⟩ := idx_moving t
  have hc := coord_eq t
  refine ⟨t, flush1_8 t, ?_⟩
  rw [mem_blk_8]
  intro a
  match a with
  | ⟨0, _⟩ => show win1_8.index t (0 : Fin 2) * 512 ≤ (i 0).val ∧ (i 0).val < win1_8.index t (0 : Fin 2) * 512 + 512; omega
  | ⟨1, _⟩ => show win1_8.index t (1 : Fin 2) * 256 ≤ (i 1).val ∧ (i 1).val < win1_8.index t (1 : Fin 2) * 256 + 256; omega

/-- What point `t` writes back to output window 9's array is block `t` of the assembled matrix: an element of the block
    sits at row 512·t + its row, and that row of the assembled matrix is block `t`'s. -/
theorem flushed_9 (c : Dev nD) (t : Fin cfg1.N) :
    (dat V c).flushed 9 t = ((cfg1.win 9).blk t).view.read (Elt F) (S2 (arrays V c)) := by
  obtain ⟨-, -, e0, e1⟩ := idx_moving t
  show (cfg1.win 9).cut (grid1.coords t) ((dat V c).after 9 t) = _
  rw [after_9]
  funext y
  show s2B (arrays V c) (blkOf (grid1.coords t)) y = S2 (arrays V c) (((cfg1.win 9).blk t).view.emb y)
  unfold S2
  refine (asm8_at (α := Elt F .f32) (m := 4096) (s2B (arrays V c)) (blkOf (grid1.coords t)) y _ ?_ ?_).symm
  · show win1_9.index t (0 : Fin 2) * 512 + 1 * (y 0).val = (grid1.coords t 0).val * 512 + (y 0).val; omega
  · show win1_9.index t (1 : Fin 2) * 4096 + 1 * (y 1).val = (y 1).val; omega

/-- An index of the array is in point `t`'s block iff each coordinate is in the block's range on its axis. -/
theorem mem_blk_9 (t : Fin cfg1.N) (i : S4096x4096.Idx) :
    i ∈ ((cfg1.win 9).blk t).view.set ↔ ∀ a : Fin 2, win1_9.index t a * S512x4096.size a ≤ (i a).val ∧ (i a).val < win1_9.index t a * S512x4096.size a + S512x4096.size a := by
  show i ∈ ((View.whole main_v24_1).slice (win1_9.rect t)).set ↔ _
  rw [View.set_slice_whole, Rect.mem_set_unit]
  exact Iff.rfl

/-- Every row of the array is in some point's block: row `r` in point `r / 512`'s, and every point writes back. -/
theorem cover_9 (i : S4096x4096.Idx) : ∃ t : Fin cfg1.N, (cfg1.win 9).flush t = true ∧ i ∈ ((cfg1.win 9).blk t).view.set := by
  have hi0 : (i 0).val < 4096 := (i 0).isLt
  have hi1 : (i 1).val < 4096 := (i 1).isLt
  obtain ⟨t, ht⟩ : ∃ t : Fin grid1.N, t.val = (i 0).val / 512 := ⟨⟨(i 0).val / 512, by rw [N_1]; omega⟩, rfl⟩
  obtain ⟨-, -, e0, e1⟩ := idx_moving t
  have hc := coord_eq t
  refine ⟨t, flush1_9 t, ?_⟩
  rw [mem_blk_9]
  intro a
  match a with
  | ⟨0, _⟩ => show win1_9.index t (0 : Fin 2) * 512 ≤ (i 0).val ∧ (i 0).val < win1_9.index t (0 : Fin 2) * 512 + 512; omega
  | ⟨1, _⟩ => show win1_9.index t (1 : Fin 2) * 4096 ≤ (i 1).val ∧ (i 1).val < win1_9.index t (1 : Fin 2) * 4096 + 4096; omega

theorem final8 (c : Dev nD) : (dat V c).arrAt 8 cfg1.N = F2 (arrays V c) :=
  (dat V c).arrAt_eq_of_cover 8 (F2 (arrays V c)) (fun t _ => flushed_8 V c t) cover_8
theorem final9 (c : Dev nD) : (dat V c).arrAt 9 cfg1.N = S2 (arrays V c) :=
  (dat V c).arrAt_eq_of_cover 9 (S2 (arrays V c)) (fun t _ => flushed_9 V c t) cover_9

end Cert.KernelIdeal.Decode

end
-- ==== Proof.KernelRunDefs.lean ====
/-
  The TensorCore's buffer contents at the two kernel regions' entries, as folds from the launch memory: after the
  host operations that pad the 64-wide layer's weights and reshape the batch-norm rows, and then after the first
  region's write-backs.
-/
import proofs.«181189_g481036337843_cont_8to1c4_37_6_alg».proof.Proof.StackData
import proofs.«181189_g481036337843_cont_8to1c4_37_6_alg».proof.Proof.DecodeData
import Idealize.ShloMosaic.Lib.Pipeline.FrameSuffix

noncomputable section

namespace Cert.KernelIdeal.Run

open Idealize.ShloMosaic Idealize.ShloMosaic.TcCoe Cert.KernelIdeal Cert.KernelIdeal.Gen
open Idealize.SL Idealize.SL.Sem

variable {F : FTy → Type} [FloatOps F]
variable (m : (ℓ : Loc nD τ sig) → Buf (Elt F) ℓ)

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
/-- The same read at the TensorCore's references: what the first region's proof data take. -/
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (Stack.dat (V1 m) c).arrAt w cfg0.N
/-- The same read at the TensorCore's references: what the second region's proof data take. -/
abbrev V2 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (Decode.dat (V2 m) c).arrAt w cfg1.N

end Cert.KernelIdeal.Run

end
-- ==== Proof.StackObligFacts.lean ====
/-
  Facts about the graph-convolution stack's pipeline that its body obligation is assembled from.

  * The schedule, decided over the 64 grid points: a point's number from its coordinates, where each output window is
    idle and where it is written back, and the adjacency window's block index.
  * What the proof data says each window's staging buffer holds after the body, window by window.
  * Every input window's current staging buffer holds its block at every point, fetched there or not; the block of a
    whole-array window is the array, and the adjacency window's block in stage 0 is the point's row block.
  * The third output window (the structure branch's statistics), written once at point 48 and written back at point
    63, holds that value at every point in between.
  * How a staging buffer's contents after the body meet what the obligation asks of the window at the point.
-/
import proofs.«181189_g481036337843_cont_8to1c4_37_6_alg».proof.Proof.StackData

set_option maxRecDepth 16384

noncomputable section

namespace Cert.KernelIdeal.Stack

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-! ## The schedule -/

/-- A grid point's number is sixteen times its stage plus its row block. -/
theorem pt_coords : ∀ t : Fin cfg0.N, t.val = 16 * (grid0.coords t 0).val + (grid0.coords t 1).val :=
  (by decide +kernel : ∀ t : Fin grid0.N, t.val = 16 * (grid0.coords t 0).val + (grid0.coords t 1).val)

/-- The two activation outputs are idle before stage 3, -/
theorem idle_11 : ∀ t : Fin cfg0.N, cfg0.idle 11 (cfg0.grid.coords t) = decide (t.val < 48) :=
  (by decide +kernel : ∀ t : Fin grid0.N, idle0 11 (grid0.coords t) = decide (t.val < 48))
theorem idle_12 : ∀ t : Fin cfg0.N, cfg0.idle 12 (cfg0.grid.coords t) = decide (t.val < 48) :=
  (by decide +kernel : ∀ t : Fin grid0.N, idle0 12 (grid0.coords t) = decide (t.val < 48))
/-- the structure branch's statistics everywhere but at point 48, the final statistics everywhere but at point 63. -/
theorem idle_13 : ∀ t : Fin cfg0.N, cfg0.idle 13 (cfg0.grid.coords t) = decide (t.val ≠ 48) :=
  (by decide +kernel : ∀ t : Fin grid0.N, idle0 13 (grid0.coords t) = decide (t.val ≠ 48))
theorem idle_14 : ∀ t : Fin cfg0.N, cfg0.idle 14 (cfg0.grid.coords t) = decide (t.val ≠ 63) :=
  (by decide +kernel : ∀ t : Fin grid0.N, idle0 14 (grid0.coords t) = decide (t.val ≠ 63))
/-- The activation outputs are written back at every point of stage 3, the statistics at the last point. -/
theorem flush_11 : ∀ t : Fin cfg0.N, (cfg0.win 11).flush t = decide (48 ≤ t.val) :=
  (by decide +kernel : ∀ t : Fin grid0.N, win0_11.flush t = decide (48 ≤ t.val))
theorem flush_12 : ∀ t : Fin cfg0.N, (cfg0.win 12).flush t = decide (48 ≤ t.val) :=
  (by decide +kernel : ∀ t : Fin grid0.N, win0_12.flush t = decide (48 ≤ t.val))
theorem flush_13 : ∀ t : Fin cfg0.N, (cfg0.win 13).flush t = decide (t.val = 63) :=
  (by decide +kernel : ∀ t : Fin grid0.N, win0_13.flush t = decide (t.val = 63))
theorem flush_14 : ∀ t : Fin cfg0.N, (cfg0.win 14).flush t = decide (t.val = 63) :=
  (by decide +kernel : ∀ t : Fin grid0.N, win0_14.flush t = decide (t.val = 63))
/-- The adjacency window's block index: the point's row block in stage 0, the last block afterwards. -/
theorem index_0 : ∀ t : Fin cfg0.N,
    win0_0.index t (0 : Fin 2) = (if (grid0.coords t 0).val = 0 then (grid0.coords t 1).val else 15) ∧ win0_0.index t (1 : Fin 2) = 0 :=
  (by decide +kernel : ∀ t : Fin grid0.N, _)

/-! ## What the proof data leaves in each window's buffer -/

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = u4B (arrays V c) (blkOf (grid0.coords t)) := by dsimp only [dat]
theorem after_12 (c : Dev nD) (t : Fin cfg0.N) : (dat V c).after 12 t = u3sB (arrays V c) (blkOf (grid0.coords t)) := by dsimp only [dat]
theorem after_13 (c : Dev nD) (t : Fin cfg0.N) : (dat V c).after 13 t = S1STATS (arrays V c) := by dsimp only [dat]
theorem after_14 (c : Dev nD) (t : Fin cfg0.N) : (dat V c).after 14 t = U4STATS (arrays V c) := by dsimp only [dat]

/-! ## The input windows: the buffer holds the block, fetched there or not -/

theorem before_blk_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [dat_A]; try rfl) t d).trans
    (by unfold Dat.fetched Dat.blockOf iblk; rw [dat_A]; try rfl)
theorem before_blk_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [dat_A]; try rfl) t d).trans
    (by unfold Dat.fetched Dat.blockOf iblk; rw [dat_A]; try rfl)
theorem before_blk_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [dat_A]; try rfl) t d).trans
    (by unfold Dat.fetched Dat.blockOf iblk; rw [dat_A]; try rfl)
theorem before_blk_3 (c : Dev nD) (t : Fin cfg0.N) (d) : (dat V c).before 3 t d = iblk V c 3 t :=
  ((dat V c).before_in_eq_fetched 3 rfl (fun _ => rfl) (fun _ _ _ => rfl)
      (fun t => by rw [after_3]; unfold Dat.blockOf iblk; rw [dat_A]; try rfl) t d).trans
    (by unfold Dat.fetched Dat.blockOf iblk; rw [dat_A]; try rfl)
theorem before_blk_4 (c : Dev nD) (t : Fin cfg0.N) (d) : (dat V c).before 4 t d = iblk V c 4 t :=
  ((dat V c).before_in_eq_fetched 4 rfl (fun _ => rfl) (fun _ _ _ => rfl)
      (fun t => by rw [after_4]; unfold Dat.blockOf iblk; rw [dat_A]; try rfl) t d).trans
    (by unfold Dat.fetched Dat.blockOf iblk; rw [dat_A]; try rfl)
theorem before_blk_5 (c : Dev nD) (t : Fin cfg0.N) (d) : (dat V c).before 5 t d = iblk V c 5 t :=
  ((dat V c).before_in_eq_fetched 5 rfl (fun _ => rfl) (fun _ _ _ => rfl)
      (fun t => by rw [after_5]; unfold Dat.blockOf iblk; rw [dat_A]; try rfl) t d).trans
    (by unfold Dat.fetched Dat.blockOf iblk; rw [dat_A]; try rfl)
theorem before_blk_6 (c : Dev nD) (t : Fin cfg0.N) (d) : (dat V c).before 6 t d = iblk V c 6 t :=
  ((dat V c).before_in_eq_fetched 6 rfl (fun _ => rfl) (fun _ _ _ => rfl)
      (fun t => by rw [after_6]; unfold Dat.blockOf iblk; rw [dat_A]; try rfl) t d).trans
    (by unfold Dat.fetched Dat.blockOf iblk; rw [dat_A]; try rfl)
theorem before_blk_7 (c : Dev nD) (t : Fin cfg0.N) (d) : (dat V c).before 7 t d = iblk V c 7 t :=
  ((dat V c).before_in_eq_fetched 7 rfl (fun _ => rfl) (fun _ _ _ => rfl)
      (fun t => by rw [after_7]; unfold Dat.blockOf iblk; rw [dat_A]; try rfl) t d).trans
    (by unfold Dat.fetched Dat.blockOf iblk; rw [dat_A]; try rfl)
theorem before_blk_8 (c : Dev nD) (t : Fin cfg0.N) (d) : (dat V c).before 8 t d = iblk V c 8 t :=
  ((dat V c).before_in_eq_fetched 8 rfl (fun _ => rfl) (fun _ _ _ => rfl)
      (fun t => by rw [after_8]; unfold Dat.blockOf iblk; rw [dat_A]; try rfl) t d).trans
    (by unfold Dat.fetched Dat.blockOf iblk; rw [dat_A]; try rfl)
theorem before_blk_9 (c : Dev nD) (t : Fin cfg0.N) (d) : (dat V c).before 9 t d = iblk V c 9 t :=
  ((dat V c).before_in_eq_fetched 9 rfl (fun _ => rfl) (fun _ _ _ => rfl)
      (fun t => by rw [after_9]; unfold Dat.blockOf iblk; rw [dat_A]; try rfl) t d).trans
    (by unfold Dat.fetched Dat.blockOf iblk; rw [dat_A]; try rfl)
theorem before_blk_10 (c : Dev nD) (t : Fin cfg0.N) (d) : (dat V c).before 10 t d = iblk V c 10 t :=
  ((dat V c).before_in_eq_fetched 10 rfl (fun _ => rfl) (fun _ _ _ => rfl)
      (fun t => by rw [after_10]; unfold Dat.blockOf iblk; rw [dat_A]; try rfl) t d).trans
    (by unfold Dat.fetched Dat.blockOf iblk; rw [dat_A]; try rfl)

/-! ## The blocks against the arrays: a block's coordinate is its index times its size plus the coordinate inside -/

/-- In stage 0 the adjacency window's block is the point's row block. -/
theorem iblk_0 (c : Dev nD) (t : Fin cfg0.N) (hs : (grid0.coords t 0).val = 0) :
    iblk V c 0 t = rowBlk (arrays V c).adj (blkOf (grid0.coords t)) := by
  funext j
  unfold rowBlk
  show V c main_arg1 (((cfg0.win 0).blk t).view.emb j) = V c main_arg1 _
  refine congrArg _ ?_
  obtain ⟨e0, e1⟩ := index_0 t
  funext a; apply Fin.ext
  match a with
  | ⟨0, _⟩ =>
    show win0_0.index t (0 : Fin 2) * 256 + 1 * (j 0).val = 256 * (grid0.coords t 1).val + (j 0).val
    rw [e0, if_pos hs]; omega
  | ⟨1, _⟩ =>
    show win0_0.index t (1 : Fin 2) * 4096 + 1 * (j 1).val = (j 1).val
    rw [e1]; omega

/-- Every other input window has one block, the whole array. -/
theorem iblk_1 (c : Dev nD) (t : Fin cfg0.N) : iblk V c 1 t = (arrays V c).x := by
  funext j
  show V c main_arg0 (((cfg0.win 1).blk t).view.emb j) = V c main_arg0 j
  refine congrArg _ ?_
  funext a; apply Fin.ext
  match a with
  | ⟨0, _⟩ => show 0 * 4096 + 1 * (j 0).val = (j 0).val; omega
  | ⟨1, _⟩ => show 0 * 256 + 1 * (j 1).val = (j 1).val; omega
theorem iblk_2 (c : Dev nD) (t : Fin cfg0.N) : iblk V c 2 t = (arrays V c).w1 := by
  funext j
  show V c main_arg2 (((cfg0.win 2).blk t).view.emb j) = V c main_arg2 j
  refine congrArg _ ?_
  funext a; apply Fin.ext
  match a with
  | ⟨0, _⟩ => show 0 * 256 + 1 * (j 0).val = (j 0).val; omega
  | ⟨1, _⟩ => show 0 * 128 + 1 * (j 1).val = (j 1).val; omega
theorem iblk_3 (c : Dev nD) (t : Fin cfg0.N) : iblk V c 3 t = (arrays V c).w2 := by
  funext j
  show V c main_v2 (((cfg0.win 3).blk t).view.emb j) = V c main_v2 j
  refine congrArg _ ?_
  funext a; apply Fin.ext
  match a with
  | ⟨0, _⟩ => show 0 * 128 + 1 * (j 0).val = (j 0).val; omega
  | ⟨1, _⟩ => show 0 * 128 + 1 * (j 1).val = (j 1).val; omega
theorem iblk_4 (c : Dev nD) (t : Fin cfg0.N) : iblk V c 4 t = (arrays V c).g2 := by
  funext j
  show V c main_v6 (((cfg0.win 4).blk t).view.emb j) = V c main_v6 j
  refine congrArg _ ?_
  funext a; apply Fin.ext
  match a with
  | ⟨0, _⟩ => show 0 * 1 + 1 * (j 0).val = (j 0).val; omega
  | ⟨1, _⟩ => show 0 * 128 + 1 * (j 1).val = (j 1).val; omega
theorem iblk_5 (c : Dev nD) (t : Fin cfg0.N) : iblk V c 5 t = (arrays V c).b2 := by
  funext j
  show V c main_v10 (((cfg0.win 5).blk t).view.emb j) = V c main_v10 j
  refine congrArg _ ?_
  funext a; apply Fin.ext
  match a with
  | ⟨0, _⟩ => show 0 * 1 + 1 * (j 0).val = (j 0).val; omega
  | ⟨1, _⟩ => show 0 * 128 + 1 * (j 1).val = (j 1).val; omega
theorem iblk_6 (c : Dev nD) (t : Fin cfg0.N) : iblk V c 6 t = (arrays V c).wf1 := by
  funext j
  show V c main_v13 (((cfg0.win 6).blk t).view.emb j) = V c main_v13 j
  refine congrArg _ ?_
  funext a; apply Fin.ext
  match a with
  | ⟨0, _⟩ => show 0 * 128 + 1 * (j 0).val = (j 0).val; omega
  | ⟨1, _⟩ => show 0 * 128 + 1 * (j 1).val = (j 1).val; omega
theorem iblk_7 (c : Dev nD) (t : Fin cfg0.N) : iblk V c 7 t = (arrays V c).gf1 := by
  funext j
  show V c main_v17 (((cfg0.win 7).blk t).view.emb j) = V c main_v17 j
  refine congrArg _ ?_
  funext a; apply Fin.ext
  match a with
  | ⟨0, _⟩ => show 0 * 1 + 1 * (j 0).val = (j 0).val; omega
  | ⟨1, _⟩ => show 0 * 128 + 1 * (j 1).val = (j 1).val; omega
theorem iblk_8 (c : Dev nD) (t : Fin cfg0.N) : iblk V c 8 t = (arrays V c).bf1 := by
  funext j
  show V c main_v18 (((cfg0.win 8).blk t).view.emb j) = V c main_v18 j
  refine congrArg _ ?_
  funext a; apply Fin.ext
  match a with
  | ⟨0, _⟩ => show 0 * 1 + 1 * (j 0).val = (j 0).val; omega
  | ⟨1, _⟩ => show 0 * 128 + 1 * (j 1).val = (j 1).val; omega
theorem iblk_9 (c : Dev nD) (t : Fin cfg0.N) : iblk V c 9 t = (arrays V c).wf2 := by
  funext j
  show V c main_arg9 (((cfg0.win 9).blk t).view.emb j) = V c main_arg9 j
  refine congrArg _ ?_
  funext a; apply Fin.ext
  match a with
  | ⟨0, _⟩ => show 0 * 128 + 1 * (j 0).val = (j 0).val; omega
  | ⟨1, _⟩ => show 0 * 256 + 1 * (j 1).val = (j 1).val; omega
theorem iblk_10 (c : Dev nD) (t : Fin cfg0.N) : iblk V c 10 t = (arrays V c).ws1 := by
  funext j
  show V c main_v16 (((cfg0.win 10).blk t).view.emb j) = V c main_v16 j
  refine congrArg _ ?_
  funext a; apply Fin.ext
  match a with
  | ⟨0, _⟩ => show 0 * 128 + 1 * (j 0).val = (j 0).val; omega
  | ⟨1, _⟩ => show 0 * 128 + 1 * (j 1).val = (j 1).val; omega

/-- So the body finds each of them at its array, -/
theorem before_1 (c : Dev nD) (t : Fin cfg0.N) (d) : (dat V c).before 1 t d = (arrays V c).x :=
  (before_blk_1 V c t d).trans (iblk_1 V c t)
theorem before_2 (c : Dev nD) (t : Fin cfg0.N) (d) : (dat V c).before 2 t d = (arrays V c).w1 :=
  (before_blk_2 V c t d).trans (iblk_2 V c t)
theorem before_3 (c : Dev nD) (t : Fin cfg0.N) (d) : (dat V c).before 3 t d = (arrays V c).w2 :=
  (before_blk_3 V c t d).trans (iblk_3 V c t)
theorem before_4 (c : Dev nD) (t : Fin cfg0.N) (d) : (dat V c).before 4 t d = (arrays V c).g2 :=
  (before_blk_4 V c t d).trans (iblk_4 V c t)
theorem before_5 (c : Dev nD) (t : Fin cfg0.N) (d) : (dat V c).before 5 t d = (arrays V c).b2 :=
  (before_blk_5 V c t d).trans (iblk_5 V c t)
theorem before_6 (c : Dev nD) (t : Fin cfg0.N) (d) : (dat V c).before 6 t d = (arrays V c).wf1 :=
  (before_blk_6 V c t d).trans (iblk_6 V c t)
theorem before_7 (c : Dev nD) (t : Fin cfg0.N) (d) : (dat V c).before 7 t d = (arrays V c).gf1 :=
  (before_blk_7 V c t d).trans (iblk_7 V c t)
theorem before_8 (c : Dev nD) (t : Fin cfg0.N) (d) : (dat V c).before 8 t d = (arrays V c).bf1 :=
  (before_blk_8 V c t d).trans (iblk_8 V c t)
theorem before_9 (c : Dev nD) (t : Fin cfg0.N) (d) : (dat V c).before 9 t d = (arrays V c).wf2 :=
  (before_blk_9 V c t d).trans (iblk_9 V c t)
theorem before_10 (c : Dev nD) (t : Fin cfg0.N) (d) : (dat V c).before 10 t d = (arrays V c).ws1 :=
  (before_blk_10 V c t d).trans (iblk_10 V c t)
/-- and leaves it there. -/
theorem after_arr_1 (c : Dev nD) (t : Fin cfg0.N) : (dat V c).after 1 t = (arrays V c).x :=
  (after_1 V c t).trans (iblk_1 V c t)
theorem after_arr_2 (c : Dev nD) (t : Fin cfg0.N) : (dat V c).after 2 t = (arrays V c).w1 :=
  (after_2 V c t).trans (iblk_2 V c t)
theorem after_arr_3 (c : Dev nD) (t : Fin cfg0.N) : (dat V c).after 3 t = (arrays V c).w2 :=
  (after_3 V c t).trans (iblk_3 V c t)
theorem after_arr_4 (c : Dev nD) (t : Fin cfg0.N) : (dat V c).after 4 t = (arrays V c).g2 :=
  (after_4 V c t).trans (iblk_4 V c t)
theorem after_arr_5 (c : Dev nD) (t : Fin cfg0.N) : (dat V c).after 5 t = (arrays V c).b2 :=
  (after_5 V c t).trans (iblk_5 V c t)
theorem after_arr_6 (c : Dev nD) (t : Fin cfg0.N) : (dat V c).after 6 t = (arrays V c).wf1 :=
  (after_6 V c t).trans (iblk_6 V c t)
theorem after_arr_7 (c : Dev nD) (t : Fin cfg0.N) : (dat V c).after 7 t = (arrays V c).gf1 :=
  (after_7 V c t).trans (iblk_7 V c t)
theorem after_arr_8 (c : Dev nD) (t : Fin cfg0.N) : (dat V c).after 8 t = (arrays V c).bf1 :=
  (after_8 V c t).trans (iblk_8 V c t)
theorem after_arr_9 (c : Dev nD) (t : Fin cfg0.N) : (dat V c).after 9 t = (arrays V c).wf2 :=
  (after_9 V c t).trans (iblk_9 V c t)
theorem after_arr_10 (c : Dev nD) (t : Fin cfg0.N) : (dat V c).after 10 t = (arrays V c).ws1 :=
  (after_10 V c t).trans (iblk_10 V c t)

/-! ## The structure branch's statistics between their store and their write-back -/

theorem left_idle (c : Dev nD) (w : Fin cfg0.W) (t : Fin cfg0.N) (hi : cfg0.idle w (cfg0.grid.coords t) = true) (d) :
    (dat V c).left w t d = (dat V c).before w t d := by
  unfold Dat.left; rw [hi]
theorem left_live (c : Dev nD) (w : Fin cfg0.W) (t : Fin cfg0.N) (hi : cfg0.idle w (cfg0.grid.coords t) = false) (d) :
    (dat V c).left w t d = (dat V c).kept w t d := by
  unfold Dat.left; rw [hi]

/-- After point 48, where the body stores them, the third output window's buffer holds the statistics at every point:
    no point before the last writes the buffer back, and every later point is idle for the window. -/
theorem before_13 (c : Dev nD) : ∀ (n : ℕ) (hn : n < cfg0.N), 48 < n → ∀ d, (dat V c).before 13 ⟨n, hn⟩ d = S1STATS (arrays V c) := by
  intro n
  induction n with
  | zero => intro _ h; exact absurd h (by omega)
  | succ k ih =>
    intro hn h48 d
    have hk : k < cfg0.N := Nat.lt_of_succ_lt hn
    have hN : cfg0.N = 64 := N_0
    rw [(dat V c).before_of_pos 13 ⟨k + 1, hn⟩ (Nat.succ_ne_zero k) ((cfg0.win 13).fetch_out rfl _)]
    show (if (cfg0.win 13).flush ⟨k, hk⟩ then d else (dat V c).left 13 ⟨k, hk⟩ d) = _
    have hfl : (cfg0.win 13).flush ⟨k, hk⟩ = false := by
      rw [flush_13]; exact decide_eq_false (by show ¬ k = 63; omega)
    rw [hfl, if_neg Bool.false_ne_true]
    by_cases hk48 : k = 48
    · have hi : cfg0.idle 13 (cfg0.grid.coords ⟨k, hk⟩) = false := by
        rw [idle_13]; exact decide_eq_false (by show ¬ k ≠ 48; omega)
      rw [left_live V c 13 _ hi]
      unfold Dat.kept
      rw [Pipeline.fill_of_clip_none (cfg := cfg0) 13 _ (fun _ => rfl) d ((dat V c).after 13 ⟨k, hk⟩), Pipeline.Window.fill_cut, after_13]
    · have hi : cfg0.idle 13 (cfg0.grid.coords ⟨k, hk⟩) = true := by
        rw [idle_13]; exact decide_eq_true (by show k ≠ 48; omega)
      rw [left_idle V c 13 _ hi]
      exact ih hk (by omega) d

/-! ## Meeting what the obligation asks of a window's buffer after the body -/

/-- At a point idle for the window that does not write it back: the buffer as it was found. -/
theorem leaves_of_idle (c : Dev nD) (w : Fin cfg0.W) (t : Fin cfg0.N)
    (hi : cfg0.idle w (cfg0.grid.coords t) = true) (hf : (cfg0.win w).flush t = false) (d) :
    owns (c : Thread nD τ) ((cfg0.win w).stage (cfg0.slots t w)) fullShare ((dat V c).before w t d)
      ⊢ ((dat V c).leavesExact w t : sProp (𝕄0 F)) := by
  rw [Dat.leavesExact_idle _ w t hi hf]
  iintro H; iexists d; iexact H

/-- At a point live for the window: the buffer at what the proof data says the body leaves. -/
theorem leaves_of_live (c : Dev nD) (w : Fin cfg0.W) (t : Fin cfg0.N) (hi : cfg0.idle w (cfg0.grid.coords t) = false) (X)
    (hX : X = (dat V c).after w t) :
    owns (c : Thread nD τ) ((cfg0.win w).stage (cfg0.slots t w)) fullShare X ⊢ ((dat V c).leavesExact w t : sProp (𝕄0 F)) := by
  subst hX; unfold Dat.leavesExact; rw [hi]

/-- At an idle point that writes the window back: likewise. -/
theorem leaves_of_flush (c : Dev nD) (w : Fin cfg0.W) (t : Fin cfg0.N) (hi : cfg0.idle w (cfg0.grid.coords t) = true)
    (hf : (cfg0.win w).flush t = true) (X) (hX : X = (dat V c).after w t) :
    owns (c : Thread nD τ) ((cfg0.win w).stage (cfg0.slots t w)) fullShare X ⊢ ((dat V c).leavesExact w t : sProp (𝕄0 F)) := by
  subst hX; unfold Dat.leavesExact; rw [hi, hf]

end Cert.KernelIdeal.Stack

end
-- ==== Proof.StackObligGlue.lean ====
/-
  The graph-convolution stack's body at a grid point, between the pipeline's holdings and a control case's run.

  A control case's run of the body is stated over any staging memrefs (`StepSpec`: what the nine cases' theorems share).
  Here it is applied at the point's current staging buffers: the invariant is opened to the scratch buffers' contents,
  the case's run carries them to the next point's, and the region's other scoped buffers ride along (`run_point`).
  Then the pipeline's own spelling of what the body is called with and what it returns (`bodyPre`, `bodyPost`), and the
  body's triple in that spelling from a control case's run and, per output window, the reason its buffer's contents
  are what the obligation asks there (`sound_body_of`).
-/
import proofs.«181189_g481036337843_cont_8to1c4_37_6_alg».proof.Proof.StackObligFacts

set_option maxRecDepth 16384

noncomputable section

namespace Cert.KernelIdeal.Stack

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- A control case's run of the body at coordinates `i`, from the invariant at point `n`: on any whole staging memrefs, the
    inputs at the adjacency block `x0` and the arrays `A`, the outputs at `d11 … d14`, it leaves the inputs as they were
    and the outputs at `o11 … o14`, and takes the scratch buffers from contents satisfying `Inv A n` to contents
    satisfying `Inv A (n + 1)`. -/
def StepSpec (c : Dev nD) (i : grid0.Coords) (n : ℕ) (A : Arrays F) (x0 : Vec F S256x4096 .f32)
    (d11 : Vec F S256x256 .f32) (d12 : Vec F S256x128 .f32) (d13 : Vec F S2x128 .f32) (d14 : Vec F S2x256 .f32)
    (o11 : Vec F S256x256 .f32) (o12 : Vec F S256x128 .f32) (o13 : Vec F S2x128 .f32) (o14 : Vec F S2x256 .f32) : Prop :=
  ∀ (E : Set ℕ) (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (st : St F) (hInv : Inv A n st) (K : PUnit → sProp (𝕄0 F)),
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (n + 1) st'⌝ ∗ ins c arg2 arg3 arg4 arg5 arg6 arg7 arg8 arg9 arg10 arg11 arg12 x0 A
            ∗ outs c arg13 arg14 arg15 arg16 o11 o12 o13 o14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K

/-- The body at point `t` on the current staging buffers, from the invariant at `n` and anything `R` beside it: a control
    case's run carries the invariant to `n + 1` and the buffers to what it leaves; `R` is not touched. -/
theorem run_point (c : Dev nD) (t : Fin cfg0.N) (n : ℕ) (A : Arrays F) (hA : arrays V c = A) (x0 : Vec F S256x4096 .f32)
    (d11 : Vec F S256x256 .f32) (d12 : Vec F S256x128 .f32) (d13 : Vec F S2x128 .f32) (d14 : Vec F S2x256 .f32)
    (o11 : Vec F S256x256 .f32) (o12 : Vec F S256x128 .f32) (o13 : Vec F S2x128 .f32) (o14 : Vec F S2x256 .f32)
    (hstep : StepSpec c (grid0.coords t) n A x0 d11 d12 d13 d14 o11 o12 o13 o14)
    (R : sProp (𝕄0 F)) (K : PUnit → sProp (𝕄0 F)) :
    iprop(Phi V c n ∗ R
      ∗ owns (c : Thread nD τ) (st0_0 t) fullShare x0
      ∗ owns (c : Thread nD τ) (st0_1 t) fullShare A.x
      ∗ owns (c : Thread nD τ) (st0_2 t) fullShare A.w1
      ∗ owns (c : Thread nD τ) (st0_3 t) fullShare A.w2
      ∗ owns (c : Thread nD τ) (st0_4 t) fullShare A.g2
      ∗ owns (c : Thread nD τ) (st0_5 t) fullShare A.b2
      ∗ owns (c : Thread nD τ) (st0_6 t) fullShare A.wf1
      ∗ owns (c : Thread nD τ) (st0_7 t) fullShare A.gf1
      ∗ owns (c : Thread nD τ) (st0_8 t) fullShare A.bf1
      ∗ owns (c : Thread nD τ) (st0_9 t) fullShare A.wf2
      ∗ owns (c : Thread nD τ) (st0_10 t) fullShare A.ws1
      ∗ owns (c : Thread nD τ) (st0_11 t) fullShare d11
      ∗ owns (c : Thread nD τ) (st0_12 t) fullShare d12
      ∗ owns (c : Thread nD τ) (st0_13 t) fullShare d13
      ∗ owns (c : Thread nD τ) (st0_14 t) fullShare d14
      ∗ (iprop(Phi V c (n + 1) ∗ R
      ∗ owns (c : Thread nD τ) (st0_0 t) fullShare x0
      ∗ owns (c : Thread nD τ) (st0_1 t) fullShare A.x
      ∗ owns (c : Thread nD τ) (st0_2 t) fullShare A.w1
      ∗ owns (c : Thread nD τ) (st0_3 t) fullShare A.w2
      ∗ owns (c : Thread nD τ) (st0_4 t) fullShare A.g2
      ∗ owns (c : Thread nD τ) (st0_5 t) fullShare A.b2
      ∗ owns (c : Thread nD τ) (st0_6 t) fullShare A.wf1
      ∗ owns (c : Thread nD τ) (st0_7 t) fullShare A.gf1
      ∗ owns (c : Thread nD τ) (st0_8 t) fullShare A.bf1
      ∗ owns (c : Thread nD τ) (st0_9 t) fullShare A.wf2
      ∗ owns (c : Thread nD τ) (st0_10 t) fullShare A.ws1
      ∗ owns (c : Thread nD τ) (st0_11 t) fullShare o11
      ∗ owns (c : Thread nD τ) (st0_12 t) fullShare o12
      ∗ owns (c : Thread nD τ) (st0_13 t) fullShare o13
      ∗ owns (c : Thread nD τ) (st0_14 t) fullShare o14) -∗ K ⟨⟩))
      ⊢ wp frame (wpE (defs₀ (F := F)) Variants.none c none) Set.univ (bodyAt0 t) K := by
  subst hA
  unfold Phi
  iintro ⟨⟨⟨%st, %hInv, Hscr⟩, Hrest⟩, HR, H0, H1, H2, H3, H4, H5, H6, H7, H8, H9, H10, H11, H12, H13, H14, HK⟩
  iapply (hstep Set.univ _ _ _ _ _ _ _ _ _ _ _ _ _ _ _ _ _ _ _ _ _ _ _ _ _ _ _ _ _ _ st hInv _)
  unfold ins outs
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14]
  · isplitl [H11]; · iexact H11
    isplitl [H12]; · iexact H12
    isplitl [H13]; · iexact H13
    iexact H14
  isplitl [Hscr]; · iexact Hscr
  iintro ⟨%st', %hInv', ⟨H0, H1, H2, H3, H4, H5, H6, H7, H8, H9, H10⟩, ⟨H11, H12, H13, H14⟩, Hscr⟩
  iapply HK
  isplitl [Hscr Hrest]
  · isplitl [Hscr]
    · iexists st'; isplitr; · ipureintro; exact hInv'
      iexact Hscr
    iexact Hrest
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ## The obligation at a point, in the pipeline's own spelling -/

/-- What the pipeline calls the body with at point `t`, the windows one by one: the invariant, what the core owes, and
    each window's current staging buffer at what it then holds, -/
def bodyPre (c : Dev nD) (t : Fin cfg0.N) : sProp (𝕄0 F) :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d))
    ∗ (∃ d, owns (c : Thread nD τ) (st0_13 t) fullShare ((dat V c).before 13 t d))
    ∗ (∃ d, owns (c : Thread nD τ) (st0_14 t) fullShare ((dat V c).before 14 t d)))

/-- and what it asks back: the next invariant, what the core then owes, each input's buffer at what the proof data says
    the body leaves, and each output's buffer at that too where the point is live for the window or writes it back, and
    as it was found where the point is idle for it. -/
def bodyPost (c : Dev nD) (t : Fin cfg0.N) : sProp (𝕄0 F) :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ (dat V c).leavesExact 11 t
    ∗ (dat V c).leavesExact 12 t
    ∗ (dat V c).leavesExact 13 t
    ∗ (dat V c).leavesExact 14 t)

/-- The body's triple at point `t` (number `n`), from a control case's run there — for whatever the output windows' buffers
    are found holding, leaving them at `o11 … o14` of that — and, per output window, the reason that what is left is what
    the obligation asks of the window at the point. The inputs' buffers hold their blocks (the adjacency window its
    current block, every other window its array), the invariant is handed to the run and taken back a point later, and
    what the core owes passes through. -/
theorem sound_body_of (c : Dev nD) (t : Fin cfg0.N) (n : ℕ) (hn : t.val = n)
    (o11 : Vec F S256x256 .f32 → Vec F S256x256 .f32) (o12 : Vec F S256x128 .f32 → Vec F S256x128 .f32)
    (o13 : Vec F S2x128 .f32 → Vec F S2x128 .f32) (o14 : Vec F S2x256 .f32 → Vec F S2x256 .f32)
    (hstep : ∀ d11 d12 d13 d14, StepSpec c (grid0.coords t) n (arrays V c) (iblk V c 0 t) d11 d12 d13 d14 (o11 d11) (o12 d12) (o13 d13) (o14 d14))
    (h11 : ∀ d, owns (c : Thread nD τ) (st0_11 t) fullShare (o11 ((dat V c).before 11 t d)) ⊢ ((dat V c).leavesExact 11 t : sProp (𝕄0 F)))
    (h12 : ∀ d, owns (c : Thread nD τ) (st0_12 t) fullShare (o12 ((dat V c).before 12 t d)) ⊢ ((dat V c).leavesExact 12 t : sProp (𝕄0 F)))
    (h13 : ∀ d, owns (c : Thread nD τ) (st0_13 t) fullShare (o13 ((dat V c).before 13 t d)) ⊢ ((dat V c).leavesExact 13 t : sProp (𝕄0 F)))
    (h14 : ∀ d, owns (c : Thread nD τ) (st0_14 t) fullShare (o14 ((dat V c).before 14 t d)) ⊢ ((dat V c).leavesExact 14 t : sProp (𝕄0 F))) :
    bodyPre V c t ⊢ wp frame (wpE (defs₀ (F := F)) Variants.none c none) Set.univ (bodyAt0 t) (fun _ => bodyPost V c t) := by
  unfold bodyPre bodyPost
  simp only [before_blk_0, before_1, before_2, before_3, before_4, before_5, before_6, before_7, before_8, before_9, before_10]
  rw [dat_Phi, dat_Phi, show (dat V c).owesAt () t.succ = (dat V c).owesAt () t.castSucc from rfl,
    after_0, after_arr_1, after_arr_2, after_arr_3, after_arr_4, after_arr_5, after_arr_6, after_arr_7, after_arr_8,
    after_arr_9, after_arr_10,
    show (t.castSucc).val = n from hn, show (t.succ).val = n + 1 from by rw [Fin.val_succ, hn]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩⟩
  iapply (run_point V c t n (arrays V c) rfl (iblk V c 0 t) ((dat V c).before 11 t d11) ((dat V c).before 12 t d12)
    ((dat V c).before 13 t d13) ((dat V c).before 14 t d14) _ _ _ _ (hstep _ _ _ _) ((dat V c).owesAt () t.castSucc) _)
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨HΦ, Ho, H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (h11 d11); iexact H11
  isplitl [H12]; · iapply (h12 d12); iexact H12
  isplitl [H13]; · iapply (h13 d13); iexact H13
  iapply (h14 d14); iexact H14

end Cert.KernelIdeal.Stack

end
-- ==== Proof.StackView.lean ====
/-
  Small facts every control case of the graph-convolution stack's body needs, stated once.

  * The body's conditions in closed form over a grid point's two coordinates (stage `i 0 < 4`, row block `i 1 < 16`):
    each condition word is `1` exactly when the stated equations on the coordinates hold.
  * The row offsets the body computes: `256 · (i 1)` (and `512 · (i 0)` in the second region).
  * What a load through a literal rectangle reads at an index, and what a store through one leaves at an index; from
    these, the row-block, column-half and two-row readings of the scratch buffers the invariant is stated in.
-/
import proofs.«181189_g481036337843_cont_8to1c4_37_6_alg».proof.Proof.StackSpec
import Idealize.ShloMosaic.Lib.Pipeline.FrameBody

noncomputable section

namespace Cert.KernelIdeal.Stack.View

open Idealize.ShloMosaic Idealize.ShloMosaic.ValueIdx Cert.KernelIdeal Cert.KernelIdeal.Gen

/-! ## Words: comparisons, the one-bit conjunction, and a coordinate as a 32-bit word -/

/-- Widening a bit to a word and testing the word against zero gives the bit back. -/
theorem cmpi_ne_extui (b : BitVec 1) : Scalar.cmpi .ne (Scalar.extui b) 0#32 = b := by
  revert b; decide

/-- An equality test answers `1` exactly on equal words. -/
theorem cmpi_eq_one_iff (a b : BitVec 32) : Scalar.cmpi .eq a b = 1#1 ↔ a = b := by
  show BitVec.ofBool (a == b) = 1#1 ↔ a = b
  by_cases h : a = b
  · subst h; simp
  · have hb : (a == b) = false := beq_eq_false_iff_ne.mpr h
    rw [hb]; exact ⟨fun h' => absurd h' (by decide), fun h' => absurd h' h⟩

/-- A conjunction of bits is `1` exactly when both are. -/
theorem andi_eq_one_iff (x y : BitVec 1) : Scalar.andi x y = 1#1 ↔ x = 1#1 ∧ y = 1#1 := by
  revert x y; decide

/-- Two naturals below `2 ^ 32` are equal as words exactly when they are equal. -/
theorem ofNat_eq_iff (n k : ℕ) (hn : n < 4294967296) (hk : k < 4294967296) :
    BitVec.ofNat 32 n = BitVec.ofNat 32 k ↔ n = k := by
  constructor
  · intro h
    have := congrArg BitVec.toNat h
    rw [BitVec.toNat_ofNat, BitVec.toNat_ofNat] at this
    omega
  · rintro rfl; rfl

/-- The test `word of n = word of k`, widened and tested against zero, for small `n` and `k`. -/
theorem eqWord_iff (n k : ℕ) (hn : n < 4294967296) (hk : k < 4294967296) :
    Scalar.cmpi .ne (Scalar.extui (Scalar.cmpi .eq (BitVec.ofNat 32 n) (BitVec.ofNat 32 k))) 0#32 = 1#1 ↔ n = k := by
  rw [cmpi_ne_extui, cmpi_eq_one_iff, ofNat_eq_iff n k hn hk]

/-- The conjunction of two such tests, widened and tested against zero. -/
theorem eqWord2_iff (n k m l : ℕ) (hn : n < 4294967296) (hk : k < 4294967296) (hm : m < 4294967296) (hl : l < 4294967296) :
    Scalar.cmpi .ne (Scalar.extui (Scalar.andi (Scalar.cmpi .eq (BitVec.ofNat 32 n) (BitVec.ofNat 32 k))
      (Scalar.cmpi .eq (BitVec.ofNat 32 m) (BitVec.ofNat 32 l)))) 0#32 = 1#1 ↔ n = k ∧ m = l := by
  rw [cmpi_ne_extui, andi_eq_one_iff, cmpi_eq_one_iff, cmpi_eq_one_iff, ofNat_eq_iff n k hn hk, ofNat_eq_iff m l hm hl]

/-- A grid point's stage is below 4 and its row block below 16, as plain inequalities. -/
theorem stage_lt (i : grid0.Coords) : (i 0).val < 4 := (i 0).isLt
theorem blk_lt (i : grid0.Coords) : (i 1).val < 16 := (i 1).isLt

/-! ## The body's conditions, in closed form -/

/-- The stage-0 region is entered exactly at stage 0. -/
theorem cond6_iff (i : grid0.Coords) : k0_cond6 i = 1#1 ↔ (i 0).val = 0 := by
  have := stage_lt i
  exact eqWord_iff (i 0).val 0 (by omega) (by omega)
/-- The stage-1 region is entered exactly at stage 1. -/
theorem cond7_iff (i : grid0.Coords) : k0_cond7 i = 1#1 ↔ (i 0).val = 1 := by
  have := stage_lt i
  exact eqWord_iff (i 0).val 1 (by omega) (by omega)
/-- The stage-2 region is entered exactly at stage 2. -/
theorem cond8_iff (i : grid0.Coords) : k0_cond8 i = 1#1 ↔ (i 0).val = 2 := by
  have := stage_lt i
  exact eqWord_iff (i 0).val 2 (by omega) (by omega)
/-- The stage-3 region is entered exactly at stage 3. -/
theorem cond9_iff (i : grid0.Coords) : k0_cond9 i = 1#1 ↔ (i 0).val = 3 := by
  have := stage_lt i
  exact eqWord_iff (i 0).val 3 (by omega) (by omega)
/-- The stage-3 support is built exactly at stage 3, block 0. -/
theorem cond4_iff (i : grid0.Coords) : k0_cond4 i = 1#1 ↔ (i 0).val = 3 ∧ (i 1).val = 0 := by
  have := stage_lt i; have := blk_lt i
  exact eqWord2_iff (i 0).val 3 (i 1).val 0 (by omega) (by omega) (by omega) (by omega)
/-- The final statistics are written exactly at stage 3, block 15. -/
theorem cond10_iff (i : grid0.Coords) : k0_cond10 i = 1#1 ↔ (i 0).val = 3 ∧ (i 1).val = 15 := by
  have := stage_lt i; have := blk_lt i
  exact eqWord2_iff (i 0).val 3 (i 1).val 15 (by omega) (by omega) (by omega) (by omega)

/-! ## The four condition words the body computes in line, as the same chains over the coordinates' words -/

/-- "stage 0 and block 0": the stage-0 support is built. -/
theorem v4_iff (i : grid0.Coords) :
    Scalar.cmpi .ne (Scalar.extui (Scalar.andi (Scalar.cmpi .eq (BitVec.ofNat 32 (i 0).val) 0#32)
      (Scalar.cmpi .eq (BitVec.ofNat 32 (i 1).val) 0#32))) 0#32 = 1#1 ↔ (i 0).val = 0 ∧ (i 1).val = 0 := by
  have := stage_lt i; have := blk_lt i
  exact eqWord2_iff (i 0).val 0 (i 1).val 0 (by omega) (by omega) (by omega) (by omega)
/-- "stage 1 and block 0": the stage-1 support is built. -/
theorem v9_iff (i : grid0.Coords) :
    Scalar.cmpi .ne (Scalar.extui (Scalar.andi (Scalar.cmpi .eq (BitVec.ofNat 32 (i 0).val) 1#32)
      (Scalar.cmpi .eq (BitVec.ofNat 32 (i 1).val) 0#32))) 0#32 = 1#1 ↔ (i 0).val = 1 ∧ (i 1).val = 0 := by
  have := stage_lt i; have := blk_lt i
  exact eqWord2_iff (i 0).val 1 (i 1).val 0 (by omega) (by omega) (by omega) (by omega)
/-- "stage 2 and block 0": the stage-2 support is built. -/
theorem v14_iff (i : grid0.Coords) :
    Scalar.cmpi .ne (Scalar.extui (Scalar.andi (Scalar.cmpi .eq (BitVec.ofNat 32 (i 0).val) 2#32)
      (Scalar.cmpi .eq (BitVec.ofNat 32 (i 1).val) 0#32))) 0#32 = 1#1 ↔ (i 0).val = 2 ∧ (i 1).val = 0 := by
  have := stage_lt i; have := blk_lt i
  exact eqWord2_iff (i 0).val 2 (i 1).val 0 (by omega) (by omega) (by omega) (by omega)
/-- "block 0": the running sums are reset. -/
theorem v22_iff (i : grid0.Coords) :
    Scalar.cmpi .ne (Scalar.extui (Scalar.cmpi .eq (BitVec.ofNat 32 (i 1).val) 0#32)) 0#32 = 1#1 ↔ (i 1).val = 0 := by
  have := blk_lt i
  exact eqWord_iff (i 1).val 0 (by omega) (by omega)

/-! ## The same, one direction at a time (what a discharger of a conditional wants) -/

theorem cond6_pos (i : grid0.Coords) (h : (i 0).val = 0) : k0_cond6 i = 1#1 := (cond6_iff i).mpr h
theorem cond6_neg (i : grid0.Coords) (h : (i 0).val ≠ 0) : ¬ k0_cond6 i = 1#1 := fun e => h ((cond6_iff i).mp e)
theorem cond7_pos (i : grid0.Coords) (h : (i 0).val = 1) : k0_cond7 i = 1#1 := (cond7_iff i).mpr h
theorem cond7_neg (i : grid0.Coords) (h : (i 0).val ≠ 1) : ¬ k0_cond7 i = 1#1 := fun e => h ((cond7_iff i).mp e)
theorem cond8_pos (i : grid0.Coords) (h : (i 0).val = 2) : k0_cond8 i = 1#1 := (cond8_iff i).mpr h
theorem cond8_neg (i : grid0.Coords) (h : (i 0).val ≠ 2) : ¬ k0_cond8 i = 1#1 := fun e => h ((cond8_iff i).mp e)
theorem cond9_pos (i : grid0.Coords) (h : (i 0).val = 3) : k0_cond9 i = 1#1 := (cond9_iff i).mpr h
theorem cond9_neg (i : grid0.Coords) (h : (i 0).val ≠ 3) : ¬ k0_cond9 i = 1#1 := fun e => h ((cond9_iff i).mp e)
theorem cond4_pos (i : grid0.Coords) (h0 : (i 0).val = 3) (h1 : (i 1).val = 0) : k0_cond4 i = 1#1 := (cond4_iff i).mpr ⟨h0, h1⟩
theorem cond4_neg (i : grid0.Coords) (h : (i 0).val ≠ 3 ∨ (i 1).val ≠ 0) : ¬ k0_cond4 i = 1#1 := fun e => by
  have := (cond4_iff i).mp e; omega
theorem cond10_pos (i : grid0.Coords) (h0 : (i 0).val = 3) (h1 : (i 1).val = 15) : k0_cond10 i = 1#1 := (cond10_iff i).mpr ⟨h0, h1⟩
theorem cond10_neg (i : grid0.Coords) (h : (i 0).val ≠ 3 ∨ (i 1).val ≠ 15) : ¬ k0_cond10 i = 1#1 := fun e => by
  have := (cond10_iff i).mp e; omega
theorem v4_pos (i : grid0.Coords) (h0 : (i 0).val = 0) (h1 : (i 1).val = 0) :
    Scalar.cmpi .ne (Scalar.extui (Scalar.andi (Scalar.cmpi .eq (BitVec.ofNat 32 (i 0).val) 0#32)
      (Scalar.cmpi .eq (BitVec.ofNat 32 (i 1).val) 0#32))) 0#32 = 1#1 := (v4_iff i).mpr ⟨h0, h1⟩
theorem v4_neg (i : grid0.Coords) (h : (i 0).val ≠ 0 ∨ (i 1).val ≠ 0) :
    ¬ Scalar.cmpi .ne (Scalar.extui (Scalar.andi (Scalar.cmpi .eq (BitVec.ofNat 32 (i 0).val) 0#32)
      (Scalar.cmpi .eq (BitVec.ofNat 32 (i 1).val) 0#32))) 0#32 = 1#1 := fun e => by
  have := (v4_iff i).mp e; omega
theorem v9_pos (i : grid0.Coords) (h0 : (i 0).val = 1) (h1 : (i 1).val = 0) :
    Scalar.cmpi .ne (Scalar.extui (Scalar.andi (Scalar.cmpi .eq (BitVec.ofNat 32 (i 0).val) 1#32)
      (Scalar.cmpi .eq (BitVec.ofNat 32 (i 1).val) 0#32))) 0#32 = 1#1 := (v9_iff i).mpr ⟨h0, h1⟩
theorem v9_neg (i : grid0.Coords) (h : (i 0).val ≠ 1 ∨ (i 1).val ≠ 0) :
    ¬ Scalar.cmpi .ne (Scalar.extui (Scalar.andi (Scalar.cmpi .eq (BitVec.ofNat 32 (i 0).val) 1#32)
      (Scalar.cmpi .eq (BitVec.ofNat 32 (i 1).val) 0#32))) 0#32 = 1#1 := fun e => by
  have := (v9_iff i).mp e; omega
theorem v14_pos (i : grid0.Coords) (h0 : (i 0).val = 2) (h1 : (i 1).val = 0) :
    Scalar.cmpi .ne (Scalar.extui (Scalar.andi (Scalar.cmpi .eq (BitVec.ofNat 32 (i 0).val) 2#32)
      (Scalar.cmpi .eq (BitVec.ofNat 32 (i 1).val) 0#32))) 0#32 = 1#1 := (v14_iff i).mpr ⟨h0, h1⟩
theorem v14_neg (i : grid0.Coords) (h : (i 0).val ≠ 2 ∨ (i 1).val ≠ 0) :
    ¬ Scalar.cmpi .ne (Scalar.extui (Scalar.andi (Scalar.cmpi .eq (BitVec.ofNat 32 (i 0).val) 2#32)
      (Scalar.cmpi .eq (BitVec.ofNat 32 (i 1).val) 0#32))) 0#32 = 1#1 := fun e => by
  have := (v14_iff i).mp e; omega
theorem v22_pos (i : grid0.Coords) (h : (i 1).val = 0) :
    Scalar.cmpi .ne (Scalar.extui (Scalar.cmpi .eq (BitVec.ofNat 32 (i 1).val) 0#32)) 0#32 = 1#1 := (v22_iff i).mpr h
theorem v22_neg (i : grid0.Coords) (h : (i 1).val ≠ 0) :
    ¬ Scalar.cmpi .ne (Scalar.extui (Scalar.cmpi .eq (BitVec.ofNat 32 (i 1).val) 0#32)) 0#32 = 1#1 :=
  fun e => h ((v22_iff i).mp e)

/-! ## The offsets the body computes -/

/-- A small natural times 256, computed on 32-bit words, is the product. -/
theorem mul256_toNat (b : ℕ) (hb : b < 16) :
    (Scalar.indexCast (Scalar.muli (BitVec.ofNat 32 b) 256#32)).toNat = 256 * b := by
  show (BitVec.ofNat 32 b * 256#32).toNat = 256 * b
  rw [BitVec.toNat_mul, BitVec.toNat_ofNat, BitVec.toNat_ofNat]
  omega
/-- A small natural times 512, computed on 32-bit words, is the product. -/
theorem mul512_toNat (b : ℕ) (hb : b < 8) :
    (Scalar.indexCast (Scalar.muli (BitVec.ofNat 32 b) 512#32)).toNat = 512 * b := by
  show (BitVec.ofNat 32 b * 512#32).toNat = 512 * b
  rw [BitVec.toNat_mul, BitVec.toNat_ofNat, BitVec.toNat_ofNat]
  omega

theorem off1_eq (i : grid0.Coords) : k0_off1 i = ![256 * (i 1).val, 0] := by
  show ![(Scalar.indexCast (Scalar.muli (BitVec.ofNat 32 (i 1).val) 256#32)).toNat, (0#32 : BitVec 32).toNat] = _
  rw [mul256_toNat _ (blk_lt i)]; rfl
theorem off2_eq (i : grid0.Coords) : k0_off2 i = ![256 * (i 1).val, 0] := by
  show ![(Scalar.indexCast (Scalar.muli (BitVec.ofNat 32 (i 1).val) 256#32)).toNat, (0#32 : BitVec 32).toNat] = _
  rw [mul256_toNat _ (blk_lt i)]; rfl
theorem off3_eq (i : grid0.Coords) : k0_off3 i = ![256 * (i 1).val, 0] := by
  show ![(Scalar.indexCast (Scalar.muli (BitVec.ofNat 32 (i 1).val) 256#32)).toNat, (0#32 : BitVec 32).toNat] = _
  rw [mul256_toNat _ (blk_lt i)]; rfl
theorem off4_eq (i : grid0.Coords) : k0_off4 i = ![256 * (i 1).val, 0] := by
  show ![(Scalar.indexCast (Scalar.muli (BitVec.ofNat 32 (i 1).val) 256#32)).toNat, (0#32 : BitVec 32).toNat] = _
  rw [mul256_toNat _ (blk_lt i)]; rfl
theorem off5_eq (i : grid0.Coords) : k0_off5 i = ![256 * (i 1).val, 0] := by
  show ![(Scalar.indexCast (Scalar.muli (BitVec.ofNat 32 (i 1).val) 256#32)).toNat, (0#32 : BitVec 32).toNat] = _
  rw [mul256_toNat _ (blk_lt i)]; rfl
theorem off6_eq (i : grid0.Coords) : k0_off6 i = ![256 * (i 1).val, 0] := by
  show ![(Scalar.indexCast (Scalar.muli (BitVec.ofNat 32 (i 1).val) 256#32)).toNat, (0#32 : BitVec 32).toNat] = _
  rw [mul256_toNat _ (blk_lt i)]; rfl
theorem off7_eq (i : grid0.Coords) : k0_off7 i = ![256 * (i 1).val, 0] := by
  show ![(Scalar.indexCast (Scalar.muli (BitVec.ofNat 32 (i 1).val) 256#32)).toNat, (0#32 : BitVec 32).toNat] = _
  rw [mul256_toNat _ (blk_lt i)]; rfl
theorem off8_eq (i : grid0.Coords) : k0_off8 i = ![256 * (i 1).val, 128] := by
  show ![(Scalar.indexCast (Scalar.muli (BitVec.ofNat 32 (i 1).val) 256#32)).toNat, (128#32 : BitVec 32).toNat] = _
  rw [mul256_toNat _ (blk_lt i)]; rfl
/-- The second region's row offset: 512 rows a grid point. -/
theorem k1_off1_eq (i : grid1.Coords) : k1_off1 i = ![512 * (i 0).val, 0] := by
  show ![(Scalar.indexCast (Scalar.muli (BitVec.ofNat 32 (i 0).val) 512#32)).toNat, (0#32 : BitVec 32).toNat] = _
  rw [mul512_toNat _ (i 0).isLt]; rfl

/-! ## A load and a store through a literal rectangle of a matrix, at an index -/

section Generic

variable {N M n m : ℕ}

/-- The in-bounds evidence of an `n × m` rectangle of an `N × M` matrix, one axis at a time, as plain inequalities. -/
theorem inb_rows {off : Fin 2 → ℕ} (inb : ∀ a, off a + (![n, m] : Fin 2 → ℕ) a ≤ (⟨2, ![N, M]⟩ : Shape).size a) :
    off 0 + n ≤ N := inb 0
theorem inb_cols {off : Fin 2 → ℕ} (inb : ∀ a, off a + (![n, m] : Fin 2 → ℕ) a ≤ (⟨2, ![N, M]⟩ : Shape).size a) :
    off 1 + m ≤ M := inb 1

/-- Where the rectangle places its own index `(r, q)`: at `(off 0 + r, off 1 + q)`. -/
theorem unit_idx (off : Fin 2 → ℕ) (inb : ∀ a, off a + (![n, m] : Fin 2 → ℕ) a ≤ (⟨2, ![N, M]⟩ : Shape).size a)
    (r : Fin n) (q : Fin m) :
    (Rect.unit (s := ⟨2, ![N, M]⟩) off ![n, m] inb).idx (ix2 r q)
      = ix2 (⟨off 0 + r.val, by have := inb_rows inb; omega⟩ : Fin N) (⟨off 1 + q.val, by have := inb_cols inb; omega⟩ : Fin M) := by
  funext d
  match d with
  | ⟨0, _⟩ => exact Fin.ext (show off 0 + 1 * r.val = off 0 + r.val by omega)
  | ⟨1, _⟩ => exact Fin.ext (show off 1 + 1 * q.val = off 1 + q.val by omega)

/-- An index `(a, b)` of the matrix lies in the rectangle exactly when both coordinates lie in its spans. -/
theorem mem_unit_iff (off : Fin 2 → ℕ) (inb : ∀ a, off a + (![n, m] : Fin 2 → ℕ) a ≤ (⟨2, ![N, M]⟩ : Shape).size a)
    (a : Fin N) (b : Fin M) :
    ix2 a b ∈ (Rect.unit (s := ⟨2, ![N, M]⟩) off ![n, m] inb).set
      ↔ (off 0 ≤ a.val ∧ a.val < off 0 + n) ∧ (off 1 ≤ b.val ∧ b.val < off 1 + m) := by
  rw [Rect.mem_set_unit]
  exact Fin.forall_fin_two

section Load

variable {Val : EltTy → Type} {e : EltTy}

/-- A load through the rectangle reads, at its index `(r, q)`, the matrix at `(off 0 + r, off 1 + q)`. -/
theorem ld_unit_apply (f : (⟨2, ![N, M]⟩ : Shape).Idx → Val e) (off : Fin 2 → ℕ)
    (inb : ∀ a, off a + (![n, m] : Fin 2 → ℕ) a ≤ (⟨2, ![N, M]⟩ : Shape).size a) (r : Fin n) (q : Fin m) :
    Idealize.ShloMosaic.View.ld f (Rect.unit (s := ⟨2, ![N, M]⟩) off ![n, m] inb) (ix2 r q)
      = f (ix2 (⟨off 0 + r.val, by have := inb_rows inb; omega⟩ : Fin N) (⟨off 1 + q.val, by have := inb_cols inb; omega⟩ : Fin M)) :=
  congrArg f (unit_idx off inb r q)

end Load

section Store

variable {α : Type}

/-- What a store of `v` through the rectangle leaves at an index inside it: `v` at the index less the offsets. -/
theorem overlay_unit_in (f : (⟨2, ![N, M]⟩ : Shape).Idx → α) (off : Fin 2 → ℕ)
    (inb : ∀ a, off a + (![n, m] : Fin 2 → ℕ) a ≤ (⟨2, ![N, M]⟩ : Shape).size a) (v : (⟨2, ![n, m]⟩ : Shape).Idx → α)
    (a : Fin N) (b : Fin M) (ha : off 0 ≤ a.val ∧ a.val < off 0 + n) (hb : off 1 ≤ b.val ∧ b.val < off 1 + m) :
    (Rect.unit (s := ⟨2, ![N, M]⟩) off ![n, m] inb).overlay f v (ix2 a b)
      = v (ix2 (⟨a.val - off 0, by omega⟩ : Fin n) (⟨b.val - off 1, by omega⟩ : Fin m)) := by
  have hidx : ix2 a b = (Rect.unit (s := ⟨2, ![N, M]⟩) off ![n, m] inb).emb
      (ix2 (⟨a.val - off 0, by omega⟩ : Fin n) (⟨b.val - off 1, by omega⟩ : Fin m)) := by
    refine ((unit_idx off inb _ _).trans ?_).symm
    congr 1 <;> exact Fin.ext (by show _ + (_ - _) = _; omega)
  rw [hidx]
  exact Rect.overlay_emb (Rect.unit (s := ⟨2, ![N, M]⟩) off ![n, m] inb) f v _

/-- What it leaves at an index outside the rectangle: the old contents. -/
theorem overlay_unit_out (f : (⟨2, ![N, M]⟩ : Shape).Idx → α) (off : Fin 2 → ℕ)
    (inb : ∀ a, off a + (![n, m] : Fin 2 → ℕ) a ≤ (⟨2, ![N, M]⟩ : Shape).size a) (v : (⟨2, ![n, m]⟩ : Shape).Idx → α)
    (a : Fin N) (b : Fin M) (h : ¬ ((off 0 ≤ a.val ∧ a.val < off 0 + n) ∧ (off 1 ≤ b.val ∧ b.val < off 1 + m))) :
    (Rect.unit (s := ⟨2, ![N, M]⟩) off ![n, m] inb).overlay f v (ix2 a b) = f (ix2 a b) :=
  Rect.overlay_of_not_mem _ f v (fun hm => h ((mem_unit_iff off inb a b).mp hm))

/-- Both at once. -/
theorem overlay_unit_apply (f : (⟨2, ![N, M]⟩ : Shape).Idx → α) (off : Fin 2 → ℕ)
    (inb : ∀ a, off a + (![n, m] : Fin 2 → ℕ) a ≤ (⟨2, ![N, M]⟩ : Shape).size a) (v : (⟨2, ![n, m]⟩ : Shape).Idx → α)
    (a : Fin N) (b : Fin M) :
    (Rect.unit (s := ⟨2, ![N, M]⟩) off ![n, m] inb).overlay f v (ix2 a b)
      = if h : (off 0 ≤ a.val ∧ a.val < off 0 + n) ∧ (off 1 ≤ b.val ∧ b.val < off 1 + m)
        then v (ix2 (⟨a.val - off 0, by omega⟩ : Fin n) (⟨b.val - off 1, by omega⟩ : Fin m)) else f (ix2 a b) := by
  by_cases h : (off 0 ≤ a.val ∧ a.val < off 0 + n) ∧ (off 1 ≤ b.val ∧ b.val < off 1 + m)
  · rw [dif_pos h]; exact overlay_unit_in f off inb v a b h.1 h.2
  · rw [dif_neg h]; exact overlay_unit_out f off inb v a b h

/-- Reading back through the rectangle just stored through gives the stored value. -/
theorem overlay_idx {S : Shape} (r : Rect S) (f : S.Idx → α) (v : r.shape.Idx → α) (x : r.shape.Idx) :
    r.overlay f v (r.idx x) = v x := Rect.overlay_emb r f v x

end Store

end Generic

/-! ## Row blocks, column halves and stacked rows, read and stored through the body's rectangles -/

/-- Indices with equal coordinates are equal. -/
theorem ix2_congr {n0 n1 : ℕ} {a a' : Fin n0} {b b' : Fin n1} (ha : a.val = a'.val) (hb : b.val = b'.val) :
    ix2 a b = ix2 a' b' := by
  cases Fin.ext ha; cases Fin.ext hb; rfl

/-- The offsets `![0, 0]` are zero on every axis (the form the whole-shape lemmas ask for). -/
theorem zero2 : (![0, 0] : Fin 2 → ℕ) = fun _ => 0 := by
  funext a; match a with | ⟨0, _⟩ => rfl | ⟨1, _⟩ => rfl

section Blocks

variable {α : Type} {m : ℕ}

/-- A matrix assembled from sixteen row blocks has them as its row blocks. -/
theorem rowBlk_asm16 (blk : Fin 16 → ((⟨2, ![256, m]⟩ : Shape).Idx → α)) (b : Fin 16) : rowBlk (asm16 blk) b = blk b := by
  funext y
  obtain ⟨r, q, rfl⟩ : ∃ (r : Fin 256) (q : Fin m), y = ix2 r q := ⟨y 0, y 1, eq_ix2 y⟩
  have hb := b.isLt; have hr := r.isLt
  have h1 : (256 * b.val + r.val) / 256 = b.val := by omega
  have h2 : (256 * b.val + r.val) % 256 = r.val := by omega
  show blk ⟨(256 * b.val + r.val) / 256, _⟩ (ix2 ⟨(256 * b.val + r.val) % 256, _⟩ q) = blk b (ix2 r q)
  exact congr (congrArg blk (Fin.ext h1)) (ix2_congr h2 rfl)

/-- A matrix is assembled from its own row blocks. -/
theorem asm16_rowBlk (f : (⟨2, ![4096, m]⟩ : Shape).Idx → α) : asm16 (rowBlk f) = f := by
  funext j
  obtain ⟨a, c, rfl⟩ : ∃ (a : Fin 4096) (c : Fin m), j = ix2 a c := ⟨j 0, j 1, eq_ix2 j⟩
  have ha := a.isLt
  exact congrArg f (ix2_congr (show 256 * (a.val / 256) + a.val % 256 = a.val by omega) rfl)

/-- Agreement on no rows holds of any two matrices; agreement on more rows gives agreement on fewer. -/
theorem agreeRows_zero (f g : (⟨2, ![4096, m]⟩ : Shape).Idx → α) : AgreeRows f g 0 :=
  fun r c h => absurd h (by omega)
theorem agreeRows_mono {f g : (⟨2, ![4096, m]⟩ : Shape).Idx → α} {k k' : ℕ} (h : AgreeRows f g k) (hk : k' ≤ k) :
    AgreeRows f g k' := fun r c hr => h r c (by omega)
theorem agreeRows_refl (f : (⟨2, ![4096, m]⟩ : Shape).Idx → α) (k : ℕ) : AgreeRows f f k := fun _ _ _ => rfl

/-- Agreement on all sixteen blocks is equality. -/
theorem eq_of_agreeRows_16 {f g : (⟨2, ![4096, m]⟩ : Shape).Idx → α} (h : AgreeRows f g 16) : f = g := by
  funext j
  obtain ⟨a, c, rfl⟩ : ∃ (a : Fin 4096) (c : Fin m), j = ix2 a c := ⟨j 0, j 1, eq_ix2 j⟩
  exact h a c (by have := a.isLt; omega)

/-- Matrices that agree on their first `k` blocks have the same `b`-th block for `b < k`. -/
theorem rowBlk_eq_of_agreeRows {f g : (⟨2, ![4096, m]⟩ : Shape).Idx → α} {k : ℕ} (h : AgreeRows f g k) (b : Fin 16)
    (hb : b.val < k) : rowBlk f b = rowBlk g b := by
  funext y
  have := idx2_lt0 y
  exact h _ _ (by show 256 * b.val + (y 0).val < 256 * k; omega)

/-- Storing `v` at row block `k` of a matrix that agreed with `G` on the first `k` blocks, `v` being `G`'s block `k`,
    leaves a matrix that agrees with `G` on the first `k + 1`. -/
theorem agreeRows_overlay (f G : (⟨2, ![4096, m]⟩ : Shape).Idx → α) (k : ℕ) (hk : k < 16) (off : Fin 2 → ℕ)
    (hoff : off = ![256 * k, 0]) (inb : ∀ a, off a + (![256, m] : Fin 2 → ℕ) a ≤ (⟨2, ![4096, m]⟩ : Shape).size a)
    (v : (⟨2, ![256, m]⟩ : Shape).Idx → α) (hf : AgreeRows f G k) (hv : v = rowBlk G ⟨k, hk⟩) :
    AgreeRows ((Rect.unit (s := ⟨2, ![4096, m]⟩) off ![256, m] inb).overlay f v) G (k + 1) := by
  have h0 : off 0 = 256 * k := by rw [hoff]; rfl
  have h1 : off 1 = 0 := by rw [hoff]; rfl
  subst hv
  intro r c hr
  have hc := c.isLt
  by_cases h : 256 * k ≤ r.val
  · rw [overlay_unit_in f off inb _ r c ⟨by omega, by omega⟩ ⟨by omega, by omega⟩]
    exact congrArg G (ix2_congr (by show 256 * k + (r.val - off 0) = r.val; omega) (by show c.val - off 1 = c.val; omega))
  · rw [overlay_unit_out f off inb _ r c (fun hh => h (by omega))]
    exact hf r c (by omega)

/-- Storing at row block `k` leaves every other row block as it was. -/
theorem rowBlk_overlay_of_ne (f : (⟨2, ![4096, m]⟩ : Shape).Idx → α) (k : ℕ) (off : Fin 2 → ℕ)
    (hoff : off = ![256 * k, 0]) (inb : ∀ a, off a + (![256, m] : Fin 2 → ℕ) a ≤ (⟨2, ![4096, m]⟩ : Shape).size a)
    (v : (⟨2, ![256, m]⟩ : Shape).Idx → α) (b : Fin 16) (hb : b.val ≠ k) :
    rowBlk ((Rect.unit (s := ⟨2, ![4096, m]⟩) off ![256, m] inb).overlay f v) b = rowBlk f b := by
  have h0 : off 0 = 256 * k := by rw [hoff]; rfl
  funext y
  have := idx2_lt0 y
  exact overlay_unit_out f off inb v _ (y 1) (fun hh => by have := hh.1; simp only [] at this; omega)

/-- Storing at row block `k` leaves `v` as that row block. -/
theorem rowBlk_overlay_self (f : (⟨2, ![4096, m]⟩ : Shape).Idx → α) (k : Fin 16) (off : Fin 2 → ℕ)
    (hoff : off = ![256 * k.val, 0]) (inb : ∀ a, off a + (![256, m] : Fin 2 → ℕ) a ≤ (⟨2, ![4096, m]⟩ : Shape).size a)
    (v : (⟨2, ![256, m]⟩ : Shape).Idx → α) :
    rowBlk ((Rect.unit (s := ⟨2, ![4096, m]⟩) off ![256, m] inb).overlay f v) k = v := by
  have h0 : off 0 = 256 * k.val := by rw [hoff]; rfl
  have h1 : off 1 = 0 := by rw [hoff]; rfl
  funext y
  obtain ⟨r, q, rfl⟩ : ∃ (r : Fin 256) (q : Fin m), y = ix2 r q := ⟨y 0, y 1, eq_ix2 y⟩
  have hr := r.isLt; have hq := q.isLt
  refine (overlay_unit_in f off inb v ⟨256 * k.val + r.val, by have := k.isLt; omega⟩ q ⟨by show off 0 ≤ 256 * k.val + r.val; omega, by show 256 * k.val + r.val < off 0 + 256; omega⟩ ⟨by omega, by omega⟩).trans ?_
  exact congrArg v (ix2_congr (by show 256 * k.val + r.val - off 0 = r.val; omega) (by show q.val - off 1 = q.val; omega))

end Blocks

section BlockLoads

variable {Val : EltTy → Type} {e : EltTy} {m : ℕ}

/-- The load of rows `256·b … 256·b + 255` of a 4096-row matrix IS its row block `b`. -/
theorem ld_rowBlk (f : (⟨2, ![4096, m]⟩ : Shape).Idx → Val e) (b : Fin 16) (off : Fin 2 → ℕ) (hoff : off = ![256 * b.val, 0])
    (inb : ∀ a, off a + (![256, m] : Fin 2 → ℕ) a ≤ (⟨2, ![4096, m]⟩ : Shape).size a) :
    Idealize.ShloMosaic.View.ld f (Rect.unit (s := ⟨2, ![4096, m]⟩) off ![256, m] inb) = rowBlk f b := by
  have h0 : off 0 = 256 * b.val := by rw [hoff]; rfl
  have h1 : off 1 = 0 := by rw [hoff]; rfl
  funext y
  obtain ⟨r, q, rfl⟩ : ∃ (r : Fin 256) (q : Fin m), y = ix2 r q := ⟨y 0, y 1, eq_ix2 y⟩
  rw [ld_unit_apply]
  exact congrArg f (ix2_congr (by show off 0 + r.val = 256 * b.val + r.val; omega) (by show off 1 + q.val = q.val; omega))

/-- The load of rows `256·b …` and columns `128 … 255` of a 4096 × 256 matrix IS row block `b` of its right half. -/
theorem ld_rowBlk_rcol (f : (⟨2, ![4096, 256]⟩ : Shape).Idx → Val e) (b : Fin 16) (off : Fin 2 → ℕ)
    (hoff : off = ![256 * b.val, 128])
    (inb : ∀ a, off a + (![256, 128] : Fin 2 → ℕ) a ≤ (⟨2, ![4096, 256]⟩ : Shape).size a) :
    Idealize.ShloMosaic.View.ld f (Rect.unit (s := ⟨2, ![4096, 256]⟩) off ![256, 128] inb) = rowBlk (rcol f) b := by
  have h0 : off 0 = 256 * b.val := by rw [hoff]; rfl
  have h1 : off 1 = 128 := by rw [hoff]; rfl
  funext y
  obtain ⟨r, q, rfl⟩ : ∃ (r : Fin 256) (q : Fin 128), y = ix2 r q := ⟨y 0, y 1, eq_ix2 y⟩
  rw [ld_unit_apply]
  exact congrArg f (ix2_congr (by show off 0 + r.val = 256 * b.val + r.val; omega) (by show off 1 + q.val = 128 + q.val; omega))

/-- The same for the left half. -/
theorem ld_rowBlk_lcol (f : (⟨2, ![4096, 256]⟩ : Shape).Idx → Val e) (b : Fin 16) (off : Fin 2 → ℕ)
    (hoff : off = ![256 * b.val, 0])
    (inb : ∀ a, off a + (![256, 128] : Fin 2 → ℕ) a ≤ (⟨2, ![4096, 256]⟩ : Shape).size a) :
    Idealize.ShloMosaic.View.ld f (Rect.unit (s := ⟨2, ![4096, 256]⟩) off ![256, 128] inb) = rowBlk (lcol f) b := by
  have h0 : off 0 = 256 * b.val := by rw [hoff]; rfl
  have h1 : off 1 = 0 := by rw [hoff]; rfl
  funext y
  obtain ⟨r, q, rfl⟩ : ∃ (r : Fin 256) (q : Fin 128), y = ix2 r q := ⟨y 0, y 1, eq_ix2 y⟩
  rw [ld_unit_apply]
  exact congrArg f (ix2_congr (by show off 0 + r.val = 256 * b.val + r.val; omega) (by show off 1 + q.val = q.val; omega))

/-- The load of the left 128 columns of a 256-column matrix IS its left half; of the right 128, its right half. -/
theorem ld_lcol {n : ℕ} (f : (⟨2, ![n, 256]⟩ : Shape).Idx → Val e) (off : Fin 2 → ℕ) (hoff : off = ![0, 0])
    (inb : ∀ a, off a + (![n, 128] : Fin 2 → ℕ) a ≤ (⟨2, ![n, 256]⟩ : Shape).size a) :
    Idealize.ShloMosaic.View.ld f (Rect.unit (s := ⟨2, ![n, 256]⟩) off ![n, 128] inb) = lcol f := by
  have h0 : off 0 = 0 := by rw [hoff]; rfl
  have h1 : off 1 = 0 := by rw [hoff]; rfl
  funext y
  obtain ⟨r, q, rfl⟩ : ∃ (r : Fin n) (q : Fin 128), y = ix2 r q := ⟨y 0, y 1, eq_ix2 y⟩
  rw [ld_unit_apply]
  exact congrArg f (ix2_congr (by show off 0 + r.val = r.val; omega) (by show off 1 + q.val = q.val; omega))
theorem ld_rcol {n : ℕ} (f : (⟨2, ![n, 256]⟩ : Shape).Idx → Val e) (off : Fin 2 → ℕ) (hoff : off = ![0, 128])
    (inb : ∀ a, off a + (![n, 128] : Fin 2 → ℕ) a ≤ (⟨2, ![n, 256]⟩ : Shape).size a) :
    Idealize.ShloMosaic.View.ld f (Rect.unit (s := ⟨2, ![n, 256]⟩) off ![n, 128] inb) = rcol f := by
  have h0 : off 0 = 0 := by rw [hoff]; rfl
  have h1 : off 1 = 128 := by rw [hoff]; rfl
  funext y
  obtain ⟨r, q, rfl⟩ : ∃ (r : Fin n) (q : Fin 128), y = ix2 r q := ⟨y 0, y 1, eq_ix2 y⟩
  rw [ld_unit_apply]
  exact congrArg f (ix2_congr (by show off 0 + r.val = r.val; omega) (by show off 1 + q.val = 128 + q.val; omega))

end BlockLoads

/-! ## Column halves: `hcat`, and stores into the left or right 128 columns -/

section Halves

variable {α : Type} {n : ℕ}

/-- `hcat` at an index of the left half, and of the right half. -/
theorem hcat_left (L R : (⟨2, ![n, 128]⟩ : Shape).Idx → α) (a : Fin n) (b : Fin 256) (h : b.val < 128) :
    hcat L R (ix2 a b) = L (ix2 a ⟨b.val, h⟩) := dif_pos h
theorem hcat_right (L R : (⟨2, ![n, 128]⟩ : Shape).Idx → α) (a : Fin n) (b : Fin 256) (h : ¬ b.val < 128) :
    hcat L R (ix2 a b) = R (ix2 a ⟨b.val - 128, by have := b.isLt; omega⟩) := dif_neg h

/-- The halves of two matrices side by side are the two matrices. -/
theorem lcol_hcat (L R : (⟨2, ![n, 128]⟩ : Shape).Idx → α) : lcol (hcat L R) = L := by
  funext y
  obtain ⟨r, q, rfl⟩ : ∃ (r : Fin n) (q : Fin 128), y = ix2 r q := ⟨y 0, y 1, eq_ix2 y⟩
  exact (hcat_left L R r ⟨q.val, by have := q.isLt; omega⟩ q.isLt).trans (congrArg L (ix2_congr rfl rfl))
theorem rcol_hcat (L R : (⟨2, ![n, 128]⟩ : Shape).Idx → α) : rcol (hcat L R) = R := by
  funext y
  obtain ⟨r, q, rfl⟩ : ∃ (r : Fin n) (q : Fin 128), y = ix2 r q := ⟨y 0, y 1, eq_ix2 y⟩
  have hq := q.isLt
  exact (hcat_right L R r ⟨128 + q.val, by omega⟩ (by show ¬ 128 + q.val < 128; omega)).trans
    (congrArg R (ix2_congr rfl (by show 128 + q.val - 128 = q.val; omega)))

/-- A matrix is its two halves side by side. -/
theorem hcat_lcol_rcol (f : (⟨2, ![n, 256]⟩ : Shape).Idx → α) : hcat (lcol f) (rcol f) = f := by
  funext j
  obtain ⟨a, b, rfl⟩ : ∃ (a : Fin n) (b : Fin 256), j = ix2 a b := ⟨j 0, j 1, eq_ix2 j⟩
  have hb' := b.isLt
  by_cases hb : b.val < 128
  · rw [hcat_left _ _ a b hb]; exact congrArg f (ix2_congr rfl rfl)
  · rw [hcat_right _ _ a b hb]; exact congrArg f (ix2_congr rfl (by show 128 + (b.val - 128) = b.val; omega))

/-- Storing `L` into the left 128 columns leaves `L` beside the old right half. -/
theorem overlay_lcol (f : (⟨2, ![n, 256]⟩ : Shape).Idx → α) (off : Fin 2 → ℕ) (hoff : off = ![0, 0])
    (inb : ∀ a, off a + (![n, 128] : Fin 2 → ℕ) a ≤ (⟨2, ![n, 256]⟩ : Shape).size a) (L : (⟨2, ![n, 128]⟩ : Shape).Idx → α) :
    (Rect.unit (s := ⟨2, ![n, 256]⟩) off ![n, 128] inb).overlay f L = hcat L (rcol f) := by
  have h0 : off 0 = 0 := by rw [hoff]; rfl
  have h1 : off 1 = 0 := by rw [hoff]; rfl
  funext j
  obtain ⟨a, b, rfl⟩ : ∃ (a : Fin n) (b : Fin 256), j = ix2 a b := ⟨j 0, j 1, eq_ix2 j⟩
  have ha := a.isLt; have hb' := b.isLt
  by_cases hb : b.val < 128
  · rw [overlay_unit_in f off inb L a b ⟨by omega, by omega⟩ ⟨by omega, by omega⟩, hcat_left _ _ a b hb]
    exact congrArg L (ix2_congr (by show a.val - off 0 = a.val; omega) (by show b.val - off 1 = b.val; omega))
  · rw [overlay_unit_out f off inb L a b (fun hh => by obtain ⟨_, _, h2⟩ := hh; omega), hcat_right _ _ a b hb]
    exact congrArg f (ix2_congr rfl (by show b.val = 128 + (b.val - 128); omega))

/-- Storing `R` into the right 128 columns leaves the old left half beside `R`. -/
theorem overlay_rcol (f : (⟨2, ![n, 256]⟩ : Shape).Idx → α) (off : Fin 2 → ℕ) (hoff : off = ![0, 128])
    (inb : ∀ a, off a + (![n, 128] : Fin 2 → ℕ) a ≤ (⟨2, ![n, 256]⟩ : Shape).size a) (R : (⟨2, ![n, 128]⟩ : Shape).Idx → α) :
    (Rect.unit (s := ⟨2, ![n, 256]⟩) off ![n, 128] inb).overlay f R = hcat (lcol f) R := by
  have h0 : off 0 = 0 := by rw [hoff]; rfl
  have h1 : off 1 = 128 := by rw [hoff]; rfl
  funext j
  obtain ⟨a, b, rfl⟩ : ∃ (a : Fin n) (b : Fin 256), j = ix2 a b := ⟨j 0, j 1, eq_ix2 j⟩
  have ha := a.isLt; have hb' := b.isLt
  by_cases hb : b.val < 128
  · rw [overlay_unit_out f off inb R a b (fun hh => by obtain ⟨_, h2, _⟩ := hh; omega), hcat_left _ _ a b hb]
    exact congrArg f (ix2_congr rfl rfl)
  · rw [overlay_unit_in f off inb R a b ⟨by omega, by omega⟩ ⟨by omega, by omega⟩, hcat_right _ _ a b hb]
    exact congrArg R (ix2_congr (by show a.val - off 0 = a.val; omega) (by show b.val - off 1 = b.val - 128; omega))

/-- So the halves after a store into one of them: the stored one is the payload, the other is untouched. -/
theorem lcol_overlay_lcol (f : (⟨2, ![n, 256]⟩ : Shape).Idx → α) (off : Fin 2 → ℕ) (hoff : off = ![0, 0])
    (inb : ∀ a, off a + (![n, 128] : Fin 2 → ℕ) a ≤ (⟨2, ![n, 256]⟩ : Shape).size a) (L : (⟨2, ![n, 128]⟩ : Shape).Idx → α) :
    lcol ((Rect.unit (s := ⟨2, ![n, 256]⟩) off ![n, 128] inb).overlay f L) = L := by
  rw [overlay_lcol f off hoff inb L, lcol_hcat]
theorem rcol_overlay_lcol (f : (⟨2, ![n, 256]⟩ : Shape).Idx → α) (off : Fin 2 → ℕ) (hoff : off = ![0, 0])
    (inb : ∀ a, off a + (![n, 128] : Fin 2 → ℕ) a ≤ (⟨2, ![n, 256]⟩ : Shape).size a) (L : (⟨2, ![n, 128]⟩ : Shape).Idx → α) :
    rcol ((Rect.unit (s := ⟨2, ![n, 256]⟩) off ![n, 128] inb).overlay f L) = rcol f := by
  rw [overlay_lcol f off hoff inb L, rcol_hcat]
theorem lcol_overlay_rcol (f : (⟨2, ![n, 256]⟩ : Shape).Idx → α) (off : Fin 2 → ℕ) (hoff : off = ![0, 128])
    (inb : ∀ a, off a + (![n, 128] : Fin 2 → ℕ) a ≤ (⟨2, ![n, 256]⟩ : Shape).size a) (R : (⟨2, ![n, 128]⟩ : Shape).Idx → α) :
    lcol ((Rect.unit (s := ⟨2, ![n, 256]⟩) off ![n, 128] inb).overlay f R) = lcol f := by
  rw [overlay_rcol f off hoff inb R, lcol_hcat]
theorem rcol_overlay_rcol (f : (⟨2, ![n, 256]⟩ : Shape).Idx → α) (off : Fin 2 → ℕ) (hoff : off = ![0, 128])
    (inb : ∀ a, off a + (![n, 128] : Fin 2 → ℕ) a ≤ (⟨2, ![n, 256]⟩ : Shape).size a) (R : (⟨2, ![n, 128]⟩ : Shape).Idx → α) :
    rcol ((Rect.unit (s := ⟨2, ![n, 256]⟩) off ![n, 128] inb).overlay f R) = R := by
  rw [overlay_rcol f off hoff inb R, rcol_hcat]

/-- Storing `L` into the left and then `R` into the right 128 columns gives `hcat L R`, whatever was there. -/
theorem overlay_lcol_rcol (f : (⟨2, ![n, 256]⟩ : Shape).Idx → α) (offL : Fin 2 → ℕ) (hL : offL = ![0, 0])
    (inbL : ∀ a, offL a + (![n, 128] : Fin 2 → ℕ) a ≤ (⟨2, ![n, 256]⟩ : Shape).size a) (offR : Fin 2 → ℕ) (hR : offR = ![0, 128])
    (inbR : ∀ a, offR a + (![n, 128] : Fin 2 → ℕ) a ≤ (⟨2, ![n, 256]⟩ : Shape).size a) (L R : (⟨2, ![n, 128]⟩ : Shape).Idx → α) :
    (Rect.unit (s := ⟨2, ![n, 256]⟩) offR ![n, 128] inbR).overlay
      ((Rect.unit (s := ⟨2, ![n, 256]⟩) offL ![n, 128] inbL).overlay f L) R = hcat L R := by
  rw [overlay_rcol _ offR hR inbR R, lcol_overlay_lcol f offL hL inbL L]

end Halves

/-! ## A store of a whole-shape value; a load of the whole shape -/

section Whole

variable {α : Type}

/-- A store through the whole-shape rectangle at zero offsets (however the zeros are spelt) replaces the contents. -/
theorem overlay_unit_zero {S : Shape} {off : Fin S.rank → ℕ} (h : off = fun _ => 0) (inb : ∀ a, off a + S.size a ≤ S.size a)
    (f v : S.Idx → α) : (Rect.unit off S.size inb).overlay f v = v := by
  subst h; funext y
  have e := Rect.overlay_emb (Rect.whole S) f v y
  rw [Rect.emb_whole_apply] at e
  exact e

/-- The same for a matrix, the offsets `![0, 0]` and the sizes a literal. -/
theorem overlay_whole2 {N M : ℕ} (f v : (⟨2, ![N, M]⟩ : Shape).Idx → α) (off : Fin 2 → ℕ) (hoff : off = ![0, 0])
    (inb : ∀ a, off a + (![N, M] : Fin 2 → ℕ) a ≤ (⟨2, ![N, M]⟩ : Shape).size a) :
    (Rect.unit (s := ⟨2, ![N, M]⟩) off ![N, M] inb).overlay f v = v :=
  overlay_unit_zero (S := ⟨2, ![N, M]⟩) (hoff.trans zero2) inb f v

/-- A load of the whole matrix reads the matrix. -/
theorem ld_whole2 {Val : EltTy → Type} {e : EltTy} {N M : ℕ} (f : (⟨2, ![N, M]⟩ : Shape).Idx → Val e) (off : Fin 2 → ℕ)
    (hoff : off = ![0, 0]) (inb : ∀ a, off a + (![N, M] : Fin 2 → ℕ) a ≤ (⟨2, ![N, M]⟩ : Shape).size a) :
    Idealize.ShloMosaic.View.ld f (Rect.unit (s := ⟨2, ![N, M]⟩) off ![N, M] inb) = f := by
  have hz := hoff.trans zero2
  subst hz
  funext x
  show f ((Rect.whole (⟨2, ![N, M]⟩ : Shape)).emb x) = f x
  rw [Rect.emb_whole_apply]

end Whole

/-! ## Two rows stacked -/

section Rows

variable {α : Type} {m : ℕ}

/-- `vcat2` at an index of its first row, and of its second. -/
theorem vcat2_row0 (top bot : (⟨2, ![1, m]⟩ : Shape).Idx → α) (c : Fin m) :
    vcat2 top bot (ix2 (0 : Fin 2) c) = top (ix2 0 c) := if_pos rfl
theorem vcat2_row1 (top bot : (⟨2, ![1, m]⟩ : Shape).Idx → α) (c : Fin m) :
    vcat2 top bot (ix2 (1 : Fin 2) c) = bot (ix2 0 c) := if_neg (by show ¬ ((1 : Fin 2).val = 0); decide)

/-- Storing a row into row 0 and then a row into row 1 of a two-row buffer gives the two rows stacked. -/
theorem overlay_rows (f : (⟨2, ![2, m]⟩ : Shape).Idx → α) (off0 : Fin 2 → ℕ) (h0 : off0 = ![0, 0])
    (inb0 : ∀ a, off0 a + (![1, m] : Fin 2 → ℕ) a ≤ (⟨2, ![2, m]⟩ : Shape).size a) (off1 : Fin 2 → ℕ) (h1 : off1 = ![1, 0])
    (inb1 : ∀ a, off1 a + (![1, m] : Fin 2 → ℕ) a ≤ (⟨2, ![2, m]⟩ : Shape).size a) (top bot : (⟨2, ![1, m]⟩ : Shape).Idx → α) :
    (Rect.unit (s := ⟨2, ![2, m]⟩) off1 ![1, m] inb1).overlay
      ((Rect.unit (s := ⟨2, ![2, m]⟩) off0 ![1, m] inb0).overlay f top) bot = vcat2 top bot := by
  have h00 : off0 0 = 0 := by rw [h0]; rfl
  have h01 : off0 1 = 0 := by rw [h0]; rfl
  have h10 : off1 0 = 1 := by rw [h1]; rfl
  have h11 : off1 1 = 0 := by rw [h1]; rfl
  funext j
  obtain ⟨a, c, rfl⟩ : ∃ (a : Fin 2) (c : Fin m), j = ix2 a c := ⟨j 0, j 1, eq_ix2 j⟩
  have ha' := a.isLt; have hc := c.isLt
  by_cases ha : a.val = 0
  · rw [overlay_unit_out _ off1 inb1 bot a c (fun hh => by obtain ⟨⟨h2, _⟩, _⟩ := hh; omega),
      overlay_unit_in f off0 inb0 top a c ⟨by omega, by omega⟩ ⟨by omega, by omega⟩]
    show _ = if a.val = 0 then top (ix2 0 c) else bot (ix2 0 c)
    rw [if_pos ha]
    exact congrArg top (ix2_congr (by show a.val - off0 0 = 0; omega) (by show c.val - off0 1 = c.val; omega))
  · rw [overlay_unit_in _ off1 inb1 bot a c ⟨by omega, by omega⟩ ⟨by omega, by omega⟩]
    show _ = if a.val = 0 then top (ix2 0 c) else bot (ix2 0 c)
    rw [if_neg ha]
    exact congrArg bot (ix2_congr (by show a.val - off1 0 = 0; omega) (by show c.val - off1 1 = c.val; omega))

end Rows

/-! ## From a list of stores to overlays -/

section Lists

variable {sig : RefSig} {κ : Kind} {sp : Space} {s : Shape} {e : EltTy} {Val : EltTy → Type}

/-- What a view reads after a run of stores: the last store's payload laid over what it read after the earlier ones. -/
theorem read_writes_cons (v : View sig κ sp s e) (f : v.ty.Contents Val) (r : Rect s) (w : r.shape.Idx → Val e)
    (L : List (Idealize.ShloMosaic.View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    rw [show r.idx x = r.emb x from rfl, Idealize.ShloMosaic.View.read_writes_cons_emb, Rect.overlay_emb]
  · rw [Rect.overlay_of_not_mem _ _ _ hy, Idealize.ShloMosaic.View.writes_cons,
      Idealize.ShloMosaic.View.read_slice_write_of_not_mem r _ _ _ (by rwa [Rect.map_emb_univ])]

/-- One store: its payload laid over what the view read before. -/
theorem read_write_slice (v : View sig κ sp s e) (f : v.ty.Contents Val) (r : Rect s) (w : r.shape.Idx → Val e) :
    v.read Val ((v.slice r).write Val f w Finset.univ) = r.overlay (v.read Val f) w :=
  read_writes_cons v f r w []

/-- A whole buffer's contents after a run of stores, as overlays (a whole buffer reads as its contents). -/
theorem writes_whole_cons (b : Ref sig κ) (f : b.ty.Contents Val) (r : Rect b.ty.shape) (w : r.shape.Idx → Val b.ty.elt)
    (L : List (Idealize.ShloMosaic.View.Piece Val b.ty.shape b.ty.elt)) :
    (View.whole b).writes Val f (⟨r, w⟩ :: L) = r.overlay ((View.whole b).writes Val f L) w :=
  read_writes_cons (View.whole b) f r w L
theorem writes_whole_one (b : Ref sig κ) (f : b.ty.Contents Val) (r : Rect b.ty.shape) (w : r.shape.Idx → Val b.ty.elt) :
    (View.whole b).writes Val f [⟨r, w⟩] = r.overlay f w :=
  read_writes_cons (View.whole b) f r w []

/-- A load after a run of stores reads, through its rectangle, the overlays. -/
theorem readAt_writes_cons (v : View sig κ sp s e) (f : v.ty.Contents Val) (r : Rect s) (w : r.shape.Idx → Val e)
    (L : List (Idealize.ShloMosaic.View.Piece Val s e)) (B : Rect s) :
    v.readAt Val B (v.writes Val f (⟨r, w⟩ :: L))
      = Idealize.ShloMosaic.View.ld (r.overlay (v.read Val (v.writes Val f L)) w) B := by
  rw [Idealize.ShloMosaic.View.readAt_eq_ld, read_writes_cons]

/-- A load through the rectangle just stored through reads the stored value; through a rectangle that shares no index
    with it, what was there before. -/
theorem ld_overlay_self {S : Shape} (r : Rect S) (f : S.Idx → Val e) (w : r.shape.Idx → Val e) :
    Idealize.ShloMosaic.View.ld (r.overlay f w) r = w := funext fun x => Rect.overlay_emb r f w x
theorem ld_overlay_of_disjoint {S : Shape} (r B : Rect S) (f : S.Idx → Val e) (w : r.shape.Idx → Val e)
    (h : ∀ x, B.idx x ∉ r.set) : Idealize.ShloMosaic.View.ld (r.overlay f w) B = Idealize.ShloMosaic.View.ld f B :=
  funext fun x => Rect.overlay_of_not_mem r f w (h x)

end Lists

end Cert.KernelIdeal.Stack.View

end
-- ==== Proof.StackStep00.lean ====
/-
  One grid point of the graph-convolution stack — stage 0, first block: the first support matrix is built, the running sums are cleared, then the block is parked and the first layer's block computed.
  From the scratch buffers as the points before left them (the invariant at this point) the kernel body runs to
  the invariant at the next point, the input blocks unchanged and the output blocks as stated.

  At this point the body stores four things: the support matrix (features times the first weight, in half precision) into
  the left 128 columns of the support buffer; zero rows into the two running sums; the adjacency's first 256 rows, in
  half precision, into rows 0 … 255 of the parked adjacency; and the first layer's first block — that parked block times
  the support matrix, rectified — into rows 0 … 255 of the first layer's buffer. Before the second point the invariant
  asks exactly for those first 256 rows of the two row-block buffers and for the support matrix; it says nothing yet of
  the running sums or of the later stages' buffers.
-/
import proofs.«181189_g481036337843_cont_8to1c4_37_6_alg».proof.Proof.StackRes
import proofs.«181189_g481036337843_cont_8to1c4_37_6_alg».proof.Proof.StackView

set_option maxRecDepth 16384

noncomputable section

namespace Cert.KernelIdeal.Stack.C00

open Idealize.ShloMosaic Idealize.ShloMosaic.ValueIdx Cert.KernelIdeal Cert.KernelIdeal.Gen

variable {F : FTy → Type} [FloatOps F]

/-! ## One store through a unit-stride rectangle, read back at an index inside it -/

section Pointwise

variable {sig : RefSig} {κ : Kind} {sp : Space} {S : Shape} {e : EltTy} {Val : EltTy → Type}

/-- After one store through the rectangle at offsets `off`, an index `y` of the buffer that is `off + x` coordinate by
    coordinate reads the payload at `x`, whatever the buffer held before. -/
theorem read_store_in (v : View sig κ sp S e) (f : v.ty.Contents Val) (off size : Fin S.rank → Nat)
    (inb : ∀ a, off a + size a ≤ S.size a) (w : (Rect.unit off size inb).shape.Idx → Val e) (y : S.Idx)
    (x : (Rect.unit off size inb).shape.Idx) (hx : ∀ a, (y a).val = off a + (x a).val) :
    v.read Val (v.writes Val f [⟨Rect.unit off size inb, w⟩]) y = w x := by
  have hy : y = (Rect.unit off size inb).emb x := by
    funext a
    apply Fin.ext
    rw [Rect.emb_apply]
    simp only [Rect.off_unit, Rect.stride_unit, Nat.one_mul]
    exact hx a
  rw [hy]
  exact Idealize.ShloMosaic.View.read_writes_cons_emb v f _ w [] x

end Pointwise

/-! ## The assembled matrix, block by block -/

/-- Row `r` of the matrix assembled from sixteen row blocks lies in block `b` at row `r'` when `r = 256·b + r'`. -/
theorem asm16_apply_eq {α : Type} {m : ℕ} (blk : Fin 16 → ((⟨2, ![256, m]⟩ : Shape).Idx → α))
    (j : (⟨2, ![4096, m]⟩ : Shape).Idx) (b : Fin 16) (r' : Fin 256)
    (hb : (j 0).val / 256 = b.val) (hr : (j 0).val % 256 = r'.val) :
    asm16 blk j = blk b (ix2 r' (j 1)) := by
  have e1 : (⟨(j 0).val / 256, by have := idx2_lt0 j; omega⟩ : Fin 16) = b := Fin.ext hb
  have e2 : (⟨(j 0).val % 256, Nat.mod_lt _ (by norm_num)⟩ : Fin 256) = r' := Fin.ext hr
  show blk ⟨(j 0).val / 256, _⟩ (ix2 ⟨(j 0).val % 256, _⟩ (j 1)) = blk b (ix2 r' (j 1))
  rw [e1, e2]

/-! ## The invariant after the first grid point -/

/-- The first grid point (stage 0, block 0) stores the first adjacency block in half precision, the first support matrix
    in the support buffer's left half and the first layer's first block; these are exactly what the invariant asks of
    the scratch buffers before the second grid point: the first 256 rows of the parked adjacency and of the first layer,
    and the support matrix. The other buffers are not constrained yet. -/
theorem inv_next (A : Arrays F) (i : grid0.Coords) (hi : (i 1).val = 0)
    {sig : RefSig} {κ : Kind} {sp : Space}
    (v17 : View sig κ sp S4096x4096 .bf16) (f17 : v17.ty.Contents (Elt F))
    (v18 : View sig κ sp S4096x256 .bf16) (f18 : v18.ty.Contents (Elt F))
    (v19 : View sig κ sp S4096x128 .f32) (f19 : v19.ty.Contents (Elt F))
    (off1 : Fin 2 → ℕ) (hoff1 : off1 = ![256 * (i 1).val, 0]) (inb1 : ∀ a, off1 a + S256x4096.size a ≤ S4096x4096.size a)
    (off2 : Fin 2 → ℕ) (hoff2 : off2 = ![256 * (i 1).val, 0]) (inb2 : ∀ a, off2 a + S256x128.size a ≤ S4096x128.size a)
    (inbL : ∀ a, (![0, 0] : Fin 2 → ℕ) a + S4096x128.size a ≤ S4096x256.size a)
    (p17 : Vec F S256x4096 .bf16) (hp17 : p17 = adjB A (blkOf i))
    (p18 : Vec F S4096x128 .bf16) (hp18 : p18 = S0 A)
    (p19 : Vec F S256x128 .f32) (hp19 : p19 = h1B A (blkOf i))
    (u2 : Vec F S4096x128 .f32) (u3 : Vec F S4096x256 .f32) (accs accq : Vec F S1x256 .f32) :
    Inv A (16 * 0 + (i 1).val + 1)
      { adj := v17.read (Elt F) (v17.writes (Elt F) f17 [⟨Rect.unit off1 S256x4096.size inb1, p17⟩])
        s := v18.read (Elt F) (v18.writes (Elt F) f18 [⟨Rect.unit ![0, 0] S4096x128.size inbL, p18⟩])
        h1 := v19.read (Elt F) (v19.writes (Elt F) f19 [⟨Rect.unit off2 S256x128.size inb2, p19⟩])
        u2 := u2, u3 := u3, accs := accs, accq := accq } := by
  have ht : 16 * 0 + (i 1).val + 1 = 1 := by omega
  have hb : blkOf i = 0 := Fin.ext hi
  rw [ht]
  subst hoff1 hoff2 hp17 hp18 hp19
  rw [hb]
  refine ⟨?_, ?_, ?_, ?_, ?_, ?_, ?_, ?_⟩
  · -- the parked adjacency's first 256 rows are the stored block, which is block 0 of the closed form
    intro r c hr
    have hr' : r.val < 256 := by simpa using hr
    show v17.read (Elt F) (v17.writes (Elt F) f17 [⟨Rect.unit ![256 * (i 1).val, 0] S256x4096.size inb1, adjB A 0⟩]) (ix2 r c) = ADJ A (ix2 r c)
    rw [read_store_in v17 f17 _ _ inb1 (adjB A 0) (ix2 r c) (ix2 ⟨r.val, hr'⟩ c)
      (fun a => by match a with
        | ⟨0, _⟩ => show r.val = 256 * (i 1).val + r.val; omega
        | ⟨1, _⟩ => show c.val = 0 + c.val; omega)]
    exact (asm16_apply_eq (adjB A) (ix2 r c) 0 ⟨r.val, hr'⟩ (by show r.val / 256 = 0; omega) (by show r.val % 256 = r.val; omega)).symm
  · -- the first layer's first 256 rows likewise
    intro r c hr
    have hr' : r.val < 256 := by simpa using hr
    show v19.read (Elt F) (v19.writes (Elt F) f19 [⟨Rect.unit ![256 * (i 1).val, 0] S256x128.size inb2, h1B A 0⟩]) (ix2 r c) = H1 A (ix2 r c)
    rw [read_store_in v19 f19 _ _ inb2 (h1B A 0) (ix2 r c) (ix2 ⟨r.val, hr'⟩ c)
      (fun a => by match a with
        | ⟨0, _⟩ => show r.val = 256 * (i 1).val + r.val; omega
        | ⟨1, _⟩ => show c.val = 0 + c.val; omega)]
    exact (asm16_apply_eq (h1B A) (ix2 r c) 0 ⟨r.val, hr'⟩ (by show r.val / 256 = 0; omega) (by show r.val % 256 = r.val; omega)).symm
  · intro r c hr; exact absurd hr (by simp)
  · intro r c hr; exact absurd hr (by simp)
  · -- the support matrix is the support buffer's left half
    intro _
    funext y
    obtain ⟨r, q, rfl⟩ : ∃ r q, y = ix2 r q := ⟨y 0, y 1, eq_ix2 y⟩
    show v18.read (Elt F) (v18.writes (Elt F) f18 [⟨Rect.unit ![0, 0] S4096x128.size inbL, S0 A⟩]) (ix2 r ⟨q.val, by have := q.isLt; omega⟩) = S0 A (ix2 r q)
    exact read_store_in v18 f18 _ _ inbL (S0 A) _ (ix2 r q)
      (fun a => by match a with
        | ⟨0, _⟩ => show r.val = 0 + r.val; omega
        | ⟨1, _⟩ => show q.val = 0 + q.val; omega)
  · intro h; omega
  · intro h; omega
  · intro h; omega

/-! ## The scratch contents the body leaves -/

/-- The scratch buffers after the first grid point, from the contents of the buffers it reads: the adjacency's block
    parked at the point's rows; the support matrix in the support buffer's left half; the first layer's block, computed
    from what was just parked and from that left half, at the point's rows; the two running sums cleared; the later
    stages' buffers as they were. -/
def next (i : grid0.Coords) (h6 : k0_cond6 i = 1#1)
    (arg2 : Memref sig .tc .vmem S256x4096 .f32) (arg3 : Memref sig .tc .vmem S4096x256 .f32) (arg4 : Memref sig .tc .vmem S256x128 .f32)
    (f2 : arg2.view.ty.Contents (Elt F)) (f3 : arg3.view.ty.Contents (Elt F)) (f4 : arg4.view.ty.Contents (Elt F))
    (f17 : (Memref.whole cc0_scratch0).view.ty.Contents (Elt F)) (f18 : (Memref.whole cc0_scratch1).view.ty.Contents (Elt F))
    (f19 : (Memref.whole cc0_scratch2).view.ty.Contents (Elt F)) (f20 : (Memref.whole cc0_scratch3).view.ty.Contents (Elt F))
    (f21 : (Memref.whole cc0_scratch4).view.ty.Contents (Elt F)) (f22 : (Memref.whole cc0_scratch5).view.ty.Contents (Elt F))
    (f23 : (Memref.whole cc0_scratch6).view.ty.Contents (Elt F)) : St F where
  adj := (Memref.whole cc0_scratch0).view.read (Elt F) ((Memref.whole cc0_scratch0).view.writes (Elt F) f17
    [⟨Rect.unit (s := S4096x4096) (k0_off1 i) S256x4096.size (k0_off1_inb i h6),
      k0_pay18 (View.readAt (Elt F) arg2.view (Rect.unit (s := S256x4096) ![0, 0] S256x4096.size inb_S256x4096_S256x4096_0_0).toLoadRect f2)⟩])
  s := (Memref.whole cc0_scratch1).view.read (Elt F) ((Memref.whole cc0_scratch1).view.writes (Elt F) f18
    [⟨Rect.unit (s := S4096x256) ![0, 0] S4096x128.size inb_S4096x256_S4096x128_0_0,
      k0_pay12 (View.readAt (Elt F) arg3.view (Rect.unit (s := S4096x256) ![0, 0] S4096x256.size inb_S4096x256_S4096x256_0_0).toLoadRect f3)
        (View.readAt (Elt F) arg4.view (Rect.unit (s := S256x128) ![0, 0] S256x128.size inb_S256x128_S256x128_0_0).toLoadRect f4)⟩])
  h1 := (Memref.whole cc0_scratch2).view.read (Elt F) ((Memref.whole cc0_scratch2).view.writes (Elt F) f19
    [⟨Rect.unit (s := S4096x128) (k0_off2 i) S256x128.size (k0_off2_inb i h6),
      k0_pay19
        ((Memref.whole cc0_scratch0).view.readCov
          [⟨Rect.unit (s := S4096x4096) (k0_off1 i) S256x4096.size (k0_off1_inb i h6),
            k0_pay18 (View.readAt (Elt F) arg2.view (Rect.unit (s := S256x4096) ![0, 0] S256x4096.size inb_S256x4096_S256x4096_0_0).toLoadRect f2)⟩]
          (Rect.unit (s := S4096x4096) (k0_off1 i) S256x4096.size (k0_off1_inb i h6)).toLoadRect)
        ((Memref.whole cc0_scratch1).view.readCov
          [⟨Rect.unit (s := S4096x256) ![0, 0] S4096x128.size inb_S4096x256_S4096x128_0_0,
            k0_pay12 (View.readAt (Elt F) arg3.view (Rect.unit (s := S4096x256) ![0, 0] S4096x256.size inb_S4096x256_S4096x256_0_0).toLoadRect f3)
              (View.readAt (Elt F) arg4.view (Rect.unit (s := S256x128) ![0, 0] S256x128.size inb_S256x128_S256x128_0_0).toLoadRect f4)⟩]
          (Rect.unit (s := S4096x256) ![0, 0] S4096x128.size inb_S4096x256_S4096x128_0_0).toLoadRect)⟩])
  u2 := (Memref.whole cc0_scratch3).view.read (Elt F) f20
  u3 := (Memref.whole cc0_scratch4).view.read (Elt F) f21
  accs := (Memref.whole cc0_scratch5).view.read (Elt F) ((Memref.whole cc0_scratch5).view.writes (Elt F) f22
    [⟨Rect.unit (s := S1x256) ![0, 0] S1x256.size inb_S1x256_S1x256_0_0, k0_pay16⟩])
  accq := (Memref.whole cc0_scratch6).view.read (Elt F) ((Memref.whole cc0_scratch6).view.writes (Elt F) f23
    [⟨Rect.unit (s := S1x256) ![0, 0] S1x256.size inb_S1x256_S1x256_0_0, k0_pay17⟩])

/-- They satisfy the invariant at the second point: the three inputs read whole are the adjacency's first row block, the
    features and the first weight, so the three payloads are the closed forms' first blocks and the support matrix. -/
theorem inv_next_point (A : Arrays F) (i : grid0.Coords) (hi : (i 1).val = 0) (h6 : k0_cond6 i = 1#1)
    (arg2 : Memref sig .tc .vmem S256x4096 .f32) (arg3 : Memref sig .tc .vmem S4096x256 .f32) (arg4 : Memref sig .tc .vmem S256x128 .f32)
    (f2 : arg2.view.ty.Contents (Elt F)) (f3 : arg3.view.ty.Contents (Elt F)) (f4 : arg4.view.ty.Contents (Elt F))
    (f17 : (Memref.whole cc0_scratch0).view.ty.Contents (Elt F)) (f18 : (Memref.whole cc0_scratch1).view.ty.Contents (Elt F))
    (f19 : (Memref.whole cc0_scratch2).view.ty.Contents (Elt F)) (f20 : (Memref.whole cc0_scratch3).view.ty.Contents (Elt F))
    (f21 : (Memref.whole cc0_scratch4).view.ty.Contents (Elt F)) (f22 : (Memref.whole cc0_scratch5).view.ty.Contents (Elt F))
    (f23 : (Memref.whole cc0_scratch6).view.ty.Contents (Elt F))
    (x0 : Vec F S256x4096 .f32) (hx0 : x0 = rowBlk A.adj (blkOf i))
    (hf2 : arg2.view.read (Elt F) f2 = x0) (hf3 : arg3.view.read (Elt F) f3 = A.x) (hf4 : arg4.view.read (Elt F) f4 = A.w1) :
    Inv A (16 * 0 + (i 1).val + 1) (next i h6 arg2 arg3 arg4 f2 f3 f4 f17 f18 f19 f20 f21 f22 f23) := by
  have e2 : View.readAt (Elt F) arg2.view
      (Rect.unit (s := S256x4096) ![0, 0] S256x4096.size inb_S256x4096_S256x4096_0_0).toLoadRect f2 = rowBlk A.adj (blkOf i) := by
    rw [Idealize.ShloMosaic.View.readAt_eq_ld, hf2, hx0]; exact View.ld_whole2 _ ![0, 0] rfl _
  have e3 : View.readAt (Elt F) arg3.view
      (Rect.unit (s := S4096x256) ![0, 0] S4096x256.size inb_S4096x256_S4096x256_0_0).toLoadRect f3 = A.x := by
    rw [Idealize.ShloMosaic.View.readAt_eq_ld, hf3]; exact View.ld_whole2 _ ![0, 0] rfl _
  have e4 : View.readAt (Elt F) arg4.view
      (Rect.unit (s := S256x128) ![0, 0] S256x128.size inb_S256x128_S256x128_0_0).toLoadRect f4 = A.w1 := by
    rw [Idealize.ShloMosaic.View.readAt_eq_ld, hf4]; exact View.ld_whole2 _ ![0, 0] rfl _
  have ea : k0_pay18 (View.readAt (Elt F) arg2.view
      (Rect.unit (s := S256x4096) ![0, 0] S256x4096.size inb_S256x4096_S256x4096_0_0).toLoadRect f2) = adjB A (blkOf i) :=
    congrArg (k0_pay18 (F := F)) e2
  have es : k0_pay12 (View.readAt (Elt F) arg3.view
        (Rect.unit (s := S4096x256) ![0, 0] S4096x256.size inb_S4096x256_S4096x256_0_0).toLoadRect f3)
      (View.readAt (Elt F) arg4.view
        (Rect.unit (s := S256x128) ![0, 0] S256x128.size inb_S256x128_S256x128_0_0).toLoadRect f4) = S0 A :=
    congrArg₂ (k0_pay12 (F := F)) e3 e4
  unfold next
  exact inv_next A i hi _ f17 _ f18 _ f19 _ (View.off1_eq i) _ _ (View.off2_eq i) _ _ _ ea _ es _
    (congrArg₂ (k0_pay19 (F := F))
      ((Idealize.ShloMosaic.View.readCov_cons_toLoadRect _ _ _ _).trans ea)
      ((Idealize.ShloMosaic.View.readCov_cons_toLoadRect _ _ _ _).trans es)) _ _ _ _

end Cert.KernelIdeal.Stack.C00

namespace Cert.KernelIdeal.Stack

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 1000000 in
theorem step00 (c : Dev nD) (E : Set ℕ) (i : grid0.Coords) (hs : (i 0).val = 0) (hi : (i 1).val = 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32) (hx0 : x0 = rowBlk A.adj (blkOf i))
    (d11 : Vec F S256x256 .f32) (d12 : Vec F S256x128 .f32) (d13 : Vec F S2x128 .f32) (d14 : Vec F S2x256 .f32)
    (st : St F) (hInv : Inv A (16 * 0 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 0 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  have h6 : k0_cond6 i = 1#1 := View.cond6_pos i hs
  simp only [cc0__gcn_stack_kernel_eq_skeleton]; unfold cc0__gcn_stack_kernel_skel
  simp only [k0_part3_eq_skeleton]; unfold k0_part3_skel
  unfold ins outs scr owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨⟨%f13, %hf13, H13⟩, ⟨%f14, %hf14, H14⟩, ⟨%f15, %hf15, H15⟩, ⟨%f16, %hf16, H16⟩⟩, ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  sl_exec (disch := first | (sl_unfold_run_names; simp only [k0_cond4, k0_cond6, k0_cond7, k0_cond8, k0_cond9, k0_cond10, hs, hi]; decide))
  sl_step
  iapply Hk
  iexists (C00.next i h6 arg2 arg3 arg4 f2 f3 f4 f17 f18 f19 f20 f21 f22 f23)
  isplitr
  · ipureintro; exact C00.inv_next_point A i hi h6 arg2 arg3 arg4 f2 f3 f4 f17 f18 f19 f20 f21 f22 f23 x0 hx0 hf2 hf3 hf4
  isplitl [H2 H3 H4 H5 H6 H7 H8 H9 H10 H11 H12]
  · isplitl [H2]
    · iexists f2; isplitr
      · ipureintro; exact hf2
      · iexact H2
    isplitl [H3]
    · iexists f3; isplitr
      · ipureintro; exact hf3
      · iexact H3
    isplitl [H4]
    · iexists f4; isplitr
      · ipureintro; exact hf4
      · iexact H4
    isplitl [H5]
    · iexists f5; isplitr
      · ipureintro; exact hf5
      · iexact H5
    isplitl [H6]
    · iexists f6; isplitr
      · ipureintro; exact hf6
      · iexact H6
    isplitl [H7]
    · iexists f7; isplitr
      · ipureintro; exact hf7
      · iexact H7
    isplitl [H8]
    · iexists f8; isplitr
      · ipureintro; exact hf8
      · iexact H8
    isplitl [H9]
    · iexists f9; isplitr
      · ipureintro; exact hf9
      · iexact H9
    isplitl [H10]
    · iexists f10; isplitr
      · ipureintro; exact hf10
      · iexact H10
    isplitl [H11]
    · iexists f11; isplitr
      · ipureintro; exact hf11
      · iexact H11
    iexists f12; isplitr
    · ipureintro; exact hf12
    · iexact H12
  isplitl [H13 H14 H15 H16]
  · isplitl [H13]
    · iexists f13; isplitr
      · ipureintro; exact hf13
      · iexact H13
    isplitl [H14]
    · iexists f14; isplitr
      · ipureintro; exact hf14
      · iexact H14
    isplitl [H15]
    · iexists f15; isplitr
      · ipureintro; exact hf15
      · iexact H15
    iexists f16; isplitr
    · ipureintro; exact hf16
    · iexact H16
  isplitl [H17]
  · iexists _; isplitr
    swap; · iexact H17
    ipureintro; simp only [C00.next]; sl_unfold_run_names; rfl
  isplitl [H18]
  · iexists _; isplitr
    swap; · iexact H18
    ipureintro; simp only [C00.next]; sl_unfold_run_names; rfl
  isplitl [H19]
  · iexists _; isplitr
    swap; · iexact H19
    ipureintro; simp only [C00.next]; sl_unfold_run_names; rfl
  isplitl [H20]
  · iexists _; isplitr
    swap; · iexact H20
    ipureintro; simp only [C00.next]
  isplitl [H21]
  · iexists _; isplitr
    swap; · iexact H21
    ipureintro; simp only [C00.next]
  isplitl [H22]
  · iexists _; isplitr
    swap; · iexact H22
    ipureintro; simp only [C00.next]
  iexists _; isplitr
  swap; · iexact H23
  ipureintro; simp only [C00.next]

end Cert.KernelIdeal.Stack

end
-- ==== Proof.StackStep0i.lean ====
/-
  One grid point of the graph-convolution stack — stage 0, a later block: the adjacency's row block is parked in half precision and the first layer's block computed from it.
  From the scratch buffers as the points before left them (the invariant at this point) the kernel body runs to
  the invariant at the next point, the input blocks unchanged and the output blocks as stated.
-/
import proofs.«181189_g481036337843_cont_8to1c4_37_6_alg».proof.Proof.StackRes
import proofs.«181189_g481036337843_cont_8to1c4_37_6_alg».proof.Proof.StackView

set_option maxRecDepth 16384

noncomputable section

namespace Cert.KernelIdeal.Stack

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

namespace C0i

/-! ## The invariant one point on, stage 0, a later block -/

/-- The invariant after block `b` of stage 0 (`b` not the first) from the two buffers the body stores into: both agree
    with their closed forms on one more row block; nothing else is touched. -/
theorem inv_next (A : Arrays F) (b : Fin 16) (hb : b.val ≠ 0) (st : St F) (hInv : Inv A (16 * 0 + b.val) st)
    (adj' : Vec F S4096x4096 .bf16) (h1' : Vec F S4096x128 .f32)
    (hadj : AgreeRows adj' (ADJ A) (b.val + 1)) (hh1 : AgreeRows h1' (H1 A) (b.val + 1)) :
    Inv A (16 * 0 + b.val + 1) ⟨adj', st.s, h1', st.u2, st.u3, st.accs, st.accq⟩ := by
  obtain ⟨ha, hh, hu2, hu3, hs0, hs1, hs2, hs3⟩ := hInv
  have hb' := b.isLt
  have m1 : min (16 * 0 + b.val + 1) 16 = b.val + 1 := by omega
  have z2 : min (16 * 0 + b.val + 1 - 16) 16 = 0 := by omega
  have z3 : min (16 * 0 + b.val + 1 - 32) 16 = 0 := by omega
  refine ⟨?_, ?_, ?_, ?_, ?_, ?_, ?_, ?_⟩
  · rw [m1]; exact hadj
  · rw [m1]; exact hh1
  · rw [z2]; intro r c h; exact absurd h (by omega)
  · rw [z3]; intro r c h; exact absurd h (by omega)
  · intro _; exact hs0 ⟨by omega, by omega⟩
  · intro h; exact absurd h.1 (by omega)
  · intro h; exact absurd h.1 (by omega)
  · intro h; exact absurd h.1 (by omega)

/-- From the invariant before block `b` of stage 0 (`b` not the first): the adjacency's row block `b`, parked in
    half precision at rows `256·b …`, and the first layer's block computed from it and the support's left half, stored
    at the same rows, give the invariant before the next point. -/
theorem step_pure (A : Arrays F) (b : Fin 16) (hb : b.val ≠ 0) (st : St F) (hInv : Inv A (16 * 0 + b.val) st)
    (off1 off2 : Fin 2 → ℕ) (h1 : off1 = ![256 * b.val, 0]) (h2 : off2 = ![256 * b.val, 0])
    (inb1 : ∀ a, off1 a + S256x4096.size a ≤ S4096x4096.size a)
    (inb2 : ∀ a, off2 a + S256x128.size a ≤ S4096x128.size a)
    (inbS : ∀ a, (![0, 0] : Fin 2 → ℕ) a + S4096x128.size a ≤ S4096x256.size a)
    (x0 : Vec F S256x4096 .f32) (hx0 : x0 = rowBlk A.adj b) :
    Inv A (16 * 0 + b.val + 1)
      ⟨(Rect.unit (s := S4096x4096) off1 S256x4096.size inb1).overlay st.adj (k0_pay18 x0),
        st.s,
        (Rect.unit (s := S4096x128) off2 S256x128.size inb2).overlay st.h1
          (k0_pay19 (k0_pay18 x0) (View.ld st.s (Rect.unit (s := S4096x256) ![0, 0] S4096x128.size inbS))),
        st.u2, st.u3, st.accs, st.accq⟩ := by
  have hb' := b.isLt
  have m0 : min (16 * 0 + b.val) 16 = b.val := by omega
  have ha : AgreeRows st.adj (ADJ A) b.val := by have := hInv.1; rwa [m0] at this
  have hh : AgreeRows st.h1 (H1 A) b.val := by have := hInv.2.1; rwa [m0] at this
  have hS0 : lcol st.s = S0 A := hInv.2.2.2.2.1 ⟨by omega, by omega⟩
  have hS : View.ld st.s (Rect.unit (s := S4096x256) ![0, 0] S4096x128.size inbS) = S0 A :=
    (View.ld_lcol st.s ![0, 0] rfl inbS).trans hS0
  subst hx0
  have hvA : k0_pay18 (rowBlk A.adj b) = rowBlk (ADJ A) ⟨b.val, hb'⟩ := (View.rowBlk_asm16 (adjB A) b).symm
  have hvH : k0_pay19 (k0_pay18 (rowBlk A.adj b)) (S0 A) = rowBlk (H1 A) ⟨b.val, hb'⟩ := (View.rowBlk_asm16 (h1B A) b).symm
  rw [hS]
  exact inv_next A b hb st hInv _ _
    (View.agreeRows_overlay st.adj (ADJ A) b.val hb' off1 h1 inb1 (k0_pay18 (rowBlk A.adj b)) ha hvA)
    (View.agreeRows_overlay st.h1 (H1 A) b.val hb' off2 h2 inb2 (k0_pay19 (k0_pay18 (rowBlk A.adj b)) (S0 A)) hh hvH)

/-! ## The scratch contents the body leaves -/

/-- The scratch buffers after a later block of stage 0: the adjacency's block parked at the point's rows, the first
    layer's block stored at the same rows of its buffer; everything else as before. -/
def next (i : grid0.Coords) (h6 : k0_cond6 i = 1#1) (x0 : Vec F S256x4096 .f32) (st : St F) : St F where
  adj := (Rect.unit (s := S4096x4096) (k0_off1 i) S256x4096.size (k0_off1_inb i h6)).overlay st.adj (k0_pay18 x0)
  s := st.s
  h1 := (Rect.unit (s := S4096x128) (k0_off2 i) S256x128.size (k0_off2_inb i h6)).overlay st.h1
    (k0_pay19 (k0_pay18 x0)
      (View.ld st.s (Rect.unit (s := S4096x256) ![0, 0] S4096x128.size inb_S4096x256_S4096x128_0_0)))
  u2 := st.u2
  u3 := st.u3
  accs := st.accs
  accq := st.accq

theorem next_adj (i : grid0.Coords) (h6 : k0_cond6 i = 1#1) (x0 : Vec F S256x4096 .f32) (st : St F) :
    (next i h6 x0 st).adj
      = (Rect.unit (s := S4096x4096) (k0_off1 i) S256x4096.size (k0_off1_inb i h6)).overlay st.adj (k0_pay18 x0) := by
  simp only [next]
theorem next_h1 (i : grid0.Coords) (h6 : k0_cond6 i = 1#1) (x0 : Vec F S256x4096 .f32) (st : St F) :
    (next i h6 x0 st).h1
      = (Rect.unit (s := S4096x128) (k0_off2 i) S256x128.size (k0_off2_inb i h6)).overlay st.h1
          (k0_pay19 (k0_pay18 x0)
            (View.ld st.s (Rect.unit (s := S4096x256) ![0, 0] S4096x128.size inb_S4096x256_S4096x128_0_0))) := by
  simp only [next]
theorem next_s (i : grid0.Coords) (h6 : k0_cond6 i = 1#1) (x0 : Vec F S256x4096 .f32) (st : St F) :
    (next i h6 x0 st).s = st.s := by
  simp only [next]
theorem next_u2 (i : grid0.Coords) (h6 : k0_cond6 i = 1#1) (x0 : Vec F S256x4096 .f32) (st : St F) :
    (next i h6 x0 st).u2 = st.u2 := by
  simp only [next]
theorem next_u3 (i : grid0.Coords) (h6 : k0_cond6 i = 1#1) (x0 : Vec F S256x4096 .f32) (st : St F) :
    (next i h6 x0 st).u3 = st.u3 := by
  simp only [next]
theorem next_accs (i : grid0.Coords) (h6 : k0_cond6 i = 1#1) (x0 : Vec F S256x4096 .f32) (st : St F) :
    (next i h6 x0 st).accs = st.accs := by
  simp only [next]
theorem next_accq (i : grid0.Coords) (h6 : k0_cond6 i = 1#1) (x0 : Vec F S256x4096 .f32) (st : St F) :
    (next i h6 x0 st).accq = st.accq := by
  simp only [next]

/-- They satisfy the invariant at the next point. -/
theorem inv_next_point (A : Arrays F) (i : grid0.Coords) (hi : (i 1).val ≠ 0) (h6 : k0_cond6 i = 1#1)
    (x0 : Vec F S256x4096 .f32) (hx0 : x0 = rowBlk A.adj (blkOf i)) (st : St F)
    (hInv : Inv A (16 * 0 + (i 1).val) st) : Inv A (16 * 0 + (i 1).val + 1) (next i h6 x0 st) :=
  step_pure A (blkOf i) hi st hInv (k0_off1 i) (k0_off2 i) (View.off1_eq i) (View.off2_eq i) _ _ _ x0 hx0

end C0i

set_option maxHeartbeats 1000000 in
theorem step0i (c : Dev nD) (E : Set ℕ) (i : grid0.Coords) (hs : (i 0).val = 0) (hi : (i 1).val ≠ 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32) (hx0 : x0 = rowBlk A.adj (blkOf i))
    (d11 : Vec F S256x256 .f32) (d12 : Vec F S256x128 .f32) (d13 : Vec F S2x128 .f32) (d14 : Vec F S2x256 .f32)
    (st : St F) (hInv : Inv A (16 * 0 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 0 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  have hc4 : ¬ k0_cond4 i = 1#1 := View.cond4_neg i (Or.inl (by omega))
  have hc6 : k0_cond6 i = 1#1 := View.cond6_pos i hs
  have hc7 : ¬ k0_cond7 i = 1#1 := View.cond7_neg i (by omega)
  have hc8 : ¬ k0_cond8 i = 1#1 := View.cond8_neg i (by omega)
  have hc9 : ¬ k0_cond9 i = 1#1 := View.cond9_neg i (by omega)
  have hc10 : ¬ k0_cond10 i = 1#1 := View.cond10_neg i (Or.inl (by omega))
  have hv4 := View.v4_neg i (Or.inr hi)
  have hv9 := View.v9_neg i (Or.inl (by omega))
  have hv14 := View.v14_neg i (Or.inl (by omega))
  have hv22 := View.v22_neg i hi
  simp only [cc0__gcn_stack_kernel_eq_skeleton]; unfold cc0__gcn_stack_kernel_skel
  simp only [k0_part3_eq_skeleton]; unfold k0_part3_skel
  unfold ins scr owns
  iintro ⟨⟨⟨%f2, %hf2, H2⟩, Hins⟩, Houts, ⟨⟨%g0, %hg0, S0⟩, ⟨%g1, %hg1, S1⟩, ⟨%g2, %hg2, S2⟩, ⟨%g3, %hg3, S3⟩, ⟨%g4, %hg4, S4⟩, ⟨%g5, %hg5, S5⟩, ⟨%g6, %hg6, S6⟩⟩, Hk⟩
  sl_exec (disch := first | sl_exact hv4 | sl_exact hv9 | sl_exact hv14 | sl_exact hv22)
  sl_step
  iapply Hk
  iexists (C0i.next i hc6 x0 st)
  isplitr
  · ipureintro; exact C0i.inv_next_point A i hi hc6 x0 hx0 st hInv
  isplitl [H2 Hins]
  · isplitl [H2]
    · iexists f2; isplitr; · ipureintro; exact hf2
      iexact H2
    iexact Hins
  isplitl [Houts]; · iexact Houts
  isplitl [S0]
  · iexists _; isplitr
    swap; · iexact S0
    ipureintro
    have e2 : View.readAt (Elt F) arg2.view
        (Rect.unit (s := S256x4096) ![0, 0] S256x4096.size inb_S256x4096_S256x4096_0_0).toLoadRect f2 = x0 := by
      rw [View.readAt_eq_ld, hf2]; exact View.ld_whole2 x0 ![0, 0] rfl _
    unfold step0i.sl.S0_1
    rw [View.read_writes_cons, View.writes_nil, hg0, C0i.next_adj, e2]
  isplitl [S1]
  · iexists g1; isplitr; · ipureintro; rw [C0i.next_s]; exact hg1
    iexact S1
  isplitl [S2]
  · iexists _; isplitr
    swap; · iexact S2
    ipureintro
    have e2 : View.readAt (Elt F) arg2.view
        (Rect.unit (s := S256x4096) ![0, 0] S256x4096.size inb_S256x4096_S256x4096_0_0).toLoadRect f2 = x0 := by
      rw [View.readAt_eq_ld, hf2]; exact View.ld_whole2 x0 ![0, 0] rfl _
    have e48 : step0i.sl.v48 c i arg2 hc6 f2 = k0_pay18 x0 := by
      unfold step0i.sl.v48 step0i.sl.S0_1
      rw [View.readCov_cons_toLoadRect, e2]
    rw [View.read_writes_cons, View.writes_nil, hg2, C0i.next_h1, e48, View.readAt_eq_ld, hg1]
    rfl
  isplitl [S3]
  · iexists g3; isplitr; · ipureintro; rw [C0i.next_u2]; exact hg3
    iexact S3
  isplitl [S4]
  · iexists g4; isplitr; · ipureintro; rw [C0i.next_u3]; exact hg4
    iexact S4
  isplitl [S5]
  · iexists g5; isplitr; · ipureintro; rw [C0i.next_accs]; exact hg5
    iexact S5
  iexists g6; isplitr; · ipureintro; rw [C0i.next_accq]; exact hg6
  iexact S6

end Cert.KernelIdeal.Stack

end
-- ==== Proof.StackStep10.lean ====
/-
  One grid point of the graph-convolution stack — stage 1, first block: the second support matrix is built from the whole first-layer activation, the sums cleared, then the block.
  From the scratch buffers as the points before left them (the invariant at this point) the kernel body runs to
  the invariant at the next point, the input blocks unchanged and the output blocks as stated.
-/
import proofs.«181189_g481036337843_cont_8to1c4_37_6_alg».proof.Proof.StackRes
import proofs.«181189_g481036337843_cont_8to1c4_37_6_alg».proof.Proof.StackView
import Idealize.ShloMosaic.Lib.Pipeline.Value

set_option maxRecDepth 16384

noncomputable section

namespace Cert.KernelIdeal.Stack.C10

open Idealize.ShloMosaic Idealize.ShloMosaic.TcCoe Idealize.ShloMosaic.ValueIdx Cert.KernelIdeal Cert.KernelIdeal.Gen

variable {F : FTy → Type} [FloatOps F]

/-! ## A whole scratch buffer after a run of stores -/

section Views

variable {sig : RefSig} {κ : Kind} {Val : EltTy → Type}

/-- A whole buffer's contents after a run of stores: the last store's value laid over the earlier stores' result. -/
theorem writes_whole_cons (b : Ref sig κ) (f : b.ty.Contents Val) (r : Rect b.ty.shape) (w : r.shape.Idx → Val b.ty.elt)
    (L : List (Idealize.ShloMosaic.View.Piece Val b.ty.shape b.ty.elt)) :
    (Memref.whole b).view.writes Val f (⟨r, w⟩ :: L) = r.overlay ((Memref.whole b).view.writes Val f L) w :=
  Stack.View.read_writes_cons (Idealize.ShloMosaic.View.whole b) f r w L

/-- A load, through any box, of a buffer a whole-shape store has just filled reads the stored value at the box's indices. -/
theorem readCov_whole_store [∀ e, Nonempty (Val e)] {sp : Space} {S : Shape} {e : EltTy} (v : Idealize.ShloMosaic.View sig κ sp S e)
    {off : Fin S.rank → ℕ} (h : off = fun _ => 0) (inb : ∀ a, off a + S.size a ≤ S.size a) (z : S.Idx → Val e) (B : LoadRect S) :
    v.readCov [⟨Rect.unit off S.size inb, z⟩] B = fun j => z (B.idx j) := by
  rw [Idealize.ShloMosaic.View.readCov_eq_canon', Idealize.ShloMosaic.View.canon_cons_unit_zero h]

end Views

/-! ## The scratch buffers of this grid point, read after its stores -/

/-- The support buffer's left half after the store of a new support into it. -/
theorem lcol_s_store (g1 : Vec F S4096x256 .bf16) (ib : ∀ a, (![0, 0] : Fin 2 → ℕ) a + S4096x128.size a ≤ S4096x256.size a)
    (w : Vec F S4096x128 .bf16) :
    lcol ((Memref.whole cc0_scratch1).view.writes (Elt F) g1 [⟨Rect.unit ![0, 0] S4096x128.size ib, w⟩]) = w :=
  (congrArg lcol (writes_whole_cons cc0_scratch1 g1 (Rect.unit ![0, 0] S4096x128.size ib) w [])).trans
    (Stack.View.lcol_overlay_lcol g1 ![0, 0] rfl ib w)

/-- The support just stored, loaded back through the same rectangle. -/
theorem ld_s_stored (ib : ∀ a, (![0, 0] : Fin 2 → ℕ) a + S4096x128.size a ≤ S4096x256.size a) (w : Vec F S4096x128 .bf16) :
    (Memref.whole cc0_scratch1).view.readCov [⟨Rect.unit ![0, 0] S4096x128.size ib, w⟩]
      (Rect.unit (s := S4096x256) ![0, 0] S4096x128.size ib).toLoadRect = w :=
  Idealize.ShloMosaic.View.readCov_cons_toLoadRect (Memref.whole cc0_scratch1).view (Rect.unit (s := S4096x256) ![0, 0] S4096x128.size ib) w []

/-- A running-sum row cleared and then stored into on its left half: the left half is the stored value. -/
theorem lcol_accs_store (g5 : Vec F S1x256 .f32) (ibh : ∀ a, (![0, 0] : Fin 2 → ℕ) a + S1x128.size a ≤ S1x256.size a)
    (ibz : ∀ a, (![0, 0] : Fin 2 → ℕ) a + S1x256.size a ≤ S1x256.size a) (w : Vec F S1x128 .f32) (z : Vec F S1x256 .f32) :
    lcol ((Memref.whole cc0_scratch5).view.writes (Elt F) g5
      [⟨Rect.unit ![0, 0] S1x128.size ibh, w⟩, ⟨Rect.unit ![0, 0] S1x256.size ibz, z⟩]) = w :=
  (congrArg lcol (writes_whole_cons cc0_scratch5 g5 (Rect.unit ![0, 0] S1x128.size ibh) w [⟨Rect.unit ![0, 0] S1x256.size ibz, z⟩])).trans
    (Stack.View.lcol_overlay_lcol _ ![0, 0] rfl ibh w)

/-- The same for the running sum of squares. -/
theorem lcol_accq_store (g6 : Vec F S1x256 .f32) (ibh : ∀ a, (![0, 0] : Fin 2 → ℕ) a + S1x128.size a ≤ S1x256.size a)
    (ibz : ∀ a, (![0, 0] : Fin 2 → ℕ) a + S1x256.size a ≤ S1x256.size a) (w : Vec F S1x128 .f32) (z : Vec F S1x256 .f32) :
    lcol ((Memref.whole cc0_scratch6).view.writes (Elt F) g6
      [⟨Rect.unit ![0, 0] S1x128.size ibh, w⟩, ⟨Rect.unit ![0, 0] S1x256.size ibz, z⟩]) = w :=
  (congrArg lcol (writes_whole_cons cc0_scratch6 g6 (Rect.unit ![0, 0] S1x128.size ibh) w [⟨Rect.unit ![0, 0] S1x256.size ibz, z⟩])).trans
    (Stack.View.lcol_overlay_lcol _ ![0, 0] rfl ibh w)

/-- The left half of a row just cleared to `z`, loaded. -/
theorem ld_accs_cleared (ibh : ∀ a, (![0, 0] : Fin 2 → ℕ) a + S1x128.size a ≤ S1x256.size a)
    (ibz : ∀ a, (![0, 0] : Fin 2 → ℕ) a + S1x256.size a ≤ S1x256.size a) (z : Vec F S1x256 .f32) :
    (Memref.whole cc0_scratch5).view.readCov [⟨Rect.unit ![0, 0] S1x256.size ibz, z⟩]
      (Rect.unit (s := S1x256) ![0, 0] S1x128.size ibh).toLoadRect = lcol z :=
  (readCov_whole_store (Memref.whole cc0_scratch5).view Stack.View.zero2 ibz z _).trans (Stack.View.ld_lcol z ![0, 0] rfl ibh)

/-- The same for the running sum of squares. -/
theorem ld_accq_cleared (ibh : ∀ a, (![0, 0] : Fin 2 → ℕ) a + S1x128.size a ≤ S1x256.size a)
    (ibz : ∀ a, (![0, 0] : Fin 2 → ℕ) a + S1x256.size a ≤ S1x256.size a) (z : Vec F S1x256 .f32) :
    (Memref.whole cc0_scratch6).view.readCov [⟨Rect.unit ![0, 0] S1x256.size ibz, z⟩]
      (Rect.unit (s := S1x256) ![0, 0] S1x128.size ibh).toLoadRect = lcol z :=
  (readCov_whole_store (Memref.whole cc0_scratch6).view Stack.View.zero2 ibz z _).trans (Stack.View.ld_lcol z ![0, 0] rfl ibh)

variable (A : Arrays F)

/-- The adjacency row block a grid point of block `b` loads from the parked adjacency, once all of it is parked. -/
theorem ld_adj_block (g0 : Vec F S4096x4096 .bf16) (hg0 : g0 = ADJ A) (b : Fin 16) (off : Fin 2 → ℕ)
    (hoff : off = ![256 * b.val, 0]) (ib : ∀ a, off a + S256x4096.size a ≤ S4096x4096.size a) :
    (Memref.whole cc0_scratch0).view.readAt (Elt F) (Rect.unit (s := S4096x4096) off S256x4096.size ib).toLoadRect g0 = adjB A b := by
  subst hg0
  exact (Stack.View.ld_rowBlk (ADJ A) b off hoff ib).trans (Stack.View.rowBlk_asm16 (adjB A) b)

/-- The second support matrix, from the whole first-layer activation and the second weights as loaded. -/
theorem support_eq (g2 : Vec F S4096x128 .f32) (hg2 : g2 = H1 A) (arg5 : Memref sig .tc .vmem S128x128 .f32)
    (f5 : arg5.view.ty.Contents (Elt F)) (hf5 : arg5.view.read (Elt F) f5 = A.w2)
    (ib2 : ∀ a, (![0, 0] : Fin 2 → ℕ) a + S4096x128.size a ≤ S4096x128.size a)
    (ib5 : ∀ a, (![0, 0] : Fin 2 → ℕ) a + S128x128.size a ≤ S128x128.size a) :
    k0_pay13 ((Memref.whole cc0_scratch2).view.readAt (Elt F) (Rect.unit (s := S4096x128) ![0, 0] S4096x128.size ib2).toLoadRect g2)
      (arg5.view.readAt (Elt F) (Rect.unit (s := S128x128) ![0, 0] S128x128.size ib5).toLoadRect f5) = S1 A := by
  have e2 : (Memref.whole cc0_scratch2).view.readAt (Elt F) (Rect.unit (s := S4096x128) ![0, 0] S4096x128.size ib2).toLoadRect g2 = g2 :=
    Idealize.ShloMosaic.View.ld_unit_zero Stack.View.zero2 ib2 g2
  have e5 : arg5.view.readAt (Elt F) (Rect.unit (s := S128x128) ![0, 0] S128x128.size ib5).toLoadRect f5 = arg5.view.read (Elt F) f5 :=
    Idealize.ShloMosaic.View.ld_unit_zero Stack.View.zero2 ib5 _
  rw [e2, e5, hf5, hg2]; rfl

/-- The second-layer block stored at block 0 makes the stored rows agree with the closed form on the first block. -/
theorem u2_store (g3 : Vec F S4096x128 .f32) (off : Fin 2 → ℕ) (hoff : off = ![256 * 0, 0])
    (ib : ∀ a, off a + S256x128.size a ≤ S4096x128.size a) (w : Vec F S256x128 .f32) (hw : w = u2B A 0) :
    AgreeRows ((Memref.whole cc0_scratch3).view.writes (Elt F) g3 [⟨Rect.unit off S256x128.size ib, w⟩]) (U2 A) 1 := by
  have e := writes_whole_cons cc0_scratch3 g3 (Rect.unit off S256x128.size ib) w []
  rw [e]
  exact Stack.View.agreeRows_overlay g3 (U2 A) 0 (by norm_num) off hoff ib w (Stack.View.agreeRows_zero _ _)
    (hw.trans (Stack.View.rowBlk_asm16 (u2B A) 0).symm)

/-- The invariant after stage 1's first block, from the invariant before it and what the four written buffers read. -/
theorem inv_core (g0 : Vec F S4096x4096 .bf16) (g1 : Vec F S4096x256 .bf16) (g2 g3 : Vec F S4096x128 .f32)
    (g4 : Vec F S4096x256 .f32) (g5 g6 : Vec F S1x256 .f32) (s1 : Vec F S4096x256 .bf16) (u1 : Vec F S4096x128 .f32)
    (a1 q1 : Vec F S1x256 .f32)
    (hInv : Inv A 16 { adj := g0, s := g1, h1 := g2, u2 := g3, u3 := g4, accs := g5, accq := g6 })
    (hs : lcol s1 = S1 A) (hu : AgreeRows u1 (U2 A) 1) (ha : lcol a1 = acc1s A 1) (hq : lcol q1 = acc1q A 1) :
    Inv A 17 { adj := g0, s := s1, h1 := g2, u2 := u1, u3 := g4, accs := a1, accq := q1 } := by
  obtain ⟨hadj, hh1, -, -, -, -, -, -⟩ := hInv
  exact ⟨hadj, hh1, hu, Stack.View.agreeRows_zero _ _, fun h => absurd h.2 (by norm_num), fun _ => ⟨hs, ha, hq⟩,
    fun h => absurd h.1 (by norm_num), fun h => absurd h.1 (by norm_num)⟩

end Cert.KernelIdeal.Stack.C10

namespace Cert.KernelIdeal.Stack

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
theorem step10 (c : Dev nD) (E : Set ℕ) (i : grid0.Coords) (hs : (i 0).val = 1) (hi : (i 1).val = 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 1 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 1 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  -- the body's ten conditions at stage 1, block 0: only "stage 1 and block 0", "block 0" and "stage 1" hold
  have hc4 : ¬ k0_cond4 i = 1#1 := by unfold k0_cond4; simp only [hs, hi]; decide
  have hc6 : ¬ k0_cond6 i = 1#1 := by unfold k0_cond6; simp only [hs, hi]; decide
  have hc7 : k0_cond7 i = 1#1 := by unfold k0_cond7; simp only [hs, hi]; decide
  have hc8 : ¬ k0_cond8 i = 1#1 := by unfold k0_cond8; simp only [hs, hi]; decide
  have hc9 : ¬ k0_cond9 i = 1#1 := by unfold k0_cond9; simp only [hs, hi]; decide
  have hc10 : ¬ k0_cond10 i = 1#1 := by unfold k0_cond10; simp only [hs, hi]; decide
  have hv4 : ¬ Scalar.cmpi .ne (Scalar.extui (Scalar.andi (Scalar.cmpi .eq (BitVec.ofNat 32 (i 0).val) 0#32) (Scalar.cmpi .eq (BitVec.ofNat 32 (i 1).val) 0#32))) 0#32 = 1#1 := by
    simp only [hs, hi]; decide
  have hv9 : Scalar.cmpi .ne (Scalar.extui (Scalar.andi (Scalar.cmpi .eq (BitVec.ofNat 32 (i 0).val) 1#32) (Scalar.cmpi .eq (BitVec.ofNat 32 (i 1).val) 0#32))) 0#32 = 1#1 := by
    simp only [hs, hi]; decide
  have hv14 : ¬ Scalar.cmpi .ne (Scalar.extui (Scalar.andi (Scalar.cmpi .eq (BitVec.ofNat 32 (i 0).val) 2#32) (Scalar.cmpi .eq (BitVec.ofNat 32 (i 1).val) 0#32))) 0#32 = 1#1 := by
    simp only [hs, hi]; decide
  have hv22 : Scalar.cmpi .ne (Scalar.extui (Scalar.cmpi .eq (BitVec.ofNat 32 (i 1).val) 0#32)) 0#32 = 1#1 := by
    simp only [hs, hi]; decide
  -- the body as its sequence of loads and stores over the named values
  simp only [cc0__gcn_stack_kernel_eq_skeleton]; unfold cc0__gcn_stack_kernel_skel
  simp only [k0_part3_eq_skeleton]; unfold k0_part3_skel
  obtain ⟨sadj, ss, sh1, su2, su3, saccs, saccq⟩ := st
  unfold ins outs scr owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨⟨%f13, %hf13, H13⟩, ⟨%f14, %hf14, H14⟩, ⟨%f15, %hf15, H15⟩, ⟨%f16, %hf16, H16⟩⟩, ⟨⟨%g0, %hg0, G0⟩, ⟨%g1, %hg1, G1⟩, ⟨%g2, %hg2, G2⟩, ⟨%g3, %hg3, G3⟩, ⟨%g4, %hg4, G4⟩, ⟨%g5, %hg5, G5⟩, ⟨%g6, %hg6, G6⟩⟩, Hk⟩
  -- a whole scratch buffer reads as its contents
  simp only [Memref.view_whole, View.read_whole] at hg0 hg1 hg2 hg3 hg4 hg5 hg6
  subst hg0 hg1 hg2 hg3 hg4 hg5 hg6
  sl_exec (disch := first | sl_exact hc4 | sl_exact hc6 | sl_exact hc7 | sl_exact hc8 | sl_exact hc9 | sl_exact hc10 | sl_exact hv9 | sl_exact hv22 | sl_exact hv4 | sl_exact hv14)
  -- the new contents of the four buffers written: the support, the second-layer rows, the two running sums
  generalize hS1 : View.writes (Memref.whole cc0_scratch1).view (Elt F) g1 _ = s1
  generalize hU1 : View.writes (Memref.whole cc0_scratch3).view (Elt F) g3 _ = u1
  generalize hA1 : View.writes (Memref.whole cc0_scratch5).view (Elt F) g5 _ = a1
  generalize hQ1 : View.writes (Memref.whole cc0_scratch6).view (Elt F) g6 _ = q1
  sl_step
  -- the continuation, at the scratch state the run has reached
  iapply Hk
  iexists (St.mk g0 s1 g2 u1 g4 a1 q1)
  isplitr
  swap
  · isplitl [H2 H3 H4 H5 H6 H7 H8 H9 H10 H11 H12]
    ·
      isplitl [H2]
      · iexists f2; isplitr; · ipureintro; exact hf2
        iexact H2
      isplitl [H3]
      · iexists f3; isplitr; · ipureintro; exact hf3
        iexact H3
      isplitl [H4]
      · iexists f4; isplitr; · ipureintro; exact hf4
        iexact H4
      isplitl [H5]
      · iexists f5; isplitr; · ipureintro; exact hf5
        iexact H5
      isplitl [H6]
      · iexists f6; isplitr; · ipureintro; exact hf6
        iexact H6
      isplitl [H7]
      · iexists f7; isplitr; · ipureintro; exact hf7
        iexact H7
      isplitl [H8]
      · iexists f8; isplitr; · ipureintro; exact hf8
        iexact H8
      isplitl [H9]
      · iexists f9; isplitr; · ipureintro; exact hf9
        iexact H9
      isplitl [H10]
      · iexists f10; isplitr; · ipureintro; exact hf10
        iexact H10
      isplitl [H11]
      · iexists f11; isplitr; · ipureintro; exact hf11
        iexact H11
      iexists f12; isplitr; · ipureintro; exact hf12
      iexact H12
    isplitl [H13 H14 H15 H16]
    ·
      isplitl [H13]
      · iexists f13; isplitr; · ipureintro; exact hf13
        iexact H13
      isplitl [H14]
      · iexists f14; isplitr; · ipureintro; exact hf14
        iexact H14
      isplitl [H15]
      · iexists f15; isplitr; · ipureintro; exact hf15
        iexact H15
      iexists f16; isplitr; · ipureintro; exact hf16
      iexact H16
    isplitl [G0]
    · iexists g0; isplitr; · ipureintro; rfl
      iexact G0
    isplitl [G1]
    · iexists s1; isplitr; · ipureintro; rfl
      iexact G1
    isplitl [G2]
    · iexists g2; isplitr; · ipureintro; rfl
      iexact G2
    isplitl [G3]
    · iexists u1; isplitr; · ipureintro; rfl
      iexact G3
    isplitl [G4]
    · iexists g4; isplitr; · ipureintro; rfl
      iexact G4
    isplitl [G5]
    · iexists a1; isplitr; · ipureintro; rfl
      iexact G5
    iexists q1; isplitr; · ipureintro; rfl
    iexact G6
  -- the invariant at the next grid point
  ipureintro
  subst hS1 hU1 hA1 hQ1
  sl_unfold_run_names
  have e16 : 16 * 1 + (i 1).val = 16 := by omega
  have e17 : 16 * 1 + (i 1).val + 1 = 17 := by omega
  rw [e16] at hInv; rw [e17]
  -- all sixteen blocks of the adjacency and of the first-layer activation are stored
  have hg0 : g0 = ADJ A := Stack.View.eq_of_agreeRows_16 hInv.1
  have hg2 : g2 = H1 A := Stack.View.eq_of_agreeRows_16 hInv.2.1
  have ho3 : k0_off3 i = ![256 * (0 : Fin 16).val, 0] := by rw [Stack.View.off3_eq, hi]; rfl
  have ho4 : k0_off4 i = ![256 * 0, 0] := by rw [Stack.View.off4_eq, hi]
  refine C10.inv_core A g0 g1 g2 g3 g4 g5 g6 _ _ _ _ hInv ?_ ?_ ?_ ?_
  · -- the support buffer's left half is the second support matrix
    refine (C10.lcol_s_store g1 _ _).trans ?_
    exact C10.support_eq A g2 hg2 arg5 f5 hf5 _ _
  · -- rows 0 … 255 of the second-layer buffer are block 0 of the closed form
    refine C10.u2_store A g3 (k0_off4 i) ho4 _ _ ?_
    rw [C10.ld_adj_block A g0 hg0 0 (k0_off3 i) ho3, C10.ld_s_stored, C10.support_eq A g2 hg2 arg5 f5 hf5]
    rfl
  · -- the running sum: the cleared row plus block 0's column sums
    refine (C10.lcol_accs_store g5 _ _ _ _).trans ?_
    rw [C10.ld_adj_block A g0 hg0 0 (k0_off3 i) ho3, C10.ld_s_stored, C10.support_eq A g2 hg2 arg5 f5 hf5, C10.ld_accs_cleared]
    rfl
  · -- the running sum of squares likewise
    refine (C10.lcol_accq_store g6 _ _ _ _).trans ?_
    rw [C10.ld_adj_block A g0 hg0 0 (k0_off3 i) ho3, C10.ld_s_stored, C10.support_eq A g2 hg2 arg5 f5 hf5, C10.ld_accq_cleared]
    rfl

end Cert.KernelIdeal.Stack

end
-- ==== Proof.StackStep1i.lean ====
/-
  One grid point of the graph-convolution stack — stage 1, a later block: the second layer's block and its column sums.
  From the scratch buffers as the points before left them (the invariant at this point) the kernel body runs to
  the invariant at the next point, the input blocks unchanged and the output blocks as stated.
-/
import proofs.«181189_g481036337843_cont_8to1c4_37_6_alg».proof.Proof.StackRes
import Idealize.ShloMosaic.Lib.Pipeline.FrameBody

set_option maxRecDepth 16384

noncomputable section

namespace Cert.KernelIdeal.Stack.C1i

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Which of the body's conditionals are taken in stage 1 at a later block (decided over the 4×16 grid) -/

theorem cond4_f : ∀ i : grid0.Coords, (i 0).val = 1 → ¬ k0_cond4 i = 1#1 := by decide +kernel
theorem cond6_f : ∀ i : grid0.Coords, (i 0).val = 1 → ¬ k0_cond6 i = 1#1 := by decide +kernel
theorem cond7_t : ∀ i : grid0.Coords, (i 0).val = 1 → k0_cond7 i = 1#1 := by decide +kernel
theorem cond8_f : ∀ i : grid0.Coords, (i 0).val = 1 → ¬ k0_cond8 i = 1#1 := by decide +kernel
theorem cond9_f : ∀ i : grid0.Coords, (i 0).val = 1 → ¬ k0_cond9 i = 1#1 := by decide +kernel
theorem cond10_f : ∀ i : grid0.Coords, (i 0).val = 1 → ¬ k0_cond10 i = 1#1 := by decide +kernel
theorem v4_f : ∀ i : grid0.Coords, (i 0).val = 1 → ¬ (Scalar.cmpi .ne (Scalar.extui (Scalar.andi (Scalar.cmpi .eq (BitVec.ofNat 32 (i 0).val) 0#32) (Scalar.cmpi .eq (BitVec.ofNat 32 (i 1).val) 0#32))) 0#32 = 1#1) := by decide +kernel
theorem v9_f : ∀ i : grid0.Coords, (i 1).val ≠ 0 → ¬ (Scalar.cmpi .ne (Scalar.extui (Scalar.andi (Scalar.cmpi .eq (BitVec.ofNat 32 (i 0).val) 1#32) (Scalar.cmpi .eq (BitVec.ofNat 32 (i 1).val) 0#32))) 0#32 = 1#1) := by decide +kernel
theorem v14_f : ∀ i : grid0.Coords, (i 0).val = 1 → ¬ (Scalar.cmpi .ne (Scalar.extui (Scalar.andi (Scalar.cmpi .eq (BitVec.ofNat 32 (i 0).val) 2#32) (Scalar.cmpi .eq (BitVec.ofNat 32 (i 1).val) 0#32))) 0#32 = 1#1) := by decide +kernel
theorem v22_f : ∀ i : grid0.Coords, (i 1).val ≠ 0 → ¬ (Scalar.cmpi .ne (Scalar.extui (Scalar.cmpi .eq (BitVec.ofNat 32 (i 1).val) 0#32)) 0#32 = 1#1) := by decide +kernel

/-! ## Loads and stores at a row block, and at the left half of the columns, pointwise -/

section Pure

variable {Val : EltTy → Type} {e : EltTy} {m : ℕ}

/-- A load of 256 whole rows from row 256·b reads the b-th row block. -/
theorem ld_rowBlk (X : (⟨2, ![4096, m]⟩ : Shape).Idx → Val e) (b : Fin 16) (off : Fin 2 → ℕ)
    (hoff : off = ![256 * b.val, 0])
    (inb : ∀ a, off a + (⟨2, ![256, m]⟩ : Shape).size a ≤ (⟨2, ![4096, m]⟩ : Shape).size a) :
    (View.ld (Val := Val) (e' := e) X (Rect.unit (s := ⟨2, ![4096, m]⟩) off (⟨2, ![256, m]⟩ : Shape).size inb)
      : (⟨2, ![256, m]⟩ : Shape).Idx → Val e) = rowBlk X b := by
  subst hoff
  funext y
  obtain ⟨p, q, rfl⟩ : ∃ (p : Fin 256) (q : Fin m), y = ix2 p q := ⟨y 0, y 1, eq_ix2 y⟩
  unfold rowBlk
  refine congrArg X (funext fun a => Fin.ext ?_)
  match a with
  | ⟨0, _⟩ => show 256 * b.val + 1 * p.val = 256 * b.val + p.val; omega
  | ⟨1, _⟩ => show 0 + 1 * q.val = q.val; omega

/-- A load of the left 128 columns of every row reads the left half. -/
theorem ld_lcol {n : ℕ} (X : (⟨2, ![n, 256]⟩ : Shape).Idx → Val e)
    (inb : ∀ a, (![0, 0] : Fin 2 → ℕ) a + (⟨2, ![n, 128]⟩ : Shape).size a ≤ (⟨2, ![n, 256]⟩ : Shape).size a) :
    (View.ld (Val := Val) (e' := e) X (Rect.unit (s := ⟨2, ![n, 256]⟩) ![0, 0] (⟨2, ![n, 128]⟩ : Shape).size inb)
      : (⟨2, ![n, 128]⟩ : Shape).Idx → Val e) = lcol X := by
  funext y
  obtain ⟨p, q, rfl⟩ : ∃ (p : Fin n) (q : Fin 128), y = ix2 p q := ⟨y 0, y 1, eq_ix2 y⟩
  unfold lcol
  refine congrArg X (funext fun a => Fin.ext ?_)
  match a with
  | ⟨0, _⟩ => show 0 + 1 * p.val = p.val; omega
  | ⟨1, _⟩ => show 0 + 1 * q.val = q.val; omega

end Pure

section Pure2

variable {α : Type} {m : ℕ}

/-- Equal block numbers and equal indices give equal entries. -/
theorem blk_congr (blk : Fin 16 → ((⟨2, ![256, m]⟩ : Shape).Idx → α)) {a b : Fin 16}
    {x y : (⟨2, ![256, m]⟩ : Shape).Idx} (h1 : a = b) (h2 : x = y) : blk a x = blk b y := by
  subst h1 h2; rfl

/-- The b-th row block of the matrix assembled from sixteen blocks is the b-th block. -/
theorem rowBlk_asm16 (blk : Fin 16 → ((⟨2, ![256, m]⟩ : Shape).Idx → α)) (b : Fin 16) :
    rowBlk (asm16 blk) b = blk b := by
  funext y
  obtain ⟨p, q, rfl⟩ : ∃ (p : Fin 256) (q : Fin m), y = ix2 p q := ⟨y 0, y 1, eq_ix2 y⟩
  have hp := p.isLt
  have hb := b.isLt
  unfold rowBlk asm16
  refine blk_congr blk (Fin.ext ?_) (funext fun a => ?_)
  · show (256 * b.val + p.val) / 256 = b.val; omega
  · match a with
    | ⟨0, _⟩ => exact Fin.ext (by show (256 * b.val + p.val) % 256 = p.val; omega)
    | ⟨1, _⟩ => rfl

/-- A matrix that agrees with G on all 4096 rows has G's row blocks. -/
theorem rowBlk_of_agree (f G : (⟨2, ![4096, m]⟩ : Shape).Idx → α) (h : AgreeRows f G 16) (b : Fin 16) :
    rowBlk f b = rowBlk G b := by
  funext y
  obtain ⟨p, q, rfl⟩ : ∃ (p : Fin 256) (q : Fin m), y = ix2 p q := ⟨y 0, y 1, eq_ix2 y⟩
  have hp := p.isLt
  have hb := b.isLt
  unfold rowBlk
  exact h _ _ (by show 256 * b.val + p.val < 256 * 16; omega)

/-- Storing G's b-th row block at rows 256·b … 256·b+255 of a matrix that agrees with G on the rows before
    gives a matrix that agrees with G on the rows up to 256·(b+1). -/
theorem agree_overlay (f G : (⟨2, ![4096, m]⟩ : Shape).Idx → α) (b : Fin 16) (off : Fin 2 → ℕ)
    (hoff : off = ![256 * b.val, 0])
    (inb : ∀ a, off a + (⟨2, ![256, m]⟩ : Shape).size a ≤ (⟨2, ![4096, m]⟩ : Shape).size a)
    (w : (⟨2, ![256, m]⟩ : Shape).Idx → α) (hw : w = rowBlk G b) (h : AgreeRows f G b.val) :
    AgreeRows ((Rect.unit (s := ⟨2, ![4096, m]⟩) off (⟨2, ![256, m]⟩ : Shape).size inb).overlay f w) G (b.val + 1) := by
  subst hoff hw
  intro r c hr
  have hb := b.isLt
  by_cases hlt : r.val < 256 * b.val
  · rw [Rect.overlay_of_not_mem]
    · exact h r c hlt
    · rw [Rect.mem_set_unit]
      intro hmem
      have h0 : 256 * b.val ≤ r.val := (hmem 0).1
      omega
  · have hr' : r.val - 256 * b.val < 256 := by omega
    have e : (ix2 r c : (⟨2, ![4096, m]⟩ : Shape).Idx)
        = (Rect.unit (s := ⟨2, ![4096, m]⟩) ![256 * b.val, 0] (⟨2, ![256, m]⟩ : Shape).size inb).emb
            (ix2 (⟨r.val - 256 * b.val, hr'⟩ : Fin 256) c) := by
      funext a
      match a with
      | ⟨0, _⟩ => exact Fin.ext (by show r.val = 256 * b.val + 1 * (r.val - 256 * b.val); omega)
      | ⟨1, _⟩ => exact Fin.ext (by show c.val = 0 + 1 * c.val; omega)
    rw [e, Rect.overlay_emb]
    unfold rowBlk
    refine congrArg G (funext fun a => Fin.ext ?_)
    match a with
    | ⟨0, _⟩ => show 256 * b.val + (r.val - 256 * b.val) = 256 * b.val + 1 * (r.val - 256 * b.val); omega
    | ⟨1, _⟩ => show c.val = 0 + 1 * c.val; omega

/-- After a store into the left 128 columns of every row, the left half is the stored value. -/
theorem lcol_overlay {n : ℕ} (f : (⟨2, ![n, 256]⟩ : Shape).Idx → α) (w : (⟨2, ![n, 128]⟩ : Shape).Idx → α)
    (inb : ∀ a, (![0, 0] : Fin 2 → ℕ) a + (⟨2, ![n, 128]⟩ : Shape).size a ≤ (⟨2, ![n, 256]⟩ : Shape).size a) :
    lcol ((Rect.unit (s := ⟨2, ![n, 256]⟩) ![0, 0] (⟨2, ![n, 128]⟩ : Shape).size inb).overlay f w) = w := by
  funext y
  obtain ⟨p, q, rfl⟩ : ∃ (p : Fin n) (q : Fin 128), y = ix2 p q := ⟨y 0, y 1, eq_ix2 y⟩
  have hq := q.isLt
  unfold lcol
  have e : (ix2 p (⟨q.val, by omega⟩ : Fin 256) : (⟨2, ![n, 256]⟩ : Shape).Idx)
      = (Rect.unit (s := ⟨2, ![n, 256]⟩) ![0, 0] (⟨2, ![n, 128]⟩ : Shape).size inb).emb (ix2 p q) := by
    funext a
    match a with
    | ⟨0, _⟩ => exact Fin.ext (by show p.val = 0 + 1 * p.val; omega)
    | ⟨1, _⟩ => exact Fin.ext (by show q.val = 0 + 1 * q.val; omega)
  exact (congrArg _ e).trans (Rect.overlay_emb _ _ _ _)

end Pure2

/-- What one store through a rectangle leaves reads as the old contents with the rectangle overlaid. -/
theorem read_writes_single {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ (fun p hp => by
      rw [List.mem_singleton] at hp; subst hp; exact hy)

/-! ## The invariant across a later block of stage 1 -/

/-- What the invariant before block b of stage 1 (b not the first) says of the values the body reads. -/
theorem inv_facts (A : Arrays F) (b : Fin 16) (hb : b.val ≠ 0) (st : St F) (hInv : Inv A (16 * 1 + b.val) st) :
    rowBlk st.adj b = adjB A b ∧ AgreeRows st.u2 (U2 A) b.val
      ∧ lcol st.s = S1 A ∧ lcol st.accs = acc1s A b.val ∧ lcol st.accq = acc1q A b.val := by
  obtain ⟨h1, -, h3, -, -, h6, -, -⟩ := hInv
  have hb' := b.isLt
  have e1 : min (16 * 1 + b.val) 16 = 16 := by omega
  have e3 : min (16 * 1 + b.val - 16) 16 = b.val := by omega
  have e6 : 16 * 1 + b.val - 16 = b.val := by omega
  rw [e1] at h1
  rw [e3] at h3
  have h6' := h6 (by omega)
  rw [e6] at h6'
  refine ⟨?_, h3, h6'.1, h6'.2.1, h6'.2.2⟩
  rw [rowBlk_of_agree st.adj (ADJ A) h1 b]
  exact rowBlk_asm16 (adjB A) b

/-- The invariant after block b of stage 1, from the new second-layer block and the new running sums. -/
theorem inv_next (A : Arrays F) (b : Fin 16) (hb : b.val ≠ 0) (st : St F) (hInv : Inv A (16 * 1 + b.val) st)
    (u2' : Vec F S4096x128 .f32) (accs' accq' : Vec F S1x256 .f32)
    (hu2 : AgreeRows u2' (U2 A) (b.val + 1))
    (hs' : lcol accs' = acc1s A (b.val + 1)) (hq' : lcol accq' = acc1q A (b.val + 1)) :
    Inv A (16 * 1 + b.val + 1) ⟨st.adj, st.s, st.h1, u2', st.u3, accs', accq'⟩ := by
  obtain ⟨h1, h2, h3, h4, h5, h6, h7, h8⟩ := hInv
  have hb' := b.isLt
  have e1 : min (16 * 1 + b.val + 1) 16 = min (16 * 1 + b.val) 16 := by omega
  have e3 : min (16 * 1 + b.val + 1 - 16) 16 = b.val + 1 := by omega
  have e4 : min (16 * 1 + b.val + 1 - 32) 16 = min (16 * 1 + b.val - 32) 16 := by omega
  have e6 : 16 * 1 + b.val + 1 - 16 = b.val + 1 := by omega
  refine ⟨?_, ?_, ?_, ?_, ?_, ?_, ?_, ?_⟩
  · rw [e1]; exact h1
  · rw [e1]; exact h2
  · rw [e3]; exact hu2
  · rw [e4]; exact h4
  · intro h; exfalso; omega
  · intro _
    rw [e6]
    exact ⟨(h6 (by omega)).1, hs', hq'⟩
  · intro h; exfalso; omega
  · intro h; exfalso; omega

/-- The running sums one block on are the body's sums applied to the block before. -/
theorem acc1s_succ (A : Arrays F) (b : Fin 16) :
    acc1s A (b.val + 1) = k0_pay22 (adjB A b) (S1 A) (acc1s A b.val) := by
  have e : (⟨b.val % 16, Nat.mod_lt _ (by norm_num)⟩ : Fin 16) = b := Fin.ext (Nat.mod_eq_of_lt b.isLt)
  rw [acc1s, e]
theorem acc1q_succ (A : Arrays F) (b : Fin 16) :
    acc1q A (b.val + 1) = k0_pay23 (adjB A b) (S1 A) (acc1q A b.val) := by
  have e : (⟨b.val % 16, Nat.mod_lt _ (by norm_num)⟩ : Fin 16) = b := Fin.ext (Nat.mod_eq_of_lt b.isLt)
  rw [acc1q, e]

/-- One later block of stage 1 on the scratch contents: the body loads the parked adjacency block and the
    support, stores the second layer's block at rows 256·b … and adds the block's column sums and sums of squares
    into the left halves of the two running rows; the invariant moves on by one point. -/
theorem step_pure (A : Arrays F) (b : Fin 16) (hb : b.val ≠ 0) (st : St F) (hInv : Inv A (16 * 1 + b.val) st)
    (off3 off4 : Fin 2 → ℕ) (h3 : off3 = ![256 * b.val, 0]) (h4 : off4 = ![256 * b.val, 0])
    (inb3 : ∀ a, off3 a + S256x4096.size a ≤ S4096x4096.size a)
    (inb4 : ∀ a, off4 a + S256x128.size a ≤ S4096x128.size a)
    (inbS : ∀ a, (![0, 0] : Fin 2 → ℕ) a + S4096x128.size a ≤ S4096x256.size a)
    (inbA : ∀ a, (![0, 0] : Fin 2 → ℕ) a + S1x128.size a ≤ S1x256.size a) :
    Inv A (16 * 1 + b.val + 1)
      ⟨st.adj, st.s, st.h1,
        (Rect.unit (s := S4096x128) off4 S256x128.size inb4).overlay st.u2
          (k0_pay21 (View.ld st.adj (Rect.unit (s := S4096x4096) off3 S256x4096.size inb3))
            (View.ld st.s (Rect.unit (s := S4096x256) ![0, 0] S4096x128.size inbS))),
        st.u3,
        (Rect.unit (s := S1x256) ![0, 0] S1x128.size inbA).overlay st.accs
          (k0_pay22 (View.ld st.adj (Rect.unit (s := S4096x4096) off3 S256x4096.size inb3))
            (View.ld st.s (Rect.unit (s := S4096x256) ![0, 0] S4096x128.size inbS))
            (View.ld st.accs (Rect.unit (s := S1x256) ![0, 0] S1x128.size inbA))),
        (Rect.unit (s := S1x256) ![0, 0] S1x128.size inbA).overlay st.accq
          (k0_pay23 (View.ld st.adj (Rect.unit (s := S4096x4096) off3 S256x4096.size inb3))
            (View.ld st.s (Rect.unit (s := S4096x256) ![0, 0] S4096x128.size inbS))
            (View.ld st.accq (Rect.unit (s := S1x256) ![0, 0] S1x128.size inbA)))⟩ := by
  obtain ⟨hadj, hu2, hs, has, haq⟩ := inv_facts A b hb st hInv
  have eadj : View.ld st.adj (Rect.unit (s := S4096x4096) off3 S256x4096.size inb3) = adjB A b :=
    (ld_rowBlk st.adj b off3 h3 inb3).trans hadj
  have es : View.ld st.s (Rect.unit (s := S4096x256) ![0, 0] S4096x128.size inbS) = S1 A :=
    (ld_lcol st.s inbS).trans hs
  have eas : View.ld st.accs (Rect.unit (s := S1x256) ![0, 0] S1x128.size inbA) = acc1s A b.val :=
    (ld_lcol st.accs inbA).trans has
  have eaq : View.ld st.accq (Rect.unit (s := S1x256) ![0, 0] S1x128.size inbA) = acc1q A b.val :=
    (ld_lcol st.accq inbA).trans haq
  rw [eadj, es, eas, eaq]
  refine inv_next A b hb st hInv _ _ _ ?_ ?_ ?_
  · exact agree_overlay st.u2 (U2 A) b off4 h4 inb4 _ (rowBlk_asm16 (u2B A) b).symm hu2
  · rw [acc1s_succ]; exact lcol_overlay st.accs _ inbA
  · rw [acc1q_succ]; exact lcol_overlay st.accq _ inbA

/-! ## The scratch contents the body leaves -/

/-- The scratch buffers after a later block of stage 1: the second layer's block stored at the point's rows, the
    block's column sums and sums of squares added into the left halves of the running rows; everything else as before. -/
def next (i : grid0.Coords) (h7 : k0_cond7 i = 1#1) (st : St F) : St F where
  adj := st.adj
  s := st.s
  h1 := st.h1
  u2 := (Rect.unit (s := S4096x128) (k0_off4 i) S256x128.size (k0_off4_inb i h7)).overlay st.u2
    (k0_pay21 (View.ld st.adj (Rect.unit (s := S4096x4096) (k0_off3 i) S256x4096.size (k0_off3_inb i h7)))
      (View.ld st.s (Rect.unit (s := S4096x256) ![0, 0] S4096x128.size inb_S4096x256_S4096x128_0_0)))
  u3 := st.u3
  accs := (Rect.unit (s := S1x256) ![0, 0] S1x128.size inb_S1x256_S1x128_0_0).overlay st.accs
    (k0_pay22 (View.ld st.adj (Rect.unit (s := S4096x4096) (k0_off3 i) S256x4096.size (k0_off3_inb i h7)))
      (View.ld st.s (Rect.unit (s := S4096x256) ![0, 0] S4096x128.size inb_S4096x256_S4096x128_0_0))
      (View.ld st.accs (Rect.unit (s := S1x256) ![0, 0] S1x128.size inb_S1x256_S1x128_0_0)))
  accq := (Rect.unit (s := S1x256) ![0, 0] S1x128.size inb_S1x256_S1x128_0_0).overlay st.accq
    (k0_pay23 (View.ld st.adj (Rect.unit (s := S4096x4096) (k0_off3 i) S256x4096.size (k0_off3_inb i h7)))
      (View.ld st.s (Rect.unit (s := S4096x256) ![0, 0] S4096x128.size inb_S4096x256_S4096x128_0_0))
      (View.ld st.accq (Rect.unit (s := S1x256) ![0, 0] S1x128.size inb_S1x256_S1x128_0_0)))

/-- They satisfy the invariant at the next point. -/
theorem inv_next_point (A : Arrays F) (i : grid0.Coords) (hi : (i 1).val ≠ 0) (h7 : k0_cond7 i = 1#1) (st : St F)
    (hInv : Inv A (16 * 1 + (i 1).val) st) : Inv A (16 * 1 + (i 1).val + 1) (next i h7 st) :=
  step_pure A (blkOf i) hi st hInv (k0_off3 i) (k0_off4 i) (k0_off3_eq i) (k0_off4_eq i) _ _ _ _

end Cert.KernelIdeal.Stack.C1i

namespace Cert.KernelIdeal.Stack

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 1000000 in
theorem step1i (c : Dev nD) (E : Set ℕ) (i : grid0.Coords) (hs : (i 0).val = 1) (hi : (i 1).val ≠ 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 1 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 1 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  have hc4 := C1i.cond4_f i hs
  have hc6 := C1i.cond6_f i hs
  have hc7 := C1i.cond7_t i hs
  have hc8 := C1i.cond8_f i hs
  have hc9 := C1i.cond9_f i hs
  have hc10 := C1i.cond10_f i hs
  have hv4 := C1i.v4_f i hs
  have hv9 := C1i.v9_f i hi
  have hv14 := C1i.v14_f i hs
  have hv22 := C1i.v22_f i hi
  simp only [cc0__gcn_stack_kernel_eq_skeleton]; unfold cc0__gcn_stack_kernel_skel
  simp only [k0_part3_eq_skeleton]; unfold k0_part3_skel
  unfold scr owns
  iintro ⟨Hins, Houts, ⟨⟨%f0, %hf0, S0⟩, ⟨%f1, %hf1, S1⟩, ⟨%f2, %hf2, S2⟩, ⟨%f3, %hf3, S3⟩, ⟨%f4, %hf4, S4⟩, ⟨%f5, %hf5, S5⟩, ⟨%f6, %hf6, S6⟩⟩, Hk⟩
  sl_exec (disch := first | sl_exact hc4 | sl_exact hc6 | sl_exact hc7 | sl_exact hc8 | sl_exact hc9 | sl_exact hc10 | sl_exact hv4 | sl_exact hv9 | sl_exact hv14 | sl_exact hv22)
  sl_step
  iapply Hk
  iexists (C1i.next i hc7 st)
  isplitr
  · ipureintro; exact C1i.inv_next_point A i hi hc7 st hInv
  isplitl [Hins]; · iexact Hins
  isplitl [Houts]; · iexact Houts
  isplitl [S0]
  · iexists f0; isplitr; · ipureintro; exact hf0
    iexact S0
  isplitl [S1]
  · iexists f1; isplitr; · ipureintro; exact hf1
    iexact S1
  isplitl [S2]
  · iexists f2; isplitr; · ipureintro; exact hf2
    iexact S2
  isplitl [S3]
  · iexists _; isplitr
    swap; · iexact S3
    ipureintro
    rw [C1i.read_writes_single, hf3]
    simp only [View.readAt_eq_ld, hf0, hf1]
    rfl
  isplitl [S4]
  · iexists f4; isplitr; · ipureintro; exact hf4
    iexact S4
  isplitl [S5]
  · iexists _; isplitr
    swap; · iexact S5
    ipureintro
    rw [C1i.read_writes_single, hf5]
    simp only [View.readAt_eq_ld, hf0, hf1, hf5]
    rfl
  iexists _; isplitr
  swap; · iexact S6
  ipureintro
  rw [C1i.read_writes_single, hf6]
  simp only [View.readAt_eq_ld, hf0, hf1, hf6]
  rfl

end Cert.KernelIdeal.Stack

end
-- ==== Proof.StackStep20.lean ====
/-
  One grid point of the graph-convolution stack — stage 2, first block: the batch-norm affine map from the stage-1 sums, both decoders' supports, the sums cleared, then the block.
  From the scratch buffers as the points before left them (the invariant at this point) the kernel body runs to
  the invariant at the next point, the input blocks unchanged and the output blocks as stated.
-/
import proofs.«181189_g481036337843_cont_8to1c4_37_6_alg».proof.Proof.StackRes
import proofs.«181189_g481036337843_cont_8to1c4_37_6_alg».proof.Proof.StackView
import Idealize.ShloMosaic.Lib.Pipeline.Value

set_option maxRecDepth 16384

noncomputable section

namespace Cert.KernelIdeal.Stack

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

namespace C20

/-! ## Matrices cut in row blocks -/

section Blocks
variable {α : Type} {m : ℕ}

/-- Block `b` of the matrix assembled from sixteen blocks is the `b`-th block. -/
theorem rowBlk_asm16 (blk : Fin 16 → ((⟨2, ![256, m]⟩ : Shape).Idx → α)) (b : Fin 16) : rowBlk (asm16 blk) b = blk b := by
  funext y
  obtain ⟨r, q, rfl⟩ : ∃ (r : Fin 256) (q : Fin m), y = ix2 r q := ⟨y 0, y 1, eq_ix2 y⟩
  show blk ⟨(256 * b.val + r.val) / 256, _⟩ (ix2 ⟨(256 * b.val + r.val) % 256, _⟩ q) = blk b (ix2 r q)
  have h1 : (256 * b.val + r.val) / 256 = b.val := by have := r.isLt; omega
  have h2 : (256 * b.val + r.val) % 256 = r.val := by have := r.isLt; omega
  have e1 : (⟨(256 * b.val + r.val) / 256, by have := r.isLt; have := b.isLt; omega⟩ : Fin 16) = b := Fin.ext h1
  have e2 : (⟨(256 * b.val + r.val) % 256, Nat.mod_lt _ (by norm_num)⟩ : Fin 256) = r := Fin.ext h2
  rw [e1, e2]

/-- Two matrices that agree on all sixteen row blocks are equal. -/
theorem eq_of_agreeRows16 {f g : (⟨2, ![4096, m]⟩ : Shape).Idx → α} (h : AgreeRows f g 16) : f = g := by
  funext j
  obtain ⟨r, q, rfl⟩ : ∃ (r : Fin 4096) (q : Fin m), j = ix2 r q := ⟨j 0, j 1, eq_ix2 j⟩
  exact h r q (by have := r.isLt; omega)

/-- Agreement on the first `k` row blocks only looks at those rows. -/
theorem rowBlk_eq_of_agreeRows {f g : (⟨2, ![4096, m]⟩ : Shape).Idx → α} {k : ℕ} (h : AgreeRows f g k) (b : Fin 16)
    (hb : b.val < k) : rowBlk f b = rowBlk g b := by
  funext y
  exact h _ _ (by show 256 * b.val + (y 0).val < 256 * k; have := idx2_lt0 y; nlinarith)

end Blocks

/-! ## What a load through a unit-stride rectangle reads, and what stores through such rectangles leave -/

section Reads
variable {Val : EltTy → Type} {e : EltTy}

theorem zero2 : (![0, 0] : Fin 2 → ℕ) = fun _ => 0 := by
  funext a; match a with | ⟨0, _⟩ => rfl | ⟨1, _⟩ => rfl

/-- A load through a rectangle reads the buffer's contents, as the view reads them, at the rectangle's indices. -/
theorem readAt_eq {sig : RefSig} {κ : Kind} {sp : Space} {S : Shape} (v : View sig κ sp S e) (f : v.ty.Contents Val)
    (X : S.Idx → Val e) (hf : v.read Val f = X) (r : Rect S) : v.readAt Val r.toLoadRect f = View.ld X r := by
  subst hf; rfl

/-- The whole buffer, loaded at offsets zero. -/
theorem ld_whole2 {S : Shape} (X : S.Idx → Val e) (off : Fin S.rank → ℕ) (h0 : off = fun _ => 0)
    (inb : ∀ a, off a + S.size a ≤ S.size a) : View.ld X (Rect.unit off S.size inb) = X :=
  View.ld_unit_zero h0 inb X

/-- The left 128 columns of a one-row buffer of 256 columns. -/
theorem ld_lcol1 (X : S1x256.Idx → Val e) (inb : ∀ a, (![0, 0] : Fin 2 → ℕ) a + S1x128.size a ≤ S1x256.size a) :
    View.ld X (Rect.unit (s := S1x256) ![0, 0] S1x128.size inb) = lcol X := by
  funext y
  refine congrArg X (funext fun a => Fin.ext ?_)
  match a with
  | ⟨0, _⟩ => show 0 + 1 * (y 0).val = (y 0).val; omega
  | ⟨1, _⟩ => show 0 + 1 * (y 1).val = (y 1).val; omega

/-- Rows `256·b … 256·b+255`, all columns: the row block `b`. -/
theorem ld_rowBlk {m : ℕ} (X : (⟨2, ![4096, m]⟩ : Shape).Idx → Val e) (b : Fin 16) (off : Fin 2 → ℕ)
    (hoff : off = ![256 * b.val, 0])
    (inb : ∀ a, off a + (![256, m] : Fin 2 → ℕ) a ≤ (⟨2, ![4096, m]⟩ : Shape).size a) :
    View.ld X (Rect.unit (s := ⟨2, ![4096, m]⟩) off ![256, m] inb) = rowBlk X b := by
  subst hoff
  funext y
  refine congrArg X (funext fun a => Fin.ext ?_)
  match a with
  | ⟨0, _⟩ => show 256 * b.val + 1 * (y 0).val = 256 * b.val + (y 0).val; omega
  | ⟨1, _⟩ => show 0 + 1 * (y 1).val = (y 1).val; omega

/-- A store through the whole buffer, made last, leaves its payload. -/
theorem read_writes_whole_last {sig : RefSig} {κ : Kind} {sp : Space} {S : Shape} (v : View sig κ sp S e)
    (f : v.ty.Contents Val) (off : Fin S.rank → ℕ) (h0 : off = fun _ => 0) (inb : ∀ a, off a + S.size a ≤ S.size a)
    (w : S.Idx → Val e) (L : List (View.Piece Val S e)) :
    v.read Val (v.writes Val f (⟨Rect.unit off S.size inb, w⟩ :: L)) = w := by
  subst h0; funext y
  have e := View.read_writes_cons_emb v f (Rect.whole S) w L y
  rw [Rect.emb_whole_apply] at e
  exact e

/-- The two column halves of a 256-column buffer, each stored whole, hold the two payloads side by side:
    each piece is its half of the side-by-side matrix, -/
theorem halves_agree {n : ℕ} (PL PR : (⟨2, ![n, 128]⟩ : Shape).Idx → Val e)
    (inbL : ∀ a, (![0, 0] : Fin 2 → ℕ) a + (![n, 128] : Fin 2 → ℕ) a ≤ (⟨2, ![n, 256]⟩ : Shape).size a)
    (inbR : ∀ a, (![0, 128] : Fin 2 → ℕ) a + (![n, 128] : Fin 2 → ℕ) a ≤ (⟨2, ![n, 256]⟩ : Shape).size a) :
    ∀ p ∈ ([⟨Rect.unit (s := ⟨2, ![n, 256]⟩) ![0, 128] ![n, 128] inbR, PR⟩,
        ⟨Rect.unit (s := ⟨2, ![n, 256]⟩) ![0, 0] ![n, 128] inbL, PL⟩] : List (View.Piece Val ⟨2, ![n, 256]⟩ e)),
      ∀ x : p.1.shape.Idx, p.2 x = hcat PL PR (p.1.emb x) := by
  intro p hp x
  simp only [List.mem_cons, List.not_mem_nil, or_false] at hp
  rcases hp with rfl | rfl
  · show PR x = hcat PL PR ((Rect.unit (s := ⟨2, ![n, 256]⟩) ![0, 128] ![n, 128] inbR).emb x)
    have hc : ¬ (((Rect.unit (s := ⟨2, ![n, 256]⟩) ![0, 128] ![n, 128] inbR).emb x) 1).val < 128 := by
      show ¬ (128 + 1 * (x 1).val < 128); omega
    unfold hcat
    rw [dif_neg hc]
    refine congrArg PR (funext fun a => Fin.ext ?_)
    match a with
    | ⟨0, _⟩ => show (x 0).val = 0 + 1 * (x 0).val; omega
    | ⟨1, _⟩ => show (x 1).val = 128 + 1 * (x 1).val - 128; omega
  · show PL x = hcat PL PR ((Rect.unit (s := ⟨2, ![n, 256]⟩) ![0, 0] ![n, 128] inbL).emb x)
    have hc : (((Rect.unit (s := ⟨2, ![n, 256]⟩) ![0, 0] ![n, 128] inbL).emb x) 1).val < 128 := by
      show 0 + 1 * (x 1).val < 128; have := idx2_lt1 x; omega
    unfold hcat
    rw [dif_pos hc]
    refine congrArg PL (funext fun a => Fin.ext ?_)
    match a with
    | ⟨0, _⟩ => show (x 0).val = 0 + 1 * (x 0).val; omega
    | ⟨1, _⟩ => show (x 1).val = 0 + 1 * (x 1).val; omega

/-- and between them the two pieces hold every index. -/
theorem halves_cover {n : ℕ} (PL PR : (⟨2, ![n, 128]⟩ : Shape).Idx → Val e)
    (inbL : ∀ a, (![0, 0] : Fin 2 → ℕ) a + (![n, 128] : Fin 2 → ℕ) a ≤ (⟨2, ![n, 256]⟩ : Shape).size a)
    (inbR : ∀ a, (![0, 128] : Fin 2 → ℕ) a + (![n, 128] : Fin 2 → ℕ) a ≤ (⟨2, ![n, 256]⟩ : Shape).size a)
    (y : (⟨2, ![n, 256]⟩ : Shape).Idx) :
    ∃ p ∈ ([⟨Rect.unit (s := ⟨2, ![n, 256]⟩) ![0, 128] ![n, 128] inbR, PR⟩,
        ⟨Rect.unit (s := ⟨2, ![n, 256]⟩) ![0, 0] ![n, 128] inbL, PL⟩] : List (View.Piece Val ⟨2, ![n, 256]⟩ e)),
      y ∈ p.1.set := by
  obtain ⟨r, q, rfl⟩ : ∃ (r : Fin n) (q : Fin 256), y = ix2 r q := ⟨y 0, y 1, eq_ix2 y⟩
  by_cases hq : q.val < 128
  · refine ⟨_, List.mem_cons_of_mem _ List.mem_cons_self, ?_⟩
    show ix2 r q ∈ (Rect.unit (s := ⟨2, ![n, 256]⟩) ![0, 0] ![n, 128] inbL).set
    rw [Rect.mem_set_unit]
    intro a
    match a with
    | ⟨0, _⟩ => exact ⟨Nat.zero_le _, by show r.val < 0 + n; have := r.isLt; omega⟩
    | ⟨1, _⟩ => exact ⟨Nat.zero_le _, by show q.val < 0 + 128; omega⟩
  · refine ⟨_, List.mem_cons_self, ?_⟩
    show ix2 r q ∈ (Rect.unit (s := ⟨2, ![n, 256]⟩) ![0, 128] ![n, 128] inbR).set
    rw [Rect.mem_set_unit]
    intro a
    match a with
    | ⟨0, _⟩ => exact ⟨Nat.zero_le _, by show r.val < 0 + n; have := r.isLt; omega⟩
    | ⟨1, _⟩ => exact ⟨by show 128 ≤ q.val; omega, by show q.val < 128 + 128; have := q.isLt; omega⟩

theorem read_writes_halves {sig : RefSig} {κ : Kind} {sp : Space} {n : ℕ} (v : View sig κ sp (⟨2, ![n, 256]⟩ : Shape) e)
    (f : v.ty.Contents Val) (PL PR : (⟨2, ![n, 128]⟩ : Shape).Idx → Val e)
    (inbL : ∀ a, (![0, 0] : Fin 2 → ℕ) a + (![n, 128] : Fin 2 → ℕ) a ≤ (⟨2, ![n, 256]⟩ : Shape).size a)
    (inbR : ∀ a, (![0, 128] : Fin 2 → ℕ) a + (![n, 128] : Fin 2 → ℕ) a ≤ (⟨2, ![n, 256]⟩ : Shape).size a) :
    v.read Val (v.writes Val f [⟨Rect.unit (s := ⟨2, ![n, 256]⟩) ![0, 128] ![n, 128] inbR, PR⟩,
        ⟨Rect.unit (s := ⟨2, ![n, 256]⟩) ![0, 0] ![n, 128] inbL, PL⟩]) = hcat PL PR :=
  funext fun y => View.read_writes_apply_of_pieces v f (hcat PL PR) _ (halves_agree PL PR inbL inbR) y
    (halves_cover PL PR inbL inbR y)

theorem canon_halves [∀ e, Nonempty (Val e)] {n : ℕ} (PL PR : (⟨2, ![n, 128]⟩ : Shape).Idx → Val e)
    (inbL : ∀ a, (![0, 0] : Fin 2 → ℕ) a + (![n, 128] : Fin 2 → ℕ) a ≤ (⟨2, ![n, 256]⟩ : Shape).size a)
    (inbR : ∀ a, (![0, 128] : Fin 2 → ℕ) a + (![n, 128] : Fin 2 → ℕ) a ≤ (⟨2, ![n, 256]⟩ : Shape).size a) :
    View.canon ([⟨Rect.unit (s := ⟨2, ![n, 256]⟩) ![0, 128] ![n, 128] inbR, PR⟩,
        ⟨Rect.unit (s := ⟨2, ![n, 256]⟩) ![0, 0] ![n, 128] inbL, PL⟩] : List (View.Piece Val ⟨2, ![n, 256]⟩ e))
      = hcat PL PR :=
  funext fun y => View.canon_apply_of_pieces (hcat PL PR) _ (halves_agree PL PR inbL inbR) y
    (halves_cover PL PR inbL inbR y)

/-- Storing row block `k` of `G` at rows `256·k …` of a buffer that agrees with `G` on the first `k` row blocks
    makes it agree on the first `k + 1`. -/
theorem agreeRows_store {sig : RefSig} {κ : Kind} {sp : Space} {m : ℕ} (v : View sig κ sp (⟨2, ![4096, m]⟩ : Shape) e)
    (f : v.ty.Contents Val) (G : (⟨2, ![4096, m]⟩ : Shape).Idx → Val e) (k : ℕ) (hk : k < 16)
    (h : AgreeRows (v.read Val f) G k) (off : Fin 2 → ℕ) (hoff : off = ![256 * k, 0])
    (inb : ∀ a, off a + (![256, m] : Fin 2 → ℕ) a ≤ (⟨2, ![4096, m]⟩ : Shape).size a)
    (P : (⟨2, ![256, m]⟩ : Shape).Idx → Val e) (hP : P = rowBlk G ⟨k, hk⟩) :
    AgreeRows (v.read Val (v.writes Val f [⟨Rect.unit (s := ⟨2, ![4096, m]⟩) off ![256, m] inb, P⟩])) G (k + 1) := by
  subst hoff hP
  intro r c hr
  by_cases hlt : r.val < 256 * k
  · rw [View.read_writes_apply_of_forall_not_mem]
    · exact h r c hlt
    · intro p hp
      rw [List.mem_singleton] at hp; subst hp
      show ix2 r c ∉ (Rect.unit (s := ⟨2, ![4096, m]⟩) ![256 * k, 0] ![256, m] inb).set
      rw [Rect.mem_set_unit]
      intro hall
      have h0 : 256 * k ≤ r.val := (hall ⟨0, Nat.zero_lt_two⟩).1
      omega
  · have hx : r.val - 256 * k < 256 := by omega
    have e : ix2 r c = (Rect.unit (s := ⟨2, ![4096, m]⟩) ![256 * k, 0] ![256, m] inb).emb (ix2 ⟨r.val - 256 * k, hx⟩ c) := by
      funext a; apply Fin.ext
      match a with
      | ⟨0, _⟩ => show r.val = 256 * k + 1 * (r.val - 256 * k); omega
      | ⟨1, _⟩ => show c.val = 0 + 1 * c.val; omega
    rw [e, View.read_writes_cons_emb, ← e]
    show G (ix2 ⟨256 * k + (r.val - 256 * k), _⟩ c) = G (ix2 r c)
    refine congrArg (fun t => G (ix2 t c)) (Fin.ext ?_)
    show 256 * k + (r.val - 256 * k) = r.val
    omega

end Reads

/-! ## The invariant across the first block of stage 2 -/

section Step
variable {F : FTy → Type} [FloatOps F]

/-- From the invariant before point 32 to the invariant before point 33: the parked adjacency, the first two layers'
    activations are untouched; the support is the stage-2 support; the first row block of the third activation is
    stored; the running sums are those after one block. -/
theorem inv_step (A : Arrays F) (st st' : St F) (hInv : Inv A 32 st)
    (hadj : st'.adj = st.adj) (hh1 : st'.h1 = st.h1) (hu2 : st'.u2 = st.u2)
    (hs : st'.s = S2 A) (hu3 : AgreeRows st'.u3 (U3 A) 1)
    (haccs : st'.accs = acc2s A 1) (haccq : st'.accq = acc2q A 1) : Inv A 33 st' := by
  obtain ⟨h1, h2, h3, h4, -, -, -, -⟩ := hInv
  refine ⟨?_, ?_, ?_, ?_, ?_, ?_, ?_, ?_⟩
  · rw [hadj]; exact h1
  · rw [hh1]; exact h2
  · rw [hu2]; exact h3
  · exact hu3
  · intro h; exact absurd h.2 (by norm_num)
  · intro h; exact absurd h.2 (by norm_num)
  · intro _; exact ⟨hs, haccs, haccq⟩
  · intro h; exact absurd h.1 (by norm_num)

/-- What the invariant before point 32 says of the buffers the first block of stage 2 reads. -/
theorem inv32_reads (A : Arrays F) (st : St F) (hInv : Inv A 32 st) :
    st.adj = ADJ A ∧ st.u2 = U2 A ∧ lcol st.accs = acc1s A 16 ∧ lcol st.accq = acc1q A 16
      ∧ AgreeRows st.u3 (U3 A) 0 := by
  obtain ⟨h1, -, h3, h4, -, h6, -, -⟩ := hInv
  obtain ⟨-, h6s, h6q⟩ := h6 ⟨by norm_num, by norm_num⟩
  exact ⟨eq_of_agreeRows16 h1, eq_of_agreeRows16 h3, h6s, h6q, h4⟩

end Step

end C20

variable {F : FTy → Type} [FloatOps F]

set_option maxHeartbeats 4000000 in
theorem step20 (c : Dev nD) (E : Set ℕ) (i : grid0.Coords) (hs : (i 0).val = 2) (hi : (i 1).val = 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 2 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 2 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  -- stage 2, block 0: of the body's ten conditionals, the stage-2 support, the clearing of the sums and the stage-2 block are taken
  have hc8 := Cert.KernelIdeal.Stack.View.cond8_pos i hs
  have hc4 := Cert.KernelIdeal.Stack.View.cond4_neg i (Or.inl (by omega))
  have hc6 := Cert.KernelIdeal.Stack.View.cond6_neg i (by omega)
  have hc7 := Cert.KernelIdeal.Stack.View.cond7_neg i (by omega)
  have hc9 := Cert.KernelIdeal.Stack.View.cond9_neg i (by omega)
  have hc10 := Cert.KernelIdeal.Stack.View.cond10_neg i (Or.inl (by omega))
  have hv4 := Cert.KernelIdeal.Stack.View.v4_neg i (Or.inl (by omega))
  have hv9 := Cert.KernelIdeal.Stack.View.v9_neg i (Or.inl (by omega))
  have hv14 := Cert.KernelIdeal.Stack.View.v14_pos i hs hi
  have hv22 := Cert.KernelIdeal.Stack.View.v22_pos i hi
  -- the block's rows start at row 0
  have hoff5 : k0_off5 i = ![256 * 0, 0] := by rw [Cert.KernelIdeal.Stack.View.off5_eq, hi]
  have hoff6 : k0_off6 i = ![256 * 0, 0] := by rw [Cert.KernelIdeal.Stack.View.off6_eq, hi]
  rw [hi] at hInv ⊢
  have hInv32 : Inv A 32 st := hInv
  obtain ⟨eadj, eu2, eaccs, eaccq, hu30⟩ := C20.inv32_reads A st hInv32
  simp only [cc0__gcn_stack_kernel_eq_skeleton]; unfold cc0__gcn_stack_kernel_skel
  unfold ins outs scr owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩,
    ⟨⟨%f13, %hf13, H13⟩, ⟨%f14, %hf14, H14⟩, ⟨%f15, %hf15, H15⟩, ⟨%f16, %hf16, H16⟩⟩,
    ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  sl_exec (disch := first | sl_exact hc8 | sl_exact hc4 | sl_exact hc6 | sl_exact hc7 | sl_exact hc9 | sl_exact hc10 | sl_exact hv4 | sl_exact hv9 | sl_exact hv14 | sl_exact hv22)
  sl_step
  -- what each load reads, by the invariant: the stage-1 sums' left halves, the batch-norm rows, the weights, the whole second activation, the parked adjacency's first row block
  have e22 : View.readAt (Elt F) (Memref.whole cc0_scratch5).view (Rect.unit (s := S1x256) ![0, 0] S1x128.size inb_S1x256_S1x128_0_0).toLoadRect f22 = acc1s A 16 :=
    (C20.readAt_eq _ f22 st.accs hf22 _).trans ((C20.ld_lcol1 st.accs _).trans eaccs)
  have e23 : View.readAt (Elt F) (Memref.whole cc0_scratch6).view (Rect.unit (s := S1x256) ![0, 0] S1x128.size inb_S1x256_S1x128_0_0).toLoadRect f23 = acc1q A 16 :=
    (C20.readAt_eq _ f23 st.accq hf23 _).trans ((C20.ld_lcol1 st.accq _).trans eaccq)
  have e6 : View.readAt (Elt F) arg6.view (Rect.unit (s := S1x128) ![0, 0] S1x128.size inb_S1x128_S1x128_0_0).toLoadRect f6 = A.g2 :=
    (C20.readAt_eq _ f6 A.g2 hf6 _).trans (C20.ld_whole2 A.g2 _ C20.zero2 _)
  have e7 : View.readAt (Elt F) arg7.view (Rect.unit (s := S1x128) ![0, 0] S1x128.size inb_S1x128_S1x128_0_0).toLoadRect f7 = A.b2 :=
    (C20.readAt_eq _ f7 A.b2 hf7 _).trans (C20.ld_whole2 A.b2 _ C20.zero2 _)
  have e8 : View.readAt (Elt F) arg8.view (Rect.unit (s := S128x128) ![0, 0] S128x128.size inb_S128x128_S128x128_0_0).toLoadRect f8 = A.wf1 :=
    (C20.readAt_eq _ f8 A.wf1 hf8 _).trans (C20.ld_whole2 A.wf1 _ C20.zero2 _)
  have e12 : View.readAt (Elt F) arg12.view (Rect.unit (s := S128x128) ![0, 0] S128x128.size inb_S128x128_S128x128_0_0).toLoadRect f12 = A.ws1 :=
    (C20.readAt_eq _ f12 A.ws1 hf12 _).trans (C20.ld_whole2 A.ws1 _ C20.zero2 _)
  have e20 : View.readAt (Elt F) (Memref.whole cc0_scratch3).view (Rect.unit (s := S4096x128) ![0, 0] S4096x128.size inb_S4096x128_S4096x128_0_0).toLoadRect f20 = U2 A :=
    (C20.readAt_eq _ f20 st.u2 hf20 _).trans ((C20.ld_whole2 st.u2 _ C20.zero2 _).trans eu2)
  have e17 : View.readAt (Elt F) (Memref.whole cc0_scratch0).view (Rect.unit (s := S4096x4096) (k0_off5 i) S256x4096.size (k0_off5_inb i hc8)).toLoadRect f17 = adjB A ⟨0, by norm_num⟩ :=
    (C20.readAt_eq _ f17 st.adj hf17 _).trans ((C20.ld_rowBlk st.adj ⟨0, by norm_num⟩ (k0_off5 i) hoff5 _).trans
      (by rw [eadj]; exact C20.rowBlk_asm16 (adjB A) _))
  -- the two column halves stored side by side are the stage-2 support, and that is what the block loads
  have hL : View.canon (step20.sl.H18_2 c arg6 arg7 arg8 arg12 f6 f7 f8 f12 f20 f22 f23) = S2 A := by
    unfold step20.sl.H18_2 step20.sl.r
    refine (C20.canon_halves _ _ _ _).trans ?_
    show hcat _ _ = hcat (S2a A) (S2b A)
    rw [e22, e23, e6, e7, e20, e8, e12]
    try rfl
  have hcov : ∀ y, ∃ p ∈ step20.sl.H18_2 c arg6 arg7 arg8 arg12 f6 f7 f8 f12 f20 f22 f23, y ∈ p.1.set := by
    unfold step20.sl.H18_2
    exact C20.halves_cover _ _ _ _
  have ev43 : step20.sl.v43 c arg6 arg7 arg8 arg12 f6 f7 f8 f12 f20 f22 f23 = S2 A := by
    unfold step20.sl.v43
    rw [View.readCov_eq_canon', hL]
    exact C20.ld_whole2 (S2 A) _ C20.zero2 _
  have ev51 : step20.sl.v51 (F := F) c = k0_pay16 := by
    unfold step20.sl.v51 step20.sl.H22_1
    exact View.readCov_unit_zero _ C20.zero2 _ _
  have ev58 : step20.sl.v58 (F := F) c = k0_pay17 := by
    unfold step20.sl.v58 step20.sl.H23_1
    exact View.readCov_unit_zero _ C20.zero2 _ _
  -- the running sums after the block: the block's column sums and sums of squares added to the cleared rows
  have haccs : ∀ (L : List (View.Piece (Elt F) S1x256 .f32)) (z : Vec F S1x256 .f32), z = k0_pay16 →
      View.read (Elt F) (Memref.whole cc0_scratch5).view ((Memref.whole cc0_scratch5).view.writes (Elt F) f22
        (⟨Rect.unit (s := S1x256) ![0, 0] S1x256.size inb_S1x256_S1x256_0_0,
          k0_pay3 (View.readAt (Elt F) (Memref.whole cc0_scratch0).view (Rect.unit (s := S4096x4096) (k0_off5 i) S256x4096.size (k0_off5_inb i hc8)).toLoadRect f17)
            (step20.sl.v43 c arg6 arg7 arg8 arg12 f6 f7 f8 f12 f20 f22 f23) z⟩ :: L)) = acc2s A 1 := by
    intro L z hz
    refine (C20.read_writes_whole_last (S := S1x256) _ _ _ C20.zero2 _ _ _).trans ?_
    rw [e17, ev43, hz]
    try rfl
  have haccq : ∀ (L : List (View.Piece (Elt F) S1x256 .f32)) (z : Vec F S1x256 .f32), z = k0_pay17 →
      View.read (Elt F) (Memref.whole cc0_scratch6).view ((Memref.whole cc0_scratch6).view.writes (Elt F) f23
        (⟨Rect.unit (s := S1x256) ![0, 0] S1x256.size inb_S1x256_S1x256_0_0,
          k0_pay4 (View.readAt (Elt F) (Memref.whole cc0_scratch0).view (Rect.unit (s := S4096x4096) (k0_off5 i) S256x4096.size (k0_off5_inb i hc8)).toLoadRect f17)
            (step20.sl.v43 c arg6 arg7 arg8 arg12 f6 f7 f8 f12 f20 f22 f23) z⟩ :: L)) = acc2q A 1 := by
    intro L z hz
    refine (C20.read_writes_whole_last (S := S1x256) _ _ _ C20.zero2 _ _ _).trans ?_
    rw [e17, ev43, hz]
    try rfl
  iapply Hk
  iexists (St.mk st.adj (S2 A) st.h1 st.u2
    (View.read (Elt F) (Memref.whole cc0_scratch4).view ((Memref.whole cc0_scratch4).view.writes (Elt F) f21
      [⟨Rect.unit (s := S4096x256) (k0_off6 i) S256x256.size (k0_off6_inb i hc8),
        k0_pay2 (View.readAt (Elt F) (Memref.whole cc0_scratch0).view (Rect.unit (s := S4096x4096) (k0_off5 i) S256x4096.size (k0_off5_inb i hc8)).toLoadRect f17)
          (step20.sl.v43 c arg6 arg7 arg8 arg12 f6 f7 f8 f12 f20 f22 f23)⟩]))
    (acc2s A 1) (acc2q A 1))
  isplitr
  swap
  · isplitl [H2 H3 H4 H5 H6 H7 H8 H9 H10 H11 H12]
    · isplitl [H2]
      · iexists f2; isplitr; · (ipureintro; exact hf2)
        iexact H2
      isplitl [H3]
      · iexists f3; isplitr; · (ipureintro; exact hf3)
        iexact H3
      isplitl [H4]
      · iexists f4; isplitr; · (ipureintro; exact hf4)
        iexact H4
      isplitl [H5]
      · iexists f5; isplitr; · (ipureintro; exact hf5)
        iexact H5
      isplitl [H6]
      · iexists f6; isplitr; · (ipureintro; exact hf6)
        iexact H6
      isplitl [H7]
      · iexists f7; isplitr; · (ipureintro; exact hf7)
        iexact H7
      isplitl [H8]
      · iexists f8; isplitr; · (ipureintro; exact hf8)
        iexact H8
      isplitl [H9]
      · iexists f9; isplitr; · (ipureintro; exact hf9)
        iexact H9
      isplitl [H10]
      · iexists f10; isplitr; · (ipureintro; exact hf10)
        iexact H10
      isplitl [H11]
      · iexists f11; isplitr; · (ipureintro; exact hf11)
        iexact H11
      iexists f12; isplitr; · (ipureintro; exact hf12)
      iexact H12
    isplitl [H13 H14 H15 H16]
    · isplitl [H13]
      · iexists f13; isplitr; · (ipureintro; exact hf13)
        iexact H13
      isplitl [H14]
      · iexists f14; isplitr; · (ipureintro; exact hf14)
        iexact H14
      isplitl [H15]
      · iexists f15; isplitr; · (ipureintro; exact hf15)
        iexact H15
      iexists f16; isplitr; · (ipureintro; exact hf16)
      iexact H16
    isplitl [H17]
    · iexists _; isplitr; swap; · iexact H17
      ipureintro; exact hf17
    isplitl [H18]
    · iexists _; isplitr; swap; · iexact H18
      ipureintro; exact (View.read_writes_eq_canon _ _ _ hcov).trans hL
    isplitl [H19]
    · iexists _; isplitr; swap; · iexact H19
      ipureintro; exact hf19
    isplitl [H20]
    · iexists _; isplitr; swap; · iexact H20
      ipureintro; exact hf20
    isplitl [H21]
    · iexists _; isplitr; swap; · iexact H21
      ipureintro; rfl
    isplitl [H22]
    · iexists _; isplitr; swap; · iexact H22
      ipureintro; exact haccs _ _ ev51
    iexists _; isplitr; swap; · iexact H23
    ipureintro; exact haccq _ _ ev58
  ipureintro
  -- the invariant one point on: only the third activation's first row block is new
  refine C20.inv_step A st _ hInv32 rfl rfl rfl rfl ?_ rfl rfl
  refine C20.agreeRows_store _ f21 (U3 A) 0 (by norm_num) ?_ (k0_off6 i) hoff6 _ _ ?_
  · rw [hf21]; exact hu30
  · rw [e17, ev43]; exact (C20.rowBlk_asm16 (u3B A) ⟨0, by norm_num⟩).symm

end Cert.KernelIdeal.Stack

end
-- ==== Proof.StackStep2i.lean ====
/-
  One grid point of the graph-convolution stack — stage 2, a later block: both decoders' first-layer block and its column sums.
  From the scratch buffers as the points before left them (the invariant at this point) the kernel body runs to
  the invariant at the next point, the input blocks unchanged and the output blocks as stated.
-/
import proofs.«181189_g481036337843_cont_8to1c4_37_6_alg».proof.Proof.StackRes
import proofs.«181189_g481036337843_cont_8to1c4_37_6_alg».proof.Proof.StackView

set_option maxRecDepth 16384

noncomputable section

namespace Cert.KernelIdeal.Stack.C2i

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Which of the body's conditionals are taken in stage 2 at a later block

The body tests ten one-bit words, each a comparison chain over the two grid coordinates read as 32-bit words.
With the stage equal to 2 and the block not 0, only the test "stage = 2" holds. -/

/-- "First coordinate equal to a, and second coordinate equal to 0" does not hold when the second is not 0. -/
theorem and_chain_ne (a : BitVec 32) : ∀ (x : Fin 4) (y : Fin 16), y.val ≠ 0 →
    ¬ (Scalar.cmpi .ne (Scalar.extui (Scalar.andi (Scalar.cmpi .eq (BitVec.ofNat 32 x.val) a) (Scalar.cmpi .eq (BitVec.ofNat 32 y.val) 0#32))) 0#32 = 1#1) := by
  intro x y hy
  have : Scalar.cmpi .eq (BitVec.ofNat 32 y.val) 0#32 = 0#1 := by revert y; decide
  rw [this]
  generalize Scalar.cmpi .eq (BitVec.ofNat 32 x.val) a = w
  revert w; decide

/-- "Second coordinate equal to 0" does not hold when it is not 0. -/
theorem zero_chain_ne : ∀ (y : Fin 16), y.val ≠ 0 →
    ¬ (Scalar.cmpi .ne (Scalar.extui (Scalar.cmpi .eq (BitVec.ofNat 32 y.val) 0#32)) 0#32 = 1#1) := by decide

/-- At stage 2, of the four stage tests only "equal to 2" holds. -/
theorem stage_chain : ∀ (x : Fin 4), x.val = 2 →
    ¬ (Scalar.cmpi .ne (Scalar.extui (Scalar.cmpi .eq (BitVec.ofNat 32 x.val) 0#32)) 0#32 = 1#1)
    ∧ ¬ (Scalar.cmpi .ne (Scalar.extui (Scalar.cmpi .eq (BitVec.ofNat 32 x.val) 1#32)) 0#32 = 1#1)
    ∧ (Scalar.cmpi .ne (Scalar.extui (Scalar.cmpi .eq (BitVec.ofNat 32 x.val) 2#32)) 0#32 = 1#1)
    ∧ ¬ (Scalar.cmpi .ne (Scalar.extui (Scalar.cmpi .eq (BitVec.ofNat 32 x.val) 3#32)) 0#32 = 1#1) := by decide

/-- At stage 2, "stage 3 and last block" does not hold. -/
theorem last_chain_ne : ∀ (x : Fin 4) (y : Fin 16), x.val = 2 →
    ¬ (Scalar.cmpi .ne (Scalar.extui (Scalar.andi (Scalar.cmpi .eq (BitVec.ofNat 32 x.val) 3#32) (Scalar.cmpi .eq (BitVec.ofNat 32 y.val) 15#32))) 0#32 = 1#1) := by decide

/-! ## One store read back -/

/-- What one store through a rectangle leaves reads as the old contents with the rectangle overlaid. -/
theorem read_writes_one {sig : RefSig} {κ : Kind} {sp : Space} {s : Shape} {e : EltTy} {Val : EltTy → Type}
    (v : Idealize.ShloMosaic.View sig κ sp s e) (f : v.ty.Contents Val) (r : Rect s) (w : r.shape.Idx → Val e) :
    v.read Val (v.writes Val f [⟨r, w⟩]) = r.overlay (v.read Val f) w :=
  Stack.View.read_writes_cons v f r w []

/-! ## The invariant across a later block of stage 2 -/

/-- What the invariant before block b of stage 2 (b not the first) says of the values the body reads: the parked
    adjacency block, the first b blocks of the decoders' first layer, the support, the two running rows. -/
theorem inv_facts (A : Arrays F) (b : Fin 16) (hb : b.val ≠ 0) (st : St F) (hInv : Inv A (16 * 2 + b.val) st) :
    rowBlk st.adj b = adjB A b ∧ AgreeRows st.u3 (U3 A) b.val
      ∧ st.s = S2 A ∧ st.accs = acc2s A b.val ∧ st.accq = acc2q A b.val := by
  obtain ⟨h1, -, -, h4, -, -, h7, -⟩ := hInv
  have hb' := b.isLt
  have e1 : min (16 * 2 + b.val) 16 = 16 := by omega
  have e4 : min (16 * 2 + b.val - 32) 16 = b.val := by omega
  have e7 : 16 * 2 + b.val - 32 = b.val := by omega
  rw [e1] at h1
  rw [e4] at h4
  have h7' := h7 (by omega)
  rw [e7] at h7'
  refine ⟨?_, h4, h7'.1, h7'.2.1, h7'.2.2⟩
  rw [Stack.View.rowBlk_eq_of_agreeRows h1 b hb']
  exact Stack.View.rowBlk_asm16 (adjB A) b

/-- The invariant after block b of stage 2, from the new first-layer block and the new running rows. -/
theorem inv_next (A : Arrays F) (b : Fin 16) (hb : b.val ≠ 0) (st : St F) (hInv : Inv A (16 * 2 + b.val) st)
    (u3' : Vec F S4096x256 .f32) (accs' accq' : Vec F S1x256 .f32)
    (hu3 : AgreeRows u3' (U3 A) (b.val + 1))
    (hs' : accs' = acc2s A (b.val + 1)) (hq' : accq' = acc2q A (b.val + 1)) :
    Inv A (16 * 2 + b.val + 1) ⟨st.adj, st.s, st.h1, st.u2, u3', accs', accq'⟩ := by
  obtain ⟨h1, h2, h3, h4, h5, h6, h7, h8⟩ := hInv
  have hb' := b.isLt
  have e1 : min (16 * 2 + b.val + 1) 16 = min (16 * 2 + b.val) 16 := by omega
  have e3 : min (16 * 2 + b.val + 1 - 16) 16 = min (16 * 2 + b.val - 16) 16 := by omega
  have e4 : min (16 * 2 + b.val + 1 - 32) 16 = b.val + 1 := by omega
  have e7 : 16 * 2 + b.val + 1 - 32 = b.val + 1 := by omega
  refine ⟨?_, ?_, ?_, ?_, ?_, ?_, ?_, ?_⟩
  · rw [e1]; exact h1
  · rw [e1]; exact h2
  · rw [e3]; exact h3
  · rw [e4]; exact hu3
  · intro h; exfalso; omega
  · intro h; exfalso; omega
  · intro _
    rw [e7]
    exact ⟨(h7 (by omega)).1, hs', hq'⟩
  · intro h; exfalso; omega

/-- The running rows one block on are the body's sums applied to the rows before. -/
theorem acc2s_succ (A : Arrays F) (b : Fin 16) :
    acc2s A (b.val + 1) = k0_pay3 (adjB A b) (S2 A) (acc2s A b.val) := by
  have e : (⟨b.val % 16, Nat.mod_lt _ (by norm_num)⟩ : Fin 16) = b := Fin.ext (Nat.mod_eq_of_lt b.isLt)
  rw [acc2s, e]
theorem acc2q_succ (A : Arrays F) (b : Fin 16) :
    acc2q A (b.val + 1) = k0_pay4 (adjB A b) (S2 A) (acc2q A b.val) := by
  have e : (⟨b.val % 16, Nat.mod_lt _ (by norm_num)⟩ : Fin 16) = b := Fin.ext (Nat.mod_eq_of_lt b.isLt)
  rw [acc2q, e]

/-- One later block of stage 2 on the scratch contents: the body loads the parked adjacency block and the whole
    support, stores both decoders' first-layer block at rows 256·b … and replaces the two running rows by themselves
    plus the block's column sums and column sums of squares; the invariant moves on by one point. -/
theorem step_pure (A : Arrays F) (b : Fin 16) (hb : b.val ≠ 0) (st : St F) (hInv : Inv A (16 * 2 + b.val) st)
    (off5 off6 : Fin 2 → ℕ) (h5 : off5 = ![256 * b.val, 0]) (h6 : off6 = ![256 * b.val, 0])
    (inb5 : ∀ a, off5 a + S256x4096.size a ≤ S4096x4096.size a)
    (inb6 : ∀ a, off6 a + S256x256.size a ≤ S4096x256.size a)
    (inbS : ∀ a, (![0, 0] : Fin 2 → ℕ) a + S4096x256.size a ≤ S4096x256.size a)
    (inbA : ∀ a, (![0, 0] : Fin 2 → ℕ) a + S1x256.size a ≤ S1x256.size a) :
    Inv A (16 * 2 + b.val + 1)
      ⟨st.adj, st.s, st.h1, st.u2,
        (Rect.unit (s := S4096x256) off6 S256x256.size inb6).overlay st.u3
          (k0_pay2 (Idealize.ShloMosaic.View.ld st.adj (Rect.unit (s := S4096x4096) off5 S256x4096.size inb5))
            (Idealize.ShloMosaic.View.ld st.s (Rect.unit (s := S4096x256) ![0, 0] S4096x256.size inbS))),
        (Rect.unit (s := S1x256) ![0, 0] S1x256.size inbA).overlay st.accs
          (k0_pay3 (Idealize.ShloMosaic.View.ld st.adj (Rect.unit (s := S4096x4096) off5 S256x4096.size inb5))
            (Idealize.ShloMosaic.View.ld st.s (Rect.unit (s := S4096x256) ![0, 0] S4096x256.size inbS))
            (Idealize.ShloMosaic.View.ld st.accs (Rect.unit (s := S1x256) ![0, 0] S1x256.size inbA))),
        (Rect.unit (s := S1x256) ![0, 0] S1x256.size inbA).overlay st.accq
          (k0_pay4 (Idealize.ShloMosaic.View.ld st.adj (Rect.unit (s := S4096x4096) off5 S256x4096.size inb5))
            (Idealize.ShloMosaic.View.ld st.s (Rect.unit (s := S4096x256) ![0, 0] S4096x256.size inbS))
            (Idealize.ShloMosaic.View.ld st.accq (Rect.unit (s := S1x256) ![0, 0] S1x256.size inbA)))⟩ := by
  obtain ⟨hadj, hu3, hs, has, haq⟩ := inv_facts A b hb st hInv
  have eadj : Idealize.ShloMosaic.View.ld st.adj (Rect.unit (s := S4096x4096) off5 S256x4096.size inb5) = adjB A b :=
    (Stack.View.ld_rowBlk st.adj b off5 h5 inb5).trans hadj
  have es : Idealize.ShloMosaic.View.ld st.s (Rect.unit (s := S4096x256) ![0, 0] S4096x256.size inbS) = S2 A :=
    (Stack.View.ld_whole2 st.s ![0, 0] rfl inbS).trans hs
  have eas : Idealize.ShloMosaic.View.ld st.accs (Rect.unit (s := S1x256) ![0, 0] S1x256.size inbA) = acc2s A b.val :=
    (Stack.View.ld_whole2 st.accs ![0, 0] rfl inbA).trans has
  have eaq : Idealize.ShloMosaic.View.ld st.accq (Rect.unit (s := S1x256) ![0, 0] S1x256.size inbA) = acc2q A b.val :=
    (Stack.View.ld_whole2 st.accq ![0, 0] rfl inbA).trans haq
  rw [eadj, es, eas, eaq]
  refine inv_next A b hb st hInv _ _ _ ?_ ?_ ?_
  · exact Stack.View.agreeRows_overlay st.u3 (U3 A) b.val b.isLt off6 h6 inb6 _ hu3 (Stack.View.rowBlk_asm16 (u3B A) b).symm
  · rw [acc2s_succ]; exact Stack.View.overlay_whole2 st.accs _ ![0, 0] rfl inbA
  · rw [acc2q_succ]; exact Stack.View.overlay_whole2 st.accq _ ![0, 0] rfl inbA

/-! ## The scratch contents the body leaves -/

/-- The scratch buffers after a later block of stage 2: the decoders' first-layer block stored at the point's rows,
    the two running rows replaced by themselves plus the block's column sums and sums of squares; the rest as before. -/
def next (i : grid0.Coords) (h8 : k0_cond8 i = 1#1) (st : St F) : St F where
  adj := st.adj
  s := st.s
  h1 := st.h1
  u2 := st.u2
  u3 := (Rect.unit (s := S4096x256) (k0_off6 i) S256x256.size (k0_off6_inb i h8)).overlay st.u3
    (k0_pay2 (Idealize.ShloMosaic.View.ld st.adj (Rect.unit (s := S4096x4096) (k0_off5 i) S256x4096.size (k0_off5_inb i h8)))
      (Idealize.ShloMosaic.View.ld st.s (Rect.unit (s := S4096x256) ![0, 0] S4096x256.size inb_S4096x256_S4096x256_0_0)))
  accs := (Rect.unit (s := S1x256) ![0, 0] S1x256.size inb_S1x256_S1x256_0_0).overlay st.accs
    (k0_pay3 (Idealize.ShloMosaic.View.ld st.adj (Rect.unit (s := S4096x4096) (k0_off5 i) S256x4096.size (k0_off5_inb i h8)))
      (Idealize.ShloMosaic.View.ld st.s (Rect.unit (s := S4096x256) ![0, 0] S4096x256.size inb_S4096x256_S4096x256_0_0))
      (Idealize.ShloMosaic.View.ld st.accs (Rect.unit (s := S1x256) ![0, 0] S1x256.size inb_S1x256_S1x256_0_0)))
  accq := (Rect.unit (s := S1x256) ![0, 0] S1x256.size inb_S1x256_S1x256_0_0).overlay st.accq
    (k0_pay4 (Idealize.ShloMosaic.View.ld st.adj (Rect.unit (s := S4096x4096) (k0_off5 i) S256x4096.size (k0_off5_inb i h8)))
      (Idealize.ShloMosaic.View.ld st.s (Rect.unit (s := S4096x256) ![0, 0] S4096x256.size inb_S4096x256_S4096x256_0_0))
      (Idealize.ShloMosaic.View.ld st.accq (Rect.unit (s := S1x256) ![0, 0] S1x256.size inb_S1x256_S1x256_0_0)))

/-- They satisfy the invariant at the next point. -/
theorem inv_next_point (A : Arrays F) (i : grid0.Coords) (hi : (i 1).val ≠ 0) (h8 : k0_cond8 i = 1#1) (st : St F)
    (hInv : Inv A (16 * 2 + (i 1).val) st) : Inv A (16 * 2 + (i 1).val + 1) (next i h8 st) :=
  step_pure A (blkOf i) hi st hInv (k0_off5 i) (k0_off6 i) (Stack.View.off5_eq i) (Stack.View.off6_eq i) _ _ _ _

end Cert.KernelIdeal.Stack.C2i

namespace Cert.KernelIdeal.Stack

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 1000000 in
theorem step2i (c : Dev nD) (E : Set ℕ) (i : grid0.Coords) (hs : (i 0).val = 2) (hi : (i 1).val ≠ 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 2 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 2 + (i 1).val + 1) st'⌝ ∗ ins c arg2 arg3 arg4 arg5 arg6 arg7 arg8 arg9 arg10 arg11 arg12 x0 A
            ∗ outs c arg13 arg14 arg15 arg16 d11 d12 d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by

  have h1 : ¬ (Scalar.cmpi .ne (Scalar.extui (Scalar.andi (Scalar.cmpi .eq (BitVec.ofNat 32 (i 0).val) 0#32) (Scalar.cmpi .eq (BitVec.ofNat 32 (i 1).val) 0#32))) 0#32 = 1#1) :=
    C2i.and_chain_ne 0#32 ⟨(i 0).val, (i 0).isLt⟩ ⟨(i 1).val, (i 1).isLt⟩ hi
  have h2 : ¬ (Scalar.cmpi .ne (Scalar.extui (Scalar.andi (Scalar.cmpi .eq (BitVec.ofNat 32 (i 0).val) 1#32) (Scalar.cmpi .eq (BitVec.ofNat 32 (i 1).val) 0#32))) 0#32 = 1#1) :=
    C2i.and_chain_ne 1#32 ⟨(i 0).val, (i 0).isLt⟩ ⟨(i 1).val, (i 1).isLt⟩ hi
  have h3 : ¬ (Scalar.cmpi .ne (Scalar.extui (Scalar.andi (Scalar.cmpi .eq (BitVec.ofNat 32 (i 0).val) 2#32) (Scalar.cmpi .eq (BitVec.ofNat 32 (i 1).val) 0#32))) 0#32 = 1#1) :=
    C2i.and_chain_ne 2#32 ⟨(i 0).val, (i 0).isLt⟩ ⟨(i 1).val, (i 1).isLt⟩ hi
  have h4 : ¬ (k0_cond4 i = 1#1) := C2i.and_chain_ne 3#32 ⟨(i 0).val, (i 0).isLt⟩ ⟨(i 1).val, (i 1).isLt⟩ hi
  have h5 : ¬ (Scalar.cmpi .ne (Scalar.extui (Scalar.cmpi .eq (BitVec.ofNat 32 (i 1).val) 0#32)) 0#32 = 1#1) :=
    C2i.zero_chain_ne ⟨(i 1).val, (i 1).isLt⟩ hi
  have h6 : ¬ (k0_cond6 i = 1#1) := (C2i.stage_chain ⟨(i 0).val, (i 0).isLt⟩ hs).1
  have h7 : ¬ (k0_cond7 i = 1#1) := (C2i.stage_chain ⟨(i 0).val, (i 0).isLt⟩ hs).2.1
  have h8 : k0_cond8 i = 1#1 := (C2i.stage_chain ⟨(i 0).val, (i 0).isLt⟩ hs).2.2.1
  have h9 : ¬ (k0_cond9 i = 1#1) := (C2i.stage_chain ⟨(i 0).val, (i 0).isLt⟩ hs).2.2.2
  have h10 : ¬ (k0_cond10 i = 1#1) := C2i.last_chain_ne ⟨(i 0).val, (i 0).isLt⟩ ⟨(i 1).val, (i 1).isLt⟩ hs
  sl_unfold [cc0__gcn_stack_kernel]
  sl_unfold [cc0__gcn_stack_kernel_skel]
  unfold scr owns
  iintro ⟨Hins, Houts, ⟨⟨%g0, %hg0, G0⟩, ⟨%g1, %hg1, G1⟩, ⟨%g2, %hg2, G2⟩, ⟨%g3, %hg3, G3⟩, ⟨%g4, %hg4, G4⟩, ⟨%g5, %hg5, G5⟩, ⟨%g6, %hg6, G6⟩⟩, Hk⟩
  sl_exec (disch := first | sl_exact h1 | sl_exact h2 | sl_exact h3 | sl_exact h4 | sl_exact h5 | sl_exact h6 | sl_exact h7 | sl_exact h8 | sl_exact h9 | sl_exact h10)
  sl_step
  iapply Hk
  iexists (C2i.next i h8 st)
  isplitr
  · ipureintro; exact C2i.inv_next_point A i hi h8 st hInv
  isplitl [Hins]; · iexact Hins
  isplitl [Houts]; · iexact Houts
  isplitl [G0]
  · iexists g0; isplitr; · ipureintro; exact hg0
    iexact G0
  isplitl [G1]
  · iexists g1; isplitr; · ipureintro; exact hg1
    iexact G1
  isplitl [G2]
  · iexists g2; isplitr; · ipureintro; exact hg2
    iexact G2
  isplitl [G3]
  · iexists g3; isplitr; · ipureintro; exact hg3
    iexact G3
  isplitl [G4]
  · iexists _; isplitr
    swap; · iexact G4
    ipureintro
    rw [C2i.read_writes_one, hg4]
    simp only [Idealize.ShloMosaic.View.readAt_eq_ld, hg0, hg1]
    rfl
  isplitl [G5]
  · iexists _; isplitr
    swap; · iexact G5
    ipureintro
    rw [C2i.read_writes_one, hg5]
    simp only [Idealize.ShloMosaic.View.readAt_eq_ld, hg0, hg1, hg5]
    rfl
  iexists _; isplitr
  swap; · iexact G6
  ipureintro
  rw [C2i.read_writes_one, hg6]
  simp only [Idealize.ShloMosaic.View.readAt_eq_ld, hg0, hg1, hg6]
  rfl

end Cert.KernelIdeal.Stack

end
-- ==== Proof.StackStep30.lean ====
/-
  One grid point of the graph-convolution stack — stage 3, first block: the structure branch's statistics are handed out, the feature decoder's affine map and support built, the sums cleared, then the block.
  From the scratch buffers as the points before left them (the invariant at this point) the kernel body runs to
  the invariant at the next point, the input blocks unchanged and the output blocks as stated.
-/
import proofs.«181189_g481036337843_cont_8to1c4_37_6_alg».proof.Proof.StackRes
import Idealize.ShloMosaic.Lib.Pipeline.Value
import Idealize.ShloMosaic.Lib.WritesUnit

set_option maxRecDepth 16384

noncomputable section

namespace Cert.KernelIdeal.Stack

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

namespace C30

variable {Val : EltTy → Type} {e : EltTy}

/-- Two indices of a two-axis shape with equal coordinates are equal. -/
theorem idx2_ext {n0 n1 : ℕ} {p q : (⟨2, ![n0, n1]⟩ : Shape).Idx} (h0 : (p 0).val = (q 0).val)
    (h1 : (p 1).val = (q 1).val) : p = q :=
  funext fun a => match a with | ⟨0, _⟩ => Fin.ext h0 | ⟨1, _⟩ => Fin.ext h1

/-- The zero offsets of a two-axis shape, as a constant function. -/
theorem zero2 : (![0, 0] : Fin 2 → ℕ) = fun _ => 0 :=
  funext fun a => match a with | ⟨0, _⟩ => rfl | ⟨1, _⟩ => rfl

/-- A function of two, three or six arguments takes equal arguments to equal values. -/
theorem congr2' {α β γ : Type} (g : α → β → γ) {a a' : α} {b b' : β} (ha : a = a') (hb : b = b') :
    g a b = g a' b' := by subst ha hb; rfl
theorem congr3' {α β γ δ : Type} (g : α → β → γ → δ) {a a' : α} {b b' : β} {c c' : γ} (ha : a = a') (hb : b = b')
    (hc : c = c') : g a b c = g a' b' c' := by subst ha hb hc; rfl
theorem congr6' {α₁ α₂ α₃ α₄ α₅ α₆ β : Type} (g : α₁ → α₂ → α₃ → α₄ → α₅ → α₆ → β) {a₁ a₁' : α₁} {a₂ a₂' : α₂}
    {a₃ a₃' : α₃} {a₄ a₄' : α₄} {a₅ a₅' : α₅} {a₆ a₆' : α₆} (h₁ : a₁ = a₁') (h₂ : a₂ = a₂') (h₃ : a₃ = a₃')
    (h₄ : a₄ = a₄') (h₅ : a₅ = a₅') (h₆ : a₆ = a₆') : g a₁ a₂ a₃ a₄ a₅ a₆ = g a₁' a₂' a₃' a₄' a₅' a₆' := by
  subst h₁ h₂ h₃ h₄ h₅ h₆; rfl

section Loads

variable {sig : RefSig} {κ : Kind} {sp : Space}

/-- A load of the whole buffer reads its contents. -/
theorem readAt_whole {S : Shape} (v : View sig κ sp S e) (f : v.ty.Contents Val) (X : S.Idx → Val e)
    (hf : v.read Val f = X) {off : Fin S.rank → ℕ} (hoff : off = fun _ => 0) (inb : ∀ a, off a + S.size a ≤ S.size a) :
    v.readAt Val (Rect.unit off S.size inb).toLoadRect f = X := by
  subst hf; exact View.ld_unit_zero hoff inb _

/-- A load of the left 128 columns reads the left column half. -/
theorem readAt_lcol {n : ℕ} (v : View sig κ sp (⟨2, ![n, 256]⟩ : Shape) e) (f : v.ty.Contents Val)
    (X : (⟨2, ![n, 256]⟩ : Shape).Idx → Val e) (hf : v.read Val f = X) {off : Fin 2 → ℕ} (hoff : off = ![0, 0])
    (inb : ∀ a, off a + (![n, 128] : Fin 2 → ℕ) a ≤ (⟨2, ![n, 256]⟩ : Shape).size a) :
    v.readAt Val (Rect.unit (s := ⟨2, ![n, 256]⟩) off ![n, 128] inb).toLoadRect f = lcol X := by
  subst hf hoff; funext y
  exact congrArg (v.read Val f) (idx2_ext (by show 0 + 1 * (y 0).val = (y 0).val; omega)
    (by show 0 + 1 * (y 1).val = (y 1).val; omega))

/-- A load of the right 128 columns reads the right column half. -/
theorem readAt_rcol {n : ℕ} (v : View sig κ sp (⟨2, ![n, 256]⟩ : Shape) e) (f : v.ty.Contents Val)
    (X : (⟨2, ![n, 256]⟩ : Shape).Idx → Val e) (hf : v.read Val f = X) {off : Fin 2 → ℕ} (hoff : off = ![0, 128])
    (inb : ∀ a, off a + (![n, 128] : Fin 2 → ℕ) a ≤ (⟨2, ![n, 256]⟩ : Shape).size a) :
    v.readAt Val (Rect.unit (s := ⟨2, ![n, 256]⟩) off ![n, 128] inb).toLoadRect f = rcol X := by
  subst hf hoff; funext y
  exact congrArg (v.read Val f) (idx2_ext (by show 0 + 1 * (y 0).val = (y 0).val; omega)
    (by show 128 + 1 * (y 1).val = 128 + (y 1).val; omega))

/-- A load of 256 whole rows from row `256·b` reads row block `b`. -/
theorem readAt_rowBlk {m : ℕ} (v : View sig κ sp (⟨2, ![4096, m]⟩ : Shape) e) (f : v.ty.Contents Val)
    (X : (⟨2, ![4096, m]⟩ : Shape).Idx → Val e) (hf : v.read Val f = X) (b : Fin 16) {off : Fin 2 → ℕ}
    (hoff : off = ![256 * b.val, 0])
    (inb : ∀ a, off a + (![256, m] : Fin 2 → ℕ) a ≤ (⟨2, ![4096, m]⟩ : Shape).size a) :
    v.readAt Val (Rect.unit (s := ⟨2, ![4096, m]⟩) off ![256, m] inb).toLoadRect f = rowBlk X b := by
  subst hf hoff; funext y
  exact congrArg (v.read Val f) (idx2_ext (by show 256 * b.val + 1 * (y 0).val = 256 * b.val + (y 0).val; omega)
    (by show 0 + 1 * (y 1).val = (y 1).val; omega))

/-- A load of 256 rows from row `256·b`, columns 128 … 255, reads row block `b` of the right column half. -/
theorem readAt_rowBlk_rcol (v : View sig κ sp (⟨2, ![4096, 256]⟩ : Shape) e) (f : v.ty.Contents Val)
    (X : (⟨2, ![4096, 256]⟩ : Shape).Idx → Val e) (hf : v.read Val f = X) (b : Fin 16) {off : Fin 2 → ℕ}
    (hoff : off = ![256 * b.val, 128])
    (inb : ∀ a, off a + (![256, 128] : Fin 2 → ℕ) a ≤ (⟨2, ![4096, 256]⟩ : Shape).size a) :
    v.readAt Val (Rect.unit (s := ⟨2, ![4096, 256]⟩) off ![256, 128] inb).toLoadRect f = rowBlk (rcol X) b := by
  subst hf hoff; funext y
  exact congrArg (v.read Val f) (idx2_ext (by show 256 * b.val + 1 * (y 0).val = 256 * b.val + (y 0).val; omega)
    (by show 128 + 1 * (y 1).val = 128 + (y 1).val; omega))

/-- After a store of the whole shape, newest in the list, the buffer reads the stored value. -/
theorem read_writes_whole_cons {S : Shape} (v : View sig κ sp S e) (f : v.ty.Contents Val) {off : Fin S.rank → ℕ}
    (hoff : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  funext fun y => View.read_writes_cons_unit_of_mem v f inb w L y y hoff fun a => (Nat.zero_add _).symm

/-- After a store of row 0 and then of row 1 of a two-row buffer, it reads the two rows stacked. -/
theorem read_writes_two_rows {m : ℕ} (v : View sig κ sp (⟨2, ![2, m]⟩ : Shape) e) (f : v.ty.Contents Val)
    {off0 off1 : Fin 2 → ℕ} (h0 : off0 = ![0, 0]) (h1 : off1 = ![1, 0])
    (inb0 : ∀ a : Fin 2, off0 a + (![1, m] : Fin 2 → ℕ) a ≤ (![2, m] : Fin 2 → ℕ) a)
    (inb1 : ∀ a : Fin 2, off1 a + (![1, m] : Fin 2 → ℕ) a ≤ (![2, m] : Fin 2 → ℕ) a)
    (top bot : (⟨2, ![1, m]⟩ : Shape).Idx → Val e) :
    v.read Val (v.writes Val f
      [(⟨Rect.unit (s := ⟨2, ![2, m]⟩) off1 ![1, m] inb1, bot⟩ : View.Piece Val (⟨2, ![2, m]⟩ : Shape) e),
        ⟨Rect.unit (s := ⟨2, ![2, m]⟩) off0 ![1, m] inb0, top⟩]) = vcat2 top bot := by
  funext y
  have hy := idx2_lt0 y
  unfold vcat2
  by_cases h : (y 0).val = 0
  · rw [if_pos h]
    refine (View.read_writes_cons_rows_of_not_mem v f inb1 bot _ y h1 (W := 1) rfl (Or.inl (by omega))).trans ?_
    exact View.read_writes_cons_rows_of_mem v f inb0 top [] y (ix2 0 (y 1)) h0 (by show (y 0).val = 0 + 0; omega) rfl
  · rw [if_neg h]
    exact View.read_writes_cons_rows_of_mem v f inb1 bot _ y (ix2 0 (y 1)) h1 (by show (y 0).val = 1 + 0; omega) rfl

end Loads

/-- Matrices that agree on all sixteen row blocks are equal. -/
theorem eq_of_agreeRows {α : Type} {m : ℕ} {f g : (⟨2, ![4096, m]⟩ : Shape).Idx → α} (h : AgreeRows f g 16) : f = g := by
  funext j
  have h0 := idx2_lt0 j
  exact (congrArg f (eq_ix2 j)).trans ((h (j 0) (j 1) (by omega)).trans (congrArg g (eq_ix2 j).symm))

/-- Row block `b` of the matrix assembled from sixteen blocks is the `b`-th block. -/
theorem rowBlk_asm16 {α : Type} {m : ℕ} (blk : Fin 16 → ((⟨2, ![256, m]⟩ : Shape).Idx → α)) (b : Fin 16) :
    rowBlk (asm16 blk) b = blk b := by
  funext y
  have hy := idx2_lt0 y
  have hb := b.isLt
  have e1 : (256 * b.val + (y 0).val) / 256 = b.val := by omega
  have e2 : (256 * b.val + (y 0).val) % 256 = (y 0).val := by omega
  have hb' : (⟨(256 * b.val + (y 0).val) / 256, by omega⟩ : Fin 16) = b := Fin.ext e1
  have hy' : (ix2 (⟨(256 * b.val + (y 0).val) % 256, Nat.mod_lt _ (by norm_num)⟩ : Fin 256) (y 1) :
      (⟨2, ![256, m]⟩ : Shape).Idx) = y := idx2_ext e2 rfl
  exact congrArg₂ (fun b' y' => blk b' y') hb' hy'

variable (A : Arrays F)

/-- From the invariant before point 48 (stage 3, block 0) to the invariant before point 49: the row blocks stored so
    far stay, the support becomes the feature decoder's second-layer support, and the sums restart with block 0's. -/
theorem inv_next (st : St F) (h : Inv A 48 st) :
    Inv A 49 ⟨st.adj, S3 A, st.h1, st.u2, st.u3, acc3s A 1, acc3q A 1⟩ := by
  obtain ⟨h1, h2, h3, h4, -, -, -, -⟩ := h
  exact ⟨h1, h2, h3, h4, fun h => absurd h.2 (by norm_num), fun h => absurd h.2 (by norm_num),
    fun h => absurd h.2 (by norm_num), fun _ => ⟨rfl, rfl, rfl⟩⟩

/-- What the invariant before point 48 says of the buffers this point reads: the parked adjacency and the third
    activation are complete, and the sums are stage 2's over all sixteen blocks. -/
theorem inv48_reads (st : St F) (h : Inv A 48 st) :
    st.adj = ADJ A ∧ st.u3 = U3 A ∧ st.accs = acc2s A 16 ∧ st.accq = acc2q A 16 := by
  obtain ⟨h1, -, -, h4, -, -, h7, -⟩ := h
  obtain ⟨-, hs, hq⟩ := h7 ⟨by norm_num, by norm_num⟩
  exact ⟨eq_of_agreeRows h1, eq_of_agreeRows h4, hs, hq⟩

/-- The first running sums of stage 3 are block 0's column sums (of the values, of their squares) added to the
    cleared rows. -/
theorem acc3s_one : acc3s A 1 = k0_pay6 (adjB A ⟨0, by norm_num⟩) (S3 A) (k0_pay16 (F := F)) := rfl
theorem acc3q_one : acc3q A 1 = k0_pay7 (adjB A ⟨0, by norm_num⟩) (S3 A) (k0_pay17 (F := F)) := rfl

end C30

/-! ## Stage 3, first block

The statistics rows of the structure branch (the right halves of the running sums) go to the third output; the feature
decoder's affine map is built from the left halves and applied to the left half of the third activation, and its
product with the second-layer weights becomes the support; the sums are cleared; then the block: the parked adjacency
block times the support, rectified, is the first output, the right half of the third activation's block is the
second, and the block's column sums (of the values, of their squares) are added to the cleared rows. -/

set_option maxHeartbeats 1000000 in
theorem step30 (c : Dev nD) (E : Set ℕ) (i : grid0.Coords) (hs : (i 0).val = 3) (hi : (i 1).val = 0)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 3 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 3 + (i 1).val + 1) st'⌝ ∗ ins c arg2 arg3 arg4 arg5 arg6 arg7 arg8 arg9 arg10 arg11 arg12 x0 A
            ∗ outs c arg13 arg14 arg15 arg16 (u4B A (blkOf i)) (u3sB A (blkOf i)) (S1STATS A) d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  simp only [cc0__gcn_stack_kernel_eq_skeleton]; unfold cc0__gcn_stack_kernel_skel
  simp only [k0_part3_eq_skeleton]; unfold k0_part3_skel
  unfold ins outs scr owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨⟨%f13, %hf13, H13⟩, ⟨%f14, %hf14, H14⟩, ⟨%f15, %hf15, H15⟩, ⟨%f16, %hf16, H16⟩⟩, ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  sl_exec (disch := (sl_unfold_run_names; simp only [k0_cond4, k0_cond6, k0_cond7, k0_cond8, k0_cond9, k0_cond10, hs, hi]; decide))
  -- what the invariant before this point says of the buffers the body reads
  have hInv48 : Inv A 48 st := by rw [hi] at hInv; exact hInv
  obtain ⟨hadj, hu3, haccs, haccq⟩ := C30.inv48_reads A st hInv48
  have hb0 : blkOf i = ⟨0, by norm_num⟩ := Fin.ext hi
  -- the values the body loads and computes, in closed form
  have e42 : step30.sl.v42 c i hs f17 = adjB A (blkOf i) := by
    sl_unfold_run_names
    exact (C30.readAt_rowBlk _ _ _ (hf17.trans hadj) (blkOf i) (k0_off7_eq i) _).trans (C30.rowBlk_asm16 _ _)
  have e43 : step30.sl.v43 c arg9 arg10 arg11 f9 f10 f11 f21 f22 f23 = S3 A := by
    sl_unfold_run_names
    refine (View.readCov_unit_zero (Val := Elt F) _ C30.zero2 _ _).trans ?_
    exact congrArg k0_pay15 (C30.congr6' k0_pay11 (C30.readAt_lcol _ _ _ (hf22.trans haccs) rfl _)
      (C30.readAt_lcol _ _ _ (hf23.trans haccq) rfl _) (C30.readAt_whole _ _ _ hf9 C30.zero2 _)
      (C30.readAt_whole _ _ _ hf10 C30.zero2 _) (C30.readAt_lcol _ _ _ (hf21.trans hu3) rfl _)
      (C30.readAt_whole _ _ _ hf11 C30.zero2 _))
  have e49 : step30.sl.v49 c i hs f21 = u3sB A (blkOf i) := by
    sl_unfold_run_names
    exact C30.readAt_rowBlk_rcol _ _ _ (hf21.trans hu3) (blkOf i) (k0_off8_eq i) _
  have e51 : step30.sl.v51 (F := F) c = k0_pay16 := by
    sl_unfold_run_names
    exact View.readCov_unit_zero (Val := Elt F) _ C30.zero2 _ _
  have e58 : step30.sl.v58 (F := F) c = k0_pay17 := by
    sl_unfold_run_names
    exact View.readCov_unit_zero (Val := Elt F) _ C30.zero2 _ _
  sl_step
  iapply Hk
  iexists (⟨st.adj, S3 A, st.h1, st.u2, st.u3, acc3s A 1, acc3q A 1⟩ : St F)
  isplitr
  · ipureintro; rw [hi]; exact C30.inv_next A st hInv48
  -- the input blocks, untouched
  isplitl [H2 H3 H4 H5 H6 H7 H8 H9 H10 H11 H12]
  · isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    iexists f12; isplitr; · ipureintro; exact hf12
    iexact H12
  -- the output blocks
  isplitl [H13 H14 H15 H16]
  · isplitl [H13]
    · iexists _; isplitr
      swap; · iexact H13
      ipureintro
      exact (C30.read_writes_whole_cons _ _ C30.zero2 _ _ _).trans (C30.congr2' k0_pay5 e42 e43)
    isplitl [H14]
    · iexists _; isplitr
      swap; · iexact H14
      ipureintro
      exact (C30.read_writes_whole_cons _ _ C30.zero2 _ _ _).trans e49
    isplitl [H15]
    · iexists _; isplitr
      swap; · iexact H15
      ipureintro
      exact (C30.read_writes_two_rows _ _ rfl rfl _ _ _ _).trans
        (C30.congr2' vcat2 (C30.readAt_rcol _ _ _ (hf22.trans haccs) rfl _) (C30.readAt_rcol _ _ _ (hf23.trans haccq) rfl _))
    iexists f16; isplitr; · ipureintro; exact hf16
    iexact H16
  -- the scratch buffers
  isplitl [H17]
  · iexists f17; isplitr; · ipureintro; exact hf17
    iexact H17
  isplitl [H18]
  · iexists _; isplitr
    swap; · iexact H18
    ipureintro
    sl_unfold_run_names
    refine (C30.read_writes_whole_cons _ _ C30.zero2 _ _ _).trans ?_
    exact congrArg k0_pay15 (C30.congr6' k0_pay11 (C30.readAt_lcol _ _ _ (hf22.trans haccs) rfl _)
      (C30.readAt_lcol _ _ _ (hf23.trans haccq) rfl _) (C30.readAt_whole _ _ _ hf9 C30.zero2 _)
      (C30.readAt_whole _ _ _ hf10 C30.zero2 _) (C30.readAt_lcol _ _ _ (hf21.trans hu3) rfl _)
      (C30.readAt_whole _ _ _ hf11 C30.zero2 _))
  isplitl [H19]
  · iexists f19; isplitr; · ipureintro; exact hf19
    iexact H19
  isplitl [H20]
  · iexists f20; isplitr; · ipureintro; exact hf20
    iexact H20
  isplitl [H21]
  · iexists f21; isplitr; · ipureintro; exact hf21
    iexact H21
  isplitl [H22]
  · iexists _; isplitr
    swap; · iexact H22
    ipureintro
    refine (C30.read_writes_whole_cons _ _ C30.zero2 _ _ _).trans ((C30.congr3' k0_pay6 e42 e43 e51).trans ?_)
    rw [hb0]; exact (C30.acc3s_one A).symm
  iexists _; isplitr
  swap; · iexact H23
  ipureintro
  refine (C30.read_writes_whole_cons _ _ C30.zero2 _ _ _).trans ((C30.congr3' k0_pay7 e42 e43 e58).trans ?_)
  rw [hb0]; exact (C30.acc3q_one A).symm

end Cert.KernelIdeal.Stack

end
-- ==== Proof.StackStep3i.lean ====
/-
  One grid point of the graph-convolution stack — stage 3, a middle block: the feature decoder's second-layer block, the structure branch's block handed out, the column sums.
  From the scratch buffers as the points before left them (the invariant at this point) the kernel body runs to
  the invariant at the next point, the input blocks unchanged and the output blocks as stated.

  At such a point the body takes one conditional only, the stage-3 block's: it multiplies the parked adjacency block
  (rows 256·b … 256·b+255) with the stage-3 support, rectifies, and stores the 256 × 256 result as the first output
  block; it copies rows 256·b …, columns 128 … 255 of the stage-2 activation (the structure branch's block) into the
  second output block; and it adds the new block's column sums and column sums of squares into the two running rows.
-/
import proofs.«181189_g481036337843_cont_8to1c4_37_6_alg».proof.Proof.StackRes
import proofs.«181189_g481036337843_cont_8to1c4_37_6_alg».proof.Proof.StackView
import Idealize.ShloMosaic.Lib.Pipeline.FrameBody

set_option maxRecDepth 16384

noncomputable section

namespace Cert.KernelIdeal.Stack.C3i

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The running sums one block on -/

/-- A block number below 16 is its own remainder modulo 16. -/
theorem blk_mod (b : Fin 16) : (⟨b.val % 16, Nat.mod_lt _ (by norm_num)⟩ : Fin 16) = b :=
  Fin.ext (Nat.mod_eq_of_lt b.isLt)

/-- The stage-3 running sum after block `b` is the body's sum applied to block `b` and the sum before it. -/
theorem acc3s_succ (A : Arrays F) (b : Fin 16) :
    acc3s A (b.val + 1) = k0_pay6 (adjB A b) (S3 A) (acc3s A b.val) := by
  rw [acc3s]
  exact congrArg (fun k => k0_pay6 (adjB A k) (S3 A) (acc3s A b.val)) (blk_mod b)

/-- The same for the running sum of squares. -/
theorem acc3q_succ (A : Arrays F) (b : Fin 16) :
    acc3q A (b.val + 1) = k0_pay7 (adjB A b) (S3 A) (acc3q A b.val) := by
  rw [acc3q]
  exact congrArg (fun k => k0_pay7 (adjB A k) (S3 A) (acc3q A b.val)) (blk_mod b)

/-! ## The invariant across a middle block of stage 3 -/

/-- What the invariant before block `b` of stage 3 (not the first block) says of the values the body reads: every
    row block of the parked adjacency and the whole stage-2 activation are stored, the support is the stage-3 one, and
    the running rows hold the sums over the blocks before `b`. -/
theorem inv_facts (A : Arrays F) (b : Fin 16) (hb : b.val ≠ 0) (st : St F) (hInv : Inv A (16 * 3 + b.val) st) :
    rowBlk st.adj b = adjB A b ∧ st.u3 = U3 A ∧ st.s = S3 A
      ∧ st.accs = acc3s A b.val ∧ st.accq = acc3q A b.val := by
  obtain ⟨hadj, -, -, hu3, -, -, -, hlast⟩ := hInv
  have hb' := b.isLt
  rw [show min (16 * 3 + b.val) 16 = 16 by omega] at hadj
  rw [show min (16 * 3 + b.val - 32) 16 = 16 by omega] at hu3
  obtain ⟨hs, has, haq⟩ := hlast (by omega)
  rw [show 16 * 3 + b.val - 48 = b.val by omega] at has haq
  refine ⟨?_, View.eq_of_agreeRows_16 hu3, hs, has, haq⟩
  exact (View.rowBlk_eq_of_agreeRows hadj b hb').trans (View.rowBlk_asm16 (adjB A) b)

/-- The invariant after block `b` of stage 3 from the invariant before it: only the two running rows have moved. -/
theorem inv_next (A : Arrays F) (b : Fin 16) (hb : b.val ≠ 0) (st : St F) (hInv : Inv A (16 * 3 + b.val) st)
    (accs' accq' : Vec F S1x256 .f32)
    (hs' : accs' = acc3s A (b.val + 1)) (hq' : accq' = acc3q A (b.val + 1)) :
    Inv A (16 * 3 + b.val + 1) ⟨st.adj, st.s, st.h1, st.u2, st.u3, accs', accq'⟩ := by
  obtain ⟨h1, h2, h3, h4, h5, h6, h7, h8⟩ := hInv
  have hb' := b.isLt
  refine ⟨?_, ?_, ?_, ?_, ?_, ?_, ?_, ?_⟩
  · rw [show min (16 * 3 + b.val + 1) 16 = min (16 * 3 + b.val) 16 by omega]; exact h1
  · rw [show min (16 * 3 + b.val + 1) 16 = min (16 * 3 + b.val) 16 by omega]; exact h2
  · rw [show min (16 * 3 + b.val + 1 - 16) 16 = min (16 * 3 + b.val - 16) 16 by omega]; exact h3
  · rw [show min (16 * 3 + b.val + 1 - 32) 16 = min (16 * 3 + b.val - 32) 16 by omega]; exact h4
  · intro h; exfalso; omega
  · intro h; exfalso; omega
  · intro h; exfalso; omega
  · intro _
    rw [show 16 * 3 + b.val + 1 - 48 = b.val + 1 by omega]
    exact ⟨(h8 (by omega)).1, hs', hq'⟩

/-! ## What the body reads and computes at such a block, over the scratch contents -/

/-- The loads of a middle block of stage 3, read off the invariant: the parked adjacency block is the closed form's,
    the support is the stage-3 support, the structure branch's block is the closed form's, the running rows are the
    sums so far. The offsets enter as variables with their closed forms. -/
theorem loads (A : Arrays F) (b : Fin 16) (hb : b.val ≠ 0) (st : St F) (hInv : Inv A (16 * 3 + b.val) st)
    (off7 off8 : Fin 2 → ℕ) (h7 : off7 = ![256 * b.val, 0]) (h8 : off8 = ![256 * b.val, 128])
    (inb7 : ∀ a, off7 a + S256x4096.size a ≤ S4096x4096.size a)
    (inb8 : ∀ a, off8 a + S256x128.size a ≤ S4096x256.size a)
    (inbS : ∀ a, (![0, 0] : Fin 2 → ℕ) a + S4096x256.size a ≤ S4096x256.size a)
    (inbA : ∀ a, (![0, 0] : Fin 2 → ℕ) a + S1x256.size a ≤ S1x256.size a) :
    View.ld st.adj (Rect.unit (s := S4096x4096) off7 S256x4096.size inb7) = adjB A b
      ∧ View.ld st.s (Rect.unit (s := S4096x256) ![0, 0] S4096x256.size inbS) = S3 A
      ∧ View.ld st.u3 (Rect.unit (s := S4096x256) off8 S256x128.size inb8) = u3sB A b
      ∧ View.ld st.accs (Rect.unit (s := S1x256) ![0, 0] S1x256.size inbA) = acc3s A b.val
      ∧ View.ld st.accq (Rect.unit (s := S1x256) ![0, 0] S1x256.size inbA) = acc3q A b.val := by
  obtain ⟨hadj, hu3, hs, has, haq⟩ := inv_facts A b hb st hInv
  refine ⟨?_, ?_, ?_, ?_, ?_⟩
  · exact (View.ld_rowBlk st.adj b off7 h7 inb7).trans hadj
  · exact (View.ld_whole2 st.s ![0, 0] rfl inbS).trans hs
  · refine (View.ld_rowBlk_rcol st.u3 b off8 h8 inb8).trans ?_
    rw [hu3]; rfl
  · exact (View.ld_whole2 st.accs ![0, 0] rfl inbA).trans has
  · exact (View.ld_whole2 st.accq ![0, 0] rfl inbA).trans haq

/-! ## The scratch contents the body leaves -/

/-- The scratch buffers after a middle block of stage 3: the block's column sums and column sums of squares added into
    the two running rows; everything else as before. -/
def next (i : grid0.Coords) (h9 : k0_cond9 i = 1#1) (st : St F) : St F where
  adj := st.adj
  s := st.s
  h1 := st.h1
  u2 := st.u2
  u3 := st.u3
  accs := k0_pay6 (View.ld st.adj (Rect.unit (s := S4096x4096) (k0_off7 i) S256x4096.size (k0_off7_inb i h9)))
    (View.ld st.s (Rect.unit (s := S4096x256) ![0, 0] S4096x256.size inb_S4096x256_S4096x256_0_0))
    (View.ld st.accs (Rect.unit (s := S1x256) ![0, 0] S1x256.size inb_S1x256_S1x256_0_0))
  accq := k0_pay7 (View.ld st.adj (Rect.unit (s := S4096x4096) (k0_off7 i) S256x4096.size (k0_off7_inb i h9)))
    (View.ld st.s (Rect.unit (s := S4096x256) ![0, 0] S4096x256.size inb_S4096x256_S4096x256_0_0))
    (View.ld st.accq (Rect.unit (s := S1x256) ![0, 0] S1x256.size inb_S1x256_S1x256_0_0))

/-- They satisfy the invariant at the next point. -/
theorem inv_next_point (A : Arrays F) (i : grid0.Coords) (hi : (i 1).val ≠ 0) (h9 : k0_cond9 i = 1#1) (st : St F)
    (hInv : Inv A (16 * 3 + (i 1).val) st) : Inv A (16 * 3 + (i 1).val + 1) (next i h9 st) := by
  obtain ⟨eadj, es, -, eas, eaq⟩ := loads A (blkOf i) hi st hInv (k0_off7 i) (k0_off8 i) (k0_off7_eq i) (k0_off8_eq i)
    (k0_off7_inb i h9) (k0_off8_inb i h9) inb_S4096x256_S4096x256_0_0 inb_S1x256_S1x256_0_0
  refine inv_next A (blkOf i) hi st hInv _ _ ?_ ?_
  · show k0_pay6 _ _ _ = _
    rw [eadj, es, eas]; exact (acc3s_succ A (blkOf i)).symm
  · show k0_pay7 _ _ _ = _
    rw [eadj, es, eaq]; exact (acc3q_succ A (blkOf i)).symm

/-- The first output block the body stores is the feature decoder's second-layer block in closed form. -/
theorem out_u4 (A : Arrays F) (i : grid0.Coords) (hi : (i 1).val ≠ 0) (h9 : k0_cond9 i = 1#1) (st : St F)
    (hInv : Inv A (16 * 3 + (i 1).val) st) :
    k0_pay5 (View.ld st.adj (Rect.unit (s := S4096x4096) (k0_off7 i) S256x4096.size (k0_off7_inb i h9)))
      (View.ld st.s (Rect.unit (s := S4096x256) ![0, 0] S4096x256.size inb_S4096x256_S4096x256_0_0))
      = u4B A (blkOf i) := by
  obtain ⟨eadj, es, -, -, -⟩ := loads A (blkOf i) hi st hInv (k0_off7 i) (k0_off8 i) (k0_off7_eq i) (k0_off8_eq i)
    (k0_off7_inb i h9) (k0_off8_inb i h9) inb_S4096x256_S4096x256_0_0 inb_S1x256_S1x256_0_0
  rw [eadj, es]; rfl

/-- The second output block the body stores is the structure branch's block of the stage-2 activation. -/
theorem out_u3s (A : Arrays F) (i : grid0.Coords) (hi : (i 1).val ≠ 0) (h9 : k0_cond9 i = 1#1) (st : St F)
    (hInv : Inv A (16 * 3 + (i 1).val) st) :
    View.ld st.u3 (Rect.unit (s := S4096x256) (k0_off8 i) S256x128.size (k0_off8_inb i h9)) = u3sB A (blkOf i) :=
  (loads A (blkOf i) hi st hInv (k0_off7 i) (k0_off8 i) (k0_off7_eq i) (k0_off8_eq i)
    (k0_off7_inb i h9) (k0_off8_inb i h9) inb_S4096x256_S4096x256_0_0 inb_S1x256_S1x256_0_0).2.2.1

end Cert.KernelIdeal.Stack.C3i

namespace Cert.KernelIdeal.Stack

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

theorem step3i (c : Dev nD) (E : Set ℕ) (i : grid0.Coords) (hs : (i 0).val = 3) (hi : (i 1).val ≠ 0) (hi' : (i 1).val ≠ 15)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 3 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 3 + (i 1).val + 1) st'⌝ ∗ ins c arg2 arg3 arg4 arg5 arg6 arg7 arg8 arg9 arg10 arg11 arg12 x0 A
            ∗ outs c arg13 arg14 arg15 arg16 (u4B A (blkOf i)) (u3sB A (blkOf i)) d13 d14 ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  have h1 := View.v4_neg i (Or.inl (by omega))
  have h2 := View.v9_neg i (Or.inl (by omega))
  have h3 := View.v14_neg i (Or.inl (by omega))
  have h4 := View.cond4_neg i (Or.inr hi)
  have h5 := View.v22_neg i hi
  have h6 := View.cond6_neg i (by omega)
  have h7 := View.cond7_neg i (by omega)
  have h8 := View.cond8_neg i (by omega)
  have h9 := View.cond9_pos i hs
  have h10 := View.cond10_neg i (Or.inr hi')
  simp only [cc0__gcn_stack_kernel_eq_skeleton]; unfold cc0__gcn_stack_kernel_skel
  simp only [k0_part3_eq_skeleton]; unfold k0_part3_skel
  unfold outs scr owns
  iintro ⟨Hins, ⟨⟨%f13, %hf13, H13⟩, ⟨%f14, %hf14, H14⟩, H15, H16⟩,
    ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  sl_exec (disch := first | sl_exact h1 | sl_exact h2 | sl_exact h3 | sl_exact h4 | sl_exact h5 | sl_exact h6 | sl_exact h7 | sl_exact h8 | sl_exact h9 | sl_exact h10)
  sl_step
  iapply Hk
  iexists (C3i.next i h9 st)
  isplitr
  · ipureintro; exact C3i.inv_next_point A i hi h9 st hInv
  isplitl [Hins]; · iexact Hins
  isplitl [H13 H14 H15 H16]
  · isplitl [H13]
    · iexists _; isplitr
      swap; · iexact H13
      ipureintro
      sl_unfold_run_names
      rw [View.read_writes_cons]
      simp only [View.writes_nil, View.readAt_eq_ld, hf13, hf17, hf18]
      exact (View.overlay_whole2 _ _ _ rfl _).trans (C3i.out_u4 A i hi h9 st hInv)
    isplitl [H14]
    · iexists _; isplitr
      swap; · iexact H14
      ipureintro
      sl_unfold_run_names
      rw [View.read_writes_cons]
      simp only [View.writes_nil, View.readAt_eq_ld, hf14, hf21]
      exact (View.overlay_whole2 _ _ _ rfl _).trans (C3i.out_u3s A i hi h9 st hInv)
    isplitl [H15]; · iexact H15
    iexact H16
  isplitl [H17]
  · iexists f17; isplitr; · ipureintro; exact hf17
    iexact H17
  isplitl [H18]
  · iexists f18; isplitr; · ipureintro; exact hf18
    iexact H18
  isplitl [H19]
  · iexists f19; isplitr; · ipureintro; exact hf19
    iexact H19
  isplitl [H20]
  · iexists f20; isplitr; · ipureintro; exact hf20
    iexact H20
  isplitl [H21]
  · iexists f21; isplitr; · ipureintro; exact hf21
    iexact H21
  isplitl [H22]
  · iexists _; isplitr
    swap; · iexact H22
    ipureintro
    sl_unfold_run_names
    rw [View.read_writes_cons]
    simp only [View.writes_nil, View.readAt_eq_ld, hf17, hf18, hf22]
    exact View.overlay_whole2 _ _ _ rfl _
  iexists _; isplitr
  swap; · iexact H23
  ipureintro
  sl_unfold_run_names
  rw [View.read_writes_cons]
  simp only [View.writes_nil, View.readAt_eq_ld, hf17, hf18, hf23]
  exact View.overlay_whole2 _ _ _ rfl _

end Cert.KernelIdeal.Stack

end
-- ==== Proof.StackStep3z.lean ====
/-
  One grid point of the graph-convolution stack — stage 3, the last block: as a middle block, and the final statistics are handed out.
  From the scratch buffers as the points before left them (the invariant at this point) the kernel body runs to
  the invariant at the next point, the input blocks unchanged and the output blocks as stated.

  At this point (stage 3, block 15) the stage-entry part of the body takes none of its branches; the body multiplies the
  parked adjacency's last row block with the last stage's support, stores the rectified block as the fourth activation's
  block, copies the right half of the third activation's block out, adds the block's column sums and sums of squares
  into the two running rows, and hands the two rows out stacked.  Only the two running rows of the scratch change.
-/
import proofs.«181189_g481036337843_cont_8to1c4_37_6_alg».proof.Proof.StackRes
import Idealize.ShloMosaic.Lib.Pipeline.FrameBody
import Idealize.ShloMosaic.Lib.Pipeline.Value

set_option maxRecDepth 16384

noncomputable section

namespace Cert.KernelIdeal.Stack

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

namespace C3z

/-! ## The conditions and offsets at this grid point -/

/-- The last stage's support is built at its block 0 only: not at block 15. -/
theorem c4 (i : grid0.Coords) (hs : (i 0).val = 3) (hi : (i 1).val = 15) : ¬ k0_cond4 i = 1#1 := by
  unfold k0_cond4; simp only [hs, hi]; decide
/-- The stage-0 branch of the body is not taken in stage 3. -/
theorem c6 (i : grid0.Coords) (hs : (i 0).val = 3) : ¬ k0_cond6 i = 1#1 := by
  unfold k0_cond6; simp only [hs]; decide
/-- The stage-1 branch is not taken in stage 3. -/
theorem c7 (i : grid0.Coords) (hs : (i 0).val = 3) : ¬ k0_cond7 i = 1#1 := by
  unfold k0_cond7; simp only [hs]; decide
/-- The stage-2 branch is not taken in stage 3. -/
theorem c8 (i : grid0.Coords) (hs : (i 0).val = 3) : ¬ k0_cond8 i = 1#1 := by
  unfold k0_cond8; simp only [hs]; decide
/-- The stage-3 branch is taken. -/
theorem c9 (i : grid0.Coords) (hs : (i 0).val = 3) : k0_cond9 i = 1#1 := by
  unfold k0_cond9; simp only [hs]; decide
/-- The final statistics are handed out at stage 3's last block: here. -/
theorem c10 (i : grid0.Coords) (hs : (i 0).val = 3) (hi : (i 1).val = 15) : k0_cond10 i = 1#1 := by
  unfold k0_cond10; simp only [hs, hi]; decide

/-- The row offset of block 15 as the body computes it, a 32-bit product that does not wrap: `256·15 = 3840`. -/
theorem off7 (i : grid0.Coords) (hi : (i 1).val = 15) : k0_off7 i = ![3840, 0] := by
  unfold k0_off7; simp only [hi]; decide
/-- The same row offset, at the right column half. -/
theorem off8 (i : grid0.Coords) (hi : (i 1).val = 15) : k0_off8 i = ![3840, 128] := by
  unfold k0_off8; simp only [hi]; decide

/-- The first layer's support is built at stage 0, block 0 only: not here. -/
theorem v4n (i : grid0.Coords) (hs : (i 0).val = 3) (hi : (i 1).val = 15) :
    ¬ Scalar.cmpi .ne (Scalar.extui (Scalar.andi (Scalar.cmpi .eq (BitVec.ofNat 32 (i 0).val) 0#32) (Scalar.cmpi .eq (BitVec.ofNat 32 (i 1).val) 0#32))) 0#32 = 1#1 := by
  simp only [hs, hi]; decide
/-- The second layer's support is built at stage 1, block 0 only: not here. -/
theorem v9n (i : grid0.Coords) (hs : (i 0).val = 3) (hi : (i 1).val = 15) :
    ¬ Scalar.cmpi .ne (Scalar.extui (Scalar.andi (Scalar.cmpi .eq (BitVec.ofNat 32 (i 0).val) 1#32) (Scalar.cmpi .eq (BitVec.ofNat 32 (i 1).val) 0#32))) 0#32 = 1#1 := by
  simp only [hs, hi]; decide
/-- The decoders' support is built at stage 2, block 0 only: not here. -/
theorem v14n (i : grid0.Coords) (hs : (i 0).val = 3) (hi : (i 1).val = 15) :
    ¬ Scalar.cmpi .ne (Scalar.extui (Scalar.andi (Scalar.cmpi .eq (BitVec.ofNat 32 (i 0).val) 2#32) (Scalar.cmpi .eq (BitVec.ofNat 32 (i 1).val) 0#32))) 0#32 = 1#1 := by
  simp only [hs, hi]; decide
/-- The running rows are reset at block 0 of a stage only: not at block 15. -/
theorem v22n (i : grid0.Coords) (hi : (i 1).val = 15) :
    ¬ Scalar.cmpi .ne (Scalar.extui (Scalar.cmpi .eq (BitVec.ofNat 32 (i 1).val) 0#32)) 0#32 = 1#1 := by
  simp only [hi]; decide

/-- Where the body reads the parked adjacency at block `b`: rows `256·b` on, every column. -/
theorem off7_blk (i : grid0.Coords) (hi : (i 1).val = 15) : k0_off7 i = ![256 * (blkOf i).val, 0] := by
  rw [show (blkOf i).val = 15 from hi]; exact off7 i hi
/-- Where it reads the third activation's block: rows `256·b` on, the right 128 columns. -/
theorem off8_blk (i : grid0.Coords) (hi : (i 1).val = 15) : k0_off8 i = ![256 * (blkOf i).val, 128] := by
  rw [show (blkOf i).val = 15 from hi]; exact off8 i hi

/-! ## Loads at a row block, read as row blocks -/

section Pure

variable {Val : EltTy → Type} {e : EltTy}

/-- The zero offsets of a rank-2 access, spelt as a literal vector. -/
theorem zero2 : (![0, 0] : Fin 2 → ℕ) = fun _ => 0 := by
  funext a; match a with | ⟨0, _⟩ => rfl | ⟨1, _⟩ => rfl

/-- Loading 256 whole rows from row `256·b` on reads row block `b`. -/
theorem ld_rows {m : ℕ} (f : (⟨2, ![4096, m]⟩ : Shape).Idx → Val e) (b : Fin 16) (off : Fin 2 → ℕ)
    (hoff : off = ![256 * b.val, 0])
    (inb : ∀ a, off a + (![256, m] : Fin 2 → ℕ) a ≤ (⟨2, ![4096, m]⟩ : Shape).size a) :
    View.ld f (Rect.unit (s := ⟨2, ![4096, m]⟩) off ![256, m] inb) = rowBlk f b := by
  subst hoff
  funext y
  show f _ = f _
  congr 1
  funext a
  match a with
  | ⟨0, _⟩ => exact Fin.ext (by show 256 * b.val + 1 * (y 0).val = 256 * b.val + (y 0).val; omega)
  | ⟨1, _⟩ => exact Fin.ext (by show 0 + 1 * (y 1).val = (y 1).val; omega)

/-- Loading 256 rows from row `256·b` on, columns 128 … 255, reads row block `b` of the right half. -/
theorem ld_rows_right (f : (⟨2, ![4096, 256]⟩ : Shape).Idx → Val e) (b : Fin 16) (off : Fin 2 → ℕ)
    (hoff : off = ![256 * b.val, 128])
    (inb : ∀ a, off a + (![256, 128] : Fin 2 → ℕ) a ≤ (⟨2, ![4096, 256]⟩ : Shape).size a) :
    View.ld f (Rect.unit (s := ⟨2, ![4096, 256]⟩) off ![256, 128] inb) = rowBlk (rcol f) b := by
  subst hoff
  funext y
  show f _ = f _
  congr 1
  funext a
  match a with
  | ⟨0, _⟩ => exact Fin.ext (by show 256 * b.val + 1 * (y 0).val = 256 * b.val + (y 0).val; omega)
  | ⟨1, _⟩ => exact Fin.ext (by show 128 + 1 * (y 1).val = 128 + (y 1).val; omega)

end Pure

/-! ## Row blocks of an assembled matrix, and agreement on leading rows -/

section Blocks

variable {α : Type} {m : ℕ}

/-- Row block `b` of the matrix assembled from sixteen blocks is the `b`-th of them. -/
theorem rowBlk_asm16 (blk : Fin 16 → ((⟨2, ![256, m]⟩ : Shape).Idx → α)) (b : Fin 16) :
    rowBlk (asm16 blk) b = blk b := by
  funext y
  have hy := idx2_lt0 y
  have hb := b.isLt
  have e1 : (256 * b.val + (y 0).val) / 256 = b.val := by omega
  have e2 : (256 * b.val + (y 0).val) % 256 = (y 0).val := by omega
  have eb : (⟨(256 * b.val + (y 0).val) / 256, by omega⟩ : Fin 16) = b := Fin.ext e1
  have ey : (ix2 (⟨(256 * b.val + (y 0).val) % 256, Nat.mod_lt _ (by norm_num)⟩ : Fin 256) (y 1)
      : (⟨2, ![256, m]⟩ : Shape).Idx) = y := by
    funext a; match a with | ⟨0, _⟩ => exact Fin.ext e2 | ⟨1, _⟩ => rfl
  show blk ⟨(256 * b.val + (y 0).val) / 256, _⟩ (ix2 ⟨(256 * b.val + (y 0).val) % 256, _⟩ (y 1)) = blk b y
  exact congr (congrArg blk eb) ey

/-- Matrices that agree on their first `256·k` rows have the same row block `b < k`. -/
theorem rowBlk_congr {f g : (⟨2, ![4096, m]⟩ : Shape).Idx → α} {k : ℕ} (h : AgreeRows f g k) (b : Fin 16)
    (hb : b.val < k) : rowBlk f b = rowBlk g b := by
  funext y
  have hy := idx2_lt0 y
  exact h _ _ (by show 256 * b.val + (y 0).val < 256 * k; omega)

/-- Agreement on leading rows passes to the right column half. -/
theorem agree_rcol {f g : (⟨2, ![4096, 256]⟩ : Shape).Idx → α} {k : ℕ} (h : AgreeRows f g k) :
    AgreeRows (rcol f) (rcol g) k :=
  fun r c hr => h r ⟨128 + c.val, by have := c.isLt; omega⟩ hr

end Blocks

/-! ## What the stores of this grid point leave, read back -/

section ReadBack

variable {Val : EltTy → Type} {e : EltTy} {sig : RefSig} {κ : Kind} {sp : Space}

/-- One store through the whole buffer leaves its payload. -/
theorem read_whole_store [∀ e, Nonempty (Val e)] {S : Shape} (v : View sig κ sp S e) (f : v.ty.Contents Val)
    {off : Fin S.rank → ℕ} (hz : off = fun _ => 0) (inb : ∀ a, off a + S.size a ≤ S.size a) (w : S.Idx → Val e) :
    v.read Val (v.writes Val f [(⟨Rect.unit off S.size inb, w⟩ : View.Piece Val S e)]) = w :=
  (View.read_writes_eq_canon v f _
    (fun y => ⟨_, List.mem_singleton_self _, View.mem_set_unit_zero hz inb y⟩)).trans (View.canon_unit_zero hz inb w)

/-- Two stores, one per row of a two-row buffer, leave the two payloads stacked. -/
theorem read_two_rows (v : View sig κ sp ⟨2, ![2, 256]⟩ e) (f : v.ty.Contents Val)
    (top bot : (⟨2, ![1, 256]⟩ : Shape).Idx → Val e)
    (inb0 : ∀ a, (![0, 0] : Fin 2 → ℕ) a + (![1, 256] : Fin 2 → ℕ) a ≤ (⟨2, ![2, 256]⟩ : Shape).size a)
    (inb1 : ∀ a, (![1, 0] : Fin 2 → ℕ) a + (![1, 256] : Fin 2 → ℕ) a ≤ (⟨2, ![2, 256]⟩ : Shape).size a) :
    v.read Val (v.writes Val f
      [(⟨Rect.unit (s := ⟨2, ![2, 256]⟩) ![1, 0] ![1, 256] inb1, bot⟩ : View.Piece Val ⟨2, ![2, 256]⟩ e),
        ⟨Rect.unit (s := ⟨2, ![2, 256]⟩) ![0, 0] ![1, 256] inb0, top⟩]) = vcat2 top bot := by
  funext y
  refine View.read_writes_apply_of_pieces v f (vcat2 top bot) _ ?_ y ?_
  · intro p hp x
    rcases List.mem_cons.mp hp with rfl | hp
    · have h0 : (x 0).val = 0 := by have := idx2_lt0 x; omega
      show bot x = vcat2 top bot ((Rect.unit (s := ⟨2, ![2, 256]⟩) ![1, 0] ![1, 256] inb1).emb x)
      unfold vcat2
      rw [if_neg (by show ¬ (1 + 1 * (x 0).val = 0); omega)]
      congr 1
      funext a
      match a with
      | ⟨0, _⟩ => exact Fin.ext (by show (x 0).val = 0; exact h0)
      | ⟨1, _⟩ => exact Fin.ext (by show (x 1).val = 0 + 1 * (x 1).val; omega)
    · rcases List.mem_singleton.mp hp with rfl
      have h0 : (x 0).val = 0 := by have := idx2_lt0 x; omega
      show top x = vcat2 top bot ((Rect.unit (s := ⟨2, ![2, 256]⟩) ![0, 0] ![1, 256] inb0).emb x)
      unfold vcat2
      rw [if_pos (by show 0 + 1 * (x 0).val = 0; omega)]
      congr 1
      funext a
      match a with
      | ⟨0, _⟩ => exact Fin.ext (by show (x 0).val = 0; exact h0)
      | ⟨1, _⟩ => exact Fin.ext (by show (x 1).val = 0 + 1 * (x 1).val; omega)
  · have hy0 := idx2_lt0 y
    have hy1 := idx2_lt1 y
    by_cases h : (y 0).val = 0
    · refine ⟨⟨Rect.unit (s := ⟨2, ![2, 256]⟩) ![0, 0] ![1, 256] inb0, top⟩,
        List.mem_cons_of_mem _ (List.mem_singleton_self _),
        (Rect.mem_set_unit (s := ⟨2, ![2, 256]⟩) (off := ![0, 0]) (size := ![1, 256]) (inb := inb0)).mpr fun a => ?_⟩
      match a with
      | ⟨0, _⟩ => exact ⟨by show 0 ≤ (y 0).val; omega, by show (y 0).val < 0 + 1; omega⟩
      | ⟨1, _⟩ => exact ⟨by show 0 ≤ (y 1).val; omega, by show (y 1).val < 0 + 256; omega⟩
    · refine ⟨⟨Rect.unit (s := ⟨2, ![2, 256]⟩) ![1, 0] ![1, 256] inb1, bot⟩,
        List.mem_cons_self,
        (Rect.mem_set_unit (s := ⟨2, ![2, 256]⟩) (off := ![1, 0]) (size := ![1, 256]) (inb := inb1)).mpr fun a => ?_⟩
      match a with
      | ⟨0, _⟩ => exact ⟨by show 1 ≤ (y 0).val; omega, by show (y 0).val < 1 + 1; omega⟩
      | ⟨1, _⟩ => exact ⟨by show 0 ≤ (y 1).val; omega, by show (y 1).val < 0 + 256; omega⟩

end ReadBack

/-! ## The invariant across the last grid point -/

section Invariant

variable {F : FTy → Type} [FloatOps F] (A : Arrays F)

/-- Before the last grid point (point 63) every adjacency block and every block of the third activation is
    stored, the support is the last stage's, and the running sums hold fifteen blocks. -/
theorem inv_last (st : St F) (h : Inv A 63 st) :
    AgreeRows st.adj (ADJ A) 16 ∧ AgreeRows st.u3 (U3 A) 16 ∧ st.s = S3 A
      ∧ st.accs = acc3s A 15 ∧ st.accq = acc3q A 15 := by
  obtain ⟨h1, -, -, h4, -, -, -, h8⟩ := h
  obtain ⟨hs, ha, hq⟩ := h8 ⟨by norm_num, by norm_num⟩
  exact ⟨h1, h4, hs, ha, hq⟩

/-- The parked adjacency's last row block is the last block's half-precision adjacency. -/
theorem adj_last (st : St F) (h : Inv A 63 st) (b : Fin 16) (hb : b.val = 15) : rowBlk st.adj b = adjB A b :=
  (rowBlk_congr (inv_last A st h).1 b (by omega)).trans (rowBlk_asm16 (adjB A) b)

/-- The sixteenth running sum is the payload of the last block over the fifteenth. -/
theorem accs_last (st : St F) (h : Inv A 63 st) (b : Fin 16) (hb : b.val = 15) :
    k0_pay6 (rowBlk st.adj b) st.s st.accs = acc3s A 16 := by
  have hb' : (⟨15 % 16, Nat.mod_lt _ (by norm_num)⟩ : Fin 16) = b := Fin.ext (by show 15 % 16 = b.val; omega)
  rw [adj_last A st h b hb, (inv_last A st h).2.2.1, (inv_last A st h).2.2.2.1, ← hb']
  rfl

/-- Likewise for the running sum of squares. -/
theorem accq_last (st : St F) (h : Inv A 63 st) (b : Fin 16) (hb : b.val = 15) :
    k0_pay7 (rowBlk st.adj b) st.s st.accq = acc3q A 16 := by
  have hb' : (⟨15 % 16, Nat.mod_lt _ (by norm_num)⟩ : Fin 16) = b := Fin.ext (by show 15 % 16 = b.val; omega)
  rw [adj_last A st h b hb, (inv_last A st h).2.2.1, (inv_last A st h).2.2.2.2, ← hb']
  rfl

/-- The scratch state the last grid point leaves: only the two running rows change. -/
def stEnd (st : St F) (b : Fin 16) : St F :=
  { st with accs := k0_pay6 (rowBlk st.adj b) st.s st.accs, accq := k0_pay7 (rowBlk st.adj b) st.s st.accq }

/-- The invariant after the last grid point. -/
theorem inv_end (st : St F) (h : Inv A 63 st) (b : Fin 16) (hb : b.val = 15) : Inv A 64 (stEnd st b) := by
  obtain ⟨h1, h2, h3, h4, -, -, -, h8⟩ := id h
  obtain ⟨hs, -, -⟩ := h8 ⟨by norm_num, by norm_num⟩
  exact ⟨h1, h2, h3, h4, fun hh => absurd hh.2 (by norm_num), fun hh => absurd hh.2 (by norm_num),
    fun hh => absurd hh.2 (by norm_num), fun _ => ⟨hs, accs_last A st h b hb, accq_last A st h b hb⟩⟩

/-- The last block of the fourth activation. -/
theorem out_u4 (st : St F) (h : Inv A 63 st) (b : Fin 16) (hb : b.val = 15) :
    k0_pay5 (rowBlk st.adj b) st.s = u4B A b := by
  rw [adj_last A st h b hb, (inv_last A st h).2.2.1]; rfl

/-- The last block of the structure branch's activation: the right half of the third activation's block. -/
theorem out_u3s (st : St F) (h : Inv A 63 st) (b : Fin 16) (hb : b.val = 15) :
    rowBlk (rcol st.u3) b = u3sB A b :=
  rowBlk_congr (agree_rcol (inv_last A st h).2.1) b (by omega)

/-- The final statistics: the two running rows after all sixteen blocks, stacked. -/
theorem out_stats (st : St F) (h : Inv A 63 st) (b : Fin 16) (hb : b.val = 15) :
    vcat2 (k0_pay6 (rowBlk st.adj b) st.s st.accs) (k0_pay7 (rowBlk st.adj b) st.s st.accq) = U4STATS A := by
  rw [accs_last A st h b hb, accq_last A st h b hb]; rfl

/-- The two rows the last grid point leaves, spelt out. -/
theorem stEnd_accs {F : FTy → Type} [FloatOps F] (st : St F) (b : Fin 16) :
    (stEnd st b).accs = k0_pay6 (rowBlk st.adj b) st.s st.accs := rfl
theorem stEnd_accq {F : FTy → Type} [FloatOps F] (st : St F) (b : Fin 16) :
    (stEnd st b).accq = k0_pay7 (rowBlk st.adj b) st.s st.accq := rfl

end Invariant

end C3z

variable {F : FTy → Type} [FloatOps F]

theorem step3z (c : Dev nD) (E : Set ℕ) (i : grid0.Coords) (hs : (i 0).val = 3) (hi : (i 1).val = 15)
    (arg2 : Memref sig .tc .vmem S256x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S2x128 .f32) (harg15 : arg15.IsWhole) (arg16 : Memref sig .tc .vmem S2x256 .f32) (harg16 : arg16.IsWhole)
    (A : Arrays F) (x0 : Vec F S256x4096 .f32)
    (d11 : Vec F S256x256 .f32) (d12 : Vec F S256x128 .f32) (d13 : Vec F S2x128 .f32) (d14 : Vec F S2x256 .f32)
    (st : St F) (hInv : Inv A (16 * 3 + (i 1).val) st) (K : PUnit → sProp (𝕄0 F)) :
    iprop(ins c arg2 arg3 arg4 arg5 arg6 arg7 arg8 arg9 arg10 arg11 arg12 x0 A ∗ outs c arg13 arg14 arg15 arg16 d11 d12 d13 d14 ∗ scr c st
        ∗ (iprop(∃ st', ⌜Inv A (16 * 3 + (i 1).val + 1) st'⌝ ∗ ins c arg2 arg3 arg4 arg5 arg6 arg7 arg8 arg9 arg10 arg11 arg12 x0 A
            ∗ outs c arg13 arg14 arg15 arg16 (u4B A (blkOf i)) (u3sB A (blkOf i)) d13 (U4STATS A) ∗ scr c st') -∗ K ⟨⟩))
      ⊢ wp frame (wpE (defs₀ (F := F)) Variants.none c none) E
          (cc0__gcn_stack_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  have hc4 := C3z.c4 i hs hi
  have hc6 := C3z.c6 i hs
  have hc7 := C3z.c7 i hs
  have hc8 := C3z.c8 i hs
  have hc9 := C3z.c9 i hs
  have hc10 := C3z.c10 i hs hi
  have hv4 := C3z.v4n i hs hi
  have hv9 := C3z.v9n i hs hi
  have hv14 := C3z.v14n i hs hi
  have hv22 := C3z.v22n i hi
  have hb : (blkOf i).val = 15 := hi
  have hoff7 := C3z.off7_blk i hi
  have hoff8 := C3z.off8_blk i hi
  have hInv63 : Inv A 63 st := by have h := hInv; rw [hi] at h; exact h
  have hInv64 : Inv A (16 * 3 + (i 1).val + 1) (C3z.stEnd st (blkOf i)) := by
    rw [hi]; exact C3z.inv_end A st hInv63 (blkOf i) hb
  simp only [cc0__gcn_stack_kernel_eq_skeleton]; unfold cc0__gcn_stack_kernel_skel
  simp only [k0_part3_eq_skeleton]; unfold k0_part3_skel
  unfold ins outs scr
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨⟨%f13, %hf13, H13⟩, ⟨%f14, %hf14, H14⟩, ⟨%f15, %hf15, H15⟩, ⟨%f16, %hf16, H16⟩⟩, ⟨⟨%g0, %hg0, S0⟩, ⟨%g1, %hg1, S1⟩, ⟨%g2, %hg2, S2⟩, ⟨%g3, %hg3, S3⟩, ⟨%g4, %hg4, S4⟩, ⟨%g5, %hg5, S5⟩, ⟨%g6, %hg6, S6⟩⟩, Hk⟩
  sl_exec (disch := first | sl_exact hc4 | sl_exact hc6 | sl_exact hc7 | sl_exact hc8 | sl_exact hc9 | sl_exact hc10 | exact hv4 | exact hv9 | exact hv14 | exact hv22)
  sl_step
  iapply Hk
  iexists (C3z.stEnd st (blkOf i))
  isplitr
  · ipureintro; exact hInv64
  isplitl [H2 H3 H4 H5 H6 H7 H8 H9 H10 H11 H12]
  · isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    iexists f12; isplitr; · ipureintro; exact hf12
    iexact H12
  isplitl [H13 H14 H15 H16]
  · isplitl [H13]
    · iexists _; isplitr
      swap; · iexact H13
      ipureintro
      refine (C3z.read_whole_store _ _ C3z.zero2 _ _).trans ?_
      sl_unfold_run_names
      simp only [View.readAt_eq_ld, hg0, hg1]
      exact (congrArg₂ k0_pay5 (C3z.ld_rows st.adj (blkOf i) _ hoff7 _) (View.ld_unit_zero C3z.zero2 _ st.s)).trans
        (C3z.out_u4 A st hInv63 (blkOf i) hb)
    isplitl [H14]
    · iexists _; isplitr
      swap; · iexact H14
      ipureintro
      refine (C3z.read_whole_store _ _ C3z.zero2 _ _).trans ?_
      sl_unfold_run_names
      simp only [View.readAt_eq_ld, hg4]
      exact (C3z.ld_rows_right st.u3 (blkOf i) _ hoff8 _).trans (C3z.out_u3s A st hInv63 (blkOf i) hb)
    isplitl [H15]
    · iexists f15; isplitr; · ipureintro; exact hf15
      iexact H15
    iexists _; isplitr
    swap; · iexact H16
    ipureintro
    refine (C3z.read_two_rows _ _ _ _ _ _).trans ?_
    sl_unfold_run_names
    simp only [View.readCov_unit_zero (S := S1x256) _ C3z.zero2, View.readAt_eq_ld, hg0, hg1, hg5, hg6]
    exact (congrArg₂ vcat2
        (congr (congrArg₂ k0_pay6 (C3z.ld_rows st.adj (blkOf i) _ hoff7 _) (View.ld_unit_zero C3z.zero2 _ st.s))
          (View.ld_unit_zero C3z.zero2 _ st.accs))
        (congr (congrArg₂ k0_pay7 (C3z.ld_rows st.adj (blkOf i) _ hoff7 _) (View.ld_unit_zero C3z.zero2 _ st.s))
          (View.ld_unit_zero C3z.zero2 _ st.accq))).trans
      (C3z.out_stats A st hInv63 (blkOf i) hb)
  isplitl [S0]
  · iexists g0; isplitr; · ipureintro; exact hg0
    iexact S0
  isplitl [S1]
  · iexists g1; isplitr; · ipureintro; exact hg1
    iexact S1
  isplitl [S2]
  · iexists g2; isplitr; · ipureintro; exact hg2
    iexact S2
  isplitl [S3]
  · iexists g3; isplitr; · ipureintro; exact hg3
    iexact S3
  isplitl [S4]
  · iexists g4; isplitr; · ipureintro; exact hg4
    iexact S4
  isplitl [S5]
  · iexists _; isplitr
    swap; · iexact S5
    ipureintro
    rw [C3z.stEnd_accs]
    sl_unfold_run_names
    refine (C3z.read_whole_store _ _ C3z.zero2 _ _).trans ?_
    simp only [View.readAt_eq_ld, hg0, hg1, hg5]
    exact congr (congrArg₂ k0_pay6 (C3z.ld_rows st.adj (blkOf i) _ hoff7 _) (View.ld_unit_zero C3z.zero2 _ st.s))
      (View.ld_unit_zero C3z.zero2 _ st.accs)
  iexists _; isplitr
  swap; · iexact S6
  ipureintro
  rw [C3z.stEnd_accq]
  sl_unfold_run_names
  refine (C3z.read_whole_store _ _ C3z.zero2 _ _).trans ?_
  simp only [View.readAt_eq_ld, hg0, hg1, hg6]
  exact congr (congrArg₂ k0_pay7 (C3z.ld_rows st.adj (blkOf i) _ hoff7 _) (View.ld_unit_zero C3z.zero2 _ st.s))
    (View.ld_unit_zero C3z.zero2 _ st.accq)

end Cert.KernelIdeal.Stack

end
-- ==== Proof.StackOblig.lean ====
/-
  The body obligation of the graph-convolution stack's pipeline: at every grid point the windows' staging buffers hold
  what the proof data says (an input its block, fetched there or not; an output whatever the points before left), the
  point's control case is read off its coordinates, and that case's run of the body gives the next invariant and what
  each window's buffer is left with.
-/
import proofs.«181189_g481036337843_cont_8to1c4_37_6_alg».proof.Proof.StackData
import proofs.«181189_g481036337843_cont_8to1c4_37_6_alg».proof.Proof.StackObligGlue
import proofs.«181189_g481036337843_cont_8to1c4_37_6_alg».proof.Proof.StackStep00
import proofs.«181189_g481036337843_cont_8to1c4_37_6_alg».proof.Proof.StackStep0i
import proofs.«181189_g481036337843_cont_8to1c4_37_6_alg».proof.Proof.StackStep10
import proofs.«181189_g481036337843_cont_8to1c4_37_6_alg».proof.Proof.StackStep1i
import proofs.«181189_g481036337843_cont_8to1c4_37_6_alg».proof.Proof.StackStep20
import proofs.«181189_g481036337843_cont_8to1c4_37_6_alg».proof.Proof.StackStep2i
import proofs.«181189_g481036337843_cont_8to1c4_37_6_alg».proof.Proof.StackStep30
import proofs.«181189_g481036337843_cont_8to1c4_37_6_alg».proof.Proof.StackStep3i
import proofs.«181189_g481036337843_cont_8to1c4_37_6_alg».proof.Proof.StackStep3z

set_option maxRecDepth 16384

noncomputable section

namespace Cert.KernelIdeal.Stack

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- The body at any point, by the point's control case: its stage (the first coordinate) and whether its row block (the
    second) is the first, the last or one between. In stages 0 to 2 every output window is idle and not written back.
    In stage 3 the two activation windows are live; the structure branch's statistics are stored at the first block,
    then idle, and written back at the last block, where the buffer still holds them; the final statistics are idle
    until the last block, where they are stored. -/
theorem sound_body (c : Dev nD) (t : Fin cfg0.N) :
    bodyPre V c t ⊢ wp frame (wpE (defs₀ (F := F)) Variants.none c none) Set.univ (bodyAt0 t) (fun _ => bodyPost V c t) := by
  have hc := pt_coords t
  have hN : cfg0.N = 64 := N_0
  have ht : t.val < cfg0.N := t.isLt
  have hs4 : (grid0.coords t 0).val < 4 := (grid0.coords t 0).isLt
  have hb16 : (grid0.coords t 1).val < 16 := (grid0.coords t 1).isLt
  rcases (by omega : (grid0.coords t 0).val = 0 ∨ (grid0.coords t 0).val = 1 ∨ (grid0.coords t 0).val = 2 ∨ (grid0.coords t 0).val = 3)
    with hs | hs | hs | hs
  · -- stage 0: no output window is written; each is handed back as it was found
    by_cases hi : (grid0.coords t 1).val = 0
    · exact sound_body_of V c t (16 * 0 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step00 c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) (iblk_0 V c t hs) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
    · exact sound_body_of V c t (16 * 0 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step0i c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) (iblk_0 V c t hs) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
  · -- stage 1: no output window is written; each is handed back as it was found
    by_cases hi : (grid0.coords t 1).val = 0
    · exact sound_body_of V c t (16 * 1 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step10 c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
    · exact sound_body_of V c t (16 * 1 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step1i c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
  · -- stage 2: no output window is written; each is handed back as it was found
    by_cases hi : (grid0.coords t 1).val = 0
    · exact sound_body_of V c t (16 * 2 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step20 c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
    · exact sound_body_of V c t (16 * 2 + (grid0.coords t 1).val) (by omega) (fun d => d) (fun d => d) (fun d => d) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step2i c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
        (fun d => leaves_of_idle V c 11 t (by rw [idle_11]; exact decide_eq_true (by omega)) (by rw [flush_11]; exact decide_eq_false (by omega)) d)
        (fun d => leaves_of_idle V c 12 t (by rw [idle_12]; exact decide_eq_true (by omega)) (by rw [flush_12]; exact decide_eq_false (by omega)) d)
        (fun d => leaves_of_idle V c 13 t (by rw [idle_13]; exact decide_eq_true (by omega)) (by rw [flush_13]; exact decide_eq_false (by omega)) d)
        (fun d => leaves_of_idle V c 14 t (by rw [idle_14]; exact decide_eq_true (by omega)) (by rw [flush_14]; exact decide_eq_false (by omega)) d)
  · -- stage 3
    by_cases hi : (grid0.coords t 1).val = 0
    · -- the first block: both activation blocks and the structure branch's statistics are stored
      exact sound_body_of V c t (16 * 3 + (grid0.coords t 1).val) (by omega)
        (fun _ => u4B (arrays V c) (blkOf (grid0.coords t))) (fun _ => u3sB (arrays V c) (blkOf (grid0.coords t)))
        (fun _ => S1STATS (arrays V c)) (fun d => d)
        (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
          step30 c E (grid0.coords t) hs hi arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
        (fun _ => leaves_of_live V c 11 t (by rw [idle_11]; exact decide_eq_false (by omega)) _ (after_11 V c t).symm)
        (fun _ => leaves_of_live V c 12 t (by rw [idle_12]; exact decide_eq_false (by omega)) _ (after_12 V c t).symm)
        (fun _ => leaves_of_live V c 13 t (by rw [idle_13]; exact decide_eq_false (by omega)) _ (after_13 V c t).symm)
        (fun d => leaves_of_idle V c 14 t (by rw [idle_14]; exact decide_eq_true (by omega)) (by rw [flush_14]; exact decide_eq_false (by omega)) d)
    · by_cases hi' : (grid0.coords t 1).val = 15
      · -- the last block: the structure branch's statistics, stored at the first block and untouched since, are written
        -- back; the final statistics are stored
        exact sound_body_of V c t (16 * 3 + (grid0.coords t 1).val) (by omega)
          (fun _ => u4B (arrays V c) (blkOf (grid0.coords t))) (fun _ => u3sB (arrays V c) (blkOf (grid0.coords t)))
          (fun d => d) (fun _ => U4STATS (arrays V c))
          (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
            step3z c E (grid0.coords t) hs hi' arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
          (fun _ => leaves_of_live V c 11 t (by rw [idle_11]; exact decide_eq_false (by omega)) _ (after_11 V c t).symm)
          (fun _ => leaves_of_live V c 12 t (by rw [idle_12]; exact decide_eq_false (by omega)) _ (after_12 V c t).symm)
          (fun d => leaves_of_flush V c 13 t (by rw [idle_13]; exact decide_eq_true (by omega)) (by rw [flush_13]; exact decide_eq_true (by omega)) _
            ((before_13 V c t.val t.isLt (by omega) d).trans (after_13 V c t).symm))
          (fun _ => leaves_of_live V c 14 t (by rw [idle_14]; exact decide_eq_false (by omega)) _ (after_14 V c t).symm)
      · -- a block between: only the activation blocks are stored
        exact sound_body_of V c t (16 * 3 + (grid0.coords t 1).val) (by omega)
          (fun _ => u4B (arrays V c) (blkOf (grid0.coords t))) (fun _ => u3sB (arrays V c) (blkOf (grid0.coords t)))
          (fun d => d) (fun d => d)
          (fun d11 d12 d13 d14 E arg2 harg2 arg3 harg3 arg4 harg4 arg5 harg5 arg6 harg6 arg7 harg7 arg8 harg8 arg9 harg9 arg10 harg10 arg11 harg11 arg12 harg12 arg13 harg13 arg14 harg14 arg15 harg15 arg16 harg16 st hInv K =>
            step3i c E (grid0.coords t) hs hi hi' arg2 harg2 arg3 harg3 arg4 harg4 arg5 harg5 arg6 harg6 arg7 harg7 arg8 harg8 arg9 harg9 arg10 harg10 arg11 harg11 arg12 harg12 arg13 harg13 arg14 harg14 arg15 harg15 arg16 harg16 (arrays V c) (iblk V c 0 t) d11 d12 d13 d14 st hInv K)
          (fun _ => leaves_of_live V c 11 t (by rw [idle_11]; exact decide_eq_false (by omega)) _ (after_11 V c t).symm)
          (fun _ => leaves_of_live V c 12 t (by rw [idle_12]; exact decide_eq_false (by omega)) _ (after_12 V c t).symm)
          (fun d => leaves_of_idle V c 13 t (by rw [idle_13]; exact decide_eq_true (by omega)) (by rw [flush_13]; exact decide_eq_false (by omega)) d)
          (fun d => leaves_of_idle V c 14 t (by rw [idle_14]; exact decide_eq_true (by omega)) (by rw [flush_14]; exact decide_eq_false (by omega)) d)

/-- The body obligation at every grid point. -/
theorem body_obligation (c : Dev nD) : BodyObligation (dat (F := F) V c) (defs₀ (F := F)) Variants.none () Set.univ := fun t => by
  rw [bigSep_W0, bigSep_W0]
  exact sound_body V c t

end Cert.KernelIdeal.Stack

end
-- ==== Proof.StackFinal.lean ====
/-
  The graph-convolution stack's four result arrays after the last write-back, in closed form: the sixteen row blocks
  written back in stage 3 tile the two activation arrays, and the two statistics arrays are written back once, whole,
  at the last point.
-/
import proofs.«181189_g481036337843_cont_8to1c4_37_6_alg».proof.Proof.StackData

set_option maxRecDepth 16384

noncomputable section

namespace Cert.KernelIdeal.Stack

open Idealize.ShloMosaic Idealize.ShloMosaic.TcCoe Idealize.ShloMosaic.ValueIdx Cert.KernelIdeal Cert.KernelIdeal.Gen
open Idealize.SL Idealize.SL.Sem
open Idealize.ShloMosaic.Pipeline (Dat)

variable {F : FTy → Type} [FloatOps F]
variable (V : (c : Dev nD) → (b : Ref sig .tc) → Buf (Elt F) ((c : Thread nD τ).loc b))

/-! ## A matrix read through its row blocks -/

/-- The matrix assembled from sixteen row blocks, at an element of block `b`: that block's element. -/
theorem asm16_read_blk {α : Type} {m : ℕ} (blk : Fin 16 → (⟨2, ![256, m]⟩ : Shape).Idx → α) (b : Fin 16)
    (x : (⟨2, ![256, m]⟩ : Shape).Idx) (j : (⟨2, ![4096, m]⟩ : Shape).Idx)
    (h0 : (j 0).val = 256 * b.val + (x 0).val) (h1 : (j 1).val = (x 1).val) : asm16 blk j = blk b x := by
  unfold asm16
  have hx0 := idx2_lt0 x
  have hb : (⟨(j 0).val / 256, by have := idx2_lt0 j; omega⟩ : Fin 16) = b :=
    Fin.ext (by show (j 0).val / 256 = b.val; omega)
  have hx : ix2 (⟨(j 0).val % 256, Nat.mod_lt _ (by norm_num)⟩ : Fin 256) (j 1) = x := by
    funext a
    match a with
    | ⟨0, _⟩ => exact Fin.ext (by show (j 0).val % 256 = (x 0).val; omega)
    | ⟨1, _⟩ => exact Fin.ext h1
  rw [hb]
  exact congrArg (blk b) hx

/-- Row block `b` of a matrix, at an element: the matrix's element `256·b` rows further down. -/
theorem rowBlk_read_blk {α : Type} {m : ℕ} (G : (⟨2, ![4096, m]⟩ : Shape).Idx → α) (b : Fin 16)
    (x : (⟨2, ![256, m]⟩ : Shape).Idx) (j : (⟨2, ![4096, m]⟩ : Shape).Idx)
    (h0 : (j 0).val = 256 * b.val + (x 0).val) (h1 : (j 1).val = (x 1).val) : rowBlk G b x = G j := by
  unfold rowBlk
  refine congrArg G ?_
  funext a
  match a with
  | ⟨0, _⟩ => exact Fin.ext (by show 256 * b.val + (x 0).val = (j 0).val; omega)
  | ⟨1, _⟩ => exact Fin.ext h1.symm

/-! ## Output window 11: the last layer's activation, sixteen row blocks of 256 × 256 -/

/-- The printed index map, decided over the grid: a point that writes window 11 back is at the block its second
    coordinate names, in the one column block. -/
theorem idx11 : ∀ t : Fin cfg0.N, (cfg0.win 11).flush t = true →
    win0_11.index t (0 : Fin 2) = (grid0.coords t 1).val ∧ win0_11.index t (1 : Fin 2) = 0 :=
  (by decide +kernel : ∀ t : Fin grid0.N, win0_11.flush t = true →
    win0_11.index t (0 : Fin 2) = (grid0.coords t 1).val ∧ win0_11.index t (1 : Fin 2) = 0)

/-- Every row block is SOME write-back's. -/
theorem onto11 : ∀ b : Fin 16, ∃ t : Fin cfg0.N, (cfg0.win 11).flush t = true ∧ win0_11.index t = ![b.val, 0] :=
  (by decide +kernel : ∀ b : Fin 16, ∃ t : Fin grid0.N, win0_11.flush t = true ∧ win0_11.index t = ![b.val, 0])

theorem after11 (c : Dev nD) (t : Fin cfg0.N) : (dat V c).after 11 t = u4B (arrays V c) (blkOf (grid0.coords t)) := by
  dsimp only [dat]

/-- WHAT A POINT WRITES BACK is its block of `U4`. -/
theorem flushed11_eq (c : Dev nD) (t : Fin cfg0.N) (hf : (cfg0.win 11).flush t = true) :
    (dat V c).flushed 11 t = ((cfg0.win 11).blk t).view.read (Elt F) (U4 (arrays V c)) := by
  show (cfg0.win 11).cut (grid0.coords t) ((dat V c).after 11 t) = _
  rw [after11]
  obtain ⟨e0, e1⟩ := idx11 t hf
  funext y
  show u4B (arrays V c) (blkOf (grid0.coords t)) ((cfg0.win 11).xinj (grid0.coords t) y)
    = U4 (arrays V c) (((cfg0.win 11).blk t).view.emb y)
  unfold U4
  refine (asm16_read_blk (u4B (arrays V c)) (blkOf (grid0.coords t)) _ _ ?_ ?_).symm
  · show win0_11.index t (0 : Fin 2) * 256 + 1 * (y 0).val = 256 * (grid0.coords t 1).val + (y 0).val
    omega
  · show win0_11.index t (1 : Fin 2) * 256 + 1 * (y 1).val = (y 1).val
    omega

/-- An index of the array is in point `t`'s block iff each coordinate is in the block's range on its axis. -/
theorem mem_blk11 (t : Fin cfg0.N) (i : S4096x256.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v23_0).slice (win0_11.rect t)).set ↔ _
  rw [View.set_slice_whole, Rect.mem_set_unit]
  exact Iff.rfl

/-- The write-backs' blocks cover the array: row `r` is in row block `r / 256`. -/
theorem cover11 (i : S4096x256.Idx) :
    ∃ t : Fin cfg0.N, (cfg0.win 11).flush t = true ∧ i ∈ ((cfg0.win 11).blk t).view.set := by
  have hi0 : (i 0).val < 4096 := (i 0).isLt
  have hi1 : (i 1).val < 256 := (i 1).isLt
  obtain ⟨t, hf, ht⟩ := onto11 ⟨(i 0).val / 256, by omega⟩
  have q0 : win0_11.index t (0 : Fin 2) = (i 0).val / 256 := congrFun ht 0
  have q1 : win0_11.index t (1 : Fin 2) = 0 := congrFun ht 1
  refine ⟨t, hf, ?_⟩
  rw [mem_blk11]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 256 ≤ (i 1).val ∧ (i 1).val < win0_11.index t (1 : Fin 2) * 256 + 256; omega

theorem final11 (c : Dev nD) : (dat V c).arrAt 11 cfg0.N = U4 (arrays V c) :=
  (dat V c).arrAt_eq_of_cover 11 (U4 (arrays V c)) (fun t hf => flushed11_eq V c t hf) cover11

/-! ## Output window 12: the structure branch's activation, sixteen row blocks of 256 × 128 -/

theorem idx12 : ∀ t : Fin cfg0.N, (cfg0.win 12).flush t = true →
    win0_12.index t (0 : Fin 2) = (grid0.coords t 1).val ∧ win0_12.index t (1 : Fin 2) = 0 :=
  (by decide +kernel : ∀ t : Fin grid0.N, win0_12.flush t = true →
    win0_12.index t (0 : Fin 2) = (grid0.coords t 1).val ∧ win0_12.index t (1 : Fin 2) = 0)

theorem onto12 : ∀ b : Fin 16, ∃ t : Fin cfg0.N, (cfg0.win 12).flush t = true ∧ win0_12.index t = ![b.val, 0] :=
  (by decide +kernel : ∀ b : Fin 16, ∃ t : Fin grid0.N, win0_12.flush t = true ∧ win0_12.index t = ![b.val, 0])

theorem after12 (c : Dev nD) (t : Fin cfg0.N) : (dat V c).after 12 t = u3sB (arrays V c) (blkOf (grid0.coords t)) := by
  dsimp only [dat]

/-- WHAT A POINT WRITES BACK is its block of `U3S`. -/
theorem flushed12_eq (c : Dev nD) (t : Fin cfg0.N) (hf : (cfg0.win 12).flush t = true) :
    (dat V c).flushed 12 t = ((cfg0.win 12).blk t).view.read (Elt F) (U3S (arrays V c)) := by
  show (cfg0.win 12).cut (grid0.coords t) ((dat V c).after 12 t) = _
  rw [after12]
  obtain ⟨e0, e1⟩ := idx12 t hf
  funext y
  show u3sB (arrays V c) (blkOf (grid0.coords t)) ((cfg0.win 12).xinj (grid0.coords t) y)
    = U3S (arrays V c) (((cfg0.win 12).blk t).view.emb y)
  unfold U3S u3sB
  refine rowBlk_read_blk (rcol (U3 (arrays V c))) (blkOf (grid0.coords t)) _ _ ?_ ?_
  · show win0_12.index t (0 : Fin 2) * 256 + 1 * (y 0).val = 256 * (grid0.coords t 1).val + (y 0).val
    omega
  · show win0_12.index t (1 : Fin 2) * 128 + 1 * (y 1).val = (y 1).val
    omega

theorem mem_blk12 (t : Fin cfg0.N) (i : S4096x128.Idx) :
    i ∈ ((cfg0.win 12).blk t).view.set ↔ ∀ a : Fin 2, win0_12.index t a * S256x128.size a ≤ (i a).val ∧ (i a).val < win0_12.index t a * S256x128.size a + S256x128.size a := by
  show i ∈ ((View.whole main_v23_1).slice (win0_12.rect t)).set ↔ _
  rw [View.set_slice_whole, Rect.mem_set_unit]
  exact Iff.rfl

theorem cover12 (i : S4096x128.Idx) :
    ∃ t : Fin cfg0.N, (cfg0.win 12).flush t = true ∧ i ∈ ((cfg0.win 12).blk t).view.set := by
  have hi0 : (i 0).val < 4096 := (i 0).isLt
  have hi1 : (i 1).val < 128 := (i 1).isLt
  obtain ⟨t, hf, ht⟩ := onto12 ⟨(i 0).val / 256, by omega⟩
  have q0 : win0_12.index t (0 : Fin 2) = (i 0).val / 256 := congrFun ht 0
  have q1 : win0_12.index t (1 : Fin 2) = 0 := congrFun ht 1
  refine ⟨t, hf, ?_⟩
  rw [mem_blk12]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 128 ≤ (i 1).val ∧ (i 1).val < win0_12.index t (1 : Fin 2) * 128 + 128; omega

theorem final12 (c : Dev nD) : (dat V c).arrAt 12 cfg0.N = U3S (arrays V c) :=
  (dat V c).arrAt_eq_of_cover 12 (U3S (arrays V c)) (fun t hf => flushed12_eq V c t hf) cover12

/-! ## Output windows 13 and 14: the two statistics arrays, one block each, written back at the last point -/

theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

theorem after13 (c : Dev nD) (t : Fin cfg0.N) : (dat V c).after 13 t = S1STATS (arrays V c) := by
  dsimp only [dat]

/-- The one block is the whole array: what is written back is the statistics themselves. -/
theorem flushed13_eq (c : Dev nD) (t : Fin cfg0.N) :
    (dat V c).flushed 13 t = ((cfg0.win 13).blk t).view.read (Elt F) (S1STATS (arrays V c)) := by
  show (cfg0.win 13).cut (grid0.coords t) ((dat V c).after 13 t) = _
  rw [after13]
  obtain ⟨e0, e1⟩ := idx13 t
  funext y
  show S1STATS (arrays V c) ((cfg0.win 13).xinj (grid0.coords t) y)
    = S1STATS (arrays V c) (((cfg0.win 13).blk t).view.emb y)
  refine congrArg (S1STATS (arrays V c)) ?_
  funext a; apply Fin.ext
  match a with
  | ⟨0, _⟩ => show (y 0).val = win0_13.index t (0 : Fin 2) * 2 + 1 * (y 0).val; omega
  | ⟨1, _⟩ => show (y 1).val = win0_13.index t (1 : Fin 2) * 128 + 1 * (y 1).val; omega

theorem mem_blk13 (t : Fin cfg0.N) (i : S2x128.Idx) :
    i ∈ ((cfg0.win 13).blk t).view.set ↔ ∀ a : Fin 2, win0_13.index t a * S2x128.size a ≤ (i a).val ∧ (i a).val < win0_13.index t a * S2x128.size a + S2x128.size a := by
  show i ∈ ((View.whole main_v23_2).slice (win0_13.rect t)).set ↔ _
  rw [View.set_slice_whole, Rect.mem_set_unit]
  exact Iff.rfl

theorem cover13 (i : S2x128.Idx) :
    ∃ t : Fin cfg0.N, (cfg0.win 13).flush t = true ∧ i ∈ ((cfg0.win 13).blk t).view.set := by
  have hi0 : (i 0).val < 2 := (i 0).isLt
  have hi1 : (i 1).val < 128 := (i 1).isLt
  have hN : (63 : ℕ) < cfg0.N := by rw [show cfg0.N = 64 from N_0]; decide
  obtain ⟨e0, e1⟩ := idx13 ⟨63, hN⟩
  refine ⟨⟨63, hN⟩, (flush0_13 ⟨63, hN⟩).mpr rfl, ?_⟩
  rw [mem_blk13]
  intro a
  match a with
  | ⟨0, _⟩ => show win0_13.index ⟨63, hN⟩ (0 : Fin 2) * 2 ≤ (i 0).val ∧ (i 0).val < win0_13.index ⟨63, hN⟩ (0 : Fin 2) * 2 + 2; omega
  | ⟨1, _⟩ => show win0_13.index ⟨63, hN⟩ (1 : Fin 2) * 128 ≤ (i 1).val ∧ (i 1).val < win0_13.index ⟨63, hN⟩ (1 : Fin 2) * 128 + 128; omega

theorem final13 (c : Dev nD) : (dat V c).arrAt 13 cfg0.N = S1STATS (arrays V c) :=
  (dat V c).arrAt_eq_of_cover 13 (S1STATS (arrays V c)) (fun t _ => flushed13_eq V c t) cover13

theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

theorem after14 (c : Dev nD) (t : Fin cfg0.N) : (dat V c).after 14 t = U4STATS (arrays V c) := by
  dsimp only [dat]

theorem flushed14_eq (c : Dev nD) (t : Fin cfg0.N) :
    (dat V c).flushed 14 t = ((cfg0.win 14).blk t).view.read (Elt F) (U4STATS (arrays V c)) := by
  show (cfg0.win 14).cut (grid0.coords t) ((dat V c).after 14 t) = _
  rw [after14]
  obtain ⟨e0, e1⟩ := idx14 t
  funext y
  show U4STATS (arrays V c) ((cfg0.win 14).xinj (grid0.coords t) y)
    = U4STATS (arrays V c) (((cfg0.win 14).blk t).view.emb y)
  refine congrArg (U4STATS (arrays V c)) ?_
  funext a; apply Fin.ext
  match a with
  | ⟨0, _⟩ => show (y 0).val = win0_14.index t (0 : Fin 2) * 2 + 1 * (y 0).val; omega
  | ⟨1, _⟩ => show (y 1).val = win0_14.index t (1 : Fin 2) * 256 + 1 * (y 1).val; omega

theorem mem_blk14 (t : Fin cfg0.N) (i : S2x256.Idx) :
    i ∈ ((cfg0.win 14).blk t).view.set ↔ ∀ a : Fin 2, win0_14.index t a * S2x256.size a ≤ (i a).val ∧ (i a).val < win0_14.index t a * S2x256.size a + S2x256.size a := by
  show i ∈ ((View.whole main_v23_3).slice (win0_14.rect t)).set ↔ _
  rw [View.set_slice_whole, Rect.mem_set_unit]
  exact Iff.rfl

theorem cover14 (i : S2x256.Idx) :
    ∃ t : Fin cfg0.N, (cfg0.win 14).flush t = true ∧ i ∈ ((cfg0.win 14).blk t).view.set := by
  have hi0 : (i 0).val < 2 := (i 0).isLt
  have hi1 : (i 1).val < 256 := (i 1).isLt
  have hN : (63 : ℕ) < cfg0.N := by rw [show cfg0.N = 64 from N_0]; decide
  obtain ⟨e0, e1⟩ := idx14 ⟨63, hN⟩
  refine ⟨⟨63, hN⟩, (flush0_14 ⟨63, hN⟩).mpr rfl, ?_⟩
  rw [mem_blk14]
  intro a
  match a with
  | ⟨0, _⟩ => show win0_14.index ⟨63, hN⟩ (0 : Fin 2) * 2 ≤ (i 0).val ∧ (i 0).val < win0_14.index ⟨63, hN⟩ (0 : Fin 2) * 2 + 2; omega
  | ⟨1, _⟩ => show win0_14.index ⟨63, hN⟩ (1 : Fin 2) * 256 ≤ (i 1).val ∧ (i 1).val < win0_14.index ⟨63, hN⟩ (1 : Fin 2) * 256 + 256; omega

theorem final14 (c : Dev nD) : (dat V c).arrAt 14 cfg0.N = U4STATS (arrays V c) :=
  (dat V c).arrAt_eq_of_cover 14 (U4STATS (arrays V c)) (fun t _ => flushed14_eq V c t) cover14

end Cert.KernelIdeal.Stack

end
-- ==== Proof.DecodeStep.lean ====
/-
  A grid point of the decoder: from the scratch matrix as the points before left it, the kernel body runs to the
  invariant at the next point, the input blocks unchanged, the two output blocks at the block's inner products
  and normalised features.  At the first point the scratch matrix is first filled; at a later one it is read as found.
-/
import proofs.«181189_g481036337843_cont_8to1c4_37_6_alg».proof.Proof.DecodeSpec
import Idealize.ShloMosaic.Lib.Pipeline.FrameBody
import Idealize.ShloMosaic.Lib.Pipeline.Value

set_option maxRecDepth 16384

noncomputable section

namespace Cert.KernelIdeal.Decode

open Idealize.ShloMosaic Idealize.ShloMosaic.TcCoe Idealize.ShloMosaic.Tactic Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

namespace Aux

variable {Val : EltTy → Type} {e : EltTy}

/-- The row offset the kernel computes at block b is 512·b. -/
theorem off1_eq (i : grid1.Coords) : k1_off1 i = ![512 * (i 0).val, 0] := by
  have h : (i 0).val < 8 := (i 0).isLt
  unfold k1_off1
  simp only [Scalar.muli, IntOp.muli, Scalar.indexCast, BitVec.toNat_mul, BitVec.toNat_ofNat]
  congr 1
  omega

/-- The one-bit word the body branches on, from the grid coordinate. -/
abbrev cond (i : grid1.Coords) : Prop :=
  (Scalar.cmpi .ne (Scalar.extui (Scalar.cmpi .eq (BitVec.ofNat 32 (i 0).val) 0#32)) 0#32) = 1#1

/-- It is set at the first block, -/
theorem cond_of_zero (i : grid1.Coords) (hi : (i 0).val = 0) : cond i := by
  unfold cond; rw [hi]; decide

/-- and clear at every later one. -/
theorem not_cond_of_ne (i : grid1.Coords) (hi : (i 0).val ≠ 0) : ¬ cond i := by
  have h : (i 0).val < 8 := (i 0).isLt
  unfold cond
  generalize (i 0).val = n at *
  interval_cases n <;> first | exact absurd rfl hi | decide

/-- The zero offsets of a matrix, as the printed rectangles spell them. -/
theorem hz2 : (![0, 0] : Fin 2 → ℕ) = fun _ => 0 := by
  funext a; match a with | ⟨0, _⟩ => rfl | ⟨1, _⟩ => rfl

section Loads

variable {n0 n1 m : ℕ}

/-- A load of the whole matrix reads the contents. -/
theorem readAt_whole {sig : RefSig} {κ : Kind} {sp : Space} (v : View sig κ sp ⟨2, ![n0, n1]⟩ e) (f : v.ty.Contents Val)
    (X : (⟨2, ![n0, n1]⟩ : Shape).Idx → Val e) (hf : v.read Val f = X)
    (inb : ∀ a, (![0, 0] : Fin 2 → ℕ) a + (⟨2, ![n0, n1]⟩ : Shape).size a ≤ (⟨2, ![n0, n1]⟩ : Shape).size a) :
    v.readAt Val (Rect.unit (s := ⟨2, ![n0, n1]⟩) ![0, 0] (⟨2, ![n0, n1]⟩ : Shape).size inb).toLoadRect f = X := by
  rw [View.readAt_eq_ld, hf]; exact View.ld_unit_zero hz2 inb X

/-- One store of the whole matrix leaves its payload, whatever was there. -/
theorem read_store_whole [∀ e, Nonempty (Val e)] {sig : RefSig} {κ : Kind} {sp : Space} (v : View sig κ sp ⟨2, ![n0, n1]⟩ e)
    (f : v.ty.Contents Val) (w : (⟨2, ![n0, n1]⟩ : Shape).Idx → Val e)
    (inb : ∀ a, (![0, 0] : Fin 2 → ℕ) a + (⟨2, ![n0, n1]⟩ : Shape).size a ≤ (⟨2, ![n0, n1]⟩ : Shape).size a) :
    v.read Val (v.writes Val f [⟨Rect.unit (s := ⟨2, ![n0, n1]⟩) ![0, 0] (⟨2, ![n0, n1]⟩ : Shape).size inb, w⟩]) = w := by
  rw [View.read_writes_eq_canon _ _ _ (fun y => ⟨_, List.mem_singleton_self _, View.mem_set_unit_zero hz2 inb y⟩),
    View.canon_unit_zero hz2]

/-- The load of the first row of a two-row matrix. -/
theorem ld_row0 (X : (⟨2, ![2, m]⟩ : Shape).Idx → Val e)
    (inb : ∀ a, (![0, 0] : Fin 2 → ℕ) a + (![1, m] : Fin 2 → ℕ) a ≤ (⟨2, ![2, m]⟩ : Shape).size a) :
    View.ld X (Rect.unit (s := ⟨2, ![2, m]⟩) ![0, 0] ![1, m] inb) = row0 X := by
  funext y
  have h0 : (y 0).val < 1 := idx2_lt0 (n0 := 1) (n1 := m) y
  refine congrArg X ?_
  funext a
  match a with
  | ⟨0, _⟩ => exact Fin.ext (by show 0 + 1 * (y 0).val = 0; omega)
  | ⟨1, _⟩ => exact Fin.ext (by show 0 + 1 * (y 1).val = (y 1).val; omega)

/-- The load of its second row. -/
theorem ld_row1 (X : (⟨2, ![2, m]⟩ : Shape).Idx → Val e)
    (inb : ∀ a, (![1, 0] : Fin 2 → ℕ) a + (![1, m] : Fin 2 → ℕ) a ≤ (⟨2, ![2, m]⟩ : Shape).size a) :
    View.ld X (Rect.unit (s := ⟨2, ![2, m]⟩) ![1, 0] ![1, m] inb) = row1 X := by
  funext y
  have h0 : (y 0).val < 1 := idx2_lt0 (n0 := 1) (n1 := m) y
  refine congrArg X ?_
  funext a
  match a with
  | ⟨0, _⟩ => exact Fin.ext (by show 1 + 1 * (y 0).val = 1; omega)
  | ⟨1, _⟩ => exact Fin.ext (by show 0 + 1 * (y 1).val = (y 1).val; omega)

theorem readAt_row0 {sig : RefSig} {κ : Kind} {sp : Space} (v : View sig κ sp ⟨2, ![2, m]⟩ e) (f : v.ty.Contents Val)
    (X : (⟨2, ![2, m]⟩ : Shape).Idx → Val e) (hf : v.read Val f = X)
    (inb : ∀ a, (![0, 0] : Fin 2 → ℕ) a + (![1, m] : Fin 2 → ℕ) a ≤ (⟨2, ![2, m]⟩ : Shape).size a) :
    v.readAt Val (Rect.unit (s := ⟨2, ![2, m]⟩) ![0, 0] ![1, m] inb).toLoadRect f = row0 X := by
  rw [View.readAt_eq_ld, hf]; exact ld_row0 X inb

theorem readAt_row1 {sig : RefSig} {κ : Kind} {sp : Space} (v : View sig κ sp ⟨2, ![2, m]⟩ e) (f : v.ty.Contents Val)
    (X : (⟨2, ![2, m]⟩ : Shape).Idx → Val e) (hf : v.read Val f = X)
    (inb : ∀ a, (![1, 0] : Fin 2 → ℕ) a + (![1, m] : Fin 2 → ℕ) a ≤ (⟨2, ![2, m]⟩ : Shape).size a) :
    v.readAt Val (Rect.unit (s := ⟨2, ![2, m]⟩) ![1, 0] ![1, m] inb).toLoadRect f = row1 X := by
  rw [View.readAt_eq_ld, hf]; exact ld_row1 X inb

/-- The load of 512 rows from row 512·b on is row block b. -/
theorem ld_rowBlk (X : (⟨2, ![4096, m]⟩ : Shape).Idx → Val e) (b : Fin 8) (off : Fin 2 → ℕ) (hoff : off = ![512 * b.val, 0])
    (inb : ∀ a, off a + (![512, m] : Fin 2 → ℕ) a ≤ (⟨2, ![4096, m]⟩ : Shape).size a) :
    View.ld X (Rect.unit (s := ⟨2, ![4096, m]⟩) off ![512, m] inb) = rowBlk X b := by
  subst hoff
  funext y
  refine congrArg X ?_
  funext a
  match a with
  | ⟨0, _⟩ => exact Fin.ext (by show 512 * b.val + 1 * (y 0).val = 512 * b.val + (y 0).val; omega)
  | ⟨1, _⟩ => exact Fin.ext (by show 0 + 1 * (y 1).val = (y 1).val; omega)

theorem readAt_rowBlk {sig : RefSig} {κ : Kind} {sp : Space} (v : View sig κ sp ⟨2, ![4096, m]⟩ e) (f : v.ty.Contents Val)
    (X : (⟨2, ![4096, m]⟩ : Shape).Idx → Val e) (hf : v.read Val f = X) (b : Fin 8) (off : Fin 2 → ℕ)
    (hoff : off = ![512 * b.val, 0])
    (inb : ∀ a, off a + (![512, m] : Fin 2 → ℕ) a ≤ (⟨2, ![4096, m]⟩ : Shape).size a) :
    v.readAt Val (Rect.unit (s := ⟨2, ![4096, m]⟩) off ![512, m] inb).toLoadRect f = rowBlk X b := by
  rw [View.readAt_eq_ld, hf]; exact ld_rowBlk X b off hoff inb

end Loads

section Payloads

/-- The structure branch's affine map, over what the first block loads, is the normalised structure branch. -/
theorem pay1_eq (A : Arrays F) (arg1 : Memref sig .tc .vmem S4096x128 .f32) (arg2 : Memref sig .tc .vmem S2x128 .f32)
    (arg3 : Memref sig .tc .vmem S1x128 .f32) (arg4 : Memref sig .tc .vmem S1x128 .f32)
    (f1 : arg1.view.ty.Contents (Elt F)) (hf1 : arg1.view.read (Elt F) f1 = A.u3s)
    (f2 : arg2.view.ty.Contents (Elt F)) (hf2 : arg2.view.read (Elt F) f2 = A.s1stats)
    (f3 : arg3.view.ty.Contents (Elt F)) (hf3 : arg3.view.read (Elt F) f3 = A.gs1)
    (f4 : arg4.view.ty.Contents (Elt F)) (hf4 : arg4.view.read (Elt F) f4 = A.bs1)
    (i20 : ∀ a, (![0, 0] : Fin 2 → ℕ) a + S1x128.size a ≤ S2x128.size a)
    (i21 : ∀ a, (![1, 0] : Fin 2 → ℕ) a + S1x128.size a ≤ S2x128.size a)
    (i3 : ∀ a, (![0, 0] : Fin 2 → ℕ) a + S1x128.size a ≤ S1x128.size a)
    (i4 : ∀ a, (![0, 0] : Fin 2 → ℕ) a + S1x128.size a ≤ S1x128.size a)
    (i1 : ∀ a, (![0, 0] : Fin 2 → ℕ) a + S4096x128.size a ≤ S4096x128.size a) :
    k1_pay1 (arg2.view.readAt (Elt F) (Rect.unit (s := S2x128) ![0, 0] S1x128.size i20).toLoadRect f2)
      (arg2.view.readAt (Elt F) (Rect.unit (s := S2x128) ![1, 0] S1x128.size i21).toLoadRect f2)
      (arg3.view.readAt (Elt F) (Rect.unit (s := S1x128) ![0, 0] S1x128.size i3).toLoadRect f3)
      (arg4.view.readAt (Elt F) (Rect.unit (s := S1x128) ![0, 0] S1x128.size i4).toLoadRect f4)
      (arg1.view.readAt (Elt F) (Rect.unit (s := S4096x128) ![0, 0] S4096x128.size i1).toLoadRect f1) = S1N A := by
  have e0 := readAt_row0 (m := 128) arg2.view f2 _ hf2 i20
  have e1 := readAt_row1 (m := 128) arg2.view f2 _ hf2 i21
  have e2 := readAt_whole (n0 := 1) (n1 := 128) arg3.view f3 _ hf3 i3
  have e3 := readAt_whole (n0 := 1) (n1 := 128) arg4.view f4 _ hf4 i4
  have e4 := readAt_whole (n0 := 4096) (n1 := 128) arg1.view f1 _ hf1 i1
  unfold S1N
  exact e0 ▸ e1 ▸ e2 ▸ e3 ▸ e4 ▸ rfl

/-- The feature branch's affine map, over what a block loads, is the block's normalised features. -/
theorem pay3_eq (A : Arrays F) (b : Fin 8) (arg5 : Memref sig .tc .vmem S512x256 .f32) (arg6 : Memref sig .tc .vmem S2x256 .f32)
    (arg7 : Memref sig .tc .vmem S1x256 .f32) (arg8 : Memref sig .tc .vmem S1x256 .f32)
    (f5 : arg5.view.ty.Contents (Elt F)) (hf5 : arg5.view.read (Elt F) f5 = rowBlk A.u4 b)
    (f6 : arg6.view.ty.Contents (Elt F)) (hf6 : arg6.view.read (Elt F) f6 = A.u4stats)
    (f7 : arg7.view.ty.Contents (Elt F)) (hf7 : arg7.view.read (Elt F) f7 = A.gf2)
    (f8 : arg8.view.ty.Contents (Elt F)) (hf8 : arg8.view.read (Elt F) f8 = A.bf2)
    (i60 : ∀ a, (![0, 0] : Fin 2 → ℕ) a + S1x256.size a ≤ S2x256.size a)
    (i61 : ∀ a, (![1, 0] : Fin 2 → ℕ) a + S1x256.size a ≤ S2x256.size a)
    (i7 : ∀ a, (![0, 0] : Fin 2 → ℕ) a + S1x256.size a ≤ S1x256.size a)
    (i8 : ∀ a, (![0, 0] : Fin 2 → ℕ) a + S1x256.size a ≤ S1x256.size a)
    (i5 : ∀ a, (![0, 0] : Fin 2 → ℕ) a + S512x256.size a ≤ S512x256.size a) :
    k1_pay3 (arg6.view.readAt (Elt F) (Rect.unit (s := S2x256) ![0, 0] S1x256.size i60).toLoadRect f6)
      (arg6.view.readAt (Elt F) (Rect.unit (s := S2x256) ![1, 0] S1x256.size i61).toLoadRect f6)
      (arg7.view.readAt (Elt F) (Rect.unit (s := S1x256) ![0, 0] S1x256.size i7).toLoadRect f7)
      (arg8.view.readAt (Elt F) (Rect.unit (s := S1x256) ![0, 0] S1x256.size i8).toLoadRect f8)
      (arg5.view.readAt (Elt F) (Rect.unit (s := S512x256) ![0, 0] S512x256.size i5).toLoadRect f5) = f2B A b := by
  have e0 := readAt_row0 (m := 256) arg6.view f6 _ hf6 i60
  have e1 := readAt_row1 (m := 256) arg6.view f6 _ hf6 i61
  have e2 := readAt_whole (n0 := 1) (n1 := 256) arg7.view f7 _ hf7 i7
  have e3 := readAt_whole (n0 := 1) (n1 := 256) arg8.view f8 _ hf8 i8
  have e4 := readAt_whole (n0 := 512) (n1 := 256) arg5.view f5 _ hf5 i5
  unfold f2B
  exact e0 ▸ e1 ▸ e2 ▸ e3 ▸ e4 ▸ rfl

/-- The inner-product payload at equal operands. -/
theorem pay2_congr {a a' : Vec F S512x128 .f32} {b b' : Vec F S4096x128 .f32} (ha : a = a') (hb : b = b') :
    k1_pay2 a b = k1_pay2 a' b' := by subst ha hb; rfl

end Payloads

end Aux

theorem stepFirst (c : Dev nD) (E : Set ℕ) (i : grid1.Coords) (hi : (i 0).val = 0)
    (arg1 : Memref sig .tc .vmem S4096x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S512x256 .f32) (harg5 : arg5.IsWhole) (arg6 : Memref sig .tc .vmem S2x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S512x256 .f32) (harg9 : arg9.IsWhole) (arg10 : Memref sig .tc .vmem S512x4096 .f32) (harg10 : arg10.IsWhole)
    (A : Arrays F) (x4 : Vec F S512x256 .f32) (hx4 : x4 = rowBlk A.u4 (blkOf i))
    (d8 : Vec F S512x256 .f32) (d9 : Vec F S512x4096 .f32)
    (s1n : Vec F S4096x128 .f32) (hInv : Inv A (i 0).val s1n) (K : PUnit → sProp (𝕄1 F)) :
    iprop(ins c arg1 arg2 arg3 arg4 arg5 arg6 arg7 arg8 x4 A ∗ outs c arg9 arg10 d8 d9 ∗ scr c s1n
        ∗ (iprop(∃ s1n', ⌜Inv A ((i 0).val + 1) s1n'⌝ ∗ ins c arg1 arg2 arg3 arg4 arg5 arg6 arg7 arg8 x4 A
            ∗ outs c arg9 arg10 (f2B A (blkOf i)) (s2B A (blkOf i)) ∗ scr c s1n') -∗ K ⟨⟩))
      ⊢ wp frame (wpE (defs₀ (F := F)) Variants.none c none) E
          (cc1__decode_kernel i arg1 harg1 arg2 harg2 arg3 harg3 arg4 harg4 arg5 harg5 arg6 harg6 arg7 harg7 arg8 harg8 arg9 harg9 arg10 harg10 (Memref.whole cc1_scratch0) (Memref.isWhole_whole _)) K := by
  have hc := Aux.cond_of_zero i hi
  subst hx4
  simp only [cc1__decode_kernel_eq_skeleton]; unfold cc1__decode_kernel_skel
  simp only [k1_part1_eq_skeleton]; unfold k1_part1_skel
  unfold ins outs scr owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩⟩, ⟨%f11, %hf11, H11⟩, Hk⟩
  sl_exec (disch := exact hc)
  sl_step
  iapply Hk
  iexists (S1N A)
  isplitr
  · ipureintro; exact fun _ => rfl
  isplitl [H1 H2 H3 H4 H5 H6 H7 H8]
  · isplitl [H1]
    · iexists f1; isplitr
      · ipureintro; exact hf1
      iexact H1
    isplitl [H2]
    · iexists f2; isplitr
      · ipureintro; exact hf2
      iexact H2
    isplitl [H3]
    · iexists f3; isplitr
      · ipureintro; exact hf3
      iexact H3
    isplitl [H4]
    · iexists f4; isplitr
      · ipureintro; exact hf4
      iexact H4
    isplitl [H5]
    · iexists f5; isplitr
      · ipureintro; exact hf5
      iexact H5
    isplitl [H6]
    · iexists f6; isplitr
      · ipureintro; exact hf6
      iexact H6
    isplitl [H7]
    · iexists f7; isplitr
      · ipureintro; exact hf7
      iexact H7
    iexists f8; isplitr
    · ipureintro; exact hf8
    iexact H8
  isplitl [H9 H10]
  · isplitl [H9]
    · iexists _; isplitr
      swap
      · iexact H9
      ipureintro
      refine (Aux.read_store_whole (n0 := 512) (n1 := 256) _ _ _ _).trans ?_
      exact Aux.pay3_eq A (blkOf i) arg5 arg6 arg7 arg8 f5 hf5 f6 hf6 f7 hf7 f8 hf8 _ _ _ _ _
    · iexists _; isplitr
      swap
      · iexact H10
      ipureintro
      sl_unfold_words
      refine (Aux.read_store_whole (n0 := 512) (n1 := 4096) _ _ _ _).trans ?_
      have hp := Aux.pay1_eq A arg1 arg2 arg3 arg4 f1 hf1 f2 hf2 f3 hf3 f4 hf4
        inb_S2x128_S1x128_0_0 inb_S2x128_S1x128_1_0 inb_S1x128_S1x128_0_0 inb_S1x128_S1x128_0_0 inb_S4096x128_S4096x128_0_0
      unfold s2B
      refine Aux.pay2_congr ?_ ?_
      · refine Aux.readAt_rowBlk (Val := Elt F) (m := 128) _ _ (S1N A) ?_ (blkOf i) _ (Aux.off1_eq i) _
        exact (Aux.read_store_whole (Val := Elt F) (n0 := 4096) (n1 := 128) _ _ _ _).trans hp
      · exact (View.readCov_unit_zero (Val := Elt F) _ Aux.hz2 _ _).trans hp
  · iexists _; isplitr
    swap
    · iexact H11
    ipureintro
    sl_unfold_words
    refine (Aux.read_store_whole (n0 := 4096) (n1 := 128) _ _ _ _).trans ?_
    exact Aux.pay1_eq A arg1 arg2 arg3 arg4 f1 hf1 f2 hf2 f3 hf3 f4 hf4 _ _ _ _ _

theorem stepLater (c : Dev nD) (E : Set ℕ) (i : grid1.Coords) (hi : (i 0).val ≠ 0)
    (arg1 : Memref sig .tc .vmem S4096x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S512x256 .f32) (harg5 : arg5.IsWhole) (arg6 : Memref sig .tc .vmem S2x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S512x256 .f32) (harg9 : arg9.IsWhole) (arg10 : Memref sig .tc .vmem S512x4096 .f32) (harg10 : arg10.IsWhole)
    (A : Arrays F) (x4 : Vec F S512x256 .f32) (hx4 : x4 = rowBlk A.u4 (blkOf i))
    (d8 : Vec F S512x256 .f32) (d9 : Vec F S512x4096 .f32)
    (s1n : Vec F S4096x128 .f32) (hInv : Inv A (i 0).val s1n) (K : PUnit → sProp (𝕄1 F)) :
    iprop(ins c arg1 arg2 arg3 arg4 arg5 arg6 arg7 arg8 x4 A ∗ outs c arg9 arg10 d8 d9 ∗ scr c s1n
        ∗ (iprop(∃ s1n', ⌜Inv A ((i 0).val + 1) s1n'⌝ ∗ ins c arg1 arg2 arg3 arg4 arg5 arg6 arg7 arg8 x4 A
            ∗ outs c arg9 arg10 (f2B A (blkOf i)) (s2B A (blkOf i)) ∗ scr c s1n') -∗ K ⟨⟩))
      ⊢ wp frame (wpE (defs₀ (F := F)) Variants.none c none) E
          (cc1__decode_kernel i arg1 harg1 arg2 harg2 arg3 harg3 arg4 harg4 arg5 harg5 arg6 harg6 arg7 harg7 arg8 harg8 arg9 harg9 arg10 harg10 (Memref.whole cc1_scratch0) (Memref.isWhole_whole _)) K := by
  have hc := Aux.not_cond_of_ne i hi
  subst hx4
  obtain rfl : s1n = S1N A := hInv (Nat.one_le_iff_ne_zero.mpr hi)
  simp only [cc1__decode_kernel_eq_skeleton]; unfold cc1__decode_kernel_skel
  simp only [k1_part1_eq_skeleton]; unfold k1_part1_skel
  unfold ins outs scr owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩⟩, ⟨%f11, %hf11, H11⟩, Hk⟩
  sl_exec (disch := exact hc)
  sl_step
  iapply Hk
  iexists (S1N A)
  isplitr
  · ipureintro; exact fun _ => rfl
  isplitl [H1 H2 H3 H4 H5 H6 H7 H8]
  · isplitl [H1]
    · iexists f1; isplitr
      · ipureintro; exact hf1
      iexact H1
    isplitl [H2]
    · iexists f2; isplitr
      · ipureintro; exact hf2
      iexact H2
    isplitl [H3]
    · iexists f3; isplitr
      · ipureintro; exact hf3
      iexact H3
    isplitl [H4]
    · iexists f4; isplitr
      · ipureintro; exact hf4
      iexact H4
    isplitl [H5]
    · iexists f5; isplitr
      · ipureintro; exact hf5
      iexact H5
    isplitl [H6]
    · iexists f6; isplitr
      · ipureintro; exact hf6
      iexact H6
    isplitl [H7]
    · iexists f7; isplitr
      · ipureintro; exact hf7
      iexact H7
    iexists f8; isplitr
    · ipureintro; exact hf8
    iexact H8
  isplitl [H9 H10]
  · isplitl [H9]
    · iexists _; isplitr
      swap
      · iexact H9
      ipureintro
      refine (Aux.read_store_whole (n0 := 512) (n1 := 256) _ _ _ _).trans ?_
      exact Aux.pay3_eq A (blkOf i) arg5 arg6 arg7 arg8 f5 hf5 f6 hf6 f7 hf7 f8 hf8 _ _ _ _ _
    · iexists _; isplitr
      swap
      · iexact H10
      ipureintro
      refine (Aux.read_store_whole (n0 := 512) (n1 := 4096) _ _ _ _).trans ?_
      unfold s2B
      refine Aux.pay2_congr ?_ ?_
      · exact Aux.readAt_rowBlk (Val := Elt F) (m := 128) _ f11 (S1N A) hf11 (blkOf i) _ (Aux.off1_eq i) _
      · exact Aux.readAt_whole (Val := Elt F) (n0 := 4096) (n1 := 128) _ f11 (S1N A) hf11 _
  · iexists f11; isplitr
    · ipureintro; exact hf11
    iexact H11

end Cert.KernelIdeal.Decode

end
-- ==== Proof.DecodeOblig.lean ====
/-
  The body obligation of the decoder's pipeline: at every grid point the windows' staging buffers hold what the proof
  data says, the point is the first or a later one, and that case's run of the body gives the next invariant and what
  each window's buffer is left with.
-/
import proofs.«181189_g481036337843_cont_8to1c4_37_6_alg».proof.Proof.DecodeData
import proofs.«181189_g481036337843_cont_8to1c4_37_6_alg».proof.Proof.DecodeStep

set_option maxRecDepth 16384

noncomputable section

namespace Cert.KernelIdeal.Decode

open Idealize.ShloMosaic Idealize.ShloMosaic.TcCoe Idealize.ShloMosaic.ValueIdx Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-! ## What the body finds in each input window's buffer -/

/-- An input window's current buffer holds its block at every point, fetched there or not: the block index has not
    moved since the fetch, the window is uncut and never idle, and the body leaves the block in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [dat_A]; try rfl) t d).trans
    (by unfold Dat.fetched Dat.blockOf iblk; rw [dat_A]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [dat_A]; try rfl) t d).trans
    (by unfold Dat.fetched Dat.blockOf iblk; rw [dat_A]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [dat_A]; try rfl) t d).trans
    (by unfold Dat.fetched Dat.blockOf iblk; rw [dat_A]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [dat_A]; try rfl) t d).trans
    (by unfold Dat.fetched Dat.blockOf iblk; rw [dat_A]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [dat_A]; try rfl) t d).trans
    (by unfold Dat.fetched Dat.blockOf iblk; rw [dat_A]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [dat_A]; try rfl) t d).trans
    (by unfold Dat.fetched Dat.blockOf iblk; rw [dat_A]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [dat_A]; try rfl) t d).trans
    (by unfold Dat.fetched Dat.blockOf iblk; rw [dat_A]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [dat_A]; try rfl) t d).trans
    (by unfold Dat.fetched Dat.blockOf iblk; rw [dat_A]; try rfl)

/-! ## The blocks against the arrays -/

/-- Window 0's block is its whole array: an element of the block at block index 0 sits at its own coordinates. -/
theorem iblk_0 (c : Dev nD) (t : Fin cfg1.N) : iblk V c 0 t = (arrays V c).u3s := by
  obtain ⟨⟨e0, e1⟩, -⟩ := idx_whole t
  funext y
  show V c main_v23_1 (((cfg1.win 0).blk t).view.emb y) = V c main_v23_1 y
  congr 1
  funext a; apply Fin.ext
  match a with
  | ⟨0, _⟩ => show win1_0.index t (0 : Fin 2) * 4096 + 1 * (y 0).val = (y 0).val; omega
  | ⟨1, _⟩ => show win1_0.index t (1 : Fin 2) * 128 + 1 * (y 1).val = (y 1).val; omega
/-- Window 1's block is its whole array: an element of the block at block index 0 sits at its own coordinates. -/
theorem iblk_1 (c : Dev nD) (t : Fin cfg1.N) : iblk V c 1 t = (arrays V c).s1stats := by
  obtain ⟨-, ⟨e0, e1⟩, -⟩ := idx_whole t
  funext y
  show V c main_v23_2 (((cfg1.win 1).blk t).view.emb y) = V c main_v23_2 y
  congr 1
  funext a; apply Fin.ext
  match a with
  | ⟨0, _⟩ => show win1_1.index t (0 : Fin 2) * 2 + 1 * (y 0).val = (y 0).val; omega
  | ⟨1, _⟩ => show win1_1.index t (1 : Fin 2) * 128 + 1 * (y 1).val = (y 1).val; omega
/-- Window 2's block is its whole array: an element of the block at block index 0 sits at its own coordinates. -/
theorem iblk_2 (c : Dev nD) (t : Fin cfg1.N) : iblk V c 2 t = (arrays V c).gs1 := by
  obtain ⟨-, -, ⟨e0, e1⟩, -⟩ := idx_whole t
  funext y
  show V c main_v21 (((cfg1.win 2).blk t).view.emb y) = V c main_v21 y
  congr 1
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega
/-- Window 3's block is its whole array: an element of the block at block index 0 sits at its own coordinates. -/
theorem iblk_3 (c : Dev nD) (t : Fin cfg1.N) : iblk V c 3 t = (arrays V c).bs1 := by
  obtain ⟨-, -, -, ⟨e0, e1⟩, -⟩ := idx_whole t
  funext y
  show V c main_v22 (((cfg1.win 3).blk t).view.emb y) = V c main_v22 y
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega
/-- Window 5's block is its whole array: an element of the block at block index 0 sits at its own coordinates. -/
theorem iblk_5 (c : Dev nD) (t : Fin cfg1.N) : iblk V c 5 t = (arrays V c).u4stats := by
  obtain ⟨-, -, -, -, ⟨e0, e1⟩, -⟩ := idx_whole t
  funext y
  show V c main_v23_3 (((cfg1.win 5).blk t).view.emb y) = V c main_v23_3 y
  congr 1
  funext a; apply Fin.ext
  match a with
  | ⟨0, _⟩ => show win1_5.index t (0 : Fin 2) * 2 + 1 * (y 0).val = (y 0).val; omega
  | ⟨1, _⟩ => show win1_5.index t (1 : Fin 2) * 256 + 1 * (y 1).val = (y 1).val; omega
/-- Window 6's block is its whole array: an element of the block at block index 0 sits at its own coordinates. -/
theorem iblk_6 (c : Dev nD) (t : Fin cfg1.N) : iblk V c 6 t = (arrays V c).gf2 := by
  obtain ⟨-, -, -, -, -, ⟨e0, e1⟩, -⟩ := idx_whole t
  funext y
  show V c main_v19 (((cfg1.win 6).blk t).view.emb y) = V c main_v19 y
  congr 1
  funext a; apply Fin.ext
  match a with
  | ⟨0, _⟩ => show win1_6.index t (0 : Fin 2) * 1 + 1 * (y 0).val = (y 0).val; omega
  | ⟨1, _⟩ => show win1_6.index t (1 : Fin 2) * 256 + 1 * (y 1).val = (y 1).val; omega
/-- Window 7's block is its whole array: an element of the block at block index 0 sits at its own coordinates. -/
theorem iblk_7 (c : Dev nD) (t : Fin cfg1.N) : iblk V c 7 t = (arrays V c).bf2 := by
  obtain ⟨-, -, -, -, -, -, e0, e1⟩ := idx_whole t
  funext y
  show V c main_v20 (((cfg1.win 7).blk t).view.emb y) = V c main_v20 y
  congr 1
  funext a; apply Fin.ext
  match a with
  | ⟨0, _⟩ => show win1_7.index t (0 : Fin 2) * 1 + 1 * (y 0).val = (y 0).val; omega
  | ⟨1, _⟩ => show win1_7.index t (1 : Fin 2) * 256 + 1 * (y 1).val = (y 1).val; omega
/-- The feature branch's block at point `t` is row block `t` of its array: an element sits at row 512·t + its row. -/
theorem iblk_4 (c : Dev nD) (t : Fin cfg1.N) : iblk V c 4 t = rowBlk (arrays V c).u4 (blkOf (grid1.coords t)) := by
  obtain ⟨⟨e0, e1⟩, -⟩ := idx_moving t
  funext y
  show V c main_v23_0 (((cfg1.win 4).blk t).view.emb y) = V c main_v23_0 (ix2 ⟨512 * (grid1.coords t 0).val + (y 0).val, _⟩ (y 1))
  congr 1
  funext a; apply Fin.ext
  match a with
  | ⟨0, _⟩ => show win1_4.index t (0 : Fin 2) * 512 + 1 * (y 0).val = 512 * (grid1.coords t 0).val + (y 0).val; omega
  | ⟨1, _⟩ => show win1_4.index t (1 : Fin 2) * 256 + 1 * (y 1).val = (y 1).val; omega

/-- The invariant at the two ends of point `t`, by the point's coordinate. -/
theorem Phi_castSucc (c : Dev nD) (t : Fin cfg1.N) : Phi V c t.castSucc.val = Phi V c (grid1.coords t 0).val := by
  rw [coord_eq]; rfl
theorem Phi_succ (c : Dev nD) (t : Fin cfg1.N) : Phi V c t.succ.val = Phi V c ((grid1.coords t 0).val + 1) := by
  rw [coord_eq]; rfl

/-! ## The body at a point -/

/-- A grid point of either kind: the first point's run or a later point's, by the point's coordinate. -/
theorem stepAny (c : Dev nD) (E : Set ℕ) (i : grid1.Coords)
    (arg1 : Memref sig .tc .vmem S4096x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S512x256 .f32) (harg5 : arg5.IsWhole) (arg6 : Memref sig .tc .vmem S2x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S512x256 .f32) (harg9 : arg9.IsWhole) (arg10 : Memref sig .tc .vmem S512x4096 .f32) (harg10 : arg10.IsWhole)
    (A : Arrays F) (x4 : Vec F S512x256 .f32) (hx4 : x4 = rowBlk A.u4 (blkOf i))
    (d8 : Vec F S512x256 .f32) (d9 : Vec F S512x4096 .f32)
    (s1n : Vec F S4096x128 .f32) (hInv : Inv A (i 0).val s1n) (K : PUnit → sProp (𝕄1 F)) :
    iprop(ins c arg1 arg2 arg3 arg4 arg5 arg6 arg7 arg8 x4 A ∗ outs c arg9 arg10 d8 d9 ∗ scr c s1n
        ∗ (iprop(∃ s1n', ⌜Inv A ((i 0).val + 1) s1n'⌝ ∗ ins c arg1 arg2 arg3 arg4 arg5 arg6 arg7 arg8 x4 A
            ∗ outs c arg9 arg10 (f2B A (blkOf i)) (s2B A (blkOf i)) ∗ scr c s1n') -∗ K ⟨⟩))
      ⊢ wp frame (wpE (defs₀ (F := F)) Variants.none c none) E
          (cc1__decode_kernel i arg1 harg1 arg2 harg2 arg3 harg3 arg4 harg4 arg5 harg5 arg6 harg6 arg7 harg7 arg8 harg8 arg9 harg9 arg10 harg10 (Memref.whole cc1_scratch0) (Memref.isWhole_whole _)) K := by
  by_cases hi : (i 0).val = 0
  · exact stepFirst c E i hi arg1 harg1 arg2 harg2 arg3 harg3 arg4 harg4 arg5 harg5 arg6 harg6 arg7 harg7 arg8 harg8 arg9 harg9 arg10 harg10 A x4 hx4 d8 d9 s1n hInv K
  · exact stepLater c E i hi arg1 harg1 arg2 harg2 arg3 harg3 arg4 harg4 arg5 harg5 arg6 harg6 arg7 harg7 arg8 harg8 arg9 harg9 arg10 harg10 A x4 hx4 d8 d9 s1n hInv K

/-- What the body is called with at point `t`: the invariant, what the core owes, and every window's current buffer
    at what it then holds, -/
def bodyPre (c : Dev nD) (t : Fin cfg1.N) : sProp (𝕄1 F) :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

/-- and what it returns. -/
def bodyPost (c : Dev nD) (t : Fin cfg1.N) : sProp (𝕄1 F) :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

/-- The body at any point: each input's buffer holds its block, which is its array (the feature branch's: the point's row
    block); the scratch matrix is as the invariant says; the point's run gives the next invariant, the inputs as they
    were and the two outputs at the block's results; the region's other scoped buffers and what the core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).owesAt () t.succ = (dat V c).owesAt () t.castSucc from rfl, dat_Phi, dat_Phi, Phi_castSucc, Phi_succ,
    after_0, after_1, after_2, after_3, after_4, after_5, after_6, after_7, after_8, after_9,
    iblk_0, iblk_1, iblk_2, iblk_3, iblk_4, iblk_5, iblk_6, iblk_7]
  unfold Phi
  iintro ⟨⟨⟨%s1n, %hInv, Hs⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepAny c Set.univ (grid1.coords t) _ _ _ _ _ _ _ _ _ _ _ _ _ _ _ _ _ _ _ _ (arrays V c) _ rfl _ _ s1n hInv _)
  unfold ins outs
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9]
  · isplitl [H8]; · iexact H8
    iexact H9
  isplitl [Hs]; · iexact Hs
  iintro ⟨%s1n', %hInv', ⟨G0, G1, G2, G3, G4, G5, G6, G7⟩, ⟨G8, G9⟩, Gs⟩
  isplitl [Gs Hrest]
  · isplitl [Gs]
    · iexists s1n'; isplitr; · ipureintro; exact hInv'
      iexact Gs
    iexact Hrest
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

/-- The body obligation at every grid point. -/
theorem body_obligation (c : Dev nD) : BodyObligation (dat (F := F) V c) (defs₀ (F := F)) Variants.none () Set.univ := fun t => by
  rw [bigSep_W1, bigSep_W1]
  exact sound_body V c t

end Cert.KernelIdeal.Decode

end
-- ==== Proof.KernelRun.lean ====
/-
  The idealized kernel program's run, with values: @main is the host operations, the graph-convolution stack's region
  and the decoder's region.  Every weakly fair execution from a memory with zero counters terminates; the two results
  end at the decoder's closed forms of the arrays the first region left, and every argument array ends as launched.
  The buffers between the segments are a fold from the launch memory: a region's arrays at what its write-backs leave,
  every other buffer as the region was entered.
-/
import proofs.«181189_g481036337843_cont_8to1c4_37_6_alg».proof.Proof.KernelRunDefs
import proofs.«181189_g481036337843_cont_8to1c4_37_6_alg».proof.Proof.StackOblig
import proofs.«181189_g481036337843_cont_8to1c4_37_6_alg».proof.Proof.StackFinal
import proofs.«181189_g481036337843_cont_8to1c4_37_6_alg».proof.Proof.DecodeOblig
import proofs.«181189_g481036337843_cont_8to1c4_37_6_alg».proof.Proof.Gen.KernelIdeal.Regions
import Idealize.ShloMosaic.Lib.Pipeline.RegionsLoop

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-! ## Reading the fold: a region's array holds what its write-backs leave, any other buffer what the region found -/

theorem W2_arr (c : Dev nD) (w : Fin cfg0.W) :
    W2 m c (Proc.devRef .tc (Pipeline.arrRef spec0 w)) = (Stack.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (Decode.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- An array the first region only reads holds at its exit what it held at its entry: no write-back touches it. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((Stack.dat (V1 m) c).arrAt_in w hin _).trans (Stack.dat_A (V1 m) c w))

/-- At each region's exit its arrays hold what the pipeline leaves and every other buffer what it held at entry. -/
theorem hF0 (c : Dev nD) (w : Fin cfg0.W) : (Stack.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (Decode.dat (V2 m) c).arrAt w cfg1.N = W3 m c (Proc.devRef .tc (Pipeline.arrRef spec1 w)) :=
  (W3_arr m c w).symm
theorem hrest1 (c : Dev nD) : ∀ b : Ref sig .tc, b ∉ Finset.univ.image (Pipeline.arrRef spec1) → W3 m c (Proc.devRef .tc b) = V2 m c b :=
  fun b hb => W3_of_ne m c b fun w e => hb (Finset.mem_image.mpr ⟨w, Finset.mem_univ _, e⟩)

/-! ## What the second region finds: the first region's results, and the host's rows untouched -/

theorem V2_v23_0 (c : Dev nD) : V2 m c main_v23_0 = Stack.U4 (Stack.arrays (V1 m) c) :=
  (W2_arr m c 11).trans (Stack.final11 (V1 m) c)
theorem V2_v23_1 (c : Dev nD) : V2 m c main_v23_1 = Stack.U3S (Stack.arrays (V1 m) c) :=
  (W2_arr m c 12).trans (Stack.final12 (V1 m) c)
theorem V2_v23_2 (c : Dev nD) : V2 m c main_v23_2 = Stack.S1STATS (Stack.arrays (V1 m) c) :=
  (W2_arr m c 13).trans (Stack.final13 (V1 m) c)
theorem V2_v23_3 (c : Dev nD) : V2 m c main_v23_3 = Stack.U4STATS (Stack.arrays (V1 m) c) :=
  (W2_arr m c 14).trans (Stack.final14 (V1 m) c)
theorem V2_v19 (c : Dev nD) : V2 m c main_v19 = V1 m c main_v19 :=
  W2_of_ne m c main_v19 (by decide)
theorem V2_v20 (c : Dev nD) : V2 m c main_v20 = V1 m c main_v20 :=
  W2_of_ne m c main_v20 (by decide)
theorem V2_v21 (c : Dev nD) : V2 m c main_v21 = V1 m c main_v21 :=
  W2_of_ne m c main_v21 (by decide)
theorem V2_v22 (c : Dev nD) : V2 m c main_v22 = V1 m c main_v22 :=
  W2_of_ne m c main_v22 (by decide)

/-! ## The two results, and the arguments, read off the last boundary -/

theorem W3_v24_0 (c : Dev nD) : W3 m c (Proc.devRef .tc main_v24_0) = Decode.F2 (Decode.arrays (V2 m) c) :=
  (W3_arr m c 8).trans (Decode.final8 (V2 m) c)
theorem W3_v24_1 (c : Dev nD) : W3 m c (Proc.devRef .tc main_v24_1) = Decode.S2 (Decode.arrays (V2 m) c) :=
  (W3_arr m c 9).trans (Decode.final9 (V2 m) c)

/-- A buffer no host operation writes and no window of either region names ends as launched. -/
theorem W3_bypass (c : Dev nD) (b : Ref sig .tc) (h1 : b ∉ hostOps0_W) (h2 : ∀ w, Pipeline.arrRef spec0 w ≠ b)
    (h3 : ∀ w, Pipeline.arrRef spec1 w ≠ b) : W3 m c (Proc.devRef .tc b) = m ((c : Thread nD τ).loc b) :=
  (W3_of_ne m c b h3).trans <| (W2_of_ne m c b h2).trans <| (Gen.V1_of m c b h1).trans rfl

/-- An array the first region only reads, that no host operation writes and no window of the second region names,
    ends as launched. -/
theorem W3_read (c : Dev nD) (w : Fin cfg0.W) (hin : (cfg0.win w).isOut = false) (h1 : Pipeline.arrRef spec0 w ∉ hostOps0_W)
    (h3 : ∀ w', Pipeline.arrRef spec1 w' ≠ Pipeline.arrRef spec0 w) :
    W3 m c (Proc.devRef .tc (Pipeline.arrRef spec0 w)) = m ((c : Thread nD τ).loc (Pipeline.arrRef spec0 w)) :=
  (W3_of_ne m c _ h3).trans <| (W2_in m c w hin).trans <| (Gen.V1_of m c _ h1).trans rfl

/-! ## The proof data family and the thread state -/

/-- Every pipeline's proof data, each at its region's entry contents. -/
def pdats : (p : Fin 2) → (c : Dev nD) → Pipeline.Dat τ (Elt F) Unit ℕ (UR sig nD τ) ℕ (Pipeline.pin (pcfgs (F := F)) adm p) c
  | ⟨0, _⟩ => fun c => Stack.dat (V1 m) c
  | ⟨1, _⟩ => fun c => Decode.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing.  Neither region's invariant takes the register in: it bypasses both. -/
abbrev R (c : Dev nD) : sProp 𝕄 := iprop((∃ r, prngReg c r) ∗ ∃ W, owes (c : Thread nD τ) (0 : CellTallies nD τ sig Unit) W)
/-- The host operations as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W3 m c) ∗ ∃ r, prngReg c r)

/-! ## The regions as segments

Each region is entered from every unscoped buffer at the boundary's contents.  Its arrays are split out of them and put
back at the exit contents; the scoped buffers no window stages make its invariant at the first point and come back from
it at the last; the generator register and the other unscoped buffers bypass it; nothing is owed, and the kernel has no
semaphore of its own. -/

-- a library lemma stated over the pinned configuration unifies with the printed one only when unification may unfold
-- plain definitions in a metavariable's type
set_option backward.isDefEq.respectTransparency.types false in
/-- The graph-convolution stack's region: entered from the contents after the host operations, left at the fold's next
    boundary. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Stack.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := iprop(Pipeline.unscopedRest (Ix := Unit) (Name := ℕ) (U := UR sig nD τ) (Lvl := ℕ) spec0 c (V1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hPhi := Stack.Phi_in (V1 m) c
    rw [show (pdats m 0 c).Φ 0 = Stack.Phi (V1 m) c 0 from Stack.dat_Phi (V1 m) c 0]
    iintro ⟨-, -, Hr⟩
    iapply hPhi
    iexact Hr
  hout c := by
    have hPhi := Stack.Phi_out (V1 m) c
    rw [Pipeline.ownSems0_none, show (pdats m 0 c).Φ (Fin.last _) = Stack.Phi (V1 m) c cfg0.N from Stack.dat_Phi (V1 m) c (Fin.last _)]
    iintro H
    isplitr; · iempintro
    isplitr; · iempintro
    iapply hPhi
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- as for the first region: unification may unfold plain definitions in a metavariable's type
set_option backward.isDefEq.respectTransparency.types false in
/-- The decoder's region: entered from the contents the first region left, left at the last boundary, where the launch
    reads the results and the arguments. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Decode.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(emp)
  Y c := iprop(emp)
  Z c := iprop(Pipeline.unscopedRest (Ix := Unit) (Name := ℕ) (U := UR sig nD τ) (Lvl := ℕ) spec1 c (V2 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hPhi := Decode.Phi_in (V2 m) c
    rw [show (pdats m 1 c).Φ 0 = Decode.Phi (V2 m) c 0 from Decode.dat_Phi (V2 m) c 0]
    iintro ⟨-, -, Hr⟩
    iapply hPhi
    iexact Hr
  hout c := by
    have hPhi := Decode.Phi_out (V2 m) c
    rw [Pipeline.ownSems0_none, show (pdats m 1 c).Φ (Fin.last _) = Decode.Phi (V2 m) c cfg1.N from Decode.dat_Phi (V2 m) c (Fin.last _)]
    iintro H
    isplitr; · iempintro
    isplitr; · iempintro
    iapply hPhi
    iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (fun b => W3 m c (Proc.devRef .tc b)) ((pdats m 1 c).arrAt · cfg1.N) (hF1 m c) (hrest1 m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## @main as segments, and the launch -/

/-- @main's three segments in order: the host operations from the launch contents, then the two regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the segments: it is the chain of its items, and the segments' run is that chain. -/
theorem main_run (c : Dev nD) : main (F := F) c = Pipeline.Seg.run (segs m) := (main_chain c).trans (by chain_rfl)

/-! ## The run -/

-- the launch theorem's implicit arguments are found by unifying its conclusion with this one, which takes unfolding
-- plain definitions in a metavariable's type
set_option backward.isDefEq.respectTransparency.types false in
/-- Every weakly fair execution of @main terminates, nothing faulting; the two results end at the decoder's closed
    forms and the fifteen arguments as launched. -/
theorem run (ρ : Dev nD → PrngReg) :
    θ_run defs (onTc (τ := τ) (main (F := F))) ⟨m, fun _ => 0, ρ⟩ (fun r => ∀ c : Dev nD,
      r.2.mem ((c.tc : Thread nD τ).loc main_v24_0) = Decode.F2 (Decode.arrays (V2 m) c)
      ∧ r.2.mem ((c.tc : Thread nD τ).loc main_v24_1) = Decode.S2 (Decode.arrays (V2 m) c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  exact Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v24_0 (by decide))).trans (W3_v24_0 m c),
        (h c _ (mem_uc main_v24_1 (by decide))).trans (W3_v24_1 m c),
        (h c _ (mem_uc main_arg0 (by decide))).trans (W3_read m c 1 rfl (by decide) (by decide)),
        (h c _ (mem_uc main_arg1 (by decide))).trans (W3_read m c 0 rfl (by decide) (by decide)),
        (h c _ (mem_uc main_arg2 (by decide))).trans (W3_read m c 2 rfl (by decide) (by decide)),
        (h c _ (mem_uc main_arg3 (by decide))).trans (W3_bypass m c main_arg3 (by decide) (by decide) (by decide)),
        (h c _ (mem_uc main_arg4 (by decide))).trans (W3_bypass m c main_arg4 (by decide) (by decide) (by decide)),
        (h c _ (mem_uc main_arg5 (by decide))).trans (W3_bypass m c main_arg5 (by decide) (by decide) (by decide)),
        (h c _ (mem_uc main_arg6 (by decide))).trans (W3_bypass m c main_arg6 (by decide) (by decide) (by decide)),
        (h c _ (mem_uc main_arg7 (by decide))).trans (W3_bypass m c main_arg7 (by decide) (by decide) (by decide)),
        (h c _ (mem_uc main_arg8 (by decide))).trans (W3_bypass m c main_arg8 (by decide) (by decide) (by decide)),
        (h c _ (mem_uc main_arg9 (by decide))).trans (W3_read m c 9 rfl (by decide) (by decide)),
        (h c _ (mem_uc main_arg10 (by decide))).trans (W3_bypass m c main_arg10 (by decide) (by decide) (by decide)),
        (h c _ (mem_uc main_arg11 (by decide))).trans (W3_bypass m c main_arg11 (by decide) (by decide) (by decide)),
        (h c _ (mem_uc main_arg12 (by decide))).trans (W3_bypass m c main_arg12 (by decide) (by decide) (by decide)),
        (h c _ (mem_uc main_arg13 (by decide))).trans (W3_bypass m c main_arg13 (by decide) (by decide) (by decide)),
        (h c _ (mem_uc main_arg14 (by decide))).trans (W3_bypass m c main_arg14 (by decide) (by decide) (by decide))⟩)

end Cert.KernelIdeal.Run

end
-- ==== Proof.RefOps.lean ====
/-
  The reference program's two results as a composition of named stages, each stage the program's own operations in
  the program's order and with the program's operand order, for any float values.

  A graph-convolution layer is two matrix products and a rectifier: `relu (adj · (h · W))`, the rectifier the
  elementwise maximum with a broadcast zero.  Training-mode batch normalisation of a matrix of 4096 rows and `c` columns
  is `g · (h - μ) / √(σ² + ε) + b`, every row vector broadcast to the matrix through a `1 × c` row:  the column mean `μ`
  is the column sum divided by a broadcast `4096`;  the variance `σ²` is the program's local function: the column sum of
  the squared differences from the mean (that mean taken at shape `1 × c`), divided by the broadcast of
  `4096 - (float) 0`, and where that count is not positive the quiet not-a-number instead.

  The stages are stated once for any column count `c`, over the shape relations the operations ask for (`ColFacts c`);
  the program uses them at 64, 128 and 256 columns.
-/
import proofs.«181189_g481036337843_cont_8to1c4_37_6_alg».proof.ReferenceIdeal

noncomputable section

namespace Cert.ReferenceIdeal.RefOps

open Idealize.ShloMosaic Cert.ReferenceIdeal Cert.ReferenceIdeal.Facts₀ Cert.ReferenceIdeal.Facts

variable {F : FTy → Type} [FloatOps F]

/-! ## Shapes and shape relations at a column count -/

/-- A matrix of 4096 rows and `c` columns, a vector of `c` entries, and a single row of `c` entries. -/
abbrev Mx (c : ℕ) : Shape := ⟨2, ![4096, c]⟩
abbrev Rw (c : ℕ) : Shape := ⟨1, ![c]⟩
abbrev R1 (c : ℕ) : Shape := ⟨2, ![1, c]⟩

/-- The shape relations the operations of one normalisation ask for, at column count `c`. -/
structure ColFacts (c : ℕ) : Prop where
  hS : 0 < S_.numel
  bFull : S_.BroadcastsInDim (Mx c) (![] : Fin 0 → Fin (Mx c).rank)
  red : (Mx c).ReducesTo [0] (Rw c)
  bRow : S_.BroadcastsInDim (Rw c) (![] : Fin 0 → Fin (Rw c).rank)
  bRow1 : (Rw c).BroadcastsInDim (R1 c) (![1] : Fin 1 → Fin (R1 c).rank)
  bS1 : S_.BroadcastsInDim (R1 c) (![] : Fin 0 → Fin (R1 c).rank)
  bUp : (R1 c).BroadcastsInDim (Mx c) (![0, 1] : Fin 2 → Fin (Mx c).rank)

/-! ## The stages -/

/-- The rectifier: the elementwise maximum with a broadcast zero. -/
def reluS {s : Shape} (hb : S_.BroadcastsInDim s (![] : Fin 0 → Fin s.rank)) (x : FVec F s .f32) : FVec F s .f32 :=
  maximumf x (broadcastInDim s ![] hb (constant S_ .f32 0x00000000#32))

/-- One graph-convolution layer: `relu (adj · (x · w))`. -/
def gcnS {sx sw sh : Shape} (d1 : DotDims sx sw sh) (d2 : DotDims S4096x4096 sh sh)
    (hb : S_.BroadcastsInDim sh (![] : Fin 0 → Fin sh.rank))
    (adj : FVec F S4096x4096 .f32) (x : FVec F sx .f32) (w : FVec F sw .f32) : FVec F sh .f32 :=
  reluS hb (Host.dotGeneral d2 none adj (Host.dotGeneral d1 none x w))

/-- A vector of `c` entries as a matrix of 4096 equal rows, through a single row. -/
def upS (c : ℕ) (h : ColFacts c) (v : FVec F (Rw c) .f32) : FVec F (Mx c) .f32 :=
  broadcastInDim (Mx c) ![0, 1] h.bUp (broadcastInDim (R1 c) ![1] h.bRow1 v)

/-- The column mean: the column sum divided by a broadcast 4096. -/
def meanS (c : ℕ) (h : ColFacts c) (x : FVec F (Mx c) .f32) : FVec F (Rw c) .f32 :=
  Host.divf (Host.reduceAdd x (constant S_ .f32 0x00000000#32) h.red h.hS)
    (broadcastInDim (Rw c) ![] h.bRow (constant S_ .f32 0x45800000#32))

/-- The variance function's difference from the mean, the mean taken at the single-row shape. -/
def varDiffS (c : ℕ) (h : ColFacts c) (x : FVec F (Mx c) .f32) : FVec F (Mx c) .f32 :=
  subf x (broadcastInDim (Mx c) ![0, 1] h.bUp
    (Host.divf (broadcastInDim (R1 c) ![1] h.bRow1 (Host.reduceAdd x (constant S_ .f32 0x00000000#32) h.red h.hS))
      (broadcastInDim (R1 c) ![] h.bS1 (constant S_ .f32 0x45800000#32))))

/-- The variance function's count: 4096 less the integer zero made a float. -/
def varCountS : FVec F S_ .f32 :=
  subf (constant S_ .f32 0x45800000#32) (sitofp .f32 (constantI S_ 32 0#32))

/-- The column sum of the squared differences, divided by the broadcast count. -/
def varQuotS (c : ℕ) (h : ColFacts c) (x : FVec F (Mx c) .f32) : FVec F (Rw c) .f32 :=
  Host.divf (Host.reduceAdd (mulf (varDiffS c h x) (varDiffS c h x)) (constant S_ .f32 0x00000000#32) h.red h.hS)
    (broadcastInDim (Rw c) ![] h.bRow (varCountS (F := F)))

/-- The variance: that quotient where the count is positive, the quiet not-a-number elsewhere. -/
def varS (c : ℕ) (h : ColFacts c) (x : FVec F (Mx c) .f32) : FVec F (Rw c) .f32 :=
  select (broadcastInDim (Rw c) ![] h.bRow (cmpf .ogt (varCountS (F := F)) (constant S_ .f32 0x00000000#32)))
    (varQuotS c h x)
    (broadcastInDim (Rw c) ![] h.bRow (id (constant S_ .f32 0x7FC00000#32)))

/-- The standard deviation: the square root of the variance plus a broadcast `ε`. -/
def stdS (c : ℕ) (h : ColFacts c) (x : FVec F (Mx c) .f32) : FVec F (Rw c) .f32 :=
  Host.sqrt (addf (varS c h x) (broadcastInDim (Rw c) ![] h.bRow (constant S_ .f32 0x3727C5AC#32)))

/-- Batch normalisation: `g · (x - μ) / √(σ² + ε) + b`. -/
def bnS (c : ℕ) (h : ColFacts c) (x : FVec F (Mx c) .f32) (g b : FVec F (Rw c) .f32) : FVec F (Mx c) .f32 :=
  addf (Host.divf (mulf (upS c h g) (subf x (upS c h (meanS c h x)))) (upS c h (stdS c h x))) (upS c h b)

/-! ## The program -/

section Program

variable [Facts]

theorem cf64 : ColFacts 64 :=
  ⟨h_S_, bcast_S_S4096x64, reducesTo_S4096x64_S64_d0, bcast_S_S64, bcast_S64_S1x64_1, bcast_S_S1x64, bcast_S1x64_S4096x64_0_1⟩
theorem cf128 : ColFacts 128 :=
  ⟨h_S_, bcast_S_S4096x128, reducesTo_S4096x128_S128_d0, bcast_S_S128, bcast_S128_S1x128_1, bcast_S_S1x128,
    bcast_S1x128_S4096x128_0_1⟩
theorem cf256 : ColFacts 256 :=
  ⟨h_S_, bcast_S_S4096x256, reducesTo_S4096x256_S256_d0, bcast_S_S256, bcast_S256_S1x256_1, bcast_S_S1x256,
    bcast_S1x256_S4096x256_0_1⟩

variable (a0 : FVec F S4096x256 .f32) (a1 : FVec F S4096x4096 .f32) (a2 : FVec F S256x128 .f32)
  (a3 : FVec F S128x64 .f32) (a4 a5 : FVec F S64 .f32) (a6 : FVec F S64x128 .f32) (a7 a8 : FVec F S128 .f32)
  (a9 : FVec F S128x256 .f32) (a10 a11 : FVec F S256 .f32) (a12 : FVec F S64x128 .f32) (a13 a14 : FVec F S128 .f32)

/-- The first encoder layer (what the program leaves in its value 2). -/
def h1F : FVec F S4096x128 .f32 :=
  gcnS dot_S4096x256_S256x128_S4096x128_1_0_0_1_n_n dot_S4096x4096_S4096x128_S4096x128_1_0_0_1_n_n bcast_S_S4096x128 a1 a0 a2

/-- The second encoder layer before normalisation (value 5). -/
def u2F : FVec F S4096x64 .f32 :=
  gcnS dot_S4096x128_S128x64_S4096x64_1_0_0_1_n_n dot_S4096x4096_S4096x64_S4096x64_1_0_0_1_n_n bcast_S_S4096x64 a1
    (h1F a0 a1 a2) a3

/-- The encoder's output (value 24). -/
def zF : FVec F S4096x64 .f32 := bnS 64 cf64 (u2F a0 a1 a2 a3) a4 a5

/-- The feature decoder's first layer before normalisation (value 27). -/
def u3fF : FVec F S4096x128 .f32 :=
  gcnS dot_S4096x64_S64x128_S4096x128_1_0_0_1_n_n dot_S4096x4096_S4096x128_S4096x128_1_0_0_1_n_n bcast_S_S4096x128 a1
    (zF a0 a1 a2 a3 a4 a5) a6

/-- The feature decoder's first layer (value 46). -/
def f1F : FVec F S4096x128 .f32 := bnS 128 cf128 (u3fF a0 a1 a2 a3 a4 a5 a6) a7 a8

/-- The feature decoder's second layer before normalisation (value 49). -/
def u4F : FVec F S4096x256 .f32 :=
  gcnS dot_S4096x128_S128x256_S4096x256_1_0_0_1_n_n dot_S4096x4096_S4096x256_S4096x256_1_0_0_1_n_n bcast_S_S4096x256 a1
    (f1F a0 a1 a2 a3 a4 a5 a6 a7 a8) a9

/-- The first result: the feature decoder's output (value 68). -/
def resF2 : FVec F S4096x256 .f32 := bnS 256 cf256 (u4F a0 a1 a2 a3 a4 a5 a6 a7 a8 a9) a10 a11

/-- The structure decoder's layer before normalisation (value 71). -/
def u3sF : FVec F S4096x128 .f32 :=
  gcnS dot_S4096x64_S64x128_S4096x128_1_0_0_1_n_n dot_S4096x4096_S4096x128_S4096x128_1_0_0_1_n_n bcast_S_S4096x128 a1
    (zF a0 a1 a2 a3 a4 a5) a12

/-- The structure decoder's layer (value 90). -/
def s1F : FVec F S4096x128 .f32 := bnS 128 cf128 (u3sF a0 a1 a2 a3 a4 a5 a12) a13 a14

/-- The second result: that layer times its own transpose (value 92). -/
def resS2 : FVec F S4096x4096 .f32 :=
  Host.dotGeneral dot_S4096x128_S128x4096_S4096x4096_1_0_0_1_n_n none (s1F a0 a1 a2 a3 a4 a5 a12 a13 a14)
    (transpose S128x4096 [1, 0] (s1F a0 a1 a2 a3 a4 a5 a12 a13 a14) transposes_S4096x128_S128x4096_1_0)

end Program

end Cert.ReferenceIdeal.RefOps

end
-- ==== Proof.RefRun.lean ====
/-
  The run of the reference program.  Its entry function is two windows of statements run in order, nine of which call
  a local function (a rectifier, or a variance that itself calls a selection); a call executes the callee's body on the
  operands over the call's own buffers.  Listed stretch by stretch — one list per stretch of the entry function between
  calls, one per call — the program is one straight line of 203 host operations.  Every weakly fair execution of a
  straight line terminates, each buffer ending at the fold of the operations' results over the launch contents; read
  back at the two result buffers that fold is the composition of stages of `RefOps`, and at the fifteen argument buffers,
  which no operation writes, it is the launch contents.
-/
import proofs.«181189_g481036337843_cont_8to1c4_37_6_alg».proof.Proof.RefOps
import Idealize.ShloMosaic.Lib.StableHlo.Run

noncomputable section

namespace Cert.ReferenceIdeal.RefRun

open Cert.ReferenceIdeal Cert.ReferenceIdeal.Facts₀ Cert.ReferenceIdeal.Facts Cert.ReferenceIdeal.RefOps
open Idealize.ShloMosaic Idealize.ShloMosaic.TcCoe Idealize.SL.Sem Idealize.ShloMosaic.StableHlo

variable {F : FTy → Type} [FloatOps F] [Facts]

/-- The contents of a single-precision buffer of shape `s`. -/
abbrev Cf (F : FTy → Type) (s : Shape) : Type := (⟨s, .f32⟩ : BufTy).Contents (Elt F)

/-! ## The operations, stretch by stretch -/

/-- The first encoder layer: two products, then the rectifier's three operations over the buffers of call 0. -/
abbrev opsL1 : List (HloOp τ sig (Elt F)) :=
  [ binary main_arg0 main_arg2 main_v0 ((fun l r => Host.dotGeneral dot_S4096x256_S256x128_S4096x128_1_0_0_1_n_n none l r) : Cf F S4096x256 → Cf F S256x128 → Cf F S4096x128),
    binary main_arg1 main_v0 main_v1 ((fun l r => Host.dotGeneral dot_S4096x4096_S4096x128_S4096x128_1_0_0_1_n_n none l r) : Cf F S4096x4096 → Cf F S4096x128 → Cf F S4096x128),
    TRef.nullary main_call0.cst (constant S_ .f32 0x00000000#32),
    TRef.unary main_call0.cst main_call0.v0 (broadcastInDim S4096x128 ![] bcast_S_S4096x128),
    TRef.binary (.of main_v1 : TRef sig ⟨S4096x128, .f32⟩) main_call0.v0 main_call0.v1 maximumf ]

/-- The second encoder layer, the rectifier over the buffers of call 1. -/
abbrev opsL2 : List (HloOp τ sig (Elt F)) :=
  [ binary main_v2 main_arg3 main_v3 ((fun l r => Host.dotGeneral dot_S4096x128_S128x64_S4096x64_1_0_0_1_n_n none l r) : Cf F S4096x128 → Cf F S128x64 → Cf F S4096x64),
    binary main_arg1 main_v3 main_v4 ((fun l r => Host.dotGeneral dot_S4096x4096_S4096x64_S4096x64_1_0_0_1_n_n none l r) : Cf F S4096x4096 → Cf F S4096x64 → Cf F S4096x64),
    TRef.nullary main_call1.cst (constant S_ .f32 0x00000000#32),
    TRef.unary main_call1.cst main_call1.v0 (broadcastInDim S4096x64 ![] bcast_S_S4096x64),
    TRef.binary (.of main_v4 : TRef sig ⟨S4096x64, .f32⟩) main_call1.v0 main_call1.v1 maximumf ]

/-- The encoder's normalisation up to its variance call: the column mean and the integer zero. -/
abbrev opsM64 : List (HloOp τ sig (Elt F)) :=
  [ nullary main_cst (constant S_ .f32 0x00000000#32),
    binary main_v5 main_cst main_v6 ((fun x v => Host.reduceAdd x v reducesTo_S4096x64_S64_d0 h_S_) : Cf F S4096x64 → Cf F S_ → Cf F S64),
    nullary main_cst_0 (constant S_ .f32 0x45800000#32),
    unary main_cst_0 main_v7 (broadcastInDim S64 ![] bcast_S_S64 : Cf F S_ → Cf F S64),
    binary main_v6 main_v7 main_v8 (Host.divf : Cf F S64 → Cf F S64 → Cf F S64),
    nullary main_c (constantI S_ 32 0#32) ]

/-- The variance of 64 columns over the buffers of call 2, its selection over those of the call inside it. -/
abbrev opsV64 : List (HloOp τ sig (Elt F)) :=
  [ TRef.nullary main_call2.cst (constant S_ .f32 0x00000000#32),
    TRef.binary (.of main_v5 : TRef sig ⟨S4096x64, .f32⟩) main_call2.cst main_call2.v0 (fun x v => Host.reduceAdd x v reducesTo_S4096x64_S64_d0 h_S_),
    TRef.unary main_call2.v0 main_call2.v1 (broadcastInDim S1x64 ![1] bcast_S64_S1x64_1),
    TRef.nullary main_call2.cst_0 (constant S_ .f32 0x45800000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S4096x64 ![0, 1] bcast_S1x64_S4096x64_0_1),
    TRef.binary (.of main_v5 : TRef sig ⟨S4096x64, .f32⟩) main_call2.v4 main_call2.v5 subf,
    TRef.binary main_call2.v5 main_call2.v5 main_call2.v6 mulf,
    TRef.unary (.of main_c : TRef sig ⟨S_, .i32⟩) main_call2.v7 (sitofp .f32),
    TRef.nullary main_call2.cst_1 (constant S_ .f32 0x45800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4096x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b) ]

/-- The rest of the encoder's normalisation: centre, scale, divide by the standard deviation, shift. -/
abbrev opsN64 : List (HloOp τ sig (Elt F)) :=
  [ unary main_v8 main_v10 (broadcastInDim S1x64 ![1] bcast_S64_S1x64_1 : Cf F S64 → Cf F S1x64),
    unary main_v10 main_v11 (broadcastInDim S4096x64 ![0, 1] bcast_S1x64_S4096x64_0_1 : Cf F S1x64 → Cf F S4096x64),
    binary main_v5 main_v11 main_v12 (subf : Cf F S4096x64 → Cf F S4096x64 → Cf F S4096x64),
    unary main_arg4 main_v13 (broadcastInDim S1x64 ![1] bcast_S64_S1x64_1 : Cf F S64 → Cf F S1x64),
    unary main_v13 main_v14 (broadcastInDim S4096x64 ![0, 1] bcast_S1x64_S4096x64_0_1 : Cf F S1x64 → Cf F S4096x64),
    binary main_v14 main_v12 main_v15 (mulf : Cf F S4096x64 → Cf F S4096x64 → Cf F S4096x64),
    nullary main_cst_1 (constant S_ .f32 0x3727C5AC#32),
    unary main_cst_1 main_v16 (broadcastInDim S64 ![] bcast_S_S64 : Cf F S_ → Cf F S64),
    binary main_v9 main_v16 main_v17 (addf : Cf F S64 → Cf F S64 → Cf F S64),
    unary main_v17 main_v18 (Host.sqrt : Cf F S64 → Cf F S64),
    unary main_v18 main_v19 (broadcastInDim S1x64 ![1] bcast_S64_S1x64_1 : Cf F S64 → Cf F S1x64),
    unary main_v19 main_v20 (broadcastInDim S4096x64 ![0, 1] bcast_S1x64_S4096x64_0_1 : Cf F S1x64 → Cf F S4096x64),
    binary main_v15 main_v20 main_v21 (Host.divf : Cf F S4096x64 → Cf F S4096x64 → Cf F S4096x64),
    unary main_arg5 main_v22 (broadcastInDim S1x64 ![1] bcast_S64_S1x64_1 : Cf F S64 → Cf F S1x64),
    unary main_v22 main_v23 (broadcastInDim S4096x64 ![0, 1] bcast_S1x64_S4096x64_0_1 : Cf F S1x64 → Cf F S4096x64),
    binary main_v21 main_v23 main_v24 (addf : Cf F S4096x64 → Cf F S4096x64 → Cf F S4096x64) ]

/-- The feature decoder's first layer, the rectifier over the buffers of call 3. -/
abbrev opsL3 : List (HloOp τ sig (Elt F)) :=
  [ binary main_v24 main_arg6 main_v25 ((fun l r => Host.dotGeneral dot_S4096x64_S64x128_S4096x128_1_0_0_1_n_n none l r) : Cf F S4096x64 → Cf F S64x128 → Cf F S4096x128),
    binary main_arg1 main_v25 main_v26 ((fun l r => Host.dotGeneral dot_S4096x4096_S4096x128_S4096x128_1_0_0_1_n_n none l r) : Cf F S4096x4096 → Cf F S4096x128 → Cf F S4096x128),
    TRef.nullary main_call3.cst (constant S_ .f32 0x00000000#32),
    TRef.unary main_call3.cst main_call3.v0 (broadcastInDim S4096x128 ![] bcast_S_S4096x128),
    TRef.binary (.of main_v26 : TRef sig ⟨S4096x128, .f32⟩) main_call3.v0 main_call3.v1 maximumf ]

/-- Its normalisation up to the variance call. -/
abbrev opsM128 : List (HloOp τ sig (Elt F)) :=
  [ nullary main_cst_2 (constant S_ .f32 0x00000000#32),
    binary main_v27 main_cst_2 main_v28 ((fun x v => Host.reduceAdd x v reducesTo_S4096x128_S128_d0 h_S_) : Cf F S4096x128 → Cf F S_ → Cf F S128),
    nullary main_cst_3 (constant S_ .f32 0x45800000#32),
    unary main_cst_3 main_v29 (broadcastInDim S128 ![] bcast_S_S128 : Cf F S_ → Cf F S128),
    binary main_v28 main_v29 main_v30 (Host.divf : Cf F S128 → Cf F S128 → Cf F S128),
    nullary main_c_4 (constantI S_ 32 0#32) ]

/-- The variance of 128 columns over the buffers of call 4. -/
abbrev opsV128 : List (HloOp τ sig (Elt F)) :=
  [ TRef.nullary main_call4.cst (constant S_ .f32 0x00000000#32),
    TRef.binary (.of main_v27 : TRef sig ⟨S4096x128, .f32⟩) main_call4.cst main_call4.v0 (fun x v => Host.reduceAdd x v reducesTo_S4096x128_S128_d0 h_S_),
    TRef.unary main_call4.v0 main_call4.v1 (broadcastInDim S1x128 ![1] bcast_S128_S1x128_1),
    TRef.nullary main_call4.cst_0 (constant S_ .f32 0x45800000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S4096x128 ![0, 1] bcast_S1x128_S4096x128_0_1),
    TRef.binary (.of main_v27 : TRef sig ⟨S4096x128, .f32⟩) main_call4.v4 main_call4.v5 subf,
    TRef.binary main_call4.v5 main_call4.v5 main_call4.v6 mulf,
    TRef.unary (.of main_c_4 : TRef sig ⟨S_, .i32⟩) main_call4.v7 (sitofp .f32),
    TRef.nullary main_call4.cst_1 (constant S_ .f32 0x45800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S4096x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b) ]

/-- The rest of that normalisation. -/
abbrev opsN128 : List (HloOp τ sig (Elt F)) :=
  [ unary main_v30 main_v32 (broadcastInDim S1x128 ![1] bcast_S128_S1x128_1 : Cf F S128 → Cf F S1x128),
    unary main_v32 main_v33 (broadcastInDim S4096x128 ![0, 1] bcast_S1x128_S4096x128_0_1 : Cf F S1x128 → Cf F S4096x128),
    binary main_v27 main_v33 main_v34 (subf : Cf F S4096x128 → Cf F S4096x128 → Cf F S4096x128),
    unary main_arg7 main_v35 (broadcastInDim S1x128 ![1] bcast_S128_S1x128_1 : Cf F S128 → Cf F S1x128),
    unary main_v35 main_v36 (broadcastInDim S4096x128 ![0, 1] bcast_S1x128_S4096x128_0_1 : Cf F S1x128 → Cf F S4096x128),
    binary main_v36 main_v34 main_v37 (mulf : Cf F S4096x128 → Cf F S4096x128 → Cf F S4096x128),
    nullary main_cst_5 (constant S_ .f32 0x3727C5AC#32),
    unary main_cst_5 main_v38 (broadcastInDim S128 ![] bcast_S_S128 : Cf F S_ → Cf F S128),
    binary main_v31 main_v38 main_v39 (addf : Cf F S128 → Cf F S128 → Cf F S128),
    unary main_v39 main_v40 (Host.sqrt : Cf F S128 → Cf F S128),
    unary main_v40 main_v41 (broadcastInDim S1x128 ![1] bcast_S128_S1x128_1 : Cf F S128 → Cf F S1x128),
    unary main_v41 main_v42 (broadcastInDim S4096x128 ![0, 1] bcast_S1x128_S4096x128_0_1 : Cf F S1x128 → Cf F S4096x128),
    binary main_v37 main_v42 main_v43 (Host.divf : Cf F S4096x128 → Cf F S4096x128 → Cf F S4096x128),
    unary main_arg8 main_v44 (broadcastInDim S1x128 ![1] bcast_S128_S1x128_1 : Cf F S128 → Cf F S1x128),
    unary main_v44 main_v45 (broadcastInDim S4096x128 ![0, 1] bcast_S1x128_S4096x128_0_1 : Cf F S1x128 → Cf F S4096x128),
    binary main_v43 main_v45 main_v46 (addf : Cf F S4096x128 → Cf F S4096x128 → Cf F S4096x128) ]

/-- The feature decoder's second layer, the rectifier over the buffers of call 5. -/
abbrev opsL4 : List (HloOp τ sig (Elt F)) :=
  [ binary main_v46 main_arg9 main_v47 ((fun l r => Host.dotGeneral dot_S4096x128_S128x256_S4096x256_1_0_0_1_n_n none l r) : Cf F S4096x128 → Cf F S128x256 → Cf F S4096x256),
    binary main_arg1 main_v47 main_v48 ((fun l r => Host.dotGeneral dot_S4096x4096_S4096x256_S4096x256_1_0_0_1_n_n none l r) : Cf F S4096x4096 → Cf F S4096x256 → Cf F S4096x256),
    TRef.nullary main_call5.cst (constant S_ .f32 0x00000000#32),
    TRef.unary main_call5.cst main_call5.v0 (broadcastInDim S4096x256 ![] bcast_S_S4096x256),
    TRef.binary (.of main_v48 : TRef sig ⟨S4096x256, .f32⟩) main_call5.v0 main_call5.v1 maximumf ]

/-- The column sum of its normalisation: where the first window of the entry function ends. -/
abbrev opsM256a : List (HloOp τ sig (Elt F)) :=
  [ nullary main_cst_6 (constant S_ .f32 0x00000000#32),
    binary main_v49 main_cst_6 main_v50 ((fun x v => Host.reduceAdd x v reducesTo_S4096x256_S256_d0 h_S_) : Cf F S4096x256 → Cf F S_ → Cf F S256) ]

/-- The column mean and the integer zero: where the second window begins. -/
abbrev opsM256b : List (HloOp τ sig (Elt F)) :=
  [ nullary main_cst_7 (constant S_ .f32 0x45800000#32),
    unary main_cst_7 main_v51 (broadcastInDim S256 ![] bcast_S_S256 : Cf F S_ → Cf F S256),
    binary main_v50 main_v51 main_v52 (Host.divf : Cf F S256 → Cf F S256 → Cf F S256),
    nullary main_c_8 (constantI S_ 32 0#32) ]

/-- The variance of 256 columns over the buffers of call 6. -/
abbrev opsV256 : List (HloOp τ sig (Elt F)) :=
  [ TRef.nullary main_call6.cst (constant S_ .f32 0x00000000#32),
    TRef.binary (.of main_v49 : TRef sig ⟨S4096x256, .f32⟩) main_call6.cst main_call6.v0 (fun x v => Host.reduceAdd x v reducesTo_S4096x256_S256_d0 h_S_),
    TRef.unary main_call6.v0 main_call6.v1 (broadcastInDim S1x256 ![1] bcast_S256_S1x256_1),
    TRef.nullary main_call6.cst_0 (constant S_ .f32 0x45800000#32),
    TRef.unary main_call6.cst_0 main_call6.v2 (broadcastInDim S1x256 ![] bcast_S_S1x256),
    TRef.binary main_call6.v1 main_call6.v2 main_call6.v3 Host.divf,
    TRef.unary main_call6.v3 main_call6.v4 (broadcastInDim S4096x256 ![0, 1] bcast_S1x256_S4096x256_0_1),
    TRef.binary (.of main_v49 : TRef sig ⟨S4096x256, .f32⟩) main_call6.v4 main_call6.v5 subf,
    TRef.binary main_call6.v5 main_call6.v5 main_call6.v6 mulf,
    TRef.unary (.of main_c_8 : TRef sig ⟨S_, .i32⟩) main_call6.v7 (sitofp .f32),
    TRef.nullary main_call6.cst_1 (constant S_ .f32 0x45800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S4096x256_S256_d0 h_S_),
    TRef.unary main_call6.v8 main_call6.v10 (broadcastInDim S256 ![] bcast_S_S256),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S256 ![] bcast_S_S256),
    TRef.ternary main_call6.v12 main_call6.v11 main_call6.call0.v1 main_call6.call0.v2 (fun p a b => select (broadcastInDim S256 ![] bcast_S_S256 p) a b) ]

/-- The rest of that normalisation: the first result. -/
abbrev opsN256 : List (HloOp τ sig (Elt F)) :=
  [ unary main_v52 main_v54 (broadcastInDim S1x256 ![1] bcast_S256_S1x256_1 : Cf F S256 → Cf F S1x256),
    unary main_v54 main_v55 (broadcastInDim S4096x256 ![0, 1] bcast_S1x256_S4096x256_0_1 : Cf F S1x256 → Cf F S4096x256),
    binary main_v49 main_v55 main_v56 (subf : Cf F S4096x256 → Cf F S4096x256 → Cf F S4096x256),
    unary main_arg10 main_v57 (broadcastInDim S1x256 ![1] bcast_S256_S1x256_1 : Cf F S256 → Cf F S1x256),
    unary main_v57 main_v58 (broadcastInDim S4096x256 ![0, 1] bcast_S1x256_S4096x256_0_1 : Cf F S1x256 → Cf F S4096x256),
    binary main_v58 main_v56 main_v59 (mulf : Cf F S4096x256 → Cf F S4096x256 → Cf F S4096x256),
    nullary main_cst_9 (constant S_ .f32 0x3727C5AC#32),
    unary main_cst_9 main_v60 (broadcastInDim S256 ![] bcast_S_S256 : Cf F S_ → Cf F S256),
    binary main_v53 main_v60 main_v61 (addf : Cf F S256 → Cf F S256 → Cf F S256),
    unary main_v61 main_v62 (Host.sqrt : Cf F S256 → Cf F S256),
    unary main_v62 main_v63 (broadcastInDim S1x256 ![1] bcast_S256_S1x256_1 : Cf F S256 → Cf F S1x256),
    unary main_v63 main_v64 (broadcastInDim S4096x256 ![0, 1] bcast_S1x256_S4096x256_0_1 : Cf F S1x256 → Cf F S4096x256),
    binary main_v59 main_v64 main_v65 (Host.divf : Cf F S4096x256 → Cf F S4096x256 → Cf F S4096x256),
    unary main_arg11 main_v66 (broadcastInDim S1x256 ![1] bcast_S256_S1x256_1 : Cf F S256 → Cf F S1x256),
    unary main_v66 main_v67 (broadcastInDim S4096x256 ![0, 1] bcast_S1x256_S4096x256_0_1 : Cf F S1x256 → Cf F S4096x256),
    binary main_v65 main_v67 main_v68 (addf : Cf F S4096x256 → Cf F S4096x256 → Cf F S4096x256) ]

/-- The structure decoder's layer, the rectifier over the buffers of call 7. -/
abbrev opsL5 : List (HloOp τ sig (Elt F)) :=
  [ binary main_v24 main_arg12 main_v69 ((fun l r => Host.dotGeneral dot_S4096x64_S64x128_S4096x128_1_0_0_1_n_n none l r) : Cf F S4096x64 → Cf F S64x128 → Cf F S4096x128),
    binary main_arg1 main_v69 main_v70 ((fun l r => Host.dotGeneral dot_S4096x4096_S4096x128_S4096x128_1_0_0_1_n_n none l r) : Cf F S4096x4096 → Cf F S4096x128 → Cf F S4096x128),
    TRef.nullary main_call7.cst (constant S_ .f32 0x00000000#32),
    TRef.unary main_call7.cst main_call7.v0 (broadcastInDim S4096x128 ![] bcast_S_S4096x128),
    TRef.binary (.of main_v70 : TRef sig ⟨S4096x128, .f32⟩) main_call7.v0 main_call7.v1 maximumf ]

/-- Its normalisation up to the variance call. -/
abbrev opsM128s : List (HloOp τ sig (Elt F)) :=
  [ nullary main_cst_10 (constant S_ .f32 0x00000000#32),
    binary main_v71 main_cst_10 main_v72 ((fun x v => Host.reduceAdd x v reducesTo_S4096x128_S128_d0 h_S_) : Cf F S4096x128 → Cf F S_ → Cf F S128),
    nullary main_cst_11 (constant S_ .f32 0x45800000#32),
    unary main_cst_11 main_v73 (broadcastInDim S128 ![] bcast_S_S128 : Cf F S_ → Cf F S128),
    binary main_v72 main_v73 main_v74 (Host.divf : Cf F S128 → Cf F S128 → Cf F S128),
    nullary main_c_12 (constantI S_ 32 0#32) ]

/-- The variance of 128 columns over the buffers of call 8. -/
abbrev opsV128s : List (HloOp τ sig (Elt F)) :=
  [ TRef.nullary main_call8.cst (constant S_ .f32 0x00000000#32),
    TRef.binary (.of main_v71 : TRef sig ⟨S4096x128, .f32⟩) main_call8.cst main_call8.v0 (fun x v => Host.reduceAdd x v reducesTo_S4096x128_S128_d0 h_S_),
    TRef.unary main_call8.v0 main_call8.v1 (broadcastInDim S1x128 ![1] bcast_S128_S1x128_1),
    TRef.nullary main_call8.cst_0 (constant S_ .f32 0x45800000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S4096x128 ![0, 1] bcast_S1x128_S4096x128_0_1),
    TRef.binary (.of main_v71 : TRef sig ⟨S4096x128, .f32⟩) main_call8.v4 main_call8.v5 subf,
    TRef.binary main_call8.v5 main_call8.v5 main_call8.v6 mulf,
    TRef.unary (.of main_c_12 : TRef sig ⟨S_, .i32⟩) main_call8.v7 (sitofp .f32),
    TRef.nullary main_call8.cst_1 (constant S_ .f32 0x45800000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S4096x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b) ]

/-- The rest of that normalisation. -/
abbrev opsN128s : List (HloOp τ sig (Elt F)) :=
  [ unary main_v74 main_v76 (broadcastInDim S1x128 ![1] bcast_S128_S1x128_1 : Cf F S128 → Cf F S1x128),
    unary main_v76 main_v77 (broadcastInDim S4096x128 ![0, 1] bcast_S1x128_S4096x128_0_1 : Cf F S1x128 → Cf F S4096x128),
    binary main_v71 main_v77 main_v78 (subf : Cf F S4096x128 → Cf F S4096x128 → Cf F S4096x128),
    unary main_arg13 main_v79 (broadcastInDim S1x128 ![1] bcast_S128_S1x128_1 : Cf F S128 → Cf F S1x128),
    unary main_v79 main_v80 (broadcastInDim S4096x128 ![0, 1] bcast_S1x128_S4096x128_0_1 : Cf F S1x128 → Cf F S4096x128),
    binary main_v80 main_v78 main_v81 (mulf : Cf F S4096x128 → Cf F S4096x128 → Cf F S4096x128),
    nullary main_cst_13 (constant S_ .f32 0x3727C5AC#32),
    unary main_cst_13 main_v82 (broadcastInDim S128 ![] bcast_S_S128 : Cf F S_ → Cf F S128),
    binary main_v75 main_v82 main_v83 (addf : Cf F S128 → Cf F S128 → Cf F S128),
    unary main_v83 main_v84 (Host.sqrt : Cf F S128 → Cf F S128),
    unary main_v84 main_v85 (broadcastInDim S1x128 ![1] bcast_S128_S1x128_1 : Cf F S128 → Cf F S1x128),
    unary main_v85 main_v86 (broadcastInDim S4096x128 ![0, 1] bcast_S1x128_S4096x128_0_1 : Cf F S1x128 → Cf F S4096x128),
    binary main_v81 main_v86 main_v87 (Host.divf : Cf F S4096x128 → Cf F S4096x128 → Cf F S4096x128),
    unary main_arg14 main_v88 (broadcastInDim S1x128 ![1] bcast_S128_S1x128_1 : Cf F S128 → Cf F S1x128),
    unary main_v88 main_v89 (broadcastInDim S4096x128 ![0, 1] bcast_S1x128_S4096x128_0_1 : Cf F S1x128 → Cf F S4096x128),
    binary main_v87 main_v89 main_v90 (addf : Cf F S4096x128 → Cf F S4096x128 → Cf F S4096x128) ]

/-- The transpose and the last product: the second result. -/
abbrev opsT : List (HloOp τ sig (Elt F)) :=
  [ unary main_v90 main_v91 ((transpose S128x4096 [1, 0] · transposes_S4096x128_S128x4096_1_0) : Cf F S4096x128 → Cf F S128x4096),
    binary main_v90 main_v91 main_v92 ((fun l r => Host.dotGeneral dot_S4096x128_S128x4096_S4096x4096_1_0_0_1_n_n none l r) : Cf F S4096x128 → Cf F S128x4096 → Cf F S4096x4096) ]

/-- The first window's operations, and the second's. -/
abbrev opsA : List (HloOp τ sig (Elt F)) :=
  opsL1 ++ opsL2 ++ opsM64 ++ opsV64 ++ opsN64 ++ opsL3 ++ opsM128 ++ opsV128 ++ opsN128 ++ opsL4 ++ opsM256a
abbrev opsB : List (HloOp τ sig (Elt F)) :=
  opsM256b ++ opsV256 ++ opsN256 ++ opsL5 ++ opsM128s ++ opsV128s ++ opsN128s ++ opsT

/-- The program's 203 operations, in order. -/
abbrev ops : List (HloOp τ sig (Elt F)) := opsA ++ opsB

/-! ## The program is that line -/

set_option maxRecDepth 100000 in
set_option maxHeartbeats 4000000 in
/-- The first window is its operations in a line: a call unfolds to its callee's body over the call's buffers, and
    both sides compute to the same chain of steps. -/
theorem main_part0_eq (c : Dev nD) : main_part0 (F := F) c = seq opsA := rfl

set_option maxRecDepth 100000 in
set_option maxHeartbeats 4000000 in
/-- The second window likewise. -/
theorem main_part1_eq (c : Dev nD) : main_part1 (F := F) c = seq opsB := rfl

/-- The entry function runs the two windows in order: the concatenation run as one line. -/
theorem main_eq (c : Dev nD) : main (F := F) c = seq ops := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 100000 in
/-- Every operation touches TensorCore references only. -/
theorem ops_sub : (ops : List (HloOp τ sig (Elt F))).Forall fun op => op.bufs ⊆ tcRefs τ sig := by
  simp only [ops, opsA, opsB, opsL1, opsL2, opsM64, opsV64, opsN64, opsL3, opsM128, opsV128, opsN128, opsL4, opsM256a,
    opsM256b, opsV256, opsN256, opsL5, opsM128s, opsV128s, opsN128s, opsT, List.cons_append, List.nil_append,
    List.Forall, nullary_bufs_sub, unary_bufs_sub, binary_bufs_sub, ternary_bufs_sub, and_self]

/-! ## What the line leaves in the result and argument buffers -/

set_option maxRecDepth 100000 in
set_option maxHeartbeats 16000000 in
/-- The first result buffer ends at the feature decoder's output: each operation's result read at its own buffer is its
    function's value, at any other buffer what was there; the stages then unfold to the same term. -/
theorem res68 (V : Valuation τ sig (Elt F)) :
    after ops V (main_v68 : DevRef τ sig)
      = resF2 (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig)) := by
  simp only [ops, opsA, opsB, opsL1, opsL2, opsM64, opsV64, opsN64, opsL3, opsM128, opsV128, opsN128, opsL4, opsM256a,
    opsM256b, opsV256, opsN256, opsL5, opsM128s, opsV128s, opsN128s, opsT, List.cons_append, List.nil_append]
  after_results_simp
  rfl

set_option maxRecDepth 100000 in
set_option maxHeartbeats 16000000 in
/-- The second result buffer ends at the structure decoder's output. -/
theorem res92 (V : Valuation τ sig (Elt F)) :
    after ops V (main_v92 : DevRef τ sig)
      = resS2 (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg12 : DevRef τ sig)) (V (main_arg13 : DevRef τ sig)) (V (main_arg14 : DevRef τ sig)) := by
  simp only [ops, opsA, opsB, opsL1, opsL2, opsM64, opsV64, opsN64, opsL3, opsM128, opsV128, opsN128, opsL4, opsM256a,
    opsM256b, opsV256, opsN256, opsL5, opsM128s, opsV128s, opsN128s, opsT, List.cons_append, List.nil_append]
  after_results_simp
  rfl

set_option maxRecDepth 100000 in
set_option maxHeartbeats 16000000 in
/-- No operation writes an argument buffer: each ends as it began. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig)
    ∧ after ops V (main_arg13 : DevRef τ sig) = V (main_arg13 : DevRef τ sig)
    ∧ after ops V (main_arg14 : DevRef τ sig) = V (main_arg14 : DevRef τ sig) := by
  simp only [ops, opsA, opsB, opsL1, opsL2, opsM64, opsV64, opsN64, opsL3, opsM128, opsV128, opsN128, opsL4, opsM256a,
    opsM256b, opsV256, opsN256, opsL5, opsM128s, opsV128s, opsN128s, opsT, List.cons_append, List.nil_append]
  refine ⟨?_, ?_, ?_, ?_, ?_, ?_, ?_, ?_, ?_, ?_, ?_, ?_, ?_, ?_, ?_⟩ <;> after_results_simp

/-! ## The run -/

set_option maxRecDepth 100000 in
/-- On every device, for any float values, from any memory with zero counters: every weakly fair execution of the entry
    function terminates with the two results at the stages' composition of the arguments' launch contents and the
    fifteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
        = resF2 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_v92)
        = resS2 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg12)) (m ((c.tc : Thread nD τ).loc main_arg13))
            (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono
    (fun _ h c => by
      obtain ⟨e0, e1, e2, e3, e4, e5, e6, e7, e8, e9, e10, e11, e12, e13, e14⟩ := args_eq (launchContents m c)
      exact ⟨(h c main_v68).trans (res68 (launchContents m c)), (h c main_v92).trans (res92 (launchContents m c)),
        (h c main_arg0).trans e0, (h c main_arg1).trans e1, (h c main_arg2).trans e2, (h c main_arg3).trans e3,
        (h c main_arg4).trans e4, (h c main_arg5).trans e5, (h c main_arg6).trans e6, (h c main_arg7).trans e7,
        (h c main_arg8).trans e8, (h c main_arg9).trans e9, (h c main_arg10).trans e10, (h c main_arg11).trans e11,
        (h c main_arg12).trans e12, (h c main_arg13).trans e13, (h c main_arg14).trans e14⟩)
    (run_seq scopedRefs_eq scopedSems_eq defs main (fun _ => ops) main_eq (fun _ => ops_sub) m ρ)

end Cert.ReferenceIdeal.RefRun

end
-- ==== Proof.GcnMath.lean ====
/-
  The mathematics both programs compute, over the extended reals, as plain functions of matrices indexed by
  literal `Fin` types.

  One graph-convolution layer is `relu (adj · (h · W))`.  Training-mode batch normalisation of a 4096-row matrix
  `h` with scale `g` and shift `b` is written twice:

  * `bnR` — column mean `μ = (Σ h)/4096`, biased column variance `σ² = (Σ (h - μ)²)/4096`, result
    `g · (h - μ) / √(σ² + ε) + b`;
  * `bnK` — from the two column sums `s = Σ h` and `q = Σ h²`: with `μ = s·2⁻¹²` and `σ² = q·2⁻¹² - μ²`, the affine
    map `h · a + c` where `a = g · rsqrt(σ² + ε)` and `c = b - μ · a`.

  The two agree on matrices of real numbers: `Σ (h - μ)² / n = Σ h² / n - μ²`, `x / √y = x · rsqrt y` for `y > 0`,
  and `σ² + ε > 0`.  The `ker…` family is the network with the 64-wide layer zero-padded to 128 columns; the
  padding columns meet zero rows of the next weight matrix, so they do not contribute.
-/
import Idealize.ShloMosaic.PureOps.Ideal
import Idealize.ShloMosaic.Lib.ValueIdx

noncomputable section

namespace Cert.GcnMath

open Idealize.ShloMosaic Finset

/-- An `n × m` matrix of extended reals. -/
abbrev Mat (n m : ℕ) : Type := Fin n → Fin m → EReal
/-- A row of `m` extended reals. -/
abbrev Row (m : ℕ) : Type := Fin m → EReal

/-- Every entry is a real number. -/
def MatReal {n m : ℕ} (A : Mat n m) : Prop := ∀ i j, ∃ r : ℝ, A i j = (r : EReal)
/-- Every entry is a real number. -/
def RowReal {m : ℕ} (v : Row m) : Prop := ∀ j, ∃ r : ℝ, v j = (r : EReal)

/-- A rank-2 array of extended reals read as a matrix, and a rank-1 array as a row. -/
def matOf {n m : ℕ} (v : (⟨2, ![n, m]⟩ : Shape).Idx → EReal) : Mat n m := fun i j => v (ValueIdx.ix2 i j)
def rowOf {m : ℕ} (v : (⟨1, ![m]⟩ : Shape).Idx → EReal) : Row m := fun j => v (ValueIdx.ix1 j)

/-- Two rank-2 arrays with the same matrix are equal. -/
theorem matOf_inj {n m : ℕ} {v w : (⟨2, ![n, m]⟩ : Shape).Idx → EReal} (h : matOf v = matOf w) : v = w := by
  funext j
  rw [ValueIdx.eq_ix2 j]
  exact congrFun (congrFun h (j 0)) (j 1)

/-- The variance's guard `ε`, the single-precision number nearest `1e-5`. -/
def eps : EReal := Ideal.ofBits .f32 0x3727C5AC#32
/-- The number of rows, `4096`. -/
def nRows : EReal := Ideal.ofBits .f32 0x45800000#32
/-- Its reciprocal `2⁻¹²`, exact. -/
def invRows : EReal := Ideal.ofBits .f32 0x39800000#32

/-- The matrix product. -/
def mm {n k m : ℕ} (A : Mat n k) (B : Mat k m) : Mat n m := fun i j => ∑ l, A i l * B l j
/-- The rectifier. -/
def relu (x : EReal) : EReal := max x 0
/-- One graph-convolution layer: `relu (adj · (h · W))`. -/
def gcn {k m : ℕ} (adj : Mat 4096 4096) (h : Mat 4096 k) (W : Mat k m) : Mat 4096 m :=
  fun i j => relu (mm adj (mm h W) i j)

/-- Column sums and column sums of squares. -/
def colSum {m : ℕ} (u : Mat 4096 m) : Row m := fun j => ∑ i, u i j
def colSq {m : ℕ} (u : Mat 4096 m) : Row m := fun j => ∑ i, u i j * u i j

/-! ## Batch normalisation, the reference's way -/

def meanR {m : ℕ} (h : Mat 4096 m) : Row m := fun j => Ideal.div (colSum h j) nRows
def varR {m : ℕ} (h : Mat 4096 m) : Row m :=
  fun j => Ideal.div (∑ i, (h i j - meanR h j) * (h i j - meanR h j)) nRows
def bnR {m : ℕ} (h : Mat 4096 m) (g b : Row m) : Mat 4096 m :=
  fun i j => Ideal.div (g j * (h i j - meanR h j)) (Ideal.sqrt (varR h j + eps)) + b j

/-! ## Batch normalisation folded into a per-column affine map, from the two column sums -/

def affA {m : ℕ} (s q g : Row m) : Row m :=
  fun j => g j * Ideal.rsqrt ((q j * invRows - (s j * invRows) * (s j * invRows)) + eps)
def affC {m : ℕ} (s q g b : Row m) : Row m := fun j => b j - (s j * invRows) * affA s q g j
def bnK {m : ℕ} (u : Mat 4096 m) (g b : Row m) : Mat 4096 m :=
  fun i j => u i j * affA (colSum u) (colSq u) g j + affC (colSum u) (colSq u) g b j

/-! ## Zero padding from 64 to 128 -/

def padCols {k : ℕ} (W : Mat k 64) : Mat k 128 := fun i j => if h : j.val < 64 then W i ⟨j.val, h⟩ else 0
def padRows {m : ℕ} (W : Mat 64 m) : Mat 128 m := fun i j => if h : i.val < 64 then W ⟨i.val, h⟩ j else 0
def padRow (v : Row 64) (d : EReal) : Row 128 := fun j => if h : j.val < 64 then v ⟨j.val, h⟩ else d

/-! ## The network, the reference's way -/

section Net

variable (x : Mat 4096 256) (adj : Mat 4096 4096) (W1 : Mat 256 128) (W2 : Mat 128 64) (g2 b2 : Row 64)
  (Wf1 : Mat 64 128) (gf1 bf1 : Row 128) (Wf2 : Mat 128 256) (gf2 bf2 : Row 256) (Ws1 : Mat 64 128) (gs1 bs1 : Row 128)

def refH1 : Mat 4096 128 := gcn adj x W1
def refZ : Mat 4096 64 := bnR (gcn adj (refH1 x adj W1) W2) g2 b2
def refF1 : Mat 4096 128 := bnR (gcn adj (refZ x adj W1 W2 g2 b2) Wf1) gf1 bf1
def refF2 : Mat 4096 256 := bnR (gcn adj (refF1 x adj W1 W2 g2 b2 Wf1 gf1 bf1) Wf2) gf2 bf2
def refS1 : Mat 4096 128 := bnR (gcn adj (refZ x adj W1 W2 g2 b2) Ws1) gs1 bs1
def refS2 : Mat 4096 4096 :=
  fun i j => ∑ l, refS1 x adj W1 W2 g2 b2 Ws1 gs1 bs1 i l * refS1 x adj W1 W2 g2 b2 Ws1 gs1 bs1 j l

/-! ## The network with the narrow layer padded and the normalisations folded -/

def kerH1 : Mat 4096 128 := gcn adj x W1
def kerU2 : Mat 4096 128 := gcn adj (kerH1 x adj W1) (padCols W2)
def kerZ : Mat 4096 128 := bnK (kerU2 x adj W1 W2) (padRow g2 1) (padRow b2 0)
def kerU3f : Mat 4096 128 := gcn adj (kerZ x adj W1 W2 g2 b2) (padRows Wf1)
def kerU3s : Mat 4096 128 := gcn adj (kerZ x adj W1 W2 g2 b2) (padRows Ws1)
def kerF1 : Mat 4096 128 := bnK (kerU3f x adj W1 W2 g2 b2 Wf1) gf1 bf1
def kerU4 : Mat 4096 256 := gcn adj (kerF1 x adj W1 W2 g2 b2 Wf1 gf1 bf1) Wf2
def kerF2 : Mat 4096 256 := bnK (kerU4 x adj W1 W2 g2 b2 Wf1 gf1 bf1 Wf2) gf2 bf2
def kerS1 : Mat 4096 128 := bnK (kerU3s x adj W1 W2 g2 b2 Ws1) gs1 bs1
def kerS2 : Mat 4096 4096 :=
  fun i j => ∑ l, kerS1 x adj W1 W2 g2 b2 Ws1 gs1 bs1 i l * kerS1 x adj W1 W2 g2 b2 Ws1 gs1 bs1 j l

end Net

end Cert.GcnMath

end
-- ==== Proof.ReadDefs.lean ====
/-
  Views used when the kernel's closed forms are read at the ideal instance: a one-row matrix as a row.
-/
import proofs.«181189_g481036337843_cont_8to1c4_37_6_alg».proof.Proof.StackSpec
import proofs.«181189_g481036337843_cont_8to1c4_37_6_alg».proof.Proof.DecodeSpec
import proofs.«181189_g481036337843_cont_8to1c4_37_6_alg».proof.Proof.GcnMath
import Idealize.ShloMosaic.PureOps.Ideal.Laws

set_option maxRecDepth 16384

noncomputable section

namespace Cert.KernelIdeal.Read

open Idealize.ShloMosaic Idealize.ShloMosaic.ValueIdx Cert.KernelIdeal Cert.KernelIdeal.Gen Cert.GcnMath
open Cert.KernelIdeal.Stack (Arrays rowBlk asm16 lcol rcol hcat vcat2)

/-- A `1 × m` array of extended reals read as a row. -/
def row1Of {m : ℕ} (v : (⟨2, ![1, m]⟩ : Shape).Idx → EReal) : Row m := fun j => v (ix2 0 j)

end Cert.KernelIdeal.Read

end
-- ==== Proof.ReadStage01.lean ====
/-
  The stack's stages 0 and 1 at the ideal instance: the parked adjacency is the adjacency (a change of float format is
  the identity), the first two layers are graph convolutions, and the sixteen block sums add up to the column sums.

  Each stage's value is read entry by entry.  A matrix assembled from sixteen row blocks reads, at row i, block i / 256
  at row i % 256, and 256 · (i / 256) + i % 256 = i.  A matrix product into a zero accumulator is, at an entry, the sum
  over the contracted coordinate of the operands' products; the rectifier is the maximum with zero; a lane sum over a
  block's rows is the sum over its 256 row coordinates.  The running column sums therefore hold, after k blocks, the sum
  over the first 256 · k rows, and sixteen blocks of 256 rows are all 4096 rows.
-/
import proofs.«181189_g481036337843_cont_8to1c4_37_6_alg».proof.Proof.ReadDefs
import Idealize.ShloMosaic.Lib.ValueLayout

set_option maxRecDepth 16384

noncomputable section

namespace Cert.KernelIdeal.Read.Stage01

open Idealize.ShloMosaic Idealize.ShloMosaic.ValueIdx Cert.KernelIdeal Cert.KernelIdeal.Gen Cert.GcnMath
open Cert.KernelIdeal.Stack (Arrays rowBlk asm16 lcol rcol hcat vcat2)

/-! ## Row blocks -/

section Blocks
variable {α : Type} {m : ℕ}

/-- The assembled matrix at row `i` is block `i / 256` at row `i % 256`. -/
theorem asm16_apply (blk : Fin 16 → ((⟨2, ![256, m]⟩ : Shape).Idx → α)) (i : Fin 4096) (j : Fin m) :
    asm16 blk (ix2 i j)
      = blk ⟨i.val / 256, by have := i.isLt; omega⟩ (ix2 ⟨i.val % 256, Nat.mod_lt _ (by norm_num)⟩ j) := rfl

/-- Row `p` of block `b` is row `256 · b + p` of the matrix. -/
theorem rowBlk_apply (A : (⟨2, ![4096, m]⟩ : Shape).Idx → α) (b : Fin 16) (p : Fin 256) (q : Fin m) :
    rowBlk A b (ix2 p q) = A (ix2 ⟨256 * b.val + p.val, by have := b.isLt; have := p.isLt; omega⟩ q) := rfl

/-- A family of blocks read at equal block numbers and equal rows. -/
theorem blk_congr (blk : Fin 16 → ((⟨2, ![256, m]⟩ : Shape).Idx → α)) {b b' : Fin 16} {p p' : Fin 256}
    (hb : b.val = b'.val) (hp : p.val = p'.val) (q : Fin m) : blk b (ix2 p q) = blk b' (ix2 p' q) := by
  obtain rfl := Fin.ext hb
  obtain rfl := Fin.ext hp
  rfl

/-- The assembled matrix at row `256 · b + p` is block `b` at row `p`. -/
theorem asm16_block (blk : Fin 16 → ((⟨2, ![256, m]⟩ : Shape).Idx → α)) (b : Fin 16) (p : Fin 256) (q : Fin m) :
    asm16 blk (ix2 ⟨256 * b.val + p.val, by have := b.isLt; have := p.isLt; omega⟩ q) = blk b (ix2 p q) := by
  rw [asm16_apply]
  refine blk_congr blk ?_ ?_ q
  · show (256 * b.val + p.val) / 256 = b.val
    have := p.isLt; omega
  · show (256 * b.val + p.val) % 256 = p.val
    have := p.isLt; omega

end Blocks

/-- A matrix whose sixteen row blocks are the row blocks of `M` is `M`: `256 · (i / 256) + i % 256 = i`. -/
theorem matOf_asm16 {m : ℕ} (blk : Fin 16 → ((⟨2, ![256, m]⟩ : Shape).Idx → EReal)) (M : Mat 4096 m)
    (h : ∀ (b : Fin 16) (p : Fin 256) (q : Fin m),
      blk b (ix2 p q) = M ⟨256 * b.val + p.val, by have := b.isLt; have := p.isLt; omega⟩ q) :
    matOf (asm16 blk) = M := by
  funext i j
  show asm16 blk (ix2 i j) = M i j
  rw [asm16_apply, h]
  exact congrArg (fun t => M t j) (Fin.ext (Nat.div_add_mod i.val 256))

/-! ## A matrix product into a zero accumulator -/

/-- The dimension numbers of a plain matrix product (rows by contraction times contraction by columns), whatever the
    evidence of their conditions. -/
abbrev mmD (n k m : ℕ) (wf : DotDims.WF ⟨2, ![n, k]⟩ ⟨2, ![k, m]⟩ ⟨2, ![n, m]⟩ [1] [0] [0] [1] [] []) :
    DotDims ⟨2, ![n, k]⟩ ⟨2, ![k, m]⟩ ⟨2, ![n, m]⟩ where
  lhsContracting := [1]
  rhsContracting := [0]
  lhsNonContracting := [0]
  rhsNonContracting := [1]
  lhsBatch := []
  rhsBatch := []
  wf := wf

section MatMul
variable {n k m : ℕ} (wf : DotDims.WF ⟨2, ![n, k]⟩ ⟨2, ![k, m]⟩ ⟨2, ![n, m]⟩ [1] [0] [0] [1] [] [])

/-- The left operand's row is the result's row. -/
theorem lhs_mm_0 (i : (⟨2, ![n, m]⟩ : Shape).Idx) (q : (mmD n k m wf).contr.Idx) :
    ((mmD n k m wf).lhsIdx i q 0).val = (i 0).val := by
  unfold DotDims.lhsIdx
  rw [dif_neg (show ¬(0 : Fin (⟨2, ![n, k]⟩ : Shape).rank) ∈ (mmD n k m wf).lhsBatch from List.not_mem_nil),
    dif_pos (show (0 : Fin (⟨2, ![n, k]⟩ : Shape).rank) ∈ (mmD n k m wf).lhsNonContracting from List.mem_singleton.mpr rfl)]
  rfl

/-- The left operand's column is the contracted coordinate. -/
theorem lhs_mm_1 (i : (⟨2, ![n, m]⟩ : Shape).Idx) (q : (mmD n k m wf).contr.Idx) :
    ((mmD n k m wf).lhsIdx i q 1).val = (q ⟨0, Nat.one_pos⟩).val :=
  (mmD n k m wf).lhsIdx_val_of_single rfl i q

/-- The right operand's row is the contracted coordinate. -/
theorem rhs_mm_0 (i : (⟨2, ![n, m]⟩ : Shape).Idx) (q : (mmD n k m wf).contr.Idx) :
    ((mmD n k m wf).rhsIdx i q 0).val = (q ⟨0, Nat.one_pos⟩).val :=
  (mmD n k m wf).rhsIdx_val_of_single rfl i q

/-- The right operand's column is the result's column. -/
theorem rhs_mm_1 (i : (⟨2, ![n, m]⟩ : Shape).Idx) (q : (mmD n k m wf).contr.Idx) :
    ((mmD n k m wf).rhsIdx i q 1).val = (i 1).val := by
  unfold DotDims.rhsIdx
  rw [dif_neg (show ¬(1 : Fin (⟨2, ![k, m]⟩ : Shape).rank) ∈ (mmD n k m wf).rhsBatch from List.not_mem_nil),
    dif_pos (show (1 : Fin (⟨2, ![k, m]⟩ : Shape).rank) ∈ (mmD n k m wf).rhsNonContracting from List.mem_singleton.mpr rfl)]
  rfl

/-- The kernel's matrix product into the zero accumulator, at entry (i, j): the sum over the contracted coordinate of
    the operands' products, whatever the operands' float formats. -/
theorem matmul0_apply {φ₁ φ₂ : FTy} (x : FVec Ideal ⟨2, ![n, k]⟩ φ₁) (w : FVec Ideal ⟨2, ![k, m]⟩ φ₂) (i : Fin n) (j : Fin m) :
    matmul (mmD n k m wf) none x w (constant (F := Ideal) ⟨2, ![n, m]⟩ .f32 0x00000000#32) (ix2 i j)
      = ∑ l : Fin k, x (ix2 i l) * w (ix2 l j) := by
  simp only [matmul]
  rw [Ideal.matmul_constant_zero_apply, ← Equiv.sum_comp (contrEquiv1 (mmD n k m wf) k rfl rfl).symm]
  refine Finset.sum_congr rfl fun l _ => ?_
  have hl := contrEquiv1_symm_val (mmD n k m wf) k rfl rfl l
  have el : (mmD n k m wf).lhsIdx (ix2 i j) ((contrEquiv1 (mmD n k m wf) k rfl rfl).symm l) = ix2 i l :=
    funext fun a => Fin.ext (by
      match a with
      | ⟨0, _⟩ => exact lhs_mm_0 wf _ _
      | ⟨1, _⟩ => exact (lhs_mm_1 wf _ _).trans hl)
  have er : (mmD n k m wf).rhsIdx (ix2 i j) ((contrEquiv1 (mmD n k m wf) k rfl rfl).symm l) = ix2 l j :=
    funext fun a => Fin.ext (by
      match a with
      | ⟨0, _⟩ => exact (rhs_mm_0 wf _ _).trans hl
      | ⟨1, _⟩ => exact rhs_mm_1 wf _ _)
  rw [el, er]

end MatMul

/-! ## The payloads of stages 0 and 1 at an index -/

/-- Parking a block in half precision leaves every entry as it is. -/
theorem pay18_apply (v41 : FVec Ideal S256x4096 .f32) (y : S256x4096.Idx) :
    (k0_pay18 (F := Ideal) v41 y : EReal) = v41 y := by
  unfold k0_pay18
  rw [shapeCast_self]
  rfl

/-- The first layer's support: features times weights. -/
theorem pay12_apply (v41 : FVec Ideal S4096x256 .f32) (v42 : FVec Ideal S256x128 .f32) (l : Fin 4096) (q : Fin 128) :
    (k0_pay12 (F := Ideal) v41 v42 (ix2 l q) : EReal) = ∑ l' : Fin 256, v41 (ix2 l l') * v42 (ix2 l' q) := by
  unfold k0_pay12
  rw [shapeCast_self, truncf_apply]
  exact matmul0_apply Facts₀.dot_S4096x256_S256x128_S4096x128_1_0_0_1_n_n_wf v41 v42 l q

/-- The second layer's support: activation times weights. -/
theorem pay13_apply (v41 : FVec Ideal S4096x128 .f32) (v42 : FVec Ideal S128x128 .f32) (l : Fin 4096) (q : Fin 128) :
    (k0_pay13 (F := Ideal) v41 v42 (ix2 l q) : EReal) = ∑ l' : Fin 128, v41 (ix2 l l') * v42 (ix2 l' q) := by
  unfold k0_pay13
  rw [shapeCast_self, truncf_apply, shapeCast_self]
  exact matmul0_apply Facts₀.dot_S4096x128_S128x128_S4096x128_1_0_0_1_n_n_wf v41 v42 l q

/-- A block of the first layer: the rectified product of an adjacency block with the support. -/
theorem pay19_apply (v48 : FVec Ideal S256x4096 .bf16) (v49 : FVec Ideal S4096x128 .bf16) (p : Fin 256) (q : Fin 128) :
    (k0_pay19 (F := Ideal) v48 v49 (ix2 p q) : EReal) = max (∑ l : Fin 4096, v48 (ix2 p l) * v49 (ix2 l q)) 0 := by
  unfold k0_pay19
  rw [shapeCast_self, maximumf_apply, broadcast_apply]
  refine congrArg₂ max (matmul0_apply Facts₀.dot_S256x4096_S4096x128_S256x128_1_0_0_1_n_n_wf v48 v49 p q) ?_
  exact Ideal.ofBits_zero_f32

/-- A block of the second layer, likewise. -/
theorem pay20_apply (v42 : FVec Ideal S256x4096 .bf16) (v43 : FVec Ideal S4096x128 .bf16) (p : Fin 256) (q : Fin 128) :
    (k0_pay20 (F := Ideal) v42 v43 (ix2 p q) : EReal) = max (∑ l : Fin 4096, v42 (ix2 p l) * v43 (ix2 l q)) 0 := by
  unfold k0_pay20
  rw [maximumf_apply, broadcast_apply]
  refine congrArg₂ max (matmul0_apply Facts₀.dot_S256x4096_S4096x128_S256x128_1_0_0_1_n_n_wf v42 v43 p q) ?_
  exact Ideal.ofBits_zero_f32

/-- The stored block is that block. -/
theorem pay21_eq (v42 : FVec Ideal S256x4096 .bf16) (v43 : FVec Ideal S4096x128 .bf16) :
    k0_pay21 (F := Ideal) v42 v43 = k0_pay20 v42 v43 := by
  unfold k0_pay21
  rw [shapeCast_self]

/-- A lane sum over the 256 rows of a block, at column `j`: the sum over the row coordinate. -/
theorem laneSum_apply (src : FVec Ideal S256x128 .f32) (j : Fin 128) :
    (multiReduction (F := Ideal) .add [0] S128 src 0x00000000#32 Facts₀.reduces_S256x128_S128 (.inl rfl) rfl (ix1 j) : EReal)
      = ∑ r : Fin 256, src (ix2 r j) := by
  refine (Ideal.multiReduction_add_single src 0x00000000#32 Facts₀.reduces_S256x128_S128 (.inl rfl) rfl (ix1 j)).trans ?_
  refine Finset.sum_congr rfl fun r _ => congrArg src ?_
  funext a
  match a with
  | ⟨0, _⟩ => rfl
  | ⟨1, _⟩ => rfl

/-- The running column sum after one more block: the sum so far plus the block's column sum. -/
theorem pay22_apply (v42 : FVec Ideal S256x4096 .bf16) (v43 : FVec Ideal S4096x128 .bf16) (v51 : FVec Ideal S1x128 .f32)
    (j : Fin 128) :
    (k0_pay22 (F := Ideal) v42 v43 v51 (ix2 (0 : Fin 1) j) : EReal)
      = v51 (ix2 (0 : Fin 1) j) + ∑ r : Fin 256, k0_pay20 (F := Ideal) v42 v43 (ix2 r j) := by
  unfold k0_pay22
  rw [shapeCast_self, addf_apply, shapeCast_a_1a_apply, laneSum_apply]

/-- The running column sum of squares after one more block. -/
theorem pay23_apply (v42 : FVec Ideal S256x4096 .bf16) (v43 : FVec Ideal S4096x128 .bf16) (v58 : FVec Ideal S1x128 .f32)
    (j : Fin 128) :
    (k0_pay23 (F := Ideal) v42 v43 v58 (ix2 (0 : Fin 1) j) : EReal)
      = v58 (ix2 (0 : Fin 1) j)
        + ∑ r : Fin 256, k0_pay20 (F := Ideal) v42 v43 (ix2 r j) * k0_pay20 (F := Ideal) v42 v43 (ix2 r j) := by
  unfold k0_pay23
  rw [shapeCast_self, addf_apply, shapeCast_a_1a_apply, laneSum_apply]
  rfl

/-- The running sums start from zero. -/
theorem pay16_apply (y : S1x256.Idx) : (k0_pay16 (F := Ideal) y : EReal) = 0 := by
  unfold k0_pay16
  rw [shapeCast_self, broadcast_apply]
  exact Ideal.ofBits_zero_f32

theorem pay17_apply (y : S1x256.Idx) : (k0_pay17 (F := Ideal) y : EReal) = 0 := by
  unfold k0_pay17
  rw [shapeCast_self, broadcast_apply]
  exact Ideal.ofBits_zero_f32

/-! ## The stages' values at an index -/

section Stages
variable (A : Arrays Ideal)

/-- Row `p` of the parked block `b` is row `256 · b + p` of the adjacency. -/
theorem adjB_apply (b : Fin 16) (p : Fin 256) (l : Fin 4096) :
    (Stack.adjB A b (ix2 p l) : EReal)
      = A.adj (ix2 ⟨256 * b.val + p.val, by have := b.isLt; have := p.isLt; omega⟩ l) := by
  unfold Stack.adjB
  rw [pay18_apply]
  rfl

theorem S0_apply (l : Fin 4096) (q : Fin 128) :
    (Stack.S0 A (ix2 l q) : EReal) = ∑ l' : Fin 256, A.x (ix2 l l') * A.w1 (ix2 l' q) := by
  unfold Stack.S0
  exact pay12_apply _ _ l q

theorem S1_apply (l : Fin 4096) (q : Fin 128) :
    (Stack.S1 A (ix2 l q) : EReal) = ∑ l' : Fin 128, Stack.H1 A (ix2 l l') * A.w2 (ix2 l' q) := by
  unfold Stack.S1
  exact pay13_apply _ _ l q

theorem u2B_eq (b : Fin 16) : Stack.u2B A b = k0_pay20 (Stack.adjB A b) (Stack.S1 A) := by
  unfold Stack.u2B
  exact pay21_eq _ _

/-- Row `256 · b + r` of the second layer's activation, read in its block. -/
theorem U2_block (b : Fin 16) (r : Fin 256) (j : Fin 128) :
    matOf (Stack.U2 A) ⟨256 * b.val + r.val, by have := b.isLt; have := r.isLt; omega⟩ j
      = k0_pay20 (F := Ideal) (Stack.adjB A b) (Stack.S1 A) (ix2 r j) := by
  show Stack.U2 A (ix2 ⟨256 * b.val + r.val, _⟩ j) = _
  unfold Stack.U2
  rw [asm16_block, u2B_eq]

end Stages

/-! ## Sixteen blocks of 256 rows are the 4096 rows -/

theorem sum_4096 (f : Fin 4096 → EReal) :
    ∑ i : Fin 4096, f i
      = ∑ b : Fin 16, ∑ r : Fin 256, f ⟨256 * b.val + r.val, by have := b.isLt; have := r.isLt; omega⟩ := by
  rw [← Fintype.sum_prod_type']
  refine (Fintype.sum_equiv (finProdFinEquiv (m := 16) (n := 256)) _ _ fun x => ?_).symm
  refine congrArg f (Fin.ext ?_)
  show 256 * x.1.val + x.2.val = x.2.val + 256 * x.1.val
  omega

/-! ## The running sums after `k` blocks -/

section Sums
variable (A : Arrays Ideal)

/-- After `k` blocks the running sum holds the column sums over the first `256 · k` rows. -/
theorem acc1s_apply (k : ℕ) (hk : k ≤ 16) (j : Fin 128) :
    row1Of (Stack.acc1s A k) j
      = ∑ b : Fin k, ∑ r : Fin 256,
          matOf (Stack.U2 A) ⟨256 * b.val + r.val, by have := b.isLt; have := r.isLt; omega⟩ j := by
  induction k with
  | zero =>
    rw [Fin.sum_univ_zero]
    show Stack.acc1s A 0 (ix2 0 j) = 0
    unfold Stack.acc1s
    exact pay16_apply _
  | succ k ih =>
    have hk' : k < 16 := hk
    have e1 : row1Of (Stack.acc1s A (k + 1)) j
        = row1Of (Stack.acc1s A k) j
          + ∑ r : Fin 256, matOf (Stack.U2 A) ⟨256 * k + r.val, by have := r.isLt; omega⟩ j := by
      show Stack.acc1s A (k + 1) (ix2 0 j) = Stack.acc1s A k (ix2 0 j) + _
      rw [Stack.acc1s, pay22_apply]
      refine congrArg (Stack.acc1s A k (ix2 0 j) + ·) (Finset.sum_congr rfl fun r _ => ?_)
      have hb : (⟨k % 16, Nat.mod_lt _ (by norm_num)⟩ : Fin 16) = ⟨k, hk'⟩ := Fin.ext (Nat.mod_eq_of_lt hk')
      rw [hb]
      exact (U2_block A ⟨k, hk'⟩ r j).symm
    rw [e1, ih (by omega)]
    conv_rhs => rw [Fin.sum_univ_castSucc]
    rfl

/-- Likewise the running sum of squares. -/
theorem acc1q_apply (k : ℕ) (hk : k ≤ 16) (j : Fin 128) :
    row1Of (Stack.acc1q A k) j
      = ∑ b : Fin k, ∑ r : Fin 256,
          matOf (Stack.U2 A) ⟨256 * b.val + r.val, by have := b.isLt; have := r.isLt; omega⟩ j
            * matOf (Stack.U2 A) ⟨256 * b.val + r.val, by have := b.isLt; have := r.isLt; omega⟩ j := by
  induction k with
  | zero =>
    rw [Fin.sum_univ_zero]
    show Stack.acc1q A 0 (ix2 0 j) = 0
    unfold Stack.acc1q
    exact pay17_apply _
  | succ k ih =>
    have hk' : k < 16 := hk
    have e1 : row1Of (Stack.acc1q A (k + 1)) j
        = row1Of (Stack.acc1q A k) j
          + ∑ r : Fin 256, matOf (Stack.U2 A) ⟨256 * k + r.val, by have := r.isLt; omega⟩ j
              * matOf (Stack.U2 A) ⟨256 * k + r.val, by have := r.isLt; omega⟩ j := by
      show Stack.acc1q A (k + 1) (ix2 0 j) = Stack.acc1q A k (ix2 0 j) + _
      rw [Stack.acc1q, pay23_apply]
      refine congrArg (Stack.acc1q A k (ix2 0 j) + ·) (Finset.sum_congr rfl fun r _ => ?_)
      have hb : (⟨k % 16, Nat.mod_lt _ (by norm_num)⟩ : Fin 16) = ⟨k, hk'⟩ := Fin.ext (Nat.mod_eq_of_lt hk')
      rw [hb, ← U2_block A ⟨k, hk'⟩ r j]
    rw [e1, ih (by omega)]
    conv_rhs => rw [Fin.sum_univ_castSucc]
    rfl

end Sums

end Cert.KernelIdeal.Read.Stage01

namespace Cert.KernelIdeal.Read

open Idealize.ShloMosaic Idealize.ShloMosaic.ValueIdx Cert.KernelIdeal Cert.KernelIdeal.Gen Cert.GcnMath
open Cert.KernelIdeal.Stack (Arrays rowBlk asm16 lcol rcol hcat vcat2)

variable (A : Arrays Ideal)

theorem read_ADJ : matOf (Stack.ADJ A) = matOf A.adj := by
  unfold Stack.ADJ
  exact Stage01.matOf_asm16 (Stack.adjB A) (matOf A.adj) fun b p q => Stage01.adjB_apply A b p q

theorem read_H1 : matOf (Stack.H1 A) = gcn (matOf A.adj) (matOf A.x) (matOf A.w1) := by
  unfold Stack.H1
  refine Stage01.matOf_asm16 (Stack.h1B A) _ fun b p q => ?_
  unfold Stack.h1B
  rw [Stage01.pay19_apply]
  refine congrArg (max · 0) (Finset.sum_congr rfl fun l _ => ?_)
  rw [Stage01.adjB_apply, Stage01.S0_apply]
  rfl

theorem read_U2 : matOf (Stack.U2 A) = gcn (matOf A.adj) (matOf (Stack.H1 A)) (matOf A.w2) := by
  unfold Stack.U2
  refine Stage01.matOf_asm16 (Stack.u2B A) _ fun b p q => ?_
  rw [Stage01.u2B_eq, Stage01.pay20_apply]
  refine congrArg (max · 0) (Finset.sum_congr rfl fun l _ => ?_)
  rw [Stage01.adjB_apply, Stage01.S1_apply]
  rfl

theorem read_acc1s : row1Of (Stack.acc1s A 16) = colSum (matOf (Stack.U2 A)) := by
  funext j
  rw [Stage01.acc1s_apply A 16 le_rfl j]
  exact (Stage01.sum_4096 fun i => matOf (Stack.U2 A) i j).symm

theorem read_acc1q : row1Of (Stack.acc1q A 16) = colSq (matOf (Stack.U2 A)) := by
  funext j
  rw [Stage01.acc1q_apply A 16 le_rfl j]
  exact (Stage01.sum_4096 fun i => matOf (Stack.U2 A) i j * matOf (Stack.U2 A) i j).symm

end Cert.KernelIdeal.Read

end
-- ==== Proof.ReadStage2.lean ====
/-
  The stack's stage 2 at the ideal instance: both decoders' first layers are graph convolutions of the normalised
  second-layer activation, side by side; the running sums are the column sums, half by half.

  The support of the stage is the second layer's activation, normalised column by column from the two running sums
  (mean s·2⁻¹², variance q·2⁻¹² − mean², scale g·rsqrt(variance + ε), shift b − mean·scale) and multiplied by each
  decoder's weights; the two products sit side by side in one 256-column matrix.  Row block b of the stage's
  activation is the rectified product of rows 256·b … 256·b+255 of the adjacency with that support, so its left
  half is one decoder's graph convolution and its right half the other's.  Each running sum adds, block after block,
  the block's column sums (of the entries, or of their squares); after sixteen blocks of 256 rows every one of the
  4096 rows has been added once.
-/
import proofs.«181189_g481036337843_cont_8to1c4_37_6_alg».proof.Proof.ReadStage01

set_option maxRecDepth 16384

noncomputable section

namespace Cert.KernelIdeal.Read.Stage2

open Idealize.ShloMosaic Idealize.ShloMosaic.ValueIdx Cert.KernelIdeal Cert.KernelIdeal.Gen Cert.GcnMath
open Cert.KernelIdeal.Stack (Arrays rowBlk asm16 lcol rcol hcat vcat2)

/-! ## The normalised activation and the two supports, entry by entry -/

/-- The folded batch normalisation at entry (k, l): the activation times the column's scale plus the column's shift,
    scale and shift computed from the two running sums. -/
theorem pay8_apply (s q g b : FVec Ideal S1x128 .f32) (u : FVec Ideal S4096x128 .f32) (k : Fin 4096) (l : Fin 128) :
    k0_pay8 (F := Ideal) s q g b u (ix2 k l)
      = u (ix2 k l) * (g (ix2 0 l) * Ideal.rsqrt ((q (ix2 0 l) * invRows - (s (ix2 0 l) * invRows) * (s (ix2 0 l) * invRows)) + eps))
        + (b (ix2 0 l) - (s (ix2 0 l) * invRows)
            * (g (ix2 0 l) * Ideal.rsqrt ((q (ix2 0 l) * invRows - (s (ix2 0 l) * invRows) * (s (ix2 0 l) * invRows)) + eps))) := by
  unfold k0_pay8
  simp only [shapeCast_self]
  rw [addf_apply, mulf_apply, broadcastTo_1b_ab_apply, broadcastTo_1b_ab_apply]
  rfl

/-- The first decoder's support at entry (k, c): the normalised activation's row k times the weights' column c. -/
theorem pay9_apply (s q g b : FVec Ideal S1x128 .f32) (u : FVec Ideal S4096x128 .f32) (w : FVec Ideal S128x128 .f32)
    (k : Fin 4096) (c : Fin 128) :
    (k0_pay9 (F := Ideal) s q g b u w (ix2 k c) : EReal) = ∑ l : Fin 128, k0_pay8 (F := Ideal) s q g b u (ix2 k l) * w (ix2 l c) := by
  unfold k0_pay9
  simp only [shapeCast_self]
  rw [truncf_apply]
  exact Stage01.matmul0_apply Facts₀.dot_S4096x128_S128x128_S4096x128_1_0_0_1_n_n_wf (k0_pay8 (F := Ideal) s q g b u) w k c

/-- The second decoder's support likewise. -/
theorem pay10_apply (s q g b : FVec Ideal S1x128 .f32) (u : FVec Ideal S4096x128 .f32) (w : FVec Ideal S128x128 .f32)
    (k : Fin 4096) (c : Fin 128) :
    (k0_pay10 (F := Ideal) s q g b u w (ix2 k c) : EReal) = ∑ l : Fin 128, k0_pay8 (F := Ideal) s q g b u (ix2 k l) * w (ix2 l c) := by
  unfold k0_pay10
  simp only [shapeCast_self]
  rw [truncf_apply]
  exact Stage01.matmul0_apply Facts₀.dot_S4096x128_S128x128_S4096x128_1_0_0_1_n_n_wf (k0_pay8 (F := Ideal) s q g b u) w k c

/-- A block of the stage's activation: the rectified product of an adjacency block with the support. -/
theorem pay1_apply (a : FVec Ideal S256x4096 .bf16) (s : FVec Ideal S4096x256 .bf16) (p : Fin 256) (c : Fin 256) :
    (k0_pay1 (F := Ideal) a s (ix2 p c) : EReal) = max (∑ k : Fin 4096, a (ix2 p k) * s (ix2 k c)) 0 := by
  unfold k0_pay1
  rw [maximumf_apply, broadcast_apply]
  refine congrArg₂ max (Stage01.matmul0_apply Facts₀.dot_S256x4096_S4096x256_S256x256_1_0_0_1_n_n_wf a s p c) ?_
  exact Ideal.ofBits_zero_f32

/-- The stored block is that block. -/
theorem pay2_eq (a : FVec Ideal S256x4096 .bf16) (s : FVec Ideal S4096x256 .bf16) : k0_pay2 (F := Ideal) a s = k0_pay1 (F := Ideal) a s := by
  unfold k0_pay2
  rw [shapeCast_self]

/-- A lane sum over the 256 rows of a 256-column block, at column c: the sum over the row coordinate. -/
theorem laneSum_apply (src : FVec Ideal S256x256 .f32) (c : Fin 256) :
    (multiReduction (F := Ideal) .add [0] S256 src 0x00000000#32 reduces_S256x256_S256 (.inl rfl) rfl (ix1 c) : EReal)
      = ∑ r : Fin 256, src (ix2 r c) := by
  refine (Ideal.multiReduction_add_single src 0x00000000#32 reduces_S256x256_S256 (.inl rfl) rfl (ix1 c)).trans ?_
  refine Finset.sum_congr rfl fun r _ => congrArg src ?_
  funext a
  match a with
  | ⟨0, _⟩ => rfl
  | ⟨1, _⟩ => rfl

/-- The running column sum after one more block: the sum so far plus the block's column sum. -/
theorem pay3_apply (a : FVec Ideal S256x4096 .bf16) (s : FVec Ideal S4096x256 .bf16) (acc : FVec Ideal S1x256 .f32)
    (c : Fin 256) :
    (k0_pay3 (F := Ideal) a s acc (ix2 (0 : Fin 1) c) : EReal) = acc (ix2 (0 : Fin 1) c) + ∑ r : Fin 256, k0_pay1 (F := Ideal) a s (ix2 r c) := by
  unfold k0_pay3
  rw [shapeCast_self, addf_apply, shapeCast_a_1a_apply, laneSum_apply]

/-- The running column sum of squares after one more block. -/
theorem pay4_apply (a : FVec Ideal S256x4096 .bf16) (s : FVec Ideal S4096x256 .bf16) (acc : FVec Ideal S1x256 .f32)
    (c : Fin 256) :
    (k0_pay4 (F := Ideal) a s acc (ix2 (0 : Fin 1) c) : EReal)
      = acc (ix2 (0 : Fin 1) c) + ∑ r : Fin 256, k0_pay1 (F := Ideal) a s (ix2 r c) * k0_pay1 (F := Ideal) a s (ix2 r c) := by
  unfold k0_pay4
  rw [shapeCast_self, addf_apply, shapeCast_a_1a_apply, laneSum_apply]
  rfl

/-! ## The stage's values at an index -/

section Stages
variable (A : Arrays Ideal)

/-- With the running sums of stage 1 equal to the column sums, the normalised activation is the folded batch
    normalisation of the second layer's activation. -/
theorem zn_apply (hs : row1Of (Stack.acc1s A 16) = colSum (matOf (Stack.U2 A)))
    (hq : row1Of (Stack.acc1q A 16) = colSq (matOf (Stack.U2 A))) (k : Fin 4096) (l : Fin 128) :
    (k0_pay8 (F := Ideal) (Stack.acc1s A 16) (Stack.acc1q A 16) A.g2 A.b2 (Stack.U2 A) (ix2 k l) : EReal)
      = bnK (matOf (Stack.U2 A)) (row1Of A.g2) (row1Of A.b2) k l := by
  rw [pay8_apply]
  unfold bnK affC affA
  rw [← hs, ← hq]
  rfl

theorem S2a_apply (hs : row1Of (Stack.acc1s A 16) = colSum (matOf (Stack.U2 A)))
    (hq : row1Of (Stack.acc1q A 16) = colSq (matOf (Stack.U2 A))) (k : Fin 4096) (c : Fin 128) :
    (Stack.S2a A (ix2 k c) : EReal)
      = mm (bnK (matOf (Stack.U2 A)) (row1Of A.g2) (row1Of A.b2)) (matOf A.wf1) k c := by
  unfold Stack.S2a
  rw [pay9_apply]
  exact Finset.sum_congr rfl fun l _ => by rw [zn_apply A hs hq]; rfl

theorem S2b_apply (hs : row1Of (Stack.acc1s A 16) = colSum (matOf (Stack.U2 A)))
    (hq : row1Of (Stack.acc1q A 16) = colSq (matOf (Stack.U2 A))) (k : Fin 4096) (c : Fin 128) :
    (Stack.S2b A (ix2 k c) : EReal)
      = mm (bnK (matOf (Stack.U2 A)) (row1Of A.g2) (row1Of A.b2)) (matOf A.ws1) k c := by
  unfold Stack.S2b k0_pay14
  rw [shapeCast_self, pay10_apply]
  exact Finset.sum_congr rfl fun l _ => by rw [zn_apply A hs hq]; rfl

/-- The left half of the support is the first decoder's, the right half the second's. -/
theorem S2_left (k : Fin 4096) (c : Fin 128) :
    Stack.S2 A (ix2 k ⟨c.val, by have := c.isLt; omega⟩) = Stack.S2a A (ix2 k c) := by
  unfold Stack.S2 hcat
  exact dif_pos c.isLt

theorem S2_right (k : Fin 4096) (c : Fin 128) :
    Stack.S2 A (ix2 k ⟨128 + c.val, by have := c.isLt; omega⟩) = Stack.S2b A (ix2 k c) := by
  unfold Stack.S2 hcat
  refine (dif_neg (show ¬(128 + c.val < 128) by omega)).trans ?_
  exact congrArg (fun t => Stack.S2b A (ix2 k t)) (Fin.ext (show 128 + c.val - 128 = c.val by omega))

theorem u3B_eq (b : Fin 16) : Stack.u3B A b = k0_pay1 (F := Ideal) (Stack.adjB A b) (Stack.S2 A) := by
  unfold Stack.u3B
  exact pay2_eq _ _

/-- The stage's activation at entry (i, c): the rectified product of the adjacency's row i with the support's
    column c. -/
theorem U3_apply (i : Fin 4096) (c : Fin 256) :
    (Stack.U3 A (ix2 i c) : EReal) = max (∑ k : Fin 4096, matOf (Stack.ADJ A) i k * Stack.S2 A (ix2 k c)) 0 := by
  unfold Stack.U3
  rw [Stage01.asm16_apply, u3B_eq, pay1_apply]
  rfl

/-- Row 256·b + r of the stage's activation, read in its block. -/
theorem U3_block (b : Fin 16) (r : Fin 256) (c : Fin 256) :
    Stack.U3 A (ix2 ⟨256 * b.val + r.val, by have := b.isLt; have := r.isLt; omega⟩ c)
      = k0_pay1 (F := Ideal) (Stack.adjB A b) (Stack.S2 A) (ix2 r c) := by
  unfold Stack.U3
  rw [Stage01.asm16_block, u3B_eq]

/-- After n blocks the running sum holds the column sums of the blocks added so far. -/
theorem acc2s_apply (n : ℕ) (c : Fin 256) :
    (Stack.acc2s A n (ix2 (0 : Fin 1) c) : EReal)
      = ∑ b ∈ Finset.range n, ∑ r : Fin 256,
          k0_pay1 (F := Ideal) (Stack.adjB A ⟨b % 16, Nat.mod_lt _ (by norm_num)⟩) (Stack.S2 A) (ix2 r c) := by
  induction n with
  | zero =>
    rw [Finset.sum_range_zero]
    unfold Stack.acc2s
    exact Stage01.pay16_apply _
  | succ k ih =>
    rw [Finset.sum_range_succ, ← ih, Stack.acc2s, pay3_apply]

/-- Likewise the running sum of squares. -/
theorem acc2q_apply (n : ℕ) (c : Fin 256) :
    (Stack.acc2q A n (ix2 (0 : Fin 1) c) : EReal)
      = ∑ b ∈ Finset.range n, ∑ r : Fin 256,
          k0_pay1 (F := Ideal) (Stack.adjB A ⟨b % 16, Nat.mod_lt _ (by norm_num)⟩) (Stack.S2 A) (ix2 r c)
            * k0_pay1 (F := Ideal) (Stack.adjB A ⟨b % 16, Nat.mod_lt _ (by norm_num)⟩) (Stack.S2 A) (ix2 r c) := by
  induction n with
  | zero =>
    rw [Finset.sum_range_zero]
    unfold Stack.acc2q
    exact Stage01.pay17_apply _
  | succ k ih =>
    rw [Finset.sum_range_succ, ← ih, Stack.acc2q, pay4_apply]

/-- A sum over the first sixteen naturals of a function of the block number modulo sixteen is the sum over the
    sixteen blocks. -/
theorem sum_range16 (f : Fin 16 → EReal) :
    ∑ b ∈ Finset.range 16, f ⟨b % 16, Nat.mod_lt _ (by norm_num)⟩ = ∑ b : Fin 16, f b := by
  rw [Finset.sum_range]
  exact Finset.sum_congr rfl fun b _ => congrArg f (Fin.ext (Nat.mod_eq_of_lt b.isLt))

/-- After all sixteen blocks the running sum is the column sum over the 4096 rows. -/
theorem acc2s_16 (c : Fin 256) :
    (Stack.acc2s A 16 (ix2 (0 : Fin 1) c) : EReal) = ∑ i : Fin 4096, Stack.U3 A (ix2 i c) := by
  rw [acc2s_apply, Stage01.sum_4096 fun i => Stack.U3 A (ix2 i c),
    sum_range16 fun b => ∑ r : Fin 256, k0_pay1 (F := Ideal) (Stack.adjB A b) (Stack.S2 A) (ix2 r c)]
  exact Finset.sum_congr rfl fun b _ => Finset.sum_congr rfl fun r _ => (U3_block A b r c).symm

theorem acc2q_16 (c : Fin 256) :
    (Stack.acc2q A 16 (ix2 (0 : Fin 1) c) : EReal) = ∑ i : Fin 4096, Stack.U3 A (ix2 i c) * Stack.U3 A (ix2 i c) := by
  rw [acc2q_apply, Stage01.sum_4096 fun i => Stack.U3 A (ix2 i c) * Stack.U3 A (ix2 i c),
    sum_range16 fun b => ∑ r : Fin 256, k0_pay1 (F := Ideal) (Stack.adjB A b) (Stack.S2 A) (ix2 r c)
      * k0_pay1 (F := Ideal) (Stack.adjB A b) (Stack.S2 A) (ix2 r c)]
  exact Finset.sum_congr rfl fun b _ => Finset.sum_congr rfl fun r _ => by rw [U3_block A b r c]

end Stages

end Cert.KernelIdeal.Read.Stage2

namespace Cert.KernelIdeal.Read

open Idealize.ShloMosaic Idealize.ShloMosaic.ValueIdx Cert.KernelIdeal Cert.KernelIdeal.Gen Cert.GcnMath
open Cert.KernelIdeal.Stack (Arrays rowBlk asm16 lcol rcol hcat vcat2)

variable (A : Arrays Ideal)

theorem read_U3l (hADJ : matOf (Stack.ADJ A) = matOf A.adj)
    (hs : row1Of (Stack.acc1s A 16) = colSum (matOf (Stack.U2 A))) (hq : row1Of (Stack.acc1q A 16) = colSq (matOf (Stack.U2 A))) :
    matOf (lcol (Stack.U3 A)) = gcn (matOf A.adj) (bnK (matOf (Stack.U2 A)) (row1Of A.g2) (row1Of A.b2)) (matOf A.wf1) := by
  funext i c
  show Stack.U3 A (ix2 i ⟨c.val, _⟩) = _
  rw [Stage2.U3_apply, hADJ]
  refine congrArg (max · 0) (Finset.sum_congr rfl fun k _ => ?_)
  rw [Stage2.S2_left, Stage2.S2a_apply A hs hq]

theorem read_U3r (hADJ : matOf (Stack.ADJ A) = matOf A.adj)
    (hs : row1Of (Stack.acc1s A 16) = colSum (matOf (Stack.U2 A))) (hq : row1Of (Stack.acc1q A 16) = colSq (matOf (Stack.U2 A))) :
    matOf (rcol (Stack.U3 A)) = gcn (matOf A.adj) (bnK (matOf (Stack.U2 A)) (row1Of A.g2) (row1Of A.b2)) (matOf A.ws1) := by
  funext i c
  show Stack.U3 A (ix2 i ⟨128 + c.val, _⟩) = _
  rw [Stage2.U3_apply, hADJ]
  refine congrArg (max · 0) (Finset.sum_congr rfl fun k _ => ?_)
  rw [Stage2.S2_right, Stage2.S2b_apply A hs hq]

theorem read_acc2s_l : row1Of (lcol (Stack.acc2s A 16)) = colSum (matOf (lcol (Stack.U3 A))) := by
  funext c
  exact Stage2.acc2s_16 A ⟨c.val, by have := c.isLt; omega⟩
theorem read_acc2s_r : row1Of (rcol (Stack.acc2s A 16)) = colSum (matOf (rcol (Stack.U3 A))) := by
  funext c
  exact Stage2.acc2s_16 A ⟨128 + c.val, by have := c.isLt; omega⟩
theorem read_acc2q_l : row1Of (lcol (Stack.acc2q A 16)) = colSq (matOf (lcol (Stack.U3 A))) := by
  funext c
  exact Stage2.acc2q_16 A ⟨c.val, by have := c.isLt; omega⟩
theorem read_acc2q_r : row1Of (rcol (Stack.acc2q A 16)) = colSq (matOf (rcol (Stack.U3 A))) := by
  funext c
  exact Stage2.acc2q_16 A ⟨128 + c.val, by have := c.isLt; omega⟩

end Cert.KernelIdeal.Read

end
-- ==== Proof.ReadStage3.lean ====
/-
  The stack's stage 3 at the ideal instance: the feature decoder's second layer is a graph convolution of its normalised
  first layer; the running sums are the column sums; the two statistics arrays are the rows they were stored from.

  The support of this stage is the normalised first layer times the second layer's weights.  The normalisation is the
  affine map per column built from the two column sums: with mean = s · 2⁻¹² and variance = q · 2⁻¹² − mean², the scale
  is g · rsqrt (variance + ε) and the shift is b − mean · scale, both broadcast over the 4096 rows.  Every operation is
  read at an entry in the order the kernel performs it, which is the order the plain-matrix definitions are written in.
  A block of the layer is the rectified product of a block of adjacency rows with the support; sixteen blocks of 256
  rows are the 4096 rows; a lane sum over a block's rows is the sum over its 256 row coordinates, so after sixteen
  blocks the running rows hold the column sums and the column sums of squares.
-/
import proofs.«181189_g481036337843_cont_8to1c4_37_6_alg».proof.Proof.ReadStage01

set_option maxRecDepth 16384

noncomputable section

namespace Cert.KernelIdeal.Read.Stage3

open Idealize.ShloMosaic Idealize.ShloMosaic.ValueIdx Cert.KernelIdeal Cert.KernelIdeal.Gen Cert.GcnMath
open Cert.KernelIdeal.Stack (Arrays rowBlk asm16 lcol rcol hcat vcat2)
open Cert.KernelIdeal.Read.Stage01 (matmul0_apply asm16_block matOf_asm16 sum_4096 pay16_apply pay17_apply adjB_apply)

/-! ## The payloads of stage 3 at an index -/

/-- A reciprocal square root at an index is the reciprocal square root of the element. -/
theorem rsqrt_apply {s : Shape} {φ : FTy} (a : FVec Ideal s φ) (i : s.Idx) : (rsqrt a i : EReal) = Ideal.rsqrt (a i) := rfl

/-- A block of the layer: the rectified product of an adjacency block with the support. -/
theorem pay5_apply (v42 : FVec Ideal S256x4096 .bf16) (v43 : FVec Ideal S4096x256 .bf16) (p : Fin 256) (q : Fin 256) :
    (k0_pay5 (F := Ideal) v42 v43 (ix2 p q) : EReal) = max (∑ l : Fin 4096, v42 (ix2 p l) * v43 (ix2 l q)) 0 := by
  unfold k0_pay5
  rw [maximumf_apply, broadcast_apply]
  refine congrArg₂ max (matmul0_apply Facts₀.dot_S256x4096_S4096x256_S256x256_1_0_0_1_n_n_wf v42 v43 p q) ?_
  exact Ideal.ofBits_zero_f32

/-- The support: the first layer, normalised by the affine map per column that its two column sums s and q, the
    scale row g and the shift row b give, times the weights. -/
theorem pay11_apply (s q g b : FVec Ideal S1x128 .f32) (u : FVec Ideal S4096x128 .f32) (w : FVec Ideal S128x256 .f32)
    (k : Fin 4096) (c : Fin 256) :
    (k0_pay11 (F := Ideal) s q g b u w (ix2 k c) : EReal)
      = ∑ l : Fin 128, ((u (ix2 k l) : EReal) * affA (row1Of s) (row1Of q) (row1Of g) l
          + affC (row1Of s) (row1Of q) (row1Of g) (row1Of b) l) * (w (ix2 l c) : EReal) := by
  unfold k0_pay11
  rw [truncf_apply, shapeCast_self, shapeCast_self]
  refine (matmul0_apply Facts₀.dot_S4096x128_S128x256_S4096x256_1_0_0_1_n_n_wf _ w k c).trans ?_
  refine Finset.sum_congr rfl fun l _ => ?_
  rw [addf_apply, mulf_apply, broadcastTo_1b_ab_apply, broadcastTo_1b_ab_apply]
  rfl

/-- The stored support is that support. -/
theorem pay15_eq (v70 : FVec Ideal S4096x256 .bf16) : k0_pay15 (F := Ideal) v70 = v70 := by
  unfold k0_pay15
  rw [shapeCast_self]

/-- A lane sum over the 256 rows of a block, at column j: the sum over the row coordinate. -/
theorem laneSum_apply (src : FVec Ideal S256x256 .f32) (j : Fin 256) :
    (multiReduction (F := Ideal) .add [0] S256 src 0x00000000#32 Facts₀.reduces_S256x256_S256 (.inl rfl) rfl (ix1 j) : EReal)
      = ∑ r : Fin 256, src (ix2 r j) := by
  refine (Ideal.multiReduction_add_single src 0x00000000#32 Facts₀.reduces_S256x256_S256 (.inl rfl) rfl (ix1 j)).trans ?_
  refine Finset.sum_congr rfl fun r _ => congrArg src ?_
  funext a
  match a with
  | ⟨0, _⟩ => rfl
  | ⟨1, _⟩ => rfl

/-- The running column sum after one more block: the sum so far plus the block's column sum. -/
theorem pay6_apply (v42 : FVec Ideal S256x4096 .bf16) (v43 : FVec Ideal S4096x256 .bf16) (v51 : FVec Ideal S1x256 .f32)
    (j : Fin 256) :
    (k0_pay6 (F := Ideal) v42 v43 v51 (ix2 (0 : Fin 1) j) : EReal)
      = v51 (ix2 (0 : Fin 1) j) + ∑ r : Fin 256, k0_pay5 (F := Ideal) v42 v43 (ix2 r j) := by
  unfold k0_pay6
  rw [shapeCast_self, addf_apply, shapeCast_a_1a_apply, laneSum_apply]

/-- The running column sum of squares after one more block. -/
theorem pay7_apply (v42 : FVec Ideal S256x4096 .bf16) (v43 : FVec Ideal S4096x256 .bf16) (v58 : FVec Ideal S1x256 .f32)
    (j : Fin 256) :
    (k0_pay7 (F := Ideal) v42 v43 v58 (ix2 (0 : Fin 1) j) : EReal)
      = v58 (ix2 (0 : Fin 1) j)
        + ∑ r : Fin 256, k0_pay5 (F := Ideal) v42 v43 (ix2 r j) * k0_pay5 (F := Ideal) v42 v43 (ix2 r j) := by
  unfold k0_pay7
  rw [shapeCast_self, addf_apply, shapeCast_a_1a_apply, laneSum_apply]
  rfl

/-! ## Two rows stacked, and their two rows -/

section Rows
variable {α : Type} {m : ℕ}

/-- The top row of two stacked rows. -/
theorem row0_vcat2 (top bot : (⟨2, ![1, m]⟩ : Shape).Idx → α) (j : Fin m) :
    Decode.row0 (vcat2 top bot) (ix2 (0 : Fin 1) j) = top (ix2 (0 : Fin 1) j) := by
  unfold Decode.row0 vcat2
  exact if_pos rfl

/-- The bottom row of two stacked rows. -/
theorem row1_vcat2 (top bot : (⟨2, ![1, m]⟩ : Shape).Idx → α) (j : Fin m) :
    Decode.row1 (vcat2 top bot) (ix2 (0 : Fin 1) j) = bot (ix2 (0 : Fin 1) j) := by
  unfold Decode.row1 vcat2
  exact if_neg (show ¬((1 : Fin 2) : ℕ) = 0 by decide)

end Rows

/-! ## The stage's values at an index -/

section Stages
variable (A : Arrays Ideal)

/-- The support at an entry, from the stage-2 sums read as the first layer's column sums. -/
theorem S3_apply (hs : row1Of (lcol (Stack.acc2s A 16)) = colSum (matOf (lcol (Stack.U3 A))))
    (hq : row1Of (lcol (Stack.acc2q A 16)) = colSq (matOf (lcol (Stack.U3 A)))) (l : Fin 4096) (q : Fin 256) :
    (Stack.S3 A (ix2 l q) : EReal)
      = ∑ l' : Fin 128, bnK (matOf (lcol (Stack.U3 A))) (row1Of A.gf1) (row1Of A.bf1) l l' * (A.wf2 (ix2 l' q) : EReal) := by
  unfold Stack.S3
  rw [pay15_eq, pay11_apply, hs, hq]
  rfl

/-- Row 256 · b + r of the layer, read in its block. -/
theorem U4_block (b : Fin 16) (r : Fin 256) (j : Fin 256) :
    matOf (Stack.U4 A) ⟨256 * b.val + r.val, by have := b.isLt; have := r.isLt; omega⟩ j
      = k0_pay5 (F := Ideal) (Stack.adjB A b) (Stack.S3 A) (ix2 r j) := by
  show Stack.U4 A (ix2 ⟨256 * b.val + r.val, _⟩ j) = _
  unfold Stack.U4
  rw [asm16_block]
  rfl

end Stages

/-! ## The running sums after k blocks -/

section Sums
variable (A : Arrays Ideal)

/-- After k blocks the running sum holds the column sums over the first 256 · k rows. -/
theorem acc3s_apply (k : ℕ) (hk : k ≤ 16) (j : Fin 256) :
    row1Of (Stack.acc3s A k) j
      = ∑ b : Fin k, ∑ r : Fin 256,
          matOf (Stack.U4 A) ⟨256 * b.val + r.val, by have := b.isLt; have := r.isLt; omega⟩ j := by
  induction k with
  | zero =>
    rw [Fin.sum_univ_zero]
    show Stack.acc3s A 0 (ix2 0 j) = 0
    unfold Stack.acc3s
    exact pay16_apply _
  | succ k ih =>
    have hk' : k < 16 := hk
    have e1 : row1Of (Stack.acc3s A (k + 1)) j
        = row1Of (Stack.acc3s A k) j
          + ∑ r : Fin 256, matOf (Stack.U4 A) ⟨256 * k + r.val, by have := r.isLt; omega⟩ j := by
      show Stack.acc3s A (k + 1) (ix2 0 j) = Stack.acc3s A k (ix2 0 j) + _
      rw [Stack.acc3s, pay6_apply]
      refine congrArg (Stack.acc3s A k (ix2 0 j) + ·) (Finset.sum_congr rfl fun r _ => ?_)
      have hb : (⟨k % 16, Nat.mod_lt _ (by norm_num)⟩ : Fin 16) = ⟨k, hk'⟩ := Fin.ext (Nat.mod_eq_of_lt hk')
      rw [hb]
      exact (U4_block A ⟨k, hk'⟩ r j).symm
    rw [e1, ih (by omega)]
    conv_rhs => rw [Fin.sum_univ_castSucc]
    rfl

/-- Likewise the running sum of squares. -/
theorem acc3q_apply (k : ℕ) (hk : k ≤ 16) (j : Fin 256) :
    row1Of (Stack.acc3q A k) j
      = ∑ b : Fin k, ∑ r : Fin 256,
          matOf (Stack.U4 A) ⟨256 * b.val + r.val, by have := b.isLt; have := r.isLt; omega⟩ j
            * matOf (Stack.U4 A) ⟨256 * b.val + r.val, by have := b.isLt; have := r.isLt; omega⟩ j := by
  induction k with
  | zero =>
    rw [Fin.sum_univ_zero]
    show Stack.acc3q A 0 (ix2 0 j) = 0
    unfold Stack.acc3q
    exact pay17_apply _
  | succ k ih =>
    have hk' : k < 16 := hk
    have e1 : row1Of (Stack.acc3q A (k + 1)) j
        = row1Of (Stack.acc3q A k) j
          + ∑ r : Fin 256, matOf (Stack.U4 A) ⟨256 * k + r.val, by have := r.isLt; omega⟩ j
              * matOf (Stack.U4 A) ⟨256 * k + r.val, by have := r.isLt; omega⟩ j := by
      show Stack.acc3q A (k + 1) (ix2 0 j) = Stack.acc3q A k (ix2 0 j) + _
      rw [Stack.acc3q, pay7_apply]
      refine congrArg (Stack.acc3q A k (ix2 0 j) + ·) (Finset.sum_congr rfl fun r _ => ?_)
      have hb : (⟨k % 16, Nat.mod_lt _ (by norm_num)⟩ : Fin 16) = ⟨k, hk'⟩ := Fin.ext (Nat.mod_eq_of_lt hk')
      rw [hb, ← U4_block A ⟨k, hk'⟩ r j]
    rw [e1, ih (by omega)]
    conv_rhs => rw [Fin.sum_univ_castSucc]
    rfl

end Sums

end Cert.KernelIdeal.Read.Stage3

namespace Cert.KernelIdeal.Read

open Idealize.ShloMosaic Idealize.ShloMosaic.ValueIdx Cert.KernelIdeal Cert.KernelIdeal.Gen Cert.GcnMath
open Cert.KernelIdeal.Stack (Arrays rowBlk asm16 lcol rcol hcat vcat2)

variable (A : Arrays Ideal)

theorem read_U4 (hADJ : matOf (Stack.ADJ A) = matOf A.adj)
    (hs : row1Of (lcol (Stack.acc2s A 16)) = colSum (matOf (lcol (Stack.U3 A))))
    (hq : row1Of (lcol (Stack.acc2q A 16)) = colSq (matOf (lcol (Stack.U3 A)))) :
    matOf (Stack.U4 A) = gcn (matOf A.adj) (bnK (matOf (lcol (Stack.U3 A))) (row1Of A.gf1) (row1Of A.bf1)) (matOf A.wf2) := by
  unfold Stack.U4
  refine Stage01.matOf_asm16 (Stack.u4B A) _ fun b p q => ?_
  unfold Stack.u4B
  rw [Stage3.pay5_apply]
  refine congrArg (max · 0) (Finset.sum_congr rfl fun l _ => ?_)
  rw [Stage01.adjB_apply, Stage3.S3_apply A hs hq]
  rfl

theorem read_acc3s : row1Of (Stack.acc3s A 16) = colSum (matOf (Stack.U4 A)) := by
  funext j
  rw [Stage3.acc3s_apply A 16 le_rfl j]
  exact (Stage01.sum_4096 fun i => matOf (Stack.U4 A) i j).symm
theorem read_acc3q : row1Of (Stack.acc3q A 16) = colSq (matOf (Stack.U4 A)) := by
  funext j
  rw [Stage3.acc3q_apply A 16 le_rfl j]
  exact (Stage01.sum_4096 fun i => matOf (Stack.U4 A) i j * matOf (Stack.U4 A) i j).symm

theorem read_S1STATS0 : row1Of (Decode.row0 (Stack.S1STATS A)) = row1Of (rcol (Stack.acc2s A 16)) := by
  funext j
  unfold Stack.S1STATS
  exact Stage3.row0_vcat2 _ _ j
theorem read_S1STATS1 : row1Of (Decode.row1 (Stack.S1STATS A)) = row1Of (rcol (Stack.acc2q A 16)) := by
  funext j
  unfold Stack.S1STATS
  exact Stage3.row1_vcat2 _ _ j
theorem read_U4STATS0 : row1Of (Decode.row0 (Stack.U4STATS A)) = row1Of (Stack.acc3s A 16) := by
  funext j
  unfold Stack.U4STATS
  exact Stage3.row0_vcat2 _ _ j
theorem read_U4STATS1 : row1Of (Decode.row1 (Stack.U4STATS A)) = row1Of (Stack.acc3q A 16) := by
  funext j
  unfold Stack.U4STATS
  exact Stage3.row1_vcat2 _ _ j
theorem read_U3S : matOf (Stack.U3S A) = matOf (rcol (Stack.U3 A)) := by
  unfold Stack.U3S
  rfl

end Cert.KernelIdeal.Read

end
-- ==== Proof.ReadDecode.lean ====
/-
  The decoder at the ideal instance: the structure branch normalised by the affine map of its two statistics rows, its
  inner products, and the feature branch normalised by the affine map of its own.

  Every float is an extended real and every operation the exact one, so each payload of the decoder read at an entry
  is a plain formula: the two normalisations are the entry times the column's scale plus the column's shift, scale and
  shift computed from the column's two sums; the inner-product block is a matrix product whose two operands are both
  contracted along their second axis, that is the sum over the 128 columns of the products of two rows.  The outputs
  are assembled from eight blocks of 512 rows, and row 512 * (i / 512) + i % 512 is row i.
-/
import proofs.«181189_g481036337843_cont_8to1c4_37_6_alg».proof.Proof.ReadDefs
import Idealize.ShloMosaic.Lib.ValueLayout

set_option maxRecDepth 16384

noncomputable section

namespace Cert.KernelIdeal.Read.ReadDecode

open Idealize.ShloMosaic Idealize.ShloMosaic.ValueIdx Cert.KernelIdeal Cert.KernelIdeal.Gen Cert.GcnMath

/-! ## Row blocks and their assembly, read at an entry -/

section Blocks
variable {α : Type} {m : ℕ}

/-- The assembled matrix at (i, j) is block i / 512 at (i % 512, j). -/
theorem asm8_apply (blk : Fin 8 → ((⟨2, ![512, m]⟩ : Shape).Idx → α)) (i : Fin 4096) (j : Fin m) :
    Decode.asm8 blk (ix2 i j)
      = blk ⟨i.val / 512, by have := i.isLt; omega⟩ (ix2 ⟨i.val % 512, Nat.mod_lt _ (by norm_num)⟩ j) := rfl

/-- Row block b at (r, c) is the matrix at (512 * b + r, c). -/
theorem rowBlk_apply (A : (⟨2, ![4096, m]⟩ : Shape).Idx → α) (b : Fin 8) (r : Fin 512) (c : Fin m) :
    Decode.rowBlk A b (ix2 r c)
      = A (ix2 ⟨512 * b.val + r.val, by have := b.isLt; have := r.isLt; omega⟩ c) := rfl

/-- Row 512 * (i / 512) + i % 512 is row i. -/
theorem blk_row (i : Fin 4096) (h : 512 * (i.val / 512) + i.val % 512 < 4096) :
    (⟨512 * (i.val / 512) + i.val % 512, h⟩ : Fin 4096) = i := Fin.ext (Nat.div_add_mod _ _)

end Blocks

/-! ## The affine map of two statistics rows, read at an entry -/

/-- The structure branch's normalisation at entry (p, c): the entry times the column's scale plus the column's shift,
    both computed from the two statistics rows at column c. -/
theorem pay1_apply (s q g b : FVec Ideal S1x128 .f32) (u : FVec Ideal S4096x128 .f32) (p : Fin 4096) (c : Fin 128) :
    k1_pay1 (F := Ideal) s q g b u (ix2 p c)
      = u (ix2 p c) * (g (ix2 0 c) * Ideal.rsqrt ((q (ix2 0 c) * invRows
            - (s (ix2 0 c) * invRows) * (s (ix2 0 c) * invRows)) + eps))
        + (b (ix2 0 c) - (s (ix2 0 c) * invRows) * (g (ix2 0 c) * Ideal.rsqrt ((q (ix2 0 c) * invRows
            - (s (ix2 0 c) * invRows) * (s (ix2 0 c) * invRows)) + eps))) := by
  unfold k1_pay1
  simp only [shapeCast_self, addf_apply, mulf_apply, subf_apply, broadcastTo_1b_ab_apply, broadcast_apply]
  rfl

/-- The feature branch's normalisation of a 512-row block, at entry (p, c). -/
theorem pay3_apply (s q g b : FVec Ideal S1x256 .f32) (u : FVec Ideal S512x256 .f32) (p : Fin 512) (c : Fin 256) :
    k1_pay3 (F := Ideal) s q g b u (ix2 p c)
      = u (ix2 p c) * (g (ix2 0 c) * Ideal.rsqrt ((q (ix2 0 c) * invRows
            - (s (ix2 0 c) * invRows) * (s (ix2 0 c) * invRows)) + eps))
        + (b (ix2 0 c) - (s (ix2 0 c) * invRows) * (g (ix2 0 c) * Ideal.rsqrt ((q (ix2 0 c) * invRows
            - (s (ix2 0 c) * invRows) * (s (ix2 0 c) * invRows)) + eps))) := by
  unfold k1_pay3
  simp only [shapeCast_self, addf_apply, mulf_apply, subf_apply, broadcastTo_1b_ab_apply, broadcast_apply]
  rfl

/-! ## The inner products: a matrix product contracting both operands' second axis -/

/-- The left operand's row is the result's row. -/
theorem lhs_dd_0 (i : S512x4096.Idx) (q : dot_S512x128_S4096x128_S512x4096_1_1_0_0_n_n.contr.Idx) :
    ((dot_S512x128_S4096x128_S512x4096_1_1_0_0_n_n).lhsIdx i q 0).val = (i 0).val := by
  unfold DotDims.lhsIdx
  rw [dif_neg (show ¬(0 : Fin S512x128.rank) ∈ (dot_S512x128_S4096x128_S512x4096_1_1_0_0_n_n).lhsBatch from List.not_mem_nil),
    dif_pos (show (0 : Fin S512x128.rank) ∈ (dot_S512x128_S4096x128_S512x4096_1_1_0_0_n_n).lhsNonContracting from List.mem_singleton.mpr rfl)]
  rfl

/-- The left operand's column is the contracted coordinate. -/
theorem lhs_dd_1 (i : S512x4096.Idx) (q : dot_S512x128_S4096x128_S512x4096_1_1_0_0_n_n.contr.Idx) :
    ((dot_S512x128_S4096x128_S512x4096_1_1_0_0_n_n).lhsIdx i q 1).val = (q ⟨0, Nat.one_pos⟩).val :=
  (dot_S512x128_S4096x128_S512x4096_1_1_0_0_n_n).lhsIdx_val_of_single rfl i q

/-- The right operand's row is the result's column. -/
theorem rhs_dd_0 (i : S512x4096.Idx) (q : dot_S512x128_S4096x128_S512x4096_1_1_0_0_n_n.contr.Idx) :
    ((dot_S512x128_S4096x128_S512x4096_1_1_0_0_n_n).rhsIdx i q 0).val = (i 1).val := by
  unfold DotDims.rhsIdx
  rw [dif_neg (show ¬(0 : Fin S4096x128.rank) ∈ (dot_S512x128_S4096x128_S512x4096_1_1_0_0_n_n).rhsBatch from List.not_mem_nil),
    dif_pos (show (0 : Fin S4096x128.rank) ∈ (dot_S512x128_S4096x128_S512x4096_1_1_0_0_n_n).rhsNonContracting from List.mem_singleton.mpr rfl)]
  rfl

/-- The right operand's column is the contracted coordinate. -/
theorem rhs_dd_1 (i : S512x4096.Idx) (q : dot_S512x128_S4096x128_S512x4096_1_1_0_0_n_n.contr.Idx) :
    ((dot_S512x128_S4096x128_S512x4096_1_1_0_0_n_n).rhsIdx i q 1).val = (q ⟨0, Nat.one_pos⟩).val :=
  (dot_S512x128_S4096x128_S512x4096_1_1_0_0_n_n).rhsIdx_val_of_single rfl i q

/-- The product of a 512-row block with the transpose of the whole matrix, at entry (r, j): the sum over the 128
    columns of the products of row r of the block and row j of the matrix. -/
theorem pay2_apply (x : FVec Ideal S512x128 .f32) (y : FVec Ideal S4096x128 .f32) (r : Fin 512) (j : Fin 4096) :
    k1_pay2 (F := Ideal) x y (ix2 r j) = ∑ l : Fin 128, x (ix2 r l) * y (ix2 j l) := by
  unfold k1_pay2
  simp only [matmul]
  rw [Ideal.matmul_constant_zero_apply, ← Equiv.sum_comp (contrEquiv1 (dot_S512x128_S4096x128_S512x4096_1_1_0_0_n_n) 128 rfl rfl).symm]
  refine Finset.sum_congr rfl fun l _ => ?_
  have hl := contrEquiv1_symm_val (dot_S512x128_S4096x128_S512x4096_1_1_0_0_n_n) 128 rfl rfl l
  have el : (dot_S512x128_S4096x128_S512x4096_1_1_0_0_n_n).lhsIdx (ix2 r j) ((contrEquiv1 (dot_S512x128_S4096x128_S512x4096_1_1_0_0_n_n) 128 rfl rfl).symm l) = ix2 r l :=
    funext fun a => Fin.ext (by
      match a with
      | ⟨0, _⟩ => exact lhs_dd_0 _ _
      | ⟨1, _⟩ => exact (lhs_dd_1 _ _).trans hl)
  have er : (dot_S512x128_S4096x128_S512x4096_1_1_0_0_n_n).rhsIdx (ix2 r j) ((contrEquiv1 (dot_S512x128_S4096x128_S512x4096_1_1_0_0_n_n) 128 rfl rfl).symm l) = ix2 j l :=
    funext fun a => Fin.ext (by
      match a with
      | ⟨0, _⟩ => exact rhs_dd_0 _ _
      | ⟨1, _⟩ => exact (rhs_dd_1 _ _).trans hl)
  rw [el, er]

end Cert.KernelIdeal.Read.ReadDecode

namespace Cert.KernelIdeal.Read

open Idealize.ShloMosaic Idealize.ShloMosaic.ValueIdx Cert.KernelIdeal Cert.KernelIdeal.Gen Cert.GcnMath
open Cert.KernelIdeal.Stack (Arrays rowBlk asm16 lcol rcol hcat vcat2)

variable (B : Decode.Arrays Ideal)

theorem read_S1N : matOf (Decode.S1N B) = fun i j =>
    matOf B.u3s i j * affA (row1Of (Decode.row0 B.s1stats)) (row1Of (Decode.row1 B.s1stats)) (row1Of B.gs1) j
      + affC (row1Of (Decode.row0 B.s1stats)) (row1Of (Decode.row1 B.s1stats)) (row1Of B.gs1) (row1Of B.bs1) j := by
  funext p c
  unfold matOf Decode.S1N
  rw [ReadDecode.pay1_apply]
  rfl

theorem read_S2 : matOf (Decode.S2 B) = fun i j => ∑ l, matOf (Decode.S1N B) i l * matOf (Decode.S1N B) j l := by
  funext i j
  show Decode.asm8 (Decode.s2B B) (ix2 i j) = _
  rw [ReadDecode.asm8_apply]
  unfold Decode.s2B
  rw [ReadDecode.pay2_apply]
  refine Finset.sum_congr rfl fun l _ => ?_
  rw [ReadDecode.rowBlk_apply, ReadDecode.blk_row]
  rfl

theorem read_F2 : matOf (Decode.F2 B) = fun i j =>
    matOf B.u4 i j * affA (row1Of (Decode.row0 B.u4stats)) (row1Of (Decode.row1 B.u4stats)) (row1Of B.gf2) j
      + affC (row1Of (Decode.row0 B.u4stats)) (row1Of (Decode.row1 B.u4stats)) (row1Of B.gf2) (row1Of B.bf2) j := by
  funext i j
  show Decode.asm8 (Decode.f2B B) (ix2 i j) = _
  rw [ReadDecode.asm8_apply]
  unfold Decode.f2B
  rw [ReadDecode.pay3_apply, ReadDecode.rowBlk_apply, ReadDecode.blk_row]
  rfl

end Cert.KernelIdeal.Read

end
-- ==== Proof.LibScatterSet.lean ====
/-
  A scatter whose combiner keeps the update ("set"), read at an index of the result.

  `Host.scatter` is a left fold over the update's indices in row-major order: each update index lands at a result
  index (or is dropped when it falls outside the operand) and the fold replaces the element there.  With the
  overwriting combiner `fun _ b => b` the result at `i` is therefore the update's element at the LAST update index
  landing at `i`, and the operand's element when none does.  When at most one update index lands at `i` — always so
  for one index vector whose window covers every axis — "last" needs no mention: that is what is stated here, first
  for any dimension numbers, then for a window that covers all axes and is moved along the leading axis only.
-/
import Idealize.ShloMosaic.PureOps.ShapeOps
import Idealize.ShloMosaic.PureOps.Dims

namespace Idealize.ShloMosaic

variable {α : Type} {s si u : Shape} {w : Nat}

/-- One step of the scatter's fold with the overwriting combiner. -/
private abbrev setStep (d : ScatterDims s si u) (idx : IVec si w) (upd : u.Idx → α) (r : s.Idx → α) (n : Fin u.numel) :
    s.Idx → α :=
  match d.resultIdx? (u.rowMajor.symm n) idx with
  | some i => fun i' => if i' = i then (fun _ b => b) (r i) (upd (u.rowMajor.symm n)) else r i'
  | none => r

private theorem setStep_ne (d : ScatterDims s si u) (idx : IVec si w) (upd : u.Idx → α) (r : s.Idx → α) (n : Fin u.numel)
    (i : s.Idx) (h : d.resultIdx? (u.rowMajor.symm n) idx ≠ some i) : setStep d idx upd r n i = r i := by
  unfold setStep
  generalize d.resultIdx? (u.rowMajor.symm n) idx = o at h ⊢
  cases o with
  | none => rfl
  | some i₀ =>
    have : i ≠ i₀ := fun e => h (e ▸ rfl)
    show (if i = i₀ then _ else r i) = r i
    rw [if_neg this]

private theorem setStep_eq (d : ScatterDims s si u) (idx : IVec si w) (upd : u.Idx → α) (r : s.Idx → α) (n : Fin u.numel)
    (i : s.Idx) (h : d.resultIdx? (u.rowMajor.symm n) idx = some i) : setStep d idx upd r n i = upd (u.rowMajor.symm n) := by
  unfold setStep
  generalize d.resultIdx? (u.rowMajor.symm n) idx = o at h ⊢
  cases o with
  | none => exact absurd h (by simp)
  | some i₀ =>
    have : i = i₀ := (Option.some.inj h).symm
    show (if i = i₀ then _ else r i) = _
    rw [if_pos this]

private theorem fold_miss (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (setStep d idx upd) r i = r i
  | [], _, _ => rfl
  | n :: l, r, h => by
    rw [List.foldl_cons, fold_miss d idx upd i l _ fun n' hn' => h n' (List.mem_cons_of_mem _ hn'),
      setStep_ne d idx upd r n i (h n List.mem_cons_self)]

private theorem fold_hit (d : ScatterDims s si u) (idx : IVec si w) (upd : u.Idx → α) (i : s.Idx) (n₀ : Fin u.numel)
    (h₀ : d.resultIdx? (u.rowMajor.symm n₀) idx = some i) :
    ∀ (l : List (Fin u.numel)) (r : s.Idx → α), n₀ ∈ l → (∀ n ∈ l, d.resultIdx? (u.rowMajor.symm n) idx = some i → n = n₀) →
      l.foldl (setStep d idx upd) r i = upd (u.rowMajor.symm n₀)
  | [], _, hm, _ => absurd hm (by simp)
  | n :: l, r, hm, hu => by
    rw [List.foldl_cons]
    by_cases hl : n₀ ∈ l
    · exact fold_hit d idx upd i n₀ h₀ l _ hl fun n' hn' => hu n' (List.mem_cons_of_mem _ hn')
    · have hn : n = n₀ := by
        rcases List.mem_cons.1 hm with e | e
        · exact e.symm
        · exact absurd e hl
      rw [fold_miss d idx upd i l _ fun n' hn' e => hl (hu n' (List.mem_cons_of_mem _ hn') e ▸ hn'), hn,
        setStep_eq d idx upd r n₀ i h₀]

/-- The overwriting scatter at a result index `i` that exactly one update index `j` lands at: the update's element at `j`. -/
theorem Host.scatter_overwrite_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  have h := fold_hit d idx upd i (u.rowMajor j) (by rw [Equiv.symm_apply_apply]; exact hj) (List.finRange u.numel) x
    (List.mem_finRange _) (fun n _ hn => by rw [← huniq _ hn, Equiv.apply_symm_apply])
  rw [Equiv.symm_apply_apply] at h
  exact h

/-- The overwriting scatter at a result index no update index lands at: the operand's element. -/
theorem Host.scatter_overwrite_miss (d : ScatterDims s si u) (x : s.Idx → α) (idx : IVec si w) (upd : u.Idx → α) (i : s.Idx)
    (hmiss : ∀ j, d.resultIdx? j idx ≠ some i) : Host.scatter d (fun _ b => b) x idx upd i = x i :=
  fold_miss d idx upd i (List.finRange u.numel) x fun n _ => hmiss _

/-! ## Where an update index lands -/

/-- Update index `j` lands at `i` exactly when, on every axis, start plus window coordinate is `i`'s coordinate. -/
theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hc : ∀ a, 0 ≤ d.start j idx a + (d.window j a : Int) ∧ d.start j idx a + (d.window j a : Int) < s.size a
    · rw [dif_pos hc] at h
      have e := congrArg Fin.val (congrFun (Option.some.inj h) a)
      have h0 := (hc a).1
      simp only at e
      omega
    · rw [dif_neg hc] at h
      exact absurd h (by simp)
  · intro h
    have hc : ∀ a, 0 ≤ d.start j idx a + (d.window j a : Int) ∧ d.start j idx a + (d.window j a : Int) < s.size a :=
      fun a => by rw [h a]; exact ⟨Int.natCast_nonneg _, by exact_mod_cast (i a).isLt⟩
    rw [dif_pos hc]
    congr 1
    funext a
    apply Fin.ext
    show (d.start j idx a + (d.window j a : Int)).toNat = (i a).val
    rw [h a, Int.toNat_natCast]

/-! ## One start on the leading axis, the window covering every axis

The operand and the update have the same rank; the update's coordinate on each axis is the window coordinate on that
axis (`hwin`); the start is `k` on the leading axis and zero on the others (`hstart`).  Both facts are read off the
dimension numbers of a printed scatter by evaluation.  Then update index `j` lands at `(k + j 0, j 1, …)`. -/

section Window

variable {n : Nat} {ds du : Fin (n + 1) → Nat}

/-- Inside the window: the result at `i` is the update at `j`, where `i 0 = k + j 0` and `i a = j a` on the other axes. -/
theorem Host.scatter_overwrite_window_in (d : ScatterDims ⟨n + 1, ds⟩ si ⟨n + 1, du⟩) (x : Shape.Idx ⟨n + 1, ds⟩ → α)
    (idx : IVec si w) (upd : Shape.Idx ⟨n + 1, du⟩ → α) (k : Int)
    (hstart : ∀ j a, d.start j idx a = if a = 0 then k else 0)
    (hwin : ∀ (j : Shape.Idx ⟨n + 1, du⟩) a, d.window j a = (j a).val)
    (i : Shape.Idx ⟨n + 1, ds⟩) (j : Shape.Idx ⟨n + 1, du⟩)
    (hj0 : ((i 0).val : Int) = k + ((j 0).val : Int)) (hja : ∀ a, a ≠ 0 → (i a).val = (j a).val) :
    Host.scatter d (fun _ b => b) x idx upd i = upd j := by
  refine Host.scatter_overwrite_hit d x idx upd i j ?_ ?_
  · rw [ScatterDims.resultIdx?_eq_some_iff]
    intro a
    rw [hstart, hwin]
    by_cases ha : a = 0
    · subst ha; rw [if_pos rfl]; exact hj0.symm
    · rw [if_neg ha, zero_add, hja a ha]
  · intro j' hj'
    rw [ScatterDims.resultIdx?_eq_some_iff] at hj'
    funext a
    apply Fin.ext
    have e := hj' a
    rw [hstart, hwin] at e
    by_cases ha : a = 0
    · subst ha; rw [if_pos rfl] at e; omega
    · rw [if_neg ha, zero_add] at e
      have := hja a ha
      omega

/-- Outside the window along the leading axis: the result at `i` is the operand's element. -/
theorem Host.scatter_overwrite_window_out (d : ScatterDims ⟨n + 1, ds⟩ si ⟨n + 1, du⟩) (x : Shape.Idx ⟨n + 1, ds⟩ → α)
    (idx : IVec si w) (upd : Shape.Idx ⟨n + 1, du⟩ → α) (k : Int)
    (hstart : ∀ j a, d.start j idx a = if a = 0 then k else 0)
    (hwin : ∀ (j : Shape.Idx ⟨n + 1, du⟩) a, d.window j a = (j a).val)
    (i : Shape.Idx ⟨n + 1, ds⟩) (hout : ((i 0).val : Int) < k ∨ k + (du 0 : Int) ≤ ((i 0).val : Int)) :
    Host.scatter d (fun _ b => b) x idx upd i = x i := by
  refine Host.scatter_overwrite_miss d x idx upd i fun j hj => ?_
  rw [ScatterDims.resultIdx?_eq_some_iff] at hj
  have e := hj 0
  rw [hstart, hwin, if_pos rfl] at e
  have hlt : (j 0).val < du 0 := (j 0).isLt
  omega

end Window

end Idealize.ShloMosaic
-- ==== Proof.ReadHost.lean ====
/-
  The host operations before the first region at the ideal instance: the 64-wide layer's weight matrices and batch-norm
  rows padded to 128 with zeros (the scale row with ones), the other batch-norm rows reshaped to one-row matrices, the
  remaining arguments untouched.

  Each padded array is an overwriting scatter of the narrow array into a constant array, with the single start index
  zero: the window sits at the origin, so the result is the narrow array inside the window and the constant outside.
-/
import proofs.«181189_g481036337843_cont_8to1c4_37_6_alg».proof.Proof.ReadDefs
import proofs.«181189_g481036337843_cont_8to1c4_37_6_alg».proof.Proof.KernelRunDefs
import proofs.«181189_g481036337843_cont_8to1c4_37_6_alg».proof.Proof.LibScatterSet
import Idealize.ShloMosaic.Lib.StableHlo.Run
import Idealize.ShloMosaic.Lib.IdealHost
import Idealize.ShloMosaic.Lib.ValueLayout

set_option maxRecDepth 16384

noncomputable section

namespace Cert.KernelIdeal.Read

open Idealize.ShloMosaic Idealize.ShloMosaic.ValueIdx Cert.KernelIdeal Cert.KernelIdeal.Gen Cert.GcnMath
open Cert.KernelIdeal.Stack (Arrays rowBlk asm16 lcol rcol hcat vcat2)

open Idealize.ShloMosaic.TcCoe Idealize.SL.Sem Cert.KernelIdeal.Run

variable (m : (ℓ : Loc nD τ sig) → Buf (Elt Ideal) ℓ) (c : Dev nD)

namespace ReadHost

/-! ## An overwriting scatter whose window is anchored at the origin -/

section Origin

variable {α : Type} {n0 n1 k0 k1 : ℕ} {si : Shape} {w : ℕ}

/-- Inside the window the result is the update's element. -/
theorem scatter_origin_in (d : ScatterDims ⟨2, ![n0, n1]⟩ si ⟨2, ![k0, k1]⟩) (x : (⟨2, ![n0, n1]⟩ : Shape).Idx → α)
    (idx : IVec si w) (upd : (⟨2, ![k0, k1]⟩ : Shape).Idx → α)
    (hstart : ∀ j a, d.start j idx a = 0) (hwin : ∀ (j : (⟨2, ![k0, k1]⟩ : Shape).Idx) a, d.window j a = (j a).val)
    (p : Fin n0) (q : Fin n1) (hp : p.val < k0) (hq : q.val < k1) :
    Host.scatter d (fun _ b => b) x idx upd (ix2 p q) = upd (ix2 ⟨p.val, hp⟩ ⟨q.val, hq⟩) := by
  refine Host.scatter_overwrite_hit d x idx upd (ix2 p q) (ix2 ⟨p.val, hp⟩ ⟨q.val, hq⟩) ?_ ?_
  · rw [ScatterDims.resultIdx?_eq_some_iff]
    intro a
    rw [hstart, hwin, zero_add]
    match a with
    | ⟨0, _⟩ => rfl
    | ⟨1, _⟩ => rfl
  · intro j' hj'
    rw [ScatterDims.resultIdx?_eq_some_iff] at hj'
    funext a
    have e := hj' a
    rw [hstart, hwin, zero_add] at e
    match a, e with
    | ⟨0, _⟩, e => exact Fin.ext (Int.natCast_inj.mp e)
    | ⟨1, _⟩, e => exact Fin.ext (Int.natCast_inj.mp e)

/-- Outside the window the result is the operand's element. -/
theorem scatter_origin_out (d : ScatterDims ⟨2, ![n0, n1]⟩ si ⟨2, ![k0, k1]⟩) (x : (⟨2, ![n0, n1]⟩ : Shape).Idx → α)
    (idx : IVec si w) (upd : (⟨2, ![k0, k1]⟩ : Shape).Idx → α)
    (hstart : ∀ j a, d.start j idx a = 0) (hwin : ∀ (j : (⟨2, ![k0, k1]⟩ : Shape).Idx) a, d.window j a = (j a).val)
    (p : Fin n0) (q : Fin n1) (h : k0 ≤ p.val ∨ k1 ≤ q.val) :
    Host.scatter d (fun _ b => b) x idx upd (ix2 p q) = x (ix2 p q) := by
  refine Host.scatter_overwrite_miss d x idx upd (ix2 p q) fun j hj => ?_
  rw [ScatterDims.resultIdx?_eq_some_iff] at hj
  have e0 := hj 0
  have e1 := hj 1
  rw [hstart, hwin, zero_add] at e0 e1
  have h0 : (j 0).val = p.val := Int.natCast_inj.mp e0
  have h1 : (j 1).val = q.val := Int.natCast_inj.mp e1
  have l0 := idx2_lt0 j
  have l1 := idx2_lt1 j
  rcases h with h | h <;> omega

/-- With every start index the zero word, every window starts at the origin. -/
theorem start_zero {s u : Shape} (d : ScatterDims s si u) (idx : IVec si 32) (hidx : ∀ k, idx k = 0#32) (j : u.Idx)
    (a : Fin s.rank) : d.start j idx a = 0 := by
  unfold ScatterDims.start
  split
  · rw [hidx]; rfl
  · rfl

end Origin

/-! ## The three scatters' dimension numbers, and the constants -/

/-- The one start index: the scalar zero word broadcast to a one-element array. -/
abbrev zeroIdx : IVec S1 32 := broadcastInDim S1 ![] bcast_S_S1 (constantI S_ 32 0#32)
theorem zeroIdx_apply (k : S1.Idx) : zeroIdx k = 0#32 := rfl

/-- The scalar zero broadcast to a matrix or a one-row matrix, and the scalar one broadcast to a one-row matrix. -/
abbrev zeros2 : S128x128.Idx → EReal := broadcastInDim S128x128 ![] bcast_S_S128x128 (constant (F := Ideal) S_ .f32 0x00000000#32)
abbrev zeros1 : S1x128.Idx → EReal := broadcastInDim S1x128 ![] bcast_S_S1x128 (constant (F := Ideal) S_ .f32 0x00000000#32)
abbrev ones1 : S1x128.Idx → EReal := broadcastInDim S1x128 ![] bcast_S_S1x128 (constant (F := Ideal) S_ .f32 0x3F800000#32)
theorem zeros2_apply (i : S128x128.Idx) : zeros2 i = 0 := Ideal.ofBits_zero_f32
theorem zeros1_apply (i : S1x128.Idx) : zeros1 i = 0 := Ideal.ofBits_zero_f32
theorem ones1_apply (i : S1x128.Idx) : ones1 i = 1 := Ideal.ofBits_one_f32

/-- Each update's coordinate on an axis is its window coordinate on that axis. -/
theorem win_cols (j : S128x64.Idx) (a : Fin 2) : scatter_S128x128_S1_S128x64_01_n_1_0.window j a = (j a).val := by
  match a with
  | ⟨0, _⟩ => rfl
  | ⟨1, _⟩ => rfl
theorem win_row (j : S1x64.Idx) (a : Fin 2) : scatter_S1x128_S1_S1x64_01_n_1_0.window j a = (j a).val := by
  match a with
  | ⟨0, _⟩ => rfl
  | ⟨1, _⟩ => rfl
theorem win_rows (j : S64x128.Idx) (a : Fin 2) : scatter_S128x128_S1_S64x128_01_n_0_0.window j a = (j a).val := by
  match a with
  | ⟨0, _⟩ => rfl
  | ⟨1, _⟩ => rfl

/-- A row of 64 broadcast to a one-row matrix reads, at `(u, j)`, the row at `j`. -/
theorem bcastRow_apply (x : S64.Idx → EReal) (u : Fin 1) (j : Fin 64) :
    broadcastInDim S1x64 ![1] bcast_S64_S1x64_1 x (ix2 u j) = x (ix1 j) := by
  unfold broadcastInDim
  refine congrArg x (funext fun a => ?_)
  match a with
  | ⟨0, _⟩ => rfl

/-! ## The padded arrays at an index -/

/-- Columns padded: the narrow matrix in the first 64 columns, the operand beyond. -/
theorem padColsAt (x : S128x128.Idx → EReal) (u : S128x64.Idx → EReal) (p q : Fin 128) :
    Host.scatter scatter_S128x128_S1_S128x64_01_n_1_0 (fun _ b => b) x zeroIdx u (ix2 p q)
      = if h : q.val < 64 then u (ix2 p ⟨q.val, h⟩) else x (ix2 p q) := by
  by_cases h : q.val < 64
  · rw [dif_pos h]
    exact scatter_origin_in _ x zeroIdx u (start_zero _ _ zeroIdx_apply) win_cols p q p.isLt h
  · rw [dif_neg h]
    exact scatter_origin_out _ x zeroIdx u (start_zero _ _ zeroIdx_apply) win_cols p q (Or.inr (Nat.le_of_not_lt h))

/-- Rows padded: the narrow matrix in the first 64 rows, the operand beyond. -/
theorem padRowsAt (x : S128x128.Idx → EReal) (u : S64x128.Idx → EReal) (p q : Fin 128) :
    Host.scatter scatter_S128x128_S1_S64x128_01_n_0_0 (fun _ b => b) x zeroIdx u (ix2 p q)
      = if h : p.val < 64 then u (ix2 ⟨p.val, h⟩ q) else x (ix2 p q) := by
  by_cases h : p.val < 64
  · rw [dif_pos h]
    exact scatter_origin_in _ x zeroIdx u (start_zero _ _ zeroIdx_apply) win_rows p q h q.isLt
  · rw [dif_neg h]
    exact scatter_origin_out _ x zeroIdx u (start_zero _ _ zeroIdx_apply) win_rows p q (Or.inl (Nat.le_of_not_lt h))

/-- A one-row matrix padded: the narrow row in the first 64 entries, the operand beyond. -/
theorem padRowAt (x : S1x128.Idx → EReal) (u : S1x64.Idx → EReal) (q : Fin 128) :
    Host.scatter scatter_S1x128_S1_S1x64_01_n_1_0 (fun _ b => b) x zeroIdx u (ix2 (0 : Fin 1) q)
      = if h : q.val < 64 then u (ix2 (0 : Fin 1) ⟨q.val, h⟩) else x (ix2 (0 : Fin 1) q) := by
  by_cases h : q.val < 64
  · rw [dif_pos h]
    exact scatter_origin_in _ x zeroIdx u (start_zero _ _ zeroIdx_apply) win_row (0 : Fin 1) q Nat.one_pos h
  · rw [dif_neg h]
    exact scatter_origin_out _ x zeroIdx u (start_zero _ _ zeroIdx_apply) win_row (0 : Fin 1) q (Or.inr (Nat.le_of_not_lt h))

/-! ## What each buffer holds after the host operations, as the operations' term -/

theorem v2_eq : (V1 m c main_v2 : S128x128.Idx → EReal)
    = Host.scatter scatter_S128x128_S1_S128x64_01_n_1_0 (fun _ b => b) zeros2 zeroIdx (m ((c.tc : Thread nD τ).loc main_arg3)) := by
  show StableHlo.after hostOps0 (fun b => m (c, b)) (Proc.devRef .tc main_v2) = _
  after_results_simp

theorem v6_eq : (V1 m c main_v6 : S1x128.Idx → EReal)
    = Host.scatter scatter_S1x128_S1_S1x64_01_n_1_0 (fun _ b => b) ones1 zeroIdx
        (broadcastInDim S1x64 ![1] bcast_S64_S1x64_1 (m ((c.tc : Thread nD τ).loc main_arg4))) := by
  show StableHlo.after hostOps0 (fun b => m (c, b)) (Proc.devRef .tc main_v6) = _
  after_results_simp

theorem v10_eq : (V1 m c main_v10 : S1x128.Idx → EReal)
    = Host.scatter scatter_S1x128_S1_S1x64_01_n_1_0 (fun _ b => b) zeros1 zeroIdx
        (broadcastInDim S1x64 ![1] bcast_S64_S1x64_1 (m ((c.tc : Thread nD τ).loc main_arg5))) := by
  show StableHlo.after hostOps0 (fun b => m (c, b)) (Proc.devRef .tc main_v10) = _
  after_results_simp

theorem v13_eq : (V1 m c main_v13 : S128x128.Idx → EReal)
    = Host.scatter scatter_S128x128_S1_S64x128_01_n_0_0 (fun _ b => b) zeros2 zeroIdx (m ((c.tc : Thread nD τ).loc main_arg6)) := by
  show StableHlo.after hostOps0 (fun b => m (c, b)) (Proc.devRef .tc main_v13) = _
  after_results_simp

theorem v16_eq : (V1 m c main_v16 : S128x128.Idx → EReal)
    = Host.scatter scatter_S128x128_S1_S64x128_01_n_0_0 (fun _ b => b) zeros2 zeroIdx (m ((c.tc : Thread nD τ).loc main_arg12)) := by
  show StableHlo.after hostOps0 (fun b => m (c, b)) (Proc.devRef .tc main_v16) = _
  after_results_simp

theorem v17_eq : (V1 m c main_v17 : S1x128.Idx → EReal)
    = shapeCast S1x128 (m ((c.tc : Thread nD τ).loc main_arg7)) shapeCasts_S128_S1x128 := by
  show StableHlo.after hostOps0 (fun b => m (c, b)) (Proc.devRef .tc main_v17) = _
  after_results_simp
  rfl

theorem v18_eq : (V1 m c main_v18 : S1x128.Idx → EReal)
    = shapeCast S1x128 (m ((c.tc : Thread nD τ).loc main_arg8)) shapeCasts_S128_S1x128 := by
  show StableHlo.after hostOps0 (fun b => m (c, b)) (Proc.devRef .tc main_v18) = _
  after_results_simp
  rfl

theorem v19_eq : (V1 m c main_v19 : S1x256.Idx → EReal)
    = shapeCast S1x256 (m ((c.tc : Thread nD τ).loc main_arg10)) shapeCasts_S256_S1x256 := by
  show StableHlo.after hostOps0 (fun b => m (c, b)) (Proc.devRef .tc main_v19) = _
  after_results_simp
  rfl

theorem v20_eq : (V1 m c main_v20 : S1x256.Idx → EReal)
    = shapeCast S1x256 (m ((c.tc : Thread nD τ).loc main_arg11)) shapeCasts_S256_S1x256 := by
  show StableHlo.after hostOps0 (fun b => m (c, b)) (Proc.devRef .tc main_v20) = _
  after_results_simp
  rfl

theorem v21_eq : (V1 m c main_v21 : S1x128.Idx → EReal)
    = shapeCast S1x128 (m ((c.tc : Thread nD τ).loc main_arg13)) shapeCasts_S128_S1x128 := by
  show StableHlo.after hostOps0 (fun b => m (c, b)) (Proc.devRef .tc main_v21) = _
  after_results_simp
  rfl

theorem v22_eq : (V1 m c main_v22 : S1x128.Idx → EReal)
    = shapeCast S1x128 (m ((c.tc : Thread nD τ).loc main_arg14)) shapeCasts_S128_S1x128 := by
  show StableHlo.after hostOps0 (fun b => m (c, b)) (Proc.devRef .tc main_v22) = _
  after_results_simp
  rfl

end ReadHost

open ReadHost

/-! ## The arguments no host operation writes -/

theorem host_arg0 : V1 m c main_arg0 = m ((c.tc : Thread nD τ).loc main_arg0) := by
  show StableHlo.after hostOps0 (fun b => m (c, b)) (Proc.devRef .tc main_arg0) = _
  after_results_simp
theorem host_arg1 : V1 m c main_arg1 = m ((c.tc : Thread nD τ).loc main_arg1) := by
  show StableHlo.after hostOps0 (fun b => m (c, b)) (Proc.devRef .tc main_arg1) = _
  after_results_simp
theorem host_arg2 : V1 m c main_arg2 = m ((c.tc : Thread nD τ).loc main_arg2) := by
  show StableHlo.after hostOps0 (fun b => m (c, b)) (Proc.devRef .tc main_arg2) = _
  after_results_simp
theorem host_arg9 : V1 m c main_arg9 = m ((c.tc : Thread nD τ).loc main_arg9) := by
  show StableHlo.after hostOps0 (fun b => m (c, b)) (Proc.devRef .tc main_arg9) = _
  after_results_simp

/-! ## The padded weights and batch-norm rows -/

theorem host_w2 : matOf (V1 m c main_v2) = padCols (matOf (m ((c.tc : Thread nD τ).loc main_arg3))) := by
  funext p q
  show (V1 m c main_v2 : S128x128.Idx → EReal) (ix2 p q)
    = (if h : q.val < 64 then (m ((c.tc : Thread nD τ).loc main_arg3) : S128x64.Idx → EReal) (ix2 p ⟨q.val, h⟩) else 0 : EReal)
  rw [v2_eq, padColsAt, zeros2_apply]
theorem host_g2 : row1Of (V1 m c main_v6) = padRow (rowOf (m ((c.tc : Thread nD τ).loc main_arg4))) 1 := by
  funext q
  show (V1 m c main_v6 : S1x128.Idx → EReal) (ix2 (0 : Fin 1) q)
    = (if h : q.val < 64 then (m ((c.tc : Thread nD τ).loc main_arg4) : S64.Idx → EReal) (ix1 ⟨q.val, h⟩) else 1 : EReal)
  rw [v6_eq, padRowAt, ones1_apply]
  by_cases h : q.val < 64
  · rw [dif_pos h, dif_pos h, bcastRow_apply]
  · rw [dif_neg h, dif_neg h]
theorem host_b2 : row1Of (V1 m c main_v10) = padRow (rowOf (m ((c.tc : Thread nD τ).loc main_arg5))) 0 := by
  funext q
  show (V1 m c main_v10 : S1x128.Idx → EReal) (ix2 (0 : Fin 1) q)
    = (if h : q.val < 64 then (m ((c.tc : Thread nD τ).loc main_arg5) : S64.Idx → EReal) (ix1 ⟨q.val, h⟩) else 0 : EReal)
  rw [v10_eq, padRowAt, zeros1_apply]
  by_cases h : q.val < 64
  · rw [dif_pos h, dif_pos h, bcastRow_apply]
  · rw [dif_neg h, dif_neg h]
theorem host_wf1 : matOf (V1 m c main_v13) = padRows (matOf (m ((c.tc : Thread nD τ).loc main_arg6))) := by
  funext p q
  show (V1 m c main_v13 : S128x128.Idx → EReal) (ix2 p q)
    = (if h : p.val < 64 then (m ((c.tc : Thread nD τ).loc main_arg6) : S64x128.Idx → EReal) (ix2 ⟨p.val, h⟩ q) else 0 : EReal)
  rw [v13_eq, padRowsAt, zeros2_apply]
theorem host_ws1 : matOf (V1 m c main_v16) = padRows (matOf (m ((c.tc : Thread nD τ).loc main_arg12))) := by
  funext p q
  show (V1 m c main_v16 : S128x128.Idx → EReal) (ix2 p q)
    = (if h : p.val < 64 then (m ((c.tc : Thread nD τ).loc main_arg12) : S64x128.Idx → EReal) (ix2 ⟨p.val, h⟩ q) else 0 : EReal)
  rw [v16_eq, padRowsAt, zeros2_apply]

/-! ## The batch-norm rows reshaped to one-row matrices -/

theorem host_gf1 : row1Of (V1 m c main_v17) = rowOf (m ((c.tc : Thread nD τ).loc main_arg7)) := by
  funext q
  exact (congrFun (v17_eq m c) (ix2 (0 : Fin 1) q)).trans (shapeCast_a_1a_apply _ _ 0 q)
theorem host_bf1 : row1Of (V1 m c main_v18) = rowOf (m ((c.tc : Thread nD τ).loc main_arg8)) := by
  funext q
  exact (congrFun (v18_eq m c) (ix2 (0 : Fin 1) q)).trans (shapeCast_a_1a_apply _ _ 0 q)
theorem host_gf2 : row1Of (V1 m c main_v19) = rowOf (m ((c.tc : Thread nD τ).loc main_arg10)) := by
  funext q
  exact (congrFun (v19_eq m c) (ix2 (0 : Fin 1) q)).trans (shapeCast_a_1a_apply _ _ 0 q)
theorem host_bf2 : row1Of (V1 m c main_v20) = rowOf (m ((c.tc : Thread nD τ).loc main_arg11)) := by
  funext q
  exact (congrFun (v20_eq m c) (ix2 (0 : Fin 1) q)).trans (shapeCast_a_1a_apply _ _ 0 q)
theorem host_gs1 : row1Of (V1 m c main_v21) = rowOf (m ((c.tc : Thread nD τ).loc main_arg13)) := by
  funext q
  exact (congrFun (v21_eq m c) (ix2 (0 : Fin 1) q)).trans (shapeCast_a_1a_apply _ _ 0 q)
theorem host_bs1 : row1Of (V1 m c main_v22) = rowOf (m ((c.tc : Thread nD τ).loc main_arg14)) := by
  funext q
  exact (congrFun (v22_eq m c) (ix2 (0 : Fin 1) q)).trans (shapeCast_a_1a_apply _ _ 0 q)

end Cert.KernelIdeal.Read

end
-- ==== Proof.ReadAll.lean ====
/-
  The idealized kernel's two results as matrices: the folded, zero-padded network of the launch arguments.  Stage by
  stage the closed forms read as graph convolutions and folded batch normalisations (the running sums are the column
  sums), the second region's inputs are what the first region left, and the host operations' arrays are the padded
  weights and the reshaped rows.
-/
import proofs.«181189_g481036337843_cont_8to1c4_37_6_alg».proof.Proof.ReadStage01
import proofs.«181189_g481036337843_cont_8to1c4_37_6_alg».proof.Proof.ReadStage2
import proofs.«181189_g481036337843_cont_8to1c4_37_6_alg».proof.Proof.ReadStage3
import proofs.«181189_g481036337843_cont_8to1c4_37_6_alg».proof.Proof.ReadDecode
import proofs.«181189_g481036337843_cont_8to1c4_37_6_alg».proof.Proof.ReadHost
import proofs.«181189_g481036337843_cont_8to1c4_37_6_alg».proof.Proof.KernelRun

set_option maxRecDepth 16384

noncomputable section

namespace Cert.KernelIdeal.Read

open Idealize.ShloMosaic Idealize.ShloMosaic.TcCoe Idealize.ShloMosaic.ValueIdx Cert.KernelIdeal Cert.GcnMath
open Idealize.SL.Sem

variable (m : (ℓ : Loc nD τ sig) → Buf (Elt Ideal) ℓ) (c : Dev nD)

/-- The first region's arrays. -/
abbrev A0 : Stack.Arrays Ideal := Stack.arrays (Run.V1 m) c
/-- The second region's arrays. -/
abbrev B0 : Decode.Arrays Ideal := Decode.arrays (Run.V2 m) c

/-! ## The regions' arrays: the launch arguments, the host's padded and reshaped arrays, the first region's results -/

section Fields

variable (V : (c : Dev nD) → (b : Ref sig .tc) → Buf (Elt Ideal) ((c : Thread nD τ).loc b))

theorem arr_adj : (Stack.arrays V c).adj = V c main_arg1 := rfl
theorem arr_x : (Stack.arrays V c).x = V c main_arg0 := rfl
theorem arr_w1 : (Stack.arrays V c).w1 = V c main_arg2 := rfl
theorem arr_w2 : (Stack.arrays V c).w2 = V c main_v2 := rfl
theorem arr_g2 : (Stack.arrays V c).g2 = V c main_v6 := rfl
theorem arr_b2 : (Stack.arrays V c).b2 = V c main_v10 := rfl
theorem arr_wf1 : (Stack.arrays V c).wf1 = V c main_v13 := rfl
theorem arr_gf1 : (Stack.arrays V c).gf1 = V c main_v17 := rfl
theorem arr_bf1 : (Stack.arrays V c).bf1 = V c main_v18 := rfl
theorem arr_wf2 : (Stack.arrays V c).wf2 = V c main_arg9 := rfl
theorem arr_ws1 : (Stack.arrays V c).ws1 = V c main_v16 := rfl
theorem brr_u3s : (Decode.arrays V c).u3s = V c main_v23_1 := rfl
theorem brr_s1stats : (Decode.arrays V c).s1stats = V c main_v23_2 := rfl
theorem brr_gs1 : (Decode.arrays V c).gs1 = V c main_v21 := rfl
theorem brr_bs1 : (Decode.arrays V c).bs1 = V c main_v22 := rfl
theorem brr_u4 : (Decode.arrays V c).u4 = V c main_v23_0 := rfl
theorem brr_u4stats : (Decode.arrays V c).u4stats = V c main_v23_3 := rfl
theorem brr_gf2 : (Decode.arrays V c).gf2 = V c main_v19 := rfl
theorem brr_bf2 : (Decode.arrays V c).bf2 = V c main_v20 := rfl

end Fields

theorem A_adj : (A0 m c).adj = (m ((c.tc : Thread nD τ).loc main_arg1)) := (arr_adj c (Run.V1 m)).trans (host_arg1 m c)
theorem A_x : (A0 m c).x = (m ((c.tc : Thread nD τ).loc main_arg0)) := (arr_x c (Run.V1 m)).trans (host_arg0 m c)
theorem A_w1 : (A0 m c).w1 = (m ((c.tc : Thread nD τ).loc main_arg2)) := (arr_w1 c (Run.V1 m)).trans (host_arg2 m c)
theorem A_w2 : matOf (A0 m c).w2 = padCols (matOf (m ((c.tc : Thread nD τ).loc main_arg3))) := (congrArg matOf (arr_w2 c (Run.V1 m))).trans (host_w2 m c)
theorem A_g2 : row1Of (A0 m c).g2 = padRow (rowOf (m ((c.tc : Thread nD τ).loc main_arg4))) 1 := (congrArg row1Of (arr_g2 c (Run.V1 m))).trans (host_g2 m c)
theorem A_b2 : row1Of (A0 m c).b2 = padRow (rowOf (m ((c.tc : Thread nD τ).loc main_arg5))) 0 := (congrArg row1Of (arr_b2 c (Run.V1 m))).trans (host_b2 m c)
theorem A_wf1 : matOf (A0 m c).wf1 = padRows (matOf (m ((c.tc : Thread nD τ).loc main_arg6))) := (congrArg matOf (arr_wf1 c (Run.V1 m))).trans (host_wf1 m c)
theorem A_gf1 : row1Of (A0 m c).gf1 = rowOf (m ((c.tc : Thread nD τ).loc main_arg7)) := (congrArg row1Of (arr_gf1 c (Run.V1 m))).trans (host_gf1 m c)
theorem A_bf1 : row1Of (A0 m c).bf1 = rowOf (m ((c.tc : Thread nD τ).loc main_arg8)) := (congrArg row1Of (arr_bf1 c (Run.V1 m))).trans (host_bf1 m c)
theorem A_wf2 : (A0 m c).wf2 = (m ((c.tc : Thread nD τ).loc main_arg9)) := (arr_wf2 c (Run.V1 m)).trans (host_arg9 m c)
theorem A_ws1 : matOf (A0 m c).ws1 = padRows (matOf (m ((c.tc : Thread nD τ).loc main_arg12))) := (congrArg matOf (arr_ws1 c (Run.V1 m))).trans (host_ws1 m c)

theorem B_u3s : (B0 m c).u3s = Stack.U3S (A0 m c) := (brr_u3s c (Run.V2 m)).trans (Run.V2_v23_1 m c)
theorem B_s1stats : (B0 m c).s1stats = Stack.S1STATS (A0 m c) := (brr_s1stats c (Run.V2 m)).trans (Run.V2_v23_2 m c)
theorem B_u4 : (B0 m c).u4 = Stack.U4 (A0 m c) := (brr_u4 c (Run.V2 m)).trans (Run.V2_v23_0 m c)
theorem B_u4stats : (B0 m c).u4stats = Stack.U4STATS (A0 m c) := (brr_u4stats c (Run.V2 m)).trans (Run.V2_v23_3 m c)
theorem B_gs1 : row1Of (B0 m c).gs1 = rowOf (m ((c.tc : Thread nD τ).loc main_arg13)) :=
  (congrArg row1Of ((brr_gs1 c (Run.V2 m)).trans (Run.V2_v21 m c))).trans (host_gs1 m c)
theorem B_bs1 : row1Of (B0 m c).bs1 = rowOf (m ((c.tc : Thread nD τ).loc main_arg14)) :=
  (congrArg row1Of ((brr_bs1 c (Run.V2 m)).trans (Run.V2_v22 m c))).trans (host_bs1 m c)
theorem B_gf2 : row1Of (B0 m c).gf2 = rowOf (m ((c.tc : Thread nD τ).loc main_arg10)) :=
  (congrArg row1Of ((brr_gf2 c (Run.V2 m)).trans (Run.V2_v19 m c))).trans (host_gf2 m c)
theorem B_bf2 : row1Of (B0 m c).bf2 = rowOf (m ((c.tc : Thread nD τ).loc main_arg11)) :=
  (congrArg row1Of ((brr_bf2 c (Run.V2 m)).trans (Run.V2_v20 m c))).trans (host_bf2 m c)

/-! ## The stack's activations as the folded network's -/

theorem H1_eq : matOf (Stack.H1 (A0 m c)) = kerH1 (matOf (m ((c.tc : Thread nD τ).loc main_arg0))) (matOf (m ((c.tc : Thread nD τ).loc main_arg1))) (matOf (m ((c.tc : Thread nD τ).loc main_arg2))) := by
  rw [read_H1, A_adj, A_x, A_w1]; rfl

theorem U2_eq : matOf (Stack.U2 (A0 m c)) = kerU2 (matOf (m ((c.tc : Thread nD τ).loc main_arg0))) (matOf (m ((c.tc : Thread nD τ).loc main_arg1))) (matOf (m ((c.tc : Thread nD τ).loc main_arg2))) (matOf (m ((c.tc : Thread nD τ).loc main_arg3))) := by
  rw [read_U2, H1_eq, A_adj, A_w2]; rfl

theorem U3l_eq : matOf (Stack.lcol (Stack.U3 (A0 m c))) = kerU3f (matOf (m ((c.tc : Thread nD τ).loc main_arg0))) (matOf (m ((c.tc : Thread nD τ).loc main_arg1))) (matOf (m ((c.tc : Thread nD τ).loc main_arg2))) (matOf (m ((c.tc : Thread nD τ).loc main_arg3))) (rowOf (m ((c.tc : Thread nD τ).loc main_arg4))) (rowOf (m ((c.tc : Thread nD τ).loc main_arg5))) (matOf (m ((c.tc : Thread nD τ).loc main_arg6))) := by
  rw [read_U3l (A0 m c) (read_ADJ _) (read_acc1s _) (read_acc1q _), U2_eq, A_adj, A_g2, A_b2, A_wf1]; rfl

theorem U3r_eq : matOf (Stack.rcol (Stack.U3 (A0 m c))) = kerU3s (matOf (m ((c.tc : Thread nD τ).loc main_arg0))) (matOf (m ((c.tc : Thread nD τ).loc main_arg1))) (matOf (m ((c.tc : Thread nD τ).loc main_arg2))) (matOf (m ((c.tc : Thread nD τ).loc main_arg3))) (rowOf (m ((c.tc : Thread nD τ).loc main_arg4))) (rowOf (m ((c.tc : Thread nD τ).loc main_arg5))) (matOf (m ((c.tc : Thread nD τ).loc main_arg12))) := by
  rw [read_U3r (A0 m c) (read_ADJ _) (read_acc1s _) (read_acc1q _), U2_eq, A_adj, A_g2, A_b2, A_ws1]; rfl

theorem U4_eq : matOf (Stack.U4 (A0 m c)) = kerU4 (matOf (m ((c.tc : Thread nD τ).loc main_arg0))) (matOf (m ((c.tc : Thread nD τ).loc main_arg1))) (matOf (m ((c.tc : Thread nD τ).loc main_arg2))) (matOf (m ((c.tc : Thread nD τ).loc main_arg3))) (rowOf (m ((c.tc : Thread nD τ).loc main_arg4))) (rowOf (m ((c.tc : Thread nD τ).loc main_arg5))) (matOf (m ((c.tc : Thread nD τ).loc main_arg6))) (rowOf (m ((c.tc : Thread nD τ).loc main_arg7))) (rowOf (m ((c.tc : Thread nD τ).loc main_arg8))) (matOf (m ((c.tc : Thread nD τ).loc main_arg9))) := by
  rw [read_U4 (A0 m c) (read_ADJ _) (read_acc2s_l _) (read_acc2q_l _), U3l_eq, A_adj, A_gf1, A_bf1, A_wf2]; rfl

/-! ## The two results -/

/-- The feature decoder's output. -/
theorem F2_eq : matOf (Decode.F2 (B0 m c)) = kerF2 (matOf (m ((c.tc : Thread nD τ).loc main_arg0))) (matOf (m ((c.tc : Thread nD τ).loc main_arg1))) (matOf (m ((c.tc : Thread nD τ).loc main_arg2))) (matOf (m ((c.tc : Thread nD τ).loc main_arg3))) (rowOf (m ((c.tc : Thread nD τ).loc main_arg4))) (rowOf (m ((c.tc : Thread nD τ).loc main_arg5))) (matOf (m ((c.tc : Thread nD τ).loc main_arg6))) (rowOf (m ((c.tc : Thread nD τ).loc main_arg7))) (rowOf (m ((c.tc : Thread nD τ).loc main_arg8))) (matOf (m ((c.tc : Thread nD τ).loc main_arg9))) (rowOf (m ((c.tc : Thread nD τ).loc main_arg10))) (rowOf (m ((c.tc : Thread nD τ).loc main_arg11))) := by
  rw [read_F2, B_u4, B_u4stats, B_gf2, B_bf2, read_U4STATS0, read_U4STATS1, read_acc3s, read_acc3q, U4_eq]
  rfl

/-- The normalised structure branch. -/
theorem S1N_eq : matOf (Decode.S1N (B0 m c)) = kerS1 (matOf (m ((c.tc : Thread nD τ).loc main_arg0))) (matOf (m ((c.tc : Thread nD τ).loc main_arg1))) (matOf (m ((c.tc : Thread nD τ).loc main_arg2))) (matOf (m ((c.tc : Thread nD τ).loc main_arg3))) (rowOf (m ((c.tc : Thread nD τ).loc main_arg4))) (rowOf (m ((c.tc : Thread nD τ).loc main_arg5))) (matOf (m ((c.tc : Thread nD τ).loc main_arg12))) (rowOf (m ((c.tc : Thread nD τ).loc main_arg13))) (rowOf (m ((c.tc : Thread nD τ).loc main_arg14))) := by
  rw [read_S1N, B_u3s, B_s1stats, B_gs1, B_bs1, read_S1STATS0, read_S1STATS1, read_acc2s_r, read_acc2q_r, read_U3S, U3r_eq]
  rfl

/-- The structure decoder's output. -/
theorem S2_eq : matOf (Decode.S2 (B0 m c)) = kerS2 (matOf (m ((c.tc : Thread nD τ).loc main_arg0))) (matOf (m ((c.tc : Thread nD τ).loc main_arg1))) (matOf (m ((c.tc : Thread nD τ).loc main_arg2))) (matOf (m ((c.tc : Thread nD τ).loc main_arg3))) (rowOf (m ((c.tc : Thread nD τ).loc main_arg4))) (rowOf (m ((c.tc : Thread nD τ).loc main_arg5))) (matOf (m ((c.tc : Thread nD τ).loc main_arg12))) (rowOf (m ((c.tc : Thread nD τ).loc main_arg13))) (rowOf (m ((c.tc : Thread nD τ).loc main_arg14))) := by
  rw [read_S2, S1N_eq]
  rfl

end Cert.KernelIdeal.Read

end
-- ==== Proof.GcnBridgeConsts.lean ====
/-
  The three single-precision literals of the batch normalisations, as the real numbers their bit patterns denote:
  the row count `4096 = 2¹²`, its reciprocal `2⁻¹²`, and the variance guard, a positive real.
-/
import proofs.«181189_g481036337843_cont_8to1c4_37_6_alg».proof.Proof.GcnMath

noncomputable section

namespace Cert.GcnMath

open Idealize.ShloMosaic

/-- Sign `0`, exponent field `139`, fraction `0`: the real `2¹² = 4096`. -/
theorem nRows_eq : nRows = ((4096 : ℝ) : EReal) := by
  simp [nRows, Ideal.ofBits, Ideal.ieee, -EReal.coe_mul]; norm_num

/-- Sign `0`, exponent field `115`, fraction `0`: the real `2⁻¹² = 1/4096`. -/
theorem invRows_eq : invRows = (((1 / 4096 : ℝ)) : EReal) := by
  simp [invRows, Ideal.ofBits, Ideal.ieee, -EReal.coe_mul]; norm_num

/-- The variance guard as a real number. -/
def epsR : ℝ := EReal.toReal eps

/-- Sign `0`, exponent field `110`: a normal number, hence a positive real. -/
theorem eps_eq : eps = ((epsR : ℝ) : EReal) := by
  unfold epsR
  simp [eps, Ideal.ofBits, Ideal.ieee, -EReal.coe_mul]

theorem epsR_pos : 0 < epsR := by
  unfold epsR
  simp [eps, Ideal.ofBits, Ideal.ieee, -EReal.coe_mul]

end Cert.GcnMath

end
-- ==== Proof.RefRead.lean ====
/-
  The reference program's two results, read as matrices over the extended reals.

  Every float is an extended real and every operation is exact, so each named stage of the reference program is the
  plain-matrix function of the same name: a matrix product read at an entry is the sum over the contracted coordinate,
  a column reduction is the sum over the rows, a broadcast reads its operand at the coordinates it keeps.  The variance's
  guard compares the row count 4096 with zero, so its first branch is taken at every column and the not-a-number word
  is never read.  Composing the stage readings layer by layer gives the two results as the matrices of the network
  written over plain matrices.
-/
import proofs.«181189_g481036337843_cont_8to1c4_37_6_alg».proof.Proof.RefOps
import proofs.«181189_g481036337843_cont_8to1c4_37_6_alg».proof.Proof.GcnMath
import proofs.«181189_g481036337843_cont_8to1c4_37_6_alg».proof.Proof.GcnBridgeConsts
import Idealize.ShloMosaic.PureOps.Ideal.Laws
import Idealize.ShloMosaic.Lib.ValueIdx
import Idealize.ShloMosaic.Lib.IdealHost
import Idealize.ShloMosaic.Lib.KernelVsHost
import Idealize.ShloMosaic.Lib.ValueLayout

noncomputable section

namespace Cert.ReferenceIdeal.RefRead

open Idealize.ShloMosaic Idealize.ShloMosaic.ValueIdx Cert.ReferenceIdeal Cert.ReferenceIdeal.RefOps
open Cert.ReferenceIdeal.Facts₀ Cert.ReferenceIdeal.Facts
open Cert.GcnMath (Mat Row matOf rowOf mm gcn colSum meanR varR bnR nRows eps)

/-! ## A matrix product read at an entry -/

/-- The dimension numbers of a plain matrix product (rows by contraction times contraction by columns), whatever the
    evidence of their conditions. -/
abbrev mmD (n k m : ℕ) (wf : DotDims.WF ⟨2, ![n, k]⟩ ⟨2, ![k, m]⟩ ⟨2, ![n, m]⟩ [1] [0] [0] [1] [] []) :
    DotDims ⟨2, ![n, k]⟩ ⟨2, ![k, m]⟩ ⟨2, ![n, m]⟩ where
  lhsContracting := [1]
  rhsContracting := [0]
  lhsNonContracting := [0]
  rhsNonContracting := [1]
  lhsBatch := []
  rhsBatch := []
  wf := wf

section MatMul
variable {n k m : ℕ} (wf : DotDims.WF ⟨2, ![n, k]⟩ ⟨2, ![k, m]⟩ ⟨2, ![n, m]⟩ [1] [0] [0] [1] [] [])

/-- The left operand's row is the result's row. -/
theorem lhs_mm_0 (i : (⟨2, ![n, m]⟩ : Shape).Idx) (q : (mmD n k m wf).contr.Idx) :
    ((mmD n k m wf).lhsIdx i q 0).val = (i 0).val := by
  unfold DotDims.lhsIdx
  rw [dif_neg (show ¬(0 : Fin (⟨2, ![n, k]⟩ : Shape).rank) ∈ (mmD n k m wf).lhsBatch from List.not_mem_nil),
    dif_pos (show (0 : Fin (⟨2, ![n, k]⟩ : Shape).rank) ∈ (mmD n k m wf).lhsNonContracting from List.mem_singleton.mpr rfl)]
  rfl

/-- The left operand's column is the contracted coordinate. -/
theorem lhs_mm_1 (i : (⟨2, ![n, m]⟩ : Shape).Idx) (q : (mmD n k m wf).contr.Idx) :
    ((mmD n k m wf).lhsIdx i q 1).val = (q ⟨0, Nat.one_pos⟩).val :=
  (mmD n k m wf).lhsIdx_val_of_single rfl i q

/-- The right operand's row is the contracted coordinate. -/
theorem rhs_mm_0 (i : (⟨2, ![n, m]⟩ : Shape).Idx) (q : (mmD n k m wf).contr.Idx) :
    ((mmD n k m wf).rhsIdx i q 0).val = (q ⟨0, Nat.one_pos⟩).val :=
  (mmD n k m wf).rhsIdx_val_of_single rfl i q

/-- The right operand's column is the result's column. -/
theorem rhs_mm_1 (i : (⟨2, ![n, m]⟩ : Shape).Idx) (q : (mmD n k m wf).contr.Idx) :
    ((mmD n k m wf).rhsIdx i q 1).val = (i 1).val := by
  unfold DotDims.rhsIdx
  rw [dif_neg (show ¬(1 : Fin (⟨2, ![k, m]⟩ : Shape).rank) ∈ (mmD n k m wf).rhsBatch from List.not_mem_nil),
    dif_pos (show (1 : Fin (⟨2, ![k, m]⟩ : Shape).rank) ∈ (mmD n k m wf).rhsNonContracting from List.mem_singleton.mpr rfl)]
  rfl

/-- The host's matrix product at entry (i, j) is the sum over the contracted coordinate of the operands' products. -/
theorem mm_apply (x : FVec Ideal ⟨2, ![n, k]⟩ .f32) (w : FVec Ideal ⟨2, ![k, m]⟩ .f32) (i : Fin n) (j : Fin m) :
    Host.dotGeneral (F := Ideal) (mmD n k m wf) none x w (ix2 i j) = ∑ l : Fin k, x (ix2 i l) * w (ix2 l j) := by
  simp only [Host.dotGeneral]
  rw [Ideal.dotGeneral_apply, ← Equiv.sum_comp (contrEquiv1 (mmD n k m wf) k rfl rfl).symm]
  refine Finset.sum_congr rfl fun l _ => ?_
  have hl := contrEquiv1_symm_val (mmD n k m wf) k rfl rfl l
  have el : (mmD n k m wf).lhsIdx (ix2 i j) ((contrEquiv1 (mmD n k m wf) k rfl rfl).symm l) = ix2 i l :=
    funext fun a => Fin.ext (by
      match a with
      | ⟨0, _⟩ => exact lhs_mm_0 wf _ _
      | ⟨1, _⟩ => exact (lhs_mm_1 wf _ _).trans hl)
  have er : (mmD n k m wf).rhsIdx (ix2 i j) ((contrEquiv1 (mmD n k m wf) k rfl rfl).symm l) = ix2 l j :=
    funext fun a => Fin.ext (by
      match a with
      | ⟨0, _⟩ => exact (rhs_mm_0 wf _ _).trans hl
      | ⟨1, _⟩ => exact rhs_mm_1 wf _ _)
  rw [el, er]

end MatMul

/-! ## The rectifier and a graph-convolution layer -/

/-- The rectifier at an index: the maximum with zero. -/
theorem reluS_apply {s : Shape} (hb : S_.BroadcastsInDim s (![] : Fin 0 → Fin s.rank)) (x : FVec Ideal s .f32)
    (i : s.Idx) : reluS hb x i = max (x i) 0 := by
  unfold reluS
  rw [maximumf_apply, broadcastInDim_scalar_apply, constant_apply, Ideal.ofBits_zero_f32]

/-- One graph-convolution layer, as a matrix. -/
theorem gcnS_read {k m : ℕ} (wf1 : DotDims.WF ⟨2, ![4096, k]⟩ ⟨2, ![k, m]⟩ ⟨2, ![4096, m]⟩ [1] [0] [0] [1] [] [])
    (wf2 : DotDims.WF ⟨2, ![4096, 4096]⟩ ⟨2, ![4096, m]⟩ ⟨2, ![4096, m]⟩ [1] [0] [0] [1] [] [])
    (hb : S_.BroadcastsInDim ⟨2, ![4096, m]⟩ (![] : Fin 0 → Fin 2))
    (adj : FVec Ideal S4096x4096 .f32) (x : FVec Ideal ⟨2, ![4096, k]⟩ .f32) (w : FVec Ideal ⟨2, ![k, m]⟩ .f32) :
    matOf (gcnS (F := Ideal) (mmD 4096 k m wf1) (mmD 4096 4096 m wf2) hb adj x w)
      = gcn (matOf adj) (matOf x) (matOf w) := by
  funext i j
  show gcnS (F := Ideal) (mmD 4096 k m wf1) (mmD 4096 4096 m wf2) hb adj x w (ix2 i j) = _
  unfold gcnS
  rw [reluS_apply, mm_apply]
  show max (∑ l : Fin 4096, adj (ix2 i l) * _) 0 = max (∑ l : Fin 4096, adj (ix2 i l) * ∑ l' : Fin k, x (ix2 l l') * w (ix2 l' j)) 0
  refine congrArg (max · 0) (Finset.sum_congr rfl fun l _ => ?_)
  rw [mm_apply]

/-! ## Batch normalisation -/

/-- A column reduction is of one axis into at least one axis. -/
theorem reduces_of {c : ℕ} (h : ColFacts c) : (Mx c).Reduces [0] (Rw c) := by
  obtain ⟨h1, h2⟩ := h.red
  exact ⟨h1, Nat.one_pos, h2⟩

section Norm
variable (c : ℕ) (h : ColFacts c)

/-- A vector as a single row, read at the row's one index. -/
theorem row1_apply (v : FVec Ideal (Rw c) .f32) (j : Fin c) :
    broadcastInDim (R1 c) ![1] h.bRow1 v (ix2 (0 : Fin 1) j) = v (ix1 j) := by
  refine broadcastInDim_apply ![1] h.bRow1 v (ix2 (0 : Fin 1) j) (ix1 j) fun a => ?_
  match a with
  | ⟨0, _⟩ =>
    show j.val = if c = 1 then 0 else j.val
    split_ifs with hc
    · have := j.isLt; omega
    · rfl

/-- A vector as a matrix of equal rows: every row reads the vector. -/
theorem upS_apply (v : FVec Ideal (Rw c) .f32) (i : Fin 4096) (j : Fin c) : upS c h v (ix2 i j) = v (ix1 j) := by
  unfold upS
  rw [broadcastInDim_oneRow_apply, row1_apply c h]

/-- The column sum from zero is the sum over the rows. -/
theorem colSumS_apply (x : FVec Ideal (Mx c) .f32) (j : Fin c) :
    Host.reduceAdd x (constant (F := Ideal) S_ .f32 0x00000000#32) h.red h.hS (ix1 j) = ∑ i : Fin 4096, x (ix2 i j) := by
  rw [hostReduceAdd_apply, Ideal.hostReduceAdd_single h.red (reduces_of h), constant_apply, Ideal.ofBits_zero_f32, zero_add]
  refine Finset.sum_congr rfl fun i _ => ?_
  exact congrArg x (funext fun a => Fin.ext (by match a with | ⟨0, _⟩ => rfl | ⟨1, _⟩ => rfl))

/-- The column mean. -/
theorem meanS_apply (x : FVec Ideal (Mx c) .f32) (j : Fin c) : meanS c h x (ix1 j) = meanR (matOf x) j := by
  unfold meanS
  rw [hostDivf_apply, colSumS_apply c h, broadcastInDim_scalar_apply, constant_apply]
  rfl

/-- The variance function's difference from the mean. -/
theorem varDiffS_apply (x : FVec Ideal (Mx c) .f32) (i : Fin 4096) (j : Fin c) :
    varDiffS c h x (ix2 i j) = x (ix2 i j) - meanR (matOf x) j := by
  unfold varDiffS
  rw [subf_apply, broadcastInDim_oneRow_apply, hostDivf_apply, row1_apply c h, colSumS_apply c h, broadcastInDim_scalar_apply,
    constant_apply]
  rfl

/-- The integer zero made a float is zero, and subtracting zero changes nothing: the count is the row count. -/
theorem varCountS_apply (i : S_.Idx) : varCountS (F := Ideal) i = nRows := by
  unfold varCountS
  rw [subf_apply, constant_apply, sitofp_apply]
  show Ideal.ofBits .f32 0x45800000#32 - (((constantI S_ 32 0#32 i).toInt : ℝ) : EReal) = nRows
  have hz : (constantI S_ 32 0#32 i).toInt = 0 := rfl
  rw [hz, Int.cast_zero, EReal.coe_zero, sub_zero]
  rfl

/-- The row count is above zero, so the guard's bit is set. -/
theorem count_pos : FloatOps.cmpf (F := Ideal) (φ := .f32) .ogt nRows (Ideal.ofBits .f32 0x00000000#32) = 1#1 := by
  rw [Ideal.cmpf_def, Ideal.ofBits_zero_f32, GcnMath.nRows_eq]
  have hp : (0 : EReal) < ((4096 : ℝ) : EReal) := EReal.coe_pos.mpr (by norm_num)
  show BitVec.ofBool (decide ((0 : EReal) < ((4096 : ℝ) : EReal))) = 1#1
  rw [decide_eq_true hp]
  rfl

/-- The variance: the guard holds at every column, so it is the quotient. -/
theorem varS_apply (x : FVec Ideal (Mx c) .f32) (j : Fin c) : varS c h x (ix1 j) = varR (matOf x) j := by
  unfold varS
  rw [select_apply, broadcastInDim_scalar_apply, cmpf_apply, varCountS_apply, constant_apply, count_pos, select_one]
  unfold varQuotS
  rw [hostDivf_apply, colSumS_apply c h, broadcastInDim_scalar_apply, varCountS_apply]
  show Ideal.div _ nRows = Ideal.div (∑ i : Fin 4096, (matOf x i j - meanR (matOf x) j) * (matOf x i j - meanR (matOf x) j)) nRows
  refine congrArg (Ideal.div · nRows) (Finset.sum_congr rfl fun i _ => ?_)
  rw [mulf_apply, varDiffS_apply]
  rfl

/-- The standard deviation. -/
theorem stdS_apply (x : FVec Ideal (Mx c) .f32) (j : Fin c) :
    stdS c h x (ix1 j) = Ideal.sqrt (varR (matOf x) j + eps) := by
  unfold stdS
  show FloatOps.hostUnary .sqrt (addf (varS c h x) _ (ix1 j)) = _
  rw [Ideal.hostUnary_sqrt_def, addf_apply, varS_apply, broadcastInDim_scalar_apply, constant_apply]
  rfl

/-- Batch normalisation, as a matrix. -/
theorem bnS_read (x : FVec Ideal (Mx c) .f32) (g b : FVec Ideal (Rw c) .f32) :
    matOf (bnS c h x g b) = bnR (matOf x) (rowOf g) (rowOf b) := by
  funext i j
  show bnS c h x g b (ix2 i j) = _
  unfold bnS
  rw [addf_apply, hostDivf_apply, mulf_apply, subf_apply, upS_apply, upS_apply, upS_apply, upS_apply, meanS_apply,
    stdS_apply]
  rfl

end Norm

/-! ## The network, layer by layer -/

section Net
variable [Facts]
variable (a0 : FVec Ideal S4096x256 .f32) (a1 : FVec Ideal S4096x4096 .f32) (a2 : FVec Ideal S256x128 .f32)
  (a3 : FVec Ideal S128x64 .f32) (a4 a5 : FVec Ideal S64 .f32) (a6 : FVec Ideal S64x128 .f32) (a7 a8 : FVec Ideal S128 .f32)
  (a9 : FVec Ideal S128x256 .f32) (a10 a11 : FVec Ideal S256 .f32) (a12 : FVec Ideal S64x128 .f32)
  (a13 a14 : FVec Ideal S128 .f32)

/-- The first encoder layer. -/
theorem h1F_read : matOf (h1F (F := Ideal) a0 a1 a2) = GcnMath.refH1 (matOf a0) (matOf a1) (matOf a2) :=
  gcnS_read dot_S4096x256_S256x128_S4096x128_1_0_0_1_n_n_wf dot_S4096x4096_S4096x128_S4096x128_1_0_0_1_n_n_wf
    bcast_S_S4096x128 a1 a0 a2

/-- The second encoder layer before normalisation. -/
theorem u2F_read : matOf (u2F (F := Ideal) a0 a1 a2 a3)
    = gcn (matOf a1) (GcnMath.refH1 (matOf a0) (matOf a1) (matOf a2)) (matOf a3) := by
  rw [← h1F_read]
  exact gcnS_read dot_S4096x128_S128x64_S4096x64_1_0_0_1_n_n_wf dot_S4096x4096_S4096x64_S4096x64_1_0_0_1_n_n_wf
    bcast_S_S4096x64 a1 (h1F a0 a1 a2) a3

/-- The encoder's output. -/
theorem zF_read : matOf (zF (F := Ideal) a0 a1 a2 a3 a4 a5)
    = GcnMath.refZ (matOf a0) (matOf a1) (matOf a2) (matOf a3) (rowOf a4) (rowOf a5) := by
  show matOf (bnS 64 cf64 (u2F (F := Ideal) a0 a1 a2 a3) a4 a5)
    = bnR (gcn (matOf a1) (GcnMath.refH1 (matOf a0) (matOf a1) (matOf a2)) (matOf a3)) (rowOf a4) (rowOf a5)
  rw [bnS_read, u2F_read]

/-- A decoder's first layer before normalisation, for either decoder's weights. -/
theorem u3F_read (w : FVec Ideal S64x128 .f32) :
    matOf (gcnS (F := Ideal) dot_S4096x64_S64x128_S4096x128_1_0_0_1_n_n dot_S4096x4096_S4096x128_S4096x128_1_0_0_1_n_n
        bcast_S_S4096x128 a1 (zF a0 a1 a2 a3 a4 a5) w)
      = gcn (matOf a1) (GcnMath.refZ (matOf a0) (matOf a1) (matOf a2) (matOf a3) (rowOf a4) (rowOf a5)) (matOf w) := by
  rw [← zF_read]
  exact gcnS_read dot_S4096x64_S64x128_S4096x128_1_0_0_1_n_n_wf dot_S4096x4096_S4096x128_S4096x128_1_0_0_1_n_n_wf
    bcast_S_S4096x128 a1 (zF a0 a1 a2 a3 a4 a5) w

/-- The feature decoder's first layer. -/
theorem f1F_read : matOf (f1F (F := Ideal) a0 a1 a2 a3 a4 a5 a6 a7 a8)
    = GcnMath.refF1 (matOf a0) (matOf a1) (matOf a2) (matOf a3) (rowOf a4) (rowOf a5) (matOf a6) (rowOf a7) (rowOf a8) := by
  show matOf (bnS 128 cf128 (u3fF (F := Ideal) a0 a1 a2 a3 a4 a5 a6) a7 a8)
    = bnR (gcn (matOf a1) (GcnMath.refZ (matOf a0) (matOf a1) (matOf a2) (matOf a3) (rowOf a4) (rowOf a5)) (matOf a6))
        (rowOf a7) (rowOf a8)
  rw [bnS_read]
  exact congrArg (bnR · (rowOf a7) (rowOf a8)) (u3F_read a0 a1 a2 a3 a4 a5 a6)

/-- The structure decoder's layer. -/
theorem s1F_read : matOf (s1F (F := Ideal) a0 a1 a2 a3 a4 a5 a12 a13 a14)
    = GcnMath.refS1 (matOf a0) (matOf a1) (matOf a2) (matOf a3) (rowOf a4) (rowOf a5) (matOf a12) (rowOf a13)
        (rowOf a14) := by
  show matOf (bnS 128 cf128 (u3sF (F := Ideal) a0 a1 a2 a3 a4 a5 a12) a13 a14)
    = bnR (gcn (matOf a1) (GcnMath.refZ (matOf a0) (matOf a1) (matOf a2) (matOf a3) (rowOf a4) (rowOf a5)) (matOf a12))
        (rowOf a13) (rowOf a14)
  rw [bnS_read]
  exact congrArg (bnR · (rowOf a13) (rowOf a14)) (u3F_read a0 a1 a2 a3 a4 a5 a12)

/-- The first result: the feature decoder's output. -/
theorem resF2_read : matOf (resF2 (F := Ideal) a0 a1 a2 a3 a4 a5 a6 a7 a8 a9 a10 a11)
    = GcnMath.refF2 (matOf a0) (matOf a1) (matOf a2) (matOf a3) (rowOf a4) (rowOf a5) (matOf a6) (rowOf a7) (rowOf a8)
        (matOf a9) (rowOf a10) (rowOf a11) := by
  show matOf (bnS 256 cf256 (u4F (F := Ideal) a0 a1 a2 a3 a4 a5 a6 a7 a8 a9) a10 a11)
    = bnR (gcn (matOf a1)
        (GcnMath.refF1 (matOf a0) (matOf a1) (matOf a2) (matOf a3) (rowOf a4) (rowOf a5) (matOf a6) (rowOf a7) (rowOf a8))
        (matOf a9)) (rowOf a10) (rowOf a11)
  rw [bnS_read, ← f1F_read]
  exact congrArg (bnR · (rowOf a10) (rowOf a11))
    (gcnS_read dot_S4096x128_S128x256_S4096x256_1_0_0_1_n_n_wf dot_S4096x4096_S4096x256_S4096x256_1_0_0_1_n_n_wf
      bcast_S_S4096x256 a1 (f1F a0 a1 a2 a3 a4 a5 a6 a7 a8) a9)

/-- The second result: the structure decoder's layer times its own transpose. -/
theorem resS2_read : matOf (resS2 (F := Ideal) a0 a1 a2 a3 a4 a5 a12 a13 a14)
    = GcnMath.refS2 (matOf a0) (matOf a1) (matOf a2) (matOf a3) (rowOf a4) (rowOf a5) (matOf a12) (rowOf a13)
        (rowOf a14) := by
  funext i j
  show Host.dotGeneral (F := Ideal) (mmD 4096 128 4096 dot_S4096x128_S128x4096_S4096x4096_1_0_0_1_n_n_wf) none
      (s1F a0 a1 a2 a3 a4 a5 a12 a13 a14)
      (transpose S128x4096 [1, 0] (s1F a0 a1 a2 a3 a4 a5 a12 a13 a14) transposes_S4096x128_S128x4096_1_0) (ix2 i j)
    = ∑ l : Fin 128,
        GcnMath.refS1 (matOf a0) (matOf a1) (matOf a2) (matOf a3) (rowOf a4) (rowOf a5) (matOf a12) (rowOf a13) (rowOf a14) i l
          * GcnMath.refS1 (matOf a0) (matOf a1) (matOf a2) (matOf a3) (rowOf a4) (rowOf a5) (matOf a12) (rowOf a13)
              (rowOf a14) j l
  rw [mm_apply, ← s1F_read]
  refine Finset.sum_congr rfl fun l _ => ?_
  rw [transpose_ix2_apply]
  rfl

end Net

end Cert.ReferenceIdeal.RefRead

end
-- ==== Proof.GcnBridgeReal.lean ====
/-
  Reality is carried through the network, and the two batch normalisations agree on real matrices.

  Every operation of the network maps coerced reals to coerced reals, so each intermediate is the coercion of a
  real matrix (`cm`).  For a real column with sum `s`, sum of squares `q`, `n = 4096` and `μ = s/n`:
  `Σ (h - μ)²/n = q/n - μ²`; this variance is a mean of squares, hence non-negative, and the guard is positive, so the
  square root's argument is a positive real, `rsqrt y = (√y)⁻¹`, `x / √y = x · (√y)⁻¹`, and the folded affine map
  `h·a + (b - μ·a)` with `a = g·(√y)⁻¹` is `g·(h - μ)·(√y)⁻¹ + b`.
-/
import proofs.«181189_g481036337843_cont_8to1c4_37_6_alg».proof.Proof.GcnBridgeConsts

noncomputable section

namespace Cert.GcnMath

open Idealize.ShloMosaic Finset

/-- The coercion of the reals commutes with finite sums. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The coercion of the reals commutes with `max · 0`. -/
theorem relu_coe (r : ℝ) : relu (r : EReal) = ((max r 0 : ℝ) : EReal) := by
  unfold relu
  rw [← EReal.coe_zero, ← EReal.coe_strictMono.monotone.map_max]

/-- A matrix, and a row, of coerced reals. -/
def cm {n m : ℕ} (A : Fin n → Fin m → ℝ) : Mat n m := fun i j => (A i j : EReal)
def cr {m : ℕ} (v : Fin m → ℝ) : Row m := fun j => (v j : EReal)

theorem matReal_cm {n m : ℕ} (A : Fin n → Fin m → ℝ) : MatReal (cm A) := fun i j => ⟨A i j, rfl⟩

theorem exists_cm {n m : ℕ} {A : Mat n m} (h : MatReal A) : ∃ A' : Fin n → Fin m → ℝ, A = cm A' := by
  choose A' hA' using h
  exact ⟨A', funext fun i => funext fun j => hA' i j⟩

theorem exists_cr {m : ℕ} {v : Row m} (h : RowReal v) : ∃ v' : Fin m → ℝ, v = cr v' := by
  choose v' hv' using h
  exact ⟨v', funext fun j => hv' j⟩

/-! ## Products and layers of real matrices -/

def mmR {n k m : ℕ} (A : Fin n → Fin k → ℝ) (B : Fin k → Fin m → ℝ) : Fin n → Fin m → ℝ :=
  fun i j => ∑ l, A i l * B l j

theorem mm_cm {n k m : ℕ} (A : Fin n → Fin k → ℝ) (B : Fin k → Fin m → ℝ) : mm (cm A) (cm B) = cm (mmR A B) := by
  funext i j
  simp only [mm, cm, mmR, coe_sum, EReal.coe_mul]

def gcnR {k m : ℕ} (adj : Fin 4096 → Fin 4096 → ℝ) (h : Fin 4096 → Fin k → ℝ) (W : Fin k → Fin m → ℝ) :
    Fin 4096 → Fin m → ℝ := fun i j => max (mmR adj (mmR h W) i j) 0

theorem gcn_cm {k m : ℕ} (adj : Fin 4096 → Fin 4096 → ℝ) (h : Fin 4096 → Fin k → ℝ) (W : Fin k → Fin m → ℝ) :
    gcn (cm adj) (cm h) (cm W) = cm (gcnR adj h W) := by
  funext i j
  unfold gcn
  rw [mm_cm, mm_cm]
  exact relu_coe _

/-- A layer of real matrices is a real matrix. -/
theorem matReal_gcn {k m : ℕ} {adj : Mat 4096 4096} {h : Mat 4096 k} {W : Mat k m} (hadj : MatReal adj) (hh : MatReal h)
    (hW : MatReal W) : MatReal (gcn adj h W) := by
  obtain ⟨adj', rfl⟩ := exists_cm hadj
  obtain ⟨h', rfl⟩ := exists_cm hh
  obtain ⟨W', rfl⟩ := exists_cm hW
  rw [gcn_cm]
  exact matReal_cm _

/-! ## The two batch normalisations on a real matrix -/

section Bn

variable {m : ℕ} (u : Fin 4096 → Fin m → ℝ) (g b : Fin m → ℝ)

/-- Column mean and biased column variance of a real matrix. -/
def muR (j : Fin m) : ℝ := (∑ i, u i j) * (1 / 4096)
def vaR (j : Fin m) : ℝ := (∑ i, (u i j - muR u j) * (u i j - muR u j)) * (1 / 4096)

theorem meanR_cm (j : Fin m) : meanR (cm u) j = (muR u j : EReal) := by
  simp only [meanR, colSum, cm, nRows_eq]
  rw [Ideal.div_coe (by norm_num), ← coe_sum, ← EReal.coe_mul]
  rfl

theorem varR_cm (j : Fin m) : varR (cm u) j = (vaR u j : EReal) := by
  simp only [varR, meanR_cm, nRows_eq]
  simp only [cm, ← EReal.coe_sub, ← EReal.coe_mul, ← coe_sum]
  rw [Ideal.div_coe (by norm_num), ← EReal.coe_mul]
  rfl

/-- The variance is a mean of squares. -/
theorem vaR_nonneg (j : Fin m) : 0 ≤ vaR u j :=
  mul_nonneg (Finset.sum_nonneg fun i _ => mul_self_nonneg _) (by norm_num)

/-- `Σ (h - μ)²/n = q/n - μ²` with `μ = s/n`, `n = 4096`. -/
theorem vaR_eq (j : Fin m) :
    vaR u j = (∑ i, u i j * u i j) * (1 / 4096) - (∑ i, u i j) * (1 / 4096) * ((∑ i, u i j) * (1 / 4096)) := by
  unfold vaR muR
  obtain ⟨s, hs⟩ : ∃ s : ℝ, s = ∑ i, u i j := ⟨_, rfl⟩
  rw [← hs]
  have e : ∑ i, (u i j - s * (1 / 4096)) * (u i j - s * (1 / 4096))
      = (∑ i, u i j * u i j) - 2 * (s * (1 / 4096)) * s + 4096 * (s * (1 / 4096) * (s * (1 / 4096))) := by
    have e1 : ∀ i, (u i j - s * (1 / 4096)) * (u i j - s * (1 / 4096))
        = u i j * u i j - 2 * (s * (1 / 4096)) * u i j + s * (1 / 4096) * (s * (1 / 4096)) := fun i => by ring
    simp only [e1]
    rw [Finset.sum_add_distrib, Finset.sum_sub_distrib, ← Finset.mul_sum, ← hs, Finset.sum_const, Finset.card_univ,
      Fintype.card_fin, nsmul_eq_mul]
    norm_num
  rw [e]
  ring

theorem guard_pos (j : Fin m) : 0 < vaR u j + epsR := add_pos_of_nonneg_of_pos (vaR_nonneg u j) epsR_pos

/-- The reference's normalisation of a real matrix, as a real matrix. -/
def bnRR : Fin 4096 → Fin m → ℝ :=
  fun i j => g j * (u i j - muR u j) * (Real.sqrt (vaR u j + epsR))⁻¹ + b j

theorem bnR_cm : bnR (cm u) (cr g) (cr b) = cm (bnRR u g b) := by
  funext i j
  have hpos := guard_pos u j
  have hs : Real.sqrt (vaR u j + epsR) ≠ 0 := (Real.sqrt_pos.2 hpos).ne'
  simp only [bnR, meanR_cm, varR_cm, eps_eq]
  rw [← EReal.coe_add, Ideal.sqrt_coe, if_neg (not_lt.2 hpos.le), Ideal.div_coe hs]
  simp only [cm, cr, bnRR, ← EReal.coe_sub, ← EReal.coe_mul, ← EReal.coe_add, one_div]

/-- The folded normalisation of a real matrix, as a real matrix. -/
def bnKR : Fin 4096 → Fin m → ℝ :=
  fun i j => u i j * (g j * (Real.sqrt (vaR u j + epsR))⁻¹)
    + (b j - muR u j * (g j * (Real.sqrt (vaR u j + epsR))⁻¹))

theorem bnK_cm : bnK (cm u) (cr g) (cr b) = cm (bnKR u g b) := by
  funext i j
  have hpos := guard_pos u j
  have hcs : colSum (cm u) j = ((∑ i, u i j : ℝ) : EReal) := by simp only [colSum, cm, coe_sum]
  have hcq : colSq (cm u) j = ((∑ i, u i j * u i j : ℝ) : EReal) := by simp only [colSq, cm, coe_sum, EReal.coe_mul]
  have hA : affA (colSum (cm u)) (colSq (cm u)) (cr g) j
      = ((g j * (Real.sqrt (vaR u j + epsR))⁻¹ : ℝ) : EReal) := by
    simp only [affA, hcs, hcq, invRows_eq, eps_eq, cr]
    simp only [← EReal.coe_mul, ← EReal.coe_sub, ← EReal.coe_add]
    rw [← vaR_eq, Ideal.rsqrt_coe, if_neg (not_lt.2 hpos.le), if_neg hpos.ne', ← EReal.coe_mul]
  simp only [bnK, affC, hA, hcs, invRows_eq]
  simp only [cm, cr, bnKR, muR, ← EReal.coe_mul, ← EReal.coe_sub, ← EReal.coe_add]

theorem bnKR_eq_bnRR : bnKR u g b = bnRR u g b := by
  funext i j
  simp only [bnKR, bnRR]
  ring

end Bn

/-- On real matrices the folded normalisation is the reference's. -/
theorem bnK_eq_bnR {m : ℕ} {u : Mat 4096 m} {g b : Row m} (hu : MatReal u) (hg : RowReal g) (hb : RowReal b) :
    bnK u g b = bnR u g b := by
  obtain ⟨u', rfl⟩ := exists_cm hu
  obtain ⟨g', rfl⟩ := exists_cr hg
  obtain ⟨b', rfl⟩ := exists_cr hb
  rw [bnK_cm, bnR_cm, bnKR_eq_bnRR]

/-- The normalisation of a real matrix with real scale and shift is a real matrix. -/
theorem matReal_bnR {m : ℕ} {u : Mat 4096 m} {g b : Row m} (hu : MatReal u) (hg : RowReal g) (hb : RowReal b) :
    MatReal (bnR u g b) := by
  obtain ⟨u', rfl⟩ := exists_cm hu
  obtain ⟨g', rfl⟩ := exists_cr hg
  obtain ⟨b', rfl⟩ := exists_cr hb
  rw [bnR_cm]
  exact matReal_cm _

end Cert.GcnMath

end
-- ==== Proof.GcnBridgePad.lean ====
/-
  Zero padding of the 64-wide layer to 128 columns.  A padded weight column produces a zero activation column; a
  folded normalisation acts column by column; and a padding column of the activations meets a zero row of the next
  weight matrix, so the padded product is the unpadded one.
-/
import proofs.«181189_g481036337843_cont_8to1c4_37_6_alg».proof.Proof.GcnMath

noncomputable section

namespace Cert.GcnMath

open Idealize.ShloMosaic Finset

/-- A sum over 128 indices whose terms vanish from index 64 on is the sum over the first 64 indices. -/
theorem sum_fin128_eq_sum_fin64 (f : Fin 128 → EReal) (hf : ∀ l : Fin 128, 64 ≤ l.val → f l = 0) :
    ∑ l, f l = ∑ l : Fin 64, f ⟨l.val, by omega⟩ := by
  have h := Fin.sum_univ_add (a := 64) (b := 64) (fun l : Fin (64 + 64) => f l)
  refine h.trans ?_
  have h2 : ∑ l : Fin 64, f (Fin.natAdd 64 l) = 0 :=
    Finset.sum_eq_zero fun l _ => hf _ (by simp [Fin.natAdd])
  rw [h2, add_zero]
  exact Finset.sum_congr rfl fun l _ => congrArg f (Fin.ext rfl)

variable {k : ℕ} (adj : Mat 4096 4096)

/-- The first 64 columns of a layer with a column-padded weight matrix are the unpadded layer's columns. -/
theorem gcn_padCols_lo (h : Mat 4096 k) (W : Mat k 64) (i : Fin 4096) (j : Fin 128) (hj : j.val < 64) :
    gcn adj h (padCols W) i j = gcn adj h W i ⟨j.val, hj⟩ := by
  simp only [gcn, mm, padCols, dif_pos hj]

/-- Its other columns are `relu 0 = 0`: every product in them has a zero factor. -/
theorem gcn_padCols_hi (h : Mat 4096 k) (W : Mat k 64) (i : Fin 4096) (j : Fin 128) (hj : ¬ j.val < 64) :
    gcn adj h (padCols W) i j = 0 := by
  simp only [gcn, mm, padCols, dif_neg hj, mul_zero, Finset.sum_const_zero, relu, max_self]

/-- The folded normalisation's column `j` depends only on column `j` of the matrix and entry `j` of scale and shift. -/
theorem bnK_col {m m' : ℕ} (u : Mat 4096 m) (u' : Mat 4096 m') (g b : Row m) (g' b' : Row m') (j : Fin m) (j' : Fin m')
    (hu : ∀ i, u i j = u' i j') (hg : g j = g' j') (hb : b j = b' j') (i : Fin 4096) :
    bnK u g b i j = bnK u' g' b' i j' := by
  simp only [bnK, affA, affC, colSum, colSq, hu, hg, hb]

/-- A 128-column matrix whose first 64 columns are those of `Z'`, times a weight matrix padded with 64 zero rows:
    the terms from index 64 on vanish, the others are the unpadded product's. -/
theorem mm_padRows {n m : ℕ} (Z : Mat n 128) (Z' : Mat n 64) (W : Mat 64 m)
    (hZ : ∀ i (l : Fin 128) (hl : l.val < 64), Z i l = Z' i ⟨l.val, hl⟩) : mm Z (padRows W) = mm Z' W := by
  funext i j
  unfold mm
  rw [sum_fin128_eq_sum_fin64 _ (fun l hl => by simp only [padRows, dif_neg (not_lt.2 hl), mul_zero])]
  refine Finset.sum_congr rfl fun l _ => ?_
  rw [hZ i ⟨l.val, by omega⟩ l.isLt]
  simp only [padRows, dif_pos l.isLt]

/-- Hence the next layer does not see the padding. -/
theorem gcn_padRows {m : ℕ} (Z : Mat 4096 128) (Z' : Mat 4096 64) (W : Mat 64 m)
    (hZ : ∀ i (l : Fin 128) (hl : l.val < 64), Z i l = Z' i ⟨l.val, hl⟩) : gcn adj Z (padRows W) = gcn adj Z' W := by
  unfold gcn
  rw [mm_padRows Z Z' W hZ]

end Cert.GcnMath

end
-- ==== Proof.GcnBridge.lean ====
/-
  The folded, zero-padded network computes what the reference's network computes, on real inputs.

  Per batch normalisation: with `μ = s/n`, `Σ (h - μ)²/n = q/n - μ²`, the sum `σ² + ε` is positive, and
  `x / √y = x · rsqrt y` for positive `y`, so `h·a + c = g·(h - μ)/√(σ² + ε) + b`.  Per padded layer: a padding column
  of the activations meets a zero row of the next weight matrix.
-/
import proofs.«181189_g481036337843_cont_8to1c4_37_6_alg».proof.Proof.GcnBridgeReal
import proofs.«181189_g481036337843_cont_8to1c4_37_6_alg».proof.Proof.GcnBridgePad

noncomputable section

namespace Cert.GcnMath

open Idealize.ShloMosaic Finset

variable (x : Mat 4096 256) (adj : Mat 4096 4096) (W1 : Mat 256 128) (W2 : Mat 128 64) (g2 b2 : Row 64)
  (Wf1 : Mat 64 128) (gf1 bf1 : Row 128) (Wf2 : Mat 128 256) (gf2 bf2 : Row 256) (Ws1 : Mat 64 128) (gs1 bs1 : Row 128)

/-! ## The encoder: every intermediate is real, and the padded 64-wide layer agrees on its first 64 columns -/

theorem matReal_refH1 (hx : MatReal x) (hadj : MatReal adj) (hW1 : MatReal W1) : MatReal (refH1 x adj W1) :=
  matReal_gcn hadj hx hW1

theorem matReal_refZ (hx : MatReal x) (hadj : MatReal adj) (hW1 : MatReal W1) (hW2 : MatReal W2)
    (hg2 : RowReal g2) (hb2 : RowReal b2) : MatReal (refZ x adj W1 W2 g2 b2) :=
  matReal_bnR (matReal_gcn hadj (matReal_refH1 x adj W1 hx hadj hW1) hW2) hg2 hb2

/-- The first layer is the same term on both sides; column `l < 64` of the padded second layer is column `l` of the
    unpadded one, and the folded normalisation of that column is the reference's normalisation of it. -/
theorem kerZ_lo (hx : MatReal x) (hadj : MatReal adj) (hW1 : MatReal W1) (hW2 : MatReal W2)
    (hg2 : RowReal g2) (hb2 : RowReal b2) (i : Fin 4096) (l : Fin 128) (hl : l.val < 64) :
    kerZ x adj W1 W2 g2 b2 i l = refZ x adj W1 W2 g2 b2 i ⟨l.val, hl⟩ :=
  calc kerZ x adj W1 W2 g2 b2 i l
      = bnK (gcn adj (refH1 x adj W1) W2) g2 b2 i ⟨l.val, hl⟩ :=
        bnK_col (kerU2 x adj W1 W2) (gcn adj (refH1 x adj W1) W2) (padRow g2 1) (padRow b2 0) g2 b2 l ⟨l.val, hl⟩
          (fun i' => gcn_padCols_lo adj (refH1 x adj W1) W2 i' l hl)
          (by simp only [padRow, dif_pos hl]) (by simp only [padRow, dif_pos hl]) i
    _ = refZ x adj W1 W2 g2 b2 i ⟨l.val, hl⟩ := by
        rw [bnK_eq_bnR (matReal_gcn hadj (matReal_refH1 x adj W1 hx hadj hW1) hW2) hg2 hb2]
        rfl

/-- A layer on the padded code with a row-padded weight matrix is the layer on the reference's code. -/
theorem gcn_kerZ_padRows {m : ℕ} (W : Mat 64 m) (hx : MatReal x) (hadj : MatReal adj) (hW1 : MatReal W1)
    (hW2 : MatReal W2) (hg2 : RowReal g2) (hb2 : RowReal b2) :
    gcn adj (kerZ x adj W1 W2 g2 b2) (padRows W) = gcn adj (refZ x adj W1 W2 g2 b2) W :=
  gcn_padRows adj _ _ W (kerZ_lo x adj W1 W2 g2 b2 hx hadj hW1 hW2 hg2 hb2)

/-! ## The feature decoder -/

theorem kerF1_eq_refF1 (hx : MatReal x) (hadj : MatReal adj) (hW1 : MatReal W1) (hW2 : MatReal W2)
    (hg2 : RowReal g2) (hb2 : RowReal b2) (hWf1 : MatReal Wf1) (hgf1 : RowReal gf1) (hbf1 : RowReal bf1) :
    kerF1 x adj W1 W2 g2 b2 Wf1 gf1 bf1 = refF1 x adj W1 W2 g2 b2 Wf1 gf1 bf1 := by
  unfold kerF1 refF1 kerU3f
  rw [gcn_kerZ_padRows x adj W1 W2 g2 b2 Wf1 hx hadj hW1 hW2 hg2 hb2]
  exact bnK_eq_bnR (matReal_gcn hadj (matReal_refZ x adj W1 W2 g2 b2 hx hadj hW1 hW2 hg2 hb2) hWf1) hgf1 hbf1

theorem matReal_refF1 (hx : MatReal x) (hadj : MatReal adj) (hW1 : MatReal W1) (hW2 : MatReal W2)
    (hg2 : RowReal g2) (hb2 : RowReal b2) (hWf1 : MatReal Wf1) (hgf1 : RowReal gf1) (hbf1 : RowReal bf1) :
    MatReal (refF1 x adj W1 W2 g2 b2 Wf1 gf1 bf1) :=
  matReal_bnR (matReal_gcn hadj (matReal_refZ x adj W1 W2 g2 b2 hx hadj hW1 hW2 hg2 hb2) hWf1) hgf1 hbf1

/-- The feature decoder's output. -/
theorem kerF2_eq_refF2 (hx : MatReal x) (hadj : MatReal adj) (hW1 : MatReal W1) (hW2 : MatReal W2)
    (hg2 : RowReal g2) (hb2 : RowReal b2) (hWf1 : MatReal Wf1) (hgf1 : RowReal gf1) (hbf1 : RowReal bf1)
    (hWf2 : MatReal Wf2) (hgf2 : RowReal gf2) (hbf2 : RowReal bf2) :
    kerF2 x adj W1 W2 g2 b2 Wf1 gf1 bf1 Wf2 gf2 bf2 = refF2 x adj W1 W2 g2 b2 Wf1 gf1 bf1 Wf2 gf2 bf2 := by
  unfold kerF2 refF2 kerU4
  rw [kerF1_eq_refF1 x adj W1 W2 g2 b2 Wf1 gf1 bf1 hx hadj hW1 hW2 hg2 hb2 hWf1 hgf1 hbf1]
  exact bnK_eq_bnR
    (matReal_gcn hadj (matReal_refF1 x adj W1 W2 g2 b2 Wf1 gf1 bf1 hx hadj hW1 hW2 hg2 hb2 hWf1 hgf1 hbf1) hWf2) hgf2 hbf2

/-! ## The structure decoder -/

theorem kerS1_eq_refS1 (hx : MatReal x) (hadj : MatReal adj) (hW1 : MatReal W1) (hW2 : MatReal W2)
    (hg2 : RowReal g2) (hb2 : RowReal b2) (hWs1 : MatReal Ws1) (hgs1 : RowReal gs1) (hbs1 : RowReal bs1) :
    kerS1 x adj W1 W2 g2 b2 Ws1 gs1 bs1 = refS1 x adj W1 W2 g2 b2 Ws1 gs1 bs1 := by
  unfold kerS1 refS1 kerU3s
  rw [gcn_kerZ_padRows x adj W1 W2 g2 b2 Ws1 hx hadj hW1 hW2 hg2 hb2]
  exact bnK_eq_bnR (matReal_gcn hadj (matReal_refZ x adj W1 W2 g2 b2 hx hadj hW1 hW2 hg2 hb2) hWs1) hgs1 hbs1

/-- The structure decoder's output. -/
theorem kerS2_eq_refS2 (hx : MatReal x) (hadj : MatReal adj) (hW1 : MatReal W1) (hW2 : MatReal W2)
    (hg2 : RowReal g2) (hb2 : RowReal b2) (hWs1 : MatReal Ws1) (hgs1 : RowReal gs1) (hbs1 : RowReal bs1) :
    kerS2 x adj W1 W2 g2 b2 Ws1 gs1 bs1 = refS2 x adj W1 W2 g2 b2 Ws1 gs1 bs1 := by
  unfold kerS2 refS2
  rw [kerS1_eq_refS1 x adj W1 W2 g2 b2 Ws1 gs1 bs1 hx hadj hW1 hW2 hg2 hb2 hWs1 hgs1 hbs1]

end Cert.GcnMath

end
-- ==== Proof.FiniteInputs.lean ====
/-
  From the precondition to finiteness.  The precondition says, array by array, that every entry `x` of every
  argument satisfies `|x| < +∞`, and that the conjunction of these fifteen statements is true.  Over the extended
  reals `|x| = max x (-x)`, and `max x (-x) < ⊤` excludes both `⊤` and `⊥`; so every entry of every argument is
  a real number.
-/
import proofs.«181189_g481036337843_cont_8to1c4_37_6_alg».proof.Defs
import proofs.«181189_g481036337843_cont_8to1c4_37_6_alg».proof.Proof.Gen.Pre_finite_inputs
import proofs.«181189_g481036337843_cont_8to1c4_37_6_alg».proof.Proof.GcnMath
import Idealize.ShloMosaic.Lib.ReduceAll
import Idealize.ShloMosaic.Lib.ValueIdx

noncomputable section

namespace Cert.Proof.FiniteInputs

open Idealize.ShloMosaic Idealize.SL.Sem Cert.GcnMath

/-- The scalar shape has exactly one index. -/
instance : Subsingleton Cert.Pre_finite_inputs.S_.Idx := ⟨fun a b => funext fun d => d.elim0⟩

/-- The single-precision word `0x7F800000` denotes `+∞`. -/
theorem inf_word : Ideal.ofBits .f32 0x7F800000#32 = (⊤ : EReal) := by
  simp [Ideal.ofBits, Ideal.ieee]

/-- An extended real whose absolute value `max x (-x)` is below `⊤` is a real number: `⊥` has absolute value `⊤`, and so has `⊤`. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- For an array `v` of any shape: if the conjunction over all indices of `|v j| < +∞` is true, every entry of `v` is a
    real number. -/
theorem real_of_all {S : Shape} {axes : List (Fin S.rank)} (v : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (h : Host.reduce IntOp.andi
        (cmpf .olt (Host.absf v) (broadcastInDim S ![] hb (constant (F := Ideal) Cert.Pre_finite_inputs.S_ .f32 0x7F800000#32)))
        (constantI Cert.Pre_finite_inputs.S_ 1 1#1) hr hu ValueIdx.ix0 = 1#1) :
    ∀ j : S.Idx, ∃ r : ℝ, v j = (r : EReal) := by
  intro j
  have e := Host.reduce_andi_all _ _ hr hu ValueIdx.ix0 h j
  have e' : BitVec.ofBool (decide (max (v j) (-(v j)) < Ideal.ofBits .f32 0x7F800000#32)) = 1#1 := e
  rw [inf_word] at e'
  refine real_of_abs_lt_top _ ?_
  by_contra hn
  rw [decide_eq_false hn] at e'
  exact absurd e' (by decide)

/-- Under the precondition every entry of each of the fifteen argument arrays is a real number.  The precondition's
    value at the one scalar index is a fifteen-fold conjunction; each conjunct is the statement about one array. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    MatReal (matOf (m ((c.tc : Thread Cert.KernelIdeal.nD Cert.KernelIdeal.τ).loc Cert.KernelIdeal.main_arg0)))
    ∧ MatReal (matOf (m ((c.tc : Thread Cert.KernelIdeal.nD Cert.KernelIdeal.τ).loc Cert.KernelIdeal.main_arg1)))
    ∧ MatReal (matOf (m ((c.tc : Thread Cert.KernelIdeal.nD Cert.KernelIdeal.τ).loc Cert.KernelIdeal.main_arg2)))
    ∧ MatReal (matOf (m ((c.tc : Thread Cert.KernelIdeal.nD Cert.KernelIdeal.τ).loc Cert.KernelIdeal.main_arg3)))
    ∧ RowReal (rowOf (m ((c.tc : Thread Cert.KernelIdeal.nD Cert.KernelIdeal.τ).loc Cert.KernelIdeal.main_arg4)))
    ∧ RowReal (rowOf (m ((c.tc : Thread Cert.KernelIdeal.nD Cert.KernelIdeal.τ).loc Cert.KernelIdeal.main_arg5)))
    ∧ MatReal (matOf (m ((c.tc : Thread Cert.KernelIdeal.nD Cert.KernelIdeal.τ).loc Cert.KernelIdeal.main_arg6)))
    ∧ RowReal (rowOf (m ((c.tc : Thread Cert.KernelIdeal.nD Cert.KernelIdeal.τ).loc Cert.KernelIdeal.main_arg7)))
    ∧ RowReal (rowOf (m ((c.tc : Thread Cert.KernelIdeal.nD Cert.KernelIdeal.τ).loc Cert.KernelIdeal.main_arg8)))
    ∧ MatReal (matOf (m ((c.tc : Thread Cert.KernelIdeal.nD Cert.KernelIdeal.τ).loc Cert.KernelIdeal.main_arg9)))
    ∧ RowReal (rowOf (m ((c.tc : Thread Cert.KernelIdeal.nD Cert.KernelIdeal.τ).loc Cert.KernelIdeal.main_arg10)))
    ∧ RowReal (rowOf (m ((c.tc : Thread Cert.KernelIdeal.nD Cert.KernelIdeal.τ).loc Cert.KernelIdeal.main_arg11)))
    ∧ MatReal (matOf (m ((c.tc : Thread Cert.KernelIdeal.nD Cert.KernelIdeal.τ).loc Cert.KernelIdeal.main_arg12)))
    ∧ RowReal (rowOf (m ((c.tc : Thread Cert.KernelIdeal.nD Cert.KernelIdeal.τ).loc Cert.KernelIdeal.main_arg13)))
    ∧ RowReal (rowOf (m ((c.tc : Thread Cert.KernelIdeal.nD Cert.KernelIdeal.τ).loc Cert.KernelIdeal.main_arg14)))
    := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h0
  obtain ⟨h0, a14⟩ := IntOp.andi_eq_one.1 h0
  obtain ⟨h0, a13⟩ := IntOp.andi_eq_one.1 h0
  obtain ⟨h0, a12⟩ := IntOp.andi_eq_one.1 h0
  obtain ⟨h0, a11⟩ := IntOp.andi_eq_one.1 h0
  obtain ⟨h0, a10⟩ := IntOp.andi_eq_one.1 h0
  obtain ⟨h0, a9⟩ := IntOp.andi_eq_one.1 h0
  obtain ⟨h0, a8⟩ := IntOp.andi_eq_one.1 h0
  obtain ⟨h0, a7⟩ := IntOp.andi_eq_one.1 h0
  obtain ⟨h0, a6⟩ := IntOp.andi_eq_one.1 h0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨a0, a1⟩ := IntOp.andi_eq_one.1 h0
  exact ⟨fun i j => real_of_all _ _ _ _ a0 (ValueIdx.ix2 i j),
    fun i j => real_of_all _ _ _ _ a1 (ValueIdx.ix2 i j),
    fun i j => real_of_all _ _ _ _ a2 (ValueIdx.ix2 i j),
    fun i j => real_of_all _ _ _ _ a3 (ValueIdx.ix2 i j),
    fun j => real_of_all _ _ _ _ a4 (ValueIdx.ix1 j),
    fun j => real_of_all _ _ _ _ a5 (ValueIdx.ix1 j),
    fun i j => real_of_all _ _ _ _ a6 (ValueIdx.ix2 i j),
    fun j => real_of_all _ _ _ _ a7 (ValueIdx.ix1 j),
    fun j => real_of_all _ _ _ _ a8 (ValueIdx.ix1 j),
    fun i j => real_of_all _ _ _ _ a9 (ValueIdx.ix2 i j),
    fun j => real_of_all _ _ _ _ a10 (ValueIdx.ix1 j),
    fun j => real_of_all _ _ _ _ a11 (ValueIdx.ix1 j),
    fun i j => real_of_all _ _ _ _ a12 (ValueIdx.ix2 i j),
    fun j => real_of_all _ _ _ _ a13 (ValueIdx.ix1 j),
    fun j => real_of_all _ _ _ _ a14 (ValueIdx.ix1 j)⟩

end Cert.Proof.FiniteInputs

end
-- ==== Proof.Equal.lean ====
/-
  The idealized kernel's two results are the reference's two results of the same arguments, when every argument entry
  is a real number: both are read as matrices — the kernel's as the folded, zero-padded network, the reference's as the
  textbook network — and the two networks agree on real inputs.
-/
import proofs.«181189_g481036337843_cont_8to1c4_37_6_alg».proof.Defs
import proofs.«181189_g481036337843_cont_8to1c4_37_6_alg».proof.Proof.Gen.KernelIdeal
import proofs.«181189_g481036337843_cont_8to1c4_37_6_alg».proof.Proof.Gen.ReferenceIdeal
import proofs.«181189_g481036337843_cont_8to1c4_37_6_alg».proof.Proof.Gen.Pre_finite_inputs
import proofs.«181189_g481036337843_cont_8to1c4_37_6_alg».proof.Proof.ReadAll
import proofs.«181189_g481036337843_cont_8to1c4_37_6_alg».proof.Proof.RefRead
import proofs.«181189_g481036337843_cont_8to1c4_37_6_alg».proof.Proof.GcnBridge
import proofs.«181189_g481036337843_cont_8to1c4_37_6_alg».proof.Proof.FiniteInputs

noncomputable section

namespace Cert.Proof.Equal

open Idealize.ShloMosaic Idealize.ShloMosaic.TcCoe Idealize.SL.Sem Cert.GcnMath

variable (m : (ℓ : Loc Cert.KernelIdeal.nD Cert.KernelIdeal.τ Cert.KernelIdeal.sig) → Buf (Elt Ideal) ℓ)
  (c : Dev Cert.KernelIdeal.nD)

/-- The feature decoder's output. -/
theorem f2 (hpre : Cert.Pre_KernelIdeal m) : Cert.KernelIdeal.Decode.F2 (Cert.KernelIdeal.Decode.arrays (Cert.KernelIdeal.Run.V2 m) c)
    = Cert.ReferenceIdeal.RefOps.resF2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨r0, r1, r2, r3, r4, r5, r6, r7, r8, r9, r10, r11, r12, r13, r14⟩ := Cert.Proof.FiniteInputs.real_of_pre m hpre c
  refine matOf_inj ?_
  rw [Cert.KernelIdeal.Read.F2_eq, kerF2_eq_refF2 _ _ _ _ _ _ _ _ _ _ _ _ r0 r1 r2 r3 r4 r5 r6 r7 r8 r9 r10 r11,
    ← Cert.ReferenceIdeal.RefRead.resF2_read]

/-- The structure decoder's output. -/
theorem s2 (hpre : Cert.Pre_KernelIdeal m) : Cert.KernelIdeal.Decode.S2 (Cert.KernelIdeal.Decode.arrays (Cert.KernelIdeal.Run.V2 m) c)
    = Cert.ReferenceIdeal.RefOps.resS2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  obtain ⟨r0, r1, r2, r3, r4, r5, r6, r7, r8, r9, r10, r11, r12, r13, r14⟩ := Cert.Proof.FiniteInputs.real_of_pre m hpre c
  refine matOf_inj ?_
  rw [Cert.KernelIdeal.Read.S2_eq, kerS2_eq_refS2 _ _ _ _ _ _ _ _ _ r0 r1 r2 r3 r4 r5 r12 r13 r14,
    ← Cert.ReferenceIdeal.RefRead.resS2_read]

end Cert.Proof.Equal

end
-- ==== Proof.lean ====
/-
  The certificate.  The kernel is a four-layer graph-convolution network whose batch normalisations are folded into
  per-column affine maps computed from running column sums, with the 64-wide layer zero-padded to 128 columns; the
  reference is the textbook network.  Both kernel programs (word-level and idealized) run to the end with their
  arguments unchanged: the same proof, for any float instance, over the two kernel regions' runs.  The reference's run
  is its operations' composed term.  Over the extended reals the two results agree when every input is finite: the
  kernel's results read as the folded, padded network, the reference's as the textbook one, and on real inputs
  `Σ (h - μ)²/n = Σ h²/n - μ²`, `x/√y = x·rsqrt y` for positive `y`, and a padding column meets a zero row.
-/
import proofs.«181189_g481036337843_cont_8to1c4_37_6_alg».proof.Defs
import proofs.«181189_g481036337843_cont_8to1c4_37_6_alg».proof.Proof.Gen.Kernel
import proofs.«181189_g481036337843_cont_8to1c4_37_6_alg».proof.Proof.Gen.KernelIdeal
import proofs.«181189_g481036337843_cont_8to1c4_37_6_alg».proof.Proof.Gen.ReferenceIdeal
import proofs.«181189_g481036337843_cont_8to1c4_37_6_alg».proof.Proof.Gen.Pre_finite_inputs
import proofs.«181189_g481036337843_cont_8to1c4_37_6_alg».proof.Proof.WKernelRun
import proofs.«181189_g481036337843_cont_8to1c4_37_6_alg».proof.Proof.KernelRun
import proofs.«181189_g481036337843_cont_8to1c4_37_6_alg».proof.Proof.RefRun
import proofs.«181189_g481036337843_cont_8to1c4_37_6_alg».proof.Proof.Equal

noncomputable section

namespace Cert.Proof

open Idealize.ShloMosaic Idealize.SL.Sem

/-- The word-level kernel runs to the end and leaves its arguments unchanged. -/
theorem frame_kernel : Cert.frame_Kernel := fun m ρ _ =>
  (θ_run (Cert.Kernel.defs (F := Bits)) _ _).mono (fun _ h c => (h c).2.2) (Cert.Kernel.Run.run (F := Bits) m ρ)

/-- The idealized kernel runs to the end and leaves its arguments unchanged. -/
theorem frame_kernelIdeal : Cert.frame_KernelIdeal := fun m ρ _ =>
  (θ_run (Cert.KernelIdeal.defs (F := Ideal)) _ _).mono (fun _ h c => (h c).2.2) (Cert.KernelIdeal.Run.run (F := Ideal) m ρ)

/-- The reference runs to the end and leaves its arguments unchanged. -/
theorem frame_referenceIdeal : Cert.frame_ReferenceIdeal := fun m ρ _ =>
  (θ_run (Cert.ReferenceIdeal.defs (F := Ideal)) _ _).mono (fun _ h c => (h c).2.2)
    (Cert.ReferenceIdeal.RefRun.run (F := Ideal) m ρ)

/-- From memories agreeing on the arguments, finite, both idealized programs end with the same two results. -/
theorem algebraic : Cert.algebraic_KernelIdeal_ReferenceIdeal := by
  intro m ρ m' ρ' hpre hagree
  refine ⟨fun c => Cert.KernelIdeal.Decode.F2 (Cert.KernelIdeal.Decode.arrays (Cert.KernelIdeal.Run.V2 m) c),
    fun c => Cert.KernelIdeal.Decode.S2 (Cert.KernelIdeal.Decode.arrays (Cert.KernelIdeal.Run.V2 m) c),
    Cert.KernelIdeal.Run.run (F := Ideal) m ρ, ?_⟩
  refine (θ_run (Cert.ReferenceIdeal.defs (F := Ideal)) _ _).mono (fun _ h c => ?_)
    (Cert.ReferenceIdeal.RefRun.run (F := Ideal) m' ρ')
  obtain ⟨h0, h1, h2, h3, h4, h5, h6, h7, h8, h9, h10, h11, h12, h13, h14⟩ := hagree c
  refine ⟨(h c).1.trans ?_, (h c).2.1.trans ?_, (h c).2.2⟩
  · rw [h0, h1, h2, h3, h4, h5, h6, h7, h8, h9, h10, h11]
    exact (Cert.Proof.Equal.f2 m c hpre).symm
  · rw [h0, h1, h2, h3, h4, h5, h12, h13, h14]
    exact (Cert.Proof.Equal.s2 m c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
